-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x640000 : Shape := ⟨2, ![2, 640000]⟩
abbrev S640000 : Shape := ⟨1, ![640000]⟩
abbrev S640000x2 : Shape := ⟨2, ![640000, 2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x2 : S_.BroadcastsInDim S640000x2 (![] : Fin 0 → Fin S640000x2.rank)
  reducesTo_S640000x2_S_d0_1 : S640000x2.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg3 : FVec F S640000x2 .f32) (main_v13 : IVec S_ 1) (main_v15 : IVec S2x640000 1) (main_c_5 : IVec S_ 32) : IVec S_ 1 :=
  let main_v16 : IVec S2x640000 32 := broadcastInDim S2x640000 ![] bcast_S_S2x640000 main_c_5
  let main_v17 : IVec S2x640000 1 := cmpi .sle main_arg1 main_v16
  let main_v18 : IVec S2x640000 1 := andi main_v15 main_v17
  let main_c_6 : IVec S_ 1 := constantI S_ 1 1#1
  let main_v19 : IVec S_ 1 := (fun x v => Host.reduce IntOp.andi x v reducesTo_S2x640000_S_d0_1 h_S_) main_v18 main_c_6
  let main_v20 : IVec S_ 1 := andi main_v13 main_v19
  let main_cst_7 : FVec F S_ .f32 := constant S_ .f32 0x358637BD#32
  let main_v21 : FVec F S640000x2 .f32 := broadcastInDim S640000x2 ![] bcast_S_S640000x2 main_cst_7
  let main_v22 : FVec F S640000x2 .f32 := addf main_arg3 main_v21
  let main_cst_8 : FVec F S_ .f32 := constant S_ .f32 0x00000000#32
  let main_v23 : FVec F S640000x2 .f32 := broadcastInDim S640000x2 ![] bcast_S_S640000x2 main_cst_8
  let main_v24 : IVec S640000x2 1 := cmpf .une main_v22 main_v23
  let main_c_9 : IVec S_ 1 := constantI S_ 1 1#1
  let main_v25 : IVec S_ 1 := (fun x v => Host.reduce IntOp.andi x v reducesTo_S640000x2_S_d0_1 h_S_) main_v24 main_c_9
  let main_v26 : IVec S_ 1 := andi main_v20 main_v25
  main_v26

def fn {F : FTy → Type} [FloatOps F] (main_arg0 : FVec F S10000x128 .f32) (main_arg1 : IVec S2x640000 32) (main_arg2 : FVec F S640000 .f32) (main_arg3 : FVec F S640000x2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000x2 .f32 := Host.absf main_arg3
  let main_cst_2 : FVec F S_ .f32 := constant S_ .f32 0x7F800000#32
  let main_v10 : FVec F S640000x2 .f32 := broadcastInDim S640000x2 ![] bcast_S_S640000x2 main_cst_2
  let main_v11 : IVec S640000x2 1 := cmpf .olt main_v9 main_v10
  let main_c_3 : IVec S_ 1 := constantI S_ 1 1#1
  let main_v12 : IVec S_ 1 := (fun x v => Host.reduce IntOp.andi x v reducesTo_S640000x2_S_d0_1 h_S_) main_v11 main_c_3
  let main_v13 : IVec S_ 1 := andi main_v8 main_v12
  let main_c_4 : IVec S_ 32 := constantI S_ 32 0#32
  let main_v14 : IVec S2x640000 32 := broadcastInDim S2x640000 ![] bcast_S_S2x640000 main_c_4
  let main_v15 : IVec S2x640000 1 := cmpi .sge main_arg1 main_v14
  let main_c_5 : IVec S_ 32 := constantI S_ 32 9999#32
  fn_part1 (F := F) main_arg1 main_arg3 main_v13 main_v15 main_c_5
-- ==== Kernel.lean ====
abbrev S10000x128 : Shape := ⟨2, ![10000, 128]⟩
abbrev S2x640000 : Shape := ⟨2, ![2, 640000]⟩
abbrev S640000 : Shape := ⟨1, ![640000]⟩
abbrev S640000x2 : Shape := ⟨2, ![640000, 2]⟩
abbrev S1x640000 : Shape := ⟨2, ![1, 640000]⟩
abbrev S640000x1 : Shape := ⟨2, ![640000, 1]⟩
abbrev S10240 : Shape := ⟨1, ![10240]⟩
abbrev S4x128 : Shape := ⟨2, ![4, 128]⟩
abbrev S4x10000 : Shape := ⟨2, ![4, 10000]⟩
abbrev S1x10000 : Shape := ⟨2, ![1, 10000]⟩
abbrev S10000 : Shape := ⟨1, ![10000]⟩
abbrev S32x10240 : Shape := ⟨2, ![32, 10240]⟩
abbrev S8000 : Shape := ⟨1, ![8000]⟩
abbrev S_ : Shape := ⟨0, ![]⟩
abbrev S4000 : Shape := ⟨1, ![4000]⟩
abbrev S16 : Shape := ⟨1, ![16]⟩
abbrev S1x10240 : Shape := ⟨2, ![1, 10240]⟩
abbrev S1x1 : Shape := ⟨2, ![1, 1]⟩
abbrev S1 : Shape := ⟨1, ![1]⟩

abbrev nBuf : Table → Nat
  | .hbm => 19
  | .local .tc .vmem => 9
  | .local .tc .smem => 1
  | .local .scVector .vmem => 8
  | _ => 0

abbrev bufTy : (tb : Table) → Fin (nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S640000x2, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S640000x1, .f32⟩
  | .hbm, ⟨9, _⟩ => ⟨S640000, .f32⟩
  | .hbm, ⟨10, _⟩ => ⟨S640000x1, .f32⟩
  | .hbm, ⟨11, _⟩ => ⟨S640000, .f32⟩
  | .hbm, ⟨12, _⟩ => ⟨S10240, .f32⟩
  | .hbm, ⟨13, _⟩ => ⟨S10240, .f32⟩
  | .hbm, ⟨14, _⟩ => ⟨S10240, .f32⟩
  | .hbm, ⟨15, _⟩ => ⟨S32x10240, .f32⟩
  | .hbm, ⟨16, _⟩ => ⟨S32x10240, .f32⟩
  | .hbm, ⟨17, _⟩ => ⟨S1x1, .f32⟩
  | .hbm, ⟨18, _⟩ => ⟨S_, .f32⟩
  | .local .tc .vmem, ⟨0, _⟩ => ⟨S10000x128, .f32⟩
  | .local .tc .vmem, ⟨1, _⟩ => ⟨S10240, .f32⟩
  | .local .tc .vmem, ⟨2, _⟩ => ⟨S10240, .f32⟩
  | .local .tc .vmem, ⟨3, _⟩ => ⟨S10240, .f32⟩
  | .local .tc .vmem, ⟨4, _⟩ => ⟨S32x10240, .f32⟩
  | .local .tc .vmem, ⟨5, _⟩ => ⟨S32x10240, .f32⟩
  | .local .tc .vmem, ⟨6, _⟩ => ⟨S10240, .f32⟩
  | .local .tc .vmem, ⟨7, _⟩ => ⟨S10240, .f32⟩
  | .local .tc .vmem, ⟨8, _⟩ => ⟨S10240, .f32⟩
  | .local .tc .smem, ⟨0, _⟩ => ⟨S1x1, .f32⟩
  | .local .scVector .vmem, ⟨0, _⟩ => ⟨S10240, .f32⟩
  | .local .scVector .vmem, ⟨1, _⟩ => ⟨S10240, .f32⟩
  | .local .scVector .vmem, ⟨2, _⟩ => ⟨S10240, .f32⟩
  | .local .scVector .vmem, ⟨3, _⟩ => ⟨S8000, .i32⟩
  | .local .scVector .vmem, ⟨4, _⟩ => ⟨S8000, .i32⟩
  | .local .scVector .vmem, ⟨5, _⟩ => ⟨S8000, .f32⟩
  | .local .scVector .vmem, ⟨6, _⟩ => ⟨S8000, .f32⟩
  | .local .scVector .vmem, ⟨7, _⟩ => ⟨S8000, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_v8_0_scv : Ref sig .scVector := ⟨.hbm, 12, rfl⟩
abbrev main_v1_scv : Ref sig .scVector := ⟨.hbm, 5, rfl⟩
abbrev main_v3_scv : Ref sig .scVector := ⟨.hbm, 7, rfl⟩
abbrev main_arg2_scv : Ref sig .scVector := ⟨.hbm, 2, rfl⟩
abbrev main_v5_scv : Ref sig .scVector := ⟨.hbm, 9, rfl⟩
abbrev main_v7_scv : Ref sig .scVector := ⟨.hbm, 11, rfl⟩
abbrev main_v9_0_scv : Ref sig .scVector := ⟨.hbm, 15, rfl⟩
abbrev main_v9_1_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32 : BitVec 32 := 0#32
  let v3 : BitVec 32 := Scalar.addi v2 c0_i32
  ![v3.toNat]
@[reducible] def k1_t1_loop : Scf.Loop 32 :=
  let c0_i32_11 : BitVec 32 := 0#32
  let c640_i32 : BitVec 32 := 640#32
  let v25 : BitVec 32 := Scalar.addi c0_i32_11 c640_i32
  let c1_i32 : BitVec 32 := 1#32
  ⟨c0_i32_11, v25, c1_i32⟩
def k1_off2 (k1_t1 : Fin k1_t1_loop.trips) : Fin 1 → Nat :=
  let c0_i32_11 : BitVec 32 := 0#32
  let c1_i32 : BitVec 32 := 1#32
  let arg20 : BitVec 32 := Scf.iv c0_i32_11 c1_i32 k1_t1
  let c16_i32 : BitVec 32 := 16#32
  let v27 : BitVec 32 := Scalar.muli arg20 c16_i32
  let v28 : Index := Scalar.indexCast v27
  ![v28.toNat]
@[reducible] def k1_t2_loop : Scf.Loop 32 :=
  let c0_i32_14 : BitVec 32 := 0#32
  let c5_i32 : BitVec 32 := 5#32
  let v26 : BitVec 32 := Scalar.addi c0_i32_14 c5_i32
  let c1_i32_15 : BitVec 32 := 1#32
  ⟨c0_i32_14, v26, c1_i32_15⟩
def k1_cond1 (k1_t2 : Fin k1_t2_loop.trips) : BitVec 1 :=
  let c0_i32_14 : BitVec 32 := 0#32
  let c1_i32_15 : BitVec 32 := 1#32
  let arg20 : BitVec 32 := Scf.iv c0_i32_14 c1_i32_15 k1_t2
  let c1_i32_18 : BitVec 32 := 1#32
  let v28 : BitVec 32 := Scalar.addi arg20 c1_i32_18
  let c5_i32_19 : BitVec 32 := 5#32
  let v29 : BitVec 1 := Scalar.cmpi .slt v28 c5_i32_19
  let v30 : BitVec 32 := Scalar.extui v29
  let c0_i32_20 : BitVec 32 := 0#32
  let v31 : BitVec 1 := Scalar.cmpi .ne v30 c0_i32_20
  v31

def k1_cond2 (k1_t2 : Fin k1_t2_loop.trips) : BitVec 1 :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c0_i32_27 : BitVec 32 := 0#32
  let v37 : BitVec 1 := Scalar.cmpi .eq v27 c0_i32_27
  let v38 : BitVec 32 := Scalar.extui v37
  let c0_i32_28 : BitVec 32 := 0#32
  let v39 : BitVec 1 := Scalar.cmpi .ne v38 c0_i32_28
  v39

def k1_off3 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg20 : BitVec 32 := Scf.iv c0_i32_14 c1_i32_15 k1_t2
  let c1_i32_29 : BitVec 32 := 1#32
  let v40 : BitVec 32 := Scalar.addi arg20 c1_i32_29
  let c4000_i32_30 : BitVec 32 := 4000#32
  let v41 : BitVec 32 := Scalar.muli v40 c4000_i32_30
  let v42 : BitVec 32 := Scalar.addi v2 v41
  ![v42.toNat]
def k1_off4 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg20 : BitVec 32 := Scf.iv c0_i32_14 c1_i32_15 k1_t2
  let c1_i32_29 : BitVec 32 := 1#32
  let v40 : BitVec 32 := Scalar.addi arg20 c1_i32_29
  let c4000_i32_30 : BitVec 32 := 4000#32
  let v41 : BitVec 32 := Scalar.muli v40 c4000_i32_30
  let v42 : BitVec 32 := Scalar.addi v2 v41
  ![v42.toNat]
def k1_cond3 (k1_t2 : Fin k1_t2_loop.trips) : BitVec 1 :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c0_i32_21 : BitVec 32 := 0#32
  let v32 : BitVec 1 := Scalar.cmpi .eq v27 c0_i32_21
  let v33 : BitVec 32 := Scalar.extui v32
  let c0_i32_22 : BitVec 32 := 0#32
  let v34 : BitVec 1 := Scalar.cmpi .ne v33 c0_i32_22
  v34

def k1_off5 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg20 : BitVec 32 := Scf.iv c0_i32_14 c1_i32_15 k1_t2
  let c4000_i32_27 : BitVec 32 := 4000#32
  let v37 : BitVec 32 := Scalar.muli arg20 c4000_i32_27
  let v38 : BitVec 32 := Scalar.addi v2 v37
  ![v38.toNat]
def k1_off6 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg20 : BitVec 32 := Scf.iv c0_i32_14 c1_i32_15 k1_t2
  let c4000_i32_27 : BitVec 32 := 4000#32
  let v37 : BitVec 32 := Scalar.muli arg20 c4000_i32_27
  let v38 : BitVec 32 := Scalar.addi v2 v37
  ![v38.toNat]
@[reducible] def k1_t3_loop : Scf.Loop 32 :=
  let c0_i32_24 : BitVec 32 := 0#32
  let c50_i32 : BitVec 32 := 50#32
  let v36 : BitVec 32 := Scalar.addi c0_i32_24 c50_i32
  let c1_i32_25 : BitVec 32 := 1#32
  ⟨c0_i32_24, v36, c1_i32_25⟩
def k1_off7 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_27 : BitVec 32 := 5#32
  let v37 : BitVec 32 := Scalar.muli arg21 c5_i32_27
  let c0_i32_28 : BitVec 32 := 0#32
  let v38 : BitVec 32 := Scalar.addi v37 c0_i32_28
  let c16_i32 : BitVec 32 := 16#32
  let v39 : BitVec 32 := Scalar.muli v38 c16_i32
  let v40 : BitVec 32 := Scalar.addi v35 v39
  let v41 : Index := Scalar.indexCast v40
  ![v41.toNat]
def k1_off8 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_27 : BitVec 32 := 5#32
  let v37 : BitVec 32 := Scalar.muli arg21 c5_i32_27
  let c0_i32_28 : BitVec 32 := 0#32
  let v38 : BitVec 32 := Scalar.addi v37 c0_i32_28
  let c16_i32 : BitVec 32 := 16#32
  let v39 : BitVec 32 := Scalar.muli v38 c16_i32
  let v40 : BitVec 32 := Scalar.addi v35 v39
  let v46 : Index := Scalar.indexCast v40
  ![v46.toNat]

def k1_chk1 (v42 : IVec S16 32) : Prop :=
  (∀ a x, ((![v42] : Fin 1 → IVec S16 32) a x).toNat < S10240.size a) ∧
  (∀ a x, ((![v42] : Fin 1 → IVec S16 32) a x).toNat < S10240.size a) ∧
  (∀ a x, ((![v42] : Fin 1 → IVec S16 32) a x).toNat < S10240.size a)
instance k1_chk1.dec : ∀ (v42 : IVec S16 32), Decidable (k1_chk1 v42) := fun v42 => decidable_of_iff' _ (Iff.of_eq (k1_chk1.eq_1 v42))
theorem k1_idx1_inb : ∀ (v42 : IVec S16 32) (k1_hw1 : k1_chk1 v42), ∀ a x, ((![v42] : Fin 1 → IVec S16 32) a x).toNat < S10240.size a := fun v42 k1_hw1 => k1_hw1.1
theorem k1_idx2_inb : ∀ (v42 : IVec S16 32) (k1_hw1 : k1_chk1 v42), ∀ a x, ((![v42] : Fin 1 → IVec S16 32) a x).toNat < S10240.size a := fun v42 k1_hw1 => k1_hw1.2.1
theorem k1_idx3_inb : ∀ (v42 : IVec S16 32) (k1_hw1 : k1_chk1 v42), ∀ a x, ((![v42] : Fin 1 → IVec S16 32) a x).toNat < S10240.size a := fun v42 k1_hw1 => k1_hw1.2.2

def k1_chk2 (v44 : IVec S16 32) : Prop :=
  (∀ a x, ((![v44] : Fin 1 → IVec S16 32) a x).toNat < S10240.size a) ∧
  (∀ a x, ((![v44] : Fin 1 → IVec S16 32) a x).toNat < S10240.size a)
instance k1_chk2.dec : ∀ (v44 : IVec S16 32), Decidable (k1_chk2 v44) := fun v44 => decidable_of_iff' _ (Iff.of_eq (k1_chk2.eq_1 v44))
theorem k1_idx4_inb : ∀ (v44 : IVec S16 32) (k1_hw2 : k1_chk2 v44), ∀ a x, ((![v44] : Fin 1 → IVec S16 32) a x).toNat < S10240.size a := fun v44 k1_hw2 => k1_hw2.1
theorem k1_idx5_inb : ∀ (v44 : IVec S16 32) (k1_hw2 : k1_chk2 v44), ∀ a x, ((![v44] : Fin 1 → IVec S16 32) a x).toNat < S10240.size a := fun v44 k1_hw2 => k1_hw2.2
def k1_off9 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_31 : BitVec 32 := 5#32
  let v60 : BitVec 32 := Scalar.muli arg21 c5_i32_31
  let c1_i32_32 : BitVec 32 := 1#32
  let v61 : BitVec 32 := Scalar.addi v60 c1_i32_32
  let c16_i32_33 : BitVec 32 := 16#32
  let v62 : BitVec 32 := Scalar.muli v61 c16_i32_33
  let v63 : BitVec 32 := Scalar.addi v35 v62
  let v64 : Index := Scalar.indexCast v63
  ![v64.toNat]
def k1_off10 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_31 : BitVec 32 := 5#32
  let v60 : BitVec 32 := Scalar.muli arg21 c5_i32_31
  let c1_i32_32 : BitVec 32 := 1#32
  let v61 : BitVec 32 := Scalar.addi v60 c1_i32_32
  let c16_i32_33 : BitVec 32 := 16#32
  let v62 : BitVec 32 := Scalar.muli v61 c16_i32_33
  let v63 : BitVec 32 := Scalar.addi v35 v62
  let v69 : Index := Scalar.indexCast v63
  ![v69.toNat]

def k1_chk3 (v65 : IVec S16 32) : Prop :=
  (∀ a x, ((![v65] : Fin 1 → IVec S16 32) a x).toNat < S10240.size a) ∧
  (∀ a x, ((![v65] : Fin 1 → IVec S16 32) a x).toNat < S10240.size a) ∧
  (∀ a x, ((![v65] : Fin 1 → IVec S16 32) a x).toNat < S10240.size a)
instance k1_chk3.dec : ∀ (v65 : IVec S16 32), Decidable (k1_chk3 v65) := fun v65 => decidable_of_iff' _ (Iff.of_eq (k1_chk3.eq_1 v65))
theorem k1_idx6_inb : ∀ (v65 : IVec S16 32) (k1_hw3 : k1_chk3 v65), ∀ a x, ((![v65] : Fin 1 → IVec S16 32) a x).toNat < S10240.size a := fun v65 k1_hw3 => k1_hw3.1
theorem k1_idx7_inb : ∀ (v65 : IVec S16 32) (k1_hw3 : k1_chk3 v65), ∀ a x, ((![v65] : Fin 1 → IVec S16 32) a x).toNat < S10240.size a := fun v65 k1_hw3 => k1_hw3.2.1
theorem k1_idx8_inb : ∀ (v65 : IVec S16 32) (k1_hw3 : k1_chk3 v65), ∀ a x, ((![v65] : Fin 1 → IVec S16 32) a x).toNat < S10240.size a := fun v65 k1_hw3 => k1_hw3.2.2

def k1_chk4 (v67 : IVec S16 32) : Prop :=
  (∀ a x, ((![v67] : Fin 1 → IVec S16 32) a x).toNat < S10240.size a) ∧
  (∀ a x, ((![v67] : Fin 1 → IVec S16 32) a x).toNat < S10240.size a)
instance k1_chk4.dec : ∀ (v67 : IVec S16 32), Decidable (k1_chk4 v67) := fun v67 => decidable_of_iff' _ (Iff.of_eq (k1_chk4.eq_1 v67))
theorem k1_idx9_inb : ∀ (v67 : IVec S16 32) (k1_hw4 : k1_chk4 v67), ∀ a x, ((![v67] : Fin 1 → IVec S16 32) a x).toNat < S10240.size a := fun v67 k1_hw4 => k1_hw4.1
theorem k1_idx10_inb : ∀ (v67 : IVec S16 32) (k1_hw4 : k1_chk4 v67), ∀ a x, ((![v67] : Fin 1 → IVec S16 32) a x).toNat < S10240.size a := fun v67 k1_hw4 => k1_hw4.2
def k1_off11 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_36 : BitVec 32 := 5#32
  let v83 : BitVec 32 := Scalar.muli arg21 c5_i32_36
  let c2_i32_37 : BitVec 32 := 2#32
  let v84 : BitVec 32 := Scalar.addi v83 c2_i32_37
  let c16_i32_38 : BitVec 32 := 16#32
  let v85 : BitVec 32 := Scalar.muli v84 c16_i32_38
  let v86 : BitVec 32 := Scalar.addi v35 v85
  let v87 : Index := Scalar.indexCast v86
  ![v87.toNat]
def k1_off12 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_36 : BitVec 32 := 5#32
  let v83 : BitVec 32 := Scalar.muli arg21 c5_i32_36
  let c2_i32_37 : BitVec 32 := 2#32
  let v84 : BitVec 32 := Scalar.addi v83 c2_i32_37
  let c16_i32_38 : BitVec 32 := 16#32
  let v85 : BitVec 32 := Scalar.muli v84 c16_i32_38
  let v86 : BitVec 32 := Scalar.addi v35 v85
  let v92 : Index := Scalar.indexCast v86
  ![v92.toNat]

def k1_chk5 (v88 : IVec S16 32) : Prop :=
  (∀ a x, ((![v88] : Fin 1 → IVec S16 32) a x).toNat < S10240.size a) ∧
  (∀ a x, ((![v88] : Fin 1 → IVec S16 32) a x).toNat < S10240.size a) ∧
  (∀ a x, ((![v88] : Fin 1 → IVec S16 32) a x).toNat < S10240.size a)
instance k1_chk5.dec : ∀ (v88 : IVec S16 32), Decidable (k1_chk5 v88) := fun v88 => decidable_of_iff' _ (Iff.of_eq (k1_chk5.eq_1 v88))
theorem k1_idx11_inb : ∀ (v88 : IVec S16 32) (k1_hw5 : k1_chk5 v88), ∀ a x, ((![v88] : Fin 1 → IVec S16 32) a x).toNat < S10240.size a := fun v88 k1_hw5 => k1_hw5.1
theorem k1_idx12_inb : ∀ (v88 : IVec S16 32) (k1_hw5 : k1_chk5 v88), ∀ a x, ((![v88] : Fin 1 → IVec S16 32) a x).toNat < S10240.size a := fun v88 k1_hw5 => k1_hw5.2.1
theorem k1_idx13_inb : ∀ (v88 : IVec S16 32) (k1_hw5 : k1_chk5 v88), ∀ a x, ((![v88] : Fin 1 → IVec S16 32) a x).toNat < S10240.size a := fun v88 k1_hw5 => k1_hw5.2.2

def k1_chk6 (v90 : IVec S16 32) : Prop :=
  (∀ a x, ((![v90] : Fin 1 → IVec S16 32) a x).toNat < S10240.size a) ∧
  (∀ a x, ((![v90] : Fin 1 → IVec S16 32) a x).toNat < S10240.size a)
instance k1_chk6.dec : ∀ (v90 : IVec S16 32), Decidable (k1_chk6 v90) := fun v90 => decidable_of_iff' _ (Iff.of_eq (k1_chk6.eq_1 v90))
theorem k1_idx14_inb : ∀ (v90 : IVec S16 32) (k1_hw6 : k1_chk6 v90), ∀ a x, ((![v90] : Fin 1 → IVec S16 32) a x).toNat < S10240.size a := fun v90 k1_hw6 => k1_hw6.1
theorem k1_idx15_inb : ∀ (v90 : IVec S16 32) (k1_hw6 : k1_chk6 v90), ∀ a x, ((![v90] : Fin 1 → IVec S16 32) a x).toNat < S10240.size a := fun v90 k1_hw6 => k1_hw6.2
def k1_off13 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_41 : BitVec 32 := 5#32
  let v106 : BitVec 32 := Scalar.muli arg21 c5_i32_41
  let c3_i32 : BitVec 32 := 3#32
  let v107 : BitVec 32 := Scalar.addi v106 c3_i32
  let c16_i32_42 : BitVec 32 := 16#32
  let v108 : BitVec 32 := Scalar.muli v107 c16_i32_42
  let v109 : BitVec 32 := Scalar.addi v35 v108
  let v110 : Index := Scalar.indexCast v109
  ![v110.toNat]
def k1_off14 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_41 : BitVec 32 := 5#32
  let v106 : BitVec 32 := Scalar.muli arg21 c5_i32_41
  let c3_i32 : BitVec 32 := 3#32
  let v107 : BitVec 32 := Scalar.addi v106 c3_i32
  let c16_i32_42 : BitVec 32 := 16#32
  let v108 : BitVec 32 := Scalar.muli v107 c16_i32_42
  let v109 : BitVec 32 := Scalar.addi v35 v108
  let v115 : Index := Scalar.indexCast v109
  ![v115.toNat]

def k1_chk7 (v111 : IVec S16 32) : Prop :=
  (∀ a x, ((![v111] : Fin 1 → IVec S16 32) a x).toNat < S10240.size a) ∧
  (∀ a x, ((![v111] : Fin 1 → IVec S16 32) a x).toNat < S10240.size a) ∧
  (∀ a x, ((![v111] : Fin 1 → IVec S16 32) a x).toNat < S10240.size a)
instance k1_chk7.dec : ∀ (v111 : IVec S16 32), Decidable (k1_chk7 v111) := fun v111 => decidable_of_iff' _ (Iff.of_eq (k1_chk7.eq_1 v111))
theorem k1_idx16_inb : ∀ (v111 : IVec S16 32) (k1_hw7 : k1_chk7 v111), ∀ a x, ((![v111] : Fin 1 → IVec S16 32) a x).toNat < S10240.size a := fun v111 k1_hw7 => k1_hw7.1
theorem k1_idx17_inb : ∀ (v111 : IVec S16 32) (k1_hw7 : k1_chk7 v111), ∀ a x, ((![v111] : Fin 1 → IVec S16 32) a x).toNat < S10240.size a := fun v111 k1_hw7 => k1_hw7.2.1
theorem k1_idx18_inb : ∀ (v111 : IVec S16 32) (k1_hw7 : k1_chk7 v111), ∀ a x, ((![v111] : Fin 1 → IVec S16 32) a x).toNat < S10240.size a := fun v111 k1_hw7 => k1_hw7.2.2

def k1_chk8 (v113 : IVec S16 32) : Prop :=
  (∀ a x, ((![v113] : Fin 1 → IVec S16 32) a x).toNat < S10240.size a) ∧
  (∀ a x, ((![v113] : Fin 1 → IVec S16 32) a x).toNat < S10240.size a)
instance k1_chk8.dec : ∀ (v113 : IVec S16 32), Decidable (k1_chk8 v113) := fun v113 => decidable_of_iff' _ (Iff.of_eq (k1_chk8.eq_1 v113))
theorem k1_idx19_inb : ∀ (v113 : IVec S16 32) (k1_hw8 : k1_chk8 v113), ∀ a x, ((![v113] : Fin 1 → IVec S16 32) a x).toNat < S10240.size a := fun v113 k1_hw8 => k1_hw8.1
theorem k1_idx20_inb : ∀ (v113 : IVec S16 32) (k1_hw8 : k1_chk8 v113), ∀ a x, ((![v113] : Fin 1 → IVec S16 32) a x).toNat < S10240.size a := fun v113 k1_hw8 => k1_hw8.2
def k1_off15 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_45 : BitVec 32 := 5#32
  let v129 : BitVec 32 := Scalar.muli arg21 c5_i32_45
  let c4_i32 : BitVec 32 := 4#32
  let v130 : BitVec 32 := Scalar.addi v129 c4_i32
  let c16_i32_46 : BitVec 32 := 16#32
  let v131 : BitVec 32 := Scalar.muli v130 c16_i32_46
  let v132 : BitVec 32 := Scalar.addi v35 v131
  let v133 : Index := Scalar.indexCast v132
  ![v133.toNat]
def k1_off16 (k1_t2 : Fin k1_t2_loop.trips) (k1_t3 : Fin k1_t3_loop.trips) : Fin 1 → Nat :=
  let c0_i32_14 : BitVec 32 := 0#32
  let c1_i32_15 : BitVec 32 := 1#32
  let arg20 : BitVec 32 := Scf.iv c0_i32_14 c1_i32_15 k1_t2
  let c2_i32_17 : BitVec 32 := 2#32
  let v27 : BitVec 32 := Scalar.remsi arg20 c2_i32_17
  let c4000_i32 : BitVec 32 := 4000#32
  let v35 : BitVec 32 := Scalar.muli v27 c4000_i32
  let c0_i32_24 : BitVec 32 := 0#32
  let c1_i32_25 : BitVec 32 := 1#32
  let arg21 : BitVec 32 := Scf.iv c0_i32_24 c1_i32_25 k1_t3
  let c5_i32_45 : BitVec 32 := 5#32
  let v129 : BitVec 32 := Scalar.muli arg21 c5_i32_45
  let c4_i32 : BitVec 32 := 4#32
  let v130 : BitVec 32 := Scalar.addi v129 c4_i32
  let c16_i32_46 : BitVec 32 := 16#32
  let v131 : BitVec 32 := Scalar.muli v130 c16_i32_46
  let v132 : BitVec 32 := Scalar.addi v35 v131
  let v138 : Index := Scalar.indexCast v132
  ![v138.toNat]

def k1_chk9 (v134 : IVec S16 32) : Prop :=
  (∀ a x, ((![v134] : Fin 1 → IVec S16 32) a x).toNat < S10240.size a) ∧
  (∀ a x, ((![v134] : Fin 1 → IVec S16 32) a x).toNat < S10240.size a) ∧
  (∀ a x, ((![v134] : Fin 1 → IVec S16 32) a x).toNat < S10240.size a)
instance k1_chk9.dec : ∀ (v134 : IVec S16 32), Decidable (k1_chk9 v134) := fun v134 => decidable_of_iff' _ (Iff.of_eq (k1_chk9.eq_1 v134))
theorem k1_idx21_inb : ∀ (v134 : IVec S16 32) (k1_hw9 : k1_chk9 v134), ∀ a x, ((![v134] : Fin 1 → IVec S16 32) a x).toNat < S10240.size a := fun v134 k1_hw9 => k1_hw9.1
theorem k1_idx22_inb : ∀ (v134 : IVec S16 32) (k1_hw9 : k1_chk9 v134), ∀ a x, ((![v134] : Fin 1 → IVec S16 32) a x).toNat < S10240.size a := fun v134 k1_hw9 => k1_hw9.2.1
theorem k1_idx23_inb : ∀ (v134 : IVec S16 32) (k1_hw9 : k1_chk9 v134), ∀ a x, ((![v134] : Fin 1 → IVec S16 32) a x).toNat < S10240.size a := fun v134 k1_hw9 => k1_hw9.2.2

def k1_chk10 (v136 : IVec S16 32) : Prop :=
  (∀ a x, ((![v136] : Fin 1 → IVec S16 32) a x).toNat < S10240.size a) ∧
  (∀ a x, ((![v136] : Fin 1 → IVec S16 32) a x).toNat < S10240.size a)
instance k1_chk10.dec : ∀ (v136 : IVec S16 32), Decidable (k1_chk10 v136) := fun v136 => decidable_of_iff' _ (Iff.of_eq (k1_chk10.eq_1 v136))
theorem k1_idx24_inb : ∀ (v136 : IVec S16 32) (k1_hw10 : k1_chk10 v136), ∀ a x, ((![v136] : Fin 1 → IVec S16 32) a x).toNat < S10240.size a := fun v136 k1_hw10 => k1_hw10.1
theorem k1_idx25_inb : ∀ (v136 : IVec S16 32) (k1_hw10 : k1_chk10 v136), ∀ a x, ((![v136] : Fin 1 → IVec S16 32) a x).toNat < S10240.size a := fun v136 k1_hw10 => k1_hw10.2
def k1_off17 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r1 : BitVec 32 := 0#32
  ![v1.toNat, 0]
abbrev grid2 : Pipeline.Grid := .none

abbrev stage2_0 : Fin 1 → Memref sig .tc .vmem S32x10240 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x10240 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10240 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10240 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10240 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .smem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S640000x2_S640000x1_0_0 : S640000x2.Slices ![0, 0] S640000x1
  shapeCasts_S640000x1_S640000 : S640000x1.ShapeCasts S640000
  slices_S640000x2_S640000x1_0_1 : S640000x2.Slices ![0, 1] S640000x1
  inb_S10000x128_S10000x128_0_0 : ∀ a, (![0, 0] : Fin 2 → Nat) a + S10000x128.size a ≤ S10000x128.size a
  h_S10000x128 : 0 < S10000x128.numel
  iota_S4x128_d1_w32 : S4x128.Iotas .tc 32 [1]
  iota_S4x128_d0_w32 : S4x128.Iotas .tc 32 [0]
  slices_S4x10000_o0_0_S1x10000 : S4x10000.Slices ![0, 0] S1x10000
  slices_S4x10000_o1_0_S1x10000 : S4x10000.Slices ![1, 0] S1x10000
  inb_S10240_S10240_0 : ∀ a, (![0] : Fin 1 → Nat) a + S10240.size a ≤ S10240.size a
  h_S10240 : 0 < S10240.numel
  shapeCasts_S1x10000_S10000 : S1x10000.ShapeCasts S10000
  inb_S10240_S10000_0 : ∀ a, (![0] : Fin 1 → Nat) a + S10000.size a ≤ S10240.size a
  h_S10000 : 0 < S10000.numel
  slices_S4x10000_o2_0_S1x10000 : S4x10000.Slices ![2, 0] S1x10000
  slices_S4x10000_o3_0_S1x10000 : S4x10000.Slices ![3, 0] S1x10000
  inb_S8000_S4000_0 : ∀ a, (![0] : Fin 1 → Nat) a + S4000.size a ≤ S8000.size a
  h_S16 : 0 < S16.numel
  inb_S8000_S4000_4000 : ∀ a, (![4000] : Fin 1 → Nat) a + S4000.size a ≤ S8000.size a
  squeezes_S1x10240_S10240 : S1x10240.Squeezes S10240
  inb_S32x10240_S32x10240_0_0 : ∀ a, (![0, 0] : Fin 2 → Nat) a + S32x10240.size a ≤ S32x10240.size a
  h_S32x10240 : 0 < S32x10240.numel
  shapeCasts_S32x10240_S32x10240 : S32x10240.ShapeCasts S32x10240
  reduces_S32x10240_S10240 : S32x10240.Reduces [0] S10240
  shapeCasts_S10240_S10240 : S10240.ShapeCasts S10240
  iota_S1x10240_d1_w32 : S1x10240.Iotas .tc 32 [1]
  shapeCasts_S1x10240_S10240 : S1x10240.ShapeCasts S10240
  shapeCasts_S10240_S1x10240 : S10240.ShapeCasts S1x10240
  reduces_S1x10240_S1 : S1x10240.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  dot_S4x128_S10000x128_S4x10000_1_1_0_0_n_n_wf : DotDims.WF S4x128 S10000x128 S4x10000 [1] [1] [0] [0] [] []
  hcc1_scratch8 : 4 + S_.numel ≤ 15
  hcc1_scratch9 : 5 + S_.numel ≤ 15
  hcc1_scoped0 : 6 + S_.numel ≤ 15
  hcc1_scoped1 : 7 + S_.numel ≤ 15
  hcc1_scoped2 : 8 + S_.numel ≤ 15
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hcore1 : grid1.bound 0 ≤ τ.nSC
  hsub1 : grid1.bound 1 ≤ τ.nSub
  k1_off1_inb : ∀ i : grid1.Coords, ∀ a, (k1_off1 i) a + S4000.size a ≤ S640000.size a
  k1_t1_ok : k1_t1_loop.OK
  k1_off2_inb : ∀ k1_t1 : Fin k1_t1_loop.trips, ∀ a, (k1_off2 k1_t1) a + S16.size a ≤ S10240.size a
  k1_t2_ok : k1_t2_loop.OK
  k1_off3_inb : ∀ (i : grid1.Coords) (k1_t2 : Fin k1_t2_loop.trips), ∀ (k1_h1 : k1_cond1 k1_t2 = 1#1), ∀ (k1_h2 : k1_cond2 k1_t2 = 1#1), ∀ a, (k1_off3 i k1_t2) a + S4000.size a ≤ S640000.size a
  k1_off4_inb : ∀ (i : grid1.Coords) (k1_t2 : Fin k1_t2_loop.trips), ∀ (k1_h1 : k1_cond1 k1_t2 = 1#1), ∀ (k1_h2 : ¬(k1_cond2 k1_t2 = 1#1)), ∀ a, (k1_off4 i k1_t2) a + S4000.size a ≤ S640000.size a
  k1_off5_inb : ∀ (i : grid1.Coords) (k1_t2 : Fin k1_t2_loop.trips), ∀ (k1_h3 : k1_cond3 k1_t2 = 1#1), ∀ a, (k1_off5 i k1_t2) a + S4000.size a ≤ S640000.size a
  k1_off6_inb : ∀ (i : grid1.Coords) (k1_t2 : Fin k1_t2_loop.trips), ∀ (k1_h3 : ¬(k1_cond3 k1_t2 = 1#1)), ∀ a, (k1_off6 i k1_t2) a + S4000.size a ≤ S640000.size a
  k1_t3_ok : k1_t3_loop.OK
  k1_off7_inb : ∀ (k1_t2 : Fin k1_t2_loop.trips) (k1_t3 : Fin k1_t3_loop.trips), ∀ a, (k1_off7 k1_t2 k1_t3) a + S16.size a ≤ S8000.size a
  k1_off8_inb : ∀ (k1_t2 : Fin k1_t2_loop.trips) (k1_t3 : Fin k1_t3_loop.trips), ∀ a, (k1_off8 k1_t2 k1_t3) a + S16.size a ≤ S8000.size a
  k1_off9_inb : ∀ (k1_t2 : Fin k1_t2_loop.trips) (k1_t3 : Fin k1_t3_loop.trips), ∀ a, (k1_off9 k1_t2 k1_t3) a + S16.size a ≤ S8000.size a
  k1_off10_inb : ∀ (k1_t2 : Fin k1_t2_loop.trips) (k1_t3 : Fin k1_t3_loop.trips), ∀ a, (k1_off10 k1_t2 k1_t3) a + S16.size a ≤ S8000.size a
  k1_off11_inb : ∀ (k1_t2 : Fin k1_t2_loop.trips) (k1_t3 : Fin k1_t3_loop.trips), ∀ a, (k1_off11 k1_t2 k1_t3) a + S16.size a ≤ S8000.size a
  k1_off12_inb : ∀ (k1_t2 : Fin k1_t2_loop.trips) (k1_t3 : Fin k1_t3_loop.trips), ∀ a, (k1_off12 k1_t2 k1_t3) a + S16.size a ≤ S8000.size a
  k1_off13_inb : ∀ (k1_t2 : Fin k1_t2_loop.trips) (k1_t3 : Fin k1_t3_loop.trips), ∀ a, (k1_off13 k1_t2 k1_t3) a + S16.size a ≤ S8000.size a
  k1_off14_inb : ∀ (k1_t2 : Fin k1_t2_loop.trips) (k1_t3 : Fin k1_t3_loop.trips), ∀ a, (k1_off14 k1_t2 k1_t3) a + S16.size a ≤ S8000.size a
  k1_off15_inb : ∀ (k1_t2 : Fin k1_t2_loop.trips) (k1_t3 : Fin k1_t3_loop.trips), ∀ a, (k1_off15 k1_t2 k1_t3) a + S16.size a ≤ S8000.size a
  k1_off16_inb : ∀ (k1_t2 : Fin k1_t2_loop.trips) (k1_t3 : Fin k1_t3_loop.trips), ∀ a, (k1_off16 k1_t2 k1_t3) a + S16.size a ≤ S8000.size a
  k1_off17_inb : ∀ i : grid1.Coords, ∀ a, (k1_off17 i) a + S1x10240.size a ≤ S32x10240.size a
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole

variable [Facts₀]

abbrev cc1_scratch8 : DmaSems sig S_ := SemArray.consecutive 4 S_ hcc1_scratch8
abbrev cc1_scratch9 : DmaSems sig S_ := SemArray.consecutive 5 S_ hcc1_scratch9
abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
def dot_S4x128_S10000x128_S4x10000_1_1_0_0_n_n : DotDims S4x128 S10000x128 S4x10000 where
  lhsContracting := [1]
  rhsContracting := [1]
  lhsNonContracting := [0]
  rhsNonContracting := [0]
  lhsBatch := []
  rhsBatch := []
  wf := dot_S4x128_S10000x128_S4x10000_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v8_0) true false (stage0_1 0) (sem0_1 0) (Memref.isWhole_whole _) (hstage0_1 0)

abbrev win0_2 : Pipeline.Window sig grid0 :=
  Pipeline.Window.whole (Memref.whole main_v8_1) true false (stage0_2 0) (sem0_2 0) (Memref.isWhole_whole _) (hstage0_2 0)

abbrev win0_3 : Pipeline.Window sig grid0 :=
  Pipeline.Window.whole (Memref.whole main_v8_2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win2_0 : Pipeline.Window sig grid2 :=
  Pipeline.Window.whole (Memref.whole main_v9_0) false false (stage2_0 0) (sem2_0 0) (Memref.isWhole_whole _) (hstage2_0 0)

abbrev win2_1 : Pipeline.Window sig grid2 :=
  Pipeline.Window.whole (Memref.whole main_v9_1) false false (stage2_1 0) (sem2_1 0) (Memref.isWhole_whole _) (hstage2_1 0)

abbrev win2_2 : Pipeline.Window sig grid2 :=
  Pipeline.Window.whole (Memref.whole main_v8_0) false false (stage2_2 0) (sem2_2 0) (Memref.isWhole_whole _) (hstage2_2 0)

abbrev win2_3 : Pipeline.Window sig grid2 :=
  Pipeline.Window.whole (Memref.whole main_v8_1) false false (stage2_3 0) (sem2_3 0) (Memref.isWhole_whole _) (hstage2_3 0)

abbrev win2_4 : Pipeline.Window sig grid2 :=
  Pipeline.Window.whole (Memref.whole main_v8_2) false false (stage2_4 0) (sem2_4 0) (Memref.isWhole_whole _) (hstage2_4 0)

abbrev win2_5 : Pipeline.Window sig grid2 :=
  Pipeline.Window.whole (Memref.whole main_v10) true false (stage2_5 0) (sem2_5 0) (Memref.isWhole_whole _) (hstage2_5 0)

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000 : Shape := ⟨1, ![640000]⟩
abbrev S640000x2 : Shape := ⟨2, ![640000, 2]⟩
abbrev S1x640000 : Shape := ⟨2, ![1, 640000]⟩
abbrev S10000x1 : Shape := ⟨2, ![10000, 1]⟩
abbrev S10000 : Shape := ⟨1, ![10000]⟩
abbrev S_ : Shape := ⟨0, ![]⟩
abbrev S640000x1 : Shape := ⟨2, ![640000, 1]⟩

abbrev nBuf : Space → Nat
  | .hbm => 122
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S640000x2, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S10000x1, .f32⟩
  | .hbm, ⟨9, _⟩ => ⟨S10000, .f32⟩
  | .hbm, ⟨10, _⟩ => ⟨S10000, .f32⟩
  | .hbm, ⟨11, _⟩ => ⟨S10000x1, .f32⟩
  | .hbm, ⟨12, _⟩ => ⟨S10000, .f32⟩
  | .hbm, ⟨13, _⟩ => ⟨S10000, .f32⟩
  | .hbm, ⟨14, _⟩ => ⟨S10000, .f32⟩
  | .hbm, ⟨15, _⟩ => ⟨S10000, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000, .f32⟩
  | .hbm, ⟨25, _⟩ => ⟨S640000, .f32⟩
  | .hbm, ⟨26, _⟩ => ⟨S640000x1, .f32⟩
  | .hbm, ⟨27, _⟩ => ⟨S640000, .f32⟩
  | .hbm, ⟨28, _⟩ => ⟨S_, .f32⟩
  | .hbm, ⟨29, _⟩ => ⟨S640000, .f32⟩
  | .hbm, ⟨30, _⟩ => ⟨S640000, .f32⟩
  | .hbm, ⟨31, _⟩ => ⟨S640000, .f32⟩
  | .hbm, ⟨32, _⟩ => ⟨S640000, .f32⟩
  | .hbm, ⟨33, _⟩ => ⟨S640000x1, .f32⟩
  | .hbm, ⟨34, _⟩ => ⟨S640000, .f32⟩
  | .hbm, ⟨35, _⟩ => ⟨S_, .f32⟩
  | .hbm, ⟨36, _⟩ => ⟨S640000, .f32⟩
  | .hbm, ⟨37, _⟩ => ⟨S640000, .f32⟩
  | .hbm, ⟨38, _⟩ => ⟨S640000, .f32⟩
  | .hbm, ⟨39, _⟩ => ⟨S640000, .f32⟩
  | .hbm, ⟨40, _⟩ => ⟨S640000, .i1⟩
  | .hbm, ⟨41, _⟩ => ⟨S_, .f32⟩
  | .hbm, ⟨42, _⟩ => ⟨S10000, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S10000, .f32⟩
  | .hbm, ⟨52, _⟩ => ⟨S_, .f32⟩
  | .hbm, ⟨53, _⟩ => ⟨S_, .f32⟩
  | .hbm, ⟨54, _⟩ => ⟨S640000, .f32⟩
  | .hbm, ⟨55, _⟩ => ⟨S640000, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S10000, .f32⟩
  | .hbm, ⟨76, _⟩ => ⟨S_, .f32⟩
  | .hbm, ⟨77, _⟩ => ⟨S_, .f32⟩
  | .hbm, ⟨78, _⟩ => ⟨S640000, .f32⟩
  | .hbm, ⟨79, _⟩ => ⟨S640000, .f32⟩
  | .hbm, ⟨80, _⟩ => ⟨S_, .i32⟩
  | .hbm, ⟨81, _⟩ => ⟨S640000, .i32⟩
  | .hbm, ⟨82, _⟩ => ⟨S640000, .i1⟩
  | .hbm, ⟨83, _⟩ => ⟨S_, .i32⟩
  | .hbm, ⟨84, _⟩ => ⟨S640000, .i32⟩
  | .hbm, ⟨85, _⟩ => ⟨S640000, .i32⟩
  | .hbm, ⟨86, _⟩ => ⟨S640000, .i32⟩
  | .hbm, ⟨87, _⟩ => ⟨S640000x1, .i32⟩
  | .hbm, ⟨88, _⟩ => ⟨S10000, .f32⟩
  | .hbm, ⟨89, _⟩ => ⟨S10000x1, .f32⟩
  | .hbm, ⟨90, _⟩ => ⟨S10000, .f32⟩
  | .hbm, ⟨91, _⟩ => ⟨S10000x1, .f32⟩
  | .hbm, ⟨92, _⟩ => ⟨S10000, .f32⟩
  | .hbm, ⟨93, _⟩ => ⟨S10000, .f32⟩
  | .hbm, ⟨94, _⟩ => ⟨S10000, .f32⟩
  | .hbm, ⟨95, _⟩ => ⟨S10000, .f32⟩
  | .hbm, ⟨96, _⟩ => ⟨S10000, .f32⟩
  | .hbm, ⟨97, _⟩ => ⟨S10000, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S10000, .f32⟩
  | .hbm, ⟨104, _⟩ => ⟨S10000, .f32⟩
  | .hbm, ⟨105, _⟩ => ⟨S_, .f32⟩
  | .hbm, ⟨106, _⟩ => ⟨S10000, .f32⟩
  | .hbm, ⟨107, _⟩ => ⟨S10000, .f32⟩
  | .hbm, ⟨108, _⟩ => ⟨S_, .f32⟩
  | .hbm, ⟨109, _⟩ => ⟨S10000, .f32⟩
  | .hbm, ⟨110, _⟩ => ⟨S10000, .f32⟩
  | .hbm, ⟨111, _⟩ => ⟨S_, .f32⟩
  | .hbm, ⟨112, _⟩ => ⟨S10000, .f32⟩
  | .hbm, ⟨113, _⟩ => ⟨S10000, .f32⟩
  | .hbm, ⟨114, _⟩ => ⟨S10000, .f32⟩
  | .hbm, ⟨115, _⟩ => ⟨S10000, .f32⟩
  | .hbm, ⟨116, _⟩ => ⟨S10000, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_call0_v0 : Ref sig .tc := ⟨.hbm, 53, rfl⟩
abbrev main_call0_v1 : Ref sig .tc := ⟨.hbm, 54, rfl⟩
abbrev main_v41 : Ref sig .tc := ⟨.hbm, 55, rfl⟩
abbrev main_c_6 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_call1_v0 : Ref sig .tc := ⟨.hbm, 77, rfl⟩
abbrev main_call1_v1 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_call2_cst : Ref sig .tc := ⟨.hbm, 105, rfl⟩
abbrev main_call2_v0 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_call3_cst : Ref sig .tc := ⟨.hbm, 111, rfl⟩
abbrev main_call3_v0 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_18 : Ref sig .tc := ⟨.hbm, 117, rfl⟩
abbrev main_v85 : Ref sig .tc := ⟨.hbm, 118, rfl⟩
abbrev main_cst_19 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S10000x128_S10000x1_0_0 : S10000x128.Slices ![0, 0] S10000x1
  shapeCasts_S10000x1_S10000 : S10000x1.ShapeCasts S10000
  slices_S10000x128_S10000x1_0_1 : S10000x128.Slices ![0, 1] S10000x1
  bcast_S_S640000 : S_.BroadcastsInDim S640000 (![] : Fin 0 → Fin S640000.rank)
  bcast_S640000_S640000x1_0 : S640000.BroadcastsInDim S640000x1 (![0] : Fin 1 → Fin S640000x1.rank)
  slices_S640000x2_S640000x1_0_0 : S640000x2.Slices ![0, 0] S640000x1
  shapeCasts_S640000x1_S640000 : S640000x1.ShapeCasts S640000
  slices_S640000x2_S640000x1_0_1 : S640000x2.Slices ![0, 1] S640000x1
  bcast_S_S10000 : S_.BroadcastsInDim S10000 (![] : Fin 0 → Fin S10000.rank)
  slices_S10000x128_S10000x1_0_2 : S10000x128.Slices ![0, 2] S10000x1
  slices_S10000x128_S10000x1_0_3 : S10000x128.Slices ![0, 3] S10000x1
  reducesTo_S10000_S_d0 : S10000.ReducesTo [0] S_
  h_S_ : 0 < S_.numel
  gather_S10000_S640000x1_S640000_n_0_n_n_0_1_1_wf : GatherDims.WF S10000 S640000x1 S640000 [] [0] [] [0] [] 1 ![1]
  scatter_S10000_S640000x1_S640000_n_0_0_1_wf : ScatterDims.WF S10000 S640000x1 S640000 [] [0] [0] 1

variable [Facts₀]

def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

class Facts : Prop extends Facts₀ where

variable [Facts]
-- ==== Proof.KI.Spec.lean ====
/-
  The value specification of the edge-flow kernel, generic in the float instance.

  One tile (vector subcore) walks 1250 consecutive groups of sixteen edges. For a group with source
  nodes `s`, destination nodes `d`, edge probabilities `pv` and the two edge parameters `gv`, `bv`:
  the squared voltage of each source node is gathered from the table, multiplied by the probability
  and divided by `gv + ε` (active flow) and by `bv + ε` (reactive flow); each flow is added onto
  its source node's entry of the tile's accumulator and, where source and destination differ, onto
  the destination node's entry as well. Sixteen lanes naming one node all accumulate, lowest lane first.

  `gath`, `scatAdd` and `lanes` are the gather, the masked accumulating scatter and a sixteen-lane
  window written WITHOUT in-range evidence (an out-of-range lane reads entry 0 / writes nothing), so
  that folds over them carry no dependent proofs; `loadIdx_eq_gath` and `storeIdx_eq_scatAdd` say
  they are the library's indexed load and store whenever the evidence exists.
-/
import proofs.«213808_g38010460570139_cont_8to1_b_868_22_alg».proof.Proof.Gen.KernelIdeal.Skeleton

noncomputable section

namespace Cert.KernelIdeal.Spec

open Idealize.ShloMosaic Cert.KernelIdeal Cert.KernelIdeal.Gen

variable {F : FTy → Type} [FloatOps F]

/-- Lane `k` of a sixteen-lane vector, as its index. -/
def ln (k : Fin 16) : S16.Idx := Shape.ofLane (d := ![16]) k

/-- Entry `n` of a 10240-vector, as its index. -/
def nd (n : Fin 10240) : S10240.Idx := Shape.ofLane (d := ![10240]) n

/-- Entry `n` of a 640000-vector, as its index (clamped into range, so that no evidence is asked). -/
def ed (n : Nat) : S640000.Idx := Shape.ofLane (d := ![640000]) ⟨min n 639999, by show min n 639999 < 640000; omega⟩

/-- Sixteen consecutive entries of an edge array from offset `off`. -/
def lanes {e : EltTy} (x : Vec F S640000 e) (off : Nat) : Vec F S16 e := fun j => x (ed (off + (j 0).val))

/-- The gather of a node table at sixteen node numbers. -/
def gath (tab : FVec F S10240 .f32) (idx : IVec S16 32) : FVec F S16 .f32 :=
  fun x => tab (nd ⟨min (idx x).toNat 10239, by omega⟩)

/-- The masked accumulating scatter of sixteen values onto a node accumulator: lanes in ascending
    order, a set lane's value added onto the entry its node number names. -/
def scatAdd (acc : FVec F S10240 .f32) (idx : IVec S16 32) (v : FVec F S16 .f32) (mask : IVec S16 1) : FVec F S10240 .f32 :=
  (List.finRange 16).foldl (fun g k =>
    if mask (ln k) = 1 then
      fun j => if (j 0).val = (idx (ln k)).toNat then Elt.idxAdd .f32 (g j) (v (ln k)) else g j
    else g) acc

/-- The small constant both flows' denominators carry. -/
def epsV : FVec F S16 .f32 := broadcast S16 (Scalar.ofBits .f32 0x358637BD#32)

/-- One group of sixteen edges applied to the pair of accumulators (active, reactive). -/
def grpStep (tab : FVec F S10240 .f32) (s d : IVec S16 32) (pv gv bv : FVec F S16 .f32)
    (acc : FVec F S10240 .f32 × FVec F S10240 .f32) : FVec F S10240 .f32 × FVec F S10240 .f32 :=
  let vp : FVec F S16 .f32 := mulf (gath tab s) pv
  let pe : FVec F S16 .f32 := divf vp (addf gv epsV)
  let qe : FVec F S16 .f32 := divf vp (addf bv epsV)
  let m : IVec S16 1 := cmpi .ne s d
  (scatAdd (scatAdd acc.1 s pe (fun _ => 1#1)) d pe m, scatAdd (scatAdd acc.2 s qe (fun _ => 1#1)) d qe m)

/-- The accumulators as the zero fill leaves them. -/
def acc0 : FVec F S10240 .f32 × FVec F S10240 .f32 :=
  (fun _ => Scalar.ofBits .f32 0x00000000#32, fun _ => Scalar.ofBits .f32 0x00000000#32)

/-- A tile's accumulators after its first `n` groups; the tile's edges start at `base`, group `k`
    holds edges `base + 16 k … base + 16 k + 15`. -/
def tileAcc (tab : FVec F S10240 .f32) (src dst : IVec S640000 32) (prob g b : FVec F S640000 .f32) (base : Nat) :
    Nat → FVec F S10240 .f32 × FVec F S10240 .f32
  | 0 => acc0
  | n + 1 => grpStep tab (lanes (F := F) (e := .i32) src (base + 16 * n)) (lanes (F := F) (e := .i32) dst (base + 16 * n))
      (lanes (F := F) (e := .f32) prob (base + 16 * n)) (lanes (F := F) (e := .f32) g (base + 16 * n)) (lanes (F := F) (e := .f32) b (base + 16 * n)) (tileAcc tab src dst prob g b base n)

/-- The first edge of the tile at grid coordinates `(core, subcore)`. -/
def tileBase (i : grid1.Coords) : Nat := 40000 * (i 1).val + 20000 * (i 0).val

/-- The row of the two partial-flow arrays the tile writes. -/
def tileRow (i : grid1.Coords) : Nat := 2 * (i 1).val + (i 0).val

/-- A 10000-vector padded with zeros to 10240 entries. -/
def padTo (v : FVec F S10000 .f32) : FVec F S10240 .f32 :=
  fun j => if h : (j 0).val < 10000 then v (Shape.ofLane (d := ![10000]) ⟨(j 0).val, h⟩) else Scalar.ofBits .f32 0x00000000#32

/-- What the preparation call leaves: squared voltage magnitudes, active loads, reactive loads, padded. -/
def prepV2 (nf : Vec F S10000x128 .f32) : FVec F S10240 .f32 := padTo (k0_pay3 nf)
def prepPl (nf : Vec F S10000x128 .f32) : FVec F S10240 .f32 := padTo (k0_pay4 nf)
def prepQl (nf : Vec F S10000x128 .f32) : FVec F S10240 .f32 := padTo (k0_pay5 nf)

/-- The edge arrays @main slices and reshapes out of the arguments before the calls. -/
def srcOf (ei : Vec F S2x640000 .i32) : IVec S640000 32 :=
  shapeCast S640000 (extractStridedSlice S1x640000 ![0, 0] ei slices_S2x640000_S1x640000_0_0) shapeCasts_S1x640000_S640000
def dstOf (ei : Vec F S2x640000 .i32) : IVec S640000 32 :=
  shapeCast S640000 (extractStridedSlice S1x640000 ![1, 0] ei slices_S2x640000_S1x640000_1_0) shapeCasts_S1x640000_S640000
def gOf (par : Vec F S640000x2 .f32) : FVec F S640000 .f32 :=
  shapeCast S640000 (extractStridedSlice S640000x1 ![0, 0] par slices_S640000x2_S640000x1_0_0) shapeCasts_S640000x1_S640000
def bOf (par : Vec F S640000x2 .f32) : FVec F S640000 .f32 :=
  shapeCast S640000 (extractStridedSlice S640000x1 ![0, 1] par slices_S640000x2_S640000x1_0_1) shapeCasts_S640000x1_S640000

/-- The two partial-flow arrays after the SparseCore call: row `2 s + c` is tile `(c, s)`'s accumulator
    after all of its 1250 groups. -/
def partsOf (nf : Vec F S10000x128 .f32) (ei : Vec F S2x640000 .i32) (prob : Vec F S640000 .f32) (par : Vec F S640000x2 .f32) :
    FVec F S32x10240 .f32 × FVec F S32x10240 .f32 :=
  let acc (r : Nat) := tileAcc (prepV2 nf) (srcOf (F := F) ei) (dstOf (F := F) ei) prob (gOf par) (bOf par) (20000 * r) 1250
  (fun j => (acc (j 0).val).1 (nd ⟨(j 1).val, (j 1).isLt⟩), fun j => (acc (j 0).val).2 (nd ⟨(j 1).val, (j 1).isLt⟩))

/-- The kernel's scalar result as one term of the four arguments. -/
def lossOf (nf : Vec F S10000x128 .f32) (ei : Vec F S2x640000 .i32) (prob : Vec F S640000 .f32) (par : Vec F S640000x2 .f32) : F .f32 :=
  k2_pay1 (partsOf nf ei prob par).1 (partsOf nf ei prob par).2 (prepV2 nf) (prepPl nf) (prepQl nf)

end Cert.KernelIdeal.Spec

end
-- ==== Proof.KI.Common.lean ====
/-
  The shared vocabulary of the launch: the program as the SparseCore launch theorem sees it, the ghost
  state (the handshakes' rounds beside the transfers' counters), the arrays as locations of a device,
  and what the one SparseCore call's handshakes carry.

  The call hands every tile a read share of the six arrays all tiles read (the squared-voltage table,
  the source and destination node numbers, the probabilities, the two parameter columns) and its own
  row of the two partial-flow arrays outright; a tile hands the shares back unchanged and its two rows
  at its accumulators after all its groups (`Spec.tileAcc`).
-/
import proofs.«213808_g38010460570139_cont_8to1_b_868_22_alg».proof.Proof.KI.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
/-- The rounds of the two TensorCore calls' staging cells. -/
abbrev UP : Type := UR sig nD τ
/-- The handshakes' rounds, the staging cells' rounds, the transfers' counters (found by instance in the right). -/
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds: the left of the right component. -/
def EP : Emb UP (MT nD τ sig (HIx 1) (Elt F) ℕ UU ℕ) :=
  (Emb.inl : Emb UP (UP × Counters)).trans (embR (A := UH) (B := UP × Counters))
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

abbrev nfLoc (d : Dev nD) : Loc nD τ sig := (SparseCore.T d).loc main_arg0
abbrev eiLoc (d : Dev nD) : Loc nD τ sig := (SparseCore.T d).loc main_arg1
abbrev prLoc (d : Dev nD) : Loc nD τ sig := (SparseCore.T d).loc main_arg2
abbrev paLoc (d : Dev nD) : Loc nD τ sig := (SparseCore.T d).loc main_arg3
abbrev srcLoc (d : Dev nD) : Loc nD τ sig := (SparseCore.T d).loc main_v1
abbrev dstLoc (d : Dev nD) : Loc nD τ sig := (SparseCore.T d).loc main_v3
abbrev gLoc (d : Dev nD) : Loc nD τ sig := (SparseCore.T d).loc main_v5
abbrev bLoc (d : Dev nD) : Loc nD τ sig := (SparseCore.T d).loc main_v7
abbrev v2Loc (d : Dev nD) : Loc nD τ sig := (SparseCore.T d).loc main_v8_0
abbrev plLoc (d : Dev nD) : Loc nD τ sig := (SparseCore.T d).loc main_v8_1
abbrev qlLoc (d : Dev nD) : Loc nD τ sig := (SparseCore.T d).loc main_v8_2
abbrev ppLoc (d : Dev nD) : Loc nD τ sig := (SparseCore.T d).loc main_v9_0
abbrev qpLoc (d : Dev nD) : Loc nD τ sig := (SparseCore.T d).loc main_v9_1
abbrev outLoc (d : Dev nD) : Loc nD τ sig := (SparseCore.T d).loc main_v10
abbrev resLoc (d : Dev nD) : Loc nD τ sig := (SparseCore.T d).loc main_v11

variable [FloatOps F]

/-- The four arguments as device `d` holds them at the launch. -/
abbrev nfA (d : Dev nD) : Vec F S10000x128 .f32 := m (nfLoc d)
abbrev eiA (d : Dev nD) : Vec F S2x640000 .i32 := m (eiLoc d)
abbrev prA (d : Dev nD) : Vec F S640000 .f32 := m (prLoc d)
abbrev paA (d : Dev nD) : Vec F S640000x2 .f32 := m (paLoc d)

/-- The six arrays every tile reads, at what @main and the preparation call leave in them. -/
abbrev tabA (d : Dev nD) : FVec F S10240 .f32 := Spec.prepV2 (nfA m d)
abbrev srcA (d : Dev nD) : IVec S640000 32 := Spec.srcOf (F := F) (eiA m d)
abbrev dstA (d : Dev nD) : IVec S640000 32 := Spec.dstOf (F := F) (eiA m d)
abbrev gA (d : Dev nD) : FVec F S640000 .f32 := Spec.gOf (paA m d)
abbrev bA (d : Dev nD) : FVec F S640000 .f32 := Spec.bOf (paA m d)

/-! ## Rows of the two partial-flow arrays -/

theorem hdiv32 : 32 ∣ S32x10240.size 0 := ⟨1, rfl⟩
abbrev prow (r : Fin 32) : Rect S32x10240 := Rect.part (s := S32x10240) (a₀ := 0) hdiv32 r
abbrev prowSet (r : Fin 32) : Finset S32x10240.Idx := ((Memref.whole main_v9_0_scv : Memref sig .scVector .hbm S32x10240 .f32).view.slice (prow r)).set

/-- The row number of tile `i` of SparseCore `c`: `2 i + c`. -/
def rowOf (c : Fin 2) (i : Fin 16) : Fin 32 := ⟨2 * i.val + c.val, by omega⟩

/-- A partial-flow array whose row `r` holds the accumulator `a` (what a tile's copy-out leaves of its row). -/
def RowIs (f : FVec F S32x10240 .f32) (r : Fin 32) (a : FVec F S10240 .f32) : Prop :=
  ∀ n : Fin 10240, f (fun | 0 => ⟨r.val, r.isLt⟩ | 1 => ⟨n.val, n.isLt⟩ | ⟨_ + 2, h⟩ => absurd h (Nat.not_lt.2 (Nat.le_add_left _ _))) = a (Spec.nd n)

/-! ## Read shares: one per SparseCore, of it one per tile -/

abbrev shC (c : Fin 2) : PosShare TreeShare := Transfers.shareTok fullShare 2 c
abbrev shT (c : Fin 2) (i : Fin 16) : PosShare TreeShare := Transfers.shareTok (shC c) 16 i

/-- The six read-only arrays at share `q`. -/
def roPts (d : Dev nD) (q : PosShare TreeShare) : sProp 𝕄 :=
  iprop((v2Loc d ↦{q} tabA m d) ∗ (srcLoc d ↦{q} srcA m d) ∗ (dstLoc d ↦{q} dstA m d) ∗ (prLoc d ↦{q} prA m d)
    ∗ (gLoc d ↦{q} gA m d) ∗ (bLoc d ↦{q} bA m d))

/-- A tile's accumulators after all its groups. -/
abbrev accOf (d : Dev nD) (r : Fin 32) : FVec F S10240 .f32 × FVec F S10240 .f32 :=
  Spec.tileAcc (tabA m d) (srcA m d) (dstA m d) (prA m d) (gA m d) (bA m d) (20000 * r.val) 1250

/-- What the sequencer's go hands tile `(c, i)`: its read shares and its two rows at whatever they hold. -/
def goPay (d : Dev nD) (c : Fin 2) (i : Fin 16) : sProp 𝕄 :=
  iprop(roPts m d (shT c i) ∗ (∃ f, ppLoc d ↦[prowSet (rowOf c i)]{fullShare} f) ∗ (∃ f, qpLoc d ↦[prowSet (rowOf c i)]{fullShare} f))

/-- What the tile's taskDone hands back: the shares, and the two rows at its accumulators. -/
def tdPay (d : Dev nD) (c : Fin 2) (i : Fin 16) : sProp 𝕄 :=
  iprop(roPts m d (shT c i)
    ∗ (∃ f, ⌜RowIs f (rowOf c i) (accOf m d (rowOf c i)).1⌝ ∗ ppLoc d ↦[prowSet (rowOf c i)]{fullShare} f)
    ∗ (∃ f, ⌜RowIs f (rowOf c i) (accOf m d (rowOf c i)).2⌝ ∗ qpLoc d ↦[prowSet (rowOf c i)]{fullShare} f))

/-- What the TensorCore's start hands SparseCore `c`: its read shares of the six arrays and its sixteen
    rows of each partial-flow array. -/
def stPay (d : Dev nD) (c : Fin 2) : sProp 𝕄 :=
  iprop(roPts m d (shC c)
    ∗ (bigSep Finset.univ fun i : Fin 16 => iprop(∃ f, ppLoc d ↦[prowSet (rowOf c i)]{fullShare} f))
    ∗ (bigSep Finset.univ fun i : Fin 16 => iprop(∃ f, qpLoc d ↦[prowSet (rowOf c i)]{fullShare} f)))

/-- What its done hands back. -/
def dnPay (d : Dev nD) (c : Fin 2) : sProp 𝕄 :=
  iprop(roPts m d (shC c)
    ∗ (bigSep Finset.univ fun i : Fin 16 => iprop(∃ f, ⌜RowIs f (rowOf c i) (accOf m d (rowOf c i)).1⌝ ∗ ppLoc d ↦[prowSet (rowOf c i)]{fullShare} f))
    ∗ (bigSep Finset.univ fun i : Fin 16 => iprop(∃ f, ⌜RowIs f (rowOf c i) (accOf m d (rowOf c i)).2⌝ ∗ qpLoc d ↦[prowSet (rowOf c i)]{fullShare} f)))

def P : (K (F := F)).Pay (nD := nD) (Val := Elt F) (Name := ℕ) (U := UU) where
  st := fun q d c => match q with | 0 => stPay m d (Fin.cast nCore_zero c)
  dn := fun q d c => match q with | 0 => dnPay m d (Fin.cast nCore_zero c)
  go := fun q d c i => match q with | 0 => goPay m d (Fin.cast nCore_zero c) (Fin.cast nSub_zero i)
  td := fun q d c i => match q with | 0 => tdPay m d (Fin.cast nCore_zero c) (Fin.cast nSub_zero i)
  x := fun _ _ => iprop(emp)

instance stPay_storable (d : Dev nD) (c : Fin 2) : BI.Storable (upEmb : UEmb _ 𝕄) (stPay m d c) := by
  unfold stPay roPts; infer_instance
instance dnPay_storable (d : Dev nD) (c : Fin 2) : BI.Storable (upEmb : UEmb _ 𝕄) (dnPay m d c) := by
  unfold dnPay roPts; infer_instance
instance goPay_storable (d : Dev nD) (c : Fin 2) (i : Fin 16) : BI.Storable (upEmb : UEmb _ 𝕄) (goPay m d c i) := by
  unfold goPay roPts; infer_instance
instance tdPay_storable (d : Dev nD) (c : Fin 2) (i : Fin 16) : BI.Storable (upEmb : UEmb _ 𝕄) (tdPay m d c i) := by
  unfold tdPay roPts; infer_instance

instance P_storable : (P (F := F) m).IsStorable where
  st q d c := match q with | 0 => stPay_storable m d _
  dn q d c := match q with | 0 => dnPay_storable m d _
  go q d c i := match q with | 0 => goPay_storable m d _ _
  td q d c i := match q with | 0 => tdPay_storable m d _ _

end Cert.Proof.KI

end
-- ==== Proof.KI.Split.lean ====
/-
  The one SparseCore call's payload dealt among its tiles and gathered back: each SparseCore's read
  shares of the six read-only arrays split into sixteen tile shares (and join again), and its sixteen
  rows of each partial-flow array go one to a tile.
-/
import proofs.«213808_g38010460570139_cont_8to1_b_868_22_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- One array's read share of a SparseCore splits into its sixteen tiles' shares and a rest. -/
theorem share_split (ℓ : Loc nD τ sig) (f : Buf (Elt F) ℓ) (c : Fin 2) :
    (ℓ ↦{shC c} f : sProp 𝕄) ⊢ iprop((ℓ ↦{Transfers.shareDrop (shC c) 16} f) ∗ bigSep Finset.univ fun i : Fin 16 => ℓ ↦{shT c i} f) :=
  Transfers.pointsTo_toks_split (shC c) 16

theorem share_join (ℓ : Loc nD τ sig) (f : Buf (Elt F) ℓ) (c : Fin 2) :
    iprop((ℓ ↦{Transfers.shareDrop (shC c) 16} f) ∗ bigSep Finset.univ fun i : Fin 16 => ℓ ↦{shT c i} f) ⊢ (ℓ ↦{shC c} f : sProp 𝕄) :=
  Transfers.pointsTo_toks_join (shC c) 16

/-- The six read-only arrays: a SparseCore's shares split into its tiles' and a rest. -/
theorem roPts_split (d : Dev nD) (c : Fin 2) :
    roPts m d (shC c) ⊢ iprop(roPts m d (Transfers.shareDrop (shC c) 16) ∗ bigSep Finset.univ fun i : Fin 16 => roPts m d (shT c i)) := by
  unfold roPts
  simp only [bigSep_sep']
  iintro ⟨H1, H2, H3, H4, H5, H6⟩
  ihave H1 := (share_split (F := F) _ _ c) $$ H1
  ihave H2 := (share_split (F := F) _ _ c) $$ H2
  ihave H3 := (share_split (F := F) _ _ c) $$ H3
  ihave H4 := (share_split (F := F) _ _ c) $$ H4
  ihave H5 := (share_split (F := F) _ _ c) $$ H5
  ihave H6 := (share_split (F := F) _ _ c) $$ H6
  icases H1 with ⟨R1, T1⟩
  icases H2 with ⟨R2, T2⟩
  icases H3 with ⟨R3, T3⟩
  icases H4 with ⟨R4, T4⟩
  icases H5 with ⟨R5, T5⟩
  icases H6 with ⟨R6, T6⟩
  isplitl [R1 R2 R3 R4 R5 R6]
  · isplitl [R1]; · iexact R1
    isplitl [R2]; · iexact R2
    isplitl [R3]; · iexact R3
    isplitl [R4]; · iexact R4
    isplitl [R5]; · iexact R5
    iexact R6
  · isplitl [T1]; · iexact T1
    isplitl [T2]; · iexact T2
    isplitl [T3]; · iexact T3
    isplitl [T4]; · iexact T4
    isplitl [T5]; · iexact T5
    iexact T6

theorem roPts_join (d : Dev nD) (c : Fin 2) :
    iprop(roPts m d (Transfers.shareDrop (shC c) 16) ∗ bigSep Finset.univ fun i : Fin 16 => roPts m d (shT c i)) ⊢ roPts m d (shC c) := by
  unfold roPts
  simp only [bigSep_sep']
  iintro ⟨⟨R1, R2, R3, R4, R5, R6⟩, T1, T2, T3, T4, T5, T6⟩
  isplitl [R1 T1]; · iapply (share_join (F := F) _ _ c); isplitl [R1] <;> iassumption
  isplitl [R2 T2]; · iapply (share_join (F := F) _ _ c); isplitl [R2] <;> iassumption
  isplitl [R3 T3]; · iapply (share_join (F := F) _ _ c); isplitl [R3] <;> iassumption
  isplitl [R4 T4]; · iapply (share_join (F := F) _ _ c); isplitl [R4] <;> iassumption
  isplitl [R5 T5]; · iapply (share_join (F := F) _ _ c); isplitl [R5] <;> iassumption
  iapply (share_join (F := F) _ _ c); isplitl [R6] <;> iassumption

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands for a SparseCore go to its tiles, and the tiles' results gather back. -/
theorem vecSplit : (K (F := F)).VecSplit' (P m) 0 := by
  intro d c
  show stPay m d (Fin.cast nCore_zero c) ⊢ |={Set.univ}=> iprop(
      (bigSep Finset.univ fun i : Fin ((K (F := F)).nSub 0) => goPay m d (Fin.cast nCore_zero c) (Fin.cast nSub_zero i))
      ∗ ((bigSep Finset.univ fun i : Fin ((K (F := F)).nSub 0) => tdPay m d (Fin.cast nCore_zero c) (Fin.cast nSub_zero i))
          -∗ dnPay m d (Fin.cast nCore_zero c)))
  generalize Fin.cast nCore_zero c = c'
  rw [bigSep_tasks (F := F) (fun i => goPay m d c' i), bigSep_tasks (F := F) (fun i => tdPay m d c' i)]
  unfold stPay goPay tdPay dnPay
  simp only [bigSep_sep']
  iintro ⟨Hro, Hp, Hq⟩
  ihave Hro := (roPts_split m d c') $$ Hro
  icases Hro with ⟨Hrest, Hts⟩
  imodintro
  isplitl [Hts Hp Hq]
  · isplitl [Hts]; · iexact Hts
    isplitl [Hp]; · iexact Hp
    iexact Hq
  iintro ⟨Hts, Hp, Hq⟩
  isplitl [Hrest Hts]
  · iapply (roPts_join m d c'); isplitl [Hrest] <;> iassumption
  isplitl [Hp]; · iexact Hp
  iexact Hq

end Cert.Proof.KI

end
-- ==== Proof.KI.TileSetup.lean ====
/-
  One vector subcore's task, named: the subcore as a thread, the arrays and scratch buffers as the
  kernel's memrefs, the five DMA semaphores as cells, and the fact the task needs of the node numbers
  (every source and destination node number below 10240, so that each indexed load and store names
  an entry of its 10240-entry table).
-/
import proofs.«213808_g38010460570139_cont_8to1_b_868_22_alg».proof.Proof.KI.Common
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- Every source and destination node number names an entry of the 10240-entry node tables. -/
def TilePre : Prop :=
  ∀ d : Dev nD, (∀ j, (srcA m d j).toNat < 10240) ∧ (∀ j, (dstA m d j).toNat < 10240)

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev iL (L : grid1.Coords) : Fin 16 := Fin.cast bound_one (L 1)
/-- The vector subcore at grid coordinates `L` of device `d`. -/
abbrev thr : Thread nD τ := V d (cV L) (jV L)

/-- The arrays and scratch buffers as the kernel's memrefs. -/
abbrev aV2 : Memref sig .scVector .hbm S10240 .f32 := Memref.whole main_v8_0_scv
abbrev aSrc : Memref sig .scVector .hbm S640000 .i32 := Memref.whole main_v1_scv
abbrev aDst : Memref sig .scVector .hbm S640000 .i32 := Memref.whole main_v3_scv
abbrev aPr : Memref sig .scVector .hbm S640000 .f32 := Memref.whole main_arg2_scv
abbrev aG : Memref sig .scVector .hbm S640000 .f32 := Memref.whole main_v5_scv
abbrev aB : Memref sig .scVector .hbm S640000 .f32 := Memref.whole main_v7_scv
abbrev aPP : Memref sig .scVector .hbm S32x10240 .f32 := Memref.whole main_v9_0_scv
abbrev aQP : Memref sig .scVector .hbm S32x10240 .f32 := Memref.whole main_v9_1_scv
abbrev sTab : Memref sig .scVector .vmem S10240 .f32 := Memref.whole cc1_scratch0
abbrev sAccP : Memref sig .scVector .vmem S10240 .f32 := Memref.whole cc1_scratch1
abbrev sAccQ : Memref sig .scVector .vmem S10240 .f32 := Memref.whole cc1_scratch2
abbrev sSrc : Memref sig .scVector .vmem S8000 .i32 := Memref.whole cc1_scratch3
abbrev sDst : Memref sig .scVector .vmem S8000 .i32 := Memref.whole cc1_scratch4
abbrev sPr : Memref sig .scVector .vmem S8000 .f32 := Memref.whole cc1_scratch5
abbrev sG : Memref sig .scVector .vmem S8000 .f32 := Memref.whole cc1_scratch6
abbrev sB : Memref sig .scVector .vmem S8000 .f32 := Memref.whole cc1_scratch7

/-- A DMA semaphore of the tile, as a cell. -/
abbrev cell (s : DmaSems sig S_) : GSem nD τ sig := (thr d L, SemLoc.dma s.sem)

omit [FloatOps F] in
theorem cell_ne {s s' : DmaSems sig S_} (h : (SemLoc.dma s.sem : SemLoc sig) ≠ SemLoc.dma s'.sem) : cell d L s ≠ cell d L s' :=
  fun e => h (Prod.mk.inj e).2

omit [FloatOps F] in
/-- The tile's five DMA semaphores are among its own cells: each at zero, and the rest. -/
theorem ownSems0_V :
    (ownSems0 (thr d L) : sProp 𝕄)
      = iprop(semVal (cell d L cc1_scratch8) 0 ∗ semVal (cell d L cc1_scratch9) 0 ∗ semVal (cell d L cc1_scoped0) 0 ∗ semVal (cell d L cc1_scoped1) 0 ∗ semVal (cell d L cc1_scoped2) 0
          ∗ bigSep ((((((ownCells (thr d L)).erase (cell d L cc1_scratch8)).erase (cell d L cc1_scratch9)).erase (cell d L cc1_scoped0)).erase (cell d L cc1_scoped1)).erase (cell d L cc1_scoped2)) fun g => semVal g 0) := by
  unfold SparseCore.Cfg.ownSems0
  rw [SparseCore.bigSep_erase' ((mem_ownCells (g := cell d L cc1_scratch8)).mpr ⟨rfl, by show (SemLoc.dma cc1_scratch8.sem : SemLoc sig).isScoped .scVector = true; decide⟩),
    SparseCore.bigSep_erase' (Finset.mem_erase.mpr ⟨cell_ne d L (by decide), (mem_ownCells (g := cell d L cc1_scratch9)).mpr ⟨rfl, by show (SemLoc.dma cc1_scratch9.sem : SemLoc sig).isScoped .scVector = true; decide⟩⟩),
    SparseCore.bigSep_erase' (Finset.mem_erase.mpr ⟨cell_ne d L (by decide), Finset.mem_erase.mpr ⟨cell_ne d L (by decide), (mem_ownCells (g := cell d L cc1_scoped0)).mpr ⟨rfl, by show (SemLoc.dma cc1_scoped0.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell d L cc1_scoped1)).mpr ⟨rfl, by show (SemLoc.dma cc1_scoped1.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc1_scoped2)).mpr ⟨rfl, by show (SemLoc.dma cc1_scoped2.sem : SemLoc sig).isScoped .scVector = true; decide⟩⟩⟩⟩⟩)]

omit [FloatOps F] in
/-- The eight scratch buffers are among the tile's own: they are them, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f)
          ∗ bigSep (((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := ((Proc.scVector (cV L) (jV L)).devRef cc1_scratch6)) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := ((Proc.scVector (cV L) (jV L)).devRef cc1_scratch7)) rfl⟩⟩⟩⟩⟩⟩⟩)]

end Tile

end Cert.Proof.KI

end
-- ==== Proof.KI.TileNames.lean ====
/-
  Names for the tile's proof: the two halves of each of the five double-buffered scratch buffers, as
  the kernel slices them, and the side condition of a loaded vector of node numbers from its entries'
  range.
-/
import proofs.«213808_g38010460570139_cont_8to1_b_868_22_alg».proof.Proof.KI.TileSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev hSrc0 : Memref sig .scVector .vmem S4000 .i32 := sSrc.slice (Rect.unit (s := S8000) ![0] S4000.size inb_S8000_S4000_0) (fun _ => rfl)
abbrev hSrc1 : Memref sig .scVector .vmem S4000 .i32 := sSrc.slice (Rect.unit (s := S8000) ![4000] S4000.size inb_S8000_S4000_4000) (fun _ => rfl)
abbrev hDst0 : Memref sig .scVector .vmem S4000 .i32 := sDst.slice (Rect.unit (s := S8000) ![0] S4000.size inb_S8000_S4000_0) (fun _ => rfl)
abbrev hDst1 : Memref sig .scVector .vmem S4000 .i32 := sDst.slice (Rect.unit (s := S8000) ![4000] S4000.size inb_S8000_S4000_4000) (fun _ => rfl)
abbrev hPr0 : Memref sig .scVector .vmem S4000 .f32 := sPr.slice (Rect.unit (s := S8000) ![0] S4000.size inb_S8000_S4000_0) (fun _ => rfl)
abbrev hPr1 : Memref sig .scVector .vmem S4000 .f32 := sPr.slice (Rect.unit (s := S8000) ![4000] S4000.size inb_S8000_S4000_4000) (fun _ => rfl)
abbrev hG0 : Memref sig .scVector .vmem S4000 .f32 := sG.slice (Rect.unit (s := S8000) ![0] S4000.size inb_S8000_S4000_0) (fun _ => rfl)
abbrev hG1 : Memref sig .scVector .vmem S4000 .f32 := sG.slice (Rect.unit (s := S8000) ![4000] S4000.size inb_S8000_S4000_4000) (fun _ => rfl)
abbrev hB0 : Memref sig .scVector .vmem S4000 .f32 := sB.slice (Rect.unit (s := S8000) ![0] S4000.size inb_S8000_S4000_0) (fun _ => rfl)
abbrev hB1 : Memref sig .scVector .vmem S4000 .f32 := sB.slice (Rect.unit (s := S8000) ![4000] S4000.size inb_S8000_S4000_4000) (fun _ => rfl)

theorem chk3_of {v : IVec S16 32} (h : ∀ x, (v x).toNat < 10240) :
    (∀ a x, ((![v] : Fin 1 → IVec S16 32) a x).toNat < S10240.size a) ∧ (∀ a x, ((![v] : Fin 1 → IVec S16 32) a x).toNat < S10240.size a)
      ∧ (∀ a x, ((![v] : Fin 1 → IVec S16 32) a x).toNat < S10240.size a) := by
  have : ∀ a x, ((![v] : Fin 1 → IVec S16 32) a x).toNat < S10240.size a := by
    intro a x; obtain rfl : a = 0 := Subsingleton.elim _ _; exact h x
  exact ⟨this, this, this⟩
theorem chk2_of {v : IVec S16 32} (h : ∀ x, (v x).toNat < 10240) :
    (∀ a x, ((![v] : Fin 1 → IVec S16 32) a x).toNat < S10240.size a) ∧ (∀ a x, ((![v] : Fin 1 → IVec S16 32) a x).toNat < S10240.size a) := by
  have : ∀ a x, ((![v] : Fin 1 → IVec S16 32) a x).toNat < S10240.size a := by
    intro a x; obtain rfl : a = 0 := Subsingleton.elim _ _; exact h x
  exact ⟨this, this⟩

/-- The transfers' counters inside the launch's resource algebra. -/
abbrev EC : UEmb Counters 𝕄 := countersEmb (U := UU)

/-- One chunk's credit on a DMA semaphore: 4000 words. -/
abbrev NN : ℕ := (hSrc0).view.amount (SemLoc.dma (sig := sig) cc1_scratch8.sem)

end Cert.Proof.KI

end
-- ==== Proof.KI.TileBatch.lean ====
/-
  The tile's double-buffered chunk transfers, named: a chunk's five slices of the edge arrays as the
  kernel slices them, and what a batch of five copies on one DMA semaphore delivers — each scratch
  half rewritten with its array's slice, and the slice back.
-/
import proofs.«213808_g38010460570139_cont_8to1_b_868_22_alg».proof.Proof.KI.TileNames

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Batch

variable (d : Dev nD) (L : grid1.Coords)

abbrev srcSl (o : Fin 1 → Nat) (ho : ∀ a, o a + S4000.size a ≤ S640000.size a) : Memref sig .scVector .hbm S4000 .i32 := aSrc.slice (Rect.unit (s := S640000) o S4000.size ho) (fun _ => rfl)
abbrev dstSl (o : Fin 1 → Nat) (ho : ∀ a, o a + S4000.size a ≤ S640000.size a) : Memref sig .scVector .hbm S4000 .i32 := aDst.slice (Rect.unit (s := S640000) o S4000.size ho) (fun _ => rfl)
abbrev prSl (o : Fin 1 → Nat) (ho : ∀ a, o a + S4000.size a ≤ S640000.size a) : Memref sig .scVector .hbm S4000 .f32 := aPr.slice (Rect.unit (s := S640000) o S4000.size ho) (fun _ => rfl)
abbrev gSl (o : Fin 1 → Nat) (ho : ∀ a, o a + S4000.size a ≤ S640000.size a) : Memref sig .scVector .hbm S4000 .f32 := aG.slice (Rect.unit (s := S640000) o S4000.size ho) (fun _ => rfl)
abbrev bSl (o : Fin 1 → Nat) (ho : ∀ a, o a + S4000.size a ≤ S640000.size a) : Memref sig .scVector .hbm S4000 .f32 := aB.slice (Rect.unit (s := S640000) o S4000.size ho) (fun _ => rfl)

omit [FloatOps F] in
theorem tlt0 : 0 < k1_t2_loop.trips := by decide
omit [FloatOps F] in
theorem tlt1 : 1 < k1_t2_loop.trips := by decide
omit [FloatOps F] in
theorem tlt2 : 2 < k1_t2_loop.trips := by decide
omit [FloatOps F] in
theorem tlt3 : 3 < k1_t2_loop.trips := by decide
omit [FloatOps F] in
theorem tlt4 : 4 < k1_t2_loop.trips := by decide

/-- The chunks' offsets are in range (chunk 0 is `k1_off1_inb`). -/
theorem off_inb1 : ∀ a, (k1_off3 L ⟨0, tlt0⟩) a + S4000.size a ≤ S640000.size a := k1_off3_inb L ⟨0, tlt0⟩ (by decide) (by decide)
theorem off_inb2 : ∀ a, (k1_off4 L ⟨1, tlt1⟩) a + S4000.size a ≤ S640000.size a := k1_off4_inb L ⟨1, tlt1⟩ (by decide) (by decide)
theorem off_inb3 : ∀ a, (k1_off3 L ⟨2, tlt2⟩) a + S4000.size a ≤ S640000.size a := k1_off3_inb L ⟨2, tlt2⟩ (by decide) (by decide)
theorem off_inb4 : ∀ a, (k1_off4 L ⟨3, tlt3⟩) a + S4000.size a ≤ S640000.size a := k1_off4_inb L ⟨3, tlt3⟩ (by decide) (by decide)

def DE (q : PosShare TreeShare) (xs xd : IVec S640000 32) (xp xg xb : FVec F S640000 .f32) (f3 f4 : IVec S8000 32) (f5 f6 f7 : FVec F S8000 .f32) (o : Fin 1 → Nat) (ho : ∀ a, o a + S4000.size a ≤ S640000.size a) : Fin 5 → sProp 𝕄 := fun t =>
  match t with
  | ⟨0, _⟩ => iprop((hSrc0.view.loc (thr d L) ↦[hSrc0.view.set]{fullShare} hSrc0.view.writes (Elt F) f3 [⟨Rect.whole S4000, ReadAs.same.apply ((srcSl o ho).view.read (Elt F) xs)⟩]) ∗ ((srcSl o ho).view.loc (thr d L) ↦[(srcSl o ho).view.set]{q} xs))
  | ⟨1, _⟩ => iprop((hDst0.view.loc (thr d L) ↦[hDst0.view.set]{fullShare} hDst0.view.writes (Elt F) f4 [⟨Rect.whole S4000, ReadAs.same.apply ((dstSl o ho).view.read (Elt F) xd)⟩]) ∗ ((dstSl o ho).view.loc (thr d L) ↦[(dstSl o ho).view.set]{q} xd))
  | ⟨2, _⟩ => iprop((hPr0.view.loc (thr d L) ↦[hPr0.view.set]{fullShare} hPr0.view.writes (Elt F) f5 [⟨Rect.whole S4000, ReadAs.same.apply ((prSl o ho).view.read (Elt F) xp)⟩]) ∗ ((prSl o ho).view.loc (thr d L) ↦[(prSl o ho).view.set]{q} xp))
  | ⟨3, _⟩ => iprop((hG0.view.loc (thr d L) ↦[hG0.view.set]{fullShare} hG0.view.writes (Elt F) f6 [⟨Rect.whole S4000, ReadAs.same.apply ((gSl o ho).view.read (Elt F) xg)⟩]) ∗ ((gSl o ho).view.loc (thr d L) ↦[(gSl o ho).view.set]{q} xg))
  | ⟨4, _⟩ => iprop((hB0.view.loc (thr d L) ↦[hB0.view.set]{fullShare} hB0.view.writes (Elt F) f7 [⟨Rect.whole S4000, ReadAs.same.apply ((bSl o ho).view.read (Elt F) xb)⟩]) ∗ ((bSl o ho).view.loc (thr d L) ↦[(bSl o ho).view.set]{q} xb))
  | ⟨_ + 5, h⟩ => absurd h (by omega)

instance DE_storable (q : PosShare TreeShare) (xs xd : IVec S640000 32) (xp xg xb : FVec F S640000 .f32) (f3 f4 : IVec S8000 32) (f5 f6 f7 : FVec F S8000 .f32) (o : Fin 1 → Nat) (ho : ∀ a, o a + S4000.size a ≤ S640000.size a) (t : Fin 5) :
    BI.Storable (upEmb : UEmb _ 𝕄) (DE d L q xs xd xp xg xb f3 f4 f5 f6 f7 o ho t) := by
  match t with
  | ⟨0, _⟩ => unfold DE; infer_instance
  | ⟨1, _⟩ => unfold DE; infer_instance
  | ⟨2, _⟩ => unfold DE; infer_instance
  | ⟨3, _⟩ => unfold DE; infer_instance
  | ⟨4, _⟩ => unfold DE; infer_instance
  | ⟨_ + 5, h⟩ => exact absurd h (by omega)

def DO (q : PosShare TreeShare) (xs xd : IVec S640000 32) (xp xg xb : FVec F S640000 .f32) (f3 f4 : IVec S8000 32) (f5 f6 f7 : FVec F S8000 .f32) (o : Fin 1 → Nat) (ho : ∀ a, o a + S4000.size a ≤ S640000.size a) : Fin 5 → sProp 𝕄 := fun t =>
  match t with
  | ⟨0, _⟩ => iprop((hSrc1.view.loc (thr d L) ↦[hSrc1.view.set]{fullShare} hSrc1.view.writes (Elt F) f3 [⟨Rect.whole S4000, ReadAs.same.apply ((srcSl o ho).view.read (Elt F) xs)⟩]) ∗ ((srcSl o ho).view.loc (thr d L) ↦[(srcSl o ho).view.set]{q} xs))
  | ⟨1, _⟩ => iprop((hDst1.view.loc (thr d L) ↦[hDst1.view.set]{fullShare} hDst1.view.writes (Elt F) f4 [⟨Rect.whole S4000, ReadAs.same.apply ((dstSl o ho).view.read (Elt F) xd)⟩]) ∗ ((dstSl o ho).view.loc (thr d L) ↦[(dstSl o ho).view.set]{q} xd))
  | ⟨2, _⟩ => iprop((hPr1.view.loc (thr d L) ↦[hPr1.view.set]{fullShare} hPr1.view.writes (Elt F) f5 [⟨Rect.whole S4000, ReadAs.same.apply ((prSl o ho).view.read (Elt F) xp)⟩]) ∗ ((prSl o ho).view.loc (thr d L) ↦[(prSl o ho).view.set]{q} xp))
  | ⟨3, _⟩ => iprop((hG1.view.loc (thr d L) ↦[hG1.view.set]{fullShare} hG1.view.writes (Elt F) f6 [⟨Rect.whole S4000, ReadAs.same.apply ((gSl o ho).view.read (Elt F) xg)⟩]) ∗ ((gSl o ho).view.loc (thr d L) ↦[(gSl o ho).view.set]{q} xg))
  | ⟨4, _⟩ => iprop((hB1.view.loc (thr d L) ↦[hB1.view.set]{fullShare} hB1.view.writes (Elt F) f7 [⟨Rect.whole S4000, ReadAs.same.apply ((bSl o ho).view.read (Elt F) xb)⟩]) ∗ ((bSl o ho).view.loc (thr d L) ↦[(bSl o ho).view.set]{q} xb))
  | ⟨_ + 5, h⟩ => absurd h (by omega)

instance DO_storable (q : PosShare TreeShare) (xs xd : IVec S640000 32) (xp xg xb : FVec F S640000 .f32) (f3 f4 : IVec S8000 32) (f5 f6 f7 : FVec F S8000 .f32) (o : Fin 1 → Nat) (ho : ∀ a, o a + S4000.size a ≤ S640000.size a) (t : Fin 5) :
    BI.Storable (upEmb : UEmb _ 𝕄) (DO d L q xs xd xp xg xb f3 f4 f5 f6 f7 o ho t) := by
  match t with
  | ⟨0, _⟩ => unfold DO; infer_instance
  | ⟨1, _⟩ => unfold DO; infer_instance
  | ⟨2, _⟩ => unfold DO; infer_instance
  | ⟨3, _⟩ => unfold DO; infer_instance
  | ⟨4, _⟩ => unfold DO; infer_instance
  | ⟨_ + 5, h⟩ => exact absurd h (by omega)

end Batch

end Cert.Proof.KI

end
-- ==== Proof.KI.TileSplit.lean ====
/-
  The tile's buffers cut as the kernel addresses them: each 8000-entry scratch as its two halves of
  4000, and each 640000-entry edge array as the tile's five chunks of 4000 and the rest. The halves
  are disjoint and cover the scratch; the five chunks, 4000 apart from the tile's first edge, are
  pairwise disjoint; so a points-to of the whole buffer is the separating conjunction of the pieces'.
-/
import proofs.«213808_g38010460570139_cont_8to1_b_868_22_alg».proof.Proof.KI.TileBatch

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## Points-to along element sets, as equations -/

section Generic

variable {ℓ : Loc nD τ sig} {q : PosShare TreeShare}

omit [FloatOps F] in
/-- Carving a subset out of a points-to, as an equation. -/
theorem pts_carve {I Sx : Finset (Idx ℓ)} (h : I ⊆ Sx) (f : Buf (Elt F) ℓ) :
    (ℓ ↦[Sx]{q} f : sProp 𝕄) = iprop((ℓ ↦[I]{q} f) ∗ ℓ ↦[Sx \ I]{q} f) :=
  BI.equiv_iff.mp ⟨(pointsTo_split_subset h).1, (pointsTo_split_subset h).2⟩

omit [FloatOps F] in
/-- Five pairwise disjoint element sets carved one after another out of the whole buffer, and what is left. -/
theorem pts_carve5 (x : Buf (Elt F) ℓ) (I0 I1 I2 I3 I4 : Finset (Idx ℓ))
    (h01 : Disjoint I0 I1) (h02 : Disjoint I0 I2) (h03 : Disjoint I0 I3) (h04 : Disjoint I0 I4)
    (h12 : Disjoint I1 I2) (h13 : Disjoint I1 I3) (h14 : Disjoint I1 I4)
    (h23 : Disjoint I2 I3) (h24 : Disjoint I2 I4) (h34 : Disjoint I3 I4) :
    (ℓ ↦[Finset.univ]{q} x : sProp 𝕄)
      = iprop((ℓ ↦[I0]{q} x) ∗ (ℓ ↦[I1]{q} x) ∗ (ℓ ↦[I2]{q} x) ∗ (ℓ ↦[I3]{q} x) ∗ (ℓ ↦[I4]{q} x)
          ∗ ℓ ↦[((((Finset.univ \ I0) \ I1) \ I2) \ I3) \ I4]{q} x) := by
  have s1 : I1 ⊆ Finset.univ \ I0 := fun i hi => Finset.mem_sdiff.mpr ⟨Finset.mem_univ _, fun h0 => Finset.disjoint_left.mp h01 h0 hi⟩
  have s2 : I2 ⊆ (Finset.univ \ I0) \ I1 := fun i hi => Finset.mem_sdiff.mpr
    ⟨Finset.mem_sdiff.mpr ⟨Finset.mem_univ _, fun h0 => Finset.disjoint_left.mp h02 h0 hi⟩, fun h1 => Finset.disjoint_left.mp h12 h1 hi⟩
  have s3 : I3 ⊆ ((Finset.univ \ I0) \ I1) \ I2 := fun i hi => Finset.mem_sdiff.mpr
    ⟨Finset.mem_sdiff.mpr ⟨Finset.mem_sdiff.mpr ⟨Finset.mem_univ _, fun h0 => Finset.disjoint_left.mp h03 h0 hi⟩,
      fun h1 => Finset.disjoint_left.mp h13 h1 hi⟩, fun h2 => Finset.disjoint_left.mp h23 h2 hi⟩
  have s4 : I4 ⊆ (((Finset.univ \ I0) \ I1) \ I2) \ I3 := fun i hi => Finset.mem_sdiff.mpr
    ⟨Finset.mem_sdiff.mpr ⟨Finset.mem_sdiff.mpr ⟨Finset.mem_sdiff.mpr ⟨Finset.mem_univ _, fun h0 => Finset.disjoint_left.mp h04 h0 hi⟩,
      fun h1 => Finset.disjoint_left.mp h14 h1 hi⟩, fun h2 => Finset.disjoint_left.mp h24 h2 hi⟩, fun h3 => Finset.disjoint_left.mp h34 h3 hi⟩
  rw [pts_carve (Finset.subset_univ I0) x, pts_carve s1 x, pts_carve s2 x, pts_carve s3 x, pts_carve s4 x]

omit [FloatOps F] in
/-- Two disjoint element sets that cover the buffer. -/
theorem pts_halves (f : Buf (Elt F) ℓ) {I J : Finset (Idx ℓ)} (hd : Disjoint I J) (hc : I ∪ J = Finset.univ) :
    (ℓ ↦[Finset.univ]{q} f : sProp 𝕄) = iprop((ℓ ↦[I]{q} f) ∗ ℓ ↦[J]{q} f) := by
  rw [← hc]
  exact BI.equiv_iff.mp ⟨(pointsTo_union hd).1, (pointsTo_union hd).2⟩

omit [FloatOps F] in
/-- The two halves held at different contents join to the whole buffer at some contents. -/
theorem pts_halves_join (f g : Buf (Elt F) ℓ) {I J : Finset (Idx ℓ)} (hd : Disjoint I J) (hc : I ∪ J = Finset.univ) :
    iprop((ℓ ↦[I]{q} f) ∗ ℓ ↦[J]{q} g) ⊢ (iprop(∃ h, ℓ ↦[Finset.univ]{q} h) : sProp 𝕄) := by
  iintro H
  ihave H' := (pointsTo_join hd) $$ H
  rw [hc]
  iexists J.piecewise g f
  iexact H'

end Generic

/-! ## The two halves of an 8000-entry scratch -/

abbrev half0 : Rect S8000 := Rect.unit (s := S8000) ![0] S4000.size inb_S8000_S4000_0
abbrev half1 : Rect S8000 := Rect.unit (s := S8000) ![4000] S4000.size inb_S8000_S4000_4000

omit [FloatOps F] in
theorem halves_disjoint : Disjoint half0.set half1.set :=
  Rect.unit_disjoint 0 (Or.inl (by decide))

omit [FloatOps F] in
theorem halves_cover : half0.set ∪ half1.set = Finset.univ := by
  ext i
  simp only [Finset.mem_union, Rect.mem_set_unit, Finset.mem_univ, iff_true]
  have hi : (i 0).val < 8000 := (i 0).isLt
  by_cases h : (i 0).val < 4000
  · left; intro a; obtain rfl : a = 0 := Subsingleton.elim _ _
    show 0 ≤ (i 0).val ∧ (i 0).val < 0 + 4000
    omega
  · right; intro a; obtain rfl : a = 0 := Subsingleton.elim _ _
    show 4000 ≤ (i 0).val ∧ (i 0).val < 4000 + 4000
    omega

/-! ## The tile's five chunks of a 640000-entry edge array -/

section Chunks

variable (L : grid1.Coords)

/-- The tile's first edge. -/
abbrev chunkBase : Nat := 40000 * (L 1).val + 20000 * (L 0).val

omit [FloatOps F] in
theorem off0_val : (k1_off1 L) 0 = chunkBase L := by rw [k1_off1_eq]; rfl
omit [FloatOps F] in
theorem off1_val : (k1_off3 L ⟨0, tlt0⟩) 0 = chunkBase L + 4000 := by rw [k1_off3_eq]; rfl
omit [FloatOps F] in
theorem off2_val : (k1_off4 L ⟨1, tlt1⟩) 0 = chunkBase L + 8000 := by
  rw [k1_off4_eq]; show chunkBase L + 4000 * 1 + 4000 = chunkBase L + 8000; omega
omit [FloatOps F] in
theorem off3_val : (k1_off3 L ⟨2, tlt2⟩) 0 = chunkBase L + 12000 := by
  rw [k1_off3_eq]; show chunkBase L + 4000 * 2 + 4000 = chunkBase L + 12000; omega
omit [FloatOps F] in
theorem off4_val : (k1_off4 L ⟨3, tlt3⟩) 0 = chunkBase L + 16000 := by
  rw [k1_off4_eq]; show chunkBase L + 4000 * 3 + 4000 = chunkBase L + 16000; omega

omit [FloatOps F] in
/-- Two 4000-entry stretches of an edge array at least 4000 apart are disjoint. -/
theorem stretch_disjoint {o o' : Fin 1 → Nat} {ho : ∀ a, o a + S4000.size a ≤ S640000.size a} {ho' : ∀ a, o' a + S4000.size a ≤ S640000.size a}
    (h : o 0 + 4000 ≤ o' 0 ∨ o' 0 + 4000 ≤ o 0) :
    Disjoint (Rect.unit (s := S640000) o S4000.size ho).set (Rect.unit (s := S640000) o' S4000.size ho').set :=
  Rect.unit_disjoint 0 h

end Chunks

/-! ## The tile's ten scratch halves and twenty-five chunks -/

section Tile

variable (d : Dev nD) (L : grid1.Coords)

/-! ### Src -/

omit [FloatOps F] in
theorem set_hSrc0 : (hSrc0).view.set = half0.set := View.set_slice_whole (cc1_scratch3 : Ref sig .scVector) half0
omit [FloatOps F] in
theorem set_hSrc1 : (hSrc1).view.set = half1.set := View.set_slice_whole (cc1_scratch3 : Ref sig .scVector) half1

omit [FloatOps F] in
theorem scratch_split_Src (f : Buf (Elt F) ((sSrc).view.loc (thr d L))) :
    ((sSrc).view.loc (thr d L) ↦{fullShare} f : sProp 𝕄)
      ⊣⊢ iprop(((hSrc0).view.loc (thr d L) ↦[(hSrc0).view.set]{fullShare} f) ∗ ((hSrc1).view.loc (thr d L) ↦[(hSrc1).view.set]{fullShare} f)) :=
  BiEntails.of_eq (pts_halves (ℓ := (sSrc).view.loc (thr d L)) f (I := (hSrc0).view.set) (J := (hSrc1).view.set)
    (by rw [set_hSrc0, set_hSrc1]; exact halves_disjoint) (by rw [set_hSrc0, set_hSrc1]; exact halves_cover))

omit [FloatOps F] in
theorem scratch_join_Src (f g : Buf (Elt F) ((sSrc).view.loc (thr d L))) :
    iprop(((hSrc0).view.loc (thr d L) ↦[(hSrc0).view.set]{fullShare} f) ∗ ((hSrc1).view.loc (thr d L) ↦[(hSrc1).view.set]{fullShare} g))
      ⊢ (iprop(∃ h, (sSrc).view.loc (thr d L) ↦{fullShare} h) : sProp 𝕄) :=
  pts_halves_join (ℓ := (sSrc).view.loc (thr d L)) f g (I := (hSrc0).view.set) (J := (hSrc1).view.set)
    (by rw [set_hSrc0, set_hSrc1]; exact halves_disjoint) (by rw [set_hSrc0, set_hSrc1]; exact halves_cover)

omit [FloatOps F] in
theorem set_srcSl (o : Fin 1 → Nat) (ho : ∀ a, o a + S4000.size a ≤ S640000.size a) :
    (srcSl o ho).view.set = (Rect.unit (s := S640000) o S4000.size ho).set :=
  View.set_slice_whole (main_v1_scv : Ref sig .scVector) (Rect.unit (s := S640000) o S4000.size ho)

omit [FloatOps F] in
theorem array_split_Src (q : PosShare TreeShare) (x : Buf (Elt F) ((aSrc).view.loc (thr d L))) :
    ((aSrc).view.loc (thr d L) ↦{q} x : sProp 𝕄)
      ⊣⊢ iprop(((srcSl (k1_off1 L) (k1_off1_inb L)).view.loc (thr d L) ↦[(srcSl (k1_off1 L) (k1_off1_inb L)).view.set]{q} x)
        ∗ ((srcSl (k1_off3 L ⟨0, tlt0⟩) (off_inb1 L)).view.loc (thr d L) ↦[(srcSl (k1_off3 L ⟨0, tlt0⟩) (off_inb1 L)).view.set]{q} x)
        ∗ ((srcSl (k1_off4 L ⟨1, tlt1⟩) (off_inb2 L)).view.loc (thr d L) ↦[(srcSl (k1_off4 L ⟨1, tlt1⟩) (off_inb2 L)).view.set]{q} x)
        ∗ ((srcSl (k1_off3 L ⟨2, tlt2⟩) (off_inb3 L)).view.loc (thr d L) ↦[(srcSl (k1_off3 L ⟨2, tlt2⟩) (off_inb3 L)).view.set]{q} x)
        ∗ ((srcSl (k1_off4 L ⟨3, tlt3⟩) (off_inb4 L)).view.loc (thr d L) ↦[(srcSl (k1_off4 L ⟨3, tlt3⟩) (off_inb4 L)).view.set]{q} x)
        ∗ ((aSrc).view.loc (thr d L) ↦[((((Finset.univ \ (srcSl (k1_off1 L) (k1_off1_inb L)).view.set) \ (srcSl (k1_off3 L ⟨0, tlt0⟩) (off_inb1 L)).view.set)
            \ (srcSl (k1_off4 L ⟨1, tlt1⟩) (off_inb2 L)).view.set) \ (srcSl (k1_off3 L ⟨2, tlt2⟩) (off_inb3 L)).view.set)
            \ (srcSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aSrc).view.loc (thr d L)) x _ _ _ _ _ ?_ ?_ ?_ ?_ ?_ ?_ ?_ ?_ ?_ ?_) <;>
    (rw [set_srcSl, set_srcSl]; exact stretch_disjoint (by omega))

/-! ### Dst -/

omit [FloatOps F] in
theorem set_hDst0 : (hDst0).view.set = half0.set := View.set_slice_whole (cc1_scratch4 : Ref sig .scVector) half0
omit [FloatOps F] in
theorem set_hDst1 : (hDst1).view.set = half1.set := View.set_slice_whole (cc1_scratch4 : Ref sig .scVector) half1

omit [FloatOps F] in
theorem scratch_split_Dst (f : Buf (Elt F) ((sDst).view.loc (thr d L))) :
    ((sDst).view.loc (thr d L) ↦{fullShare} f : sProp 𝕄)
      ⊣⊢ iprop(((hDst0).view.loc (thr d L) ↦[(hDst0).view.set]{fullShare} f) ∗ ((hDst1).view.loc (thr d L) ↦[(hDst1).view.set]{fullShare} f)) :=
  BiEntails.of_eq (pts_halves (ℓ := (sDst).view.loc (thr d L)) f (I := (hDst0).view.set) (J := (hDst1).view.set)
    (by rw [set_hDst0, set_hDst1]; exact halves_disjoint) (by rw [set_hDst0, set_hDst1]; exact halves_cover))

omit [FloatOps F] in
theorem scratch_join_Dst (f g : Buf (Elt F) ((sDst).view.loc (thr d L))) :
    iprop(((hDst0).view.loc (thr d L) ↦[(hDst0).view.set]{fullShare} f) ∗ ((hDst1).view.loc (thr d L) ↦[(hDst1).view.set]{fullShare} g))
      ⊢ (iprop(∃ h, (sDst).view.loc (thr d L) ↦{fullShare} h) : sProp 𝕄) :=
  pts_halves_join (ℓ := (sDst).view.loc (thr d L)) f g (I := (hDst0).view.set) (J := (hDst1).view.set)
    (by rw [set_hDst0, set_hDst1]; exact halves_disjoint) (by rw [set_hDst0, set_hDst1]; exact halves_cover)

omit [FloatOps F] in
theorem set_dstSl (o : Fin 1 → Nat) (ho : ∀ a, o a + S4000.size a ≤ S640000.size a) :
    (dstSl o ho).view.set = (Rect.unit (s := S640000) o S4000.size ho).set :=
  View.set_slice_whole (main_v3_scv : Ref sig .scVector) (Rect.unit (s := S640000) o S4000.size ho)

omit [FloatOps F] in
theorem array_split_Dst (q : PosShare TreeShare) (x : Buf (Elt F) ((aDst).view.loc (thr d L))) :
    ((aDst).view.loc (thr d L) ↦{q} x : sProp 𝕄)
      ⊣⊢ iprop(((dstSl (k1_off1 L) (k1_off1_inb L)).view.loc (thr d L) ↦[(dstSl (k1_off1 L) (k1_off1_inb L)).view.set]{q} x)
        ∗ ((dstSl (k1_off3 L ⟨0, tlt0⟩) (off_inb1 L)).view.loc (thr d L) ↦[(dstSl (k1_off3 L ⟨0, tlt0⟩) (off_inb1 L)).view.set]{q} x)
        ∗ ((dstSl (k1_off4 L ⟨1, tlt1⟩) (off_inb2 L)).view.loc (thr d L) ↦[(dstSl (k1_off4 L ⟨1, tlt1⟩) (off_inb2 L)).view.set]{q} x)
        ∗ ((dstSl (k1_off3 L ⟨2, tlt2⟩) (off_inb3 L)).view.loc (thr d L) ↦[(dstSl (k1_off3 L ⟨2, tlt2⟩) (off_inb3 L)).view.set]{q} x)
        ∗ ((dstSl (k1_off4 L ⟨3, tlt3⟩) (off_inb4 L)).view.loc (thr d L) ↦[(dstSl (k1_off4 L ⟨3, tlt3⟩) (off_inb4 L)).view.set]{q} x)
        ∗ ((aDst).view.loc (thr d L) ↦[((((Finset.univ \ (dstSl (k1_off1 L) (k1_off1_inb L)).view.set) \ (dstSl (k1_off3 L ⟨0, tlt0⟩) (off_inb1 L)).view.set)
            \ (dstSl (k1_off4 L ⟨1, tlt1⟩) (off_inb2 L)).view.set) \ (dstSl (k1_off3 L ⟨2, tlt2⟩) (off_inb3 L)).view.set)
            \ (dstSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aDst).view.loc (thr d L)) x _ _ _ _ _ ?_ ?_ ?_ ?_ ?_ ?_ ?_ ?_ ?_ ?_) <;>
    (rw [set_dstSl, set_dstSl]; exact stretch_disjoint (by omega))

/-! ### Pr -/

omit [FloatOps F] in
theorem set_hPr0 : (hPr0).view.set = half0.set := View.set_slice_whole (cc1_scratch5 : Ref sig .scVector) half0
omit [FloatOps F] in
theorem set_hPr1 : (hPr1).view.set = half1.set := View.set_slice_whole (cc1_scratch5 : Ref sig .scVector) half1

omit [FloatOps F] in
theorem scratch_split_Pr (f : Buf (Elt F) ((sPr).view.loc (thr d L))) :
    ((sPr).view.loc (thr d L) ↦{fullShare} f : sProp 𝕄)
      ⊣⊢ iprop(((hPr0).view.loc (thr d L) ↦[(hPr0).view.set]{fullShare} f) ∗ ((hPr1).view.loc (thr d L) ↦[(hPr1).view.set]{fullShare} f)) :=
  BiEntails.of_eq (pts_halves (ℓ := (sPr).view.loc (thr d L)) f (I := (hPr0).view.set) (J := (hPr1).view.set)
    (by rw [set_hPr0, set_hPr1]; exact halves_disjoint) (by rw [set_hPr0, set_hPr1]; exact halves_cover))

omit [FloatOps F] in
theorem scratch_join_Pr (f g : Buf (Elt F) ((sPr).view.loc (thr d L))) :
    iprop(((hPr0).view.loc (thr d L) ↦[(hPr0).view.set]{fullShare} f) ∗ ((hPr1).view.loc (thr d L) ↦[(hPr1).view.set]{fullShare} g))
      ⊢ (iprop(∃ h, (sPr).view.loc (thr d L) ↦{fullShare} h) : sProp 𝕄) :=
  pts_halves_join (ℓ := (sPr).view.loc (thr d L)) f g (I := (hPr0).view.set) (J := (hPr1).view.set)
    (by rw [set_hPr0, set_hPr1]; exact halves_disjoint) (by rw [set_hPr0, set_hPr1]; exact halves_cover)

omit [FloatOps F] in
theorem set_prSl (o : Fin 1 → Nat) (ho : ∀ a, o a + S4000.size a ≤ S640000.size a) :
    (prSl o ho).view.set = (Rect.unit (s := S640000) o S4000.size ho).set :=
  View.set_slice_whole (main_arg2_scv : Ref sig .scVector) (Rect.unit (s := S640000) o S4000.size ho)

omit [FloatOps F] in
theorem array_split_Pr (q : PosShare TreeShare) (x : Buf (Elt F) ((aPr).view.loc (thr d L))) :
    ((aPr).view.loc (thr d L) ↦{q} x : sProp 𝕄)
      ⊣⊢ iprop(((prSl (k1_off1 L) (k1_off1_inb L)).view.loc (thr d L) ↦[(prSl (k1_off1 L) (k1_off1_inb L)).view.set]{q} x)
        ∗ ((prSl (k1_off3 L ⟨0, tlt0⟩) (off_inb1 L)).view.loc (thr d L) ↦[(prSl (k1_off3 L ⟨0, tlt0⟩) (off_inb1 L)).view.set]{q} x)
        ∗ ((prSl (k1_off4 L ⟨1, tlt1⟩) (off_inb2 L)).view.loc (thr d L) ↦[(prSl (k1_off4 L ⟨1, tlt1⟩) (off_inb2 L)).view.set]{q} x)
        ∗ ((prSl (k1_off3 L ⟨2, tlt2⟩) (off_inb3 L)).view.loc (thr d L) ↦[(prSl (k1_off3 L ⟨2, tlt2⟩) (off_inb3 L)).view.set]{q} x)
        ∗ ((prSl (k1_off4 L ⟨3, tlt3⟩) (off_inb4 L)).view.loc (thr d L) ↦[(prSl (k1_off4 L ⟨3, tlt3⟩) (off_inb4 L)).view.set]{q} x)
        ∗ ((aPr).view.loc (thr d L) ↦[((((Finset.univ \ (prSl (k1_off1 L) (k1_off1_inb L)).view.set) \ (prSl (k1_off3 L ⟨0, tlt0⟩) (off_inb1 L)).view.set)
            \ (prSl (k1_off4 L ⟨1, tlt1⟩) (off_inb2 L)).view.set) \ (prSl (k1_off3 L ⟨2, tlt2⟩) (off_inb3 L)).view.set)
            \ (prSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aPr).view.loc (thr d L)) x _ _ _ _ _ ?_ ?_ ?_ ?_ ?_ ?_ ?_ ?_ ?_ ?_) <;>
    (rw [set_prSl, set_prSl]; exact stretch_disjoint (by omega))

/-! ### G -/

omit [FloatOps F] in
theorem set_hG0 : (hG0).view.set = half0.set := View.set_slice_whole (cc1_scratch6 : Ref sig .scVector) half0
omit [FloatOps F] in
theorem set_hG1 : (hG1).view.set = half1.set := View.set_slice_whole (cc1_scratch6 : Ref sig .scVector) half1

omit [FloatOps F] in
theorem scratch_split_G (f : Buf (Elt F) ((sG).view.loc (thr d L))) :
    ((sG).view.loc (thr d L) ↦{fullShare} f : sProp 𝕄)
      ⊣⊢ iprop(((hG0).view.loc (thr d L) ↦[(hG0).view.set]{fullShare} f) ∗ ((hG1).view.loc (thr d L) ↦[(hG1).view.set]{fullShare} f)) :=
  BiEntails.of_eq (pts_halves (ℓ := (sG).view.loc (thr d L)) f (I := (hG0).view.set) (J := (hG1).view.set)
    (by rw [set_hG0, set_hG1]; exact halves_disjoint) (by rw [set_hG0, set_hG1]; exact halves_cover))

omit [FloatOps F] in
theorem scratch_join_G (f g : Buf (Elt F) ((sG).view.loc (thr d L))) :
    iprop(((hG0).view.loc (thr d L) ↦[(hG0).view.set]{fullShare} f) ∗ ((hG1).view.loc (thr d L) ↦[(hG1).view.set]{fullShare} g))
      ⊢ (iprop(∃ h, (sG).view.loc (thr d L) ↦{fullShare} h) : sProp 𝕄) :=
  pts_halves_join (ℓ := (sG).view.loc (thr d L)) f g (I := (hG0).view.set) (J := (hG1).view.set)
    (by rw [set_hG0, set_hG1]; exact halves_disjoint) (by rw [set_hG0, set_hG1]; exact halves_cover)

omit [FloatOps F] in
theorem set_gSl (o : Fin 1 → Nat) (ho : ∀ a, o a + S4000.size a ≤ S640000.size a) :
    (gSl o ho).view.set = (Rect.unit (s := S640000) o S4000.size ho).set :=
  View.set_slice_whole (main_v5_scv : Ref sig .scVector) (Rect.unit (s := S640000) o S4000.size ho)

omit [FloatOps F] in
theorem array_split_G (q : PosShare TreeShare) (x : Buf (Elt F) ((aG).view.loc (thr d L))) :
    ((aG).view.loc (thr d L) ↦{q} x : sProp 𝕄)
      ⊣⊢ iprop(((gSl (k1_off1 L) (k1_off1_inb L)).view.loc (thr d L) ↦[(gSl (k1_off1 L) (k1_off1_inb L)).view.set]{q} x)
        ∗ ((gSl (k1_off3 L ⟨0, tlt0⟩) (off_inb1 L)).view.loc (thr d L) ↦[(gSl (k1_off3 L ⟨0, tlt0⟩) (off_inb1 L)).view.set]{q} x)
        ∗ ((gSl (k1_off4 L ⟨1, tlt1⟩) (off_inb2 L)).view.loc (thr d L) ↦[(gSl (k1_off4 L ⟨1, tlt1⟩) (off_inb2 L)).view.set]{q} x)
        ∗ ((gSl (k1_off3 L ⟨2, tlt2⟩) (off_inb3 L)).view.loc (thr d L) ↦[(gSl (k1_off3 L ⟨2, tlt2⟩) (off_inb3 L)).view.set]{q} x)
        ∗ ((gSl (k1_off4 L ⟨3, tlt3⟩) (off_inb4 L)).view.loc (thr d L) ↦[(gSl (k1_off4 L ⟨3, tlt3⟩) (off_inb4 L)).view.set]{q} x)
        ∗ ((aG).view.loc (thr d L) ↦[((((Finset.univ \ (gSl (k1_off1 L) (k1_off1_inb L)).view.set) \ (gSl (k1_off3 L ⟨0, tlt0⟩) (off_inb1 L)).view.set)
            \ (gSl (k1_off4 L ⟨1, tlt1⟩) (off_inb2 L)).view.set) \ (gSl (k1_off3 L ⟨2, tlt2⟩) (off_inb3 L)).view.set)
            \ (gSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aG).view.loc (thr d L)) x _ _ _ _ _ ?_ ?_ ?_ ?_ ?_ ?_ ?_ ?_ ?_ ?_) <;>
    (rw [set_gSl, set_gSl]; exact stretch_disjoint (by omega))

/-! ### B -/

omit [FloatOps F] in
theorem set_hB0 : (hB0).view.set = half0.set := View.set_slice_whole (cc1_scratch7 : Ref sig .scVector) half0
omit [FloatOps F] in
theorem set_hB1 : (hB1).view.set = half1.set := View.set_slice_whole (cc1_scratch7 : Ref sig .scVector) half1

omit [FloatOps F] in
theorem scratch_split_B (f : Buf (Elt F) ((sB).view.loc (thr d L))) :
    ((sB).view.loc (thr d L) ↦{fullShare} f : sProp 𝕄)
      ⊣⊢ iprop(((hB0).view.loc (thr d L) ↦[(hB0).view.set]{fullShare} f) ∗ ((hB1).view.loc (thr d L) ↦[(hB1).view.set]{fullShare} f)) :=
  BiEntails.of_eq (pts_halves (ℓ := (sB).view.loc (thr d L)) f (I := (hB0).view.set) (J := (hB1).view.set)
    (by rw [set_hB0, set_hB1]; exact halves_disjoint) (by rw [set_hB0, set_hB1]; exact halves_cover))

omit [FloatOps F] in
theorem scratch_join_B (f g : Buf (Elt F) ((sB).view.loc (thr d L))) :
    iprop(((hB0).view.loc (thr d L) ↦[(hB0).view.set]{fullShare} f) ∗ ((hB1).view.loc (thr d L) ↦[(hB1).view.set]{fullShare} g))
      ⊢ (iprop(∃ h, (sB).view.loc (thr d L) ↦{fullShare} h) : sProp 𝕄) :=
  pts_halves_join (ℓ := (sB).view.loc (thr d L)) f g (I := (hB0).view.set) (J := (hB1).view.set)
    (by rw [set_hB0, set_hB1]; exact halves_disjoint) (by rw [set_hB0, set_hB1]; exact halves_cover)

omit [FloatOps F] in
theorem set_bSl (o : Fin 1 → Nat) (ho : ∀ a, o a + S4000.size a ≤ S640000.size a) :
    (bSl o ho).view.set = (Rect.unit (s := S640000) o S4000.size ho).set :=
  View.set_slice_whole (main_v7_scv : Ref sig .scVector) (Rect.unit (s := S640000) o S4000.size ho)

omit [FloatOps F] in
theorem array_split_B (q : PosShare TreeShare) (x : Buf (Elt F) ((aB).view.loc (thr d L))) :
    ((aB).view.loc (thr d L) ↦{q} x : sProp 𝕄)
      ⊣⊢ iprop(((bSl (k1_off1 L) (k1_off1_inb L)).view.loc (thr d L) ↦[(bSl (k1_off1 L) (k1_off1_inb L)).view.set]{q} x)
        ∗ ((bSl (k1_off3 L ⟨0, tlt0⟩) (off_inb1 L)).view.loc (thr d L) ↦[(bSl (k1_off3 L ⟨0, tlt0⟩) (off_inb1 L)).view.set]{q} x)
        ∗ ((bSl (k1_off4 L ⟨1, tlt1⟩) (off_inb2 L)).view.loc (thr d L) ↦[(bSl (k1_off4 L ⟨1, tlt1⟩) (off_inb2 L)).view.set]{q} x)
        ∗ ((bSl (k1_off3 L ⟨2, tlt2⟩) (off_inb3 L)).view.loc (thr d L) ↦[(bSl (k1_off3 L ⟨2, tlt2⟩) (off_inb3 L)).view.set]{q} x)
        ∗ ((bSl (k1_off4 L ⟨3, tlt3⟩) (off_inb4 L)).view.loc (thr d L) ↦[(bSl (k1_off4 L ⟨3, tlt3⟩) (off_inb4 L)).view.set]{q} x)
        ∗ ((aB).view.loc (thr d L) ↦[((((Finset.univ \ (bSl (k1_off1 L) (k1_off1_inb L)).view.set) \ (bSl (k1_off3 L ⟨0, tlt0⟩) (off_inb1 L)).view.set)
            \ (bSl (k1_off4 L ⟨1, tlt1⟩) (off_inb2 L)).view.set) \ (bSl (k1_off3 L ⟨2, tlt2⟩) (off_inb3 L)).view.set)
            \ (bSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aB).view.loc (thr d L)) x _ _ _ _ _ ?_ ?_ ?_ ?_ ?_ ?_ ?_ ?_ ?_ ?_) <;>
    (rw [set_bSl, set_bSl]; exact stretch_disjoint (by omega))

end Tile

end Cert.Proof.KI

end
-- ==== Proof.KI.Lanes.lean ====
/-
  Index facts about sixteen-lane windows of the edge arrays and the numbering of a tile's groups.

  A tile's 20000 edges are walked as 5 chunks of 4000; a chunk as 50 rounds of 5 groups of sixteen. The
  group at chunk `c`, round `i`, place `u` starts `4000 c + 80 i + 16 u` edges into the tile, which is
  sixteen times its running number `250 c + 5 i + u`. A sixteen-lane read at offset `o` of a 4000-entry
  window that holds the entries of an edge array from `off` on is the array's sixteen entries from
  `off + o` on. For any float instance and any element type.
-/
import proofs.«213808_g38010460570139_cont_8to1_b_868_22_alg».proof.Proof.KI.Spec

noncomputable section

namespace Cert.KernelIdeal.Spec

open Idealize.ShloMosaic Cert.KernelIdeal

variable {F : FTy → Type} [FloatOps F]

/-! ### Coordinates of the named indices -/

theorem ln_val (k : Fin 16) : ((ln k) 0).val = k.val := rfl
theorem nd_val (n : Fin 10240) : ((nd n) 0).val = n.val := rfl
theorem ed_val_min (n : Nat) : ((ed n) 0).val = min n 639999 := rfl

/-- Below the array's length the clamp does nothing. -/
theorem ed_val {n : Nat} (h : n < 640000) : ((ed n) 0).val = n := by
  show min n 639999 = n
  omega

/-- A lane index is the named index of its own coordinate. -/
theorem ln_eta (j : S16.Idx) : ln (j 0) = j := by
  funext a
  obtain rfl : a = 0 := Fin.eq_zero a
  exact Fin.ext rfl

/-- A node index is the named index of its own coordinate. -/
theorem nd_eta (j : S10240.Idx) : nd (j 0) = j := by
  funext a
  obtain rfl : a = 0 := Fin.eq_zero a
  exact Fin.ext rfl

/-- An edge index is the clamped index of its own coordinate. -/
theorem ed_eta (j : S640000.Idx) : ed (j 0).val = j := by
  funext a
  obtain rfl : a = 0 := Fin.eq_zero a
  apply Fin.ext
  have h : (j 0).val < 640000 := (j 0).isLt
  show min (j 0).val 639999 = (j 0).val
  omega

/-- Two edge indices with one coordinate are one index. -/
theorem ed_ext {i j : S640000.Idx} (h : (i 0).val = (j 0).val) : i = j := by
  funext a
  obtain rfl : a = 0 := Fin.eq_zero a
  exact Fin.ext h

/-! ### Sixteen-lane windows -/

theorem lanes_apply {e : EltTy} (x : Vec F S640000 e) (off : Nat) (k : Fin 16) :
    lanes (F := F) x off (ln k) = x (ed (off + k.val)) := rfl

theorem lanes_apply' {e : EltTy} (x : Vec F S640000 e) (off : Nat) (j : S16.Idx) :
    lanes (F := F) x off j = x (ed (off + (j 0).val)) := rfl

/-- The 4000 entries of an edge array from offset `off` on. -/
def win {e : EltTy} (x : Vec F S640000 e) (off : Nat) : Vec F S4000 e := fun j => x (ed (off + (j 0).val))

theorem win_apply {e : EltTy} (x : Vec F S640000 e) (off : Nat) (j : S4000.Idx) :
    win (F := F) x off j = x (ed (off + (j 0).val)) := rfl

/-- A lane's position in a 4000-entry window read at offset `o`. -/
theorem lane_lt {o : Nat} (ho : o + 16 ≤ 4000) (k : S16.Idx) : o + (k 0).val < 4000 := by
  have h : (k 0).val < 16 := (k 0).isLt
  omega

/-- Sixteen lanes read at offset `o` of anything that holds the array's entries from `off` on are the
    array's sixteen entries from `off + o` on. -/
theorem lanes_of_window {e : EltTy} (x : Vec F S640000 e) (off : Nat) (W : Vec F S4000 e)
    (hW : ∀ j : S4000.Idx, W j = x (ed (off + (j 0).val))) (o : Nat) (ho : o + 16 ≤ 4000) :
    (fun k : S16.Idx => W (Shape.ofLane (d := ![4000]) ⟨o + (k 0).val, lane_lt ho k⟩)) = lanes (F := F) x (off + o) := by
  funext k
  rw [hW]
  show x (ed (off + (o + (k 0).val))) = x (ed (off + o + (k 0).val))
  rw [Nat.add_assoc]

theorem lanes_win {e : EltTy} (x : Vec F S640000 e) (off o : Nat) (ho : o + 16 ≤ 4000) :
    (fun k : S16.Idx => win (F := F) x off (Shape.ofLane (d := ![4000]) ⟨o + (k 0).val, lane_lt ho k⟩)) =
      lanes (F := F) x (off + o) :=
  lanes_of_window x off (win x off) (fun _ => rfl) o ho

/-- A lane's position in an 8000-entry buffer read at offset `o` of the half that starts at `hb`. -/
theorem lane_lt_half {hb o : Nat} (hhb : hb + 4000 ≤ 8000) (ho : o + 16 ≤ 4000) (k : S16.Idx) :
    hb + o + (k 0).val < 8000 := by
  have h : (k 0).val < 16 := (k 0).isLt
  omega

/-- The same for one half of an 8000-entry buffer: if the half that starts at `hb` holds the array's
    entries from `off` on, sixteen lanes read at `hb + o` are the array's sixteen entries from `off + o` on. -/
theorem lanes_of_half {e : EltTy} (x : Vec F S640000 e) (off hb : Nat) (hhb : hb + 4000 ≤ 8000) (B : Vec F S8000 e)
    (hB : ∀ (i : Nat) (hi : i < 4000),
      B (Shape.ofLane (d := ![8000]) ⟨hb + i, by show hb + i < 8000; omega⟩) = x (ed (off + i)))
    (o : Nat) (ho : o + 16 ≤ 4000) :
    (fun k : S16.Idx => B (Shape.ofLane (d := ![8000]) ⟨hb + o + (k 0).val, lane_lt_half hhb ho k⟩)) =
      lanes (F := F) x (off + o) := by
  funext k
  have h : (k 0).val < 16 := (k 0).isLt
  have e1 := hB (o + (k 0).val) (by omega)
  show _ = x (ed (off + o + (k 0).val))
  rw [Nat.add_assoc off o, ← e1]
  congr 1
  funext a
  obtain rfl : a = 0 := Fin.eq_zero a
  apply Fin.ext
  show hb + o + (k 0).val = hb + (o + (k 0).val)
  omega

/-! ### The numbering of a tile's groups -/

/-- Group `n` of the tile that starts at `base`, applied to a pair of accumulators. -/
def grpAt (tab : FVec F S10240 .f32) (src dst : IVec S640000 32) (prob g b : FVec F S640000 .f32) (base n : Nat)
    (acc : FVec F S10240 .f32 × FVec F S10240 .f32) : FVec F S10240 .f32 × FVec F S10240 .f32 :=
  grpStep tab (lanes (F := F) (e := .i32) src (base + 16 * n)) (lanes (F := F) (e := .i32) dst (base + 16 * n))
    (lanes (F := F) (e := .f32) prob (base + 16 * n)) (lanes (F := F) (e := .f32) g (base + 16 * n))
    (lanes (F := F) (e := .f32) b (base + 16 * n)) acc

theorem tileAcc_zero (tab : FVec F S10240 .f32) (src dst : IVec S640000 32) (prob g b : FVec F S640000 .f32) (base : Nat) :
    tileAcc tab src dst prob g b base 0 = acc0 := rfl

theorem tileAcc_succ (tab : FVec F S10240 .f32) (src dst : IVec S640000 32) (prob g b : FVec F S640000 .f32)
    (base n : Nat) :
    tileAcc tab src dst prob g b base (n + 1) = grpAt tab src dst prob g b base n (tileAcc tab src dst prob g b base n) := rfl

/-- One round: five consecutive groups. -/
theorem tileAcc_add_five (tab : FVec F S10240 .f32) (src dst : IVec S640000 32) (prob g b : FVec F S640000 .f32)
    (base m : Nat) :
    tileAcc tab src dst prob g b base (m + 5) =
      grpAt tab src dst prob g b base (m + 4) (grpAt tab src dst prob g b base (m + 3)
        (grpAt tab src dst prob g b base (m + 2) (grpAt tab src dst prob g b base (m + 1)
          (grpAt tab src dst prob g b base m (tileAcc tab src dst prob g b base m))))) := rfl

/-- Where group `u` of round `i` of chunk `c` starts, in edges from the tile's first. -/
theorem grp_offset (c i u : Nat) : 4000 * c + 80 * i + 16 * u = 16 * (250 * c + 5 * i + u) := by omega

theorem grp_offset' (c i u : Nat) : 4000 * c + (i * 5 + u) * 16 = 16 * (250 * c + 5 * i + u) := by omega

/-- The running number of the group after a round's five, and after a chunk's fifty rounds. -/
theorem grp_round (c i : Nat) : 250 * c + 5 * i + 5 = 250 * c + 5 * (i + 1) := by omega
theorem grp_chunk (c : Nat) : 250 * c + 5 * 50 = 250 * (c + 1) := by omega

/-- A group's lanes of an edge array, at the offset written chunk by chunk. -/
theorem lanes_grp {e : EltTy} (x : Vec F S640000 e) (base c i u : Nat) :
    lanes (F := F) x (base + 16 * (250 * c + 5 * i + u)) = lanes (F := F) x (base + 4000 * c + (80 * i + 16 * u)) := by
  congr 1
  omega

/-- A group's lanes read off a chunk's window: the chunk `c` window of the tile at `base` holds the
    array from `base + 4000 c` on, and group `u` of round `i` reads it at `80 i + 16 u`. -/
theorem lanes_grp_of_window {e : EltTy} (x : Vec F S640000 e) (base c i u : Nat) (hi : i < 50) (hu : u < 5)
    (W : Vec F S4000 e) (hW : ∀ j : S4000.Idx, W j = x (ed (base + 4000 * c + (j 0).val))) :
    (fun k : S16.Idx => W (Shape.ofLane (d := ![4000]) ⟨80 * i + 16 * u + (k 0).val, lane_lt (by omega) k⟩)) =
      lanes (F := F) x (base + 16 * (250 * c + 5 * i + u)) := by
  rw [lanes_grp]
  exact lanes_of_window x (base + 4000 * c) W hW (80 * i + 16 * u) (by omega)

end Cert.KernelIdeal.Spec

end
-- ==== Proof.KI.TilePrologue.lean ====
/-
  The prologue of one vector subcore's task. Before its loop over the five chunks of its 20000 edges the
  tile (1) starts the five copies of its first chunk — source and destination node numbers,
  probabilities, the two parameter columns — into the first halves of the five double-buffered
  scratch buffers, all on one DMA semaphore and none waited for yet; (2) copies the squared-voltage
  table into its own scratch and waits for it; (3) zeroes its two accumulators, sixteen entries a trip.
  It ends holding the table in scratch, both accumulators at zero, and the batch of five copies
  outstanding, which the chunk loop's first trip drains.
-/
import proofs.«213808_g38010460570139_cont_8to1_b_868_22_alg».proof.Proof.KI.TileSetup
import proofs.«213808_g38010460570139_cont_8to1_b_868_22_alg».proof.Proof.KI.TileNames
import proofs.«213808_g38010460570139_cont_8to1_b_868_22_alg».proof.Proof.KI.TileBatch
import proofs.«213808_g38010460570139_cont_8to1_b_868_22_alg».proof.Proof.KI.Lanes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Prologue

variable (d : Dev nD) (L : grid1.Coords)

/-! ## The zero fill -/

/-- A 10240-entry accumulator whose first `16 k` entries have been zeroed. -/
def fillTo (f : FVec F S10240 .f32) (k : Nat) : FVec F S10240 .f32 :=
  fun j => if (j 0).val < 16 * k then Scalar.ofBits .f32 0x00000000#32 else f j

theorem fillTo_zero (f : FVec F S10240 .f32) : fillTo f 0 = f := by
  funext j; simp [fillTo]

/-- After all 640 trips every entry is zero: the accumulators as the specification starts them. -/
theorem fillTo_all_fst (f : FVec F S10240 .f32) : fillTo f 640 = (Spec.acc0 (F := F)).1 := by
  funext j
  have h : (j 0).val < 16 * 640 := (j 0).isLt
  simp only [fillTo, h, if_true]
  rfl

theorem fillTo_all_snd (f : FVec F S10240 .f32) : fillTo f 640 = (Spec.acc0 (F := F)).2 := by
  funext j
  have h : (j 0).val < 16 * 640 := (j 0).isLt
  simp only [fillTo, h, if_true]
  rfl

theorem trips_t1 : Scf.trips k1_t1_loop.lb k1_t1_loop.ub k1_t1_loop.st = 640 := by decide

/-- The fill loop's invariant: both accumulators zeroed below entry `16 k`. -/
def fillInv (f1 f2 : FVec F S10240 .f32) (k : Nat) (_ : Unit) : sProp 𝕄 :=
  iprop((sAccP.view.loc (thr d L) ↦{fullShare} fillTo f1 k) ∗ (sAccQ.view.loc (thr d L) ↦{fullShare} fillTo f2 k))

/-- One trip of the fill: sixteen zeros stored at entry `16 k` of an accumulator zeroed below `16 k` leave it
    zeroed below `16 (k + 1)`. -/
theorem fill_stepP (f : FVec F S10240 .f32) (k : Fin k1_t1_loop.trips) :
    sAccP.view.writes (Elt F) (fillTo f k.val) [⟨Rect.unit (s := S10240) (k1_off2 k) S16.size (k1_off2_inb k), k1_pay21⟩] = fillTo f (k.val + 1) := by
  funext i
  have hk : k.val < 640 := Nat.lt_of_lt_of_le k.isLt k1_t1_abs.2.1
  have hoff : k1_off2 k 0 = 16 * k.val := congrFun (k1_off2_eq k) 0
  show (View.whole cc1_scratch1).read (Elt F) ((View.whole cc1_scratch1).writes (Elt F) (fillTo f k.val)
    [⟨Rect.unit (s := S10240) (k1_off2 k) S16.size (k1_off2_inb k), k1_pay21⟩]) i = fillTo f (k.val + 1) i
  by_cases hi : 16 * k.val ≤ (i 0).val ∧ (i 0).val < 16 * k.val + 16
  · let x : S16.Idx := fun a => ⟨(i 0).val - 16 * k.val, by
      obtain rfl : a = 0 := Subsingleton.elim _ _
      show (i 0).val - 16 * k.val < 16
      omega⟩
    have hx : (Rect.unit (s := S10240) (k1_off2 k) S16.size (k1_off2_inb k)).emb x = i := by
      funext a
      obtain rfl : a = 0 := Subsingleton.elim _ _
      apply Fin.ext
      rw [Rect.emb_apply, Rect.off_unit, Rect.stride_unit]
      have hx0 : (x 0).val = (i 0).val - 16 * k.val := rfl
      omega
    rw [← hx, View.read_writes_cons_emb, hx]
    have hlt : (i 0).val < 16 * (k.val + 1) := by omega
    simp only [fillTo, hlt, if_true]
    rfl
  · have hnot : ∀ p ∈ ([⟨Rect.unit (s := S10240) (k1_off2 k) S16.size (k1_off2_inb k), k1_pay21⟩] : List (View.Piece (Elt F) S10240 .f32)), i ∉ p.1.set := by
      intro p hp
      obtain rfl := List.mem_singleton.mp hp
      rw [Rect.mem_set_unit]
      intro h
      have h0 := h 0
      have hs : S16.size 0 = 16 := rfl
      exact hi ⟨by omega, by omega⟩
    rw [View.read_writes_apply_of_forall_not_mem _ _ i _ hnot]
    show fillTo f k.val i = fillTo f (k.val + 1) i
    unfold fillTo
    by_cases h1 : (i 0).val < 16 * k.val
    · have h2 : (i 0).val < 16 * (k.val + 1) := by omega
      rw [if_pos h1, if_pos h2]
    · have h2 : ¬ (i 0).val < 16 * (k.val + 1) := by omega
      rw [if_neg h1, if_neg h2]

theorem fill_stepQ (f : FVec F S10240 .f32) (k : Fin k1_t1_loop.trips) :
    sAccQ.view.writes (Elt F) (fillTo f k.val) [⟨Rect.unit (s := S10240) (k1_off2 k) S16.size (k1_off2_inb k), k1_pay21⟩] = fillTo f (k.val + 1) := by
  funext i
  have hk : k.val < 640 := Nat.lt_of_lt_of_le k.isLt k1_t1_abs.2.1
  have hoff : k1_off2 k 0 = 16 * k.val := congrFun (k1_off2_eq k) 0
  show (View.whole cc1_scratch2).read (Elt F) ((View.whole cc1_scratch2).writes (Elt F) (fillTo f k.val)
    [⟨Rect.unit (s := S10240) (k1_off2 k) S16.size (k1_off2_inb k), k1_pay21⟩]) i = fillTo f (k.val + 1) i
  by_cases hi : 16 * k.val ≤ (i 0).val ∧ (i 0).val < 16 * k.val + 16
  · let x : S16.Idx := fun a => ⟨(i 0).val - 16 * k.val, by
      obtain rfl : a = 0 := Subsingleton.elim _ _
      show (i 0).val - 16 * k.val < 16
      omega⟩
    have hx : (Rect.unit (s := S10240) (k1_off2 k) S16.size (k1_off2_inb k)).emb x = i := by
      funext a
      obtain rfl : a = 0 := Subsingleton.elim _ _
      apply Fin.ext
      rw [Rect.emb_apply, Rect.off_unit, Rect.stride_unit]
      have hx0 : (x 0).val = (i 0).val - 16 * k.val := rfl
      omega
    rw [← hx, View.read_writes_cons_emb, hx]
    have hlt : (i 0).val < 16 * (k.val + 1) := by omega
    simp only [fillTo, hlt, if_true]
    rfl
  · have hnot : ∀ p ∈ ([⟨Rect.unit (s := S10240) (k1_off2 k) S16.size (k1_off2_inb k), k1_pay21⟩] : List (View.Piece (Elt F) S10240 .f32)), i ∉ p.1.set := by
      intro p hp
      obtain rfl := List.mem_singleton.mp hp
      rw [Rect.mem_set_unit]
      intro h
      have h0 := h 0
      have hs : S16.size 0 = 16 := rfl
      exact hi ⟨by omega, by omega⟩
    rw [View.read_writes_apply_of_forall_not_mem _ _ i _ hnot]
    show fillTo f k.val i = fillTo f (k.val + 1) i
    unfold fillTo
    by_cases h1 : (i 0).val < 16 * k.val
    · have h2 : (i 0).val < 16 * (k.val + 1) := by omega
      rw [if_pos h1, if_pos h2]
    · have h2 : ¬ (i 0).val < 16 * (k.val + 1) := by omega
      rw [if_neg h1, if_neg h2]

/-! ## The table copy -/

/-- A copy that fills the whole table scratch leaves exactly what it carried. -/
theorem tab_landed (f0 w : FVec F S10240 .f32) : View.write (Elt F) sTab.view f0 w Finset.univ = w := by
  show View.write (Elt F) (View.whole cc1_scratch0) f0 w Finset.univ = w
  exact View.write_whole_univ (Val := Elt F) cc1_scratch0 f0 w

/-! ## The prologue -/

/-- The tile's first edge, as the word the kernel computes: `(2 s + c) · 20000` at grid coordinates `(c, s)`. -/
def tileWord (L : grid1.Coords) : BitVec 32 :=
  Scalar.muli (Scalar.addi (Scalar.muli (BitVec.ofNat 32 (L 1).val) 2#32) (BitVec.ofNat 32 (L 0).val)) 20000#32

/-- What the prologue leaves. -/
def proPost (q : PosShare TreeShare) (O : CellTallies nD τ sig (HIx 1)) (W : Waits sig (HIx 1))
    (tab : FVec F S10240 .f32) (xs xd : IVec S640000 32) (xp xg xb : FVec F S640000 .f32)
    (f3 f4 : IVec S8000 32) (f5 f6 f7 : FVec F S8000 .f32) : sProp 𝕄 :=
  iprop(Transfers.MayWaits (thr d L) (none : HIx 1) O
    ∗ (aV2.view.loc (thr d L) ↦{q} tab) ∗ (sTab.view.loc (thr d L) ↦{fullShare} tab)
    ∗ (sAccP.view.loc (thr d L) ↦{fullShare} (Spec.acc0 (F := F)).1) ∗ (sAccQ.view.loc (thr d L) ↦{fullShare} (Spec.acc0 (F := F)).2)
    ∗ Transfers.Batch (EC (F := F)) (thr d L) (SemLoc.dma cc1_scratch8.sem) (default : HIx 1) NN (DE d L q xs xd xp xg xb f3 f4 f5 f6 f7 (k1_off1 L) (k1_off1_inb L)) 5 0
    ∗ semVal (cell d L cc1_scoped0) 0
    ∗ ∃ W', ⌜∀ p ∈ W', p ∈ W ∨ p.2 = none⌝ ∗ owes (thr d L) O W')

/-- The prologue, with both the returned words named. -/
theorem prologue_full (q : PosShare TreeShare) (O : CellTallies nD τ sig (HIx 1)) (W : Waits sig (HIx 1))
    (tab : FVec F S10240 .f32) (xs xd : IVec S640000 32) (xp xg xb : FVec F S640000 .f32)
    (f0 f1 f2 : FVec F S10240 .f32) (f3 f4 : IVec S8000 32) (f5 f6 f7 : FVec F S8000 .f32) :
    iprop(Transfers.MayWaits (thr d L) (none : HIx 1) O
        ∗ (aV2.view.loc (thr d L) ↦{q} tab)
        ∗ ((srcSl (k1_off1 L) (k1_off1_inb L)).view.loc (thr d L) ↦[(srcSl (k1_off1 L) (k1_off1_inb L)).view.set]{q} xs)
        ∗ ((dstSl (k1_off1 L) (k1_off1_inb L)).view.loc (thr d L) ↦[(dstSl (k1_off1 L) (k1_off1_inb L)).view.set]{q} xd)
        ∗ ((prSl (k1_off1 L) (k1_off1_inb L)).view.loc (thr d L) ↦[(prSl (k1_off1 L) (k1_off1_inb L)).view.set]{q} xp)
        ∗ ((gSl (k1_off1 L) (k1_off1_inb L)).view.loc (thr d L) ↦[(gSl (k1_off1 L) (k1_off1_inb L)).view.set]{q} xg)
        ∗ ((bSl (k1_off1 L) (k1_off1_inb L)).view.loc (thr d L) ↦[(bSl (k1_off1 L) (k1_off1_inb L)).view.set]{q} xb)
        ∗ (sTab.view.loc (thr d L) ↦{fullShare} f0) ∗ (sAccP.view.loc (thr d L) ↦{fullShare} f1) ∗ (sAccQ.view.loc (thr d L) ↦{fullShare} f2)
        ∗ (hSrc0.view.loc (thr d L) ↦[hSrc0.view.set]{fullShare} f3) ∗ (hDst0.view.loc (thr d L) ↦[hDst0.view.set]{fullShare} f4)
        ∗ (hPr0.view.loc (thr d L) ↦[hPr0.view.set]{fullShare} f5) ∗ (hG0.view.loc (thr d L) ↦[hG0.view.set]{fullShare} f6)
        ∗ (hB0.view.loc (thr d L) ↦[hB0.view.set]{fullShare} f7)
        ∗ semVal (cell d L cc1_scratch8) 0 ∗ semVal (cell d L cc1_scoped0) 0 ∗ owes (thr d L) O W)
      ⊢ wp frame (wpE (defs₀ (F := F)) 𝒱₀ (thr d L) none) Set.univ
          (k1_part3 L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2)
          (fun r => iprop(⌜r.1 = tileWord L ∧ r.2 = ⟨0#32, 1#32⟩⌝ ∗ proPost d L q O W tab xs xd xp xg xb f3 f4 f5 f6 f7)) := by
  rw [k1_part3_eq_skeleton]; unfold k1_part3_skel
  iintro ⟨Hmw, Hv2, Hsrc, Hdst, Hpr, Hg, Hb, Htab, Hap, Haq, Hsv, Hdv, Hpv, Hgv, Hbv, Hs8, Hc0, HO⟩
  imod (Transfers.batch_alloc' (Lvl := ℕ) (EC (F := F)) (thr d L) (default : HIx 1) NN (DE d L q xs xd xp xg xb f3 f4 f5 f6 f7 (k1_off1 L) (k1_off1_inb L)) (sm := SemLoc.dma cc1_scratch8.sem) (E := Set.univ)) $$ Hs8 with HB
  sl_exec
  sl_for (fillInv d L f1 f2) $$ [Hap Haq]
  case region =>
    intro k _
    unfold fillInv
    iintro ⟨Hap, Haq⟩
    sl_exec
    rw [fill_stepP, fill_stepQ]
    sl_step
    isplitl [Hap]; · iexact Hap
    iexact Haq
  · unfold fillInv
    rw [fillTo_zero, fillTo_zero]
    isplitl [Hap]; · iexact Hap
    iexact Haq
  iintro %_ HI
  unfold fillInv
  rw [trips_t1, fillTo_all_fst, fillTo_all_snd, tab_landed]
  icases HI with ⟨Hap, Haq⟩
  sl_exec
  sl_step
  unfold proPost
  isplitr
  · ipureintro; exact ⟨rfl, rfl⟩
  isplitl [Hmw]; · iexact Hmw
  isplitl [Hv2]; · iexact Hv2
  isplitl [Htab]; · iexact Htab
  isplitl [Hap]; · iexact Hap
  isplitl [Haq]; · iexact Haq
  isplitl [HB]; · iexact HB
  isplitl [Hc0]; · iexact Hc0
  iexists (insert (SemLoc.dma cc1_scoped0.sem, (default : HIx 1)) W); isplitr
  · ipureintro; intro p hp
    rcases Finset.mem_insert.mp hp with hp | hp
    · exact .inr (hp ▸ rfl)
    · exact .inl hp
  · iexact HO

/-- The prologue in the form the chunk loop takes it: the two loop words named, the resources as above. -/
theorem prologue (q : PosShare TreeShare) (O : CellTallies nD τ sig (HIx 1)) (W : Waits sig (HIx 1))
    (tab : FVec F S10240 .f32) (xs xd : IVec S640000 32) (xp xg xb : FVec F S640000 .f32)
    (f0 f1 f2 : FVec F S10240 .f32) (f3 f4 : IVec S8000 32) (f5 f6 f7 : FVec F S8000 .f32) :
    iprop(Transfers.MayWaits (thr d L) (none : HIx 1) O
        ∗ (aV2.view.loc (thr d L) ↦{q} tab)
        ∗ ((srcSl (k1_off1 L) (k1_off1_inb L)).view.loc (thr d L) ↦[(srcSl (k1_off1 L) (k1_off1_inb L)).view.set]{q} xs)
        ∗ ((dstSl (k1_off1 L) (k1_off1_inb L)).view.loc (thr d L) ↦[(dstSl (k1_off1 L) (k1_off1_inb L)).view.set]{q} xd)
        ∗ ((prSl (k1_off1 L) (k1_off1_inb L)).view.loc (thr d L) ↦[(prSl (k1_off1 L) (k1_off1_inb L)).view.set]{q} xp)
        ∗ ((gSl (k1_off1 L) (k1_off1_inb L)).view.loc (thr d L) ↦[(gSl (k1_off1 L) (k1_off1_inb L)).view.set]{q} xg)
        ∗ ((bSl (k1_off1 L) (k1_off1_inb L)).view.loc (thr d L) ↦[(bSl (k1_off1 L) (k1_off1_inb L)).view.set]{q} xb)
        ∗ (sTab.view.loc (thr d L) ↦{fullShare} f0) ∗ (sAccP.view.loc (thr d L) ↦{fullShare} f1) ∗ (sAccQ.view.loc (thr d L) ↦{fullShare} f2)
        ∗ (hSrc0.view.loc (thr d L) ↦[hSrc0.view.set]{fullShare} f3) ∗ (hDst0.view.loc (thr d L) ↦[hDst0.view.set]{fullShare} f4)
        ∗ (hPr0.view.loc (thr d L) ↦[hPr0.view.set]{fullShare} f5) ∗ (hG0.view.loc (thr d L) ↦[hG0.view.set]{fullShare} f6)
        ∗ (hB0.view.loc (thr d L) ↦[hB0.view.set]{fullShare} f7)
        ∗ semVal (cell d L cc1_scratch8) 0 ∗ semVal (cell d L cc1_scoped0) 0 ∗ owes (thr d L) O W)
      ⊢ wp frame (wpE (defs₀ (F := F)) 𝒱₀ (thr d L) none) Set.univ
          (k1_part3 L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2)
          (fun r => iprop(⌜r.2 = ⟨0#32, 1#32⟩⌝ ∗ proPost d L q O W tab xs xd xp xg xb f3 f4 f5 f6 f7)) :=
  (prologue_full d L q O W tab xs xd xp xg xb f0 f1 f2 f3 f4 f5 f6 f7).trans (wp_mono frame _ _ fun r => by
    iintro ⟨%h, H⟩
    isplitr
    · ipureintro; exact h.2
    · iexact H)

end Prologue

end Cert.Proof.KI

end
-- ==== Proof.KI.TileChunkInv.lean ====
/-
  What a tile holds between the chunks of its edge range: the table, the accumulators after the
  chunks done, every chunk's slices of the edge arrays but the one in flight, the scratch halves that
  chunk does not land in, its five copies outstanding on their DMA semaphore and the other semaphore
  at rest; after the last chunk, everything.
-/
import proofs.«213808_g38010460570139_cont_8to1_b_868_22_alg».proof.Proof.KI.TileBatch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

def chunkInv0 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 0)).1) ∗ (sAccQ.view.loc (thr d L) ↦{fullShare} (Spec.tileAcc tab xs xd xp xg xb base (250 * 0)).2)
      ∗ (∃ W', ⌜∀ p ∈ W', p ∈ W ∨ p.2 = none⌝ ∗ owes (thr d L) O W')
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc1.view.loc (thr d L) ↦[hSrc1.view.set]{fullShare} g)) ∗ (∃ g, (hDst1.view.loc (thr d L) ↦[hDst1.view.set]{fullShare} g)) ∗ (∃ g, (hPr1.view.loc (thr d L) ↦[hPr1.view.set]{fullShare} g)) ∗ (∃ g, (hG1.view.loc (thr d L) ↦[hG1.view.set]{fullShare} g)) ∗ (∃ g, (hB1.view.loc (thr d L) ↦[hB1.view.set]{fullShare} g))
      ∗ (∃ f3 f4 f5 f6 f7, Transfers.Batch (EC (F := F)) (thr d L) (SemLoc.dma cc1_scratch8.sem) (default : HIx 1) NN (DE d L q xs xd xp xg xb f3 f4 f5 f6 f7 (k1_off1 L) (k1_off1_inb L)) 5 0)
      ∗ semVal (cell d L cc1_scratch9) 0)

def chunkInv1 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 1)).1) ∗ (sAccQ.view.loc (thr d L) ↦{fullShare} (Spec.tileAcc tab xs xd xp xg xb base (250 * 1)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc0.view.loc (thr d L) ↦[hSrc0.view.set]{fullShare} g)) ∗ (∃ g, (hDst0.view.loc (thr d L) ↦[hDst0.view.set]{fullShare} g)) ∗ (∃ g, (hPr0.view.loc (thr d L) ↦[hPr0.view.set]{fullShare} g)) ∗ (∃ g, (hG0.view.loc (thr d L) ↦[hG0.view.set]{fullShare} g)) ∗ (∃ g, (hB0.view.loc (thr d L) ↦[hB0.view.set]{fullShare} g))
      ∗ (∃ f3 f4 f5 f6 f7, Transfers.Batch (EC (F := F)) (thr d L) (SemLoc.dma cc1_scratch9.sem) (default : HIx 1) NN (DO d L q xs xd xp xg xb f3 f4 f5 f6 f7 (k1_off3 L ⟨0, tlt0⟩) (off_inb1 L)) 5 0)
      ∗ semVal (cell d L cc1_scratch8) 0)

def chunkInv2 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 2)).1) ∗ (sAccQ.view.loc (thr d L) ↦{fullShare} (Spec.tileAcc tab xs xd xp xg xb base (250 * 2)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc1.view.loc (thr d L) ↦[hSrc1.view.set]{fullShare} g)) ∗ (∃ g, (hDst1.view.loc (thr d L) ↦[hDst1.view.set]{fullShare} g)) ∗ (∃ g, (hPr1.view.loc (thr d L) ↦[hPr1.view.set]{fullShare} g)) ∗ (∃ g, (hG1.view.loc (thr d L) ↦[hG1.view.set]{fullShare} g)) ∗ (∃ g, (hB1.view.loc (thr d L) ↦[hB1.view.set]{fullShare} g))
      ∗ (∃ f3 f4 f5 f6 f7, Transfers.Batch (EC (F := F)) (thr d L) (SemLoc.dma cc1_scratch8.sem) (default : HIx 1) NN (DE d L q xs xd xp xg xb f3 f4 f5 f6 f7 (k1_off4 L ⟨1, tlt1⟩) (off_inb2 L)) 5 0)
      ∗ semVal (cell d L cc1_scratch9) 0)

def chunkInv3 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 3)).1) ∗ (sAccQ.view.loc (thr d L) ↦{fullShare} (Spec.tileAcc tab xs xd xp xg xb base (250 * 3)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc0.view.loc (thr d L) ↦[hSrc0.view.set]{fullShare} g)) ∗ (∃ g, (hDst0.view.loc (thr d L) ↦[hDst0.view.set]{fullShare} g)) ∗ (∃ g, (hPr0.view.loc (thr d L) ↦[hPr0.view.set]{fullShare} g)) ∗ (∃ g, (hG0.view.loc (thr d L) ↦[hG0.view.set]{fullShare} g)) ∗ (∃ g, (hB0.view.loc (thr d L) ↦[hB0.view.set]{fullShare} g))
      ∗ (∃ f3 f4 f5 f6 f7, Transfers.Batch (EC (F := F)) (thr d L) (SemLoc.dma cc1_scratch9.sem) (default : HIx 1) NN (DO d L q xs xd xp xg xb f3 f4 f5 f6 f7 (k1_off3 L ⟨2, tlt2⟩) (off_inb3 L)) 5 0)
      ∗ semVal (cell d L cc1_scratch8) 0)

def chunkInv4 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 4)).1) ∗ (sAccQ.view.loc (thr d L) ↦{fullShare} (Spec.tileAcc tab xs xd xp xg xb base (250 * 4)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ (∃ g, (hSrc1.view.loc (thr d L) ↦[hSrc1.view.set]{fullShare} g)) ∗ (∃ g, (hDst1.view.loc (thr d L) ↦[hDst1.view.set]{fullShare} g)) ∗ (∃ g, (hPr1.view.loc (thr d L) ↦[hPr1.view.set]{fullShare} g)) ∗ (∃ g, (hG1.view.loc (thr d L) ↦[hG1.view.set]{fullShare} g)) ∗ (∃ g, (hB1.view.loc (thr d L) ↦[hB1.view.set]{fullShare} g))
      ∗ (∃ f3 f4 f5 f6 f7, Transfers.Batch (EC (F := F)) (thr d L) (SemLoc.dma cc1_scratch8.sem) (default : HIx 1) NN (DE d L q xs xd xp xg xb f3 f4 f5 f6 f7 (k1_off4 L ⟨3, tlt3⟩) (off_inb4 L)) 5 0)
      ∗ semVal (cell d L cc1_scratch9) 0)

def chunkInv5 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 5)).1) ∗ (sAccQ.view.loc (thr d L) ↦{fullShare} (Spec.tileAcc tab xs xd xp xg xb base (250 * 5)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc0.view.loc (thr d L) ↦[hSrc0.view.set]{fullShare} g)) ∗ (∃ g, (hDst0.view.loc (thr d L) ↦[hDst0.view.set]{fullShare} g)) ∗ (∃ g, (hPr0.view.loc (thr d L) ↦[hPr0.view.set]{fullShare} g)) ∗ (∃ g, (hG0.view.loc (thr d L) ↦[hG0.view.set]{fullShare} g)) ∗ (∃ g, (hB0.view.loc (thr d L) ↦[hB0.view.set]{fullShare} g)) ∗ (∃ g, (hSrc1.view.loc (thr d L) ↦[hSrc1.view.set]{fullShare} g)) ∗ (∃ g, (hDst1.view.loc (thr d L) ↦[hDst1.view.set]{fullShare} g)) ∗ (∃ g, (hPr1.view.loc (thr d L) ↦[hPr1.view.set]{fullShare} g)) ∗ (∃ g, (hG1.view.loc (thr d L) ↦[hG1.view.set]{fullShare} g)) ∗ (∃ g, (hB1.view.loc (thr d L) ↦[hB1.view.set]{fullShare} g))
      ∗ semVal (cell d L cc1_scratch8) 0 ∗ semVal (cell d L cc1_scratch9) 0)

/-- What the tile holds before chunk `k`: the table, the accumulators after `250 k` groups, every chunk's
    slices but chunk `k`'s, the scratch halves chunk `k` does not land in, chunk `k`'s five copies
    outstanding on their semaphore and the other semaphore at rest; after the last chunk, everything. -/
def chunkInv (q : PosShare TreeShare) (O : CellTallies nD τ sig (HIx 1)) (W : Waits sig (HIx 1))
    (tab : FVec F S10240 .f32) (xs xd : IVec S640000 32) (xp xg xb : FVec F S640000 .f32) (base : Nat) : Nat → Unit → sProp 𝕄 := fun k _ =>
  match k with
  | 0 => chunkInv0 d L q O W tab xs xd xp xg xb base
  | 1 => chunkInv1 d L q O W tab xs xd xp xg xb base
  | 2 => chunkInv2 d L q O W tab xs xd xp xg xb base
  | 3 => chunkInv3 d L q O W tab xs xd xp xg xb base
  | 4 => chunkInv4 d L q O W tab xs xd xp xg xb base
  | 5 => chunkInv5 d L q O W tab xs xd xp xg xb base
  | _ + 6 => iprop(emp)

end Chunk

end Cert.Proof.KI

end
-- ==== Proof.KI.RowOut.lean ====
/-
  A tile's own row of the two partial-flow arrays, as the kernel addresses it.

  The kernel slices row `2 s + c` (subcore `s` of core `c`) out of each 32 × 10240 array as a 1 × 10240
  rectangle and drops the unit axis. That rectangle is the row's part of the cut of the array into its 32
  rows, so the elements under the row view are exactly the row's; and copying a 10240-entry accumulator
  onto the whole row view leaves, at column `n` of that row, the accumulator's entry `n`.
-/
import proofs.«213808_g38010460570139_cont_8to1_b_868_22_alg».proof.Proof.KI.TileSetup
import Idealize.ShloMosaic.Lib.Exec.Geometry
import Idealize.ShloMosaic.Lib.Writes

noncomputable section

namespace Cert.Proof.KI

open Cert.KernelIdeal Cert.KernelIdeal.Gen

open Idealize.ShloMosaic
open Idealize.ShloMosaic.SparseCore (S V T)

variable {F : FTy → Type}

/-- The 1 × 10240 rectangle the kernel slices for the tile at grid coordinates `L`. -/
abbrev rowRect (L : grid1.Coords) : Rect S32x10240 :=
  Rect.unit (s := S32x10240) (k1_off17 L) S1x10240.size (k1_off17_inb L)

/-- The tile's row of the active partial flows, as the copy-out's destination. -/
abbrev ppRow (L : grid1.Coords) : Memref sig .scVector .hbm S10240 .f32 :=
  ((aPP : Memref sig .scVector .hbm S32x10240 .f32).slice (rowRect L) (fun _ => rfl)).squeeze S10240 squeezes_S1x10240_S10240

/-- The tile's row of the reactive partial flows, as the copy-out's destination. -/
abbrev qpRow (L : grid1.Coords) : Memref sig .scVector .hbm S10240 .f32 :=
  ((aQP : Memref sig .scVector .hbm S32x10240 .f32).slice (rowRect L) (fun _ => rfl)).squeeze S10240 squeezes_S1x10240_S10240

/-- The sliced rectangle is row `2 s + c` of the cut into 32 rows. -/
theorem rowRect_eq (L : grid1.Coords) : rowRect L = prow (rowOf (cL L) (iL L)) := by
  unfold rowRect prow Rect.part Rect.block
  congr 1 <;> funext a
  · rw [k1_off17_eq]
    match a with
    | 0 => simp [Shape.partIx, Shape.partSize, rowOf]
    | 1 => simp [Shape.partIx, Shape.partSize]
  · match a with
    | 0 => simp [Shape.partSize]
    | 1 => simp [Shape.partSize]

/-- The elements under the active row view are the row's. -/
theorem ppRow_set (L : grid1.Coords) : (ppRow L).view.set = prowSet (rowOf (cL L) (iL L)) := by
  show (((aPP : Memref sig .scVector .hbm S32x10240 .f32).view.slice (rowRect L)).reshape S10240 squeezes_S1x10240_S10240.numel_eq).set
    = ((Memref.whole main_v9_0_scv : Memref sig .scVector .hbm S32x10240 .f32).view.slice (prow (rowOf (cL L) (iL L)))).set
  rw [View.set_reshape]
  exact rowRect_eq L ▸ rfl

/-- The elements under the reactive row view are the same positions. -/
theorem qpRow_set (L : grid1.Coords) : (qpRow L).view.set = prowSet (rowOf (cL L) (iL L)) := by
  show (((aQP : Memref sig .scVector .hbm S32x10240 .f32).view.slice (rowRect L)).reshape S10240 squeezes_S1x10240_S10240.numel_eq).set
    = ((Memref.whole main_v9_0_scv : Memref sig .scVector .hbm S32x10240 .f32).view.slice (prow (rowOf (cL L) (iL L)))).set
  rw [View.set_reshape]
  exact rowRect_eq L ▸ rfl

/-- Entry `n` of a 10240-vector, matched with the 1 × 10240 shape, is `(0, n)`. -/
theorem reshape_nd_val (n : Fin 10240) :
    ((Shape.reshapeEquiv squeezes_S1x10240_S10240.numel_eq (Spec.nd n) : S1x10240.Idx) 0).val = 0
      ∧ ((Shape.reshapeEquiv squeezes_S1x10240_S10240.numel_eq (Spec.nd n) : S1x10240.Idx) 1).val = n.val := by
  have h := Shape.rowMajor_reshapeEquiv squeezes_S1x10240_S10240.numel_eq (Spec.nd n)
  rw [Shape.rowMajor_val_two, Shape.rowMajor_val_one] at h
  have h0 : ((Shape.reshapeEquiv squeezes_S1x10240_S10240.numel_eq (Spec.nd n) : S1x10240.Idx) 0).val < 1 :=
    ((Shape.reshapeEquiv squeezes_S1x10240_S10240.numel_eq (Spec.nd n) : S1x10240.Idx) 0).isLt
  have h' : ((Shape.reshapeEquiv squeezes_S1x10240_S10240.numel_eq (Spec.nd n) : S1x10240.Idx) 0).val * 10240
      + ((Shape.reshapeEquiv squeezes_S1x10240_S10240.numel_eq (Spec.nd n) : S1x10240.Idx) 1).val = n.val := h
  constructor <;> omega

/-- Where entry `n` of a row view sits in the 32 × 10240 array: in row `2 s + c` … -/
theorem rowRect_emb_0 (L : grid1.Coords) (n : Fin 10240) :
    ((rowRect L).emb (Shape.reshapeEquiv squeezes_S1x10240_S10240.numel_eq (Spec.nd n)) 0).val
      = (rowOf (cL L) (iL L)).val := by
  rw [Rect.emb_apply]
  show k1_off17 L 0 + 1 * _ = 2 * (L 1).val + (L 0).val
  rw [k1_off17_eq, (reshape_nd_val n).1]
  simp

/-- … at column `n`. -/
theorem rowRect_emb_1 (L : grid1.Coords) (n : Fin 10240) :
    ((rowRect L).emb (Shape.reshapeEquiv squeezes_S1x10240_S10240.numel_eq (Spec.nd n)) 1).val = n.val := by
  rw [Rect.emb_apply]
  show k1_off17 L 1 + 1 * _ = n.val
  rw [k1_off17_eq, (reshape_nd_val n).2]
  simp

variable [FloatOps F]

/-- After the active accumulator is copied onto the whole row view, the row holds the accumulator. -/
theorem ppRow_rowIs (L : grid1.Coords) (f : FVec F S32x10240 .f32) (a : FVec F S10240 .f32) :
    RowIs ((ppRow L).view.write (Elt F) f (ReadAs.same.apply ((sAccP : Memref sig .scVector .vmem S10240 .f32).view.read (Elt F) a)) Finset.univ)
      (rowOf (cL L) (iL L)) a := by
  intro n
  have h := View.write_emb_of_mem (v := (ppRow L).view) (Val := Elt F) f
    (ReadAs.same.apply ((sAccP : Memref sig .scVector .vmem S10240 .f32).view.read (Elt F) a)) (Finset.mem_univ (Spec.nd n))
  refine (congrArg _ ?_).trans (h.trans ?_)
  · funext x
    apply Fin.ext
    match x with
    | 0 => exact (rowRect_emb_0 L n).symm
    | 1 => exact (rowRect_emb_1 L n).symm
  · rfl

/-- The same for the reactive accumulator. -/
theorem qpRow_rowIs (L : grid1.Coords) (f : FVec F S32x10240 .f32) (a : FVec F S10240 .f32) :
    RowIs ((qpRow L).view.write (Elt F) f (ReadAs.same.apply ((sAccQ : Memref sig .scVector .vmem S10240 .f32).view.read (Elt F) a)) Finset.univ)
      (rowOf (cL L) (iL L)) a := by
  intro n
  have h := View.write_emb_of_mem (v := (qpRow L).view) (Val := Elt F) f
    (ReadAs.same.apply ((sAccQ : Memref sig .scVector .vmem S10240 .f32).view.read (Elt F) a)) (Finset.mem_univ (Spec.nd n))
  refine (congrArg _ ?_).trans (h.trans ?_)
  · funext x
    apply Fin.ext
    match x with
    | 0 => exact (rowRect_emb_0 L n).symm
    | 1 => exact (rowRect_emb_1 L n).symm
  · rfl

/-- The landed contents spelt as a list of pieces: the one piece over the whole row view. -/
theorem ppRow_rowIs_writes (L : grid1.Coords) (f : FVec F S32x10240 .f32) (a : FVec F S10240 .f32) :
    RowIs ((ppRow L).view.writes (Elt F) f
        [⟨Rect.whole S10240, ReadAs.same.apply ((sAccP : Memref sig .scVector .vmem S10240 .f32).view.read (Elt F) a)⟩])
      (rowOf (cL L) (iL L)) a := by
  have e := View.write_univ_eq_writes_whole (Val := Elt F) (ppRow L).view f []
    (ReadAs.same.apply ((sAccP : Memref sig .scVector .vmem S10240 .f32).view.read (Elt F) a))
  rw [← e]
  exact ppRow_rowIs L f a

theorem qpRow_rowIs_writes (L : grid1.Coords) (f : FVec F S32x10240 .f32) (a : FVec F S10240 .f32) :
    RowIs ((qpRow L).view.writes (Elt F) f
        [⟨Rect.whole S10240, ReadAs.same.apply ((sAccQ : Memref sig .scVector .vmem S10240 .f32).view.read (Elt F) a)⟩])
      (rowOf (cL L) (iL L)) a := by
  have e := View.write_univ_eq_writes_whole (Val := Elt F) (qpRow L).view f []
    (ReadAs.same.apply ((sAccQ : Memref sig .scVector .vmem S10240 .f32).view.read (Elt F) a))
  rw [← e]
  exact qpRow_rowIs L f a

end Cert.Proof.KI

end
-- ==== Proof.KI.TileEpilogue.lean ====
/-
  The end of a tile's task: its two accumulators copied out to its own row of the two partial-flow
  arrays.

  Each copy is one transfer from the whole 10240-entry scratch accumulator onto the tile's row, on a
  semaphore of its own, waited for at once; nothing else touches the accumulator or the row while the
  transfer is pending. After the wait the row holds the accumulator entry by entry, the scratch is
  unchanged and the semaphore is back at zero.
-/
import proofs.«213808_g38010460570139_cont_8to1_b_868_22_alg».proof.Proof.KI.RowOut
import proofs.«213808_g38010460570139_cont_8to1_b_868_22_alg».proof.Proof.KI.TileNames

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The two copy-outs that end a tile's task. -/
def epilogue (L : grid1.Coords) : Prog (TpuEff nD τ sig (Elt F) Λ₀ (.scVector ((L 0).castLE hcore1) ((L 1).castLE hsub1))) PUnit := do
  Prog.lift (.enqueueDma sAccP (.here (ppRow L)) (.dma cc1_scoped1.sem) (Memref.isWhole_whole _).wordExact ((View.wordExact_bits rfl).reshape _ _) ⟨Or.inl rfl, trivial⟩)
  Prog.lift (.waitDma2 cc1_scoped1.sem sAccP (ppRow L) (Memref.isWhole_whole _).wordExact ((View.wordExact_bits rfl).reshape _ _))
  Prog.lift (.enqueueDma sAccQ (.here (qpRow L)) (.dma cc1_scoped2.sem) (Memref.isWhole_whole _).wordExact ((View.wordExact_bits rfl).reshape _ _) ⟨Or.inl rfl, trivial⟩)
  Prog.lift (.waitDma2 cc1_scoped2.sem sAccQ (qpRow L) (Memref.isWhole_whole _).wordExact ((View.wordExact_bits rfl).reshape _ _))
  pure ⟨⟩

set_option maxRecDepth 65536 in
/-- The task is its prologue, its chunk loop and these two copy-outs. -/
theorem flows_skel_split (L : grid1.Coords) :
    (cc1__sc_flows_skel (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2) =
      (do
        let ⟨v2, c0_i32_14, c1_i32_15⟩ ← k1_part3 L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2
        Scf.Loop.for k1_t2_loop k1_t2_ok ⟨⟩ (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 c0_i32_14 c1_i32_15)
        epilogue (F := F) L) := rfl

section Conv
variable (d : Dev nD) (L : grid1.Coords)

omit [FloatOps F] in
/-- The tile's row of the active partial flows, held as the copy-out addresses it, is the row the call
    handed the tile. -/
theorem ppRow_pts (q : PosShare TreeShare) (f : FVec F S32x10240 .f32) :
    (((ppRow L).view.loc (thr d L) ↦[(ppRow L).view.set]{q} f : sProp 𝕄))
      = (ppLoc d ↦[prowSet (rowOf (cL L) (iL L))]{q} f) := by
  rw [ppRow_set]

omit [FloatOps F] in
theorem qpRow_pts (q : PosShare TreeShare) (f : FVec F S32x10240 .f32) :
    (((qpRow L).view.loc (thr d L) ↦[(qpRow L).view.set]{q} f : sProp 𝕄))
      = (qpLoc d ↦[prowSet (rowOf (cL L) (iL L))]{q} f) := by
  rw [qpRow_set]

omit [FloatOps F] in
/-- A scratch accumulator held through its memref is the tile's own buffer. -/
theorem sAccP_pts (q : PosShare TreeShare) (a : FVec F S10240 .f32) :
    ((sAccP.view.loc (thr d L) ↦{q} a : sProp 𝕄)) = ((thr d L).loc cc1_scratch1 ↦{q} a) := rfl

omit [FloatOps F] in
theorem sAccQ_pts (q : PosShare TreeShare) (a : FVec F S10240 .f32) :
    ((sAccQ.view.loc (thr d L) ↦{q} a : sProp 𝕄)) = ((thr d L).loc cc1_scratch2 ↦{q} a) := rfl

end Conv

section Tile
variable (d : Dev nD) (L : grid1.Coords)

/-- The two copy-outs: each accumulator lands on the tile's row of its array; the scratches keep their
    contents, both semaphores return to zero, and the two waits are recorded. -/
theorem epilogue_run (O : CellTallies nD τ sig (HIx 1)) (W : Waits sig (HIx 1))
    (a1 a2 : FVec F S10240 .f32) (fp fq : FVec F S32x10240 .f32) :
    iprop(Transfers.MayWaits (thr d L) (none : HIx 1) O
        ∗ (sAccP.view.loc (thr d L) ↦{fullShare} a1) ∗ (sAccQ.view.loc (thr d L) ↦{fullShare} a2)
        ∗ ((ppRow L).view.loc (thr d L) ↦[(ppRow L).view.set]{fullShare} fp)
        ∗ ((qpRow L).view.loc (thr d L) ↦[(qpRow L).view.set]{fullShare} fq)
        ∗ semVal (cell d L cc1_scoped1) 0 ∗ semVal (cell d L cc1_scoped2) 0 ∗ owes (thr d L) O W)
      ⊢ wp frame (wpE (defs₀ (F := F)) 𝒱₀ (thr d L) none) Set.univ (epilogue (F := F) L)
          (fun _ => (iprop((sAccP.view.loc (thr d L) ↦{fullShare} a1) ∗ (sAccQ.view.loc (thr d L) ↦{fullShare} a2)
            ∗ (∃ f, ⌜RowIs f (rowOf (cL L) (iL L)) a1⌝ ∗ ((ppRow L).view.loc (thr d L) ↦[(ppRow L).view.set]{fullShare} f))
            ∗ (∃ f, ⌜RowIs f (rowOf (cL L) (iL L)) a2⌝ ∗ ((qpRow L).view.loc (thr d L) ↦[(qpRow L).view.set]{fullShare} f))
            ∗ semVal (cell d L cc1_scoped1) 0 ∗ semVal (cell d L cc1_scoped2) 0
            ∗ ∃ W', ⌜∀ p ∈ W', p ∈ W ∨ p.2 = none⌝ ∗ owes (thr d L) O W') : sProp 𝕄)) := by
  unfold epilogue
  iintro ⟨Hmw, Hap, Haq, Hpp, Hqp, Hc1, Hc2, HO⟩
  sl_exec
  sl_step
  isplitl [Hap]; · iexact Hap
  isplitl [Haq]; · iexact Haq
  isplitl [Hpp]
  · iexists _; isplitr
    · ipureintro; exact ppRow_rowIs_writes L fp a1
    · iexact Hpp
  isplitl [Hqp]
  · iexists _; isplitr
    · ipureintro; exact qpRow_rowIs_writes L fq a2
    · iexact Hqp
  isplitl [Hc1]; · iexact Hc1
  isplitl [Hc2]; · iexact Hc2
  iexists (insert ((SemLoc.dma cc1_scoped2.sem : SemLoc sig), (default : HIx 1)) (insert ((SemLoc.dma cc1_scoped1.sem : SemLoc sig), (default : HIx 1)) W)); isplitr
  · ipureintro
    intro p hp
    rcases Finset.mem_insert.mp hp with hp | hp
    · subst hp; exact .inr rfl
    · rcases Finset.mem_insert.mp hp with hp | hp
      · subst hp; exact .inr rfl
      · exact .inl hp
  · iexact HO

end Tile

section Finish
variable (m : (ℓ : Loc nD τ sig) → Buf (Elt F) ℓ) (d : Dev nD) (L : grid1.Coords)

omit [FloatOps F] in
/-- The tile's own semaphores other than its five DMA semaphores, at zero. -/
abbrev semsRest : sProp 𝕄 :=
  bigSep ((((((ownCells (thr d L)).erase (cell d L cc1_scratch8)).erase (cell d L cc1_scratch9)).erase (cell d L cc1_scoped0)).erase (cell d L cc1_scoped1)).erase (cell d L cc1_scoped2)) fun g => semVal g 0

omit [FloatOps F] in
/-- The tile's own buffers other than its eight scratches, each at some contents. -/
abbrev bufsRest : sProp 𝕄 :=
  bigSep (((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7))
              fun b => iprop(∃ f, ((d, b) : Loc nD τ sig) ↦{fullShare} f)

/-- From the accumulators after all the tile's groups to the end of its task: the copy-outs run, and
    what they leave, with everything the task did not touch, is what the tile hands back. -/
theorem tile_finish (hF : (K (F := F)).Facts) (O : CellTallies nD τ sig (HIx 1)) (W W1 : Waits sig (HIx 1))
    (hW1 : ∀ p ∈ W1, p ∈ W ∨ p.2 = none) (fp fq : FVec F S32x10240 .f32) :
    iprop(Transfers.MayWaits (thr d L) (none : HIx 1) O
        ∗ roPts m d (shT (cL L) (iL L))
        ∗ (sAccP.view.loc (thr d L) ↦{fullShare} (accOf m d (rowOf (cL L) (iL L))).1)
        ∗ (sAccQ.view.loc (thr d L) ↦{fullShare} (accOf m d (rowOf (cL L) (iL L))).2)
        ∗ ((ppRow L).view.loc (thr d L) ↦[(ppRow L).view.set]{fullShare} fp)
        ∗ ((qpRow L).view.loc (thr d L) ↦[(qpRow L).view.set]{fullShare} fq)
        ∗ (∃ f, (thr d L).loc cc1_scratch0 ↦{fullShare} f) ∗ (∃ f, (thr d L).loc cc1_scratch3 ↦{fullShare} f)
        ∗ (∃ f, (thr d L).loc cc1_scratch4 ↦{fullShare} f) ∗ (∃ f, (thr d L).loc cc1_scratch5 ↦{fullShare} f)
        ∗ (∃ f, (thr d L).loc cc1_scratch6 ↦{fullShare} f) ∗ (∃ f, (thr d L).loc cc1_scratch7 ↦{fullShare} f)
        ∗ bufsRest (F := F) d L
        ∗ semVal (cell d L cc1_scratch8) 0 ∗ semVal (cell d L cc1_scratch9) 0 ∗ semVal (cell d L cc1_scoped0) 0
        ∗ semVal (cell d L cc1_scoped1) 0 ∗ semVal (cell d L cc1_scoped2) 0
        ∗ semsRest (F := F) d L
        ∗ owes (thr d L) O W1)
      ⊢ wp frame (wpE (defs₀ (F := F)) 𝒱₀ (thr d L) none) Set.univ (epilogue (F := F) L)
          (fun _ => iprop(tdPay m d (cL L) (iL L) ∗ scopedBufs (thr d L) ∗ scopedSems0 (thr d L)
            ∗ ∃ W', ⌜∀ p ∈ W', p ∈ W ∨ p.2 = none⌝ ∗ owes (thr d L) O W')) := by
  rw [(K (F := F)).scopedBufs_V hF d (cV L) (jV L), SparseCore.Cfg.scopedSems0_V (Val := Elt F) d (cV L) (jV L), ownSems0_V, ownBufs_V]
  iintro ⟨Hmw, Hro, Hap, Haq, Hpp, Hqp, Htab, Hsv, Hdv, Hpv, Hgv, Hbv, Hbufs, Hs8, Hs9, Hc0, Hc1, Hc2, Hsems, HO⟩
  iapply (wp_wand_r frame _ Set.univ)
  isplitl [Hmw Hap Haq Hpp Hqp Hc1 Hc2 HO]
  · iapply (epilogue_run d L O W1 _ _ fp fq)
    isplitl [Hmw]; · iexact Hmw
    isplitl [Hap]; · iexact Hap
    isplitl [Haq]; · iexact Haq
    isplitl [Hpp]; · iexact Hpp
    isplitl [Hqp]; · iexact Hqp
    isplitl [Hc1]; · iexact Hc1
    isplitl [Hc2]; · iexact Hc2
    iexact HO
  iintro %_ ⟨Hap, Haq, ⟨%f1, %h1, Hpp⟩, ⟨%f2, %h2, Hqp⟩, Hc1, Hc2, %W', %hW', HO⟩
  isplitl [Hro Hpp Hqp]
  · unfold tdPay
    isplitl [Hro]; · iexact Hro
    isplitl [Hpp]
    · iexists f1; isplitr
      · ipureintro; exact h1
      · iapply (Entails.of_eq (ppRow_pts (F := F) d L fullShare f1)); iexact Hpp
    · iexists f2; isplitr
      · ipureintro; exact h2
      · iapply (Entails.of_eq (qpRow_pts (F := F) d L fullShare f2)); iexact Hqp
  isplitl [Htab Hap Haq Hsv Hdv Hpv Hgv Hbv Hbufs]
  · isplitl [Htab]; · iexact Htab
    isplitl [Hap]; · iexists _; iexact Hap
    isplitl [Haq]; · iexists _; iexact Haq
    isplitl [Hsv]; · iexact Hsv
    isplitl [Hdv]; · iexact Hdv
    isplitl [Hpv]; · iexact Hpv
    isplitl [Hgv]; · iexact Hgv
    isplitl [Hbv]; · iexact Hbv
    iexact Hbufs
  isplitl [Hs8 Hs9 Hc0 Hc1 Hc2 Hsems]
  · isplitl [Hs8]; · iexact Hs8
    isplitl [Hs9]; · iexact Hs9
    isplitl [Hc0]; · iexact Hc0
    isplitl [Hc1]; · iexact Hc1
    isplitl [Hc2]; · iexact Hc2
    iexact Hsems
  iexists W'; isplitr
  · ipureintro
    intro p hp
    rcases hW' p hp with h | h
    · exact hW1 p h
    · exact .inr h
  · iexact HO

end Finish

end Cert.Proof.KI

end
-- ==== Proof.KI.Window.lean ====
/-
  What a landed half of a double-buffered scratch holds, and what a sixteen-lane read of it is.

  Each of the five edge arrays is walked through an 8000-entry scratch in two halves of 4000: a copy
  lands 4000 consecutive entries of the array, from entry `n` on, in half `h`; a sixteen-lane read at
  offset `o` of that half is then the array's sixteen entries from `n + o` on, and a copy landing in the
  other half leaves this one as it was.
-/
import proofs.«213808_g38010460570139_cont_8to1_b_868_22_alg».proof.Proof.KI.TileSetup
import proofs.«213808_g38010460570139_cont_8to1_b_868_22_alg».proof.Proof.KI.Lanes
import Idealize.ShloMosaic.Lib.Exec.Geometry
import Idealize.ShloMosaic.Lib.Writes

noncomputable section

namespace Cert.Proof.KI

open Cert.KernelIdeal Cert.KernelIdeal.Gen
open Idealize.ShloMosaic

variable {F : FTy → Type} [FloatOps F]

/-! ### Reads and writes through a rectangle of a whole buffer -/

section Generic
variable {κ : Kind} {Val : EltTy → Type} (b : Ref sig κ)

/-- Writing through a rectangle of a whole buffer, unmasked: under the rectangle's index `j` stands the
    written vector's element `j`. -/
theorem write_rect_emb (r : Rect b.ty.shape) (fd : b.ty.Contents Val) (w : r.shape.Idx → Val b.ty.elt) (j : r.shape.Idx) :
    ((View.whole b).slice r).write Val fd w Finset.univ (r.emb j) = w j := by
  have h := View.write_emb_of_mem (v := (View.whole b).slice r) (Val := Val) fd w (M := Finset.univ) (x := j) (Finset.mem_univ _)
  exact h

/-- Off the rectangle the buffer keeps its contents. -/
theorem write_rect_off (r : Rect b.ty.shape) (fd : b.ty.Contents Val) (w : r.shape.Idx → Val b.ty.elt) (M : Finset r.shape.Idx)
    (i : b.ty.shape.Idx) (hi : i ∉ r.set) :
    ((View.whole b).slice r).write Val fd w M i = fd i := by
  apply View.write_of_not_mem
  intro hm
  apply hi
  have h2 := View.setOn_subset_set ((View.whole b).slice r) M hm
  rw [View.set_slice_whole] at h2
  exact h2

/-- Reading through a rectangle of a whole buffer: element `j` is the buffer's element under the rectangle's
    index `j`. -/
theorem read_rect (r : Rect b.ty.shape) (x : b.ty.Contents Val) (j : r.shape.Idx) :
    ((View.whole b).slice r).read Val x j = x (r.emb j) := rfl

/-- A load at a rectangle's coordinates of a whole buffer reads the buffer's elements there. -/
theorem readAt_whole_apply (r : LoadRect b.ty.shape) (f : b.ty.Contents Val) (j : r.shape.Idx) :
    (View.whole b).readAt Val r f j = f (r.idx j) := rfl

end Generic

/-! ### Halves of an 8000-entry scratch -/

/-- Half `h` of the scratch contents `f` holds the 4000 entries of `x` from entry `n` on. -/
def HalfIs {e : EltTy} (f : Vec F S8000 e) (h : Nat) (x : Vec F S640000 e) (n : Nat) : Prop :=
  ∀ k : Nat, k < 4000 → ∀ hk : 4000 * h + k < 8000,
    f (Shape.ofLane (d := ![8000]) ⟨4000 * h + k, hk⟩) = x (Spec.ed (n + k))

/-- Entry `k` of a 4000-vector, as its index. -/
def w4 (k : Nat) (hk : k < 4000) : S4000.Idx := Shape.ofLane (d := ![4000]) ⟨k, hk⟩

/-- The 4000-rectangle at `4000 h` of the scratch places its entry `k` at `4000 h + k`. -/
theorem emb_half (h : Nat) (ro : Fin 1 → Nat) (hro : ro = ![4000 * h]) (hin : ∀ a, ro a + S4000.size a ≤ S8000.size a)
    (k : Nat) (hk : k < 4000) (hk' : 4000 * h + k < 8000) :
    (Rect.unit (s := S8000) ro S4000.size hin).emb (w4 k hk) = Shape.ofLane (d := ![8000]) ⟨4000 * h + k, hk'⟩ := by
  subst hro
  funext a
  obtain rfl : a = 0 := Fin.eq_zero a
  apply Fin.ext
  show 4000 * h + 1 * k = 4000 * h + k
  omega

/-- The 4000-rectangle at `n` of an edge array places its entry `k` at `n + k`. -/
theorem emb_edge (off : Fin 1 → Nat) (n : Nat) (hoff : off = ![n]) (hoin : ∀ a, off a + S4000.size a ≤ S640000.size a)
    (k : Nat) (hk : k < 4000) :
    (Rect.unit (s := S640000) off S4000.size hoin).emb (w4 k hk) = Spec.ed (n + k) := by
  subst hoff
  have h0 : n + 4000 ≤ 640000 := hoin 0
  funext a
  obtain rfl : a = 0 := Fin.eq_zero a
  apply Fin.ext
  show n + 1 * k = min (n + k) 639999
  omega

/-- An entry of the other half is off the rectangle of half `h`. -/
theorem other_half_off (h h' : Nat) (hne : h ≠ h') (ro : Fin 1 → Nat) (hro : ro = ![4000 * h])
    (hin : ∀ a, ro a + S4000.size a ≤ S8000.size a) (k : Nat) (hk : k < 4000) (hk' : 4000 * h' + k < 8000) :
    (Shape.ofLane (d := ![8000]) ⟨4000 * h' + k, hk'⟩ : S8000.Idx) ∉ (Rect.unit (s := S8000) ro S4000.size hin).set := by
  subst hro
  intro hm
  have h0 := (Rect.mem_set_unit.mp hm) 0
  have h1 : 4000 * h ≤ 4000 * h' + k := h0.1
  have h2 : 4000 * h' + k < 4000 * h + 4000 := h0.2
  apply hne
  omega

/-- The contents after a write whose written vector holds the array's entries from `n` on, once the write
    is known to place its entry `k` at `4000 h + k`. -/
theorem halfIs_of_landed {e : EltTy} (f' : Vec F S8000 e) (h : Nat) (x : Vec F S640000 e) (n : Nat) (w : Vec F S4000 e)
    (hw : ∀ k (hk : k < 4000), w (w4 k hk) = x (Spec.ed (n + k)))
    (hf : ∀ k (hk : k < 4000) (hk' : 4000 * h + k < 8000),
      f' (Shape.ofLane (d := ![8000]) ⟨4000 * h + k, hk'⟩) = w (w4 k hk)) :
    HalfIs f' h x n := fun k hk hk' => (hf k hk hk').trans (hw k hk)

/-- Sixteen entries read at `4000 h + o` of contents whose half `h` holds the array from `n` on are the
    array's sixteen entries from `n + o` on. -/
theorem readAt_half_fn {e : EltTy} (f : Vec F S8000 e) (h : Nat) (x : Vec F S640000 e) (n : Nat) (hf : HalfIs f h x n)
    (bo : Fin 1 → Nat) (o : Nat) (hbo : bo = ![4000 * h + o]) (ho : o + 16 ≤ 4000) (hin : ∀ a, bo a + S16.size a ≤ S8000.size a) :
    (fun j : S16.Idx => f ((Rect.unit (s := S8000) bo S16.size hin).toLoadRect.idx j)) = Spec.lanes (F := F) x (n + o) := by
  subst hbo
  funext j
  have hj : (j 0).val < 16 := (j 0).isLt
  have h0 : 4000 * h + o + 16 ≤ 8000 := hin 0
  have e1 := hf (o + (j 0).val) (by omega) (by omega)
  show f _ = x (Spec.ed (n + o + (j 0).val))
  rw [Nat.add_assoc n o, ← e1]
  congr 1
  funext a
  obtain rfl : a = 0 := Fin.eq_zero a
  apply Fin.ext
  show 4000 * h + o + 1 * (j 0).val = 4000 * h + (o + (j 0).val)
  omega

/-! ### The five scratch buffers and their arrays -/

/-! #### sSrc and aSrc -/

theorem read_edge_src (off : Fin 1 → Nat) (n : Nat) (hoff : off = ![n]) (hoin : ∀ a, off a + S4000.size a ≤ S640000.size a)
    (x : IVec S640000 32) (k : Nat) (hk : k < 4000) :
    ((aSrc.slice (Rect.unit (s := S640000) off S4000.size hoin) (fun _ => rfl)).view.read (Elt F) x) (w4 k hk) = x (Spec.ed (n + k)) :=
  (read_rect (Val := Elt F) main_v1_scv (Rect.unit (s := S640000) off S4000.size hoin) x (w4 k hk)).trans
    (congrArg x (emb_edge off n hoff hoin k hk))

theorem landed_halfIs_w_src (h : Nat) (ro : Fin 1 → Nat) (hro : ro = ![4000 * h]) (hin : ∀ a, ro a + S4000.size a ≤ S8000.size a)
    (fd : IVec S8000 32) (w : IVec S4000 32) (x : IVec S640000 32) (n : Nat) (hw : ∀ k (hk : k < 4000), w (w4 k hk) = x (Spec.ed (n + k))) :
    HalfIs (F := F) (e := .i32) ((sSrc.slice (Rect.unit (s := S8000) ro S4000.size hin) (fun _ => rfl)).view.write (Elt F) fd w Finset.univ)
      h x n := by
  intro k hk hk'
  have e1 := write_rect_emb (Val := Elt F) cc1_scratch3 (Rect.unit (s := S8000) ro S4000.size hin) fd w (w4 k hk)
  rw [emb_half h ro hro hin k hk hk'] at e1
  exact e1.trans (hw k hk)

theorem landed_halfIs_src (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : IVec S8000 32) (x : IVec S640000 32) :
    HalfIs (F := F) (e := .i32) ((sSrc.slice (Rect.unit (s := S8000) ro S4000.size hin) (fun _ => rfl)).view.write (Elt F) fd
      ((ReadAs.same : ReadAs (Elt F) S4000 .i32 S4000 .i32).apply
        ((aSrc.slice (Rect.unit (s := S640000) off S4000.size hoin) (fun _ => rfl)).view.read (Elt F) x)) Finset.univ) h x n :=
  landed_halfIs_w_src h ro hro hin fd
    ((aSrc.slice (Rect.unit (s := S640000) off S4000.size hoin) (fun _ => rfl)).view.read (Elt F) x) x n
    (fun k hk => read_edge_src off n hoff hoin x k hk)

theorem landed_other_src (h h' : Nat) (hne : h ≠ h') (ro : Fin 1 → Nat) (hro : ro = ![4000 * h])
    (hin : ∀ a, ro a + S4000.size a ≤ S8000.size a) (fd : IVec S8000 32) (w : IVec S4000 32) (M : Finset S4000.Idx) (x' : IVec S640000 32) (n' : Nat)
    (hf : HalfIs (F := F) (e := .i32) fd h' x' n') :
    HalfIs (F := F) (e := .i32) ((sSrc.slice (Rect.unit (s := S8000) ro S4000.size hin) (fun _ => rfl)).view.write (Elt F) fd w M)
      h' x' n' := by
  intro k hk hk'
  exact (write_rect_off (Val := Elt F) cc1_scratch3 (Rect.unit (s := S8000) ro S4000.size hin) fd w M _
    (other_half_off h h' hne ro hro hin k hk hk')).trans (hf k hk hk')

theorem readAt_half_src (f : IVec S8000 32) (h : Nat) (x : IVec S640000 32) (n : Nat) (hf : HalfIs (F := F) (e := .i32) f h x n)
    (bo : Fin 1 → Nat) (o : Nat) (hbo : bo = ![4000 * h + o]) (ho : o + 16 ≤ 4000) (hin : ∀ a, bo a + S16.size a ≤ S8000.size a) :
    sSrc.view.readAt (Elt F) (Rect.unit (s := S8000) bo S16.size hin).toLoadRect f = Spec.lanes (F := F) (e := .i32) x (n + o) :=
  readAt_half_fn (F := F) (e := .i32) f h x n hf bo o hbo ho hin

/-! #### sDst and aDst -/

theorem read_edge_dst (off : Fin 1 → Nat) (n : Nat) (hoff : off = ![n]) (hoin : ∀ a, off a + S4000.size a ≤ S640000.size a)
    (x : IVec S640000 32) (k : Nat) (hk : k < 4000) :
    ((aDst.slice (Rect.unit (s := S640000) off S4000.size hoin) (fun _ => rfl)).view.read (Elt F) x) (w4 k hk) = x (Spec.ed (n + k)) :=
  (read_rect (Val := Elt F) main_v3_scv (Rect.unit (s := S640000) off S4000.size hoin) x (w4 k hk)).trans
    (congrArg x (emb_edge off n hoff hoin k hk))

theorem landed_halfIs_w_dst (h : Nat) (ro : Fin 1 → Nat) (hro : ro = ![4000 * h]) (hin : ∀ a, ro a + S4000.size a ≤ S8000.size a)
    (fd : IVec S8000 32) (w : IVec S4000 32) (x : IVec S640000 32) (n : Nat) (hw : ∀ k (hk : k < 4000), w (w4 k hk) = x (Spec.ed (n + k))) :
    HalfIs (F := F) (e := .i32) ((sDst.slice (Rect.unit (s := S8000) ro S4000.size hin) (fun _ => rfl)).view.write (Elt F) fd w Finset.univ)
      h x n := by
  intro k hk hk'
  have e1 := write_rect_emb (Val := Elt F) cc1_scratch4 (Rect.unit (s := S8000) ro S4000.size hin) fd w (w4 k hk)
  rw [emb_half h ro hro hin k hk hk'] at e1
  exact e1.trans (hw k hk)

theorem landed_halfIs_dst (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : IVec S8000 32) (x : IVec S640000 32) :
    HalfIs (F := F) (e := .i32) ((sDst.slice (Rect.unit (s := S8000) ro S4000.size hin) (fun _ => rfl)).view.write (Elt F) fd
      ((ReadAs.same : ReadAs (Elt F) S4000 .i32 S4000 .i32).apply
        ((aDst.slice (Rect.unit (s := S640000) off S4000.size hoin) (fun _ => rfl)).view.read (Elt F) x)) Finset.univ) h x n :=
  landed_halfIs_w_dst h ro hro hin fd
    ((aDst.slice (Rect.unit (s := S640000) off S4000.size hoin) (fun _ => rfl)).view.read (Elt F) x) x n
    (fun k hk => read_edge_dst off n hoff hoin x k hk)

theorem landed_other_dst (h h' : Nat) (hne : h ≠ h') (ro : Fin 1 → Nat) (hro : ro = ![4000 * h])
    (hin : ∀ a, ro a + S4000.size a ≤ S8000.size a) (fd : IVec S8000 32) (w : IVec S4000 32) (M : Finset S4000.Idx) (x' : IVec S640000 32) (n' : Nat)
    (hf : HalfIs (F := F) (e := .i32) fd h' x' n') :
    HalfIs (F := F) (e := .i32) ((sDst.slice (Rect.unit (s := S8000) ro S4000.size hin) (fun _ => rfl)).view.write (Elt F) fd w M)
      h' x' n' := by
  intro k hk hk'
  exact (write_rect_off (Val := Elt F) cc1_scratch4 (Rect.unit (s := S8000) ro S4000.size hin) fd w M _
    (other_half_off h h' hne ro hro hin k hk hk')).trans (hf k hk hk')

theorem readAt_half_dst (f : IVec S8000 32) (h : Nat) (x : IVec S640000 32) (n : Nat) (hf : HalfIs (F := F) (e := .i32) f h x n)
    (bo : Fin 1 → Nat) (o : Nat) (hbo : bo = ![4000 * h + o]) (ho : o + 16 ≤ 4000) (hin : ∀ a, bo a + S16.size a ≤ S8000.size a) :
    sDst.view.readAt (Elt F) (Rect.unit (s := S8000) bo S16.size hin).toLoadRect f = Spec.lanes (F := F) (e := .i32) x (n + o) :=
  readAt_half_fn (F := F) (e := .i32) f h x n hf bo o hbo ho hin

/-! #### sPr and aPr -/

theorem read_edge_pr (off : Fin 1 → Nat) (n : Nat) (hoff : off = ![n]) (hoin : ∀ a, off a + S4000.size a ≤ S640000.size a)
    (x : FVec F S640000 .f32) (k : Nat) (hk : k < 4000) :
    ((aPr.slice (Rect.unit (s := S640000) off S4000.size hoin) (fun _ => rfl)).view.read (Elt F) x) (w4 k hk) = x (Spec.ed (n + k)) :=
  (read_rect (Val := Elt F) main_arg2_scv (Rect.unit (s := S640000) off S4000.size hoin) x (w4 k hk)).trans
    (congrArg x (emb_edge off n hoff hoin k hk))

theorem landed_halfIs_w_pr (h : Nat) (ro : Fin 1 → Nat) (hro : ro = ![4000 * h]) (hin : ∀ a, ro a + S4000.size a ≤ S8000.size a)
    (fd : FVec F S8000 .f32) (w : FVec F S4000 .f32) (x : FVec F S640000 .f32) (n : Nat) (hw : ∀ k (hk : k < 4000), w (w4 k hk) = x (Spec.ed (n + k))) :
    HalfIs (F := F) (e := .f32) ((sPr.slice (Rect.unit (s := S8000) ro S4000.size hin) (fun _ => rfl)).view.write (Elt F) fd w Finset.univ)
      h x n := by
  intro k hk hk'
  have e1 := write_rect_emb (Val := Elt F) cc1_scratch5 (Rect.unit (s := S8000) ro S4000.size hin) fd w (w4 k hk)
  rw [emb_half h ro hro hin k hk hk'] at e1
  exact e1.trans (hw k hk)

theorem landed_halfIs_pr (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : FVec F S8000 .f32) (x : FVec F S640000 .f32) :
    HalfIs (F := F) (e := .f32) ((sPr.slice (Rect.unit (s := S8000) ro S4000.size hin) (fun _ => rfl)).view.write (Elt F) fd
      ((ReadAs.same : ReadAs (Elt F) S4000 .f32 S4000 .f32).apply
        ((aPr.slice (Rect.unit (s := S640000) off S4000.size hoin) (fun _ => rfl)).view.read (Elt F) x)) Finset.univ) h x n :=
  landed_halfIs_w_pr h ro hro hin fd
    ((aPr.slice (Rect.unit (s := S640000) off S4000.size hoin) (fun _ => rfl)).view.read (Elt F) x) x n
    (fun k hk => read_edge_pr off n hoff hoin x k hk)

theorem landed_other_pr (h h' : Nat) (hne : h ≠ h') (ro : Fin 1 → Nat) (hro : ro = ![4000 * h])
    (hin : ∀ a, ro a + S4000.size a ≤ S8000.size a) (fd : FVec F S8000 .f32) (w : FVec F S4000 .f32) (M : Finset S4000.Idx) (x' : FVec F S640000 .f32) (n' : Nat)
    (hf : HalfIs (F := F) (e := .f32) fd h' x' n') :
    HalfIs (F := F) (e := .f32) ((sPr.slice (Rect.unit (s := S8000) ro S4000.size hin) (fun _ => rfl)).view.write (Elt F) fd w M)
      h' x' n' := by
  intro k hk hk'
  exact (write_rect_off (Val := Elt F) cc1_scratch5 (Rect.unit (s := S8000) ro S4000.size hin) fd w M _
    (other_half_off h h' hne ro hro hin k hk hk')).trans (hf k hk hk')

theorem readAt_half_pr (f : FVec F S8000 .f32) (h : Nat) (x : FVec F S640000 .f32) (n : Nat) (hf : HalfIs (F := F) (e := .f32) f h x n)
    (bo : Fin 1 → Nat) (o : Nat) (hbo : bo = ![4000 * h + o]) (ho : o + 16 ≤ 4000) (hin : ∀ a, bo a + S16.size a ≤ S8000.size a) :
    sPr.view.readAt (Elt F) (Rect.unit (s := S8000) bo S16.size hin).toLoadRect f = Spec.lanes (F := F) (e := .f32) x (n + o) :=
  readAt_half_fn (F := F) (e := .f32) f h x n hf bo o hbo ho hin

/-! #### sG and aG -/

theorem read_edge_g (off : Fin 1 → Nat) (n : Nat) (hoff : off = ![n]) (hoin : ∀ a, off a + S4000.size a ≤ S640000.size a)
    (x : FVec F S640000 .f32) (k : Nat) (hk : k < 4000) :
    ((aG.slice (Rect.unit (s := S640000) off S4000.size hoin) (fun _ => rfl)).view.read (Elt F) x) (w4 k hk) = x (Spec.ed (n + k)) :=
  (read_rect (Val := Elt F) main_v5_scv (Rect.unit (s := S640000) off S4000.size hoin) x (w4 k hk)).trans
    (congrArg x (emb_edge off n hoff hoin k hk))

theorem landed_halfIs_w_g (h : Nat) (ro : Fin 1 → Nat) (hro : ro = ![4000 * h]) (hin : ∀ a, ro a + S4000.size a ≤ S8000.size a)
    (fd : FVec F S8000 .f32) (w : FVec F S4000 .f32) (x : FVec F S640000 .f32) (n : Nat) (hw : ∀ k (hk : k < 4000), w (w4 k hk) = x (Spec.ed (n + k))) :
    HalfIs (F := F) (e := .f32) ((sG.slice (Rect.unit (s := S8000) ro S4000.size hin) (fun _ => rfl)).view.write (Elt F) fd w Finset.univ)
      h x n := by
  intro k hk hk'
  have e1 := write_rect_emb (Val := Elt F) cc1_scratch6 (Rect.unit (s := S8000) ro S4000.size hin) fd w (w4 k hk)
  rw [emb_half h ro hro hin k hk hk'] at e1
  exact e1.trans (hw k hk)

theorem landed_halfIs_g (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : FVec F S8000 .f32) (x : FVec F S640000 .f32) :
    HalfIs (F := F) (e := .f32) ((sG.slice (Rect.unit (s := S8000) ro S4000.size hin) (fun _ => rfl)).view.write (Elt F) fd
      ((ReadAs.same : ReadAs (Elt F) S4000 .f32 S4000 .f32).apply
        ((aG.slice (Rect.unit (s := S640000) off S4000.size hoin) (fun _ => rfl)).view.read (Elt F) x)) Finset.univ) h x n :=
  landed_halfIs_w_g h ro hro hin fd
    ((aG.slice (Rect.unit (s := S640000) off S4000.size hoin) (fun _ => rfl)).view.read (Elt F) x) x n
    (fun k hk => read_edge_g off n hoff hoin x k hk)

theorem landed_other_g (h h' : Nat) (hne : h ≠ h') (ro : Fin 1 → Nat) (hro : ro = ![4000 * h])
    (hin : ∀ a, ro a + S4000.size a ≤ S8000.size a) (fd : FVec F S8000 .f32) (w : FVec F S4000 .f32) (M : Finset S4000.Idx) (x' : FVec F S640000 .f32) (n' : Nat)
    (hf : HalfIs (F := F) (e := .f32) fd h' x' n') :
    HalfIs (F := F) (e := .f32) ((sG.slice (Rect.unit (s := S8000) ro S4000.size hin) (fun _ => rfl)).view.write (Elt F) fd w M)
      h' x' n' := by
  intro k hk hk'
  exact (write_rect_off (Val := Elt F) cc1_scratch6 (Rect.unit (s := S8000) ro S4000.size hin) fd w M _
    (other_half_off h h' hne ro hro hin k hk hk')).trans (hf k hk hk')

theorem readAt_half_g (f : FVec F S8000 .f32) (h : Nat) (x : FVec F S640000 .f32) (n : Nat) (hf : HalfIs (F := F) (e := .f32) f h x n)
    (bo : Fin 1 → Nat) (o : Nat) (hbo : bo = ![4000 * h + o]) (ho : o + 16 ≤ 4000) (hin : ∀ a, bo a + S16.size a ≤ S8000.size a) :
    sG.view.readAt (Elt F) (Rect.unit (s := S8000) bo S16.size hin).toLoadRect f = Spec.lanes (F := F) (e := .f32) x (n + o) :=
  readAt_half_fn (F := F) (e := .f32) f h x n hf bo o hbo ho hin

/-! #### sB and aB -/

theorem read_edge_b (off : Fin 1 → Nat) (n : Nat) (hoff : off = ![n]) (hoin : ∀ a, off a + S4000.size a ≤ S640000.size a)
    (x : FVec F S640000 .f32) (k : Nat) (hk : k < 4000) :
    ((aB.slice (Rect.unit (s := S640000) off S4000.size hoin) (fun _ => rfl)).view.read (Elt F) x) (w4 k hk) = x (Spec.ed (n + k)) :=
  (read_rect (Val := Elt F) main_v7_scv (Rect.unit (s := S640000) off S4000.size hoin) x (w4 k hk)).trans
    (congrArg x (emb_edge off n hoff hoin k hk))

theorem landed_halfIs_w_b (h : Nat) (ro : Fin 1 → Nat) (hro : ro = ![4000 * h]) (hin : ∀ a, ro a + S4000.size a ≤ S8000.size a)
    (fd : FVec F S8000 .f32) (w : FVec F S4000 .f32) (x : FVec F S640000 .f32) (n : Nat) (hw : ∀ k (hk : k < 4000), w (w4 k hk) = x (Spec.ed (n + k))) :
    HalfIs (F := F) (e := .f32) ((sB.slice (Rect.unit (s := S8000) ro S4000.size hin) (fun _ => rfl)).view.write (Elt F) fd w Finset.univ)
      h x n := by
  intro k hk hk'
  have e1 := write_rect_emb (Val := Elt F) cc1_scratch7 (Rect.unit (s := S8000) ro S4000.size hin) fd w (w4 k hk)
  rw [emb_half h ro hro hin k hk hk'] at e1
  exact e1.trans (hw k hk)

theorem landed_halfIs_b (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : FVec F S8000 .f32) (x : FVec F S640000 .f32) :
    HalfIs (F := F) (e := .f32) ((sB.slice (Rect.unit (s := S8000) ro S4000.size hin) (fun _ => rfl)).view.write (Elt F) fd
      ((ReadAs.same : ReadAs (Elt F) S4000 .f32 S4000 .f32).apply
        ((aB.slice (Rect.unit (s := S640000) off S4000.size hoin) (fun _ => rfl)).view.read (Elt F) x)) Finset.univ) h x n :=
  landed_halfIs_w_b h ro hro hin fd
    ((aB.slice (Rect.unit (s := S640000) off S4000.size hoin) (fun _ => rfl)).view.read (Elt F) x) x n
    (fun k hk => read_edge_b off n hoff hoin x k hk)

theorem landed_other_b (h h' : Nat) (hne : h ≠ h') (ro : Fin 1 → Nat) (hro : ro = ![4000 * h])
    (hin : ∀ a, ro a + S4000.size a ≤ S8000.size a) (fd : FVec F S8000 .f32) (w : FVec F S4000 .f32) (M : Finset S4000.Idx) (x' : FVec F S640000 .f32) (n' : Nat)
    (hf : HalfIs (F := F) (e := .f32) fd h' x' n') :
    HalfIs (F := F) (e := .f32) ((sB.slice (Rect.unit (s := S8000) ro S4000.size hin) (fun _ => rfl)).view.write (Elt F) fd w M)
      h' x' n' := by
  intro k hk hk'
  exact (write_rect_off (Val := Elt F) cc1_scratch7 (Rect.unit (s := S8000) ro S4000.size hin) fd w M _
    (other_half_off h h' hne ro hro hin k hk hk')).trans (hf k hk hk')

theorem readAt_half_b (f : FVec F S8000 .f32) (h : Nat) (x : FVec F S640000 .f32) (n : Nat) (hf : HalfIs (F := F) (e := .f32) f h x n)
    (bo : Fin 1 → Nat) (o : Nat) (hbo : bo = ![4000 * h + o]) (ho : o + 16 ≤ 4000) (hin : ∀ a, bo a + S16.size a ≤ S8000.size a) :
    sB.view.readAt (Elt F) (Rect.unit (s := S8000) bo S16.size hin).toLoadRect f = Spec.lanes (F := F) (e := .f32) x (n + o) :=
  readAt_half_fn (F := F) (e := .f32) f h x n hf bo o hbo ho hin

/-! ### The landed contents as listed pieces -/

/-- The same contents spelt as a list of pieces: the one piece over the whole half. -/
theorem landed_halfIs'_src (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : IVec S8000 32) (x : IVec S640000 32) :
    HalfIs (F := F) (e := .i32) ((sSrc.slice (Rect.unit (s := S8000) ro S4000.size hin) (fun _ => rfl)).view.writes (Elt F) g
      [⟨Rect.whole S4000, (ReadAs.same : ReadAs (Elt F) S4000 .i32 S4000 .i32).apply
        ((aSrc.slice (Rect.unit (s := S640000) off S4000.size hoin) (fun _ => rfl)).view.read (Elt F) x)⟩]) h x n := by
  have e := View.write_univ_eq_writes_whole (Val := Elt F)
    (sSrc.slice (Rect.unit (s := S8000) ro S4000.size hin) (fun _ => rfl)).view g []
    ((ReadAs.same : ReadAs (Elt F) S4000 .i32 S4000 .i32).apply
      ((aSrc.slice (Rect.unit (s := S640000) off S4000.size hoin) (fun _ => rfl)).view.read (Elt F) x))
  exact (congrArg (fun f => HalfIs (F := F) (e := .i32) f h x n) e).mp (landed_halfIs_src h ro hro hin off n hoff hoin g x)

/-- The same contents spelt as a list of pieces: the one piece over the whole half. -/
theorem landed_halfIs'_dst (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : IVec S8000 32) (x : IVec S640000 32) :
    HalfIs (F := F) (e := .i32) ((sDst.slice (Rect.unit (s := S8000) ro S4000.size hin) (fun _ => rfl)).view.writes (Elt F) g
      [⟨Rect.whole S4000, (ReadAs.same : ReadAs (Elt F) S4000 .i32 S4000 .i32).apply
        ((aDst.slice (Rect.unit (s := S640000) off S4000.size hoin) (fun _ => rfl)).view.read (Elt F) x)⟩]) h x n := by
  have e := View.write_univ_eq_writes_whole (Val := Elt F)
    (sDst.slice (Rect.unit (s := S8000) ro S4000.size hin) (fun _ => rfl)).view g []
    ((ReadAs.same : ReadAs (Elt F) S4000 .i32 S4000 .i32).apply
      ((aDst.slice (Rect.unit (s := S640000) off S4000.size hoin) (fun _ => rfl)).view.read (Elt F) x))
  exact (congrArg (fun f => HalfIs (F := F) (e := .i32) f h x n) e).mp (landed_halfIs_dst h ro hro hin off n hoff hoin g x)

/-- The same contents spelt as a list of pieces: the one piece over the whole half. -/
theorem landed_halfIs'_pr (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : FVec F S8000 .f32) (x : FVec F S640000 .f32) :
    HalfIs (F := F) (e := .f32) ((sPr.slice (Rect.unit (s := S8000) ro S4000.size hin) (fun _ => rfl)).view.writes (Elt F) g
      [⟨Rect.whole S4000, (ReadAs.same : ReadAs (Elt F) S4000 .f32 S4000 .f32).apply
        ((aPr.slice (Rect.unit (s := S640000) off S4000.size hoin) (fun _ => rfl)).view.read (Elt F) x)⟩]) h x n := by
  have e := View.write_univ_eq_writes_whole (Val := Elt F)
    (sPr.slice (Rect.unit (s := S8000) ro S4000.size hin) (fun _ => rfl)).view g []
    ((ReadAs.same : ReadAs (Elt F) S4000 .f32 S4000 .f32).apply
      ((aPr.slice (Rect.unit (s := S640000) off S4000.size hoin) (fun _ => rfl)).view.read (Elt F) x))
  exact (congrArg (fun f => HalfIs (F := F) (e := .f32) f h x n) e).mp (landed_halfIs_pr h ro hro hin off n hoff hoin g x)

/-- The same contents spelt as a list of pieces: the one piece over the whole half. -/
theorem landed_halfIs'_g (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : FVec F S8000 .f32) (x : FVec F S640000 .f32) :
    HalfIs (F := F) (e := .f32) ((sG.slice (Rect.unit (s := S8000) ro S4000.size hin) (fun _ => rfl)).view.writes (Elt F) g
      [⟨Rect.whole S4000, (ReadAs.same : ReadAs (Elt F) S4000 .f32 S4000 .f32).apply
        ((aG.slice (Rect.unit (s := S640000) off S4000.size hoin) (fun _ => rfl)).view.read (Elt F) x)⟩]) h x n := by
  have e := View.write_univ_eq_writes_whole (Val := Elt F)
    (sG.slice (Rect.unit (s := S8000) ro S4000.size hin) (fun _ => rfl)).view g []
    ((ReadAs.same : ReadAs (Elt F) S4000 .f32 S4000 .f32).apply
      ((aG.slice (Rect.unit (s := S640000) off S4000.size hoin) (fun _ => rfl)).view.read (Elt F) x))
  exact (congrArg (fun f => HalfIs (F := F) (e := .f32) f h x n) e).mp (landed_halfIs_g h ro hro hin off n hoff hoin g x)

/-- The same contents spelt as a list of pieces: the one piece over the whole half. -/
theorem landed_halfIs'_b (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : FVec F S8000 .f32) (x : FVec F S640000 .f32) :
    HalfIs (F := F) (e := .f32) ((sB.slice (Rect.unit (s := S8000) ro S4000.size hin) (fun _ => rfl)).view.writes (Elt F) g
      [⟨Rect.whole S4000, (ReadAs.same : ReadAs (Elt F) S4000 .f32 S4000 .f32).apply
        ((aB.slice (Rect.unit (s := S640000) off S4000.size hoin) (fun _ => rfl)).view.read (Elt F) x)⟩]) h x n := by
  have e := View.write_univ_eq_writes_whole (Val := Elt F)
    (sB.slice (Rect.unit (s := S8000) ro S4000.size hin) (fun _ => rfl)).view g []
    ((ReadAs.same : ReadAs (Elt F) S4000 .f32 S4000 .f32).apply
      ((aB.slice (Rect.unit (s := S640000) off S4000.size hoin) (fun _ => rfl)).view.read (Elt F) x))
  exact (congrArg (fun f => HalfIs (F := F) (e := .f32) f h x n) e).mp (landed_halfIs_b h ro hro hin off n hoff hoin g x)

end Cert.Proof.KI

end
-- ==== Proof.KI.AccSum.lean ====
/-
  The library's indexed load and indexed accumulating store on a 10240-entry table and sixteen lanes are
  the evidence-free gather `gath` and scatter `scatAdd` of the specification whenever every lane's node
  number is in range: a lane's index is then its own clamped value, and the entry the store adds onto is
  the entry it names. For any float instance.
-/
import proofs.«213808_g38010460570139_cont_8to1_b_868_22_alg».proof.Proof.KI.Spec

noncomputable section

namespace Cert.KernelIdeal.Spec

open Idealize.ShloMosaic Cert.KernelIdeal

variable {F : FTy → Type} [FloatOps F]

/-- The indexed load with in-range evidence is the clamped gather. -/
theorem loadIdx_eq_gath (tab : FVec F S10240 .f32) (idx : IVec S16 32)
    (h : ∀ a x, ((![idx] : Fin 1 → IVec S16 32) a x).toNat < S10240.size a) :
    loadIdx (F := F) (e := .f32) tab ![idx] h = gath tab idx := by
  funext x
  show tab _ = tab _
  congr 1
  funext a
  obtain rfl : a = 0 := Fin.eq_zero a
  apply Fin.ext
  have h0 := h 0 x
  show (idx x).toNat = min (idx x).toNat 10239
  have h1 : (idx x).toNat < 10240 := h0
  omega

/-- The indexed accumulating store with in-range evidence is the evidence-free scatter: lane by lane the
    two steps agree, the entry added onto being the one the lane names. -/
theorem storeIdx_eq_scatAdd (acc : FVec F S10240 .f32) (idx : IVec S16 32) (v : FVec F S16 .f32) (mask : IVec S16 1)
    (h : ∀ a x, ((![idx] : Fin 1 → IVec S16 32) a x).toNat < S10240.size a) :
    storeIdx (F := F) (e := .f32) acc ![idx] v mask true h = scatAdd acc idx v mask := by
  unfold storeIdx scatAdd
  show List.foldl _ acc (List.finRange 16) = List.foldl _ acc (List.finRange 16)
  congr 1
  funext g k
  show (if mask (ln k) = 1 then _ else g) = _
  by_cases hm : mask (ln k) = 1
  · rw [if_pos hm, if_pos hm]
    funext j
    by_cases hc : (j 0).val = (idx (ln k)).toNat
    · have hj : idxAt (s := S10240) ![idx] h (Shape.ofLane (d := ![16]) k) = j := by
        funext a; obtain rfl : a = 0 := Fin.eq_zero a; exact Fin.ext hc.symm
      have hall : ∀ a, (j a).val = ((idxAt (s := S10240) ![idx] h (Shape.ofLane (d := ![16]) k)) a).val := by
        intro a; rw [hj]
      exact (if_pos hall).trans
        ((congrArg (fun t => Elt.idxAdd (F := F) .f32 (g t) (v (ln k))) hj).trans (if_pos hc).symm)
    · have hnall : ¬ ∀ a, (j a).val = ((idxAt (s := S10240) ![idx] h (Shape.ofLane (d := ![16]) k)) a).val :=
        fun H => hc (H 0)
      exact (if_neg hnall).trans (if_neg hc).symm
  · rw [if_neg hm, if_neg hm]

end Cert.KernelIdeal.Spec

end
-- ==== Proof.KI.TileInnerLemmas.lean ====
/-
  Pure facts for a round of five groups: sixteen node numbers read out of an array of node numbers
  below 10240 are below 10240; a list of stores that each overwrite the whole accumulator leaves the
  last stored vector, and a read of the whole accumulator after such a list reads that vector; the
  flows and masks the program forms are the ones the group step of the specification forms; and the
  two accumulators after one group, as two accumulating scatters each.
-/
import proofs.«213808_g38010460570139_cont_8to1_b_868_22_alg».proof.Proof.KI.TileNames
import proofs.«213808_g38010460570139_cont_8to1_b_868_22_alg».proof.Proof.KI.AccSum
import proofs.«213808_g38010460570139_cont_8to1_b_868_22_alg».proof.Proof.KI.Lanes
import proofs.«213808_g38010460570139_cont_8to1_b_868_22_alg».proof.Proof.KI.Window
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Sixteen consecutive entries of an array of node numbers below 10240 are below 10240. -/
theorem lanes_ltV (xs : IVec S640000 32) (hxs : ∀ j, (xs j).toNat < 10240) (n : Nat) (x : S16.Idx) :
    (Spec.lanes (F := F) (e := .i32) xs n x).toNat < 10240 := hxs _

/-! ### The accumulators after a list of whole-buffer stores -/

theorem writes_accP (f w : FVec F S10240 .f32) (Ls : List (View.Piece (Elt F) S10240 .f32)) :
    (sAccP : Memref sig .scVector .vmem S10240 .f32).view.writes (Elt F) f (⟨Rect.whole S10240, w⟩ :: Ls) = w := by
  rw [← View.write_univ_eq_writes_whole]; exact View.write_whole_univ (Val := Elt F) cc1_scratch1 _ w

theorem writes_accQ (f w : FVec F S10240 .f32) (Ls : List (View.Piece (Elt F) S10240 .f32)) :
    (sAccQ : Memref sig .scVector .vmem S10240 .f32).view.writes (Elt F) f (⟨Rect.whole S10240, w⟩ :: Ls) = w := by
  rw [← View.write_univ_eq_writes_whole]; exact View.write_whole_univ (Val := Elt F) cc1_scratch2 _ w

theorem readAt_accP (f : FVec F S10240 .f32) :
    (sAccP : Memref sig .scVector .vmem S10240 .f32).view.readAt (Elt F) (LoadRect.whole S10240) f = f := Memref.readAt_whole (Elt F) cc1_scratch1 f
theorem readAt_accQ (f : FVec F S10240 .f32) :
    (sAccQ : Memref sig .scVector .vmem S10240 .f32).view.readAt (Elt F) (LoadRect.whole S10240) f = f := Memref.readAt_whole (Elt F) cc1_scratch2 f
theorem readAt_tab (f : FVec F S10240 .f32) :
    (sTab : Memref sig .scVector .vmem S10240 .f32).view.readAt (Elt F) (LoadRect.whole S10240) f = f := Memref.readAt_whole (Elt F) cc1_scratch0 f

theorem readCov_accP (w : FVec F S10240 .f32) (Ls : List (View.Piece (Elt F) S10240 .f32)) :
    (sAccP : Memref sig .scVector .vmem S10240 .f32).view.readCov (⟨Rect.whole S10240, w⟩ :: Ls) (LoadRect.whole S10240) = w :=
  (congrArg ((sAccP : Memref sig .scVector .vmem S10240 .f32).view.readAt (Elt F) (LoadRect.whole S10240))
    (writes_accP (F := F) (View.junk (Val := Elt F) (sAccP : Memref sig .scVector .vmem S10240 .f32).view) w Ls)).trans (readAt_accP w)

theorem readCov_accQ (w : FVec F S10240 .f32) (Ls : List (View.Piece (Elt F) S10240 .f32)) :
    (sAccQ : Memref sig .scVector .vmem S10240 .f32).view.readCov (⟨Rect.whole S10240, w⟩ :: Ls) (LoadRect.whole S10240) = w :=
  (congrArg ((sAccQ : Memref sig .scVector .vmem S10240 .f32).view.readAt (Elt F) (LoadRect.whole S10240))
    (writes_accQ (F := F) (View.junk (Val := Elt F) (sAccQ : Memref sig .scVector .vmem S10240 .f32).view) w Ls)).trans (readAt_accQ w)

/-! ### The flows and masks as the group step spells them -/

theorem pay9_eq (a b c : FVec F S16 .f32) : k1_pay9 a b c = divf (mulf a b) (addf c Spec.epsV) := rfl
theorem pay10_eq (a b c : FVec F S16 .f32) : k1_pay10 a b c = divf (mulf a b) (addf c Spec.epsV) := rfl
theorem pay11_eq (s t : IVec S16 32) : k1_pay11 (F := F) s t = cmpi .ne s t := rfl
theorem pay12_eq (a b : FVec F S16 .f32) : k1_pay12 a b = mulf a b := rfl
theorem pay13_eq (a b c : FVec F S16 .f32) : k1_pay13 a b c = divf (mulf a b) (addf c Spec.epsV) := rfl
theorem pay14_eq (v c : FVec F S16 .f32) : k1_pay14 v c = divf v (addf c Spec.epsV) := rfl
theorem pay15_eq (s t : IVec S16 32) : k1_pay15 (F := F) s t = cmpi .ne s t := rfl
theorem pay17_eq (a b c : FVec F S16 .f32) : k1_pay17 a b c = divf (mulf a b) (addf c Spec.epsV) := rfl
theorem pay18_eq (a b c : FVec F S16 .f32) : k1_pay18 a b c = divf (mulf a b) (addf c Spec.epsV) := rfl
theorem pay19_eq (s t : IVec S16 32) : k1_pay19 (F := F) s t = cmpi .ne s t := rfl
theorem pay20_eq (a b : FVec F S16 .f32) : k1_pay20 a b = mulf a b := rfl
theorem pay1_eq (v c : FVec F S16 .f32) : k1_pay1 v c = divf v (addf c Spec.epsV) := rfl
theorem pay2_eq (v c : FVec F S16 .f32) : k1_pay2 v c = divf v (addf c Spec.epsV) := rfl
theorem pay3_eq (s t : IVec S16 32) : k1_pay3 (F := F) s t = cmpi .ne s t := rfl
theorem pay5_eq (a b c : FVec F S16 .f32) : k1_pay5 a b c = divf (mulf a b) (addf c Spec.epsV) := rfl
theorem pay6_eq (a b c : FVec F S16 .f32) : k1_pay6 a b c = divf (mulf a b) (addf c Spec.epsV) := rfl
theorem pay7_eq (s t : IVec S16 32) : k1_pay7 (F := F) s t = cmpi .ne s t := rfl

/-- The active accumulator after one group. -/
theorem grpAt_fst (tab : FVec F S10240 .f32) (xs xd : IVec S640000 32) (xp xg xb : FVec F S640000 .f32) (base n : Nat)
    (T : FVec F S10240 .f32 × FVec F S10240 .f32) :
    (Spec.grpAt tab xs xd xp xg xb base n T).1
      = Spec.scatAdd (Spec.scatAdd T.1 (Spec.lanes (F := F) (e := .i32) xs (base + 16 * n))
          (divf (mulf (Spec.gath tab (Spec.lanes (F := F) (e := .i32) xs (base + 16 * n))) (Spec.lanes (F := F) (e := .f32) xp (base + 16 * n)))
            (addf (Spec.lanes (F := F) (e := .f32) xg (base + 16 * n)) Spec.epsV)) (fun _ => 1#1))
          (Spec.lanes (F := F) (e := .i32) xd (base + 16 * n))
          (divf (mulf (Spec.gath tab (Spec.lanes (F := F) (e := .i32) xs (base + 16 * n))) (Spec.lanes (F := F) (e := .f32) xp (base + 16 * n)))
            (addf (Spec.lanes (F := F) (e := .f32) xg (base + 16 * n)) Spec.epsV))
          (cmpi .ne (Spec.lanes (F := F) (e := .i32) xs (base + 16 * n)) (Spec.lanes (F := F) (e := .i32) xd (base + 16 * n))) := rfl

/-- The reactive accumulator after one group. -/
theorem grpAt_snd (tab : FVec F S10240 .f32) (xs xd : IVec S640000 32) (xp xg xb : FVec F S640000 .f32) (base n : Nat)
    (T : FVec F S10240 .f32 × FVec F S10240 .f32) :
    (Spec.grpAt tab xs xd xp xg xb base n T).2
      = Spec.scatAdd (Spec.scatAdd T.2 (Spec.lanes (F := F) (e := .i32) xs (base + 16 * n))
          (divf (mulf (Spec.gath tab (Spec.lanes (F := F) (e := .i32) xs (base + 16 * n))) (Spec.lanes (F := F) (e := .f32) xp (base + 16 * n)))
            (addf (Spec.lanes (F := F) (e := .f32) xb (base + 16 * n)) Spec.epsV)) (fun _ => 1#1))
          (Spec.lanes (F := F) (e := .i32) xd (base + 16 * n))
          (divf (mulf (Spec.gath tab (Spec.lanes (F := F) (e := .i32) xs (base + 16 * n))) (Spec.lanes (F := F) (e := .f32) xp (base + 16 * n)))
            (addf (Spec.lanes (F := F) (e := .f32) xb (base + 16 * n)) Spec.epsV))
          (cmpi .ne (Spec.lanes (F := F) (e := .i32) xs (base + 16 * n)) (Spec.lanes (F := F) (e := .i32) xd (base + 16 * n))) := rfl

end Cert.Proof.KI

end
-- ==== Proof.KI.TileInnerVal0.lean ====
/-
  One round of a chunk on a vector subcore: five groups of sixteen edges read out of the landed half of
  the five double-buffered scratch buffers and accumulated onto the tile's two accumulators.

  A round reads, for each of its five groups, the sixteen source and destination node numbers, the
  probabilities and the two parameter columns at the group's place in the half; gathers the squared
  voltages at the source nodes; forms the two flows; and adds each flow onto the two accumulators at
  the source nodes and, where source and destination differ, at the destination nodes. The node
  numbers read are entries of the edge arrays, so they are in range of the 10240-entry tables.
-/
import proofs.«213808_g38010460570139_cont_8to1_b_868_22_alg».proof.Proof.KI.TileNames
import proofs.«213808_g38010460570139_cont_8to1_b_868_22_alg».proof.Proof.KI.AccSum
import proofs.«213808_g38010460570139_cont_8to1_b_868_22_alg».proof.Proof.KI.Lanes
import proofs.«213808_g38010460570139_cont_8to1_b_868_22_alg».proof.Proof.KI.Window
import proofs.«213808_g38010460570139_cont_8to1_b_868_22_alg».proof.Proof.KI.TileInnerLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-- What a round keeps (parity 0 half): the table, the two accumulators after the tile's first `250 c + 5 k`
    groups (chunk `c`, round `k`), and the landed halves. -/
def invInner0 (t2 : Fin k1_t2_loop.trips) (tab : FVec F S10240 .f32) (xs xd : IVec S640000 32) (xp xg xb : FVec F S640000 .f32) (base : Nat)
    (fs fd : IVec S8000 32) (fp fg fb : FVec F S8000 .f32) (k : Nat) (_ : Unit) : sProp 𝕄 :=
  iprop((sTab.view.loc (thr d L) ↦{fullShare} tab)
    ∗ (sAccP.view.loc (thr d L) ↦{fullShare} (Spec.tileAcc tab xs xd xp xg xb base (250 * t2.val + 5 * k)).1)
    ∗ (sAccQ.view.loc (thr d L) ↦{fullShare} (Spec.tileAcc tab xs xd xp xg xb base (250 * t2.val + 5 * k)).2)
    ∗ (hSrc0.view.loc (thr d L) ↦[hSrc0.view.set]{fullShare} fs) ∗ (hDst0.view.loc (thr d L) ↦[hDst0.view.set]{fullShare} fd)
    ∗ (hPr0.view.loc (thr d L) ↦[hPr0.view.set]{fullShare} fp)
    ∗ (hG0.view.loc (thr d L) ↦[hG0.view.set]{fullShare} fg) ∗ (hB0.view.loc (thr d L) ↦[hB0.view.set]{fullShare} fb))

set_option maxHeartbeats 8000000 in
/-- One round on the parity 0 half: five more groups on the two accumulators. -/
theorem inner_trip0 (t2 : Fin k1_t2_loop.trips) (tab : FVec F S10240 .f32) (xs xd : IVec S640000 32) (xp xg xb : FVec F S640000 .f32) (base : Nat)
    (fs fd : IVec S8000 32) (fp fg fb : FVec F S8000 .f32)
    (hxs : ∀ j, (xs j).toNat < 10240) (hxd : ∀ j, (xd j).toNat < 10240)
    (Hs : HalfIs (F := F) (e := .i32) fs 0 xs (base + 4000 * t2.val)) (Hd : HalfIs (F := F) (e := .i32) fd 0 xd (base + 4000 * t2.val))
    (Hp : HalfIs (F := F) (e := .f32) fp 0 xp (base + 4000 * t2.val)) (Hg : HalfIs (F := F) (e := .f32) fg 0 xg (base + 4000 * t2.val))
    (Hb : HalfIs (F := F) (e := .f32) fb 0 xb (base + 4000 * t2.val))
    (h2 : t2.val % 2 = 0) (v35 : BitVec 32) (k : Fin k1_t3_loop.trips) (acc : Unit) :
    invInner0 d L t2 tab xs xd xp xg xb base fs fd fp fg fb k.val acc
      ⊢ wp frame (wpE (defs₀ (F := F)) 𝒱₀ (thr d L) none) Set.univ
          (k1_t3_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 t2 v35 k acc)
          (invInner0 d L t2 tab xs xd xp xg xb base fs fd fp fg fb (k.val + 1)) := by
  have h3 : k.val < 50 := Nat.lt_of_lt_of_le k.isLt k1_t3_abs.2.1
  have es0 := (readAt_half_src (F := F) fs 0 xs (base + 4000 * t2.val) Hs (k1_off7 t2 k) (80 * k.val) (by rw [k1_off7_eq, h2]) (by omega) (k1_off7_inb t2 k)).trans (congrArg (Spec.lanes (F := F) (e := .i32) xs) (show base + 4000 * t2.val + (80 * k.val) = base + 16 * (250 * t2.val + 5 * k.val) by omega))
  have ed0 := (readAt_half_dst (F := F) fd 0 xd (base + 4000 * t2.val) Hd (k1_off7 t2 k) (80 * k.val) (by rw [k1_off7_eq, h2]) (by omega) (k1_off7_inb t2 k)).trans (congrArg (Spec.lanes (F := F) (e := .i32) xd) (show base + 4000 * t2.val + (80 * k.val) = base + 16 * (250 * t2.val + 5 * k.val) by omega))
  have ep0 := (readAt_half_pr (F := F) fp 0 xp (base + 4000 * t2.val) Hp (k1_off8 t2 k) (80 * k.val) (by rw [k1_off8_eq, h2]) (by omega) (k1_off8_inb t2 k)).trans (congrArg (Spec.lanes (F := F) (e := .f32) xp) (show base + 4000 * t2.val + (80 * k.val) = base + 16 * (250 * t2.val + 5 * k.val) by omega))
  have eg0 := (readAt_half_g (F := F) fg 0 xg (base + 4000 * t2.val) Hg (k1_off8 t2 k) (80 * k.val) (by rw [k1_off8_eq, h2]) (by omega) (k1_off8_inb t2 k)).trans (congrArg (Spec.lanes (F := F) (e := .f32) xg) (show base + 4000 * t2.val + (80 * k.val) = base + 16 * (250 * t2.val + 5 * k.val) by omega))
  have eb0 := (readAt_half_b (F := F) fb 0 xb (base + 4000 * t2.val) Hb (k1_off8 t2 k) (80 * k.val) (by rw [k1_off8_eq, h2]) (by omega) (k1_off8_inb t2 k)).trans (congrArg (Spec.lanes (F := F) (e := .f32) xb) (show base + 4000 * t2.val + (80 * k.val) = base + 16 * (250 * t2.val + 5 * k.val) by omega))
  have es1 := (readAt_half_src (F := F) fs 0 xs (base + 4000 * t2.val) Hs (k1_off9 t2 k) (80 * k.val + 16) (by rw [k1_off9_eq, h2, Nat.add_assoc]) (by omega) (k1_off9_inb t2 k)).trans (congrArg (Spec.lanes (F := F) (e := .i32) xs) (show base + 4000 * t2.val + (80 * k.val + 16) = base + 16 * (250 * t2.val + 5 * k.val + 1) by omega))
  have ed1 := (readAt_half_dst (F := F) fd 0 xd (base + 4000 * t2.val) Hd (k1_off9 t2 k) (80 * k.val + 16) (by rw [k1_off9_eq, h2, Nat.add_assoc]) (by omega) (k1_off9_inb t2 k)).trans (congrArg (Spec.lanes (F := F) (e := .i32) xd) (show base + 4000 * t2.val + (80 * k.val + 16) = base + 16 * (250 * t2.val + 5 * k.val + 1) by omega))
  have ep1 := (readAt_half_pr (F := F) fp 0 xp (base + 4000 * t2.val) Hp (k1_off10 t2 k) (80 * k.val + 16) (by rw [k1_off10_eq, h2, Nat.add_assoc]) (by omega) (k1_off10_inb t2 k)).trans (congrArg (Spec.lanes (F := F) (e := .f32) xp) (show base + 4000 * t2.val + (80 * k.val + 16) = base + 16 * (250 * t2.val + 5 * k.val + 1) by omega))
  have eg1 := (readAt_half_g (F := F) fg 0 xg (base + 4000 * t2.val) Hg (k1_off10 t2 k) (80 * k.val + 16) (by rw [k1_off10_eq, h2, Nat.add_assoc]) (by omega) (k1_off10_inb t2 k)).trans (congrArg (Spec.lanes (F := F) (e := .f32) xg) (show base + 4000 * t2.val + (80 * k.val + 16) = base + 16 * (250 * t2.val + 5 * k.val + 1) by omega))
  have eb1 := (readAt_half_b (F := F) fb 0 xb (base + 4000 * t2.val) Hb (k1_off10 t2 k) (80 * k.val + 16) (by rw [k1_off10_eq, h2, Nat.add_assoc]) (by omega) (k1_off10_inb t2 k)).trans (congrArg (Spec.lanes (F := F) (e := .f32) xb) (show base + 4000 * t2.val + (80 * k.val + 16) = base + 16 * (250 * t2.val + 5 * k.val + 1) by omega))
  have es2 := (readAt_half_src (F := F) fs 0 xs (base + 4000 * t2.val) Hs (k1_off11 t2 k) (80 * k.val + 32) (by rw [k1_off11_eq, h2, Nat.add_assoc]) (by omega) (k1_off11_inb t2 k)).trans (congrArg (Spec.lanes (F := F) (e := .i32) xs) (show base + 4000 * t2.val + (80 * k.val + 32) = base + 16 * (250 * t2.val + 5 * k.val + 2) by omega))
  have ed2 := (readAt_half_dst (F := F) fd 0 xd (base + 4000 * t2.val) Hd (k1_off11 t2 k) (80 * k.val + 32) (by rw [k1_off11_eq, h2, Nat.add_assoc]) (by omega) (k1_off11_inb t2 k)).trans (congrArg (Spec.lanes (F := F) (e := .i32) xd) (show base + 4000 * t2.val + (80 * k.val + 32) = base + 16 * (250 * t2.val + 5 * k.val + 2) by omega))
  have ep2 := (readAt_half_pr (F := F) fp 0 xp (base + 4000 * t2.val) Hp (k1_off12 t2 k) (80 * k.val + 32) (by rw [k1_off12_eq, h2, Nat.add_assoc]) (by omega) (k1_off12_inb t2 k)).trans (congrArg (Spec.lanes (F := F) (e := .f32) xp) (show base + 4000 * t2.val + (80 * k.val + 32) = base + 16 * (250 * t2.val + 5 * k.val + 2) by omega))
  have eg2 := (readAt_half_g (F := F) fg 0 xg (base + 4000 * t2.val) Hg (k1_off12 t2 k) (80 * k.val + 32) (by rw [k1_off12_eq, h2, Nat.add_assoc]) (by omega) (k1_off12_inb t2 k)).trans (congrArg (Spec.lanes (F := F) (e := .f32) xg) (show base + 4000 * t2.val + (80 * k.val + 32) = base + 16 * (250 * t2.val + 5 * k.val + 2) by omega))
  have eb2 := (readAt_half_b (F := F) fb 0 xb (base + 4000 * t2.val) Hb (k1_off12 t2 k) (80 * k.val + 32) (by rw [k1_off12_eq, h2, Nat.add_assoc]) (by omega) (k1_off12_inb t2 k)).trans (congrArg (Spec.lanes (F := F) (e := .f32) xb) (show base + 4000 * t2.val + (80 * k.val + 32) = base + 16 * (250 * t2.val + 5 * k.val + 2) by omega))
  have es3 := (readAt_half_src (F := F) fs 0 xs (base + 4000 * t2.val) Hs (k1_off13 t2 k) (80 * k.val + 48) (by rw [k1_off13_eq, h2, Nat.add_assoc]) (by omega) (k1_off13_inb t2 k)).trans (congrArg (Spec.lanes (F := F) (e := .i32) xs) (show base + 4000 * t2.val + (80 * k.val + 48) = base + 16 * (250 * t2.val + 5 * k.val + 3) by omega))
  have ed3 := (readAt_half_dst (F := F) fd 0 xd (base + 4000 * t2.val) Hd (k1_off13 t2 k) (80 * k.val + 48) (by rw [k1_off13_eq, h2, Nat.add_assoc]) (by omega) (k1_off13_inb t2 k)).trans (congrArg (Spec.lanes (F := F) (e := .i32) xd) (show base + 4000 * t2.val + (80 * k.val + 48) = base + 16 * (250 * t2.val + 5 * k.val + 3) by omega))
  have ep3 := (readAt_half_pr (F := F) fp 0 xp (base + 4000 * t2.val) Hp (k1_off14 t2 k) (80 * k.val + 48) (by rw [k1_off14_eq, h2, Nat.add_assoc]) (by omega) (k1_off14_inb t2 k)).trans (congrArg (Spec.lanes (F := F) (e := .f32) xp) (show base + 4000 * t2.val + (80 * k.val + 48) = base + 16 * (250 * t2.val + 5 * k.val + 3) by omega))
  have eg3 := (readAt_half_g (F := F) fg 0 xg (base + 4000 * t2.val) Hg (k1_off14 t2 k) (80 * k.val + 48) (by rw [k1_off14_eq, h2, Nat.add_assoc]) (by omega) (k1_off14_inb t2 k)).trans (congrArg (Spec.lanes (F := F) (e := .f32) xg) (show base + 4000 * t2.val + (80 * k.val + 48) = base + 16 * (250 * t2.val + 5 * k.val + 3) by omega))
  have eb3 := (readAt_half_b (F := F) fb 0 xb (base + 4000 * t2.val) Hb (k1_off14 t2 k) (80 * k.val + 48) (by rw [k1_off14_eq, h2, Nat.add_assoc]) (by omega) (k1_off14_inb t2 k)).trans (congrArg (Spec.lanes (F := F) (e := .f32) xb) (show base + 4000 * t2.val + (80 * k.val + 48) = base + 16 * (250 * t2.val + 5 * k.val + 3) by omega))
  have es4 := (readAt_half_src (F := F) fs 0 xs (base + 4000 * t2.val) Hs (k1_off15 t2 k) (80 * k.val + 64) (by rw [k1_off15_eq, h2, Nat.add_assoc]) (by omega) (k1_off15_inb t2 k)).trans (congrArg (Spec.lanes (F := F) (e := .i32) xs) (show base + 4000 * t2.val + (80 * k.val + 64) = base + 16 * (250 * t2.val + 5 * k.val + 4) by omega))
  have ed4 := (readAt_half_dst (F := F) fd 0 xd (base + 4000 * t2.val) Hd (k1_off15 t2 k) (80 * k.val + 64) (by rw [k1_off15_eq, h2, Nat.add_assoc]) (by omega) (k1_off15_inb t2 k)).trans (congrArg (Spec.lanes (F := F) (e := .i32) xd) (show base + 4000 * t2.val + (80 * k.val + 64) = base + 16 * (250 * t2.val + 5 * k.val + 4) by omega))
  have ep4 := (readAt_half_pr (F := F) fp 0 xp (base + 4000 * t2.val) Hp (k1_off16 t2 k) (80 * k.val + 64) (by rw [k1_off16_eq, h2, Nat.add_assoc]) (by omega) (k1_off16_inb t2 k)).trans (congrArg (Spec.lanes (F := F) (e := .f32) xp) (show base + 4000 * t2.val + (80 * k.val + 64) = base + 16 * (250 * t2.val + 5 * k.val + 4) by omega))
  have eg4 := (readAt_half_g (F := F) fg 0 xg (base + 4000 * t2.val) Hg (k1_off16 t2 k) (80 * k.val + 64) (by rw [k1_off16_eq, h2, Nat.add_assoc]) (by omega) (k1_off16_inb t2 k)).trans (congrArg (Spec.lanes (F := F) (e := .f32) xg) (show base + 4000 * t2.val + (80 * k.val + 64) = base + 16 * (250 * t2.val + 5 * k.val + 4) by omega))
  have eb4 := (readAt_half_b (F := F) fb 0 xb (base + 4000 * t2.val) Hb (k1_off16 t2 k) (80 * k.val + 64) (by rw [k1_off16_eq, h2, Nat.add_assoc]) (by omega) (k1_off16_inb t2 k)).trans (congrArg (Spec.lanes (F := F) (e := .f32) xb) (show base + 4000 * t2.val + (80 * k.val + 64) = base + 16 * (250 * t2.val + 5 * k.val + 4) by omega))
  unfold k1_t3_body invInner0
  iintro ⟨Htab, Hap, Haq, Hsv, Hdv, Hpv, Hgv, Hbv⟩
  sl_exec (disch := first | sl_exact chk3_of (lanes_ltV (F := F) xs hxs _) | sl_exact chk2_of (lanes_ltV (F := F) xd hxd _))
  iterate 25 (first | rw [SparseCore.vectorLoadIdx_bind (thr d L)] | rw [SparseCore.vectorStoreIdx_bind (thr d L)]); sl_exec (disch := first | sl_exact chk3_of (lanes_ltV (F := F) xs hxs _) | sl_exact chk2_of (lanes_ltV (F := F) xd hxd _))
  sl_step
  have rt : (View.whole cc1_scratch0 : View sig .scVector .vmem S10240 .f32).readAt (Elt F) (LoadRect.whole S10240) tab = tab :=
    readAt_tab (F := F) tab
  isplitl [Htab]; · iexact Htab
  isplitl [Hap]
  · istop
    refine Entails.of_eq (congrArg (pointsTo _ Finset.univ fullShare) ?_)
    rw [writes_accP]
    delta inner_trip0.sl.f_16
    rw [readCov_accP]
    delta inner_trip0.sl.f_14
    rw [readCov_accP]
    delta inner_trip0.sl.f_12
    rw [readCov_accP]
    delta inner_trip0.sl.f_10
    rw [readCov_accP]
    delta inner_trip0.sl.f_8
    rw [readCov_accP]
    delta inner_trip0.sl.f_6
    rw [readCov_accP]
    delta inner_trip0.sl.f_4
    rw [readCov_accP]
    delta inner_trip0.sl.f_2
    rw [readCov_accP]
    delta inner_trip0.sl.f
    rw [readCov_accP]
    rw [readAt_accP]
    sl_unfold_run_names
    simp only [rt, readAt_tab, pay9_eq, pay10_eq, pay11_eq, pay12_eq, pay13_eq, pay14_eq, pay15_eq, pay17_eq, pay18_eq, pay19_eq, pay20_eq, pay1_eq, pay2_eq, pay3_eq, pay5_eq, pay6_eq, pay7_eq, Spec.loadIdx_eq_gath, Spec.storeIdx_eq_scatAdd]
    rw [show 250 * t2.val + 5 * (k.val + 1) = 250 * t2.val + 5 * k.val + 5 by omega, Spec.tileAcc_add_five]
    simp only [grpAt_fst] <;> with_reducible rfl
  isplitl [Haq]
  · istop
    refine Entails.of_eq (congrArg (pointsTo _ Finset.univ fullShare) ?_)
    rw [writes_accQ]
    delta inner_trip0.sl.f_17
    rw [readCov_accQ]
    delta inner_trip0.sl.f_15
    rw [readCov_accQ]
    delta inner_trip0.sl.f_13
    rw [readCov_accQ]
    delta inner_trip0.sl.f_11
    rw [readCov_accQ]
    delta inner_trip0.sl.f_9
    rw [readCov_accQ]
    delta inner_trip0.sl.f_7
    rw [readCov_accQ]
    delta inner_trip0.sl.f_5
    rw [readCov_accQ]
    delta inner_trip0.sl.f_3
    rw [readCov_accQ]
    delta inner_trip0.sl.f_1
    rw [readCov_accQ]
    rw [readAt_accQ]
    sl_unfold_run_names
    simp only [rt, readAt_tab, pay9_eq, pay10_eq, pay11_eq, pay12_eq, pay13_eq, pay14_eq, pay15_eq, pay17_eq, pay18_eq, pay19_eq, pay20_eq, pay1_eq, pay2_eq, pay3_eq, pay5_eq, pay6_eq, pay7_eq, Spec.loadIdx_eq_gath, Spec.storeIdx_eq_scatAdd]
    rw [show 250 * t2.val + 5 * (k.val + 1) = 250 * t2.val + 5 * k.val + 5 by omega, Spec.tileAcc_add_five]
    simp only [grpAt_snd] <;> with_reducible rfl
  isplitl [Hsv]; · iexact Hsv
  isplitl [Hdv]; · iexact Hdv
  isplitl [Hpv]; · iexact Hpv
  isplitl [Hgv]; · iexact Hgv
  iexact Hbv

end Cert.Proof.KI

end
-- ==== Proof.KI.TileInnerVal1.lean ====
/-
  One round of a chunk on a vector subcore, on the second halves of the five double-buffered scratch
  buffers: five groups of sixteen edges read out of the landed half and accumulated onto the tile's two
  accumulators, which then hold the specification's fold five groups further on.

  A round reads, for each of its five groups, the sixteen source and destination node numbers, the
  probabilities and the two parameter columns at the group's place in the half; gathers the squared
  voltages at the source nodes; forms the two flows; and adds each flow onto the two accumulators at
  the source nodes and, where source and destination differ, at the destination nodes. The node
  numbers read are entries of the edge arrays, so they are in range of the 10240-entry tables.
-/
import proofs.«213808_g38010460570139_cont_8to1_b_868_22_alg».proof.Proof.KI.TileNames
import proofs.«213808_g38010460570139_cont_8to1_b_868_22_alg».proof.Proof.KI.AccSum
import proofs.«213808_g38010460570139_cont_8to1_b_868_22_alg».proof.Proof.KI.Lanes
import proofs.«213808_g38010460570139_cont_8to1_b_868_22_alg».proof.Proof.KI.Window
import proofs.«213808_g38010460570139_cont_8to1_b_868_22_alg».proof.Proof.KI.TileInnerLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-- What a round keeps (parity 1 half): the table, the two accumulators after the tile's first `250 c + 5 k`
    groups (chunk `c`, round `k`), and the landed halves. -/
def invInner1 (t2 : Fin k1_t2_loop.trips) (tab : FVec F S10240 .f32) (xs xd : IVec S640000 32) (xp xg xb : FVec F S640000 .f32) (base : Nat)
    (fs fd : IVec S8000 32) (fp fg fb : FVec F S8000 .f32) (k : Nat) (_ : Unit) : sProp 𝕄 :=
  iprop((sTab.view.loc (thr d L) ↦{fullShare} tab)
    ∗ (sAccP.view.loc (thr d L) ↦{fullShare} (Spec.tileAcc tab xs xd xp xg xb base (250 * t2.val + 5 * k)).1)
    ∗ (sAccQ.view.loc (thr d L) ↦{fullShare} (Spec.tileAcc tab xs xd xp xg xb base (250 * t2.val + 5 * k)).2)
    ∗ (hSrc1.view.loc (thr d L) ↦[hSrc1.view.set]{fullShare} fs) ∗ (hDst1.view.loc (thr d L) ↦[hDst1.view.set]{fullShare} fd)
    ∗ (hPr1.view.loc (thr d L) ↦[hPr1.view.set]{fullShare} fp)
    ∗ (hG1.view.loc (thr d L) ↦[hG1.view.set]{fullShare} fg) ∗ (hB1.view.loc (thr d L) ↦[hB1.view.set]{fullShare} fb))

set_option maxHeartbeats 8000000 in
/-- One round on the parity 1 half: five more groups on the two accumulators. -/
theorem inner_trip1 (t2 : Fin k1_t2_loop.trips) (tab : FVec F S10240 .f32) (xs xd : IVec S640000 32) (xp xg xb : FVec F S640000 .f32) (base : Nat)
    (fs fd : IVec S8000 32) (fp fg fb : FVec F S8000 .f32)
    (hxs : ∀ j, (xs j).toNat < 10240) (hxd : ∀ j, (xd j).toNat < 10240)
    (Hs : HalfIs (F := F) (e := .i32) fs 1 xs (base + 4000 * t2.val)) (Hd : HalfIs (F := F) (e := .i32) fd 1 xd (base + 4000 * t2.val))
    (Hp : HalfIs (F := F) (e := .f32) fp 1 xp (base + 4000 * t2.val)) (Hg : HalfIs (F := F) (e := .f32) fg 1 xg (base + 4000 * t2.val))
    (Hb : HalfIs (F := F) (e := .f32) fb 1 xb (base + 4000 * t2.val))
    (h2 : t2.val % 2 = 1) (v35 : BitVec 32) (k : Fin k1_t3_loop.trips) (acc : Unit) :
    invInner1 d L t2 tab xs xd xp xg xb base fs fd fp fg fb k.val acc
      ⊢ wp frame (wpE (defs₀ (F := F)) 𝒱₀ (thr d L) none) Set.univ
          (k1_t3_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 t2 v35 k acc)
          (invInner1 d L t2 tab xs xd xp xg xb base fs fd fp fg fb (k.val + 1)) := by
  have h3 : k.val < 50 := Nat.lt_of_lt_of_le k.isLt k1_t3_abs.2.1
  have es0 := (readAt_half_src (F := F) fs 1 xs (base + 4000 * t2.val) Hs (k1_off7 t2 k) (80 * k.val) (by rw [k1_off7_eq, h2]) (by omega) (k1_off7_inb t2 k)).trans (congrArg (Spec.lanes (F := F) (e := .i32) xs) (show base + 4000 * t2.val + (80 * k.val) = base + 16 * (250 * t2.val + 5 * k.val) by omega))
  have ed0 := (readAt_half_dst (F := F) fd 1 xd (base + 4000 * t2.val) Hd (k1_off7 t2 k) (80 * k.val) (by rw [k1_off7_eq, h2]) (by omega) (k1_off7_inb t2 k)).trans (congrArg (Spec.lanes (F := F) (e := .i32) xd) (show base + 4000 * t2.val + (80 * k.val) = base + 16 * (250 * t2.val + 5 * k.val) by omega))
  have ep0 := (readAt_half_pr (F := F) fp 1 xp (base + 4000 * t2.val) Hp (k1_off8 t2 k) (80 * k.val) (by rw [k1_off8_eq, h2]) (by omega) (k1_off8_inb t2 k)).trans (congrArg (Spec.lanes (F := F) (e := .f32) xp) (show base + 4000 * t2.val + (80 * k.val) = base + 16 * (250 * t2.val + 5 * k.val) by omega))
  have eg0 := (readAt_half_g (F := F) fg 1 xg (base + 4000 * t2.val) Hg (k1_off8 t2 k) (80 * k.val) (by rw [k1_off8_eq, h2]) (by omega) (k1_off8_inb t2 k)).trans (congrArg (Spec.lanes (F := F) (e := .f32) xg) (show base + 4000 * t2.val + (80 * k.val) = base + 16 * (250 * t2.val + 5 * k.val) by omega))
  have eb0 := (readAt_half_b (F := F) fb 1 xb (base + 4000 * t2.val) Hb (k1_off8 t2 k) (80 * k.val) (by rw [k1_off8_eq, h2]) (by omega) (k1_off8_inb t2 k)).trans (congrArg (Spec.lanes (F := F) (e := .f32) xb) (show base + 4000 * t2.val + (80 * k.val) = base + 16 * (250 * t2.val + 5 * k.val) by omega))
  have es1 := (readAt_half_src (F := F) fs 1 xs (base + 4000 * t2.val) Hs (k1_off9 t2 k) (80 * k.val + 16) (by rw [k1_off9_eq, h2, Nat.add_assoc]) (by omega) (k1_off9_inb t2 k)).trans (congrArg (Spec.lanes (F := F) (e := .i32) xs) (show base + 4000 * t2.val + (80 * k.val + 16) = base + 16 * (250 * t2.val + 5 * k.val + 1) by omega))
  have ed1 := (readAt_half_dst (F := F) fd 1 xd (base + 4000 * t2.val) Hd (k1_off9 t2 k) (80 * k.val + 16) (by rw [k1_off9_eq, h2, Nat.add_assoc]) (by omega) (k1_off9_inb t2 k)).trans (congrArg (Spec.lanes (F := F) (e := .i32) xd) (show base + 4000 * t2.val + (80 * k.val + 16) = base + 16 * (250 * t2.val + 5 * k.val + 1) by omega))
  have ep1 := (readAt_half_pr (F := F) fp 1 xp (base + 4000 * t2.val) Hp (k1_off10 t2 k) (80 * k.val + 16) (by rw [k1_off10_eq, h2, Nat.add_assoc]) (by omega) (k1_off10_inb t2 k)).trans (congrArg (Spec.lanes (F := F) (e := .f32) xp) (show base + 4000 * t2.val + (80 * k.val + 16) = base + 16 * (250 * t2.val + 5 * k.val + 1) by omega))
  have eg1 := (readAt_half_g (F := F) fg 1 xg (base + 4000 * t2.val) Hg (k1_off10 t2 k) (80 * k.val + 16) (by rw [k1_off10_eq, h2, Nat.add_assoc]) (by omega) (k1_off10_inb t2 k)).trans (congrArg (Spec.lanes (F := F) (e := .f32) xg) (show base + 4000 * t2.val + (80 * k.val + 16) = base + 16 * (250 * t2.val + 5 * k.val + 1) by omega))
  have eb1 := (readAt_half_b (F := F) fb 1 xb (base + 4000 * t2.val) Hb (k1_off10 t2 k) (80 * k.val + 16) (by rw [k1_off10_eq, h2, Nat.add_assoc]) (by omega) (k1_off10_inb t2 k)).trans (congrArg (Spec.lanes (F := F) (e := .f32) xb) (show base + 4000 * t2.val + (80 * k.val + 16) = base + 16 * (250 * t2.val + 5 * k.val + 1) by omega))
  have es2 := (readAt_half_src (F := F) fs 1 xs (base + 4000 * t2.val) Hs (k1_off11 t2 k) (80 * k.val + 32) (by rw [k1_off11_eq, h2, Nat.add_assoc]) (by omega) (k1_off11_inb t2 k)).trans (congrArg (Spec.lanes (F := F) (e := .i32) xs) (show base + 4000 * t2.val + (80 * k.val + 32) = base + 16 * (250 * t2.val + 5 * k.val + 2) by omega))
  have ed2 := (readAt_half_dst (F := F) fd 1 xd (base + 4000 * t2.val) Hd (k1_off11 t2 k) (80 * k.val + 32) (by rw [k1_off11_eq, h2, Nat.add_assoc]) (by omega) (k1_off11_inb t2 k)).trans (congrArg (Spec.lanes (F := F) (e := .i32) xd) (show base + 4000 * t2.val + (80 * k.val + 32) = base + 16 * (250 * t2.val + 5 * k.val + 2) by omega))
  have ep2 := (readAt_half_pr (F := F) fp 1 xp (base + 4000 * t2.val) Hp (k1_off12 t2 k) (80 * k.val + 32) (by rw [k1_off12_eq, h2, Nat.add_assoc]) (by omega) (k1_off12_inb t2 k)).trans (congrArg (Spec.lanes (F := F) (e := .f32) xp) (show base + 4000 * t2.val + (80 * k.val + 32) = base + 16 * (250 * t2.val + 5 * k.val + 2) by omega))
  have eg2 := (readAt_half_g (F := F) fg 1 xg (base + 4000 * t2.val) Hg (k1_off12 t2 k) (80 * k.val + 32) (by rw [k1_off12_eq, h2, Nat.add_assoc]) (by omega) (k1_off12_inb t2 k)).trans (congrArg (Spec.lanes (F := F) (e := .f32) xg) (show base + 4000 * t2.val + (80 * k.val + 32) = base + 16 * (250 * t2.val + 5 * k.val + 2) by omega))
  have eb2 := (readAt_half_b (F := F) fb 1 xb (base + 4000 * t2.val) Hb (k1_off12 t2 k) (80 * k.val + 32) (by rw [k1_off12_eq, h2, Nat.add_assoc]) (by omega) (k1_off12_inb t2 k)).trans (congrArg (Spec.lanes (F := F) (e := .f32) xb) (show base + 4000 * t2.val + (80 * k.val + 32) = base + 16 * (250 * t2.val + 5 * k.val + 2) by omega))
  have es3 := (readAt_half_src (F := F) fs 1 xs (base + 4000 * t2.val) Hs (k1_off13 t2 k) (80 * k.val + 48) (by rw [k1_off13_eq, h2, Nat.add_assoc]) (by omega) (k1_off13_inb t2 k)).trans (congrArg (Spec.lanes (F := F) (e := .i32) xs) (show base + 4000 * t2.val + (80 * k.val + 48) = base + 16 * (250 * t2.val + 5 * k.val + 3) by omega))
  have ed3 := (readAt_half_dst (F := F) fd 1 xd (base + 4000 * t2.val) Hd (k1_off13 t2 k) (80 * k.val + 48) (by rw [k1_off13_eq, h2, Nat.add_assoc]) (by omega) (k1_off13_inb t2 k)).trans (congrArg (Spec.lanes (F := F) (e := .i32) xd) (show base + 4000 * t2.val + (80 * k.val + 48) = base + 16 * (250 * t2.val + 5 * k.val + 3) by omega))
  have ep3 := (readAt_half_pr (F := F) fp 1 xp (base + 4000 * t2.val) Hp (k1_off14 t2 k) (80 * k.val + 48) (by rw [k1_off14_eq, h2, Nat.add_assoc]) (by omega) (k1_off14_inb t2 k)).trans (congrArg (Spec.lanes (F := F) (e := .f32) xp) (show base + 4000 * t2.val + (80 * k.val + 48) = base + 16 * (250 * t2.val + 5 * k.val + 3) by omega))
  have eg3 := (readAt_half_g (F := F) fg 1 xg (base + 4000 * t2.val) Hg (k1_off14 t2 k) (80 * k.val + 48) (by rw [k1_off14_eq, h2, Nat.add_assoc]) (by omega) (k1_off14_inb t2 k)).trans (congrArg (Spec.lanes (F := F) (e := .f32) xg) (show base + 4000 * t2.val + (80 * k.val + 48) = base + 16 * (250 * t2.val + 5 * k.val + 3) by omega))
  have eb3 := (readAt_half_b (F := F) fb 1 xb (base + 4000 * t2.val) Hb (k1_off14 t2 k) (80 * k.val + 48) (by rw [k1_off14_eq, h2, Nat.add_assoc]) (by omega) (k1_off14_inb t2 k)).trans (congrArg (Spec.lanes (F := F) (e := .f32) xb) (show base + 4000 * t2.val + (80 * k.val + 48) = base + 16 * (250 * t2.val + 5 * k.val + 3) by omega))
  have es4 := (readAt_half_src (F := F) fs 1 xs (base + 4000 * t2.val) Hs (k1_off15 t2 k) (80 * k.val + 64) (by rw [k1_off15_eq, h2, Nat.add_assoc]) (by omega) (k1_off15_inb t2 k)).trans (congrArg (Spec.lanes (F := F) (e := .i32) xs) (show base + 4000 * t2.val + (80 * k.val + 64) = base + 16 * (250 * t2.val + 5 * k.val + 4) by omega))
  have ed4 := (readAt_half_dst (F := F) fd 1 xd (base + 4000 * t2.val) Hd (k1_off15 t2 k) (80 * k.val + 64) (by rw [k1_off15_eq, h2, Nat.add_assoc]) (by omega) (k1_off15_inb t2 k)).trans (congrArg (Spec.lanes (F := F) (e := .i32) xd) (show base + 4000 * t2.val + (80 * k.val + 64) = base + 16 * (250 * t2.val + 5 * k.val + 4) by omega))
  have ep4 := (readAt_half_pr (F := F) fp 1 xp (base + 4000 * t2.val) Hp (k1_off16 t2 k) (80 * k.val + 64) (by rw [k1_off16_eq, h2, Nat.add_assoc]) (by omega) (k1_off16_inb t2 k)).trans (congrArg (Spec.lanes (F := F) (e := .f32) xp) (show base + 4000 * t2.val + (80 * k.val + 64) = base + 16 * (250 * t2.val + 5 * k.val + 4) by omega))
  have eg4 := (readAt_half_g (F := F) fg 1 xg (base + 4000 * t2.val) Hg (k1_off16 t2 k) (80 * k.val + 64) (by rw [k1_off16_eq, h2, Nat.add_assoc]) (by omega) (k1_off16_inb t2 k)).trans (congrArg (Spec.lanes (F := F) (e := .f32) xg) (show base + 4000 * t2.val + (80 * k.val + 64) = base + 16 * (250 * t2.val + 5 * k.val + 4) by omega))
  have eb4 := (readAt_half_b (F := F) fb 1 xb (base + 4000 * t2.val) Hb (k1_off16 t2 k) (80 * k.val + 64) (by rw [k1_off16_eq, h2, Nat.add_assoc]) (by omega) (k1_off16_inb t2 k)).trans (congrArg (Spec.lanes (F := F) (e := .f32) xb) (show base + 4000 * t2.val + (80 * k.val + 64) = base + 16 * (250 * t2.val + 5 * k.val + 4) by omega))
  unfold k1_t3_body invInner1
  iintro ⟨Htab, Hap, Haq, Hsv, Hdv, Hpv, Hgv, Hbv⟩
  sl_exec (disch := first | sl_exact chk3_of (lanes_ltV (F := F) xs hxs _) | sl_exact chk2_of (lanes_ltV (F := F) xd hxd _))
  iterate 25 (first | rw [SparseCore.vectorLoadIdx_bind (thr d L)] | rw [SparseCore.vectorStoreIdx_bind (thr d L)]); sl_exec (disch := first | sl_exact chk3_of (lanes_ltV (F := F) xs hxs _) | sl_exact chk2_of (lanes_ltV (F := F) xd hxd _))
  sl_step
  have rt : ∀ f : FVec F S10240 .f32, View.readAt (Elt F) (View.whole cc1_scratch0) (LoadRect.whole S10240) f = f :=
    fun f => Memref.readAt_whole (Elt F) cc1_scratch0 f
  isplitl [Htab]; · iexact Htab
  isplitl [Hap]
  · istop
    refine Entails.of_eq (congrArg (pointsTo _ Finset.univ fullShare) ?_)
    rw [writes_accP]
    delta inner_trip1.sl.f_16
    rw [readCov_accP]
    delta inner_trip1.sl.f_14
    rw [readCov_accP]
    delta inner_trip1.sl.f_12
    rw [readCov_accP]
    delta inner_trip1.sl.f_10
    rw [readCov_accP]
    delta inner_trip1.sl.f_8
    rw [readCov_accP]
    delta inner_trip1.sl.f_6
    rw [readCov_accP]
    delta inner_trip1.sl.f_4
    rw [readCov_accP]
    delta inner_trip1.sl.f_2
    rw [readCov_accP]
    delta inner_trip1.sl.f
    rw [readCov_accP]
    rw [readAt_accP]
    sl_unfold_run_names
    simp only [readAt_tab, rt, pay9_eq, pay10_eq, pay11_eq, pay12_eq, pay13_eq, pay14_eq, pay15_eq, pay17_eq, pay18_eq, pay19_eq, pay20_eq, pay1_eq, pay2_eq, pay3_eq, pay5_eq, pay6_eq, pay7_eq, Spec.loadIdx_eq_gath, Spec.storeIdx_eq_scatAdd]
    rw [show 250 * t2.val + 5 * (k.val + 1) = 250 * t2.val + 5 * k.val + 5 by omega, Spec.tileAcc_add_five]
    simp only [grpAt_fst]
  isplitl [Haq]
  · istop
    refine Entails.of_eq (congrArg (pointsTo _ Finset.univ fullShare) ?_)
    rw [writes_accQ]
    delta inner_trip1.sl.f_17
    rw [readCov_accQ]
    delta inner_trip1.sl.f_15
    rw [readCov_accQ]
    delta inner_trip1.sl.f_13
    rw [readCov_accQ]
    delta inner_trip1.sl.f_11
    rw [readCov_accQ]
    delta inner_trip1.sl.f_9
    rw [readCov_accQ]
    delta inner_trip1.sl.f_7
    rw [readCov_accQ]
    delta inner_trip1.sl.f_5
    rw [readCov_accQ]
    delta inner_trip1.sl.f_3
    rw [readCov_accQ]
    delta inner_trip1.sl.f_1
    rw [readCov_accQ]
    rw [readAt_accQ]
    sl_unfold_run_names
    simp only [readAt_tab, rt, pay9_eq, pay10_eq, pay11_eq, pay12_eq, pay13_eq, pay14_eq, pay15_eq, pay17_eq, pay18_eq, pay19_eq, pay20_eq, pay1_eq, pay2_eq, pay3_eq, pay5_eq, pay6_eq, pay7_eq, Spec.loadIdx_eq_gath, Spec.storeIdx_eq_scatAdd]
    rw [show 250 * t2.val + 5 * (k.val + 1) = 250 * t2.val + 5 * k.val + 5 by omega, Spec.tileAcc_add_five]
    simp only [grpAt_snd]
  isplitl [Hsv]; · iexact Hsv
  isplitl [Hdv]; · iexact Hdv
  isplitl [Hpv]; · iexact Hpv
  isplitl [Hgv]; · iexact Hgv
  iexact Hbv

end Cert.Proof.KI

end
-- ==== Proof.KI.TileInnerVal.lean ====
/-
  A round of five groups on either half of the double-buffered scratch buffers, with its value.
-/
import proofs.«213808_g38010460570139_cont_8to1_b_868_22_alg».proof.Proof.KI.TileInnerVal0
import proofs.«213808_g38010460570139_cont_8to1_b_868_22_alg».proof.Proof.KI.TileInnerVal1
-- ==== Proof.KI.TileTrip0.lean ====
/-
  Chunk 0 of a tile's edge range: the five copies of chunk 1 started into the other scratch halves, chunk 0's
  five copies awaited, and its fifty rounds of five groups applied to the accumulators.
-/
import proofs.«213808_g38010460570139_cont_8to1_b_868_22_alg».proof.Proof.KI.TileChunkInv
import proofs.«213808_g38010460570139_cont_8to1_b_868_22_alg».proof.Proof.KI.Window
import proofs.«213808_g38010460570139_cont_8to1_b_868_22_alg».proof.Proof.KI.TileInnerVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip0 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff0 : k1_off1 L = ![base + 4000 * 0]) :
    chunkInv0 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨0, tlt0⟩ ())
          (fun _ => chunkInv1 d L q O W tab xs xd xp xg xb base) := by
  have k1_h1 : k1_cond1 ⟨0, tlt0⟩ = 1#1 := by decide
  have k1_h2 : k1_cond2 ⟨0, tlt0⟩ = 1#1 := by decide
  have k1_h3 : k1_cond3 ⟨0, tlt0⟩ = 1#1 := by decide
  have htr : Scf.trips k1_t3_loop.lb k1_t3_loop.ub k1_t3_loop.st = 50 := by decide
  unfold chunkInv0 chunkInv1
  unfold k1_t2_body
  iintro ⟨Hmw, Htab, Hap, Haq, ⟨%W', %hW', HO⟩, Hcs1, Hcd1, Hcp1, Hcg1, Hcb1, Hcs2, Hcd2, Hcp2, Hcg2, Hcb2, Hcs3, Hcd3, Hcp3, Hcg3, Hcb3, Hcs4, Hcd4, Hcp4, Hcg4, Hcb4, ⟨%g3, Hsv⟩, ⟨%g4, Hdv⟩, ⟨%g5, Hpv⟩, ⟨%g6, Hgv⟩, ⟨%g7, Hbv⟩, ⟨%f3, %f4, %f5, %f6, %f7, HBa⟩, Hsem⟩
  imod (Transfers.batch_alloc' (Lvl := ℕ) (EC (F := F)) (thr d L) (default : HIx 1) NN (DO d L q xs xd xp xg xb g3 g4 g5 g6 g7 (k1_off3 L ⟨0, tlt0⟩) (off_inb1 L)) (sm := SemLoc.dma cc1_scratch9.sem) (E := Set.univ)) $$ Hsem with HBb
  sl_exec
  have HIs : HalfIs (F := F) (hSrc0.view.writes (Elt F) hSrc0.view.junk [⟨Rect.whole S4000, ReadAs.same.apply ((srcSl (k1_off1 L) (k1_off1_inb L)).view.read (Elt F) xs)⟩]) 0 xs (base + 4000 * 0) := by
    rw [← View.write_univ_eq_writes_whole _ _ [] _]
    exact landed_halfIs_src (F := F) 0 ![0] rfl inb_S8000_S4000_0 (k1_off1 L) (base + 4000 * 0) (hoff0) (k1_off1_inb L) _ xs
  have HId : HalfIs (F := F) (hDst0.view.writes (Elt F) hDst0.view.junk [⟨Rect.whole S4000, ReadAs.same.apply ((dstSl (k1_off1 L) (k1_off1_inb L)).view.read (Elt F) xd)⟩]) 0 xd (base + 4000 * 0) := by
    rw [← View.write_univ_eq_writes_whole _ _ [] _]
    exact landed_halfIs_dst (F := F) 0 ![0] rfl inb_S8000_S4000_0 (k1_off1 L) (base + 4000 * 0) (hoff0) (k1_off1_inb L) _ xd
  have HIp : HalfIs (F := F) (hPr0.view.writes (Elt F) hPr0.view.junk [⟨Rect.whole S4000, ReadAs.same.apply ((prSl (k1_off1 L) (k1_off1_inb L)).view.read (Elt F) xp)⟩]) 0 xp (base + 4000 * 0) := by
    rw [← View.write_univ_eq_writes_whole _ _ [] _]
    exact landed_halfIs_pr (F := F) 0 ![0] rfl inb_S8000_S4000_0 (k1_off1 L) (base + 4000 * 0) (hoff0) (k1_off1_inb L) _ xp
  have HIg : HalfIs (F := F) (hG0.view.writes (Elt F) hG0.view.junk [⟨Rect.whole S4000, ReadAs.same.apply ((gSl (k1_off1 L) (k1_off1_inb L)).view.read (Elt F) xg)⟩]) 0 xg (base + 4000 * 0) := by
    rw [← View.write_univ_eq_writes_whole _ _ [] _]
    exact landed_halfIs_g (F := F) 0 ![0] rfl inb_S8000_S4000_0 (k1_off1 L) (base + 4000 * 0) (hoff0) (k1_off1_inb L) _ xg
  have HIb : HalfIs (F := F) (hB0.view.writes (Elt F) hB0.view.junk [⟨Rect.whole S4000, ReadAs.same.apply ((bSl (k1_off1 L) (k1_off1_inb L)).view.read (Elt F) xb)⟩]) 0 xb (base + 4000 * 0) := by
    rw [← View.write_univ_eq_writes_whole _ _ [] _]
    exact landed_halfIs_b (F := F) 0 ![0] rfl inb_S8000_S4000_0 (k1_off1 L) (base + 4000 * 0) (hoff0) (k1_off1_inb L) _ xb
  sl_for (invInner0 d L ⟨0, tlt0⟩ tab xs xd xp xg xb base (hSrc0.view.writes (Elt F) hSrc0.view.junk [⟨Rect.whole S4000, ReadAs.same.apply ((srcSl (k1_off1 L) (k1_off1_inb L)).view.read (Elt F) xs)⟩])
      (hDst0.view.writes (Elt F) hDst0.view.junk [⟨Rect.whole S4000, ReadAs.same.apply ((dstSl (k1_off1 L) (k1_off1_inb L)).view.read (Elt F) xd)⟩])
      (hPr0.view.writes (Elt F) hPr0.view.junk [⟨Rect.whole S4000, ReadAs.same.apply ((prSl (k1_off1 L) (k1_off1_inb L)).view.read (Elt F) xp)⟩])
      (hG0.view.writes (Elt F) hG0.view.junk [⟨Rect.whole S4000, ReadAs.same.apply ((gSl (k1_off1 L) (k1_off1_inb L)).view.read (Elt F) xg)⟩])
      (hB0.view.writes (Elt F) hB0.view.junk [⟨Rect.whole S4000, ReadAs.same.apply ((bSl (k1_off1 L) (k1_off1_inb L)).view.read (Elt F) xb)⟩])) $$ [Htab Hap Haq HBa_dst0 HBa_dst1 HBa_dst2 HBa_dst3 HBa_dst4]
  case region =>
    intro kk acc
    exact inner_trip0 d L ⟨0, tlt0⟩ tab xs xd xp xg xb base _ _ _ _ _ hxs hxd HIs HId HIp HIg HIb (by decide) _ kk acc
  · unfold invInner0
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner0
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hcs2]; · iexact Hcs2
  isplitl [Hcd2]; · iexact Hcd2
  isplitl [Hcp2]; · iexact Hcp2
  isplitl [Hcg2]; · iexact Hcg2
  isplitl [Hcb2]; · iexact Hcb2
  isplitl [Hcs3]; · iexact Hcs3
  isplitl [Hcd3]; · iexact Hcd3
  isplitl [Hcp3]; · iexact Hcp3
  isplitl [Hcg3]; · iexact Hcg3
  isplitl [Hcb3]; · iexact Hcb3
  isplitl [Hcs4]; · iexact Hcs4
  isplitl [Hcd4]; · iexact Hcd4
  isplitl [Hcp4]; · iexact Hcp4
  isplitl [Hcg4]; · iexact Hcg4
  isplitl [Hcb4]; · iexact Hcb4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [HBb]; · iexists g3, g4, g5, g6, g7; iexact HBb
  iexact HBa

end Chunk

end Cert.Proof.KI

end
-- ==== Proof.KI.TileTrip1.lean ====
/-
  Chunk 1 of a tile's edge range: the five copies of chunk 2 started into the other scratch halves, chunk 1's
  five copies awaited, and its fifty rounds of five groups applied to the accumulators.
-/
import proofs.«213808_g38010460570139_cont_8to1_b_868_22_alg».proof.Proof.KI.TileChunkInv
import proofs.«213808_g38010460570139_cont_8to1_b_868_22_alg».proof.Proof.KI.Window
import proofs.«213808_g38010460570139_cont_8to1_b_868_22_alg».proof.Proof.KI.TileInnerVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip1 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff1 : k1_off3 L ⟨0, tlt0⟩ = ![base + 4000 * 1]) :
    chunkInv1 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨1, tlt1⟩ ())
          (fun _ => chunkInv2 d L q O W tab xs xd xp xg xb base) := by
  have k1_h1 : k1_cond1 ⟨1, tlt1⟩ = 1#1 := by decide
  have k1_h2 : ¬ k1_cond2 ⟨1, tlt1⟩ = 1#1 := by decide
  have k1_h3 : ¬ k1_cond3 ⟨1, tlt1⟩ = 1#1 := by decide
  have htr : Scf.trips k1_t3_loop.lb k1_t3_loop.ub k1_t3_loop.st = 50 := by decide
  unfold chunkInv1 chunkInv2
  unfold k1_t2_body
  iintro ⟨Hmw, Htab, Hap, Haq, ⟨%W', %hW', HO⟩, Hcs0, Hcd0, Hcp0, Hcg0, Hcb0, Hcs2, Hcd2, Hcp2, Hcg2, Hcb2, Hcs3, Hcd3, Hcp3, Hcg3, Hcb3, Hcs4, Hcd4, Hcp4, Hcg4, Hcb4, ⟨%g3, Hsv⟩, ⟨%g4, Hdv⟩, ⟨%g5, Hpv⟩, ⟨%g6, Hgv⟩, ⟨%g7, Hbv⟩, ⟨%f3, %f4, %f5, %f6, %f7, HBa⟩, Hsem⟩
  imod (Transfers.batch_alloc' (Lvl := ℕ) (EC (F := F)) (thr d L) (default : HIx 1) NN (DE d L q xs xd xp xg xb g3 g4 g5 g6 g7 (k1_off4 L ⟨1, tlt1⟩) (off_inb2 L)) (sm := SemLoc.dma cc1_scratch8.sem) (E := Set.univ)) $$ Hsem with HBb
  sl_exec
  have HIs : HalfIs (F := F) (hSrc1.view.writes (Elt F) hSrc1.view.junk [⟨Rect.whole S4000, ReadAs.same.apply ((srcSl (k1_off3 L ⟨0, tlt0⟩) (off_inb1 L)).view.read (Elt F) xs)⟩]) 1 xs (base + 4000 * 1) := by
    rw [← View.write_univ_eq_writes_whole _ _ [] _]
    exact landed_halfIs_src (F := F) 1 ![4000] rfl inb_S8000_S4000_4000 (k1_off3 L ⟨0, tlt0⟩) (base + 4000 * 1) (hoff1) (off_inb1 L) _ xs
  have HId : HalfIs (F := F) (hDst1.view.writes (Elt F) hDst1.view.junk [⟨Rect.whole S4000, ReadAs.same.apply ((dstSl (k1_off3 L ⟨0, tlt0⟩) (off_inb1 L)).view.read (Elt F) xd)⟩]) 1 xd (base + 4000 * 1) := by
    rw [← View.write_univ_eq_writes_whole _ _ [] _]
    exact landed_halfIs_dst (F := F) 1 ![4000] rfl inb_S8000_S4000_4000 (k1_off3 L ⟨0, tlt0⟩) (base + 4000 * 1) (hoff1) (off_inb1 L) _ xd
  have HIp : HalfIs (F := F) (hPr1.view.writes (Elt F) hPr1.view.junk [⟨Rect.whole S4000, ReadAs.same.apply ((prSl (k1_off3 L ⟨0, tlt0⟩) (off_inb1 L)).view.read (Elt F) xp)⟩]) 1 xp (base + 4000 * 1) := by
    rw [← View.write_univ_eq_writes_whole _ _ [] _]
    exact landed_halfIs_pr (F := F) 1 ![4000] rfl inb_S8000_S4000_4000 (k1_off3 L ⟨0, tlt0⟩) (base + 4000 * 1) (hoff1) (off_inb1 L) _ xp
  have HIg : HalfIs (F := F) (hG1.view.writes (Elt F) hG1.view.junk [⟨Rect.whole S4000, ReadAs.same.apply ((gSl (k1_off3 L ⟨0, tlt0⟩) (off_inb1 L)).view.read (Elt F) xg)⟩]) 1 xg (base + 4000 * 1) := by
    rw [← View.write_univ_eq_writes_whole _ _ [] _]
    exact landed_halfIs_g (F := F) 1 ![4000] rfl inb_S8000_S4000_4000 (k1_off3 L ⟨0, tlt0⟩) (base + 4000 * 1) (hoff1) (off_inb1 L) _ xg
  have HIb : HalfIs (F := F) (hB1.view.writes (Elt F) hB1.view.junk [⟨Rect.whole S4000, ReadAs.same.apply ((bSl (k1_off3 L ⟨0, tlt0⟩) (off_inb1 L)).view.read (Elt F) xb)⟩]) 1 xb (base + 4000 * 1) := by
    rw [← View.write_univ_eq_writes_whole _ _ [] _]
    exact landed_halfIs_b (F := F) 1 ![4000] rfl inb_S8000_S4000_4000 (k1_off3 L ⟨0, tlt0⟩) (base + 4000 * 1) (hoff1) (off_inb1 L) _ xb
  sl_for (invInner1 d L ⟨1, tlt1⟩ tab xs xd xp xg xb base (hSrc1.view.writes (Elt F) hSrc1.view.junk [⟨Rect.whole S4000, ReadAs.same.apply ((srcSl (k1_off3 L ⟨0, tlt0⟩) (off_inb1 L)).view.read (Elt F) xs)⟩])
      (hDst1.view.writes (Elt F) hDst1.view.junk [⟨Rect.whole S4000, ReadAs.same.apply ((dstSl (k1_off3 L ⟨0, tlt0⟩) (off_inb1 L)).view.read (Elt F) xd)⟩])
      (hPr1.view.writes (Elt F) hPr1.view.junk [⟨Rect.whole S4000, ReadAs.same.apply ((prSl (k1_off3 L ⟨0, tlt0⟩) (off_inb1 L)).view.read (Elt F) xp)⟩])
      (hG1.view.writes (Elt F) hG1.view.junk [⟨Rect.whole S4000, ReadAs.same.apply ((gSl (k1_off3 L ⟨0, tlt0⟩) (off_inb1 L)).view.read (Elt F) xg)⟩])
      (hB1.view.writes (Elt F) hB1.view.junk [⟨Rect.whole S4000, ReadAs.same.apply ((bSl (k1_off3 L ⟨0, tlt0⟩) (off_inb1 L)).view.read (Elt F) xb)⟩])) $$ [Htab Hap Haq HBa_dst0 HBa_dst1 HBa_dst2 HBa_dst3 HBa_dst4]
  case region =>
    intro kk acc
    exact inner_trip1 d L ⟨1, tlt1⟩ tab xs xd xp xg xb base _ _ _ _ _ hxs hxd HIs HId HIp HIg HIb (by decide) _ kk acc
  · unfold invInner1
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner1
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [Hcs0]; · iexact Hcs0
  isplitl [Hcd0]; · iexact Hcd0
  isplitl [Hcp0]; · iexact Hcp0
  isplitl [Hcg0]; · iexact Hcg0
  isplitl [Hcb0]; · iexact Hcb0
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hcs3]; · iexact Hcs3
  isplitl [Hcd3]; · iexact Hcd3
  isplitl [Hcp3]; · iexact Hcp3
  isplitl [Hcg3]; · iexact Hcg3
  isplitl [Hcb3]; · iexact Hcb3
  isplitl [Hcs4]; · iexact Hcs4
  isplitl [Hcd4]; · iexact Hcd4
  isplitl [Hcp4]; · iexact Hcp4
  isplitl [Hcg4]; · iexact Hcg4
  isplitl [Hcb4]; · iexact Hcb4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [HBb]; · iexists g3, g4, g5, g6, g7; iexact HBb
  iexact HBa

end Chunk

end Cert.Proof.KI

end
-- ==== Proof.KI.TileTrip2.lean ====
/-
  Chunk 2 of a tile's edge range: the five copies of chunk 3 started into the other scratch halves, chunk 2's
  five copies awaited, and its fifty rounds of five groups applied to the accumulators.
-/
import proofs.«213808_g38010460570139_cont_8to1_b_868_22_alg».proof.Proof.KI.TileChunkInv
import proofs.«213808_g38010460570139_cont_8to1_b_868_22_alg».proof.Proof.KI.Window
import proofs.«213808_g38010460570139_cont_8to1_b_868_22_alg».proof.Proof.KI.TileInnerVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip2 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff2 : k1_off4 L ⟨1, tlt1⟩ = ![base + 4000 * 2]) :
    chunkInv2 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨2, tlt2⟩ ())
          (fun _ => chunkInv3 d L q O W tab xs xd xp xg xb base) := by
  have k1_h1 : k1_cond1 ⟨2, tlt2⟩ = 1#1 := by decide
  have k1_h2 : k1_cond2 ⟨2, tlt2⟩ = 1#1 := by decide
  have k1_h3 : k1_cond3 ⟨2, tlt2⟩ = 1#1 := by decide
  have htr : Scf.trips k1_t3_loop.lb k1_t3_loop.ub k1_t3_loop.st = 50 := by decide
  unfold chunkInv2 chunkInv3
  unfold k1_t2_body
  iintro ⟨Hmw, Htab, Hap, Haq, ⟨%W', %hW', HO⟩, Hcs0, Hcd0, Hcp0, Hcg0, Hcb0, Hcs1, Hcd1, Hcp1, Hcg1, Hcb1, Hcs3, Hcd3, Hcp3, Hcg3, Hcb3, Hcs4, Hcd4, Hcp4, Hcg4, Hcb4, ⟨%g3, Hsv⟩, ⟨%g4, Hdv⟩, ⟨%g5, Hpv⟩, ⟨%g6, Hgv⟩, ⟨%g7, Hbv⟩, ⟨%f3, %f4, %f5, %f6, %f7, HBa⟩, Hsem⟩
  imod (Transfers.batch_alloc' (Lvl := ℕ) (EC (F := F)) (thr d L) (default : HIx 1) NN (DO d L q xs xd xp xg xb g3 g4 g5 g6 g7 (k1_off3 L ⟨2, tlt2⟩) (off_inb3 L)) (sm := SemLoc.dma cc1_scratch9.sem) (E := Set.univ)) $$ Hsem with HBb
  sl_exec
  have HIs : HalfIs (F := F) (hSrc0.view.writes (Elt F) hSrc0.view.junk [⟨Rect.whole S4000, ReadAs.same.apply ((srcSl (k1_off4 L ⟨1, tlt1⟩) (off_inb2 L)).view.read (Elt F) xs)⟩]) 0 xs (base + 4000 * 2) := by
    rw [← View.write_univ_eq_writes_whole _ _ [] _]
    exact landed_halfIs_src (F := F) 0 ![0] rfl inb_S8000_S4000_0 (k1_off4 L ⟨1, tlt1⟩) (base + 4000 * 2) (hoff2) (off_inb2 L) _ xs
  have HId : HalfIs (F := F) (hDst0.view.writes (Elt F) hDst0.view.junk [⟨Rect.whole S4000, ReadAs.same.apply ((dstSl (k1_off4 L ⟨1, tlt1⟩) (off_inb2 L)).view.read (Elt F) xd)⟩]) 0 xd (base + 4000 * 2) := by
    rw [← View.write_univ_eq_writes_whole _ _ [] _]
    exact landed_halfIs_dst (F := F) 0 ![0] rfl inb_S8000_S4000_0 (k1_off4 L ⟨1, tlt1⟩) (base + 4000 * 2) (hoff2) (off_inb2 L) _ xd
  have HIp : HalfIs (F := F) (hPr0.view.writes (Elt F) hPr0.view.junk [⟨Rect.whole S4000, ReadAs.same.apply ((prSl (k1_off4 L ⟨1, tlt1⟩) (off_inb2 L)).view.read (Elt F) xp)⟩]) 0 xp (base + 4000 * 2) := by
    rw [← View.write_univ_eq_writes_whole _ _ [] _]
    exact landed_halfIs_pr (F := F) 0 ![0] rfl inb_S8000_S4000_0 (k1_off4 L ⟨1, tlt1⟩) (base + 4000 * 2) (hoff2) (off_inb2 L) _ xp
  have HIg : HalfIs (F := F) (hG0.view.writes (Elt F) hG0.view.junk [⟨Rect.whole S4000, ReadAs.same.apply ((gSl (k1_off4 L ⟨1, tlt1⟩) (off_inb2 L)).view.read (Elt F) xg)⟩]) 0 xg (base + 4000 * 2) := by
    rw [← View.write_univ_eq_writes_whole _ _ [] _]
    exact landed_halfIs_g (F := F) 0 ![0] rfl inb_S8000_S4000_0 (k1_off4 L ⟨1, tlt1⟩) (base + 4000 * 2) (hoff2) (off_inb2 L) _ xg
  have HIb : HalfIs (F := F) (hB0.view.writes (Elt F) hB0.view.junk [⟨Rect.whole S4000, ReadAs.same.apply ((bSl (k1_off4 L ⟨1, tlt1⟩) (off_inb2 L)).view.read (Elt F) xb)⟩]) 0 xb (base + 4000 * 2) := by
    rw [← View.write_univ_eq_writes_whole _ _ [] _]
    exact landed_halfIs_b (F := F) 0 ![0] rfl inb_S8000_S4000_0 (k1_off4 L ⟨1, tlt1⟩) (base + 4000 * 2) (hoff2) (off_inb2 L) _ xb
  sl_for (invInner0 d L ⟨2, tlt2⟩ tab xs xd xp xg xb base (hSrc0.view.writes (Elt F) hSrc0.view.junk [⟨Rect.whole S4000, ReadAs.same.apply ((srcSl (k1_off4 L ⟨1, tlt1⟩) (off_inb2 L)).view.read (Elt F) xs)⟩])
      (hDst0.view.writes (Elt F) hDst0.view.junk [⟨Rect.whole S4000, ReadAs.same.apply ((dstSl (k1_off4 L ⟨1, tlt1⟩) (off_inb2 L)).view.read (Elt F) xd)⟩])
      (hPr0.view.writes (Elt F) hPr0.view.junk [⟨Rect.whole S4000, ReadAs.same.apply ((prSl (k1_off4 L ⟨1, tlt1⟩) (off_inb2 L)).view.read (Elt F) xp)⟩])
      (hG0.view.writes (Elt F) hG0.view.junk [⟨Rect.whole S4000, ReadAs.same.apply ((gSl (k1_off4 L ⟨1, tlt1⟩) (off_inb2 L)).view.read (Elt F) xg)⟩])
      (hB0.view.writes (Elt F) hB0.view.junk [⟨Rect.whole S4000, ReadAs.same.apply ((bSl (k1_off4 L ⟨1, tlt1⟩) (off_inb2 L)).view.read (Elt F) xb)⟩])) $$ [Htab Hap Haq HBa_dst0 HBa_dst1 HBa_dst2 HBa_dst3 HBa_dst4]
  case region =>
    intro kk acc
    exact inner_trip0 d L ⟨2, tlt2⟩ tab xs xd xp xg xb base _ _ _ _ _ hxs hxd HIs HId HIp HIg HIb (by decide) _ kk acc
  · unfold invInner0
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner0
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [Hcs0]; · iexact Hcs0
  isplitl [Hcd0]; · iexact Hcd0
  isplitl [Hcp0]; · iexact Hcp0
  isplitl [Hcg0]; · iexact Hcg0
  isplitl [Hcb0]; · iexact Hcb0
  isplitl [Hcs1]; · iexact Hcs1
  isplitl [Hcd1]; · iexact Hcd1
  isplitl [Hcp1]; · iexact Hcp1
  isplitl [Hcg1]; · iexact Hcg1
  isplitl [Hcb1]; · iexact Hcb1
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hcs4]; · iexact Hcs4
  isplitl [Hcd4]; · iexact Hcd4
  isplitl [Hcp4]; · iexact Hcp4
  isplitl [Hcg4]; · iexact Hcg4
  isplitl [Hcb4]; · iexact Hcb4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [HBb]; · iexists g3, g4, g5, g6, g7; iexact HBb
  iexact HBa

end Chunk

end Cert.Proof.KI

end
-- ==== Proof.KI.TileTrip3.lean ====
/-
  Chunk 3 of a tile's edge range: the five copies of chunk 4 started into the other scratch halves, chunk 3's
  five copies awaited, and its fifty rounds of five groups applied to the accumulators.
-/
import proofs.«213808_g38010460570139_cont_8to1_b_868_22_alg».proof.Proof.KI.TileChunkInv
import proofs.«213808_g38010460570139_cont_8to1_b_868_22_alg».proof.Proof.KI.Window
import proofs.«213808_g38010460570139_cont_8to1_b_868_22_alg».proof.Proof.KI.TileInnerVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip3 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff3 : k1_off3 L ⟨2, tlt2⟩ = ![base + 4000 * 3]) :
    chunkInv3 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨3, tlt3⟩ ())
          (fun _ => chunkInv4 d L q O W tab xs xd xp xg xb base) := by
  have k1_h1 : k1_cond1 ⟨3, tlt3⟩ = 1#1 := by decide
  have k1_h2 : ¬ k1_cond2 ⟨3, tlt3⟩ = 1#1 := by decide
  have k1_h3 : ¬ k1_cond3 ⟨3, tlt3⟩ = 1#1 := by decide
  have htr : Scf.trips k1_t3_loop.lb k1_t3_loop.ub k1_t3_loop.st = 50 := by decide
  unfold chunkInv3 chunkInv4
  unfold k1_t2_body
  iintro ⟨Hmw, Htab, Hap, Haq, ⟨%W', %hW', HO⟩, Hcs0, Hcd0, Hcp0, Hcg0, Hcb0, Hcs1, Hcd1, Hcp1, Hcg1, Hcb1, Hcs2, Hcd2, Hcp2, Hcg2, Hcb2, Hcs4, Hcd4, Hcp4, Hcg4, Hcb4, ⟨%g3, Hsv⟩, ⟨%g4, Hdv⟩, ⟨%g5, Hpv⟩, ⟨%g6, Hgv⟩, ⟨%g7, Hbv⟩, ⟨%f3, %f4, %f5, %f6, %f7, HBa⟩, Hsem⟩
  imod (Transfers.batch_alloc' (Lvl := ℕ) (EC (F := F)) (thr d L) (default : HIx 1) NN (DE d L q xs xd xp xg xb g3 g4 g5 g6 g7 (k1_off4 L ⟨3, tlt3⟩) (off_inb4 L)) (sm := SemLoc.dma cc1_scratch8.sem) (E := Set.univ)) $$ Hsem with HBb
  sl_exec
  have HIs : HalfIs (F := F) (hSrc1.view.writes (Elt F) hSrc1.view.junk [⟨Rect.whole S4000, ReadAs.same.apply ((srcSl (k1_off3 L ⟨2, tlt2⟩) (off_inb3 L)).view.read (Elt F) xs)⟩]) 1 xs (base + 4000 * 3) := by
    rw [← View.write_univ_eq_writes_whole _ _ [] _]
    exact landed_halfIs_src (F := F) 1 ![4000] rfl inb_S8000_S4000_4000 (k1_off3 L ⟨2, tlt2⟩) (base + 4000 * 3) (hoff3) (off_inb3 L) _ xs
  have HId : HalfIs (F := F) (hDst1.view.writes (Elt F) hDst1.view.junk [⟨Rect.whole S4000, ReadAs.same.apply ((dstSl (k1_off3 L ⟨2, tlt2⟩) (off_inb3 L)).view.read (Elt F) xd)⟩]) 1 xd (base + 4000 * 3) := by
    rw [← View.write_univ_eq_writes_whole _ _ [] _]
    exact landed_halfIs_dst (F := F) 1 ![4000] rfl inb_S8000_S4000_4000 (k1_off3 L ⟨2, tlt2⟩) (base + 4000 * 3) (hoff3) (off_inb3 L) _ xd
  have HIp : HalfIs (F := F) (hPr1.view.writes (Elt F) hPr1.view.junk [⟨Rect.whole S4000, ReadAs.same.apply ((prSl (k1_off3 L ⟨2, tlt2⟩) (off_inb3 L)).view.read (Elt F) xp)⟩]) 1 xp (base + 4000 * 3) := by
    rw [← View.write_univ_eq_writes_whole _ _ [] _]
    exact landed_halfIs_pr (F := F) 1 ![4000] rfl inb_S8000_S4000_4000 (k1_off3 L ⟨2, tlt2⟩) (base + 4000 * 3) (hoff3) (off_inb3 L) _ xp
  have HIg : HalfIs (F := F) (hG1.view.writes (Elt F) hG1.view.junk [⟨Rect.whole S4000, ReadAs.same.apply ((gSl (k1_off3 L ⟨2, tlt2⟩) (off_inb3 L)).view.read (Elt F) xg)⟩]) 1 xg (base + 4000 * 3) := by
    rw [← View.write_univ_eq_writes_whole _ _ [] _]
    exact landed_halfIs_g (F := F) 1 ![4000] rfl inb_S8000_S4000_4000 (k1_off3 L ⟨2, tlt2⟩) (base + 4000 * 3) (hoff3) (off_inb3 L) _ xg
  have HIb : HalfIs (F := F) (hB1.view.writes (Elt F) hB1.view.junk [⟨Rect.whole S4000, ReadAs.same.apply ((bSl (k1_off3 L ⟨2, tlt2⟩) (off_inb3 L)).view.read (Elt F) xb)⟩]) 1 xb (base + 4000 * 3) := by
    rw [← View.write_univ_eq_writes_whole _ _ [] _]
    exact landed_halfIs_b (F := F) 1 ![4000] rfl inb_S8000_S4000_4000 (k1_off3 L ⟨2, tlt2⟩) (base + 4000 * 3) (hoff3) (off_inb3 L) _ xb
  sl_for (invInner1 d L ⟨3, tlt3⟩ tab xs xd xp xg xb base (hSrc1.view.writes (Elt F) hSrc1.view.junk [⟨Rect.whole S4000, ReadAs.same.apply ((srcSl (k1_off3 L ⟨2, tlt2⟩) (off_inb3 L)).view.read (Elt F) xs)⟩])
      (hDst1.view.writes (Elt F) hDst1.view.junk [⟨Rect.whole S4000, ReadAs.same.apply ((dstSl (k1_off3 L ⟨2, tlt2⟩) (off_inb3 L)).view.read (Elt F) xd)⟩])
      (hPr1.view.writes (Elt F) hPr1.view.junk [⟨Rect.whole S4000, ReadAs.same.apply ((prSl (k1_off3 L ⟨2, tlt2⟩) (off_inb3 L)).view.read (Elt F) xp)⟩])
      (hG1.view.writes (Elt F) hG1.view.junk [⟨Rect.whole S4000, ReadAs.same.apply ((gSl (k1_off3 L ⟨2, tlt2⟩) (off_inb3 L)).view.read (Elt F) xg)⟩])
      (hB1.view.writes (Elt F) hB1.view.junk [⟨Rect.whole S4000, ReadAs.same.apply ((bSl (k1_off3 L ⟨2, tlt2⟩) (off_inb3 L)).view.read (Elt F) xb)⟩])) $$ [Htab Hap Haq HBa_dst0 HBa_dst1 HBa_dst2 HBa_dst3 HBa_dst4]
  case region =>
    intro kk acc
    exact inner_trip1 d L ⟨3, tlt3⟩ tab xs xd xp xg xb base _ _ _ _ _ hxs hxd HIs HId HIp HIg HIb (by decide) _ kk acc
  · unfold invInner1
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner1
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [Hcs0]; · iexact Hcs0
  isplitl [Hcd0]; · iexact Hcd0
  isplitl [Hcp0]; · iexact Hcp0
  isplitl [Hcg0]; · iexact Hcg0
  isplitl [Hcb0]; · iexact Hcb0
  isplitl [Hcs1]; · iexact Hcs1
  isplitl [Hcd1]; · iexact Hcd1
  isplitl [Hcp1]; · iexact Hcp1
  isplitl [Hcg1]; · iexact Hcg1
  isplitl [Hcb1]; · iexact Hcb1
  isplitl [Hcs2]; · iexact Hcs2
  isplitl [Hcd2]; · iexact Hcd2
  isplitl [Hcp2]; · iexact Hcp2
  isplitl [Hcg2]; · iexact Hcg2
  isplitl [Hcb2]; · iexact Hcb2
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [HBb]; · iexists g3, g4, g5, g6, g7; iexact HBb
  iexact HBa

end Chunk

end Cert.Proof.KI

end
-- ==== Proof.KI.TileTrip4.lean ====
/-
  Chunk 4 of a tile's edge range: chunk 4's
  five copies awaited, and its fifty rounds of five groups applied to the accumulators.
-/
import proofs.«213808_g38010460570139_cont_8to1_b_868_22_alg».proof.Proof.KI.TileChunkInv
import proofs.«213808_g38010460570139_cont_8to1_b_868_22_alg».proof.Proof.KI.Window
import proofs.«213808_g38010460570139_cont_8to1_b_868_22_alg».proof.Proof.KI.TileInnerVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip4 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff4 : k1_off4 L ⟨3, tlt3⟩ = ![base + 4000 * 4]) :
    chunkInv4 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨4, tlt4⟩ ())
          (fun _ => chunkInv5 d L q O W tab xs xd xp xg xb base) := by
  have k1_h1 : ¬ k1_cond1 ⟨4, tlt4⟩ = 1#1 := by decide
  have k1_h2 : k1_cond2 ⟨4, tlt4⟩ = 1#1 := by decide
  have k1_h3 : k1_cond3 ⟨4, tlt4⟩ = 1#1 := by decide
  have htr : Scf.trips k1_t3_loop.lb k1_t3_loop.ub k1_t3_loop.st = 50 := by decide
  unfold chunkInv4 chunkInv5
  unfold k1_t2_body
  iintro ⟨Hmw, Htab, Hap, Haq, ⟨%W', %hW', HO⟩, Hcs0, Hcd0, Hcp0, Hcg0, Hcb0, Hcs1, Hcd1, Hcp1, Hcg1, Hcb1, Hcs2, Hcd2, Hcp2, Hcg2, Hcb2, Hcs3, Hcd3, Hcp3, Hcg3, Hcb3, ⟨%g3, Hsv⟩, ⟨%g4, Hdv⟩, ⟨%g5, Hpv⟩, ⟨%g6, Hgv⟩, ⟨%g7, Hbv⟩, ⟨%f3, %f4, %f5, %f6, %f7, HBa⟩, Hsem⟩

  sl_exec
  have HIs : HalfIs (F := F) (hSrc0.view.writes (Elt F) hSrc0.view.junk [⟨Rect.whole S4000, ReadAs.same.apply ((srcSl (k1_off4 L ⟨3, tlt3⟩) (off_inb4 L)).view.read (Elt F) xs)⟩]) 0 xs (base + 4000 * 4) := by
    rw [← View.write_univ_eq_writes_whole _ _ [] _]
    exact landed_halfIs_src (F := F) 0 ![0] rfl inb_S8000_S4000_0 (k1_off4 L ⟨3, tlt3⟩) (base + 4000 * 4) (hoff4) (off_inb4 L) _ xs
  have HId : HalfIs (F := F) (hDst0.view.writes (Elt F) hDst0.view.junk [⟨Rect.whole S4000, ReadAs.same.apply ((dstSl (k1_off4 L ⟨3, tlt3⟩) (off_inb4 L)).view.read (Elt F) xd)⟩]) 0 xd (base + 4000 * 4) := by
    rw [← View.write_univ_eq_writes_whole _ _ [] _]
    exact landed_halfIs_dst (F := F) 0 ![0] rfl inb_S8000_S4000_0 (k1_off4 L ⟨3, tlt3⟩) (base + 4000 * 4) (hoff4) (off_inb4 L) _ xd
  have HIp : HalfIs (F := F) (hPr0.view.writes (Elt F) hPr0.view.junk [⟨Rect.whole S4000, ReadAs.same.apply ((prSl (k1_off4 L ⟨3, tlt3⟩) (off_inb4 L)).view.read (Elt F) xp)⟩]) 0 xp (base + 4000 * 4) := by
    rw [← View.write_univ_eq_writes_whole _ _ [] _]
    exact landed_halfIs_pr (F := F) 0 ![0] rfl inb_S8000_S4000_0 (k1_off4 L ⟨3, tlt3⟩) (base + 4000 * 4) (hoff4) (off_inb4 L) _ xp
  have HIg : HalfIs (F := F) (hG0.view.writes (Elt F) hG0.view.junk [⟨Rect.whole S4000, ReadAs.same.apply ((gSl (k1_off4 L ⟨3, tlt3⟩) (off_inb4 L)).view.read (Elt F) xg)⟩]) 0 xg (base + 4000 * 4) := by
    rw [← View.write_univ_eq_writes_whole _ _ [] _]
    exact landed_halfIs_g (F := F) 0 ![0] rfl inb_S8000_S4000_0 (k1_off4 L ⟨3, tlt3⟩) (base + 4000 * 4) (hoff4) (off_inb4 L) _ xg
  have HIb : HalfIs (F := F) (hB0.view.writes (Elt F) hB0.view.junk [⟨Rect.whole S4000, ReadAs.same.apply ((bSl (k1_off4 L ⟨3, tlt3⟩) (off_inb4 L)).view.read (Elt F) xb)⟩]) 0 xb (base + 4000 * 4) := by
    rw [← View.write_univ_eq_writes_whole _ _ [] _]
    exact landed_halfIs_b (F := F) 0 ![0] rfl inb_S8000_S4000_0 (k1_off4 L ⟨3, tlt3⟩) (base + 4000 * 4) (hoff4) (off_inb4 L) _ xb
  sl_for (invInner0 d L ⟨4, tlt4⟩ tab xs xd xp xg xb base (hSrc0.view.writes (Elt F) hSrc0.view.junk [⟨Rect.whole S4000, ReadAs.same.apply ((srcSl (k1_off4 L ⟨3, tlt3⟩) (off_inb4 L)).view.read (Elt F) xs)⟩])
      (hDst0.view.writes (Elt F) hDst0.view.junk [⟨Rect.whole S4000, ReadAs.same.apply ((dstSl (k1_off4 L ⟨3, tlt3⟩) (off_inb4 L)).view.read (Elt F) xd)⟩])
      (hPr0.view.writes (Elt F) hPr0.view.junk [⟨Rect.whole S4000, ReadAs.same.apply ((prSl (k1_off4 L ⟨3, tlt3⟩) (off_inb4 L)).view.read (Elt F) xp)⟩])
      (hG0.view.writes (Elt F) hG0.view.junk [⟨Rect.whole S4000, ReadAs.same.apply ((gSl (k1_off4 L ⟨3, tlt3⟩) (off_inb4 L)).view.read (Elt F) xg)⟩])
      (hB0.view.writes (Elt F) hB0.view.junk [⟨Rect.whole S4000, ReadAs.same.apply ((bSl (k1_off4 L ⟨3, tlt3⟩) (off_inb4 L)).view.read (Elt F) xb)⟩])) $$ [Htab Hap Haq HBa_dst0 HBa_dst1 HBa_dst2 HBa_dst3 HBa_dst4]
  case region =>
    intro kk acc
    exact inner_trip0 d L ⟨4, tlt4⟩ tab xs xd xp xg xb base _ _ _ _ _ hxs hxd HIs HId HIp HIg HIb (by decide) _ kk acc
  · unfold invInner0
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner0
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [Hcs0]; · iexact Hcs0
  isplitl [Hcd0]; · iexact Hcd0
  isplitl [Hcp0]; · iexact Hcp0
  isplitl [Hcg0]; · iexact Hcg0
  isplitl [Hcb0]; · iexact Hcb0
  isplitl [Hcs1]; · iexact Hcs1
  isplitl [Hcd1]; · iexact Hcd1
  isplitl [Hcp1]; · iexact Hcp1
  isplitl [Hcg1]; · iexact Hcg1
  isplitl [Hcb1]; · iexact Hcb1
  isplitl [Hcs2]; · iexact Hcs2
  isplitl [Hcd2]; · iexact Hcd2
  isplitl [Hcp2]; · iexact Hcp2
  isplitl [Hcg2]; · iexact Hcg2
  isplitl [Hcb2]; · iexact Hcb2
  isplitl [Hcs3]; · iexact Hcs3
  isplitl [Hcd3]; · iexact Hcd3
  isplitl [Hcp3]; · iexact Hcp3
  isplitl [Hcg3]; · iexact Hcg3
  isplitl [Hcb3]; · iexact Hcb3
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [Hsv]; · iexists _; iexact Hsv
  isplitl [Hdv]; · iexists _; iexact Hdv
  isplitl [Hpv]; · iexists _; iexact Hpv
  isplitl [Hgv]; · iexists _; iexact Hgv
  isplitl [Hbv]; · iexists _; iexact Hbv
  isplitl [HBa]; · iexact HBa
  iexact Hsem

end Chunk

end Cert.Proof.KI

end
-- ==== Proof.KI.TileChunk.lean ====
/-
  The tile's chunk loop: five chunks of 4000 edges, double-buffered through two DMA semaphores, from
  the accumulators at zero with chunk 0's copies outstanding to the accumulators after all 1250 groups
  with everything at rest.
-/
import proofs.«213808_g38010460570139_cont_8to1_b_868_22_alg».proof.Proof.KI.TileTrip0
import proofs.«213808_g38010460570139_cont_8to1_b_868_22_alg».proof.Proof.KI.TileTrip1
import proofs.«213808_g38010460570139_cont_8to1_b_868_22_alg».proof.Proof.KI.TileTrip2
import proofs.«213808_g38010460570139_cont_8to1_b_868_22_alg».proof.Proof.KI.TileTrip3
import proofs.«213808_g38010460570139_cont_8to1_b_868_22_alg».proof.Proof.KI.TileTrip4
import proofs.«213808_g38010460570139_cont_8to1_b_868_22_alg».proof.Proof.KI.TileSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

omit [FloatOps F] in
theorem hoff0 : k1_off1 L = ![chunkBase L + 4000 * 0] := by
  funext a; obtain rfl : a = 0 := Subsingleton.elim _ _
  show (k1_off1 L) 0 = chunkBase L + 4000 * 0
  exact (off0_val L).trans (by omega)
omit [FloatOps F] in
theorem hoff1 : k1_off3 L ⟨0, tlt0⟩ = ![chunkBase L + 4000 * 1] := by
  funext a; obtain rfl : a = 0 := Subsingleton.elim _ _
  show (k1_off3 L ⟨0, tlt0⟩) 0 = chunkBase L + 4000 * 1
  exact (off1_val L).trans (by omega)
omit [FloatOps F] in
theorem hoff2 : k1_off4 L ⟨1, tlt1⟩ = ![chunkBase L + 4000 * 2] := by
  funext a; obtain rfl : a = 0 := Subsingleton.elim _ _
  show (k1_off4 L ⟨1, tlt1⟩) 0 = chunkBase L + 4000 * 2
  exact (off2_val L).trans (by omega)
omit [FloatOps F] in
theorem hoff3 : k1_off3 L ⟨2, tlt2⟩ = ![chunkBase L + 4000 * 3] := by
  funext a; obtain rfl : a = 0 := Subsingleton.elim _ _
  show (k1_off3 L ⟨2, tlt2⟩) 0 = chunkBase L + 4000 * 3
  exact (off3_val L).trans (by omega)
omit [FloatOps F] in
theorem hoff4 : k1_off4 L ⟨3, tlt3⟩ = ![chunkBase L + 4000 * 4] := by
  funext a; obtain rfl : a = 0 := Subsingleton.elim _ _
  show (k1_off4 L ⟨3, tlt3⟩) 0 = chunkBase L + 4000 * 4
  exact (off4_val L).trans (by omega)

theorem chunkInv_zero (q : PosShare TreeShare) (O : CellTallies nD τ sig (HIx 1)) (W : Waits sig (HIx 1))
    (tab : FVec F S10240 .f32) (xs xd : IVec S640000 32) (xp xg xb : FVec F S640000 .f32) (base : Nat) (acc : Unit) :
    chunkInv d L q O W tab xs xd xp xg xb base 0 acc = chunkInv0 d L q O W tab xs xd xp xg xb base := rfl
theorem chunkInv_five (q : PosShare TreeShare) (O : CellTallies nD τ sig (HIx 1)) (W : Waits sig (HIx 1))
    (tab : FVec F S10240 .f32) (xs xd : IVec S640000 32) (xp xg xb : FVec F S640000 .f32) (base : Nat) (acc : Unit) :
    chunkInv d L q O W tab xs xd xp xg xb base 5 acc = chunkInv5 d L q O W tab xs xd xp xg xb base := rfl

set_option maxHeartbeats 1000000 in
/-- The five chunks, by the invariant `chunkInv`. -/
theorem chunk_loop (q : PosShare TreeShare) (O : CellTallies nD τ sig (HIx 1)) (W : Waits sig (HIx 1))
    (tab : FVec F S10240 .f32) (xs xd : IVec S640000 32) (xp xg xb : FVec F S640000 .f32)
    (hxs : ∀ j, (xs j).toNat < 10240) (hxd : ∀ j, (xd j).toNat < 10240) :
    chunkInv0 d L q O W tab xs xd xp xg xb (chunkBase L)
      ⊢ wp frame (wpE (defs₀ (F := F)) 𝒱₀ (thr d L) none) Set.univ
          (Scf.Loop.for k1_t2_loop k1_t2_ok ⟨⟩ (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32))
          (fun _ => chunkInv5 d L q O W tab xs xd xp xg xb (chunkBase L)) := by
  have h5 : Scf.trips k1_t2_loop.lb k1_t2_loop.ub k1_t2_loop.st = 5 := by decide
  iintro H
  sl_for (chunkInv d L q O W tab xs xd xp xg xb (chunkBase L)) $$ [H]
  case region =>
    intro k acc
    cases acc
    match k with
    | ⟨0, hk⟩ =>
      delta chunk_loop.sl.prog.body_1
      have e1 : chunkInv d L q O W tab xs xd xp xg xb (chunkBase L) (↑(⟨0, hk⟩ : Fin (Scf.trips k1_t2_loop.lb k1_t2_loop.ub k1_t2_loop.st))) PUnit.unit
          = chunkInv0 d L q O W tab xs xd xp xg xb (chunkBase L) := rfl
      have e2 : chunkInv d L q O W tab xs xd xp xg xb (chunkBase L) (↑(⟨0, hk⟩ : Fin (Scf.trips k1_t2_loop.lb k1_t2_loop.ub k1_t2_loop.st)) + 1)
          = fun _ => chunkInv1 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨0, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨0, tlt0⟩ () := rfl
      rw [e1, e2, e4]
      exact trip0 d L q O W tab xs xd xp xg xb (chunkBase L) hxs hxd (hoff0 L)
    | ⟨1, hk⟩ =>
      delta chunk_loop.sl.prog.body_1
      have e1 : chunkInv d L q O W tab xs xd xp xg xb (chunkBase L) (↑(⟨1, hk⟩ : Fin (Scf.trips k1_t2_loop.lb k1_t2_loop.ub k1_t2_loop.st))) PUnit.unit
          = chunkInv1 d L q O W tab xs xd xp xg xb (chunkBase L) := rfl
      have e2 : chunkInv d L q O W tab xs xd xp xg xb (chunkBase L) (↑(⟨1, hk⟩ : Fin (Scf.trips k1_t2_loop.lb k1_t2_loop.ub k1_t2_loop.st)) + 1)
          = fun _ => chunkInv2 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨1, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨1, tlt1⟩ () := rfl
      rw [e1, e2, e4]
      exact trip1 d L q O W tab xs xd xp xg xb (chunkBase L) hxs hxd (hoff1 L)
    | ⟨2, hk⟩ =>
      delta chunk_loop.sl.prog.body_1
      have e1 : chunkInv d L q O W tab xs xd xp xg xb (chunkBase L) (↑(⟨2, hk⟩ : Fin (Scf.trips k1_t2_loop.lb k1_t2_loop.ub k1_t2_loop.st))) PUnit.unit
          = chunkInv2 d L q O W tab xs xd xp xg xb (chunkBase L) := rfl
      have e2 : chunkInv d L q O W tab xs xd xp xg xb (chunkBase L) (↑(⟨2, hk⟩ : Fin (Scf.trips k1_t2_loop.lb k1_t2_loop.ub k1_t2_loop.st)) + 1)
          = fun _ => chunkInv3 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨2, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨2, tlt2⟩ () := rfl
      rw [e1, e2, e4]
      exact trip2 d L q O W tab xs xd xp xg xb (chunkBase L) hxs hxd (hoff2 L)
    | ⟨3, hk⟩ =>
      delta chunk_loop.sl.prog.body_1
      have e1 : chunkInv d L q O W tab xs xd xp xg xb (chunkBase L) (↑(⟨3, hk⟩ : Fin (Scf.trips k1_t2_loop.lb k1_t2_loop.ub k1_t2_loop.st))) PUnit.unit
          = chunkInv3 d L q O W tab xs xd xp xg xb (chunkBase L) := rfl
      have e2 : chunkInv d L q O W tab xs xd xp xg xb (chunkBase L) (↑(⟨3, hk⟩ : Fin (Scf.trips k1_t2_loop.lb k1_t2_loop.ub k1_t2_loop.st)) + 1)
          = fun _ => chunkInv4 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨3, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨3, tlt3⟩ () := rfl
      rw [e1, e2, e4]
      exact trip3 d L q O W tab xs xd xp xg xb (chunkBase L) hxs hxd (hoff3 L)
    | ⟨4, hk⟩ =>
      delta chunk_loop.sl.prog.body_1
      have e1 : chunkInv d L q O W tab xs xd xp xg xb (chunkBase L) (↑(⟨4, hk⟩ : Fin (Scf.trips k1_t2_loop.lb k1_t2_loop.ub k1_t2_loop.st))) PUnit.unit
          = chunkInv4 d L q O W tab xs xd xp xg xb (chunkBase L) := rfl
      have e2 : chunkInv d L q O W tab xs xd xp xg xb (chunkBase L) (↑(⟨4, hk⟩ : Fin (Scf.trips k1_t2_loop.lb k1_t2_loop.ub k1_t2_loop.st)) + 1)
          = fun _ => chunkInv5 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨4, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨4, tlt4⟩ () := rfl
      rw [e1, e2, e4]
      exact trip4 d L q O W tab xs xd xp xg xb (chunkBase L) hxs hxd (hoff4 L)
    | ⟨n + 5, h⟩ => exact absurd h (by have := h5; omega)
  isplitl [H]
  · rw [chunkInv_zero]; iexact H
  iintro %acc HI
  rw [h5, chunkInv_five]
  exact BI.Entails.refl _

end Chunk

end Cert.Proof.KI

end
-- ==== Proof.KI.Tile.lean ====
/-
  One vector subcore's run of the edge-flow kernel, at a symbolic grid coordinate: from its read
  shares of the six arrays and its row of the two partial-flow arrays to the shares back and the two
  rows at the tile's accumulators after all of its 1250 groups of sixteen edges.

  The task is three stretches. The first copies the squared-voltage table into the tile's memory,
  fills the two accumulators with zeros and starts the first chunk's five transfers. The second walks
  the five chunks of 4000 edges, double-buffered. The third copies the two accumulators out to the
  tile's row of the two partial-flow arrays. Between them the five edge arrays are held as the tile's
  five chunks and a rest, and each double buffer as its two halves.
-/
import proofs.«213808_g38010460570139_cont_8to1_b_868_22_alg».proof.Proof.KI.TileSetup
import proofs.«213808_g38010460570139_cont_8to1_b_868_22_alg».proof.Proof.KI.TileSplit
import proofs.«213808_g38010460570139_cont_8to1_b_868_22_alg».proof.Proof.KI.TilePrologue
import proofs.«213808_g38010460570139_cont_8to1_b_868_22_alg».proof.Proof.KI.TileChunkInv
import proofs.«213808_g38010460570139_cont_8to1_b_868_22_alg».proof.Proof.KI.TileEpilogue
import proofs.«213808_g38010460570139_cont_8to1_b_868_22_alg».proof.Proof.KI.TileChunk

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

section Tile

variable (d : Dev nD) (L : grid1.Coords)

/-- The task on vector subcore `L` of device `d`. -/
theorem tile_body (hF : (K (F := F)).Facts) (hpre : TilePre m) (O : CellTallies nD τ sig (HIx 1)) (W : Waits sig (HIx 1)) (hO : ∀ g, O g none = 0) :
    iprop(levAts (K (F := F)).L (K (F := F)).lev ∗ emp ∗ goPay m d (cL L) (iL L)
        ∗ scopedBufs (thr d L) ∗ scopedSems0 (thr d L) ∗ owes (thr d L) O W)
      ⊢ wp frame (wpE (defs₀ (F := F)) 𝒱₀ (thr d L) none) Set.univ
          (cc1__sc_flows L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2)
          fun _ => iprop(tdPay m d (cL L) (iL L) ∗ scopedBufs (thr d L) ∗ scopedSems0 (thr d L)
            ∗ ∃ W', ⌜∀ p ∈ W', p ∈ W ∨ p.2 = none⌝ ∗ owes (thr d L) O W') := by
  simp only [cc1__sc_flows_eq_skeleton]; rw [flows_skel_split]
  rw (occs := .pos [1]) [(K (F := F)).scopedBufs_V hF d (cV L) (jV L)]
  rw (occs := .pos [1]) [SparseCore.Cfg.scopedSems0_V (Val := Elt F) d (cV L) (jV L)]
  rw [ownSems0_V, ownBufs_V]
  unfold goPay roPts
  have hxs : ∀ j, (srcA m d j).toNat < 10240 := (hpre d).1
  have hxd : ∀ j, (dstA m d j).toNat < 10240 := (hpre d).2
  have hacc : Spec.tileAcc (tabA m d) (srcA m d) (dstA m d) (prA m d) (gA m d) (bA m d) (chunkBase L) (250 * 5) = accOf m d (rowOf (cL L) (iL L)) := by
    have hb : chunkBase L = 20000 * (rowOf (cL L) (iL L)).val := by
      show 40000 * (L 1).val + 20000 * (L 0).val = 20000 * (2 * (L 1).val + (L 0).val); omega
    rw [hb]
  simp only [wp_bind]
  iintro ⟨#Hlv, -, ⟨⟨Hv2, Hsa, Hda, Hpa, Hga, Hba⟩, ⟨%fp, Hpp⟩, ⟨%fq, Hqp⟩⟩,
    ⟨⟨%f0, Htab⟩, ⟨%f1, Hap⟩, ⟨%f2, Haq⟩, ⟨%f3, Ksw⟩, ⟨%f4, Kdw⟩, ⟨%f5, Kpw⟩, ⟨%f6, Kgw⟩, ⟨%f7, Kbw⟩, Hbufs⟩,
    ⟨Hs8, Hs9, Hc0, Hc1, Hc2, Hsems⟩, HO⟩
  ihave Hmw := ((K (F := F)).mayWaits_none (thr := thr d L) hO) $$ Hlv
  -- the five edge arrays as the tile's chunks, the five double buffers as their halves
  ihave Hsx := ((array_split_Src (F := F) d L _ _).mp) $$ Hsa
  icases Hsx with ⟨Hs0, Hs1, Hs2, Hs3, Hs4, Hsr⟩
  ihave Hdx := ((array_split_Dst (F := F) d L _ _).mp) $$ Hda
  icases Hdx with ⟨Hd0, Hd1, Hd2, Hd3, Hd4, Hdr⟩
  ihave Hpx := ((array_split_Pr (F := F) d L _ _).mp) $$ Hpa
  icases Hpx with ⟨Hp0, Hp1, Hp2, Hp3, Hp4, Hpr⟩
  ihave Hgx := ((array_split_G (F := F) d L _ _).mp) $$ Hga
  icases Hgx with ⟨Hg0, Hg1, Hg2, Hg3, Hg4, Hgr⟩
  ihave Hbx := ((array_split_B (F := F) d L _ _).mp) $$ Hba
  icases Hbx with ⟨Hb0, Hb1, Hb2, Hb3, Hb4, Hbr⟩
  ihave Ksx := ((scratch_split_Src (F := F) d L _).mp) $$ Ksw
  icases Ksx with ⟨Ks0, Ks1⟩
  ihave Kdx := ((scratch_split_Dst (F := F) d L _).mp) $$ Kdw
  icases Kdx with ⟨Kd0, Kd1⟩
  ihave Kpx := ((scratch_split_Pr (F := F) d L _).mp) $$ Kpw
  icases Kpx with ⟨Kp0, Kp1⟩
  ihave Kgx := ((scratch_split_G (F := F) d L _).mp) $$ Kgw
  icases Kgx with ⟨Kg0, Kg1⟩
  ihave Kbx := ((scratch_split_B (F := F) d L _).mp) $$ Kbw
  icases Kbx with ⟨Kb0, Kb1⟩
  -- the table copy, the zero fill and the first chunk's transfers
  iapply (wp_wand_r frame _ Set.univ)
  isplitl [Hmw Hv2 Hs0 Hd0 Hp0 Hg0 Hb0 Htab Hap Haq Ks0 Kd0 Kp0 Kg0 Kb0 Hs8 Hc0 HO]
  · iapply (prologue d L (shT (cL L) (iL L)) O W (tabA m d) (srcA m d) (dstA m d) (prA m d) (gA m d) (bA m d) f0 f1 f2 f3 f4 f5 f6 f7)
    isplitl [Hmw]
    · iexact Hmw
    isplitl [Hv2]
    · iexact Hv2
    isplitl [Hs0]
    · iexact Hs0
    isplitl [Hd0]
    · iexact Hd0
    isplitl [Hp0]
    · iexact Hp0
    isplitl [Hg0]
    · iexact Hg0
    isplitl [Hb0]
    · iexact Hb0
    isplitl [Htab]
    · iexact Htab
    isplitl [Hap]
    · iexact Hap
    isplitl [Haq]
    · iexact Haq
    isplitl [Ks0]
    · iexact Ks0
    isplitl [Kd0]
    · iexact Kd0
    isplitl [Kp0]
    · iexact Kp0
    isplitl [Kg0]
    · iexact Kg0
    isplitl [Kb0]
    · iexact Kb0
    isplitl [Hs8]
    · iexact Hs8
    isplitl [Hc0]
    · iexact Hc0
    iexact HO
  iintro %r ⟨%hr, Hpro⟩
  obtain ⟨v2, c0, c1⟩ := r
  obtain ⟨rfl, rfl⟩ : c0 = 0#32 ∧ c1 = 1#32 := by cases hr; exact ⟨rfl, rfl⟩
  unfold proPost
  icases Hpro with ⟨Hmw, Hv2, Htab, Hap, Haq, HB, Hc0, ⟨%W1, %hW1, HO⟩⟩
  -- the five chunks
  iapply (wp_wand_r frame _ Set.univ)
  isplitl [Hmw Htab Hap Haq HO Hs1 Hd1 Hp1 Hg1 Hb1 Hs2 Hd2 Hp2 Hg2 Hb2 Hs3 Hd3 Hp3 Hg3 Hb3 Hs4 Hd4 Hp4 Hg4 Hb4 Ks1 Kd1 Kp1 Kg1 Kb1 HB Hs9]
  · iapply (chunk_loop d L (shT (cL L) (iL L)) O W (tabA m d) (srcA m d) (dstA m d) (prA m d) (gA m d) (bA m d) hxs hxd)
    unfold chunkInv0
    isplitl [Hmw]
    · iexact Hmw
    isplitl [Htab]
    · iexact Htab
    isplitl [Hap]
    · iexact Hap
    isplitl [Haq]
    · iexact Haq
    isplitl [HO]
    · iexists W1; isplitr
      · ipureintro; exact hW1
      · iexact HO
    isplitl [Hs1]
    · iexact Hs1
    isplitl [Hd1]
    · iexact Hd1
    isplitl [Hp1]
    · iexact Hp1
    isplitl [Hg1]
    · iexact Hg1
    isplitl [Hb1]
    · iexact Hb1
    isplitl [Hs2]
    · iexact Hs2
    isplitl [Hd2]
    · iexact Hd2
    isplitl [Hp2]
    · iexact Hp2
    isplitl [Hg2]
    · iexact Hg2
    isplitl [Hb2]
    · iexact Hb2
    isplitl [Hs3]
    · iexact Hs3
    isplitl [Hd3]
    · iexact Hd3
    isplitl [Hp3]
    · iexact Hp3
    isplitl [Hg3]
    · iexact Hg3
    isplitl [Hb3]
    · iexact Hb3
    isplitl [Hs4]
    · iexact Hs4
    isplitl [Hd4]
    · iexact Hd4
    isplitl [Hp4]
    · iexact Hp4
    isplitl [Hg4]
    · iexact Hg4
    isplitl [Hb4]
    · iexact Hb4
    isplitl [Ks1]
    · iexists _; iexact Ks1
    isplitl [Kd1]
    · iexists _; iexact Kd1
    isplitl [Kp1]
    · iexists _; iexact Kp1
    isplitl [Kg1]
    · iexists _; iexact Kg1
    isplitl [Kb1]
    · iexists _; iexact Kb1
    isplitl [HB]
    · iexists _, _, _, _, _; iexact HB
    iexact Hs9
  iintro %_ Hinv
  unfold chunkInv5
  icases Hinv with ⟨Hmw, Htab, Hap, Haq, ⟨%W2, %hW2, HO⟩, Hs0, Hd0, Hp0, Hg0, Hb0, Hs1, Hd1, Hp1, Hg1, Hb1, Hs2, Hd2, Hp2, Hg2, Hb2, Hs3, Hd3, Hp3, Hg3, Hb3, Hs4, Hd4, Hp4, Hg4, Hb4, ⟨%gs0, Ks0⟩, ⟨%gd0, Kd0⟩, ⟨%gp0, Kp0⟩, ⟨%gg0, Kg0⟩, ⟨%gb0, Kb0⟩, ⟨%gs1, Ks1⟩, ⟨%gd1, Kd1⟩, ⟨%gp1, Kp1⟩, ⟨%gg1, Kg1⟩, ⟨%gb1, Kb1⟩, Hs8, Hs9⟩
  -- the chunks back as the arrays, the halves as the buffers
  ihave Hsa := ((array_split_Src (F := F) d L _ _).mpr) $$ [Hs0 Hs1 Hs2 Hs3 Hs4 Hsr]
  · isplitl [Hs0]; · iexact Hs0
    isplitl [Hs1]; · iexact Hs1
    isplitl [Hs2]; · iexact Hs2
    isplitl [Hs3]; · iexact Hs3
    isplitl [Hs4]; · iexact Hs4
    iexact Hsr
  ihave Hda := ((array_split_Dst (F := F) d L _ _).mpr) $$ [Hd0 Hd1 Hd2 Hd3 Hd4 Hdr]
  · isplitl [Hd0]; · iexact Hd0
    isplitl [Hd1]; · iexact Hd1
    isplitl [Hd2]; · iexact Hd2
    isplitl [Hd3]; · iexact Hd3
    isplitl [Hd4]; · iexact Hd4
    iexact Hdr
  ihave Hpa := ((array_split_Pr (F := F) d L _ _).mpr) $$ [Hp0 Hp1 Hp2 Hp3 Hp4 Hpr]
  · isplitl [Hp0]; · iexact Hp0
    isplitl [Hp1]; · iexact Hp1
    isplitl [Hp2]; · iexact Hp2
    isplitl [Hp3]; · iexact Hp3
    isplitl [Hp4]; · iexact Hp4
    iexact Hpr
  ihave Hga := ((array_split_G (F := F) d L _ _).mpr) $$ [Hg0 Hg1 Hg2 Hg3 Hg4 Hgr]
  · isplitl [Hg0]; · iexact Hg0
    isplitl [Hg1]; · iexact Hg1
    isplitl [Hg2]; · iexact Hg2
    isplitl [Hg3]; · iexact Hg3
    isplitl [Hg4]; · iexact Hg4
    iexact Hgr
  ihave Hba := ((array_split_B (F := F) d L _ _).mpr) $$ [Hb0 Hb1 Hb2 Hb3 Hb4 Hbr]
  · isplitl [Hb0]; · iexact Hb0
    isplitl [Hb1]; · iexact Hb1
    isplitl [Hb2]; · iexact Hb2
    isplitl [Hb3]; · iexact Hb3
    isplitl [Hb4]; · iexact Hb4
    iexact Hbr
  ihave Ksw := (scratch_join_Src (F := F) d L _ _) $$ [Ks0 Ks1]
  · isplitl [Ks0] <;> iassumption
  ihave Kdw := (scratch_join_Dst (F := F) d L _ _) $$ [Kd0 Kd1]
  · isplitl [Kd0] <;> iassumption
  ihave Kpw := (scratch_join_Pr (F := F) d L _ _) $$ [Kp0 Kp1]
  · isplitl [Kp0] <;> iassumption
  ihave Kgw := (scratch_join_G (F := F) d L _ _) $$ [Kg0 Kg1]
  · isplitl [Kg0] <;> iassumption
  ihave Kbw := (scratch_join_B (F := F) d L _ _) $$ [Kb0 Kb1]
  · isplitl [Kb0] <;> iassumption
  rw [hacc]
  -- the two copy-outs
  iapply (tile_finish m d L hF O W W2 hW2 fp fq)
  isplitl [Hmw]
  · iexact Hmw
  isplitl [Hv2 Hsa Hda Hpa Hga Hba]
  · unfold roPts
    isplitl [Hv2]
    · iexact Hv2
    isplitl [Hsa]
    · iexact Hsa
    isplitl [Hda]
    · iexact Hda
    isplitl [Hpa]
    · iexact Hpa
    isplitl [Hga]
    · iexact Hga
    iexact Hba
  isplitl [Hap]
  · iexact Hap
  isplitl [Haq]
  · iexact Haq
  isplitl [Hpp]
  · iapply (Entails.of_eq (ppRow_pts (F := F) d L fullShare fp).symm); iexact Hpp
  isplitl [Hqp]
  · iapply (Entails.of_eq (qpRow_pts (F := F) d L fullShare fq).symm); iexact Hqp
  isplitl [Htab]
  · iexists _; iexact Htab
  isplitl [Ksw]
  · iexact Ksw
  isplitl [Kdw]
  · iexact Kdw
  isplitl [Kpw]
  · iexact Kpw
  isplitl [Kgw]
  · iexact Kgw
  isplitl [Kbw]
  · iexact Kbw
  isplitl [Hbufs]
  · iexact Hbufs
  isplitl [Hs8]
  · iexact Hs8
  isplitl [Hs9]
  · iexact Hs9
  isplitl [Hc0]
  · iexact Hc0
  isplitl [Hc1]
  · iexact Hc1
  isplitl [Hc2]
  · iexact Hc2
  isplitl [Hsems]
  · iexact Hsems
  iexact HO

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_flows (coordsV c s) (Memref.whole main_v8_0_scv) (Memref.isWhole_whole _) (Memref.whole main_v1_scv) (Memref.isWhole_whole _) (Memref.whole main_v3_scv) (Memref.isWhole_whole _) (Memref.whole main_arg2_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
          cc1_scratch8 cc1_scratch9 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : TilePre m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KI

end
-- ==== Proof.KI.Finish.lean ====
/-
  What @main leaves, and how it reads the claim. After the last call @main reshapes the 1 × 1 result
  of the loss call to a scalar; so at the end device `d` holds its four arguments as it was launched
  with them and, in the result array, the scalar whose one entry is the loss as a term of the four
  arguments (`Spec.lossOf`). The final assertion holds those five arrays outright; under the state
  interpretation each points-to pins the physical contents of its array, which is the claim's post.
-/
import proofs.«213808_g38010460570139_cont_8to1_b_868_22_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The result -/

/-- The 1 × 1 array the loss call leaves: its one entry is the loss of device `d`'s four arguments. -/
def lossBuf (d : Dev nD) : Vec F S1x1 .f32 := fun _ => Spec.lossOf (nfA m d) (eiA m d) (prA m d) (paA m d)

/-- The scalar @main's last reshape leaves in the result array. -/
def resOf (d : Dev nD) : Buf (Elt F) (resLoc d) := shapeCast S_ (lossBuf m d) shapeCasts_S1x1_S_

/-- The scalar's one entry is the loss. -/
theorem resOf_apply (d : Dev nD) (i : S_.Idx) : (resOf m d : Vec F S_ .f32) i = Spec.lossOf (nfA m d) (eiA m d) (prA m d) (paA m d) := rfl

/-! ## The final assertion and the claim's post -/

/-- What @main leaves on device `d`: the four arguments at their launch contents and the result at the loss. -/
abbrev FIN (d : Dev nD) : sProp 𝕄 :=
  iprop((nfLoc d ↦{fullShare} m (nfLoc d)) ∗ (eiLoc d ↦{fullShare} m (eiLoc d)) ∗ (prLoc d ↦{fullShare} m (prLoc d))
    ∗ (paLoc d ↦{fullShare} m (paLoc d)) ∗ resLoc d ↦{fullShare} resOf m d)

/-- The same of a physical state: the result array holds the loss and the four arguments are unchanged. -/
def fq (d : Dev nD) (s' : Phys nD τ sig (Elt F)) : Prop :=
  s'.mem.mem (resLoc d) = resOf m d ∧ s'.mem.mem (nfLoc d) = m (nfLoc d) ∧ s'.mem.mem (eiLoc d) = m (eiLoc d)
    ∧ s'.mem.mem (prLoc d) = m (prLoc d) ∧ s'.mem.mem (paLoc d) = m (paLoc d)

/-- Each of the five points-to assertions, met with the state interpretation, pins its array's contents. -/
theorem hfin (d : Dev nD) (s' : Phys nD τ sig (Elt F)) : iprop(FIN m d ∗ SI s') ⊢ (⌜fq m d s'⌝ : sProp 𝕄) := by
  iintro ⟨⟨Hnf, Hei, Hpr, Hpa, Hres⟩, HSI⟩
  ihave H := (persistent_entails_right (SI_pointsTo_agree (st := s') (ℓ := nfLoc d) (I := Finset.univ) (q := fullShare) (f := m (nfLoc d)))) $$ [HSI Hnf]
  · isplitl [HSI] <;> iassumption
  icases H with ⟨%h0, HSI, -⟩
  ihave H := (persistent_entails_right (SI_pointsTo_agree (st := s') (ℓ := eiLoc d) (I := Finset.univ) (q := fullShare) (f := m (eiLoc d)))) $$ [HSI Hei]
  · isplitl [HSI] <;> iassumption
  icases H with ⟨%h1, HSI, -⟩
  ihave H := (persistent_entails_right (SI_pointsTo_agree (st := s') (ℓ := prLoc d) (I := Finset.univ) (q := fullShare) (f := m (prLoc d)))) $$ [HSI Hpr]
  · isplitl [HSI] <;> iassumption
  icases H with ⟨%h2, HSI, -⟩
  ihave H := (persistent_entails_right (SI_pointsTo_agree (st := s') (ℓ := paLoc d) (I := Finset.univ) (q := fullShare) (f := m (paLoc d)))) $$ [HSI Hpa]
  · isplitl [HSI] <;> iassumption
  icases H with ⟨%h3, HSI, -⟩
  ihave H := (SI_pointsTo_agree (st := s') (ℓ := resLoc d) (I := Finset.univ) (q := fullShare) (f := resOf m d)) $$ [HSI Hres]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

/-- The post of the program's run: on every device the result holds the loss and the arguments are unchanged
    (the result first, then the arguments in order, as the claims list them). -/
def QC : PUnit × MemSt nD τ sig (Elt F) → Prop := fun r => ∀ c : Dev nD,
  r.2.mem (resLoc c) = resOf m c ∧ r.2.mem (nfLoc c) = m (nfLoc c) ∧ r.2.mem (eiLoc c) = m (eiLoc c)
    ∧ r.2.mem (prLoc c) = m (prLoc c) ∧ r.2.mem (paLoc c) = m (paLoc c)

/-- The post is the per-device facts, all devices together. -/
theorem hQ : ∀ s' : Phys nD τ sig (Elt F), (∀ d, fq m d s') → QC m (⟨⟩, s'.mem) := fun _ h => h

end Cert.Proof.KI

end
-- ==== Proof.PreFacts.Core.lean ====
/-
  The precondition, read back. The precondition of this certificate is a printed function of the four
  arguments — node features, edge ends, edge probabilities, edge parameters — that must be all ones. It is
  a conjunction of five statements, each about every element of one argument: the three float arguments
  are finite; every edge end is a node number between 0 and 9999 (compared as signed words); and no edge
  parameter plus the small constant 1e-6 is zero. This module turns "the function is all ones" into those
  five facts: the range of the edge ends at any float instance, finiteness and the nonzero denominators at
  the extended reals.
-/
import proofs.«213808_g38010460570139_cont_8to1_b_868_22_alg».proof.Pre_input_domain
import proofs.«213808_g38010460570139_cont_8to1_b_868_22_alg».proof.Proof.Gen.Pre_input_domain
import Idealize.ShloMosaic.Lib.ReduceAll
import Idealize.ShloMosaic.Lib.StableHlo.Predicate
import Idealize.ShloMosaic.PureOps.Ideal

noncomputable section

namespace Cert.Proof.PreFacts

open Idealize.ShloMosaic Cert.Pre_input_domain Cert.Pre_input_domain.Gen

/-! ## Single elements -/

/-- A 32-bit word that is at least 0 and at most 9999 as a SIGNED word has a value of at most 9999:
    a word with its top bit set is negative, so the first comparison rules it out. -/
theorem toNat_le_of_signed_range (v : BitVec 32)
    (h : IntOp.andi (IntOp.cmpi .sge v 0#32) (IntOp.cmpi .sle v 9999#32) = 1#1) : v.toNat ≤ 9999 := by
  obtain ⟨hlo, hhi⟩ := IntOp.andi_eq_one.1 h
  have hlo' : (0#32 : BitVec 32).toInt ≤ v.toInt := by
    simpa only [IntOp.cmpi, BitVec.sle, StableHlo.Predicate.ofBool_eq_one_iff, decide_eq_true_eq] using hlo
  have hhi' : v.toInt ≤ (9999#32 : BitVec 32).toInt := by
    simpa only [IntOp.cmpi, BitVec.sle, StableHlo.Predicate.ofBool_eq_one_iff, decide_eq_true_eq] using hhi
  have z : (0#32 : BitVec 32).toInt = 0 := by decide
  have n : (9999#32 : BitVec 32).toInt = 9999 := by decide
  rw [z] at hlo'
  rw [n] at hhi'
  have hv := BitVec.toInt_eq_toNat_cond v
  have hlt := v.isLt
  split at hv <;> omega

/-- The pattern of positive infinity is the top element of the extended reals. -/
theorem ofBits_inf : Ideal.ofBits .f32 0x7F800000#32 = (⊤ : EReal) := by simp [Ideal.ofBits, Ideal.ieee]

/-- The pattern of positive zero is zero. -/
theorem ofBits_zero : Ideal.ofBits .f32 0x00000000#32 = (0 : EReal) := by simp [Ideal.ofBits, Ideal.ieee]

/-- An extended real whose absolute value (the larger of itself and its negation) lies strictly
    below positive infinity is a real number: each infinity has absolute value positive infinity. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    simpa only [Ideal.cmp, StableHlo.Predicate.ofBool_eq_one_iff, decide_eq_true_eq] using h
  induction x using EReal.rec with
  | bot => exact absurd hlt (by simp)
  | coe r => exact ⟨r, rfl⟩
  | top => exact absurd hlt (by simp)

/-- The float comparison "not equal", read at the extended reals, is inequality. -/
theorem ne_of_cmp_une (x y : EReal) (h : Ideal.cmp .une x y = 1#1) : x ≠ y := by
  simpa only [Ideal.cmp, StableHlo.Predicate.ofBool_eq_one_iff, decide_eq_true_eq] using h

/-! ## The printed predicate, conjunct by conjunct -/

instance : Subsingleton S_.Idx := ⟨fun a b => funext fun d => d.elim0⟩

/-- The one index of a scalar. -/
abbrev i0 : S_.Idx := fun d => d.elim0

variable {F : FTy → Type} [FloatOps F]

/-- The precondition says five things, each of every element of an argument: the three float
    arguments have absolute value below the pattern of infinity; every edge end is, as a signed
    word, between 0 and 9999; and each edge parameter plus the small constant differs from zero.
    The printed function is the conjunction (a chain of `and`s) of five reductions by `and` over all
    axes, so if it is 1 each reduction is 1, and then every element reduced is 1. -/
theorem conjuncts (a0 : FVec F S10000x128 .f32) (a1 : IVec S2x640000 32) (a2 : FVec F S640000 .f32)
    (a3 : FVec F S640000x2 .f32) (h : Cert.Pre_input_domain.fn (F := F) a0 a1 a2 a3 = fun _ => 1#1) :
    (∀ j, FloatOps.cmpf .olt (FloatOps.hostAbsf (a0 j)) (FloatOps.ofBits (F := F) .f32 0x7F800000#32) = 1#1)
    ∧ (∀ j, FloatOps.cmpf .olt (FloatOps.hostAbsf (a2 j)) (FloatOps.ofBits (F := F) .f32 0x7F800000#32) = 1#1)
    ∧ (∀ j, FloatOps.cmpf .olt (FloatOps.hostAbsf (a3 j)) (FloatOps.ofBits (F := F) .f32 0x7F800000#32) = 1#1)
    ∧ (∀ j, IntOp.andi (IntOp.cmpi .sge (a1 j) 0#32) (IntOp.cmpi .sle (a1 j) 9999#32) = 1#1)
    ∧ (∀ j, FloatOps.cmpf .une (FloatOps.addf (a3 j) (FloatOps.ofBits (F := F) .f32 0x358637BD#32))
        (FloatOps.ofBits (F := F) .f32 0x00000000#32) = 1#1) := by
  have e := congrFun h i0
  simp only [Cert.Pre_input_domain.fn, Cert.Pre_input_domain.fn_part1, andi] at e
  obtain ⟨e1234, e5⟩ := IntOp.andi_eq_one.1 e
  obtain ⟨e123, e4⟩ := IntOp.andi_eq_one.1 e1234
  obtain ⟨e12, e3⟩ := IntOp.andi_eq_one.1 e123
  obtain ⟨e1, e2⟩ := IntOp.andi_eq_one.1 e12
  refine ⟨fun j => ?_, fun j => ?_, fun j => ?_, fun j => ?_, fun j => ?_⟩
  · exact Host.reduce_andi_all _ _ _ _ i0 e1 j
  · exact Host.reduce_andi_all _ _ _ _ i0 e2 j
  · exact Host.reduce_andi_all _ _ _ _ i0 e3 j
  · exact Host.reduce_andi_all _ _ _ _ i0 e4 j
  · exact Host.reduce_andi_all _ _ _ _ i0 e5 j

/-- Every edge end is a node number of at most 9999, at any float instance. -/
theorem idx_of_fn (a0 : FVec F S10000x128 .f32) (a1 : IVec S2x640000 32) (a2 : FVec F S640000 .f32)
    (a3 : FVec F S640000x2 .f32) (h : Cert.Pre_input_domain.fn (F := F) a0 a1 a2 a3 = fun _ => 1#1) :
    ∀ j : S2x640000.Idx, (a1 j).toNat ≤ 9999 :=
  fun j => toNat_le_of_signed_range _ ((conjuncts a0 a1 a2 a3 h).2.2.2.1 j)

end Cert.Proof.PreFacts

/-! ## At the extended reals -/

namespace Cert.Proof.PreFacts

open Idealize.ShloMosaic Cert.Pre_input_domain Cert.Pre_input_domain.Gen

/-- At the extended reals, every entry of the three float arguments is a real number. -/
theorem finite_of_fn (a0 : FVec Ideal S10000x128 .f32) (a1 : IVec S2x640000 32) (a2 : FVec Ideal S640000 .f32)
    (a3 : FVec Ideal S640000x2 .f32) (h : Cert.Pre_input_domain.fn (F := Ideal) a0 a1 a2 a3 = fun _ => 1#1) :
    (∀ j, ∃ r : ℝ, a0 j = (r : EReal)) ∧ (∀ j, ∃ r : ℝ, a2 j = (r : EReal)) ∧ (∀ j, ∃ r : ℝ, a3 j = (r : EReal)) :=
  ⟨fun j => real_of_abs_lt_inf _ ((conjuncts a0 a1 a2 a3 h).1 j),
   fun j => real_of_abs_lt_inf _ ((conjuncts a0 a1 a2 a3 h).2.1 j),
   fun j => real_of_abs_lt_inf _ ((conjuncts a0 a1 a2 a3 h).2.2.1 j)⟩

/-- At the extended reals, no edge parameter plus the small constant is zero. -/
theorem denom_ne_zero (a0 : FVec Ideal S10000x128 .f32) (a1 : IVec S2x640000 32) (a2 : FVec Ideal S640000 .f32)
    (a3 : FVec Ideal S640000x2 .f32) (h : Cert.Pre_input_domain.fn (F := Ideal) a0 a1 a2 a3 = fun _ => 1#1) :
    ∀ j : S640000x2.Idx, a3 j + Ideal.ofBits .f32 0x358637BD#32 ≠ 0 := by
  intro j
  have e := ne_of_cmp_une _ _ ((conjuncts a0 a1 a2 a3 h).2.2.2.2 j)
  rwa [Ideal.ofBits_def, Ideal.ofBits_def, ofBits_zero] at e

end Cert.Proof.PreFacts

end
-- ==== Proof.PreFacts.Sliced.lean ====
/-
  The edge arrays @main cuts out of the arguments, under the precondition, at any float instance. @main
  slices the edge ends into source and destination node numbers and the edge parameters into two
  columns, and reshapes each to a vector. A slice followed by a reshape reads its operand at some
  index, so what the precondition says of every element of an argument it says of every element of
  the array cut from it: every source and destination node number is at most 9999, hence names an
  entry of the padded 10240-entry tables the kernel gathers from and scatters to.
-/
import proofs.«213808_g38010460570139_cont_8to1_b_868_22_alg».proof.Proof.PreFacts.Core
import proofs.«213808_g38010460570139_cont_8to1_b_868_22_alg».proof.Proof.KI.Spec

noncomputable section

namespace Cert.Proof.PreFacts.KI

open Idealize.ShloMosaic Cert.KernelIdeal Cert.KernelIdeal.Spec Cert.Proof.PreFacts

variable {F : FTy → Type} [FloatOps F]

/-- Each of the four edge arrays is, at every index, an element of the argument it is cut from. -/
theorem srcOf_mem (ei : Vec F S2x640000 .i32) (e : S640000.Idx) : ∃ j : S2x640000.Idx, Spec.srcOf (F := F) ei e = ei j := ⟨_, rfl⟩
theorem dstOf_mem (ei : Vec F S2x640000 .i32) (e : S640000.Idx) : ∃ j : S2x640000.Idx, Spec.dstOf (F := F) ei e = ei j := ⟨_, rfl⟩
theorem gOf_mem (par : Vec F S640000x2 .f32) (e : S640000.Idx) : ∃ j : S640000x2.Idx, Spec.gOf par e = par j := ⟨_, rfl⟩
theorem bOf_mem (par : Vec F S640000x2 .f32) (e : S640000.Idx) : ∃ j : S640000x2.Idx, Spec.bOf par e = par j := ⟨_, rfl⟩

variable {nf : FVec F Cert.Pre_input_domain.S10000x128 .f32} {ei : IVec Cert.Pre_input_domain.S2x640000 32}
  {pr : FVec F Cert.Pre_input_domain.S640000 .f32} {par : FVec F Cert.Pre_input_domain.S640000x2 .f32}

/-- Every source node number is at most 9999. -/
theorem srcOf_le (h : Cert.Pre_input_domain.fn (F := F) nf ei pr par = fun _ => 1#1) (e : S640000.Idx) :
    ((Spec.srcOf (F := F) ei) e).toNat ≤ 9999 := by
  obtain ⟨j, hj⟩ := srcOf_mem (F := F) ei e
  rw [hj]
  exact idx_of_fn _ _ _ _ h j

/-- Every destination node number is at most 9999. -/
theorem dstOf_le (h : Cert.Pre_input_domain.fn (F := F) nf ei pr par = fun _ => 1#1) (e : S640000.Idx) :
    ((Spec.dstOf (F := F) ei) e).toNat ≤ 9999 := by
  obtain ⟨j, hj⟩ := dstOf_mem (F := F) ei e
  rw [hj]
  exact idx_of_fn _ _ _ _ h j

/-- Sixteen consecutive source node numbers from any offset all name an entry of a 10240-entry table. -/
theorem lanes_srcOf_lt (h : Cert.Pre_input_domain.fn (F := F) nf ei pr par = fun _ => 1#1) (off : Nat) (j : S16.Idx) :
    (Spec.lanes (F := F) (e := .i32) (Spec.srcOf (F := F) ei) off j).toNat < 10240 :=
  lt_of_le_of_lt (srcOf_le h (Spec.ed (off + (j 0).val))) (by norm_num)

/-- Sixteen consecutive destination node numbers likewise. -/
theorem lanes_dstOf_lt (h : Cert.Pre_input_domain.fn (F := F) nf ei pr par = fun _ => 1#1) (off : Nat) (j : S16.Idx) :
    (Spec.lanes (F := F) (e := .i32) (Spec.dstOf (F := F) ei) off j).toNat < 10240 :=
  lt_of_le_of_lt (dstOf_le h (Spec.ed (off + (j 0).val))) (by norm_num)

end Cert.Proof.PreFacts.KI

end
-- ==== Proof.KI.Launch.lean ====
/-
  The launch: the element of the ghost state the program starts from, what it funds (the handshakes'
  rounds for the SparseCore call, the staging cells' rounds of the two TensorCore calls; the
  transfers' counters start empty), and the program's run from the launch theorem.
-/
import proofs.«213808_g38010460570139_cont_8to1_b_868_22_alg».proof.Proof.KI.Split
import proofs.«213808_g38010460570139_cont_8to1_b_868_22_alg».proof.Proof.KI.Tile
import proofs.«213808_g38010460570139_cont_8to1_b_868_22_alg».proof.Proof.KI.Finish
import proofs.«213808_g38010460570139_cont_8to1_b_868_22_alg».proof.Proof.PreFacts.Sliced
import proofs.«213808_g38010460570139_cont_8to1_b_868_22_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The staging cells of the two TensorCore calls and the duty tokens of their transfers. -/
abbrev pCells : Finset (GSem nD τ sig) := Pipeline.cells (nD := nD) (τ := τ) cfgs cellOf_inj
abbrev pToks : Finset (GSem nD τ sig × ℕ × Unit) := Pipeline.launchToks (nD := nD) (τ := τ) cfgs cellOf_inj

/-- The handshakes' rounds at their start, the staging cells' rounds at theirs, no counter. -/
def u₀ : UU := (initOf (K (F := F)).hsCells (K (F := F)).hsToks, (initOf pCells pToks, 1))

/-- What the launch deals device d for TensorCore call p: its staging cells' ghost state and its transfers' duty tokens. -/
def Gh (p : Fin 2) (d : Dev nD) : sProp 𝕄 := iprop(Pipeline.cellsGhost cfgs EP p d ∗ Pipeline.toksInit cfgs EP p d)

omit [FloatOps F] in
/-- The launch element splits into the handshakes' part and the staging cells' part (the counters' part is the unit). -/
theorem ownU_split (a : UH) (b : UP) (c : Counters) :
    (ownU (a, (b, c)) : sProp 𝕄) ⊢ iprop(BI.own (EH a) ∗ BI.own (EP b)) := by
  iintro Hu
  ihave H := (ownU_pair a (b, c)) $$ Hu
  icases H with ⟨HH, HR⟩
  ihave H2 := (own_pair_emb (embR (A := UH) (B := UP × Counters)) b c) $$ HR
  icases H2 with ⟨HP, -⟩
  isplitl [HH]; · iexact HH
  unfold EP
  iexact HP

omit [FloatOps F] in
theorem sep_swap4 (A0 A1 B0 B1 : sProp 𝕄) : iprop((A0 ∗ A1) ∗ B0 ∗ B1) ⊢ iprop((A0 ∗ B0) ∗ A1 ∗ B1) := by
  iintro ⟨⟨HA0, HA1⟩, HB0, HB1⟩
  isplitl [HA0 HB0]
  · isplitl [HA0]; · iexact HA0
    iexact HB0
  · isplitl [HA1]; · iexact HA1
    iexact HB1

omit [FloatOps F] in
/-- The two calls' ghost state and tokens, funded per device and call, dealt device by device. -/
theorem gh_deal :
    iprop((bigSep Finset.univ fun d : Dev nD => bigSep Finset.univ fun p : Fin 2 => (Pipeline.cellsGhost cfgs EP p d : sProp 𝕄))
        ∗ (bigSep Finset.univ fun d : Dev nD => bigSep Finset.univ fun p : Fin 2 => (Pipeline.toksInit cfgs EP p d : sProp 𝕄)))
      ⊢ bigSep Finset.univ fun d : Dev nD => iprop(Gh (F := F) 0 d ∗ Gh 1 d) := by
  rw [← bigSep_sep']
  refine bigSep_mono fun d _ => ?_
  rw [bigSep_univ_two, bigSep_univ_two]
  unfold Gh
  exact sep_swap4 _ _ _ _

omit [FloatOps F] in
theorem bigSep_emp' {I : Type} (s : Finset I) : (bigSep s fun _ => iprop(emp)) = (iprop(emp) : sProp 𝕄) := bigSep_emp_const s

/-- The launch element funds the handshakes' rounds, each device's two calls' ghost state, and nothing of the tiles' own. -/
theorem hu₀ : iprop(ownU (u₀ (F := F)) ∗ (P m).oxCred ∗ (K (F := F)).freeSems0)
    ⊢ |={Set.univ}=> iprop(BI.own (EH (initOf (K (F := F)).hsCells (K (F := F)).hsToks))
        ∗ (bigSep Finset.univ fun d : Dev nD => iprop(Gh (F := F) 0 d ∗ Gh 1 d))
        ∗ bigSep Finset.univ fun thr : Thread nD τ => bigSep Finset.univ fun q : Fin 1 => (P m).x q thr) := by
  unfold u₀
  iintro ⟨Hu, -, -⟩
  ihave H := (ownU_split _ _ _) $$ Hu
  icases H with ⟨HH, HP⟩
  imod (Pipeline.fund_ghost cfgs EP cellOf_inj) $$ HP with ⟨Hg, Ht⟩
  imodintro
  isplitl [HH]; · iexact HH
  isplitl [Hg Ht]
  · iapply (gh_deal (F := F)); isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The precondition, as the tiles use it -/

/-- Under the input domain every source and destination node number is at most 9999, so names an entry of the 10240-entry tables. -/
theorem tilePre_of_pre (hpre : ∀ d, Cert.Pre_input_domain.fn (F := F) (nfA m d) (eiA m d) (prA m d) (paA m d) = fun _ => 1#1) :
    TilePre m :=
  fun d => ⟨fun j => Nat.lt_of_le_of_lt (PreFacts.KI.srcOf_le (hpre d) j) (by decide),
    fun j => Nat.lt_of_le_of_lt (PreFacts.KI.dstOf_le (hpre d) j) (by decide)⟩

/-! ## The program's run

From @main's proof on the TensorCore (the two TensorCore calls' regions composed with the SparseCore call), the
tiles' obligation, and how a SparseCore's operands split among its tiles. -/

theorem run_main_of [∀ e, Nonempty (Elt F e)]
    (hmain : ∀ (κ : GSem nD τ sig → ℕ) (d : Dev nD),
      iprop((K (F := F)).ctx EH (P m) κ ∗ (K (F := F)).tcSt EH d 0 ∗ (K (F := F)).tcRes m ρ d ∗ (Gh (F := F) 0 d ∗ Gh 1 d))
        ⊢ wp frame (wpE ((K (F := F)).defs (D (F := F))) 𝒱 (SparseCore.T d) none) Set.univ (main d)
            fun _ => iprop((K (F := F)).tcSt EH d 1 ∗ FIN m d))
    (hpre : ∀ d, Cert.Pre_input_domain.fn (F := F) (nfA m d) (eiA m d) (prA m d) (paA m d) = fun _ => 1#1) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (tilePre_of_pre m hpre))
    (fun q _ => match q with | 0 => SparseCore.Cfg.VecSplit.of_plain (vecSplit m))
    m ρ main (fun d => iprop(Gh (F := F) 0 d ∗ Gh 1 d)) (FIN m) (u₀ (F := F)) (hu₀ m) hmain (fq m) (hfin m) (QC m) (hQ m)

end Cert.Proof.KI

end
-- ==== Proof.KI.Hosts.lean ====
/-
  @main's host operations on the TensorCore: the eight slices and reshapes that cut the edge list and the
  edge parameters into the four edge arrays the SparseCore call reads, run as one stretch over the
  TensorCore's unscoped arrays, and what each array holds afterwards.
-/
import proofs.«213808_g38010460570139_cont_8to1_b_868_22_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within wp_seq after seq)

variable {F : FTy → Type} [FloatOps F]

local notation "𝕄" => MT nD τ sig (HIx 1) (Elt F) ℕ UU ℕ

variable (m : (ℓ : Loc nD τ sig) → Buf (Elt F) ℓ)

/-- The eight host operations before the calls. -/
def ops8 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.unary main_arg3 main_v4 ((extractStridedSlice S640000x1 ![0, 0] · slices_S640000x2_S640000x1_0_0) : (⟨S640000x2, .f32⟩ : BufTy).Contents (Elt F) → (⟨S640000x1, .f32⟩ : BufTy).Contents (Elt F)),
    StableHlo.reshape main_v4 main_v5 rfl shapeCasts_S640000x1_S640000,
    StableHlo.unary main_arg3 main_v6 ((extractStridedSlice S640000x1 ![0, 1] · slices_S640000x2_S640000x1_0_1) : (⟨S640000x2, .f32⟩ : BufTy).Contents (Elt F) → (⟨S640000x1, .f32⟩ : BufTy).Contents (Elt F)),
    StableHlo.reshape main_v6 main_v7 rfl shapeCasts_S640000x1_S640000 ]

/-- What follows the eight host operations in @main: the preparation call, the SparseCore call, the loss call, the
    last reshape. -/
def mainRest (d : Dev nD) : Prog (TpuEff nD τ sig (Elt F) (SparseCore.Sig (Pipeline.Sig Λ₀ (Fin 2) fun p => (pcfgs (F := F) p).Adm) 1) .tc) PUnit := do
  Prog.lift (.customCall (SparseCore.inner (Pipeline.entry 0)) ())
  sc.run d 0
  Prog.lift (.customCall (SparseCore.inner (Pipeline.entry 1)) ())
  hlo rfl (StableHlo.reshape main_v10 main_v11 rfl shapeCasts_S1x1_S_) (fun _ => .ret ⟨⟩)
  pure ⟨⟩

/-- @main is the stretch of host operations, then the rest. -/
theorem main_eq (d : Dev nD) : main (F := F) d = seq (ops8 (F := F)) >>= fun _ => mainRest d := rfl

/-- The TensorCore's unscoped arrays. -/
abbrev rAll : List (Ref sig .tc) :=
  [main_arg0, main_arg1, main_arg2, main_arg3, main_v0, main_v1, main_v2, main_v3, main_v4, main_v5, main_v6, main_v7,
   main_v8_0, main_v8_1, main_v8_2, main_v9_0, main_v9_1, main_v10, main_v11]
abbrev SAll : Finset (DevRef τ sig) := (rAll.map fun b => Proc.devRef .tc b).toFinset

/-- The launch valuation. -/
def V0 (d : Dev nD) : Valuation τ sig (Elt F) := fun b => m (d, b)
/-- The valuation after the eight host operations. -/
def V8 (d : Dev nD) : Valuation τ sig (Elt F) := after (ops8 (F := F)) (V0 m d)

theorem ops8_bufs : ∀ op ∈ ops8 (F := F), op.bufs ⊆ SAll := by
  intro op hop
  simp only [ops8, List.mem_cons, List.mem_nil_iff, or_false] at hop
  rcases hop with rfl | rfl | rfl | rfl | rfl | rfl | rfl | rfl <;>
    first
      | (rw [StableHlo.unary_bufs]; decide)
      | (rw [StableHlo.reshape_bufs]; decide)
theorem ops8_fresh : ∀ op ∈ ops8 (F := F), op.fresh = ∅ := by
  intro op hop
  simp only [ops8, List.mem_cons, List.mem_nil_iff, or_false] at hop
  rcases hop with rfl | rfl | rfl | rfl | rfl | rfl | rfl | rfl <;> rfl

/-- What the arrays hold after the stretch: the arguments as launched, the four edge arrays at their slices. -/
theorem V8_arg0 (d : Dev nD) : V8 m d (Proc.devRef .tc main_arg0) = m (nfLoc d) := by
  unfold V8 ops8; after_results; rfl
theorem V8_arg1 (d : Dev nD) : V8 m d (Proc.devRef .tc main_arg1) = m (eiLoc d) := by
  unfold V8 ops8; after_results; rfl
theorem V8_arg2 (d : Dev nD) : V8 m d (Proc.devRef .tc main_arg2) = m (prLoc d) := by
  unfold V8 ops8; after_results; rfl
theorem V8_arg3 (d : Dev nD) : V8 m d (Proc.devRef .tc main_arg3) = m (paLoc d) := by
  unfold V8 ops8; after_results; rfl
theorem V8_src (d : Dev nD) : V8 m d (Proc.devRef .tc main_v1) = srcA m d := by
  unfold V8 ops8; after_results; rfl
theorem V8_dst (d : Dev nD) : V8 m d (Proc.devRef .tc main_v3) = dstA m d := by
  unfold V8 ops8; after_results; rfl
theorem V8_g (d : Dev nD) : V8 m d (Proc.devRef .tc main_v5) = gA m d := by
  unfold V8 ops8; after_results; rfl
theorem V8_b (d : Dev nD) : V8 m d (Proc.devRef .tc main_v7) = bA m d := by
  unfold V8 ops8; after_results; rfl

end Cert.Proof.KI

end
-- ==== Proof.KI.Rows.lean ====
/-
  Rows of the two partial-flow arrays, and the read shares of the six read-only arrays, as the
  TensorCore deals them to the two SparseCores around the one call and gathers them back.

  Each partial-flow array has 32 rows of 10240 entries; row 2 i + c belongs to tile i of SparseCore c.
  The whole array splits into its 32 rows (pairwise disjoint, covering it), the rows regroup as
  sixteen per SparseCore, and rows held at the tiles' accumulators join to the whole array at the one
  function whose row r is accumulator r. The full share of a read-only array splits into one share per
  SparseCore and a rest, and joins back.
-/
import proofs.«213808_g38010460570139_cont_8to1_b_868_22_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## The 32 rows: disjoint, covering, and a row's entries -/

omit [FloatOps F] in
theorem prowSet_eq (r : Fin 32) : prowSet r = (prow r).set := by
  show ((View.whole (main_v9_0_scv : Ref sig .scVector)).slice (prow r)).set = _
  rw [View.set_slice]; exact Finset.map_refl

omit [FloatOps F] in
theorem prows_disjoint : ∀ r ∈ (Finset.univ : Finset (Fin 32)), ∀ r' ∈ (Finset.univ : Finset (Fin 32)), r ≠ r' →
    Disjoint (prowSet r) (prowSet r') :=
  fun r _ r' _ h => by rw [prowSet_eq, prowSet_eq]; exact Rect.part_disjoint hdiv32 h

omit [FloatOps F] in
theorem prows_cover : (Finset.univ : Finset (Fin 32)).biUnion prowSet = Finset.univ :=
  (Finset.biUnion_congr rfl fun r _ => prowSet_eq r).trans (Rect.biUnion_part hdiv32)

omit [FloatOps F] in
/-- Row r is the entries whose first coordinate is r. -/
theorem mem_prowSet {r : Fin 32} {j : S32x10240.Idx} : j ∈ prowSet r ↔ (j 0).val = r.val := by
  rw [prowSet_eq, Rect.mem_set_unit]
  constructor
  · intro h
    have h0 := h 0
    have e1 : S32x10240.partIx 0 r.val 0 = r.val := rfl
    have e2 : S32x10240.partSize 0 32 0 = 1 := rfl
    rw [e1, e2] at h0
    omega
  · intro h a
    match a with
    | ⟨0, _⟩ =>
      have e1 : S32x10240.partIx 0 r.val 0 = r.val := rfl
      have e2 : S32x10240.partSize 0 32 0 = 1 := rfl
      show S32x10240.partIx 0 r.val 0 * S32x10240.partSize 0 32 0 ≤ (j 0).val ∧ (j 0).val < S32x10240.partIx 0 r.val 0 * S32x10240.partSize 0 32 0 + S32x10240.partSize 0 32 0
      rw [e1, e2]; omega
    | ⟨1, _⟩ =>
      have e1 : S32x10240.partIx 0 r.val 1 = 0 := rfl
      have e2 : S32x10240.partSize 0 32 1 = 10240 := rfl
      have hj : (j 1).val < 10240 := (j 1).isLt
      show S32x10240.partIx 0 r.val 1 * S32x10240.partSize 0 32 1 ≤ (j 1).val ∧ (j 1).val < S32x10240.partIx 0 r.val 1 * S32x10240.partSize 0 32 1 + S32x10240.partSize 0 32 1
      rw [e1, e2]; omega

/-! ## Row numbers as (SparseCore, tile) pairs -/

/-- Row 2 i + c belongs to tile i of SparseCore c: a bijection of the pairs with the 32 rows. -/
def rowEquiv : Fin 2 × Fin 16 ≃ Fin 32 where
  toFun p := rowOf p.1 p.2
  invFun r := (⟨r.val % 2, Nat.mod_lt _ (by decide)⟩, ⟨r.val / 2, by have := r.isLt; omega⟩)
  left_inv p := by
    rcases p with ⟨c, i⟩
    have hc := c.isLt; have hi := i.isLt
    refine Prod.ext (Fin.ext ?_) (Fin.ext ?_)
    · show (2 * i.val + c.val) % 2 = c.val; omega
    · show (2 * i.val + c.val) / 2 = i.val; omega
  right_inv r := Fin.ext (by show 2 * (r.val / 2) + r.val % 2 = r.val; omega)

omit [FloatOps F] in
/-- Something held per row, regrouped per SparseCore and tile. -/
theorem bigSep_rows (Φ : Fin 32 → sProp 𝕄) :
    bigSep Finset.univ Φ = bigSep Finset.univ fun c : Fin 2 => bigSep Finset.univ fun i : Fin 16 => Φ (rowOf c i) := by
  rw [bigSep_univ_equiv rowEquiv Φ, bigSep_univ_prod]
  rfl

/-! ## A partial-flow array as its 32 rows -/

omit [FloatOps F] in
theorem pp_rows (d : Dev nD) (f : Buf (Elt F) (ppLoc d)) :
    (ppLoc d ↦{fullShare} f : sProp 𝕄) = bigSep Finset.univ fun r : Fin 32 => ppLoc d ↦[prowSet r]{fullShare} f := by
  rw [← pointsTo_biUnion Finset.univ (ℓ := ppLoc d) prowSet prows_disjoint, prows_cover]; try rfl
omit [FloatOps F] in
theorem qp_rows (d : Dev nD) (f : Buf (Elt F) (qpLoc d)) :
    (qpLoc d ↦{fullShare} f : sProp 𝕄) = bigSep Finset.univ fun r : Fin 32 => qpLoc d ↦[prowSet r]{fullShare} f := by
  rw [← pointsTo_biUnion Finset.univ (ℓ := qpLoc d) prowSet prows_disjoint, prows_cover]; try rfl

omit [FloatOps F] in
theorem pts_exists (ℓ : Loc nD τ sig) (I : Finset (Idx ℓ)) (f : Buf (Elt F) ℓ) :
    (ℓ ↦[I]{fullShare} f : sProp 𝕄) ⊢ iprop(∃ f', ℓ ↦[I]{fullShare} f') := by
  iintro H; iexists f; iexact H

omit [FloatOps F] in
/-- The whole array, whatever it holds, dealt as sixteen rows to each SparseCore. -/
theorem pp_whole_to_rows (d : Dev nD) (f : Buf (Elt F) (ppLoc d)) :
    (ppLoc d ↦{fullShare} f : sProp 𝕄) ⊢ bigSep Finset.univ fun c : Fin 2 => bigSep Finset.univ fun i : Fin 16 =>
      iprop(∃ f', ppLoc d ↦[prowSet (rowOf c i)]{fullShare} f') := by
  rw [pp_rows, bigSep_rows]
  exact bigSep_mono fun c _ => bigSep_mono fun i _ => pts_exists _ _ f
omit [FloatOps F] in
theorem qp_whole_to_rows (d : Dev nD) (f : Buf (Elt F) (qpLoc d)) :
    (qpLoc d ↦{fullShare} f : sProp 𝕄) ⊢ bigSep Finset.univ fun c : Fin 2 => bigSep Finset.univ fun i : Fin 16 =>
      iprop(∃ f', qpLoc d ↦[prowSet (rowOf c i)]{fullShare} f') := by
  rw [qp_rows, bigSep_rows]
  exact bigSep_mono fun c _ => bigSep_mono fun i _ => pts_exists _ _ f

/-! ## Rows at the accumulators join to the whole array -/

/-- The array whose row r is the vector A r. -/
def ofRows (A : Fin 32 → FVec F S10240 .f32) : FVec F S32x10240 .f32 :=
  fun j => A ⟨(j 0).val, (j 0).isLt⟩ (Spec.nd ⟨(j 1).val, (j 1).isLt⟩)

omit [FloatOps F] in
/-- A function whose row r holds a agrees on row r with any array of rows whose row r is a. -/
theorem RowIs.eq_ofRows {f : FVec F S32x10240 .f32} {r : Fin 32} {A : Fin 32 → FVec F S10240 .f32} (h : RowIs f r (A r)) :
    ∀ j ∈ prowSet r, f j = ofRows A j := by
  intro j hj
  have hr : (j 0).val = r.val := mem_prowSet.mp hj
  have hjr : (⟨(j 0).val, (j 0).isLt⟩ : Fin 32) = r := Fin.ext hr
  have e : j = (fun | 0 => ⟨r.val, r.isLt⟩ | 1 => ⟨(j 1).val, (j 1).isLt⟩ | ⟨_ + 2, h⟩ => absurd h (Nat.not_lt.2 (Nat.le_add_left _ _)) : S32x10240.Idx) := by
    funext a
    match a with
    | ⟨0, _⟩ => exact Fin.ext hr
    | ⟨1, _⟩ => rfl
  have h1 := h ⟨(j 1).val, (j 1).isLt⟩
  unfold ofRows
  rw [hjr, ← h1]
  exact congrArg f e

omit [FloatOps F] in
/-- One row held at a function whose row r is A r is that row of the array of rows. -/
theorem pp_row_at (d : Dev nD) (A : Fin 32 → FVec F S10240 .f32) (r : Fin 32) :
    iprop(∃ f', ⌜RowIs f' r (A r)⌝ ∗ ppLoc d ↦[prowSet r]{fullShare} f') ⊢ (ppLoc d ↦[prowSet r]{fullShare} ofRows A : sProp 𝕄) := by
  iintro ⟨%f', %h, H⟩
  have e : (ppLoc d ↦[prowSet r]{fullShare} f' : sProp 𝕄) = ppLoc d ↦[prowSet r]{fullShare} ofRows A :=
    pointsTo_congr (RowIs.eq_ofRows h)
  rw [← e]
  iexact H
omit [FloatOps F] in
theorem qp_row_at (d : Dev nD) (A : Fin 32 → FVec F S10240 .f32) (r : Fin 32) :
    iprop(∃ f', ⌜RowIs f' r (A r)⌝ ∗ qpLoc d ↦[prowSet r]{fullShare} f') ⊢ (qpLoc d ↦[prowSet r]{fullShare} ofRows A : sProp 𝕄) := by
  iintro ⟨%f', %h, H⟩
  have e : (qpLoc d ↦[prowSet r]{fullShare} f' : sProp 𝕄) = qpLoc d ↦[prowSet r]{fullShare} ofRows A :=
    pointsTo_congr (RowIs.eq_ofRows h)
  rw [← e]
  iexact H

omit [FloatOps F] in
/-- The two SparseCores' rows, each at its tile's accumulator, are the whole array at the array of the accumulators. -/
theorem pp_rows_to_whole (d : Dev nD) (A : Fin 32 → FVec F S10240 .f32) :
    (bigSep Finset.univ fun c : Fin 2 => bigSep Finset.univ fun i : Fin 16 =>
      iprop(∃ f', ⌜RowIs f' (rowOf c i) (A (rowOf c i))⌝ ∗ ppLoc d ↦[prowSet (rowOf c i)]{fullShare} f'))
      ⊢ (ppLoc d ↦{fullShare} ofRows A : sProp 𝕄) := by
  rw [pp_rows]
  refine (Entails.of_eq (bigSep_rows (F := F) fun r : Fin 32 =>
    iprop(∃ f', ⌜RowIs f' r (A r)⌝ ∗ ppLoc d ↦[prowSet r]{fullShare} f')).symm).trans ?_
  exact bigSep_mono fun r _ => pp_row_at d A r
omit [FloatOps F] in
theorem qp_rows_to_whole (d : Dev nD) (A : Fin 32 → FVec F S10240 .f32) :
    (bigSep Finset.univ fun c : Fin 2 => bigSep Finset.univ fun i : Fin 16 =>
      iprop(∃ f', ⌜RowIs f' (rowOf c i) (A (rowOf c i))⌝ ∗ qpLoc d ↦[prowSet (rowOf c i)]{fullShare} f'))
      ⊢ (qpLoc d ↦{fullShare} ofRows A : sProp 𝕄) := by
  rw [qp_rows]
  refine (Entails.of_eq (bigSep_rows (F := F) fun r : Fin 32 =>
    iprop(∃ f', ⌜RowIs f' r (A r)⌝ ∗ qpLoc d ↦[prowSet r]{fullShare} f')).symm).trans ?_
  exact bigSep_mono fun r _ => qp_row_at d A r

/-- The array of the tiles' active-flow accumulators is the specification's first partial-flow array … -/
theorem partsOf_fst_eq (d : Dev nD) :
    ofRows (fun r => (accOf m d r).1) = (Spec.partsOf (nfA m d) (eiA m d) (prA m d) (paA m d)).1 := by
  unfold Spec.partsOf ofRows
  rfl
/-- … and the reactive-flow accumulators' the second. -/
theorem partsOf_snd_eq (d : Dev nD) :
    ofRows (fun r => (accOf m d r).2) = (Spec.partsOf (nfA m d) (eiA m d) (prA m d) (paA m d)).2 := by
  unfold Spec.partsOf ofRows
  rfl

/-! ## The full share of the read-only arrays: one share per SparseCore and a rest -/

omit [FloatOps F] in
theorem share_cores_split (ℓ : Loc nD τ sig) (f : Buf (Elt F) ℓ) :
    (ℓ ↦{fullShare} f : sProp 𝕄) ⊢ iprop((ℓ ↦{Transfers.shareDrop fullShare 2} f) ∗ (ℓ ↦{shC 0} f) ∗ (ℓ ↦{shC 1} f)) := by
  have h : (ℓ ↦{fullShare} f : sProp 𝕄) ⊢ iprop((ℓ ↦{Transfers.shareDrop fullShare 2} f)
      ∗ bigSep Finset.univ fun c : Fin 2 => ℓ ↦{shC c} f) := Transfers.pointsTo_toks_split fullShare 2
  rw [bigSep_fin_two] at h
  exact h
omit [FloatOps F] in
theorem share_cores_join (ℓ : Loc nD τ sig) (f : Buf (Elt F) ℓ) :
    iprop((ℓ ↦{Transfers.shareDrop fullShare 2} f) ∗ (ℓ ↦{shC 0} f) ∗ (ℓ ↦{shC 1} f)) ⊢ (ℓ ↦{fullShare} f : sProp 𝕄) := by
  have h : iprop((ℓ ↦{Transfers.shareDrop fullShare 2} f) ∗ bigSep Finset.univ fun c : Fin 2 => ℓ ↦{shC c} f)
      ⊢ (ℓ ↦{fullShare} f : sProp 𝕄) := Transfers.pointsTo_toks_join fullShare 2
  rw [bigSep_fin_two] at h
  exact h

theorem roPts_cores_of (d : Dev nD) :
    roPts m d fullShare ⊢ iprop(roPts m d (Transfers.shareDrop fullShare 2) ∗ roPts m d (shC 0) ∗ roPts m d (shC 1)) := by
  unfold roPts
  iintro ⟨H1, H2, H3, H4, H5, H6⟩
  ihave H1 := (share_cores_split (F := F) _ _) $$ H1
  ihave H2 := (share_cores_split (F := F) _ _) $$ H2
  ihave H3 := (share_cores_split (F := F) _ _) $$ H3
  ihave H4 := (share_cores_split (F := F) _ _) $$ H4
  ihave H5 := (share_cores_split (F := F) _ _) $$ H5
  ihave H6 := (share_cores_split (F := F) _ _) $$ H6
  icases H1 with ⟨R1, A1, B1⟩
  icases H2 with ⟨R2, A2, B2⟩
  icases H3 with ⟨R3, A3, B3⟩
  icases H4 with ⟨R4, A4, B4⟩
  icases H5 with ⟨R5, A5, B5⟩
  icases H6 with ⟨R6, A6, B6⟩
  isplitl [R1 R2 R3 R4 R5 R6]
  · isplitl [R1]; · iexact R1
    isplitl [R2]; · iexact R2
    isplitl [R3]; · iexact R3
    isplitl [R4]; · iexact R4
    isplitl [R5]; · iexact R5
    iexact R6
  isplitl [A1 A2 A3 A4 A5 A6]
  · isplitl [A1]; · iexact A1
    isplitl [A2]; · iexact A2
    isplitl [A3]; · iexact A3
    isplitl [A4]; · iexact A4
    isplitl [A5]; · iexact A5
    iexact A6
  · isplitl [B1]; · iexact B1
    isplitl [B2]; · iexact B2
    isplitl [B3]; · iexact B3
    isplitl [B4]; · iexact B4
    isplitl [B5]; · iexact B5
    iexact B6

theorem roPts_cores_join (d : Dev nD) :
    iprop(roPts m d (Transfers.shareDrop fullShare 2) ∗ roPts m d (shC 0) ∗ roPts m d (shC 1)) ⊢ roPts m d fullShare := by
  unfold roPts
  iintro ⟨⟨R1, R2, R3, R4, R5, R6⟩, ⟨A1, A2, A3, A4, A5, A6⟩, B1, B2, B3, B4, B5, B6⟩
  isplitl [R1 A1 B1]
  · iapply (share_cores_join (F := F) _ _); isplitl [R1]; · iexact R1
    isplitl [A1]; · iexact A1
    iexact B1
  isplitl [R2 A2 B2]
  · iapply (share_cores_join (F := F) _ _); isplitl [R2]; · iexact R2
    isplitl [A2]; · iexact A2
    iexact B2
  isplitl [R3 A3 B3]
  · iapply (share_cores_join (F := F) _ _); isplitl [R3]; · iexact R3
    isplitl [A3]; · iexact A3
    iexact B3
  isplitl [R4 A4 B4]
  · iapply (share_cores_join (F := F) _ _); isplitl [R4]; · iexact R4
    isplitl [A4]; · iexact A4
    iexact B4
  isplitl [R5 A5 B5]
  · iapply (share_cores_join (F := F) _ _); isplitl [R5]; · iexact R5
    isplitl [A5]; · iexact A5
    iexact B5
  iapply (share_cores_join (F := F) _ _); isplitl [R6]; · iexact R6
  isplitl [A6]; · iexact A6
  iexact B6

/-! ## The call's start and done payloads over the two SparseCores -/

omit [FloatOps F] in
theorem bigSep_cores (Φ : Fin 2 → sProp 𝕄) :
    (bigSep Finset.univ fun c : Fin ((K (F := F)).nCore 0) => Φ (Fin.cast nCore_zero c)) = iprop(Φ 0 ∗ Φ 1) := by
  rw [show (bigSep Finset.univ fun c : Fin ((K (F := F)).nCore 0) => Φ (Fin.cast nCore_zero c)) = bigSep Finset.univ Φ from
    bigSep_congr fun _ _ => congrArg Φ (Fin.ext rfl), bigSep_fin_two]
  rfl

theorem st0_eq (d : Dev nD) :
    (bigSep Finset.univ fun c : Fin ((K (F := F)).nCore 0) => (P m).st 0 d c) = iprop(stPay m d 0 ∗ stPay m d 1) :=
  bigSep_cores (fun c => stPay m d c)

theorem dn0_eq (d : Dev nD) :
    (bigSep Finset.univ fun c : Fin ((K (F := F)).nCore 0) => (P m).dn 0 d c) = iprop(dnPay m d 0 ∗ dnPay m d 1) :=
  bigSep_cores (fun c => dnPay m d c)

/-! ## The two partial-flow arrays after the call, as the specification names them -/

/-- The active-flow rows, each at its tile's accumulator, are the whole first array at the specification's value. -/
theorem rows_to_whole_fst (d : Dev nD) :
    (bigSep Finset.univ fun c : Fin 2 => bigSep Finset.univ fun i : Fin 16 =>
      iprop(∃ f, ⌜RowIs f (rowOf c i) (accOf m d (rowOf c i)).1⌝ ∗ ppLoc d ↦[prowSet (rowOf c i)]{fullShare} f))
      ⊢ (ppLoc d ↦{fullShare} (Spec.partsOf (nfA m d) (eiA m d) (prA m d) (paA m d)).1 : sProp 𝕄) := by
  have h := pp_rows_to_whole (F := F) d fun r => (accOf m d r).1
  rw [partsOf_fst_eq m d] at h
  exact h

/-- The reactive-flow rows likewise are the whole second array. -/
theorem rows_to_whole_snd (d : Dev nD) :
    (bigSep Finset.univ fun c : Fin 2 => bigSep Finset.univ fun i : Fin 16 =>
      iprop(∃ f, ⌜RowIs f (rowOf c i) (accOf m d (rowOf c i)).2⌝ ∗ qpLoc d ↦[prowSet (rowOf c i)]{fullShare} f))
      ⊢ (qpLoc d ↦{fullShare} (Spec.partsOf (nfA m d) (eiA m d) (prA m d) (paA m d)).2 : sProp 𝕄) := by
  have h := qp_rows_to_whole (F := F) d fun r => (accOf m d r).2
  rw [partsOf_snd_eq m d] at h
  exact h

end Cert.Proof.KI

end
-- ==== Proof.KI.MainTc.lean ====
/-
  @main on the TensorCore: the eight host slices, the preparation call, the SparseCore call (the six
  read-only arrays dealt to the two SparseCores as read shares, the two partial-flow arrays row by row,
  and gathered back at the tiles' accumulators), the loss call, the last reshape. What is left: the
  four arguments as launched and the result at the loss of the four arguments.
-/
import proofs.«213808_g38010460570139_cont_8to1_b_868_22_alg».proof.Proof.KI.Split
import proofs.«213808_g38010460570139_cont_8to1_b_868_22_alg».proof.Proof.KI.Hosts
import proofs.«213808_g38010460570139_cont_8to1_b_868_22_alg».proof.Proof.KI.Rows
import proofs.«213808_g38010460570139_cont_8to1_b_868_22_alg».proof.Proof.KI.Finish

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays, one by one -/

/-- The arrays' references as device references, in order. -/
abbrev dAll : List (DevRef τ sig) := rAll.map fun b => Proc.devRef .tc b

/-- The `held` set at a valuation, array by array. -/
theorem held_SAll (d : Dev nD) (W : Valuation τ sig (Elt F)) :
    (held (T d) SAll W : sProp 𝕄)
      = iprop((nfLoc d ↦{fullShare} W (Proc.devRef .tc main_arg0)) ∗ (eiLoc d ↦{fullShare} W (Proc.devRef .tc main_arg1))
          ∗ (prLoc d ↦{fullShare} W (Proc.devRef .tc main_arg2)) ∗ (paLoc d ↦{fullShare} W (Proc.devRef .tc main_arg3))
          ∗ ((SparseCore.T d).loc main_v0 ↦{fullShare} W (Proc.devRef .tc main_v0)) ∗ (srcLoc d ↦{fullShare} W (Proc.devRef .tc main_v1))
          ∗ ((SparseCore.T d).loc main_v2 ↦{fullShare} W (Proc.devRef .tc main_v2)) ∗ (dstLoc d ↦{fullShare} W (Proc.devRef .tc main_v3))
          ∗ ((SparseCore.T d).loc main_v4 ↦{fullShare} W (Proc.devRef .tc main_v4)) ∗ (gLoc d ↦{fullShare} W (Proc.devRef .tc main_v5))
          ∗ ((SparseCore.T d).loc main_v6 ↦{fullShare} W (Proc.devRef .tc main_v6)) ∗ (bLoc d ↦{fullShare} W (Proc.devRef .tc main_v7))
          ∗ (v2Loc d ↦{fullShare} W (Proc.devRef .tc main_v8_0)) ∗ (plLoc d ↦{fullShare} W (Proc.devRef .tc main_v8_1))
          ∗ (qlLoc d ↦{fullShare} W (Proc.devRef .tc main_v8_2)) ∗ (ppLoc d ↦{fullShare} W (Proc.devRef .tc main_v9_0))
          ∗ (qpLoc d ↦{fullShare} W (Proc.devRef .tc main_v9_1)) ∗ (outLoc d ↦{fullShare} W (Proc.devRef .tc main_v10))
          ∗ (resLoc d ↦{fullShare} W (Proc.devRef .tc main_v11))) := by
  unfold held
  exact bigSep_eq_bigSepL dAll (by decide) _

omit [FloatOps F] in
/-- The unscoped arrays as the launch deals them are the `held` set at the launch valuation. -/
theorem unscoped_held (d : Dev nD) :
    (unscopedBufs d (fun b => m ((SparseCore.T d).loc b)) : sProp 𝕄) = held (T d) SAll (V0 m d) := by
  unfold unscopedBufs held
  rw [bigSep_eq_bigSepL_of_eq rAll (by decide) (by decide), bigSep_eq_bigSepL dAll (by decide)]
  rfl

/-- The arrays after the eight host operations: the arguments as launched, the four edge arrays at their slices. -/
theorem held_V8 (d : Dev nD) :
    (held (T d) SAll (after (ops8 (F := F)) (V0 m d)) : sProp 𝕄)
      = iprop((nfLoc d ↦{fullShare} m (nfLoc d)) ∗ (eiLoc d ↦{fullShare} m (eiLoc d))
          ∗ (prLoc d ↦{fullShare} m (prLoc d)) ∗ (paLoc d ↦{fullShare} m (paLoc d))
          ∗ ((SparseCore.T d).loc main_v0 ↦{fullShare} V8 m d (Proc.devRef .tc main_v0)) ∗ (srcLoc d ↦{fullShare} srcA m d)
          ∗ ((SparseCore.T d).loc main_v2 ↦{fullShare} V8 m d (Proc.devRef .tc main_v2)) ∗ (dstLoc d ↦{fullShare} dstA m d)
          ∗ ((SparseCore.T d).loc main_v4 ↦{fullShare} V8 m d (Proc.devRef .tc main_v4)) ∗ (gLoc d ↦{fullShare} gA m d)
          ∗ ((SparseCore.T d).loc main_v6 ↦{fullShare} V8 m d (Proc.devRef .tc main_v6)) ∗ (bLoc d ↦{fullShare} bA m d)
          ∗ (v2Loc d ↦{fullShare} V8 m d (Proc.devRef .tc main_v8_0)) ∗ (plLoc d ↦{fullShare} V8 m d (Proc.devRef .tc main_v8_1))
          ∗ (qlLoc d ↦{fullShare} V8 m d (Proc.devRef .tc main_v8_2)) ∗ (ppLoc d ↦{fullShare} V8 m d (Proc.devRef .tc main_v9_0))
          ∗ (qpLoc d ↦{fullShare} V8 m d (Proc.devRef .tc main_v9_1)) ∗ (outLoc d ↦{fullShare} V8 m d (Proc.devRef .tc main_v10))
          ∗ (resLoc d ↦{fullShare} V8 m d (Proc.devRef .tc main_v11))) := by
  rw [show after (ops8 (F := F)) (V0 m d) = V8 m d from rfl, held_SAll, V8_arg0, V8_arg1, V8_arg2, V8_arg3, V8_src, V8_dst, V8_g, V8_b]

/-- A conjunction over the two SparseCores, one by one. -/
theorem fin2_split (Φ : Fin 2 → sProp 𝕄) : bigSep Finset.univ Φ ⊢ iprop(Φ 0 ∗ Φ 1) := Entails.of_eq (bigSep_fin_two Φ)
theorem fin2_join (Φ : Fin 2 → sProp 𝕄) : iprop(Φ 0 ∗ Φ 1) ⊢ bigSep Finset.univ Φ := Entails.of_eq (bigSep_fin_two Φ).symm

/-! ## The last reshape -/

abbrev opRes : HloOp τ sig (Elt F) := StableHlo.reshape main_v10 main_v11 rfl shapeCasts_S1x1_S_
abbrev S2 : Finset (DevRef τ sig) := {Proc.devRef .tc main_v10, Proc.devRef .tc main_v11}

/-- The valuation the last reshape runs at: the launch's, with the loss call's result in place. -/
def VL (d : Dev nD) : Valuation τ sig (Elt F) := Function.update (V0 m d) (Proc.devRef .tc main_v10) (lossBuf m d)

omit [FloatOps F] in
theorem held_S2 (d : Dev nD) (W : Valuation τ sig (Elt F)) :
    (held (T d) S2 W : sProp 𝕄) = iprop((outLoc d ↦{fullShare} W (Proc.devRef .tc main_v10)) ∗ resLoc d ↦{fullShare} W (Proc.devRef .tc main_v11)) := by
  unfold held S2
  rw [SparseCore.bigSep_insert' (by decide), bigSep_singleton]

theorem VL_out (d : Dev nD) : VL m d (Proc.devRef .tc main_v10) = lossBuf m d := Function.update_self _ _ _

theorem opRes_res (d : Dev nD) : (opRes (F := F)).result (VL m d) (Proc.devRef .tc main_v11) = resOf m d := by
  rw [StableHlo.reshape_result', VL_out]
  rfl

theorem hRes : (opRes (F := F)).bufs ⊆ S2 := by rw [StableHlo.reshape_bufs]

/-! ## @main -/

/-- @main on device `d`'s TensorCore, given the two TensorCore calls' regions: `Gh p d` is what the launch deals for
    pipeline `p`, `Gh' p d` what its region leaves of it. -/
theorem hmain_of (Gh Gh' : Fin 2 → Dev nD → sProp 𝕄)
    (hprep : ∀ (κ : GSem nD τ sig → ℕ) (d : Dev nD) (Φ : PUnit → sProp 𝕄) (f1 f2 f3 : FVec F S10240 .f32),
      iprop((K (F := F)).ctx EH (P m) κ ∗ (K (F := F)).tcSt EH d 0 ∗ boundary (T d) ∗ Gh 0 d
          ∗ (nfLoc d ↦{fullShare} m (nfLoc d)) ∗ (v2Loc d ↦{fullShare} f1) ∗ (plLoc d ↦{fullShare} f2) ∗ (qlLoc d ↦{fullShare} f3)
          ∗ (((K (F := F)).tcSt EH d 0 ∗ boundary (T d) ∗ Gh' 0 d
              ∗ (nfLoc d ↦{fullShare} m (nfLoc d)) ∗ (v2Loc d ↦{fullShare} tabA m d)
              ∗ (plLoc d ↦{fullShare} Spec.prepPl (nfA m d)) ∗ (qlLoc d ↦{fullShare} Spec.prepQl (nfA m d))) -∗ Φ ⟨⟩))
        ⊢ wp frame (wpE ((K (F := F)).defs (D (F := F))) 𝒱 (SparseCore.T d) none) Set.univ
            (Prog.lift (.customCall (SparseCore.inner (Pipeline.entry 0)) ())) Φ)
    (hloss : ∀ (κ : GSem nD τ sig → ℕ) (d : Dev nD) (Φ : PUnit → sProp 𝕄) (Pv Qv : FVec F S32x10240 .f32) (tv pv qv : FVec F S10240 .f32) (fo : Vec F S1x1 .f32),
      iprop((K (F := F)).ctx EH (P m) κ ∗ (K (F := F)).tcSt EH d 1 ∗ boundary (T d) ∗ Gh 1 d
          ∗ (ppLoc d ↦{fullShare} Pv) ∗ (qpLoc d ↦{fullShare} Qv) ∗ (v2Loc d ↦{fullShare} tv) ∗ (plLoc d ↦{fullShare} pv) ∗ (qlLoc d ↦{fullShare} qv)
          ∗ (outLoc d ↦{fullShare} fo)
          ∗ (((K (F := F)).tcSt EH d 1 ∗ boundary (T d) ∗ Gh' 1 d
              ∗ (ppLoc d ↦{fullShare} Pv) ∗ (qpLoc d ↦{fullShare} Qv) ∗ (v2Loc d ↦{fullShare} tv) ∗ (plLoc d ↦{fullShare} pv) ∗ (qlLoc d ↦{fullShare} qv)
              ∗ (outLoc d ↦{fullShare} (fun _ => k2_pay1 Pv Qv tv pv qv : Vec F S1x1 .f32))) -∗ Φ ⟨⟩))
        ⊢ wp frame (wpE ((K (F := F)).defs (D (F := F))) 𝒱 (SparseCore.T d) none) Set.univ
            (Prog.lift (.customCall (SparseCore.inner (Pipeline.entry 1)) ())) Φ)
    (κ : GSem nD τ sig → ℕ) (d : Dev nD) :
    iprop((K (F := F)).ctx EH (P m) κ ∗ (K (F := F)).tcSt EH d 0 ∗ (K (F := F)).tcRes m ρ d ∗ (Gh 0 d ∗ Gh 1 d))
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, ⟨Hg0, Hg1⟩⟩
  -- the eight host slices and reshapes
  iapply (wp_seq 𝒱 (bd := none) (E := Set.univ) d SAll (fun _ => mainRest d) (ops8 (F := F)) ops8_bufs ops8_fresh (V0 m d)) $$ [Hb Hheld]
  · isplitl [Hb] <;> iassumption
  iintro ⟨Hb, Hheld⟩
  ihave Hh := (Entails.of_eq (held_V8 (F := F) m d)) $$ Hheld
  icases Hh with ⟨Hnf, Hei, Hpr, Hpa, -, Hsrc, -, Hdst, -, Hg, -, Hbb, Hv2, Hpl, Hql, Hpp, Hqp, Hout, Hres⟩
  unfold mainRest
  simp only [wp_bind, wp_pure]
  -- the preparation call
  iapply (hprep κ d _ _ _ _) $$ [Hst Hb Hg0 Hnf Hv2 Hpl Hql Hei Hpr Hpa Hsrc Hdst Hg Hbb Hpp Hqp Hout Hres Hg1]
  isplitr; · iexact Hctx
  isplitl [Hst]; · iexact Hst
  isplitl [Hb]; · iexact Hb
  isplitl [Hg0]; · iexact Hg0
  isplitl [Hnf]; · iexact Hnf
  isplitl [Hv2]; · iexact Hv2
  isplitl [Hpl]; · iexact Hpl
  isplitl [Hql]; · iexact Hql
  iintro ⟨Hst, Hb, -, Hnf, Hv2, Hpl, Hql⟩
  -- the SparseCore call: shares out, rows out; shares back, rows back at the accumulators
  ihave Hro := (roPts_cores_of m d) $$ [Hv2 Hsrc Hdst Hpr Hg Hbb]
  · unfold roPts
    isplitl [Hv2]; · iexact Hv2
    isplitl [Hsrc]; · iexact Hsrc
    isplitl [Hdst]; · iexact Hdst
    isplitl [Hpr]; · iexact Hpr
    isplitl [Hg]; · iexact Hg
    iexact Hbb
  icases Hro with ⟨Hrest, Hro0, Hro1⟩
  ihave Hpp' := ((pp_whole_to_rows (F := F) d _).trans (fin2_split _)) $$ Hpp
  ihave Hqp' := ((qp_whole_to_rows (F := F) d _).trans (fin2_split _)) $$ Hqp
  icases Hpp' with ⟨Hpp0, Hpp1⟩
  icases Hqp' with ⟨Hqp0, Hqp1⟩
  iapply ((K (F := F)).wp_run (D (F := F)) 𝒱 (EH := EH) (P := P m) κ d 0) $$ [Hst Hro0 Hro1 Hpp0 Hpp1 Hqp0 Hqp1 Hb Hnf Hpl Hql Hei Hpa Hout Hres Hg1 Hrest]
  isplitr; · iexact Hctx
  isplitl [Hst]; · iexact Hst
  isplitl [Hro0 Hro1 Hpp0 Hpp1 Hqp0 Hqp1]
  · rw [st0_eq]; unfold stPay
    isplitl [Hro0 Hpp0 Hqp0]
    · isplitl [Hro0]; · iexact Hro0
      isplitl [Hpp0]; · iexact Hpp0
      iexact Hqp0
    · isplitl [Hro1]; · iexact Hro1
      isplitl [Hpp1]; · iexact Hpp1
      iexact Hqp1
  iintro ⟨Hst, Hdn⟩
  ihave Hdn' := (Entails.of_eq (dn0_eq m d)) $$ Hdn
  unfold dnPay
  icases Hdn' with ⟨⟨Hro0, Hpp0, Hqp0⟩, ⟨Hro1, Hpp1, Hqp1⟩⟩
  ihave Hro := (roPts_cores_join m d) $$ [Hrest Hro0 Hro1]
  · isplitl [Hrest]; · iexact Hrest
    isplitl [Hro0] <;> iassumption
  unfold roPts
  icases Hro with ⟨Hv2, Hsrc, Hdst, Hpr, Hg, Hbb⟩
  ihave Hpp := ((fin2_join _).trans (rows_to_whole_fst m d)) $$ [Hpp0 Hpp1]
  · isplitl [Hpp0] <;> iassumption
  ihave Hqp := ((fin2_join _).trans (rows_to_whole_snd m d)) $$ [Hqp0 Hqp1]
  · isplitl [Hqp0] <;> iassumption
  -- the loss call
  iapply (hloss κ d _ _ _ _ _ _ _) $$ [Hst Hb Hg1 Hpp Hqp Hv2 Hpl Hql Hout Hnf Hei Hpr Hpa Hres]
  isplitr; · iexact Hctx
  isplitl [Hst]; · iexact Hst
  isplitl [Hb]; · iexact Hb
  isplitl [Hg1]; · iexact Hg1
  isplitl [Hpp]; · iexact Hpp
  isplitl [Hqp]; · iexact Hqp
  isplitl [Hv2]; · iexact Hv2
  isplitl [Hpl]; · iexact Hpl
  isplitl [Hql]; · iexact Hql
  isplitl [Hout]; · iexact Hout
  iintro ⟨Hst, Hb, -, -, -, -, -, -, Hout⟩
  -- the last reshape
  iapply (wp_hlo_within 𝒱 (SparseCore.T d) none Set.univ (op := opRes) (S := S2) hRes (V := VL m d)) $$ [Hb Hout Hres]
  · isplitl [Hb]; · iexact Hb
    rw [held_S2, VL_out]
    isplitl [Hout]
    · iexact Hout
    · iexact Hres
  iintro ⟨Hb, Hheld⟩
  ihave Hh := (Entails.of_eq (held_S2 (F := F) d _)) $$ Hheld
  rw [opRes_res]
  icases Hh with ⟨-, Hres⟩
  rw [wp_ret]; imodintro; imodintro
  isplitl [Hst]; · iexact Hst
  isplitl [Hnf]; · iexact Hnf
  isplitl [Hei]; · iexact Hei
  isplitl [Hpr]; · iexact Hpr
  isplitl [Hpa]; · iexact Hpa
  iexact Hres

end Cert.Proof.KI

end
-- ==== Proof.KI.PrepBody.lean ====
/-
  The preparation call's body on its staging buffers.

  The body loads the staged node features whole, forms the four selected columns by one matrix product
  with a 4 x 128 selection matrix, and writes each of its three results in two steps: the whole staging
  buffer is first overwritten with zeros, then its first 10000 entries with the computed vector. What a
  result's buffer holds afterwards is therefore the computed vector padded with zeros to 10240 entries
  (`Spec.padTo`), whatever the buffer held before.
-/
import proofs.«213808_g38010460570139_cont_8to1_b_868_22_alg».proof.Proof.KI.Spec
import Idealize.ShloMosaic.Lib.SparseCore.Launch
import Idealize.ShloMosaic.Lib.Pipeline.Kit
import Idealize.ShloMosaic.Lib.WritesUnit
import Idealize.ShloMosaic.Lib.Tactic

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U]

local notation "𝕄" => MT nD τ sig (HIx 1) (Elt F) ℕ U ℕ

/-! ## The value the two stores leave -/

theorem prep_off2_zero : (![0, 0] : Fin 2 → Nat) = fun _ => 0 := funext fun a => by fin_cases a <;> rfl

/-- The load of the whole staged input reads the staged input. -/
theorem prep_ld_staged (nf : Vec F S10000x128 .f32) :
    View.readAt (Elt F) (Memref.whole cc0_stg0_0).view
      (Rect.unit ![0, 0] S10000x128.size inb_S10000x128_S10000x128_0_0).toLoadRect nf = nf :=
  Memref.readAt_unit_zero (Elt F) cc0_stg0_0 prep_off2_zero _ nf

/-- Zeros stored over all 10240 entries, then `w` over the first 10000: entry `n` reads `w n` below 10000
    and zero from there on, whatever was there before. -/
theorem prep_read_writes_pad {κ : Kind} {sp : Space} (v : View sig κ sp S10240 .f32) (f : v.ty.Contents (Elt F)) (w : FVec F S10000 .f32) :
    v.read (Elt F) (v.writes (Elt F) f
        [⟨Rect.unit ![0] S10000.size inb_S10240_S10000_0, w⟩, ⟨Rect.unit ![0] S10240.size inb_S10240_S10240_0, k0_pay2 (F := F)⟩])
      = Spec.padTo w := by
  funext y
  rw [View.read_writes_cons_unit v f inb_S10240_S10000_0 w _ y rfl]
  unfold Spec.padTo
  by_cases h : (y 0).val < 10000
  · have h' : ∀ a, (![0] : Fin 1 → ℕ) a ≤ (y a).val ∧ (y a).val < (![0] : Fin 1 → ℕ) a + S10000.size a := fun a => by
      fin_cases a; exact ⟨Nat.zero_le _, by show (y 0).val < 0 + 10000; omega⟩
    rw [dif_pos h', dif_pos h]
    exact congrArg w (funext fun a => Fin.ext (by fin_cases a; show (y 0).val - 0 = (y 0).val; omega))
  · have h' : ¬ ∀ a, (![0] : Fin 1 → ℕ) a ≤ (y a).val ∧ (y a).val < (![0] : Fin 1 → ℕ) a + S10000.size a := fun hh => h (by
      have := (hh 0).2; have e : (y 0).val < 0 + 10000 := this; omega)
    rw [dif_neg h', dif_neg h]
    rw [View.read_writes_cons_unit_of_mem v f inb_S10240_S10240_0 (k0_pay2 (F := F)) [] y y rfl
      (fun a => by fin_cases a; show (y 0).val = 0 + (y 0).val; omega)]
    rfl

/-- A staging buffer held whole at `f`, spelt through its memref as the body's loads and stores name it. -/
abbrev prepPtM (d : Dev nD) {sp : Space} {S : Shape} {e : EltTy} (M : Memref sig .tc sp S e)
    (f : Buf (Elt F) (M.view.loc (SparseCore.T d : Thread nD τ))) : sProp 𝕄 :=
  M.view.loc (SparseCore.T d : Thread nD τ) ↦{fullShare} f

theorem prep_stg1_eq (nf : Vec F S10000x128 .f32) :
    (Memref.whole cc0_stg1_0).view.writes (Elt F) (Memref.whole cc0_stg1_0).view.junk
      [⟨Rect.unit ![0] S10000.size inb_S10240_S10000_0,
          k0_pay3 (View.readAt (Elt F) (Memref.whole cc0_stg0_0).view
            (Rect.unit ![0, 0] S10000x128.size inb_S10000x128_S10000x128_0_0).toLoadRect nf)⟩,
        ⟨Rect.unit ![0] S10240.size inb_S10240_S10240_0, k0_pay2 (F := F)⟩]
      = Spec.prepV2 nf := by
  rw [prep_ld_staged]
  have e := prep_read_writes_pad (F := F) (View.whole cc0_stg1_0) (View.whole cc0_stg1_0).junk (k0_pay3 nf)
  rw [View.read_whole] at e
  unfold Spec.prepV2
  exact e

theorem prep_stg2_eq (nf : Vec F S10000x128 .f32) :
    (Memref.whole cc0_stg2_0).view.writes (Elt F) (Memref.whole cc0_stg2_0).view.junk
      [⟨Rect.unit ![0] S10000.size inb_S10240_S10000_0,
          k0_pay4 (View.readAt (Elt F) (Memref.whole cc0_stg0_0).view
            (Rect.unit ![0, 0] S10000x128.size inb_S10000x128_S10000x128_0_0).toLoadRect nf)⟩,
        ⟨Rect.unit ![0] S10240.size inb_S10240_S10240_0, k0_pay2 (F := F)⟩]
      = Spec.prepPl nf := by
  rw [prep_ld_staged]
  have e := prep_read_writes_pad (F := F) (View.whole cc0_stg2_0) (View.whole cc0_stg2_0).junk (k0_pay4 nf)
  rw [View.read_whole] at e
  unfold Spec.prepPl
  exact e

theorem prep_stg3_eq (nf : Vec F S10000x128 .f32) :
    (Memref.whole cc0_stg3_0).view.writes (Elt F) (Memref.whole cc0_stg3_0).view.junk
      [⟨Rect.unit ![0] S10000.size inb_S10240_S10000_0,
          k0_pay5 (View.readAt (Elt F) (Memref.whole cc0_stg0_0).view
            (Rect.unit ![0, 0] S10000x128.size inb_S10000x128_S10000x128_0_0).toLoadRect nf)⟩,
        ⟨Rect.unit ![0] S10240.size inb_S10240_S10240_0, k0_pay2 (F := F)⟩]
      = Spec.prepQl nf := by
  rw [prep_ld_staged]
  have e := prep_read_writes_pad (F := F) (View.whole cc0_stg3_0) (View.whole cc0_stg3_0).junk (k0_pay5 nf)
  rw [View.read_whole] at e
  unfold Spec.prepQl
  exact e

/-! ## The body's run -/

/-- The body on the four staging buffers, the input's at `nf`, the results' at anything: it leaves the input's as it
    was and the results' at the squared voltage magnitudes, the active loads and the reactive loads of `nf`, padded. -/
theorem prep_body (d : Dev nD) (nf : Vec F S10000x128 .f32) (f1 f2 f3 : FVec F S10240 .f32) (Q : PUnit → sProp 𝕄) :
    iprop(prepPtM d (Memref.whole cc0_stg0_0) nf ∗ prepPtM d (Memref.whole cc0_stg1_0) f1 ∗ prepPtM d (Memref.whole cc0_stg2_0) f2
        ∗ prepPtM d (Memref.whole cc0_stg3_0) f3
        ∗ (iprop(prepPtM d (Memref.whole cc0_stg0_0) nf ∗ prepPtM d (Memref.whole cc0_stg1_0) (Spec.prepV2 nf)
            ∗ prepPtM d (Memref.whole cc0_stg2_0) (Spec.prepPl nf) ∗ prepPtM d (Memref.whole cc0_stg3_0) (Spec.prepQl nf)) -∗ Q ⟨⟩))
      ⊢ wp frame (wpE (defs₀ (F := F)) Variants.none (SparseCore.T d) none) Set.univ
          (cc0__prep_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)) Q := by
  iintro ⟨H0, H1, H2, H3, Hk⟩
  simp only [cc0__prep_body_eq_skeleton]; unfold cc0__prep_body_skel
  sl_exec!
  sl_step
  sl_unfold_run_names
  rw [prep_stg1_eq nf, prep_stg2_eq nf, prep_stg3_eq nf]
  iapply Hk
  isplitl [H0]; · iexact H0
  isplitl [H1]; · iexact H1
  isplitl [H2]; · iexact H2
  iexact H3

end Cert.Proof.KI

end
-- ==== Proof.KI.PrepRegion.lean ====
/-
  The preparation call as a region of @main on the TensorCore.

  The region is the library's pipeline over four whole-array windows and one grid point: the node
  features are fetched whole into their staging buffer, the body runs once, and the three results
  are written back whole. Its proof data name the arrays' contents at entry (the features, and
  whatever the three result arrays held), what the body leaves in the staging buffers (`prep_body`)
  and hence what the write-backs leave in the result arrays: the squared voltage magnitudes, the
  active and the reactive loads of the features, each padded with zeros. The TensorCore owes its
  handshake units throughout; the region's own waits sit at the index that carries no such unit.
-/
import proofs.«213808_g38010460570139_cont_8to1_b_868_22_alg».proof.Proof.KI.PrepBody
import proofs.«213808_g38010460570139_cont_8to1_b_868_22_alg».proof.Proof.KI.Common
import proofs.«213808_g38010460570139_cont_8to1_b_868_22_alg».proof.Proof.Gen.KernelIdeal.Launch
import proofs.«213808_g38010460570139_cont_8to1_b_868_22_alg».proof.Proof.Gen.KernelIdeal.Points
import Idealize.ShloMosaic.Lib.Pipeline.Regions

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U]

local notation "𝕄" => MT nD τ sig (HIx 1) (Elt F) ℕ U ℕ

/-- Neither pallas_call prefetches a table: the one admissible contents. -/
abbrev prepAdm : (p : Fin 2) → (pcfgs (F := F) p).Adm := fun p => (cfgs p).toPCfg_adm

variable (nf : Vec F S10000x128 .f32) (g1 g2 g3 : FVec F S10240 .f32)
  (O : CellTallies nD τ sig (HIx 1)) (W : Waits sig (HIx 1))

/-- What the fetch stages of the features: the whole array read through the window's one block. -/
abbrev prepStaged : (cfg0.win 0).block.Idx → Elt F (cfg0.win 0).elt :=
  ((cfg0.win 0).blk t0_0).view.read (Elt F) nf

/-- The block is the whole array: the fetch stages the features themselves. -/
theorem prepStaged_eq : prepStaged nf = nf :=
  Memref.read_access_unit_zero (Elt F) main_arg0 (funext fun a => by fin_cases a <;> rfl) _ nf

/-- The region's proof data on core `c`: the features and the three result arrays at entry; after the body the
    input's staging buffer as fetched and the results' at the padded vectors; the invariant carries the scoped
    buffers the region does not stage; the core owes `O` throughout, its recorded pairs within `W`. -/
def prepDat (c : Dev nD) : Pipeline.Dat τ (Elt F) (HIx 1) ℕ U ℕ cfg0 c where
  A := fun
    | ⟨0, _⟩ => nf
    | ⟨1, _⟩ => g1
    | ⟨2, _⟩ => g2
    | ⟨3, _⟩ => g3
    | ⟨_ + 4, h⟩ => absurd h (Nat.not_lt.2 (Nat.le_add_left _ _))
  after := fun w _ => match w with
    | ⟨0, _⟩ => prepStaged nf
    | ⟨1, _⟩ => Spec.prepV2 nf
    | ⟨2, _⟩ => Spec.prepPl nf
    | ⟨3, _⟩ => Spec.prepQl nf
    | ⟨_ + 4, h⟩ => absurd h (Nat.not_lt.2 (Nat.le_add_left _ _))
  Φ _ := Pipeline.scopedRest (Ix := HIx 1) (Name := ℕ) (U := U) (Lvl := ℕ) (Val := Elt F) spec0 c
  q _ := fullShare
  owed _ := O
  recorded _ := ↑W

/-- The input's staging buffer holds the fetched features when the body runs. -/
theorem prepDat_before_in (c : Dev nD) (dd : (cfg0.win 0).block.Idx → Elt F (cfg0.win 0).elt) :
    (prepDat (U := U) nf g1 g2 g3 O W c).before 0 t0_0 dd = prepStaged nf := by
  unfold Pipeline.Dat.before; rw [if_pos (by decide)]; rfl

/-- The write-back of a result window writes the whole array: it ends at what the body left staged. -/
theorem prepDat_arrAt1 (c : Dev nD) : (prepDat (U := U) nf g1 g2 g3 O W c).arrAt 1 cfg0.N = Spec.prepV2 nf := by
  show (prepDat (U := U) nf g1 g2 g3 O W c).arrAt 1 (0 + 1) = _
  unfold Pipeline.Dat.arrAt
  rw [dif_pos (by decide : 0 < cfg0.N), if_pos (flush0_1 _)]
  exact Memref.write_access_unit_zero_univ (Elt F) main_v8_0 (funext fun a => by fin_cases a; rfl) _ _ _

theorem prepDat_arrAt2 (c : Dev nD) : (prepDat (U := U) nf g1 g2 g3 O W c).arrAt 2 cfg0.N = Spec.prepPl nf := by
  show (prepDat (U := U) nf g1 g2 g3 O W c).arrAt 2 (0 + 1) = _
  unfold Pipeline.Dat.arrAt
  rw [dif_pos (by decide : 0 < cfg0.N), if_pos (flush0_2 _)]
  exact Memref.write_access_unit_zero_univ (Elt F) main_v8_1 (funext fun a => by fin_cases a; rfl) _ _ _

theorem prepDat_arrAt3 (c : Dev nD) : (prepDat (U := U) nf g1 g2 g3 O W c).arrAt 3 cfg0.N = Spec.prepQl nf := by
  show (prepDat (U := U) nf g1 g2 g3 O W c).arrAt 3 (0 + 1) = _
  unfold Pipeline.Dat.arrAt
  rw [dif_pos (by decide : 0 < cfg0.N), if_pos (flush0_3 _)]
  exact Memref.write_access_unit_zero_univ (Elt F) main_v8_2 (funext fun a => by fin_cases a; rfl) _ _ _

/-- The features' array is only read. -/
theorem prepDat_arrAt0 (c : Dev nD) : (prepDat (U := U) nf g1 g2 g3 O W c).arrAt 0 cfg0.N = nf :=
  (prepDat (U := U) nf g1 g2 g3 O W c).arrAt_in 0 rfl _

omit [FloatOps F] in
theorem prep_owns_whole_eq (c : Dev nD) (b : Ref sig .tc) (X : b.ty.Contents (Elt F)) :
    (owns (Ix := HIx 1) (Name := ℕ) (U := U) (Lvl := ℕ) (c : Thread nD τ) (Memref.whole b) fullShare X : sProp 𝕄)
      = iprop(∃ f : Buf (Elt F) (((c : Dev nD) : Thread nD τ).loc b), ⌜f = X⌝ ∗ ((Memref.whole b).view.loc (c : Thread nD τ) ↦{fullShare} f)) := by
  unfold owns; simp only [Memref.view_whole, View.read_whole, View.set_whole]

/-- The library's body obligation on core `c`: the staging buffers taken apart, the body's run applied. -/
theorem prep_obligation (c : Dev nD) :
    Pipeline.BodyObligation (prepDat (U := U) nf g1 g2 g3 O W c) (defs₀ (F := F)) Variants.none none Set.univ := fun t => by
  obtain rfl := fin_N0 t
  rw [bigSep_W0, bigSep_W0]
  simp only [prep_owns_whole_eq]
  rw [show (prepDat (U := U) nf g1 g2 g3 O W c).Φ t0_0.castSucc = (prepDat (U := U) nf g1 g2 g3 O W c).Φ t0_0.succ from rfl,
    show (prepDat (U := U) nf g1 g2 g3 O W c).owesAt none t0_0.succ = (prepDat (U := U) nf g1 g2 g3 O W c).owesAt none t0_0.castSucc from rfl]
  iintro ⟨HΦ, HO, ⟨%d0, %f0, %hf0, H0⟩, ⟨%d1, %f1, %hf1, H1⟩, ⟨%d2, %f2, %hf2, H2⟩, ⟨%d3, %f3, %hf3, H3⟩⟩
  rw [prepDat_before_in, prepStaged_eq] at hf0
  have hf0' := hf0.symm
  subst hf0'
  iapply (prep_body (U := U) c nf f1 f2 f3 _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists _; isplitr; swap; (· iexact H0); ipureintro; dsimp only [prepDat]; exact (prepStaged_eq nf).symm
  isplitl [H1]
  · iexists _; isplitr; swap; (· iexact H1); ipureintro; dsimp only [prepDat]
  isplitl [H2]
  · iexists _; isplitr; swap; (· iexact H2); ipureintro; dsimp only [prepDat]
  iexists _; isplitr; swap; (· iexact H3); ipureintro; dsimp only [prepDat]

/-! ## The region -/

/-- Proof data for the pipeline this module does not enter: never consulted. -/
def prepIdleDat [∀ e, Nonempty (Elt F e)] (c : Dev nD) : Pipeline.Dat τ (Elt F) (HIx 1) ℕ U ℕ cfg2 c where
  A _ := fun _ => Classical.arbitrary _
  after _ _ := fun _ => Classical.arbitrary _
  Φ _ := iprop(emp)
  q _ := fullShare
  owed _ := 0

/-- The two pipelines' proof data, as the region rule is stated over them: the preparation call's, and nothing of the other's. -/
def prepDats [∀ e, Nonempty (Elt F e)] :
    (p : Fin 2) → (c : Dev nD) → Pipeline.Dat τ (Elt F) (HIx 1) ℕ U ℕ (Pipeline.pin (pcfgs (F := F)) prepAdm p) c
  | 0 => prepDat nf g1 g2 g3 O W
  | 1 => prepIdleDat

/-- A buffer of the TensorCore of `c` held whole. -/
abbrev prepTcPt (c : Dev nD) (b : Ref sig .tc) (f : b.ty.Contents (Elt F)) : sProp 𝕄 := ((SparseCore.T c : Thread nD τ).loc b) ↦{fullShare} f

/-- The region's arrays at contents `Fa` are the four buffers held. -/
theorem prep_arrays_eq [∀ e, Nonempty (Elt F e)] (c : Dev nD) (Fa) :
    ((prepDats (U := U) nf g1 g2 g3 O W 0 c).arrays Fa : sProp 𝕄)
      = iprop(prepTcPt c main_arg0 (Fa 0) ∗ prepTcPt c main_v8_0 (Fa 1) ∗ prepTcPt c main_v8_1 (Fa 2) ∗ prepTcPt c main_v8_2 (Fa 3)) := by
  rw [Pipeline.arrays_eq (Pipeline.pin (pcfgs (F := F)) prepAdm) (prepDats (U := U) nf g1 g2 g3 O W) 0 c launch0.arr_whole
    ((prepDats (U := U) nf g1 g2 g3 O W 0 c).share_full fun _ => rfl) Fa, bigSep_W0]
  rfl

theorem prepDats_Φ [∀ e, Nonempty (Elt F e)] (c : Dev nD) (t : Fin ((Pipeline.pin (pcfgs (F := F)) prepAdm 0).N + 1)) :
    (prepDats (U := U) nf g1 g2 g3 O W 0 c).Φ t
      = Pipeline.scopedRest (Ix := HIx 1) (Name := ℕ) (U := U) (Lvl := ℕ) (Val := Elt F) (Pipeline.pin (pcfgs (F := F)) prepAdm 0).spec c := rfl

theorem prepDats_arrAt0 [∀ e, Nonempty (Elt F e)] (c : Dev nD) :
    (prepDats (U := U) nf g1 g2 g3 O W 0 c).arrAt 0 (Pipeline.pin (pcfgs (F := F)) prepAdm 0).N = nf := prepDat_arrAt0 nf g1 g2 g3 O W c
theorem prepDats_arrAt1 [∀ e, Nonempty (Elt F e)] (c : Dev nD) :
    (prepDats (U := U) nf g1 g2 g3 O W 0 c).arrAt 1 (Pipeline.pin (pcfgs (F := F)) prepAdm 0).N = Spec.prepV2 nf := prepDat_arrAt1 nf g1 g2 g3 O W c
theorem prepDats_arrAt2 [∀ e, Nonempty (Elt F e)] (c : Dev nD) :
    (prepDats (U := U) nf g1 g2 g3 O W 0 c).arrAt 2 (Pipeline.pin (pcfgs (F := F)) prepAdm 0).N = Spec.prepPl nf := prepDat_arrAt2 nf g1 g2 g3 O W c
theorem prepDats_arrAt3 [∀ e, Nonempty (Elt F e)] (c : Dev nD) :
    (prepDats (U := U) nf g1 g2 g3 O W 0 c).arrAt 3 (Pipeline.pin (pcfgs (F := F)) prepAdm 0).N = Spec.prepQl nf := prepDat_arrAt3 nf g1 g2 g3 O W c

variable (lv : GSem nD τ sig → HIx 1 → ℕ)

/-- What the region leaves of the core's debts: the same tallies, the recorded pairs grown by the region's own waits,
    which sit at the index no handshake unit carries. -/
abbrev prepOwesAfter (c : Dev nD) : sProp 𝕄 :=
  iprop(∃ W' : Waits sig (HIx 1), ⌜∀ p ∈ W', p ∈ W ∨ p.2 = none⌝ ∗ owes (SparseCore.T c : Thread nD τ) O W')

/-- THE REGION as the library's record: the four arrays into the pipeline, nothing beside them; the core owing `O`
    throughout, its staging waits at the index `none`. -/
def prepSeg [∀ e, Nonempty (Elt F e)] (hlv : (K (F := F)).Refines lv) (hO : ∀ g, O g none = 0) :
    Pipeline.RegionSeg (pcfgs (F := F)) prepAdm (prepDats (U := U) nf g1 g2 g3 O W) none defs₀ 𝒱₀ (K (F := F)).L lv 0 where
  win := launch0.win.to₀
  block_pos := launch0.block_pos
  stage_whole := launch0.stage_whole
  K := PEmpty
  osem k := k.elim
  ho := Pipeline.OwnSemFacts.none _
  hbody c := (prep_obligation nf g1 g2 g3 O W c).loose
  hwaits c := Pipeline.cellsWaits_intro _ (prepDats (U := U) nf g1 g2 g3 O W) none 0 c fun w s t =>
    (K (F := F)).mayWait_none _ hO lv hlv
  pre c := iprop(prepTcPt c main_arg0 nf ∗ prepTcPt c main_v8_0 g1 ∗ prepTcPt c main_v8_1 g2 ∗ prepTcPt c main_v8_2 g3
    ∗ owes (SparseCore.T c : Thread nD τ) O W)
  post c := iprop(prepTcPt c main_arg0 nf ∗ prepTcPt c main_v8_0 (Spec.prepV2 nf) ∗ prepTcPt c main_v8_1 (Spec.prepPl nf)
    ∗ prepTcPt c main_v8_2 (Spec.prepQl nf) ∗ prepOwesAfter O W c)
  X _ := iprop(emp)
  Y _ := iprop(emp)
  Z _ := iprop(emp)
  hentry c := by
    rw [Pipeline.ownSems0_none, prep_arrays_eq]
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr <;> iempintro
  hin c := by
    rw [prepDats_Φ]
    iintro ⟨-, -, H⟩; iexact H
  hout c := by
    rw [Pipeline.ownSems0_none, prepDats_Φ]
    iintro H; isplitr; · iempintro
    isplitr; · iempintro
    iexact H
  hexit c := by
    rw [prep_arrays_eq]
    rw [prepDats_arrAt0, prepDats_arrAt1, prepDats_arrAt2, prepDats_arrAt3]
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W', %hW', HO⟩
    iexists W'; isplitr
    · ipureintro; intro p hp
      rcases hW' (Finset.mem_coe.mpr hp) with h | ⟨w, s, rfl⟩
      · exact Or.inl (Finset.mem_coe.mp h)
      · exact Or.inr rfl
    iexact HO

/-! ## The region's rule -/

theorem prepSeg_pre [∀ e, Nonempty (Elt F e)] (hlv : (K (F := F)).Refines lv) (hO : ∀ g, O g none = 0) (c : Dev nD) :
    (prepSeg (U := U) nf g1 g2 g3 O W lv hlv hO).pre c
      = iprop(prepTcPt c main_arg0 nf ∗ prepTcPt c main_v8_0 g1 ∗ prepTcPt c main_v8_1 g2 ∗ prepTcPt c main_v8_2 g3
          ∗ owes (SparseCore.T c : Thread nD τ) O W) := rfl

theorem prepSeg_post [∀ e, Nonempty (Elt F e)] (hlv : (K (F := F)).Refines lv) (hO : ∀ g, O g none = 0) (c : Dev nD) :
    (prepSeg (U := U) nf g1 g2 g3 O W lv hlv hO).post c
      = iprop(prepTcPt c main_arg0 nf ∗ prepTcPt c main_v8_0 (Spec.prepV2 nf) ∗ prepTcPt c main_v8_1 (Spec.prepPl nf)
          ∗ prepTcPt c main_v8_2 (Spec.prepQl nf) ∗ prepOwesAfter O W c) := rfl

/-- The call in the certificate's signature, lifted to the launch's. -/
theorem prep_lift_eq : (SparseCore.liftProg (Q := 1) (Prog.lift (.customCall (Pipeline.entry 0) ()) : Prog (TpuEff nD τ sig (Elt F) (ΛP (F := F)) .tc) PUnit))
    = Prog.lift (.customCall (SparseCore.inner (Pipeline.entry 0)) ()) := rfl

set_option backward.isDefEq.respectTransparency.types false in
/-- A proof about the call under the certificate's body table is a proof about it under the launch's. -/
theorem prep_lift_call (d : Dev nD) (Φ : PUnit → sProp 𝕄) :
    wp frame (wpE (D (F := F)) 𝒱 (SparseCore.T d) none) Set.univ (Prog.lift (.customCall (Pipeline.entry 0) ())) Φ
      ⊢ wp frame (wpE ((K (F := F)).defs (D (F := F))) 𝒱 (SparseCore.T d) none) Set.univ
          (Prog.lift (.customCall (SparseCore.inner (Pipeline.entry 0)) ())) Φ := by
  rw [← prep_lift_eq]
  exact (K (F := F)).wp_liftProg (D (F := F)) 𝒱 (SparseCore.T d) Set.univ none _ Φ

/-- THE REGION under the certificate's body table: from the boundary, the pipeline's launch ghost state, the core's
    debts and the four arrays, the call runs to the boundary, the debts as the region leaves them and the arrays
    at the padded vectors. -/
theorem prep_region_D [∀ e, Nonempty (Elt F e)] (EP : Emb (UR sig nD τ) 𝕄) [EP.LandsIn (upEmb : UEmb _ 𝕄)]
    (hlv : (K (F := F)).Refines lv) (hO : ∀ g, O g none = 0) (d : Dev nD) (Φ : PUnit → sProp 𝕄) :
    iprop(levAts (K (F := F)).L lv ∗ boundary (SparseCore.T d : Thread nD τ)
        ∗ Pipeline.cellsGhost (Pipeline.pin (pcfgs (F := F)) prepAdm) EP 0 d ∗ Pipeline.toksInit (Pipeline.pin (pcfgs (F := F)) prepAdm) EP 0 d
        ∗ owes (SparseCore.T d : Thread nD τ) O W
        ∗ prepTcPt d main_arg0 nf ∗ prepTcPt d main_v8_0 g1 ∗ prepTcPt d main_v8_1 g2 ∗ prepTcPt d main_v8_2 g3
        ∗ (iprop(boundary (SparseCore.T d : Thread nD τ) ∗ prepOwesAfter O W d
            ∗ prepTcPt d main_arg0 nf ∗ prepTcPt d main_v8_0 (Spec.prepV2 nf) ∗ prepTcPt d main_v8_1 (Spec.prepPl nf) ∗ prepTcPt d main_v8_2 (Spec.prepQl nf)) -∗ Φ ⟨⟩))
      ⊢ wp frame (wpE (D (F := F)) 𝒱 (SparseCore.T d) none) Set.univ (Prog.lift (.customCall (Pipeline.entry 0) ())) Φ := by
  iintro ⟨#Hla, Hb, Hg, Ht, HO, H0, H1, H2, H3, Hk⟩
  iapply (Pipeline.RegionSeg.wp (pcfgs (F := F)) prepAdm (prepDats (U := U) nf g1 g2 g3 O W) none cellOf_inj EP defs₀ 𝒱₀ (K (F := F)).L lv
    (prepSeg nf g1 g2 g3 O W lv hlv hO) d none (fun _ h => nomatch h) (fun x => .ret x) Φ)
  rw [prepSeg_pre, prepSeg_post]
  isplitl [Hk]
  · iintro ⟨Hb, H0, H1, H2, H3, HO⟩
    rw [wp_ret]; imodintro
    iapply Hk
    isplitl [Hb]; · iexact Hb
    isplitl [HO]; · iexact HO
    isplitl [H0]; · iexact H0
    isplitl [H1]; · iexact H1
    isplitl [H2]; · iexact H2
    iexact H3
  isplitl [Hb]; · iexact Hb
  isplitl [H0 H1 H2 H3 HO]
  · isplitl [H0]; · iexact H0
    isplitl [H1]; · iexact H1
    isplitl [H2]; · iexact H2
    isplitl [H3]; · iexact H3
    iexact HO
  isplitr; · iexact Hla
  isplitl [Hg]; · iexact Hg
  iexact Ht

/-- The same under the launch's body table, as @main spells the call. -/
theorem prep_region_core [∀ e, Nonempty (Elt F e)] (EP : Emb (UR sig nD τ) 𝕄) [EP.LandsIn (upEmb : UEmb _ 𝕄)]
    (hlv : (K (F := F)).Refines lv) (hO : ∀ g, O g none = 0) (d : Dev nD) (Φ : PUnit → sProp 𝕄) :
    iprop(levAts (K (F := F)).L lv ∗ boundary (SparseCore.T d : Thread nD τ)
        ∗ Pipeline.cellsGhost (Pipeline.pin (pcfgs (F := F)) prepAdm) EP 0 d ∗ Pipeline.toksInit (Pipeline.pin (pcfgs (F := F)) prepAdm) EP 0 d
        ∗ owes (SparseCore.T d : Thread nD τ) O W
        ∗ prepTcPt d main_arg0 nf ∗ prepTcPt d main_v8_0 g1 ∗ prepTcPt d main_v8_1 g2 ∗ prepTcPt d main_v8_2 g3
        ∗ (iprop(boundary (SparseCore.T d : Thread nD τ) ∗ prepOwesAfter O W d
            ∗ prepTcPt d main_arg0 nf ∗ prepTcPt d main_v8_0 (Spec.prepV2 nf) ∗ prepTcPt d main_v8_1 (Spec.prepPl nf) ∗ prepTcPt d main_v8_2 (Spec.prepQl nf)) -∗ Φ ⟨⟩))
      ⊢ wp frame (wpE ((K (F := F)).defs (D (F := F))) 𝒱 (SparseCore.T d) none) Set.univ
          (Prog.lift (.customCall (SparseCore.inner (Pipeline.entry 0)) ())) Φ :=
  (prep_region_D nf g1 g2 g3 O W lv EP hlv hO d Φ).trans (prep_lift_call d Φ)

/-! ## The region in @main's own terms -/

section AtLaunch

variable (m : (ℓ : Loc nD τ sig) → Buf (Elt F) ℓ)

local notation "𝕌" => MT nD τ sig (HIx 1) (Elt F) ℕ UU ℕ

/-- No handshake unit the TensorCore owes sits at the index the region's waits use. -/
theorem prep_Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- THE PREPARATION CALL in @main on device `d`'s TensorCore, before SparseCore call `n`: from the handshake state, the
    region boundary, pipeline 0's launch ghost state, the features at their launch contents and the three result
    arrays at anything, the call runs to the same handshake state and boundary, the features unchanged and the
    results at the padded vectors of the features. -/
theorem prep_region [∀ e, Nonempty (Elt F e)] (κ : GSem nD τ sig → ℕ) (d : Dev nD) (n : ℕ) (Φ : PUnit → sProp 𝕌) (f1 f2 f3 : FVec F S10240 .f32) :
    iprop((K (F := F)).ctx EH (P m) κ ∗ (K (F := F)).tcSt EH d n ∗ boundary (SparseCore.T d : Thread nD τ)
        ∗ iprop(Pipeline.cellsGhost cfgs EP 0 d ∗ Pipeline.toksInit cfgs EP 0 d)
        ∗ (nfLoc d ↦{fullShare} m (nfLoc d)) ∗ (v2Loc d ↦{fullShare} f1) ∗ (plLoc d ↦{fullShare} f2) ∗ (qlLoc d ↦{fullShare} f3)
        ∗ (((K (F := F)).tcSt EH d n ∗ boundary (SparseCore.T d : Thread nD τ) ∗ iprop(emp)
            ∗ (nfLoc d ↦{fullShare} m (nfLoc d)) ∗ (v2Loc d ↦{fullShare} tabA m d)
            ∗ (plLoc d ↦{fullShare} Spec.prepPl (nfA m d)) ∗ (qlLoc d ↦{fullShare} Spec.prepQl (nfA m d))) -∗ Φ ⟨⟩))
      ⊢ wp frame (wpE ((K (F := F)).defs (D (F := F))) 𝒱 (SparseCore.T d) none) Set.univ
          (Prog.lift (.customCall (SparseCore.inner (Pipeline.entry 0)) ())) Φ := by
  unfold SparseCore.Cfg.tcSt
  iintro ⟨#Hctx, ⟨⟨%W, %hW, HO⟩, Hrest⟩, Hb, ⟨Hg, Ht⟩, H0, H1, H2, H3, Hk⟩
  ihave Hlev := (SparseCore.Cfg.ctx_levAts κ) $$ Hctx
  iapply (prep_region_core (U := UU) (nfA m d) f1 f2 f3 ((K (F := F)).Otc d n) W (K (F := F)).lev EP
    ((K (F := F)).refines_self) (prep_Otc_none d n) d Φ)
  isplitr; · iexact Hlev
  isplitl [Hb]; · iexact Hb
  isplitl [Hg]; · iexact Hg
  isplitl [Ht]; · iexact Ht
  isplitl [HO]; · iexact HO
  isplitl [H0]; · iexact H0
  isplitl [H1]; · iexact H1
  isplitl [H2]; · iexact H2
  isplitl [H3]; · iexact H3
  iintro ⟨Hb, ⟨%W', %hW', HO⟩, H0, H1, H2, H3⟩
  iapply Hk
  isplitl [HO Hrest]
  · isplitl [HO]
    · iexists W'; isplitr
      · ipureintro; intro p hp
        rcases hW' p hp with h | h
        · exact hW p h
        · rw [h, SparseCore.Cfg.lev_none]; exact Nat.zero_le _
      iexact HO
    iexact Hrest
  isplitl [Hb]; · iexact Hb
  isplitr; · iempintro
  isplitl [H0]; · iexact H0
  isplitl [H1]; · iexact H1
  isplitl [H2]; · iexact H2
  iexact H3

end AtLaunch

end Cert.Proof.KI

end
-- ==== Proof.KI.LossBody.lean ====
/-
  The second TensorCore call's kernel body, run once: from the five staged inputs (the two 32 × 10240
  partial-flow arrays, the squared voltages and the two loads) and the 1 × 1 result staging buffer at any
  contents, the body loads the five inputs whole, computes one scalar from them (the sum of the 32 rows of
  each partial-flow array added to the loads and squared, the two voltage-limit penalties squared, masked to
  the first 10000 nodes, summed, divided by 10000: the printed payload) and stores it into the result
  buffer's one element; the inputs are left as they were.

  Then the call's proof data for the pipeline rule: every window is the whole array, fetched (the five
  inputs) or written back (the result) at the single point, so each input's staging buffer holds the array
  when the body runs and the result's array ends at the scalar.
-/
import proofs.«213808_g38010460570139_cont_8to1_b_868_22_alg».proof.Proof.Gen.KernelIdeal.Skeleton
import proofs.«213808_g38010460570139_cont_8to1_b_868_22_alg».proof.Proof.Gen.KernelIdeal.Launch
import proofs.«213808_g38010460570139_cont_8to1_b_868_22_alg».proof.Proof.Gen.KernelIdeal.Points
import Idealize.ShloMosaic.Lib.SparseCore.Launch
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
variable {U : Type} [URA U]

local notation "𝕄" => MT nD τ sig (HIx 1) (Elt F) ℕ U ℕ

/-! ## The body, run once -/

/-- A TensorCore buffer of core `c` held whole at `f`, spelt through the whole-buffer memref. -/
abbrev tpt (c : Dev nD) (b : Ref sig .tc) (f : Buf (Elt F) ((c : Thread nD τ).loc b)) : sProp 𝕄 :=
  (Memref.whole b).view.loc (c : Thread nD τ) ↦{fullShare} f

theorem off2_zero : (![0, 0] : Fin 2 → Nat) = fun _ => 0 := by funext a; fin_cases a <;> rfl
theorem off1_zero : (![0] : Fin 1 → Nat) = fun _ => 0 := by funext a; fin_cases a; rfl

/-- The scalar the body stores: the printed payload of the five staged inputs. -/
abbrev lossVal (f0 f1 : Vec F S32x10240 .f32) (f2 f3 f4 : Vec F S10240 .f32) : Vec F S1x1 .f32 := fun _ => k2_pay1 f0 f1 f2 f3 f4

/-- The body on the six staging buffers: the five inputs are read and kept, the result buffer ends at the payload. -/
theorem loss_kernel (c : Dev nD)
    (f0 f1 : Vec F S32x10240 .f32) (f2 f3 f4 : Vec F S10240 .f32) (f5 : Vec F S1x1 .f32) (Q : PUnit → sProp 𝕄) :
    iprop(tpt c cc2_stg0_0 f0 ∗ tpt c cc2_stg1_0 f1 ∗ tpt c cc2_stg2_0 f2 ∗ tpt c cc2_stg3_0 f3 ∗ tpt c cc2_stg4_0 f4 ∗ tpt c cc2_stg5_0 f5
      ∗ (iprop(tpt c cc2_stg0_0 f0 ∗ tpt c cc2_stg1_0 f1 ∗ tpt c cc2_stg2_0 f2 ∗ tpt c cc2_stg3_0 f3 ∗ tpt c cc2_stg4_0 f4
            ∗ tpt c cc2_stg5_0 (lossVal f0 f1 f2 f3 f4)) -∗ Q ⟨⟩))
    ⊢ wp frame (wpE (defs₀ (F := F)) Variants.none c none) Set.univ
        (cc2__tc_loss_body (Memref.whole cc2_stg0_0) (hstage2_0 0) (Memref.whole cc2_stg1_0) (hstage2_1 0) (Memref.whole cc2_stg2_0) (hstage2_2 0)
          (Memref.whole cc2_stg3_0) (hstage2_3 0) (Memref.whole cc2_stg4_0) (hstage2_4 0) (Memref.whole cc2_stg5_0) (hstage2_5 0)) Q := by
  iintro ⟨H0, H1, H2, H3, H4, H5, Hk⟩
  sl_unfold [cc2__tc_loss_body]
  sl_exec
  sl_step
  -- each whole load reads the buffer's contents
  have e0 : View.readAt (Elt F) (Memref.whole cc2_stg0_0).view (Rect.unit ![0, 0] S32x10240.size inb_S32x10240_S32x10240_0_0).toLoadRect f0 = f0 :=
    Memref.readAt_unit_zero (Elt F) cc2_stg0_0 off2_zero _ f0
  have e1 : View.readAt (Elt F) (Memref.whole cc2_stg1_0).view (Rect.unit ![0, 0] S32x10240.size inb_S32x10240_S32x10240_0_0).toLoadRect f1 = f1 :=
    Memref.readAt_unit_zero (Elt F) cc2_stg1_0 off2_zero _ f1
  have e2 : View.readAt (Elt F) (Memref.whole cc2_stg2_0).view (Rect.unit ![0] S10240.size inb_S10240_S10240_0).toLoadRect f2 = f2 :=
    Memref.readAt_unit_zero (Elt F) cc2_stg2_0 off1_zero _ f2
  have e3 : View.readAt (Elt F) (Memref.whole cc2_stg3_0).view (Rect.unit ![0] S10240.size inb_S10240_S10240_0).toLoadRect f3 = f3 :=
    Memref.readAt_unit_zero (Elt F) cc2_stg3_0 off1_zero _ f3
  have e4 : View.readAt (Elt F) (Memref.whole cc2_stg4_0).view (Rect.unit ![0] S10240.size inb_S10240_S10240_0).toLoadRect f4 = f4 :=
    Memref.readAt_unit_zero (Elt F) cc2_stg4_0 off1_zero _ f4
  have hr : loss_kernel.sl.r f0 f1 f2 f3 f4 = k2_pay1 f0 f1 f2 f3 f4 := by
    unfold loss_kernel.sl.r; rw [e0, e1, e2, e3, e4]
  -- the one store covers the 1 × 1 buffer
  have h5 : (Memref.whole cc2_stg5_0).view.writes (Elt F) f5
      [⟨Rect.unit ![0, 0] S1x1.size inb_S1x1_S1x1_0_0, fun _ => loss_kernel.sl.r f0 f1 f2 f3 f4⟩] = lossVal f0 f1 f2 f3 f4 := by
    rw [View.writes_singleton, hr]
    exact Memref.write_access_unit_zero_univ (Elt F) cc2_stg5_0 off2_zero _ f5 _
  iapply Hk
  isplitl [H0]; · iexact H0
  isplitl [H1]; · iexact H1
  isplitl [H2]; · iexact H2
  isplitl [H3]; · iexact H3
  isplitl [H4]; · iexact H4
  rw [← h5]
  iexact H5

/-! ## The call's proof data -/

/-- The proof data of the loss call on core `c`: the six arrays at their entry contents (the five inputs, the
    result's array at whatever it holds); after the body each input's staging buffer as fetched and the result's at
    the payload; the invariant the scoped buffers no window stages; the full share; the core owing `O` throughout,
    its recorded pairs within `B`. -/
def lossDat (f0 f1 : Vec F S32x10240 .f32) (f2 f3 f4 : Vec F S10240 .f32) (f5 : Vec F S1x1 .f32)
    (O : CellTallies nD τ sig (HIx 1)) (B : Set (SemLoc sig × HIx 1)) (c : Dev nD) : Dat τ (Elt F) (HIx 1) ℕ U ℕ cfg2 c where
  A w := match w with | ⟨0, _⟩ => f0 | ⟨1, _⟩ => f1 | ⟨2, _⟩ => f2 | ⟨3, _⟩ => f3 | ⟨4, _⟩ => f4 | ⟨5, _⟩ => f5
  after w _ := match w with | ⟨0, _⟩ => f0 | ⟨1, _⟩ => f1 | ⟨2, _⟩ => f2 | ⟨3, _⟩ => f3 | ⟨4, _⟩ => f4 | ⟨5, _⟩ => lossVal f0 f1 f2 f3 f4
  Φ _ := Pipeline.scopedRest (Ix := HIx 1) (Name := ℕ) (U := U) (Lvl := ℕ) (Val := Elt F) spec2 c
  q _ := fullShare
  owed _ := O
  recorded _ := B

section Data

variable (f0 f1 : Vec F S32x10240 .f32) (f2 f3 f4 : Vec F S10240 .f32) (f5 : Vec F S1x1 .f32)
  (O : CellTallies nD τ sig (HIx 1)) (B : Set (SemLoc sig × HIx 1))

/-- Each input's staging buffer holds the whole array when the body runs; the result's whatever it held. -/
theorem before_0 (c : Dev nD) (d : (cfg2.win 0).block.Idx → Elt F (cfg2.win 0).elt) :
    (lossDat (U := U) f0 f1 f2 f3 f4 f5 O B c).before 0 t2_0 d = f0 := by
  unfold Dat.before; rw [if_pos (fetch2_0 _)]
  show ((cfg2.win 0).blk t2_0).view.read (Elt F) f0 = f0
  exact Memref.read_access_unit_zero (Elt F) main_v9_0 (funext fun a => Nat.zero_mul _) _ f0
theorem before_1 (c : Dev nD) (d : (cfg2.win 1).block.Idx → Elt F (cfg2.win 1).elt) :
    (lossDat (U := U) f0 f1 f2 f3 f4 f5 O B c).before 1 t2_0 d = f1 := by
  unfold Dat.before; rw [if_pos (fetch2_1 _)]
  show ((cfg2.win 1).blk t2_0).view.read (Elt F) f1 = f1
  exact Memref.read_access_unit_zero (Elt F) main_v9_1 (funext fun a => Nat.zero_mul _) _ f1
theorem before_2 (c : Dev nD) (d : (cfg2.win 2).block.Idx → Elt F (cfg2.win 2).elt) :
    (lossDat (U := U) f0 f1 f2 f3 f4 f5 O B c).before 2 t2_0 d = f2 := by
  unfold Dat.before; rw [if_pos (fetch2_2 _)]
  show ((cfg2.win 2).blk t2_0).view.read (Elt F) f2 = f2
  exact Memref.read_access_unit_zero (Elt F) main_v8_0 (funext fun a => Nat.zero_mul _) _ f2
theorem before_3 (c : Dev nD) (d : (cfg2.win 3).block.Idx → Elt F (cfg2.win 3).elt) :
    (lossDat (U := U) f0 f1 f2 f3 f4 f5 O B c).before 3 t2_0 d = f3 := by
  unfold Dat.before; rw [if_pos (fetch2_3 _)]
  show ((cfg2.win 3).blk t2_0).view.read (Elt F) f3 = f3
  exact Memref.read_access_unit_zero (Elt F) main_v8_1 (funext fun a => Nat.zero_mul _) _ f3
theorem before_4 (c : Dev nD) (d : (cfg2.win 4).block.Idx → Elt F (cfg2.win 4).elt) :
    (lossDat (U := U) f0 f1 f2 f3 f4 f5 O B c).before 4 t2_0 d = f4 := by
  unfold Dat.before; rw [if_pos (fetch2_4 _)]
  show ((cfg2.win 4).blk t2_0).view.read (Elt F) f4 = f4
  exact Memref.read_access_unit_zero (Elt F) main_v8_2 (funext fun a => Nat.zero_mul _) _ f4
theorem before_5 (c : Dev nD) (d : (cfg2.win 5).block.Idx → Elt F (cfg2.win 5).elt) :
    (lossDat (U := U) f0 f1 f2 f3 f4 f5 O B c).before 5 t2_0 d = d := by
  unfold Dat.before; rw [if_neg (by decide)]; exact if_pos rfl

/-- The body obligation of the loss call. -/
theorem loss_body (c : Dev nD) :
    BodyObligation (lossDat (U := U) f0 f1 f2 f3 f4 f5 O B c) (defs₀ (F := F)) Variants.none none Set.univ := fun t => by
  obtain rfl := fin_N2 t
  rw [bigSep_W2, bigSep_W2]
  simp only [owns_whole_eq]
  rw [show (lossDat (U := U) f0 f1 f2 f3 f4 f5 O B c).Φ t2_0.castSucc = (lossDat (U := U) f0 f1 f2 f3 f4 f5 O B c).Φ t2_0.succ from rfl]
  unfold Dat.owesAt Pipeline.owesWithin
  iintro ⟨HΦ, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_0] at h0; rw [before_1] at h1; rw [before_2] at h2; rw [before_3] at h3; rw [before_4] at h4
  subst h0 h1 h2 h3 h4
  iapply (loss_kernel c g0 g1 g2 g3 g4 g5)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]
  · iexists W; isplitr; · ipureintro; exact hW
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

end Data

end Cert.Proof.KI

end
-- ==== Proof.KI.LossRegionF.lean ====
/-
  The loss call as a region of @main on the TensorCore.

  The region is the library's pipeline over six whole-array windows and one grid point: the two partial-flow
  arrays, the squared voltages and the two loads are fetched whole into their staging buffers, the body runs
  once, and the 1 x 1 result is written back. Its proof data name the arrays' contents at entry and what the
  body leaves staged, hence what the write-back leaves in the result array: the printed scalar of the five
  inputs. The TensorCore owes its handshake units throughout; the region's own waits sit at the index that
  carries no such unit.
-/
import proofs.«213808_g38010460570139_cont_8to1_b_868_22_alg».proof.Proof.KI.LossBody
import proofs.«213808_g38010460570139_cont_8to1_b_868_22_alg».proof.Proof.KI.Common
import Idealize.ShloMosaic.Lib.Pipeline.Regions

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U]

local notation "𝕄" => MT nD τ sig (HIx 1) (Elt F) ℕ U ℕ

/-- Neither pallas_call prefetches a table: the one admissible contents. -/
abbrev lossFAdm : (p : Fin 2) → (pcfgs (F := F) p).Adm := fun p => (cfgs p).toPCfg_adm

variable (f0 f1 : Vec F S32x10240 .f32) (f2 f3 f4 : Vec F S10240 .f32) (f5 : Vec F S1x1 .f32)
  (O : CellTallies nD τ sig (HIx 1)) (W : Waits sig (HIx 1))

/-! ## The arrays at the region's exit -/

theorem lossF_arrAt0 (c : Dev nD) : (lossDat (U := U) f0 f1 f2 f3 f4 f5 O ↑W c).arrAt 0 cfg2.N = f0 :=
  (lossDat (U := U) f0 f1 f2 f3 f4 f5 O ↑W c).arrAt_in 0 rfl _
theorem lossF_arrAt1 (c : Dev nD) : (lossDat (U := U) f0 f1 f2 f3 f4 f5 O ↑W c).arrAt 1 cfg2.N = f1 :=
  (lossDat (U := U) f0 f1 f2 f3 f4 f5 O ↑W c).arrAt_in 1 rfl _
theorem lossF_arrAt2 (c : Dev nD) : (lossDat (U := U) f0 f1 f2 f3 f4 f5 O ↑W c).arrAt 2 cfg2.N = f2 :=
  (lossDat (U := U) f0 f1 f2 f3 f4 f5 O ↑W c).arrAt_in 2 rfl _
theorem lossF_arrAt3 (c : Dev nD) : (lossDat (U := U) f0 f1 f2 f3 f4 f5 O ↑W c).arrAt 3 cfg2.N = f3 :=
  (lossDat (U := U) f0 f1 f2 f3 f4 f5 O ↑W c).arrAt_in 3 rfl _
theorem lossF_arrAt4 (c : Dev nD) : (lossDat (U := U) f0 f1 f2 f3 f4 f5 O ↑W c).arrAt 4 cfg2.N = f4 :=
  (lossDat (U := U) f0 f1 f2 f3 f4 f5 O ↑W c).arrAt_in 4 rfl _

/-- The write-back of the result window writes the whole 1 x 1 array: it ends at what the body left staged. -/
theorem lossF_arrAt5 (c : Dev nD) : (lossDat (U := U) f0 f1 f2 f3 f4 f5 O ↑W c).arrAt 5 cfg2.N = lossVal f0 f1 f2 f3 f4 := by
  show (lossDat (U := U) f0 f1 f2 f3 f4 f5 O ↑W c).arrAt 5 (0 + 1) = _
  unfold Pipeline.Dat.arrAt
  rw [dif_pos (by decide : 0 < cfg2.N), if_pos (flush2_5 _)]
  exact Memref.write_access_unit_zero_univ (Elt F) main_v10 (funext fun a => by fin_cases a <;> rfl) _ _ _

/-! ## The region -/

/-- Proof data for the pipeline this module does not enter: never consulted. -/
def lossFIdleDat [∀ e, Nonempty (Elt F e)] (c : Dev nD) : Pipeline.Dat τ (Elt F) (HIx 1) ℕ U ℕ cfg0 c where
  A _ := fun _ => Classical.arbitrary _
  after _ _ := fun _ => Classical.arbitrary _
  Φ _ := iprop(emp)
  q _ := fullShare
  owed _ := 0

/-- The two pipelines' proof data, as the region rule is stated over them: nothing of the preparation call's, and the loss call's. -/
def lossFDats [∀ e, Nonempty (Elt F e)] :
    (p : Fin 2) → (c : Dev nD) → Pipeline.Dat τ (Elt F) (HIx 1) ℕ U ℕ (Pipeline.pin (pcfgs (F := F)) lossFAdm p) c
  | 0 => lossFIdleDat
  | 1 => lossDat f0 f1 f2 f3 f4 f5 O ↑W

/-- A buffer of the TensorCore of `c` held whole. -/
abbrev lossFPt (c : Dev nD) (b : Ref sig .tc) (f : b.ty.Contents (Elt F)) : sProp 𝕄 := ((SparseCore.T c : Thread nD τ).loc b) ↦{fullShare} f

/-- The region's arrays at contents `Fa` are the six buffers held. -/
theorem lossF_arrays_eq [∀ e, Nonempty (Elt F e)] (c : Dev nD) (Fa) :
    ((lossFDats (U := U) f0 f1 f2 f3 f4 f5 O W 1 c).arrays Fa : sProp 𝕄)
      = iprop(lossFPt c main_v9_0 (Fa 0) ∗ lossFPt c main_v9_1 (Fa 1) ∗ lossFPt c main_v8_0 (Fa 2) ∗ lossFPt c main_v8_1 (Fa 3)
          ∗ lossFPt c main_v8_2 (Fa 4) ∗ lossFPt c main_v10 (Fa 5)) := by
  rw [Pipeline.arrays_eq (Pipeline.pin (pcfgs (F := F)) lossFAdm) (lossFDats (U := U) f0 f1 f2 f3 f4 f5 O W) 1 c launch2.arr_whole
    ((lossFDats (U := U) f0 f1 f2 f3 f4 f5 O W 1 c).share_full fun _ => rfl) Fa, bigSep_W2]
  rfl

theorem lossFDats_Φ [∀ e, Nonempty (Elt F e)] (c : Dev nD) (t : Fin ((Pipeline.pin (pcfgs (F := F)) lossFAdm 1).N + 1)) :
    (lossFDats (U := U) f0 f1 f2 f3 f4 f5 O W 1 c).Φ t
      = Pipeline.scopedRest (Ix := HIx 1) (Name := ℕ) (U := U) (Lvl := ℕ) (Val := Elt F) spec2 c := rfl

theorem lossFDats_arrAt0 [∀ e, Nonempty (Elt F e)] (c : Dev nD) :
    (lossFDats (U := U) f0 f1 f2 f3 f4 f5 O W 1 c).arrAt 0 (Pipeline.pin (pcfgs (F := F)) lossFAdm 1).N = f0 := lossF_arrAt0 f0 f1 f2 f3 f4 f5 O W c
theorem lossFDats_arrAt1 [∀ e, Nonempty (Elt F e)] (c : Dev nD) :
    (lossFDats (U := U) f0 f1 f2 f3 f4 f5 O W 1 c).arrAt 1 (Pipeline.pin (pcfgs (F := F)) lossFAdm 1).N = f1 := lossF_arrAt1 f0 f1 f2 f3 f4 f5 O W c
theorem lossFDats_arrAt2 [∀ e, Nonempty (Elt F e)] (c : Dev nD) :
    (lossFDats (U := U) f0 f1 f2 f3 f4 f5 O W 1 c).arrAt 2 (Pipeline.pin (pcfgs (F := F)) lossFAdm 1).N = f2 := lossF_arrAt2 f0 f1 f2 f3 f4 f5 O W c
theorem lossFDats_arrAt3 [∀ e, Nonempty (Elt F e)] (c : Dev nD) :
    (lossFDats (U := U) f0 f1 f2 f3 f4 f5 O W 1 c).arrAt 3 (Pipeline.pin (pcfgs (F := F)) lossFAdm 1).N = f3 := lossF_arrAt3 f0 f1 f2 f3 f4 f5 O W c
theorem lossFDats_arrAt4 [∀ e, Nonempty (Elt F e)] (c : Dev nD) :
    (lossFDats (U := U) f0 f1 f2 f3 f4 f5 O W 1 c).arrAt 4 (Pipeline.pin (pcfgs (F := F)) lossFAdm 1).N = f4 := lossF_arrAt4 f0 f1 f2 f3 f4 f5 O W c
theorem lossFDats_arrAt5 [∀ e, Nonempty (Elt F e)] (c : Dev nD) :
    (lossFDats (U := U) f0 f1 f2 f3 f4 f5 O W 1 c).arrAt 5 (Pipeline.pin (pcfgs (F := F)) lossFAdm 1).N = lossVal f0 f1 f2 f3 f4 :=
  lossF_arrAt5 f0 f1 f2 f3 f4 f5 O W c

variable (lv : GSem nD τ sig → HIx 1 → ℕ)

/-- What the region leaves of the core's debts: the same tallies, the recorded pairs grown by the region's own waits,
    which sit at the index no handshake unit carries. -/
abbrev lossFOwesAfter (c : Dev nD) : sProp 𝕄 :=
  iprop(∃ W' : Waits sig (HIx 1), ⌜∀ p ∈ W', p ∈ W ∨ p.2 = none⌝ ∗ owes (SparseCore.T c : Thread nD τ) O W')

/-- THE REGION as the library's record: the six arrays into the pipeline, nothing beside them; the core owing `O`
    throughout, its staging waits at the index `none`. -/
def lossFSeg [∀ e, Nonempty (Elt F e)] (hlv : (K (F := F)).Refines lv) (hO : ∀ g, O g none = 0) :
    Pipeline.RegionSeg (pcfgs (F := F)) lossFAdm (lossFDats (U := U) f0 f1 f2 f3 f4 f5 O W) none defs₀ 𝒱₀ (K (F := F)).L lv 1 where
  win := launch2.win.to₀
  block_pos := launch2.block_pos
  stage_whole := launch2.stage_whole
  K := PEmpty
  osem k := k.elim
  ho := Pipeline.OwnSemFacts.none _
  hbody c := (loss_body f0 f1 f2 f3 f4 f5 O ↑W c).loose
  hwaits c := Pipeline.cellsWaits_intro _ (lossFDats (U := U) f0 f1 f2 f3 f4 f5 O W) none 1 c fun w s t =>
    (K (F := F)).mayWait_none _ hO lv hlv
  pre c := iprop(lossFPt c main_v9_0 f0 ∗ lossFPt c main_v9_1 f1 ∗ lossFPt c main_v8_0 f2 ∗ lossFPt c main_v8_1 f3
    ∗ lossFPt c main_v8_2 f4 ∗ lossFPt c main_v10 f5 ∗ owes (SparseCore.T c : Thread nD τ) O W)
  post c := iprop(lossFPt c main_v9_0 f0 ∗ lossFPt c main_v9_1 f1 ∗ lossFPt c main_v8_0 f2 ∗ lossFPt c main_v8_1 f3
    ∗ lossFPt c main_v8_2 f4 ∗ lossFPt c main_v10 (lossVal f0 f1 f2 f3 f4) ∗ lossFOwesAfter O W c)
  X _ := iprop(emp)
  Y _ := iprop(emp)
  Z _ := iprop(emp)
  hentry c := by
    rw [Pipeline.ownSems0_none, lossF_arrays_eq]
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr <;> iempintro
  hin c := by
    rw [lossFDats_Φ]
    iintro ⟨-, -, H⟩; iexact H
  hout c := by
    rw [Pipeline.ownSems0_none, lossFDats_Φ]
    iintro H; isplitr; · iempintro
    isplitr; · iempintro
    iexact H
  hexit c := by
    rw [lossF_arrays_eq]
    rw [lossFDats_arrAt0, lossFDats_arrAt1, lossFDats_arrAt2, lossFDats_arrAt3, lossFDats_arrAt4, lossFDats_arrAt5]
    iintro ⟨⟨H0, H1, H2, H3, H4, H5⟩, HO, -, -⟩
    imodintro
    isplitl [H0]; · iexact H0
    isplitl [H1]; · iexact H1
    isplitl [H2]; · iexact H2
    isplitl [H3]; · iexact H3
    isplitl [H4]; · iexact H4
    isplitl [H5]; · iexact H5
    unfold Pipeline.Dat.owesAt Pipeline.owesWithin
    icases HO with ⟨%W', %hW', HO⟩
    iexists W'; isplitr
    · ipureintro; intro p hp
      rcases hW' (Finset.mem_coe.mpr hp) with h | ⟨w, s, rfl⟩
      · exact Or.inl (Finset.mem_coe.mp h)
      · exact Or.inr rfl
    iexact HO

/-! ## The region's rule -/

theorem lossFSeg_pre [∀ e, Nonempty (Elt F e)] (hlv : (K (F := F)).Refines lv) (hO : ∀ g, O g none = 0) (c : Dev nD) :
    (lossFSeg (U := U) f0 f1 f2 f3 f4 f5 O W lv hlv hO).pre c
      = iprop(lossFPt c main_v9_0 f0 ∗ lossFPt c main_v9_1 f1 ∗ lossFPt c main_v8_0 f2 ∗ lossFPt c main_v8_1 f3
          ∗ lossFPt c main_v8_2 f4 ∗ lossFPt c main_v10 f5 ∗ owes (SparseCore.T c : Thread nD τ) O W) := rfl

theorem lossFSeg_post [∀ e, Nonempty (Elt F e)] (hlv : (K (F := F)).Refines lv) (hO : ∀ g, O g none = 0) (c : Dev nD) :
    (lossFSeg (U := U) f0 f1 f2 f3 f4 f5 O W lv hlv hO).post c
      = iprop(lossFPt c main_v9_0 f0 ∗ lossFPt c main_v9_1 f1 ∗ lossFPt c main_v8_0 f2 ∗ lossFPt c main_v8_1 f3
          ∗ lossFPt c main_v8_2 f4 ∗ lossFPt c main_v10 (lossVal f0 f1 f2 f3 f4) ∗ lossFOwesAfter O W c) := rfl

/-- The call in the certificate's signature, lifted to the launch's. -/
theorem lossF_lift_eq : (SparseCore.liftProg (Q := 1) (Prog.lift (.customCall (Pipeline.entry 1) ()) : Prog (TpuEff nD τ sig (Elt F) (ΛP (F := F)) .tc) PUnit))
    = Prog.lift (.customCall (SparseCore.inner (Pipeline.entry 1)) ()) := rfl

set_option backward.isDefEq.respectTransparency.types false in
/-- A proof about the call under the certificate's body table is a proof about it under the launch's. -/
theorem lossF_lift_call (d : Dev nD) (Φ : PUnit → sProp 𝕄) :
    wp frame (wpE (D (F := F)) 𝒱 (SparseCore.T d) none) Set.univ (Prog.lift (.customCall (Pipeline.entry 1) ())) Φ
      ⊢ wp frame (wpE ((K (F := F)).defs (D (F := F))) 𝒱 (SparseCore.T d) none) Set.univ
          (Prog.lift (.customCall (SparseCore.inner (Pipeline.entry 1)) ())) Φ := by
  rw [← lossF_lift_eq]
  exact (K (F := F)).wp_liftProg (D (F := F)) 𝒱 (SparseCore.T d) Set.univ none _ Φ

/-- THE REGION under the certificate's body table: from the boundary, the pipeline's launch ghost state, the core's
    debts and the six arrays, the call runs to the boundary, the debts as the region leaves them, the five inputs
    as they were and the result at the printed scalar. -/
theorem lossF_region_D [∀ e, Nonempty (Elt F e)] (EP : Emb (UR sig nD τ) 𝕄) [EP.LandsIn (upEmb : UEmb _ 𝕄)]
    (hlv : (K (F := F)).Refines lv) (hO : ∀ g, O g none = 0) (d : Dev nD) (Φ : PUnit → sProp 𝕄) :
    iprop(levAts (K (F := F)).L lv ∗ boundary (SparseCore.T d : Thread nD τ)
        ∗ Pipeline.cellsGhost (Pipeline.pin (pcfgs (F := F)) lossFAdm) EP 1 d ∗ Pipeline.toksInit (Pipeline.pin (pcfgs (F := F)) lossFAdm) EP 1 d
        ∗ owes (SparseCore.T d : Thread nD τ) O W
        ∗ lossFPt d main_v9_0 f0 ∗ lossFPt d main_v9_1 f1 ∗ lossFPt d main_v8_0 f2 ∗ lossFPt d main_v8_1 f3 ∗ lossFPt d main_v8_2 f4 ∗ lossFPt d main_v10 f5
        ∗ (iprop(boundary (SparseCore.T d : Thread nD τ) ∗ lossFOwesAfter O W d
            ∗ lossFPt d main_v9_0 f0 ∗ lossFPt d main_v9_1 f1 ∗ lossFPt d main_v8_0 f2 ∗ lossFPt d main_v8_1 f3 ∗ lossFPt d main_v8_2 f4
            ∗ lossFPt d main_v10 (lossVal f0 f1 f2 f3 f4)) -∗ Φ ⟨⟩))
      ⊢ wp frame (wpE (D (F := F)) 𝒱 (SparseCore.T d) none) Set.univ (Prog.lift (.customCall (Pipeline.entry 1) ())) Φ := by
  iintro ⟨#Hla, Hb, Hg, Ht, HO, H0, H1, H2, H3, H4, H5, Hk⟩
  iapply (Pipeline.RegionSeg.wp (pcfgs (F := F)) lossFAdm (lossFDats (U := U) f0 f1 f2 f3 f4 f5 O W) none cellOf_inj EP defs₀ 𝒱₀ (K (F := F)).L lv
    (lossFSeg f0 f1 f2 f3 f4 f5 O W lv hlv hO) d none (fun _ h => nomatch h) (fun x => .ret x) Φ)
  rw [lossFSeg_pre, lossFSeg_post]
  isplitl [Hk]
  · iintro ⟨Hb, H0, H1, H2, H3, H4, H5, HO⟩
    rw [wp_ret]; imodintro
    iapply Hk
    isplitl [Hb]; · iexact Hb
    isplitl [HO]; · iexact HO
    isplitl [H0]; · iexact H0
    isplitl [H1]; · iexact H1
    isplitl [H2]; · iexact H2
    isplitl [H3]; · iexact H3
    isplitl [H4]; · iexact H4
    iexact H5
  isplitl [Hb]; · iexact Hb
  isplitl [H0 H1 H2 H3 H4 H5 HO]
  · isplitl [H0]; · iexact H0
    isplitl [H1]; · iexact H1
    isplitl [H2]; · iexact H2
    isplitl [H3]; · iexact H3
    isplitl [H4]; · iexact H4
    isplitl [H5]; · iexact H5
    iexact HO
  isplitr; · iexact Hla
  isplitl [Hg]; · iexact Hg
  iexact Ht

/-- The same under the launch's body table, as @main spells the call. -/
theorem lossF_region_core [∀ e, Nonempty (Elt F e)] (EP : Emb (UR sig nD τ) 𝕄) [EP.LandsIn (upEmb : UEmb _ 𝕄)]
    (hlv : (K (F := F)).Refines lv) (hO : ∀ g, O g none = 0) (d : Dev nD) (Φ : PUnit → sProp 𝕄) :
    iprop(levAts (K (F := F)).L lv ∗ boundary (SparseCore.T d : Thread nD τ)
        ∗ Pipeline.cellsGhost (Pipeline.pin (pcfgs (F := F)) lossFAdm) EP 1 d ∗ Pipeline.toksInit (Pipeline.pin (pcfgs (F := F)) lossFAdm) EP 1 d
        ∗ owes (SparseCore.T d : Thread nD τ) O W
        ∗ lossFPt d main_v9_0 f0 ∗ lossFPt d main_v9_1 f1 ∗ lossFPt d main_v8_0 f2 ∗ lossFPt d main_v8_1 f3 ∗ lossFPt d main_v8_2 f4 ∗ lossFPt d main_v10 f5
        ∗ (iprop(boundary (SparseCore.T d : Thread nD τ) ∗ lossFOwesAfter O W d
            ∗ lossFPt d main_v9_0 f0 ∗ lossFPt d main_v9_1 f1 ∗ lossFPt d main_v8_0 f2 ∗ lossFPt d main_v8_1 f3 ∗ lossFPt d main_v8_2 f4
            ∗ lossFPt d main_v10 (lossVal f0 f1 f2 f3 f4)) -∗ Φ ⟨⟩))
      ⊢ wp frame (wpE ((K (F := F)).defs (D (F := F))) 𝒱 (SparseCore.T d) none) Set.univ
          (Prog.lift (.customCall (SparseCore.inner (Pipeline.entry 1)) ())) Φ :=
  (lossF_region_D f0 f1 f2 f3 f4 f5 O W lv EP hlv hO d Φ).trans (lossF_lift_call d Φ)

/-! ## The region in @main's own terms -/

section AtLaunch

variable (m : (ℓ : Loc nD τ sig) → Buf (Elt F) ℓ)

local notation "𝕌" => MT nD τ sig (HIx 1) (Elt F) ℕ UU ℕ

/-- No handshake unit the TensorCore owes sits at the index the region's waits use. -/
theorem lossF_Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- THE LOSS CALL in @main on device `d`'s TensorCore, before SparseCore call `n`: from the handshake state, the region
    boundary, pipeline 1's launch ghost state, the five input arrays and the result array at anything, the call runs
    to the same handshake state and boundary, the inputs unchanged and the result at the printed scalar of the inputs. -/
theorem loss_region_f [∀ e, Nonempty (Elt F e)] (κ : GSem nD τ sig → ℕ) (d : Dev nD) (n : ℕ) (Φ : PUnit → sProp 𝕌)
    (Pv Qv : FVec F S32x10240 .f32) (tv pv qv : FVec F S10240 .f32) (fo : Vec F S1x1 .f32) :
    iprop((K (F := F)).ctx EH (P m) κ ∗ (K (F := F)).tcSt EH d n ∗ boundary (SparseCore.T d : Thread nD τ)
        ∗ iprop(Pipeline.cellsGhost cfgs EP 1 d ∗ Pipeline.toksInit cfgs EP 1 d)
        ∗ (ppLoc d ↦{fullShare} Pv) ∗ (qpLoc d ↦{fullShare} Qv) ∗ (v2Loc d ↦{fullShare} tv) ∗ (plLoc d ↦{fullShare} pv) ∗ (qlLoc d ↦{fullShare} qv)
        ∗ (outLoc d ↦{fullShare} fo)
        ∗ (((K (F := F)).tcSt EH d n ∗ boundary (SparseCore.T d : Thread nD τ) ∗ iprop(emp)
            ∗ (ppLoc d ↦{fullShare} Pv) ∗ (qpLoc d ↦{fullShare} Qv) ∗ (v2Loc d ↦{fullShare} tv) ∗ (plLoc d ↦{fullShare} pv) ∗ (qlLoc d ↦{fullShare} qv)
            ∗ (outLoc d ↦{fullShare} (fun _ => k2_pay1 Pv Qv tv pv qv : Vec F S1x1 .f32))) -∗ Φ ⟨⟩))
      ⊢ wp frame (wpE ((K (F := F)).defs (D (F := F))) 𝒱 (SparseCore.T d) none) Set.univ
          (Prog.lift (.customCall (SparseCore.inner (Pipeline.entry 1)) ())) Φ := by
  unfold SparseCore.Cfg.tcSt
  iintro ⟨#Hctx, ⟨⟨%W, %hW, HO⟩, Hrest⟩, Hb, ⟨Hg, Ht⟩, H0, H1, H2, H3, H4, H5, Hk⟩
  ihave Hlev := (SparseCore.Cfg.ctx_levAts κ) $$ Hctx
  iapply (lossF_region_core (U := UU) Pv Qv tv pv qv fo ((K (F := F)).Otc d n) W (K (F := F)).lev EP
    ((K (F := F)).refines_self) (lossF_Otc_none d n) d Φ)
  isplitr; · iexact Hlev
  isplitl [Hb]; · iexact Hb
  isplitl [Hg]; · iexact Hg
  isplitl [Ht]; · iexact Ht
  isplitl [HO]; · iexact HO
  isplitl [H0]; · iexact H0
  isplitl [H1]; · iexact H1
  isplitl [H2]; · iexact H2
  isplitl [H3]; · iexact H3
  isplitl [H4]; · iexact H4
  isplitl [H5]; · iexact H5
  iintro ⟨Hb, ⟨%W', %hW', HO⟩, H0, H1, H2, H3, H4, H5⟩
  iapply Hk
  isplitl [HO Hrest]
  · isplitl [HO]
    · iexists W'; isplitr
      · ipureintro; intro p hp
        rcases hW' p hp with h | h
        · exact hW p h
        · rw [h, SparseCore.Cfg.lev_none]; exact Nat.zero_le _
      iexact HO
    iexact Hrest
  isplitl [Hb]; · iexact Hb
  isplitr; · iempintro
  isplitl [H0]; · iexact H0
  isplitl [H1]; · iexact H1
  isplitl [H2]; · iexact H2
  isplitl [H3]; · iexact H3
  isplitl [H4]; · iexact H4
  iexact H5

end AtLaunch

end Cert.Proof.KI

end
-- ==== Proof.KI.Run.lean ====
/-
  The program's run: every weakly fair execution of @main on the TensorCore together with the two
  SparseCores' sequencers and thirty-two tiles terminates, nothing faulting, with the result array at
  the loss of the four arguments and the arguments unchanged — the SparseCore launch theorem applied to
  the tile obligation, the split of the call's payload, the launch element and @main's proof, the two
  TensorCore calls entered as regions of @main.
-/
import proofs.«213808_g38010460570139_cont_8to1_b_868_22_alg».proof.Proof.KI.Launch
import proofs.«213808_g38010460570139_cont_8to1_b_868_22_alg».proof.Proof.KI.MainTc
import proofs.«213808_g38010460570139_cont_8to1_b_868_22_alg».proof.Proof.KI.PrepRegion
import proofs.«213808_g38010460570139_cont_8to1_b_868_22_alg».proof.Proof.KI.LossRegionF

noncomputable section

namespace Cert.Proof.KI

open Cert.KernelIdeal Cert.KernelIdeal.Gen
open Idealize.ShloMosaic Idealize.SL Idealize.SL.BI Idealize.SL.Sem
open scoped Idealize.SL.BI

variable {F : FTy → Type} [FloatOps F]

/-- The run of the whole mesh under the precondition. -/
theorem run_main [∀ e, Nonempty (Elt F e)] (m : (ℓ : Loc nD τ sig) → Buf (Elt F) ℓ) (ρ : Dev nD → PrngReg)
    (hpre : ∀ d, Cert.Pre_input_domain.fn (F := F) (nfA m d) (eiA m d) (prA m d) (paA m d) = fun _ => 1#1) :
    θ_run (Cert.KernelIdeal.defs (F := F)) (Cert.KernelIdeal.threads (F := F)) ⟨m, fun _ => 0, ρ⟩ (QC m) :=
  run_main_of m ρ
    (hmain_of m ρ Gh (fun _ _ => iprop(emp))
      (fun κ d Φ f1 f2 f3 => prep_region m κ d 0 Φ f1 f2 f3)
      (fun κ d Φ Pv Qv tv pv qv fo => loss_region_f m κ d 1 Φ Pv Qv tv pv qv fo))
    hpre

end Cert.Proof.KI

end
-- ==== Proof.K.Spec.lean ====
/-
  The value specification of the edge-flow kernel, generic in the float instance.

  One tile (vector subcore) walks 1250 consecutive groups of sixteen edges. For a group with source
  nodes `s`, destination nodes `d`, edge probabilities `pv` and the two edge parameters `gv`, `bv`:
  the squared voltage of each source node is gathered from the table, multiplied by the probability
  and divided by `gv + ε` (active flow) and by `bv + ε` (reactive flow); each flow is added onto
  its source node's entry of the tile's accumulator and, where source and destination differ, onto
  the destination node's entry as well. Sixteen lanes naming one node all accumulate, lowest lane first.

  `gath`, `scatAdd` and `lanes` are the gather, the masked accumulating scatter and a sixteen-lane
  window written WITHOUT in-range evidence (an out-of-range lane reads entry 0 / writes nothing), so
  that folds over them carry no dependent proofs; `loadIdx_eq_gath` and `storeIdx_eq_scatAdd` say
  they are the library's indexed load and store whenever the evidence exists.
-/
import proofs.«213808_g38010460570139_cont_8to1_b_868_22_alg».proof.Proof.Gen.Kernel.Skeleton

noncomputable section

namespace Cert.Kernel.Spec

open Idealize.ShloMosaic Cert.Kernel Cert.Kernel.Gen

variable {F : FTy → Type} [FloatOps F]

/-- Lane `k` of a sixteen-lane vector, as its index. -/
def ln (k : Fin 16) : S16.Idx := Shape.ofLane (d := ![16]) k

/-- Entry `n` of a 10240-vector, as its index. -/
def nd (n : Fin 10240) : S10240.Idx := Shape.ofLane (d := ![10240]) n

/-- Entry `n` of a 640000-vector, as its index (clamped into range, so that no evidence is asked). -/
def ed (n : Nat) : S640000.Idx := Shape.ofLane (d := ![640000]) ⟨min n 639999, by show min n 639999 < 640000; omega⟩

/-- Sixteen consecutive entries of an edge array from offset `off`. -/
def lanes {e : EltTy} (x : Vec F S640000 e) (off : Nat) : Vec F S16 e := fun j => x (ed (off + (j 0).val))

/-- The gather of a node table at sixteen node numbers. -/
def gath (tab : FVec F S10240 .f32) (idx : IVec S16 32) : FVec F S16 .f32 :=
  fun x => tab (nd ⟨min (idx x).toNat 10239, by omega⟩)

/-- The masked accumulating scatter of sixteen values onto a node accumulator: lanes in ascending
    order, a set lane's value added onto the entry its node number names. -/
def scatAdd (acc : FVec F S10240 .f32) (idx : IVec S16 32) (v : FVec F S16 .f32) (mask : IVec S16 1) : FVec F S10240 .f32 :=
  (List.finRange 16).foldl (fun g k =>
    if mask (ln k) = 1 then
      fun j => if (j 0).val = (idx (ln k)).toNat then Elt.idxAdd .f32 (g j) (v (ln k)) else g j
    else g) acc

/-- The small constant both flows' denominators carry. -/
def epsV : FVec F S16 .f32 := broadcast S16 (Scalar.ofBits .f32 0x358637BD#32)

/-- One group of sixteen edges applied to the pair of accumulators (active, reactive). -/
def grpStep (tab : FVec F S10240 .f32) (s d : IVec S16 32) (pv gv bv : FVec F S16 .f32)
    (acc : FVec F S10240 .f32 × FVec F S10240 .f32) : FVec F S10240 .f32 × FVec F S10240 .f32 :=
  let vp : FVec F S16 .f32 := mulf (gath tab s) pv
  let pe : FVec F S16 .f32 := divf vp (addf gv epsV)
  let qe : FVec F S16 .f32 := divf vp (addf bv epsV)
  let m : IVec S16 1 := cmpi .ne s d
  (scatAdd (scatAdd acc.1 s pe (fun _ => 1#1)) d pe m, scatAdd (scatAdd acc.2 s qe (fun _ => 1#1)) d qe m)

/-- The accumulators as the zero fill leaves them. -/
def acc0 : FVec F S10240 .f32 × FVec F S10240 .f32 :=
  (fun _ => Scalar.ofBits .f32 0x00000000#32, fun _ => Scalar.ofBits .f32 0x00000000#32)

/-- A tile's accumulators after its first `n` groups; the tile's edges start at `base`, group `k`
    holds edges `base + 16 k … base + 16 k + 15`. -/
def tileAcc (tab : FVec F S10240 .f32) (src dst : IVec S640000 32) (prob g b : FVec F S640000 .f32) (base : Nat) :
    Nat → FVec F S10240 .f32 × FVec F S10240 .f32
  | 0 => acc0
  | n + 1 => grpStep tab (lanes (F := F) (e := .i32) src (base + 16 * n)) (lanes (F := F) (e := .i32) dst (base + 16 * n))
      (lanes (F := F) (e := .f32) prob (base + 16 * n)) (lanes (F := F) (e := .f32) g (base + 16 * n)) (lanes (F := F) (e := .f32) b (base + 16 * n)) (tileAcc tab src dst prob g b base n)

/-- The first edge of the tile at grid coordinates `(core, subcore)`. -/
def tileBase (i : grid1.Coords) : Nat := 40000 * (i 1).val + 20000 * (i 0).val

/-- The row of the two partial-flow arrays the tile writes. -/
def tileRow (i : grid1.Coords) : Nat := 2 * (i 1).val + (i 0).val

/-- A 10000-vector padded with zeros to 10240 entries. -/
def padTo (v : FVec F S10000 .f32) : FVec F S10240 .f32 :=
  fun j => if h : (j 0).val < 10000 then v (Shape.ofLane (d := ![10000]) ⟨(j 0).val, h⟩) else Scalar.ofBits .f32 0x00000000#32

/-- What the preparation call leaves: squared voltage magnitudes, active loads, reactive loads, padded. -/
def prepV2 (nf : Vec F S10000x128 .f32) : FVec F S10240 .f32 := padTo (k0_pay3 nf)
def prepPl (nf : Vec F S10000x128 .f32) : FVec F S10240 .f32 := padTo (k0_pay4 nf)
def prepQl (nf : Vec F S10000x128 .f32) : FVec F S10240 .f32 := padTo (k0_pay5 nf)

/-- The edge arrays @main slices and reshapes out of the arguments before the calls. -/
def srcOf (ei : Vec F S2x640000 .i32) : IVec S640000 32 :=
  shapeCast S640000 (extractStridedSlice S1x640000 ![0, 0] ei slices_S2x640000_S1x640000_0_0) shapeCasts_S1x640000_S640000
def dstOf (ei : Vec F S2x640000 .i32) : IVec S640000 32 :=
  shapeCast S640000 (extractStridedSlice S1x640000 ![1, 0] ei slices_S2x640000_S1x640000_1_0) shapeCasts_S1x640000_S640000
def gOf (par : Vec F S640000x2 .f32) : FVec F S640000 .f32 :=
  shapeCast S640000 (extractStridedSlice S640000x1 ![0, 0] par slices_S640000x2_S640000x1_0_0) shapeCasts_S640000x1_S640000
def bOf (par : Vec F S640000x2 .f32) : FVec F S640000 .f32 :=
  shapeCast S640000 (extractStridedSlice S640000x1 ![0, 1] par slices_S640000x2_S640000x1_0_1) shapeCasts_S640000x1_S640000

/-- The two partial-flow arrays after the SparseCore call: row `2 s + c` is tile `(c, s)`'s accumulator
    after all of its 1250 groups. -/
def partsOf (nf : Vec F S10000x128 .f32) (ei : Vec F S2x640000 .i32) (prob : Vec F S640000 .f32) (par : Vec F S640000x2 .f32) :
    FVec F S32x10240 .f32 × FVec F S32x10240 .f32 :=
  let acc (r : Nat) := tileAcc (prepV2 nf) (srcOf (F := F) ei) (dstOf (F := F) ei) prob (gOf par) (bOf par) (20000 * r) 1250
  (fun j => (acc (j 0).val).1 (nd ⟨(j 1).val, (j 1).isLt⟩), fun j => (acc (j 0).val).2 (nd ⟨(j 1).val, (j 1).isLt⟩))

/-- The kernel's scalar result as one term of the four arguments. -/
def lossOf (nf : Vec F S10000x128 .f32) (ei : Vec F S2x640000 .i32) (prob : Vec F S640000 .f32) (par : Vec F S640000x2 .f32) : F .f32 :=
  k2_pay1 (partsOf nf ei prob par).1 (partsOf nf ei prob par).2 (prepV2 nf) (prepPl nf) (prepQl nf)

end Cert.Kernel.Spec

end
-- ==== Proof.K.Common.lean ====
/-
  The shared vocabulary of the launch: the program as the SparseCore launch theorem sees it, the ghost
  state (the handshakes' rounds beside the transfers' counters), the arrays as locations of a device,
  and what the one SparseCore call's handshakes carry.

  The call hands every tile a read share of the six arrays all tiles read (the squared-voltage table,
  the source and destination node numbers, the probabilities, the two parameter columns) and its own
  row of the two partial-flow arrays outright; a tile hands the shares back unchanged and its two rows
  at its accumulators after all its groups (`Spec.tileAcc`).
-/
import proofs.«213808_g38010460570139_cont_8to1_b_868_22_alg».proof.Proof.K.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
/-- The rounds of the two TensorCore calls' staging cells. -/
abbrev UP : Type := UR sig nD τ
/-- The handshakes' rounds, the staging cells' rounds, the transfers' counters (found by instance in the right). -/
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds: the left of the right component. -/
def EP : Emb UP (MT nD τ sig (HIx 1) (Elt F) ℕ UU ℕ) :=
  (Emb.inl : Emb UP (UP × Counters)).trans (embR (A := UH) (B := UP × Counters))
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

abbrev nfLoc (d : Dev nD) : Loc nD τ sig := (SparseCore.T d).loc main_arg0
abbrev eiLoc (d : Dev nD) : Loc nD τ sig := (SparseCore.T d).loc main_arg1
abbrev prLoc (d : Dev nD) : Loc nD τ sig := (SparseCore.T d).loc main_arg2
abbrev paLoc (d : Dev nD) : Loc nD τ sig := (SparseCore.T d).loc main_arg3
abbrev srcLoc (d : Dev nD) : Loc nD τ sig := (SparseCore.T d).loc main_v1
abbrev dstLoc (d : Dev nD) : Loc nD τ sig := (SparseCore.T d).loc main_v3
abbrev gLoc (d : Dev nD) : Loc nD τ sig := (SparseCore.T d).loc main_v5
abbrev bLoc (d : Dev nD) : Loc nD τ sig := (SparseCore.T d).loc main_v7
abbrev v2Loc (d : Dev nD) : Loc nD τ sig := (SparseCore.T d).loc main_v8_0
abbrev plLoc (d : Dev nD) : Loc nD τ sig := (SparseCore.T d).loc main_v8_1
abbrev qlLoc (d : Dev nD) : Loc nD τ sig := (SparseCore.T d).loc main_v8_2
abbrev ppLoc (d : Dev nD) : Loc nD τ sig := (SparseCore.T d).loc main_v9_0
abbrev qpLoc (d : Dev nD) : Loc nD τ sig := (SparseCore.T d).loc main_v9_1
abbrev outLoc (d : Dev nD) : Loc nD τ sig := (SparseCore.T d).loc main_v10
abbrev resLoc (d : Dev nD) : Loc nD τ sig := (SparseCore.T d).loc main_v11

variable [FloatOps F]

/-- The four arguments as device `d` holds them at the launch. -/
abbrev nfA (d : Dev nD) : Vec F S10000x128 .f32 := m (nfLoc d)
abbrev eiA (d : Dev nD) : Vec F S2x640000 .i32 := m (eiLoc d)
abbrev prA (d : Dev nD) : Vec F S640000 .f32 := m (prLoc d)
abbrev paA (d : Dev nD) : Vec F S640000x2 .f32 := m (paLoc d)

/-- The six arrays every tile reads, at what @main and the preparation call leave in them. -/
abbrev tabA (d : Dev nD) : FVec F S10240 .f32 := Spec.prepV2 (nfA m d)
abbrev srcA (d : Dev nD) : IVec S640000 32 := Spec.srcOf (F := F) (eiA m d)
abbrev dstA (d : Dev nD) : IVec S640000 32 := Spec.dstOf (F := F) (eiA m d)
abbrev gA (d : Dev nD) : FVec F S640000 .f32 := Spec.gOf (paA m d)
abbrev bA (d : Dev nD) : FVec F S640000 .f32 := Spec.bOf (paA m d)

/-! ## Rows of the two partial-flow arrays -/

theorem hdiv32 : 32 ∣ S32x10240.size 0 := ⟨1, rfl⟩
abbrev prow (r : Fin 32) : Rect S32x10240 := Rect.part (s := S32x10240) (a₀ := 0) hdiv32 r
abbrev prowSet (r : Fin 32) : Finset S32x10240.Idx := ((Memref.whole main_v9_0_scv : Memref sig .scVector .hbm S32x10240 .f32).view.slice (prow r)).set

/-- The row number of tile `i` of SparseCore `c`: `2 i + c`. -/
def rowOf (c : Fin 2) (i : Fin 16) : Fin 32 := ⟨2 * i.val + c.val, by omega⟩

/-- A partial-flow array whose row `r` holds the accumulator `a` (what a tile's copy-out leaves of its row). -/
def RowIs (f : FVec F S32x10240 .f32) (r : Fin 32) (a : FVec F S10240 .f32) : Prop :=
  ∀ n : Fin 10240, f (fun | 0 => ⟨r.val, r.isLt⟩ | 1 => ⟨n.val, n.isLt⟩ | ⟨_ + 2, h⟩ => absurd h (Nat.not_lt.2 (Nat.le_add_left _ _))) = a (Spec.nd n)

/-! ## Read shares: one per SparseCore, of it one per tile -/

abbrev shC (c : Fin 2) : PosShare TreeShare := Transfers.shareTok fullShare 2 c
abbrev shT (c : Fin 2) (i : Fin 16) : PosShare TreeShare := Transfers.shareTok (shC c) 16 i

/-- The six read-only arrays at share `q`. -/
def roPts (d : Dev nD) (q : PosShare TreeShare) : sProp 𝕄 :=
  iprop((v2Loc d ↦{q} tabA m d) ∗ (srcLoc d ↦{q} srcA m d) ∗ (dstLoc d ↦{q} dstA m d) ∗ (prLoc d ↦{q} prA m d)
    ∗ (gLoc d ↦{q} gA m d) ∗ (bLoc d ↦{q} bA m d))

/-- A tile's accumulators after all its groups. -/
abbrev accOf (d : Dev nD) (r : Fin 32) : FVec F S10240 .f32 × FVec F S10240 .f32 :=
  Spec.tileAcc (tabA m d) (srcA m d) (dstA m d) (prA m d) (gA m d) (bA m d) (20000 * r.val) 1250

/-- What the sequencer's go hands tile `(c, i)`: its read shares and its two rows at whatever they hold. -/
def goPay (d : Dev nD) (c : Fin 2) (i : Fin 16) : sProp 𝕄 :=
  iprop(roPts m d (shT c i) ∗ (∃ f, ppLoc d ↦[prowSet (rowOf c i)]{fullShare} f) ∗ (∃ f, qpLoc d ↦[prowSet (rowOf c i)]{fullShare} f))

/-- What the tile's taskDone hands back: the shares, and the two rows at its accumulators. -/
def tdPay (d : Dev nD) (c : Fin 2) (i : Fin 16) : sProp 𝕄 :=
  iprop(roPts m d (shT c i)
    ∗ (∃ f, ⌜RowIs f (rowOf c i) (accOf m d (rowOf c i)).1⌝ ∗ ppLoc d ↦[prowSet (rowOf c i)]{fullShare} f)
    ∗ (∃ f, ⌜RowIs f (rowOf c i) (accOf m d (rowOf c i)).2⌝ ∗ qpLoc d ↦[prowSet (rowOf c i)]{fullShare} f))

/-- What the TensorCore's start hands SparseCore `c`: its read shares of the six arrays and its sixteen
    rows of each partial-flow array. -/
def stPay (d : Dev nD) (c : Fin 2) : sProp 𝕄 :=
  iprop(roPts m d (shC c)
    ∗ (bigSep Finset.univ fun i : Fin 16 => iprop(∃ f, ppLoc d ↦[prowSet (rowOf c i)]{fullShare} f))
    ∗ (bigSep Finset.univ fun i : Fin 16 => iprop(∃ f, qpLoc d ↦[prowSet (rowOf c i)]{fullShare} f)))

/-- What its done hands back. -/
def dnPay (d : Dev nD) (c : Fin 2) : sProp 𝕄 :=
  iprop(roPts m d (shC c)
    ∗ (bigSep Finset.univ fun i : Fin 16 => iprop(∃ f, ⌜RowIs f (rowOf c i) (accOf m d (rowOf c i)).1⌝ ∗ ppLoc d ↦[prowSet (rowOf c i)]{fullShare} f))
    ∗ (bigSep Finset.univ fun i : Fin 16 => iprop(∃ f, ⌜RowIs f (rowOf c i) (accOf m d (rowOf c i)).2⌝ ∗ qpLoc d ↦[prowSet (rowOf c i)]{fullShare} f)))

def P : (K (F := F)).Pay (nD := nD) (Val := Elt F) (Name := ℕ) (U := UU) where
  st := fun q d c => match q with | 0 => stPay m d (Fin.cast nCore_zero c)
  dn := fun q d c => match q with | 0 => dnPay m d (Fin.cast nCore_zero c)
  go := fun q d c i => match q with | 0 => goPay m d (Fin.cast nCore_zero c) (Fin.cast nSub_zero i)
  td := fun q d c i => match q with | 0 => tdPay m d (Fin.cast nCore_zero c) (Fin.cast nSub_zero i)
  x := fun _ _ => iprop(emp)

instance stPay_storable (d : Dev nD) (c : Fin 2) : BI.Storable (upEmb : UEmb _ 𝕄) (stPay m d c) := by
  unfold stPay roPts; infer_instance
instance dnPay_storable (d : Dev nD) (c : Fin 2) : BI.Storable (upEmb : UEmb _ 𝕄) (dnPay m d c) := by
  unfold dnPay roPts; infer_instance
instance goPay_storable (d : Dev nD) (c : Fin 2) (i : Fin 16) : BI.Storable (upEmb : UEmb _ 𝕄) (goPay m d c i) := by
  unfold goPay roPts; infer_instance
instance tdPay_storable (d : Dev nD) (c : Fin 2) (i : Fin 16) : BI.Storable (upEmb : UEmb _ 𝕄) (tdPay m d c i) := by
  unfold tdPay roPts; infer_instance

instance P_storable : (P (F := F) m).IsStorable where
  st q d c := match q with | 0 => stPay_storable m d _
  dn q d c := match q with | 0 => dnPay_storable m d _
  go q d c i := match q with | 0 => goPay_storable m d _ _
  td q d c i := match q with | 0 => tdPay_storable m d _ _

end Cert.Proof.K

end
-- ==== Proof.K.Split.lean ====
/-
  The one SparseCore call's payload dealt among its tiles and gathered back: each SparseCore's read
  shares of the six read-only arrays split into sixteen tile shares (and join again), and its sixteen
  rows of each partial-flow array go one to a tile.
-/
import proofs.«213808_g38010460570139_cont_8to1_b_868_22_alg».proof.Proof.K.Common

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- One array's read share of a SparseCore splits into its sixteen tiles' shares and a rest. -/
theorem share_split (ℓ : Loc nD τ sig) (f : Buf (Elt F) ℓ) (c : Fin 2) :
    (ℓ ↦{shC c} f : sProp 𝕄) ⊢ iprop((ℓ ↦{Transfers.shareDrop (shC c) 16} f) ∗ bigSep Finset.univ fun i : Fin 16 => ℓ ↦{shT c i} f) :=
  Transfers.pointsTo_toks_split (shC c) 16

theorem share_join (ℓ : Loc nD τ sig) (f : Buf (Elt F) ℓ) (c : Fin 2) :
    iprop((ℓ ↦{Transfers.shareDrop (shC c) 16} f) ∗ bigSep Finset.univ fun i : Fin 16 => ℓ ↦{shT c i} f) ⊢ (ℓ ↦{shC c} f : sProp 𝕄) :=
  Transfers.pointsTo_toks_join (shC c) 16

/-- The six read-only arrays: a SparseCore's shares split into its tiles' and a rest. -/
theorem roPts_split (d : Dev nD) (c : Fin 2) :
    roPts m d (shC c) ⊢ iprop(roPts m d (Transfers.shareDrop (shC c) 16) ∗ bigSep Finset.univ fun i : Fin 16 => roPts m d (shT c i)) := by
  unfold roPts
  simp only [bigSep_sep']
  iintro ⟨H1, H2, H3, H4, H5, H6⟩
  ihave H1 := (share_split (F := F) _ _ c) $$ H1
  ihave H2 := (share_split (F := F) _ _ c) $$ H2
  ihave H3 := (share_split (F := F) _ _ c) $$ H3
  ihave H4 := (share_split (F := F) _ _ c) $$ H4
  ihave H5 := (share_split (F := F) _ _ c) $$ H5
  ihave H6 := (share_split (F := F) _ _ c) $$ H6
  icases H1 with ⟨R1, T1⟩
  icases H2 with ⟨R2, T2⟩
  icases H3 with ⟨R3, T3⟩
  icases H4 with ⟨R4, T4⟩
  icases H5 with ⟨R5, T5⟩
  icases H6 with ⟨R6, T6⟩
  isplitl [R1 R2 R3 R4 R5 R6]
  · isplitl [R1]; · iexact R1
    isplitl [R2]; · iexact R2
    isplitl [R3]; · iexact R3
    isplitl [R4]; · iexact R4
    isplitl [R5]; · iexact R5
    iexact R6
  · isplitl [T1]; · iexact T1
    isplitl [T2]; · iexact T2
    isplitl [T3]; · iexact T3
    isplitl [T4]; · iexact T4
    isplitl [T5]; · iexact T5
    iexact T6

theorem roPts_join (d : Dev nD) (c : Fin 2) :
    iprop(roPts m d (Transfers.shareDrop (shC c) 16) ∗ bigSep Finset.univ fun i : Fin 16 => roPts m d (shT c i)) ⊢ roPts m d (shC c) := by
  unfold roPts
  simp only [bigSep_sep']
  iintro ⟨⟨R1, R2, R3, R4, R5, R6⟩, T1, T2, T3, T4, T5, T6⟩
  isplitl [R1 T1]; · iapply (share_join (F := F) _ _ c); isplitl [R1] <;> iassumption
  isplitl [R2 T2]; · iapply (share_join (F := F) _ _ c); isplitl [R2] <;> iassumption
  isplitl [R3 T3]; · iapply (share_join (F := F) _ _ c); isplitl [R3] <;> iassumption
  isplitl [R4 T4]; · iapply (share_join (F := F) _ _ c); isplitl [R4] <;> iassumption
  isplitl [R5 T5]; · iapply (share_join (F := F) _ _ c); isplitl [R5] <;> iassumption
  iapply (share_join (F := F) _ _ c); isplitl [R6] <;> iassumption

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands for a SparseCore go to its tiles, and the tiles' results gather back. -/
theorem vecSplit : (K (F := F)).VecSplit' (P m) 0 := by
  intro d c
  show stPay m d (Fin.cast nCore_zero c) ⊢ |={Set.univ}=> iprop(
      (bigSep Finset.univ fun i : Fin ((K (F := F)).nSub 0) => goPay m d (Fin.cast nCore_zero c) (Fin.cast nSub_zero i))
      ∗ ((bigSep Finset.univ fun i : Fin ((K (F := F)).nSub 0) => tdPay m d (Fin.cast nCore_zero c) (Fin.cast nSub_zero i))
          -∗ dnPay m d (Fin.cast nCore_zero c)))
  generalize Fin.cast nCore_zero c = c'
  rw [bigSep_tasks (F := F) (fun i => goPay m d c' i), bigSep_tasks (F := F) (fun i => tdPay m d c' i)]
  unfold stPay goPay tdPay dnPay
  simp only [bigSep_sep']
  iintro ⟨Hro, Hp, Hq⟩
  ihave Hro := (roPts_split m d c') $$ Hro
  icases Hro with ⟨Hrest, Hts⟩
  imodintro
  isplitl [Hts Hp Hq]
  · isplitl [Hts]; · iexact Hts
    isplitl [Hp]; · iexact Hp
    iexact Hq
  iintro ⟨Hts, Hp, Hq⟩
  isplitl [Hrest Hts]
  · iapply (roPts_join m d c'); isplitl [Hrest] <;> iassumption
  isplitl [Hp]; · iexact Hp
  iexact Hq

end Cert.Proof.K

end
-- ==== Proof.K.TileSetup.lean ====
/-
  One vector subcore's task, named: the subcore as a thread, the arrays and scratch buffers as the
  kernel's memrefs, the five DMA semaphores as cells, and the fact the task needs of the node numbers
  (every source and destination node number below 10240, so that each indexed load and store names
  an entry of its 10240-entry table).
-/
import proofs.«213808_g38010460570139_cont_8to1_b_868_22_alg».proof.Proof.K.Common
import Idealize.ShloMosaic.Lib.Batch

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- Every source and destination node number names an entry of the 10240-entry node tables. -/
def TilePre : Prop :=
  ∀ d : Dev nD, (∀ j, (srcA m d j).toNat < 10240) ∧ (∀ j, (dstA m d j).toNat < 10240)

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev iL (L : grid1.Coords) : Fin 16 := Fin.cast bound_one (L 1)
/-- The vector subcore at grid coordinates `L` of device `d`. -/
abbrev thr : Thread nD τ := V d (cV L) (jV L)

/-- The arrays and scratch buffers as the kernel's memrefs. -/
abbrev aV2 : Memref sig .scVector .hbm S10240 .f32 := Memref.whole main_v8_0_scv
abbrev aSrc : Memref sig .scVector .hbm S640000 .i32 := Memref.whole main_v1_scv
abbrev aDst : Memref sig .scVector .hbm S640000 .i32 := Memref.whole main_v3_scv
abbrev aPr : Memref sig .scVector .hbm S640000 .f32 := Memref.whole main_arg2_scv
abbrev aG : Memref sig .scVector .hbm S640000 .f32 := Memref.whole main_v5_scv
abbrev aB : Memref sig .scVector .hbm S640000 .f32 := Memref.whole main_v7_scv
abbrev aPP : Memref sig .scVector .hbm S32x10240 .f32 := Memref.whole main_v9_0_scv
abbrev aQP : Memref sig .scVector .hbm S32x10240 .f32 := Memref.whole main_v9_1_scv
abbrev sTab : Memref sig .scVector .vmem S10240 .f32 := Memref.whole cc1_scratch0
abbrev sAccP : Memref sig .scVector .vmem S10240 .f32 := Memref.whole cc1_scratch1
abbrev sAccQ : Memref sig .scVector .vmem S10240 .f32 := Memref.whole cc1_scratch2
abbrev sSrc : Memref sig .scVector .vmem S8000 .i32 := Memref.whole cc1_scratch3
abbrev sDst : Memref sig .scVector .vmem S8000 .i32 := Memref.whole cc1_scratch4
abbrev sPr : Memref sig .scVector .vmem S8000 .f32 := Memref.whole cc1_scratch5
abbrev sG : Memref sig .scVector .vmem S8000 .f32 := Memref.whole cc1_scratch6
abbrev sB : Memref sig .scVector .vmem S8000 .f32 := Memref.whole cc1_scratch7

/-- A DMA semaphore of the tile, as a cell. -/
abbrev cell (s : DmaSems sig S_) : GSem nD τ sig := (thr d L, SemLoc.dma s.sem)

omit [FloatOps F] in
theorem cell_ne {s s' : DmaSems sig S_} (h : (SemLoc.dma s.sem : SemLoc sig) ≠ SemLoc.dma s'.sem) : cell d L s ≠ cell d L s' :=
  fun e => h (Prod.mk.inj e).2

omit [FloatOps F] in
/-- The tile's five DMA semaphores are among its own cells: each at zero, and the rest. -/
theorem ownSems0_V :
    (ownSems0 (thr d L) : sProp 𝕄)
      = iprop(semVal (cell d L cc1_scratch8) 0 ∗ semVal (cell d L cc1_scratch9) 0 ∗ semVal (cell d L cc1_scoped0) 0 ∗ semVal (cell d L cc1_scoped1) 0 ∗ semVal (cell d L cc1_scoped2) 0
          ∗ bigSep ((((((ownCells (thr d L)).erase (cell d L cc1_scratch8)).erase (cell d L cc1_scratch9)).erase (cell d L cc1_scoped0)).erase (cell d L cc1_scoped1)).erase (cell d L cc1_scoped2)) fun g => semVal g 0) := by
  unfold SparseCore.Cfg.ownSems0
  rw [SparseCore.bigSep_erase' ((mem_ownCells (g := cell d L cc1_scratch8)).mpr ⟨rfl, by show (SemLoc.dma cc1_scratch8.sem : SemLoc sig).isScoped .scVector = true; decide⟩),
    SparseCore.bigSep_erase' (Finset.mem_erase.mpr ⟨cell_ne d L (by decide), (mem_ownCells (g := cell d L cc1_scratch9)).mpr ⟨rfl, by show (SemLoc.dma cc1_scratch9.sem : SemLoc sig).isScoped .scVector = true; decide⟩⟩),
    SparseCore.bigSep_erase' (Finset.mem_erase.mpr ⟨cell_ne d L (by decide), Finset.mem_erase.mpr ⟨cell_ne d L (by decide), (mem_ownCells (g := cell d L cc1_scoped0)).mpr ⟨rfl, by show (SemLoc.dma cc1_scoped0.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell d L cc1_scoped1)).mpr ⟨rfl, by show (SemLoc.dma cc1_scoped1.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc1_scoped2)).mpr ⟨rfl, by show (SemLoc.dma cc1_scoped2.sem : SemLoc sig).isScoped .scVector = true; decide⟩⟩⟩⟩⟩)]

omit [FloatOps F] in
/-- The eight scratch buffers are among the tile's own: they are them, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f)
          ∗ bigSep (((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := ((Proc.scVector (cV L) (jV L)).devRef cc1_scratch6)) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := ((Proc.scVector (cV L) (jV L)).devRef cc1_scratch7)) rfl⟩⟩⟩⟩⟩⟩⟩)]

end Tile

end Cert.Proof.K

end
-- ==== Proof.K.TileNames.lean ====
/-
  Names for the tile's proof: the two halves of each of the five double-buffered scratch buffers, as
  the kernel slices them, and the side condition of a loaded vector of node numbers from its entries'
  range.
-/
import proofs.«213808_g38010460570139_cont_8to1_b_868_22_alg».proof.Proof.K.TileSetup

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev hSrc0 : Memref sig .scVector .vmem S4000 .i32 := sSrc.slice (Rect.unit (s := S8000) ![0] S4000.size inb_S8000_S4000_0) (fun _ => rfl)
abbrev hSrc1 : Memref sig .scVector .vmem S4000 .i32 := sSrc.slice (Rect.unit (s := S8000) ![4000] S4000.size inb_S8000_S4000_4000) (fun _ => rfl)
abbrev hDst0 : Memref sig .scVector .vmem S4000 .i32 := sDst.slice (Rect.unit (s := S8000) ![0] S4000.size inb_S8000_S4000_0) (fun _ => rfl)
abbrev hDst1 : Memref sig .scVector .vmem S4000 .i32 := sDst.slice (Rect.unit (s := S8000) ![4000] S4000.size inb_S8000_S4000_4000) (fun _ => rfl)
abbrev hPr0 : Memref sig .scVector .vmem S4000 .f32 := sPr.slice (Rect.unit (s := S8000) ![0] S4000.size inb_S8000_S4000_0) (fun _ => rfl)
abbrev hPr1 : Memref sig .scVector .vmem S4000 .f32 := sPr.slice (Rect.unit (s := S8000) ![4000] S4000.size inb_S8000_S4000_4000) (fun _ => rfl)
abbrev hG0 : Memref sig .scVector .vmem S4000 .f32 := sG.slice (Rect.unit (s := S8000) ![0] S4000.size inb_S8000_S4000_0) (fun _ => rfl)
abbrev hG1 : Memref sig .scVector .vmem S4000 .f32 := sG.slice (Rect.unit (s := S8000) ![4000] S4000.size inb_S8000_S4000_4000) (fun _ => rfl)
abbrev hB0 : Memref sig .scVector .vmem S4000 .f32 := sB.slice (Rect.unit (s := S8000) ![0] S4000.size inb_S8000_S4000_0) (fun _ => rfl)
abbrev hB1 : Memref sig .scVector .vmem S4000 .f32 := sB.slice (Rect.unit (s := S8000) ![4000] S4000.size inb_S8000_S4000_4000) (fun _ => rfl)

theorem chk3_of {v : IVec S16 32} (h : ∀ x, (v x).toNat < 10240) :
    (∀ a x, ((![v] : Fin 1 → IVec S16 32) a x).toNat < S10240.size a) ∧ (∀ a x, ((![v] : Fin 1 → IVec S16 32) a x).toNat < S10240.size a)
      ∧ (∀ a x, ((![v] : Fin 1 → IVec S16 32) a x).toNat < S10240.size a) := by
  have : ∀ a x, ((![v] : Fin 1 → IVec S16 32) a x).toNat < S10240.size a := by
    intro a x; obtain rfl : a = 0 := Subsingleton.elim _ _; exact h x
  exact ⟨this, this, this⟩
theorem chk2_of {v : IVec S16 32} (h : ∀ x, (v x).toNat < 10240) :
    (∀ a x, ((![v] : Fin 1 → IVec S16 32) a x).toNat < S10240.size a) ∧ (∀ a x, ((![v] : Fin 1 → IVec S16 32) a x).toNat < S10240.size a) := by
  have : ∀ a x, ((![v] : Fin 1 → IVec S16 32) a x).toNat < S10240.size a := by
    intro a x; obtain rfl : a = 0 := Subsingleton.elim _ _; exact h x
  exact ⟨this, this⟩

/-- The transfers' counters inside the launch's resource algebra. -/
abbrev EC : UEmb Counters 𝕄 := countersEmb (U := UU)

/-- One chunk's credit on a DMA semaphore: 4000 words. -/
abbrev NN : ℕ := (hSrc0).view.amount (SemLoc.dma (sig := sig) cc1_scratch8.sem)

end Cert.Proof.K

end
-- ==== Proof.K.TileBatch.lean ====
/-
  The tile's double-buffered chunk transfers, named: a chunk's five slices of the edge arrays as the
  kernel slices them, and what a batch of five copies on one DMA semaphore delivers — each scratch
  half rewritten with its array's slice, and the slice back.
-/
import proofs.«213808_g38010460570139_cont_8to1_b_868_22_alg».proof.Proof.K.TileNames

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Batch

variable (d : Dev nD) (L : grid1.Coords)

abbrev srcSl (o : Fin 1 → Nat) (ho : ∀ a, o a + S4000.size a ≤ S640000.size a) : Memref sig .scVector .hbm S4000 .i32 := aSrc.slice (Rect.unit (s := S640000) o S4000.size ho) (fun _ => rfl)
abbrev dstSl (o : Fin 1 → Nat) (ho : ∀ a, o a + S4000.size a ≤ S640000.size a) : Memref sig .scVector .hbm S4000 .i32 := aDst.slice (Rect.unit (s := S640000) o S4000.size ho) (fun _ => rfl)
abbrev prSl (o : Fin 1 → Nat) (ho : ∀ a, o a + S4000.size a ≤ S640000.size a) : Memref sig .scVector .hbm S4000 .f32 := aPr.slice (Rect.unit (s := S640000) o S4000.size ho) (fun _ => rfl)
abbrev gSl (o : Fin 1 → Nat) (ho : ∀ a, o a + S4000.size a ≤ S640000.size a) : Memref sig .scVector .hbm S4000 .f32 := aG.slice (Rect.unit (s := S640000) o S4000.size ho) (fun _ => rfl)
abbrev bSl (o : Fin 1 → Nat) (ho : ∀ a, o a + S4000.size a ≤ S640000.size a) : Memref sig .scVector .hbm S4000 .f32 := aB.slice (Rect.unit (s := S640000) o S4000.size ho) (fun _ => rfl)

omit [FloatOps F] in
theorem tlt0 : 0 < k1_t2_loop.trips := by decide
omit [FloatOps F] in
theorem tlt1 : 1 < k1_t2_loop.trips := by decide
omit [FloatOps F] in
theorem tlt2 : 2 < k1_t2_loop.trips := by decide
omit [FloatOps F] in
theorem tlt3 : 3 < k1_t2_loop.trips := by decide
omit [FloatOps F] in
theorem tlt4 : 4 < k1_t2_loop.trips := by decide

/-- The chunks' offsets are in range (chunk 0 is `k1_off1_inb`). -/
theorem off_inb1 : ∀ a, (k1_off3 L ⟨0, tlt0⟩) a + S4000.size a ≤ S640000.size a := k1_off3_inb L ⟨0, tlt0⟩ (by decide) (by decide)
theorem off_inb2 : ∀ a, (k1_off4 L ⟨1, tlt1⟩) a + S4000.size a ≤ S640000.size a := k1_off4_inb L ⟨1, tlt1⟩ (by decide) (by decide)
theorem off_inb3 : ∀ a, (k1_off3 L ⟨2, tlt2⟩) a + S4000.size a ≤ S640000.size a := k1_off3_inb L ⟨2, tlt2⟩ (by decide) (by decide)
theorem off_inb4 : ∀ a, (k1_off4 L ⟨3, tlt3⟩) a + S4000.size a ≤ S640000.size a := k1_off4_inb L ⟨3, tlt3⟩ (by decide) (by decide)

def DE (q : PosShare TreeShare) (xs xd : IVec S640000 32) (xp xg xb : FVec F S640000 .f32) (f3 f4 : IVec S8000 32) (f5 f6 f7 : FVec F S8000 .f32) (o : Fin 1 → Nat) (ho : ∀ a, o a + S4000.size a ≤ S640000.size a) : Fin 5 → sProp 𝕄 := fun t =>
  match t with
  | ⟨0, _⟩ => iprop((hSrc0.view.loc (thr d L) ↦[hSrc0.view.set]{fullShare} hSrc0.view.writes (Elt F) f3 [⟨Rect.whole S4000, ReadAs.same.apply ((srcSl o ho).view.read (Elt F) xs)⟩]) ∗ ((srcSl o ho).view.loc (thr d L) ↦[(srcSl o ho).view.set]{q} xs))
  | ⟨1, _⟩ => iprop((hDst0.view.loc (thr d L) ↦[hDst0.view.set]{fullShare} hDst0.view.writes (Elt F) f4 [⟨Rect.whole S4000, ReadAs.same.apply ((dstSl o ho).view.read (Elt F) xd)⟩]) ∗ ((dstSl o ho).view.loc (thr d L) ↦[(dstSl o ho).view.set]{q} xd))
  | ⟨2, _⟩ => iprop((hPr0.view.loc (thr d L) ↦[hPr0.view.set]{fullShare} hPr0.view.writes (Elt F) f5 [⟨Rect.whole S4000, ReadAs.same.apply ((prSl o ho).view.read (Elt F) xp)⟩]) ∗ ((prSl o ho).view.loc (thr d L) ↦[(prSl o ho).view.set]{q} xp))
  | ⟨3, _⟩ => iprop((hG0.view.loc (thr d L) ↦[hG0.view.set]{fullShare} hG0.view.writes (Elt F) f6 [⟨Rect.whole S4000, ReadAs.same.apply ((gSl o ho).view.read (Elt F) xg)⟩]) ∗ ((gSl o ho).view.loc (thr d L) ↦[(gSl o ho).view.set]{q} xg))
  | ⟨4, _⟩ => iprop((hB0.view.loc (thr d L) ↦[hB0.view.set]{fullShare} hB0.view.writes (Elt F) f7 [⟨Rect.whole S4000, ReadAs.same.apply ((bSl o ho).view.read (Elt F) xb)⟩]) ∗ ((bSl o ho).view.loc (thr d L) ↦[(bSl o ho).view.set]{q} xb))
  | ⟨_ + 5, h⟩ => absurd h (by omega)

instance DE_storable (q : PosShare TreeShare) (xs xd : IVec S640000 32) (xp xg xb : FVec F S640000 .f32) (f3 f4 : IVec S8000 32) (f5 f6 f7 : FVec F S8000 .f32) (o : Fin 1 → Nat) (ho : ∀ a, o a + S4000.size a ≤ S640000.size a) (t : Fin 5) :
    BI.Storable (upEmb : UEmb _ 𝕄) (DE d L q xs xd xp xg xb f3 f4 f5 f6 f7 o ho t) := by
  match t with
  | ⟨0, _⟩ => unfold DE; infer_instance
  | ⟨1, _⟩ => unfold DE; infer_instance
  | ⟨2, _⟩ => unfold DE; infer_instance
  | ⟨3, _⟩ => unfold DE; infer_instance
  | ⟨4, _⟩ => unfold DE; infer_instance
  | ⟨_ + 5, h⟩ => exact absurd h (by omega)

def DO (q : PosShare TreeShare) (xs xd : IVec S640000 32) (xp xg xb : FVec F S640000 .f32) (f3 f4 : IVec S8000 32) (f5 f6 f7 : FVec F S8000 .f32) (o : Fin 1 → Nat) (ho : ∀ a, o a + S4000.size a ≤ S640000.size a) : Fin 5 → sProp 𝕄 := fun t =>
  match t with
  | ⟨0, _⟩ => iprop((hSrc1.view.loc (thr d L) ↦[hSrc1.view.set]{fullShare} hSrc1.view.writes (Elt F) f3 [⟨Rect.whole S4000, ReadAs.same.apply ((srcSl o ho).view.read (Elt F) xs)⟩]) ∗ ((srcSl o ho).view.loc (thr d L) ↦[(srcSl o ho).view.set]{q} xs))
  | ⟨1, _⟩ => iprop((hDst1.view.loc (thr d L) ↦[hDst1.view.set]{fullShare} hDst1.view.writes (Elt F) f4 [⟨Rect.whole S4000, ReadAs.same.apply ((dstSl o ho).view.read (Elt F) xd)⟩]) ∗ ((dstSl o ho).view.loc (thr d L) ↦[(dstSl o ho).view.set]{q} xd))
  | ⟨2, _⟩ => iprop((hPr1.view.loc (thr d L) ↦[hPr1.view.set]{fullShare} hPr1.view.writes (Elt F) f5 [⟨Rect.whole S4000, ReadAs.same.apply ((prSl o ho).view.read (Elt F) xp)⟩]) ∗ ((prSl o ho).view.loc (thr d L) ↦[(prSl o ho).view.set]{q} xp))
  | ⟨3, _⟩ => iprop((hG1.view.loc (thr d L) ↦[hG1.view.set]{fullShare} hG1.view.writes (Elt F) f6 [⟨Rect.whole S4000, ReadAs.same.apply ((gSl o ho).view.read (Elt F) xg)⟩]) ∗ ((gSl o ho).view.loc (thr d L) ↦[(gSl o ho).view.set]{q} xg))
  | ⟨4, _⟩ => iprop((hB1.view.loc (thr d L) ↦[hB1.view.set]{fullShare} hB1.view.writes (Elt F) f7 [⟨Rect.whole S4000, ReadAs.same.apply ((bSl o ho).view.read (Elt F) xb)⟩]) ∗ ((bSl o ho).view.loc (thr d L) ↦[(bSl o ho).view.set]{q} xb))
  | ⟨_ + 5, h⟩ => absurd h (by omega)

instance DO_storable (q : PosShare TreeShare) (xs xd : IVec S640000 32) (xp xg xb : FVec F S640000 .f32) (f3 f4 : IVec S8000 32) (f5 f6 f7 : FVec F S8000 .f32) (o : Fin 1 → Nat) (ho : ∀ a, o a + S4000.size a ≤ S640000.size a) (t : Fin 5) :
    BI.Storable (upEmb : UEmb _ 𝕄) (DO d L q xs xd xp xg xb f3 f4 f5 f6 f7 o ho t) := by
  match t with
  | ⟨0, _⟩ => unfold DO; infer_instance
  | ⟨1, _⟩ => unfold DO; infer_instance
  | ⟨2, _⟩ => unfold DO; infer_instance
  | ⟨3, _⟩ => unfold DO; infer_instance
  | ⟨4, _⟩ => unfold DO; infer_instance
  | ⟨_ + 5, h⟩ => exact absurd h (by omega)

end Batch

end Cert.Proof.K

end
-- ==== Proof.K.TileSplit.lean ====
/-
  The tile's buffers cut as the kernel addresses them: each 8000-entry scratch as its two halves of
  4000, and each 640000-entry edge array as the tile's five chunks of 4000 and the rest. The halves
  are disjoint and cover the scratch; the five chunks, 4000 apart from the tile's first edge, are
  pairwise disjoint; so a points-to of the whole buffer is the separating conjunction of the pieces'.
-/
import proofs.«213808_g38010460570139_cont_8to1_b_868_22_alg».proof.Proof.K.TileBatch

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## Points-to along element sets, as equations -/

section Generic

variable {ℓ : Loc nD τ sig} {q : PosShare TreeShare}

omit [FloatOps F] in
/-- Carving a subset out of a points-to, as an equation. -/
theorem pts_carve {I Sx : Finset (Idx ℓ)} (h : I ⊆ Sx) (f : Buf (Elt F) ℓ) :
    (ℓ ↦[Sx]{q} f : sProp 𝕄) = iprop((ℓ ↦[I]{q} f) ∗ ℓ ↦[Sx \ I]{q} f) :=
  BI.equiv_iff.mp ⟨(pointsTo_split_subset h).1, (pointsTo_split_subset h).2⟩

omit [FloatOps F] in
/-- Five pairwise disjoint element sets carved one after another out of the whole buffer, and what is left. -/
theorem pts_carve5 (x : Buf (Elt F) ℓ) (I0 I1 I2 I3 I4 : Finset (Idx ℓ))
    (h01 : Disjoint I0 I1) (h02 : Disjoint I0 I2) (h03 : Disjoint I0 I3) (h04 : Disjoint I0 I4)
    (h12 : Disjoint I1 I2) (h13 : Disjoint I1 I3) (h14 : Disjoint I1 I4)
    (h23 : Disjoint I2 I3) (h24 : Disjoint I2 I4) (h34 : Disjoint I3 I4) :
    (ℓ ↦[Finset.univ]{q} x : sProp 𝕄)
      = iprop((ℓ ↦[I0]{q} x) ∗ (ℓ ↦[I1]{q} x) ∗ (ℓ ↦[I2]{q} x) ∗ (ℓ ↦[I3]{q} x) ∗ (ℓ ↦[I4]{q} x)
          ∗ ℓ ↦[((((Finset.univ \ I0) \ I1) \ I2) \ I3) \ I4]{q} x) := by
  have s1 : I1 ⊆ Finset.univ \ I0 := fun i hi => Finset.mem_sdiff.mpr ⟨Finset.mem_univ _, fun h0 => Finset.disjoint_left.mp h01 h0 hi⟩
  have s2 : I2 ⊆ (Finset.univ \ I0) \ I1 := fun i hi => Finset.mem_sdiff.mpr
    ⟨Finset.mem_sdiff.mpr ⟨Finset.mem_univ _, fun h0 => Finset.disjoint_left.mp h02 h0 hi⟩, fun h1 => Finset.disjoint_left.mp h12 h1 hi⟩
  have s3 : I3 ⊆ ((Finset.univ \ I0) \ I1) \ I2 := fun i hi => Finset.mem_sdiff.mpr
    ⟨Finset.mem_sdiff.mpr ⟨Finset.mem_sdiff.mpr ⟨Finset.mem_univ _, fun h0 => Finset.disjoint_left.mp h03 h0 hi⟩,
      fun h1 => Finset.disjoint_left.mp h13 h1 hi⟩, fun h2 => Finset.disjoint_left.mp h23 h2 hi⟩
  have s4 : I4 ⊆ (((Finset.univ \ I0) \ I1) \ I2) \ I3 := fun i hi => Finset.mem_sdiff.mpr
    ⟨Finset.mem_sdiff.mpr ⟨Finset.mem_sdiff.mpr ⟨Finset.mem_sdiff.mpr ⟨Finset.mem_univ _, fun h0 => Finset.disjoint_left.mp h04 h0 hi⟩,
      fun h1 => Finset.disjoint_left.mp h14 h1 hi⟩, fun h2 => Finset.disjoint_left.mp h24 h2 hi⟩, fun h3 => Finset.disjoint_left.mp h34 h3 hi⟩
  rw [pts_carve (Finset.subset_univ I0) x, pts_carve s1 x, pts_carve s2 x, pts_carve s3 x, pts_carve s4 x]

omit [FloatOps F] in
/-- Two disjoint element sets that cover the buffer. -/
theorem pts_halves (f : Buf (Elt F) ℓ) {I J : Finset (Idx ℓ)} (hd : Disjoint I J) (hc : I ∪ J = Finset.univ) :
    (ℓ ↦[Finset.univ]{q} f : sProp 𝕄) = iprop((ℓ ↦[I]{q} f) ∗ ℓ ↦[J]{q} f) := by
  rw [← hc]
  exact BI.equiv_iff.mp ⟨(pointsTo_union hd).1, (pointsTo_union hd).2⟩

omit [FloatOps F] in
/-- The two halves held at different contents join to the whole buffer at some contents. -/
theorem pts_halves_join (f g : Buf (Elt F) ℓ) {I J : Finset (Idx ℓ)} (hd : Disjoint I J) (hc : I ∪ J = Finset.univ) :
    iprop((ℓ ↦[I]{q} f) ∗ ℓ ↦[J]{q} g) ⊢ (iprop(∃ h, ℓ ↦[Finset.univ]{q} h) : sProp 𝕄) := by
  iintro H
  ihave H' := (pointsTo_join hd) $$ H
  rw [hc]
  iexists J.piecewise g f
  iexact H'

end Generic

/-! ## The two halves of an 8000-entry scratch -/

abbrev half0 : Rect S8000 := Rect.unit (s := S8000) ![0] S4000.size inb_S8000_S4000_0
abbrev half1 : Rect S8000 := Rect.unit (s := S8000) ![4000] S4000.size inb_S8000_S4000_4000

omit [FloatOps F] in
theorem halves_disjoint : Disjoint half0.set half1.set :=
  Rect.unit_disjoint 0 (Or.inl (by decide))

omit [FloatOps F] in
theorem halves_cover : half0.set ∪ half1.set = Finset.univ := by
  ext i
  simp only [Finset.mem_union, Rect.mem_set_unit, Finset.mem_univ, iff_true]
  have hi : (i 0).val < 8000 := (i 0).isLt
  by_cases h : (i 0).val < 4000
  · left; intro a; obtain rfl : a = 0 := Subsingleton.elim _ _
    show 0 ≤ (i 0).val ∧ (i 0).val < 0 + 4000
    omega
  · right; intro a; obtain rfl : a = 0 := Subsingleton.elim _ _
    show 4000 ≤ (i 0).val ∧ (i 0).val < 4000 + 4000
    omega

/-! ## The tile's five chunks of a 640000-entry edge array -/

section Chunks

variable (L : grid1.Coords)

/-- The tile's first edge. -/
abbrev chunkBase : Nat := 40000 * (L 1).val + 20000 * (L 0).val

omit [FloatOps F] in
theorem off0_val : (k1_off1 L) 0 = chunkBase L := by rw [k1_off1_eq]; rfl
omit [FloatOps F] in
theorem off1_val : (k1_off3 L ⟨0, tlt0⟩) 0 = chunkBase L + 4000 := by rw [k1_off3_eq]; rfl
omit [FloatOps F] in
theorem off2_val : (k1_off4 L ⟨1, tlt1⟩) 0 = chunkBase L + 8000 := by
  rw [k1_off4_eq]; show chunkBase L + 4000 * 1 + 4000 = chunkBase L + 8000; omega
omit [FloatOps F] in
theorem off3_val : (k1_off3 L ⟨2, tlt2⟩) 0 = chunkBase L + 12000 := by
  rw [k1_off3_eq]; show chunkBase L + 4000 * 2 + 4000 = chunkBase L + 12000; omega
omit [FloatOps F] in
theorem off4_val : (k1_off4 L ⟨3, tlt3⟩) 0 = chunkBase L + 16000 := by
  rw [k1_off4_eq]; show chunkBase L + 4000 * 3 + 4000 = chunkBase L + 16000; omega

omit [FloatOps F] in
/-- Two 4000-entry stretches of an edge array at least 4000 apart are disjoint. -/
theorem stretch_disjoint {o o' : Fin 1 → Nat} {ho : ∀ a, o a + S4000.size a ≤ S640000.size a} {ho' : ∀ a, o' a + S4000.size a ≤ S640000.size a}
    (h : o 0 + 4000 ≤ o' 0 ∨ o' 0 + 4000 ≤ o 0) :
    Disjoint (Rect.unit (s := S640000) o S4000.size ho).set (Rect.unit (s := S640000) o' S4000.size ho').set :=
  Rect.unit_disjoint 0 h

end Chunks

/-! ## The tile's ten scratch halves and twenty-five chunks -/

section Tile

variable (d : Dev nD) (L : grid1.Coords)

/-! ### Src -/

omit [FloatOps F] in
theorem set_hSrc0 : (hSrc0).view.set = half0.set := View.set_slice_whole (cc1_scratch3 : Ref sig .scVector) half0
omit [FloatOps F] in
theorem set_hSrc1 : (hSrc1).view.set = half1.set := View.set_slice_whole (cc1_scratch3 : Ref sig .scVector) half1

omit [FloatOps F] in
theorem scratch_split_Src (f : Buf (Elt F) ((sSrc).view.loc (thr d L))) :
    ((sSrc).view.loc (thr d L) ↦{fullShare} f : sProp 𝕄)
      ⊣⊢ iprop(((hSrc0).view.loc (thr d L) ↦[(hSrc0).view.set]{fullShare} f) ∗ ((hSrc1).view.loc (thr d L) ↦[(hSrc1).view.set]{fullShare} f)) :=
  BiEntails.of_eq (pts_halves (ℓ := (sSrc).view.loc (thr d L)) f (I := (hSrc0).view.set) (J := (hSrc1).view.set)
    (by rw [set_hSrc0, set_hSrc1]; exact halves_disjoint) (by rw [set_hSrc0, set_hSrc1]; exact halves_cover))

omit [FloatOps F] in
theorem scratch_join_Src (f g : Buf (Elt F) ((sSrc).view.loc (thr d L))) :
    iprop(((hSrc0).view.loc (thr d L) ↦[(hSrc0).view.set]{fullShare} f) ∗ ((hSrc1).view.loc (thr d L) ↦[(hSrc1).view.set]{fullShare} g))
      ⊢ (iprop(∃ h, (sSrc).view.loc (thr d L) ↦{fullShare} h) : sProp 𝕄) :=
  pts_halves_join (ℓ := (sSrc).view.loc (thr d L)) f g (I := (hSrc0).view.set) (J := (hSrc1).view.set)
    (by rw [set_hSrc0, set_hSrc1]; exact halves_disjoint) (by rw [set_hSrc0, set_hSrc1]; exact halves_cover)

omit [FloatOps F] in
theorem set_srcSl (o : Fin 1 → Nat) (ho : ∀ a, o a + S4000.size a ≤ S640000.size a) :
    (srcSl o ho).view.set = (Rect.unit (s := S640000) o S4000.size ho).set :=
  View.set_slice_whole (main_v1_scv : Ref sig .scVector) (Rect.unit (s := S640000) o S4000.size ho)

omit [FloatOps F] in
theorem array_split_Src (q : PosShare TreeShare) (x : Buf (Elt F) ((aSrc).view.loc (thr d L))) :
    ((aSrc).view.loc (thr d L) ↦{q} x : sProp 𝕄)
      ⊣⊢ iprop(((srcSl (k1_off1 L) (k1_off1_inb L)).view.loc (thr d L) ↦[(srcSl (k1_off1 L) (k1_off1_inb L)).view.set]{q} x)
        ∗ ((srcSl (k1_off3 L ⟨0, tlt0⟩) (off_inb1 L)).view.loc (thr d L) ↦[(srcSl (k1_off3 L ⟨0, tlt0⟩) (off_inb1 L)).view.set]{q} x)
        ∗ ((srcSl (k1_off4 L ⟨1, tlt1⟩) (off_inb2 L)).view.loc (thr d L) ↦[(srcSl (k1_off4 L ⟨1, tlt1⟩) (off_inb2 L)).view.set]{q} x)
        ∗ ((srcSl (k1_off3 L ⟨2, tlt2⟩) (off_inb3 L)).view.loc (thr d L) ↦[(srcSl (k1_off3 L ⟨2, tlt2⟩) (off_inb3 L)).view.set]{q} x)
        ∗ ((srcSl (k1_off4 L ⟨3, tlt3⟩) (off_inb4 L)).view.loc (thr d L) ↦[(srcSl (k1_off4 L ⟨3, tlt3⟩) (off_inb4 L)).view.set]{q} x)
        ∗ ((aSrc).view.loc (thr d L) ↦[((((Finset.univ \ (srcSl (k1_off1 L) (k1_off1_inb L)).view.set) \ (srcSl (k1_off3 L ⟨0, tlt0⟩) (off_inb1 L)).view.set)
            \ (srcSl (k1_off4 L ⟨1, tlt1⟩) (off_inb2 L)).view.set) \ (srcSl (k1_off3 L ⟨2, tlt2⟩) (off_inb3 L)).view.set)
            \ (srcSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aSrc).view.loc (thr d L)) x _ _ _ _ _ ?_ ?_ ?_ ?_ ?_ ?_ ?_ ?_ ?_ ?_) <;>
    (rw [set_srcSl, set_srcSl]; exact stretch_disjoint (by omega))

/-! ### Dst -/

omit [FloatOps F] in
theorem set_hDst0 : (hDst0).view.set = half0.set := View.set_slice_whole (cc1_scratch4 : Ref sig .scVector) half0
omit [FloatOps F] in
theorem set_hDst1 : (hDst1).view.set = half1.set := View.set_slice_whole (cc1_scratch4 : Ref sig .scVector) half1

omit [FloatOps F] in
theorem scratch_split_Dst (f : Buf (Elt F) ((sDst).view.loc (thr d L))) :
    ((sDst).view.loc (thr d L) ↦{fullShare} f : sProp 𝕄)
      ⊣⊢ iprop(((hDst0).view.loc (thr d L) ↦[(hDst0).view.set]{fullShare} f) ∗ ((hDst1).view.loc (thr d L) ↦[(hDst1).view.set]{fullShare} f)) :=
  BiEntails.of_eq (pts_halves (ℓ := (sDst).view.loc (thr d L)) f (I := (hDst0).view.set) (J := (hDst1).view.set)
    (by rw [set_hDst0, set_hDst1]; exact halves_disjoint) (by rw [set_hDst0, set_hDst1]; exact halves_cover))

omit [FloatOps F] in
theorem scratch_join_Dst (f g : Buf (Elt F) ((sDst).view.loc (thr d L))) :
    iprop(((hDst0).view.loc (thr d L) ↦[(hDst0).view.set]{fullShare} f) ∗ ((hDst1).view.loc (thr d L) ↦[(hDst1).view.set]{fullShare} g))
      ⊢ (iprop(∃ h, (sDst).view.loc (thr d L) ↦{fullShare} h) : sProp 𝕄) :=
  pts_halves_join (ℓ := (sDst).view.loc (thr d L)) f g (I := (hDst0).view.set) (J := (hDst1).view.set)
    (by rw [set_hDst0, set_hDst1]; exact halves_disjoint) (by rw [set_hDst0, set_hDst1]; exact halves_cover)

omit [FloatOps F] in
theorem set_dstSl (o : Fin 1 → Nat) (ho : ∀ a, o a + S4000.size a ≤ S640000.size a) :
    (dstSl o ho).view.set = (Rect.unit (s := S640000) o S4000.size ho).set :=
  View.set_slice_whole (main_v3_scv : Ref sig .scVector) (Rect.unit (s := S640000) o S4000.size ho)

omit [FloatOps F] in
theorem array_split_Dst (q : PosShare TreeShare) (x : Buf (Elt F) ((aDst).view.loc (thr d L))) :
    ((aDst).view.loc (thr d L) ↦{q} x : sProp 𝕄)
      ⊣⊢ iprop(((dstSl (k1_off1 L) (k1_off1_inb L)).view.loc (thr d L) ↦[(dstSl (k1_off1 L) (k1_off1_inb L)).view.set]{q} x)
        ∗ ((dstSl (k1_off3 L ⟨0, tlt0⟩) (off_inb1 L)).view.loc (thr d L) ↦[(dstSl (k1_off3 L ⟨0, tlt0⟩) (off_inb1 L)).view.set]{q} x)
        ∗ ((dstSl (k1_off4 L ⟨1, tlt1⟩) (off_inb2 L)).view.loc (thr d L) ↦[(dstSl (k1_off4 L ⟨1, tlt1⟩) (off_inb2 L)).view.set]{q} x)
        ∗ ((dstSl (k1_off3 L ⟨2, tlt2⟩) (off_inb3 L)).view.loc (thr d L) ↦[(dstSl (k1_off3 L ⟨2, tlt2⟩) (off_inb3 L)).view.set]{q} x)
        ∗ ((dstSl (k1_off4 L ⟨3, tlt3⟩) (off_inb4 L)).view.loc (thr d L) ↦[(dstSl (k1_off4 L ⟨3, tlt3⟩) (off_inb4 L)).view.set]{q} x)
        ∗ ((aDst).view.loc (thr d L) ↦[((((Finset.univ \ (dstSl (k1_off1 L) (k1_off1_inb L)).view.set) \ (dstSl (k1_off3 L ⟨0, tlt0⟩) (off_inb1 L)).view.set)
            \ (dstSl (k1_off4 L ⟨1, tlt1⟩) (off_inb2 L)).view.set) \ (dstSl (k1_off3 L ⟨2, tlt2⟩) (off_inb3 L)).view.set)
            \ (dstSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aDst).view.loc (thr d L)) x _ _ _ _ _ ?_ ?_ ?_ ?_ ?_ ?_ ?_ ?_ ?_ ?_) <;>
    (rw [set_dstSl, set_dstSl]; exact stretch_disjoint (by omega))

/-! ### Pr -/

omit [FloatOps F] in
theorem set_hPr0 : (hPr0).view.set = half0.set := View.set_slice_whole (cc1_scratch5 : Ref sig .scVector) half0
omit [FloatOps F] in
theorem set_hPr1 : (hPr1).view.set = half1.set := View.set_slice_whole (cc1_scratch5 : Ref sig .scVector) half1

omit [FloatOps F] in
theorem scratch_split_Pr (f : Buf (Elt F) ((sPr).view.loc (thr d L))) :
    ((sPr).view.loc (thr d L) ↦{fullShare} f : sProp 𝕄)
      ⊣⊢ iprop(((hPr0).view.loc (thr d L) ↦[(hPr0).view.set]{fullShare} f) ∗ ((hPr1).view.loc (thr d L) ↦[(hPr1).view.set]{fullShare} f)) :=
  BiEntails.of_eq (pts_halves (ℓ := (sPr).view.loc (thr d L)) f (I := (hPr0).view.set) (J := (hPr1).view.set)
    (by rw [set_hPr0, set_hPr1]; exact halves_disjoint) (by rw [set_hPr0, set_hPr1]; exact halves_cover))

omit [FloatOps F] in
theorem scratch_join_Pr (f g : Buf (Elt F) ((sPr).view.loc (thr d L))) :
    iprop(((hPr0).view.loc (thr d L) ↦[(hPr0).view.set]{fullShare} f) ∗ ((hPr1).view.loc (thr d L) ↦[(hPr1).view.set]{fullShare} g))
      ⊢ (iprop(∃ h, (sPr).view.loc (thr d L) ↦{fullShare} h) : sProp 𝕄) :=
  pts_halves_join (ℓ := (sPr).view.loc (thr d L)) f g (I := (hPr0).view.set) (J := (hPr1).view.set)
    (by rw [set_hPr0, set_hPr1]; exact halves_disjoint) (by rw [set_hPr0, set_hPr1]; exact halves_cover)

omit [FloatOps F] in
theorem set_prSl (o : Fin 1 → Nat) (ho : ∀ a, o a + S4000.size a ≤ S640000.size a) :
    (prSl o ho).view.set = (Rect.unit (s := S640000) o S4000.size ho).set :=
  View.set_slice_whole (main_arg2_scv : Ref sig .scVector) (Rect.unit (s := S640000) o S4000.size ho)

omit [FloatOps F] in
theorem array_split_Pr (q : PosShare TreeShare) (x : Buf (Elt F) ((aPr).view.loc (thr d L))) :
    ((aPr).view.loc (thr d L) ↦{q} x : sProp 𝕄)
      ⊣⊢ iprop(((prSl (k1_off1 L) (k1_off1_inb L)).view.loc (thr d L) ↦[(prSl (k1_off1 L) (k1_off1_inb L)).view.set]{q} x)
        ∗ ((prSl (k1_off3 L ⟨0, tlt0⟩) (off_inb1 L)).view.loc (thr d L) ↦[(prSl (k1_off3 L ⟨0, tlt0⟩) (off_inb1 L)).view.set]{q} x)
        ∗ ((prSl (k1_off4 L ⟨1, tlt1⟩) (off_inb2 L)).view.loc (thr d L) ↦[(prSl (k1_off4 L ⟨1, tlt1⟩) (off_inb2 L)).view.set]{q} x)
        ∗ ((prSl (k1_off3 L ⟨2, tlt2⟩) (off_inb3 L)).view.loc (thr d L) ↦[(prSl (k1_off3 L ⟨2, tlt2⟩) (off_inb3 L)).view.set]{q} x)
        ∗ ((prSl (k1_off4 L ⟨3, tlt3⟩) (off_inb4 L)).view.loc (thr d L) ↦[(prSl (k1_off4 L ⟨3, tlt3⟩) (off_inb4 L)).view.set]{q} x)
        ∗ ((aPr).view.loc (thr d L) ↦[((((Finset.univ \ (prSl (k1_off1 L) (k1_off1_inb L)).view.set) \ (prSl (k1_off3 L ⟨0, tlt0⟩) (off_inb1 L)).view.set)
            \ (prSl (k1_off4 L ⟨1, tlt1⟩) (off_inb2 L)).view.set) \ (prSl (k1_off3 L ⟨2, tlt2⟩) (off_inb3 L)).view.set)
            \ (prSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aPr).view.loc (thr d L)) x _ _ _ _ _ ?_ ?_ ?_ ?_ ?_ ?_ ?_ ?_ ?_ ?_) <;>
    (rw [set_prSl, set_prSl]; exact stretch_disjoint (by omega))

/-! ### G -/

omit [FloatOps F] in
theorem set_hG0 : (hG0).view.set = half0.set := View.set_slice_whole (cc1_scratch6 : Ref sig .scVector) half0
omit [FloatOps F] in
theorem set_hG1 : (hG1).view.set = half1.set := View.set_slice_whole (cc1_scratch6 : Ref sig .scVector) half1

omit [FloatOps F] in
theorem scratch_split_G (f : Buf (Elt F) ((sG).view.loc (thr d L))) :
    ((sG).view.loc (thr d L) ↦{fullShare} f : sProp 𝕄)
      ⊣⊢ iprop(((hG0).view.loc (thr d L) ↦[(hG0).view.set]{fullShare} f) ∗ ((hG1).view.loc (thr d L) ↦[(hG1).view.set]{fullShare} f)) :=
  BiEntails.of_eq (pts_halves (ℓ := (sG).view.loc (thr d L)) f (I := (hG0).view.set) (J := (hG1).view.set)
    (by rw [set_hG0, set_hG1]; exact halves_disjoint) (by rw [set_hG0, set_hG1]; exact halves_cover))

omit [FloatOps F] in
theorem scratch_join_G (f g : Buf (Elt F) ((sG).view.loc (thr d L))) :
    iprop(((hG0).view.loc (thr d L) ↦[(hG0).view.set]{fullShare} f) ∗ ((hG1).view.loc (thr d L) ↦[(hG1).view.set]{fullShare} g))
      ⊢ (iprop(∃ h, (sG).view.loc (thr d L) ↦{fullShare} h) : sProp 𝕄) :=
  pts_halves_join (ℓ := (sG).view.loc (thr d L)) f g (I := (hG0).view.set) (J := (hG1).view.set)
    (by rw [set_hG0, set_hG1]; exact halves_disjoint) (by rw [set_hG0, set_hG1]; exact halves_cover)

omit [FloatOps F] in
theorem set_gSl (o : Fin 1 → Nat) (ho : ∀ a, o a + S4000.size a ≤ S640000.size a) :
    (gSl o ho).view.set = (Rect.unit (s := S640000) o S4000.size ho).set :=
  View.set_slice_whole (main_v5_scv : Ref sig .scVector) (Rect.unit (s := S640000) o S4000.size ho)

omit [FloatOps F] in
theorem array_split_G (q : PosShare TreeShare) (x : Buf (Elt F) ((aG).view.loc (thr d L))) :
    ((aG).view.loc (thr d L) ↦{q} x : sProp 𝕄)
      ⊣⊢ iprop(((gSl (k1_off1 L) (k1_off1_inb L)).view.loc (thr d L) ↦[(gSl (k1_off1 L) (k1_off1_inb L)).view.set]{q} x)
        ∗ ((gSl (k1_off3 L ⟨0, tlt0⟩) (off_inb1 L)).view.loc (thr d L) ↦[(gSl (k1_off3 L ⟨0, tlt0⟩) (off_inb1 L)).view.set]{q} x)
        ∗ ((gSl (k1_off4 L ⟨1, tlt1⟩) (off_inb2 L)).view.loc (thr d L) ↦[(gSl (k1_off4 L ⟨1, tlt1⟩) (off_inb2 L)).view.set]{q} x)
        ∗ ((gSl (k1_off3 L ⟨2, tlt2⟩) (off_inb3 L)).view.loc (thr d L) ↦[(gSl (k1_off3 L ⟨2, tlt2⟩) (off_inb3 L)).view.set]{q} x)
        ∗ ((gSl (k1_off4 L ⟨3, tlt3⟩) (off_inb4 L)).view.loc (thr d L) ↦[(gSl (k1_off4 L ⟨3, tlt3⟩) (off_inb4 L)).view.set]{q} x)
        ∗ ((aG).view.loc (thr d L) ↦[((((Finset.univ \ (gSl (k1_off1 L) (k1_off1_inb L)).view.set) \ (gSl (k1_off3 L ⟨0, tlt0⟩) (off_inb1 L)).view.set)
            \ (gSl (k1_off4 L ⟨1, tlt1⟩) (off_inb2 L)).view.set) \ (gSl (k1_off3 L ⟨2, tlt2⟩) (off_inb3 L)).view.set)
            \ (gSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aG).view.loc (thr d L)) x _ _ _ _ _ ?_ ?_ ?_ ?_ ?_ ?_ ?_ ?_ ?_ ?_) <;>
    (rw [set_gSl, set_gSl]; exact stretch_disjoint (by omega))

/-! ### B -/

omit [FloatOps F] in
theorem set_hB0 : (hB0).view.set = half0.set := View.set_slice_whole (cc1_scratch7 : Ref sig .scVector) half0
omit [FloatOps F] in
theorem set_hB1 : (hB1).view.set = half1.set := View.set_slice_whole (cc1_scratch7 : Ref sig .scVector) half1

omit [FloatOps F] in
theorem scratch_split_B (f : Buf (Elt F) ((sB).view.loc (thr d L))) :
    ((sB).view.loc (thr d L) ↦{fullShare} f : sProp 𝕄)
      ⊣⊢ iprop(((hB0).view.loc (thr d L) ↦[(hB0).view.set]{fullShare} f) ∗ ((hB1).view.loc (thr d L) ↦[(hB1).view.set]{fullShare} f)) :=
  BiEntails.of_eq (pts_halves (ℓ := (sB).view.loc (thr d L)) f (I := (hB0).view.set) (J := (hB1).view.set)
    (by rw [set_hB0, set_hB1]; exact halves_disjoint) (by rw [set_hB0, set_hB1]; exact halves_cover))

omit [FloatOps F] in
theorem scratch_join_B (f g : Buf (Elt F) ((sB).view.loc (thr d L))) :
    iprop(((hB0).view.loc (thr d L) ↦[(hB0).view.set]{fullShare} f) ∗ ((hB1).view.loc (thr d L) ↦[(hB1).view.set]{fullShare} g))
      ⊢ (iprop(∃ h, (sB).view.loc (thr d L) ↦{fullShare} h) : sProp 𝕄) :=
  pts_halves_join (ℓ := (sB).view.loc (thr d L)) f g (I := (hB0).view.set) (J := (hB1).view.set)
    (by rw [set_hB0, set_hB1]; exact halves_disjoint) (by rw [set_hB0, set_hB1]; exact halves_cover)

omit [FloatOps F] in
theorem set_bSl (o : Fin 1 → Nat) (ho : ∀ a, o a + S4000.size a ≤ S640000.size a) :
    (bSl o ho).view.set = (Rect.unit (s := S640000) o S4000.size ho).set :=
  View.set_slice_whole (main_v7_scv : Ref sig .scVector) (Rect.unit (s := S640000) o S4000.size ho)

omit [FloatOps F] in
theorem array_split_B (q : PosShare TreeShare) (x : Buf (Elt F) ((aB).view.loc (thr d L))) :
    ((aB).view.loc (thr d L) ↦{q} x : sProp 𝕄)
      ⊣⊢ iprop(((bSl (k1_off1 L) (k1_off1_inb L)).view.loc (thr d L) ↦[(bSl (k1_off1 L) (k1_off1_inb L)).view.set]{q} x)
        ∗ ((bSl (k1_off3 L ⟨0, tlt0⟩) (off_inb1 L)).view.loc (thr d L) ↦[(bSl (k1_off3 L ⟨0, tlt0⟩) (off_inb1 L)).view.set]{q} x)
        ∗ ((bSl (k1_off4 L ⟨1, tlt1⟩) (off_inb2 L)).view.loc (thr d L) ↦[(bSl (k1_off4 L ⟨1, tlt1⟩) (off_inb2 L)).view.set]{q} x)
        ∗ ((bSl (k1_off3 L ⟨2, tlt2⟩) (off_inb3 L)).view.loc (thr d L) ↦[(bSl (k1_off3 L ⟨2, tlt2⟩) (off_inb3 L)).view.set]{q} x)
        ∗ ((bSl (k1_off4 L ⟨3, tlt3⟩) (off_inb4 L)).view.loc (thr d L) ↦[(bSl (k1_off4 L ⟨3, tlt3⟩) (off_inb4 L)).view.set]{q} x)
        ∗ ((aB).view.loc (thr d L) ↦[((((Finset.univ \ (bSl (k1_off1 L) (k1_off1_inb L)).view.set) \ (bSl (k1_off3 L ⟨0, tlt0⟩) (off_inb1 L)).view.set)
            \ (bSl (k1_off4 L ⟨1, tlt1⟩) (off_inb2 L)).view.set) \ (bSl (k1_off3 L ⟨2, tlt2⟩) (off_inb3 L)).view.set)
            \ (bSl (k1_off4 L ⟨3, tlt3⟩) (off_inb4 L)).view.set]{q} x)) := by
  have e0 := off0_val L; have e1 := off1_val L; have e2 := off2_val L; have e3 := off3_val L; have e4 := off4_val L
  refine BiEntails.of_eq (pts_carve5 (ℓ := (aB).view.loc (thr d L)) x _ _ _ _ _ ?_ ?_ ?_ ?_ ?_ ?_ ?_ ?_ ?_ ?_) <;>
    (rw [set_bSl, set_bSl]; exact stretch_disjoint (by omega))

end Tile

end Cert.Proof.K

end
-- ==== Proof.K.Lanes.lean ====
/-
  Index facts about sixteen-lane windows of the edge arrays and the numbering of a tile's groups.

  A tile's 20000 edges are walked as 5 chunks of 4000; a chunk as 50 rounds of 5 groups of sixteen. The
  group at chunk `c`, round `i`, place `u` starts `4000 c + 80 i + 16 u` edges into the tile, which is
  sixteen times its running number `250 c + 5 i + u`. A sixteen-lane read at offset `o` of a 4000-entry
  window that holds the entries of an edge array from `off` on is the array's sixteen entries from
  `off + o` on. For any float instance and any element type.
-/
import proofs.«213808_g38010460570139_cont_8to1_b_868_22_alg».proof.Proof.K.Spec

noncomputable section

namespace Cert.Kernel.Spec

open Idealize.ShloMosaic Cert.Kernel

variable {F : FTy → Type} [FloatOps F]

/-! ### Coordinates of the named indices -/

theorem ln_val (k : Fin 16) : ((ln k) 0).val = k.val := rfl
theorem nd_val (n : Fin 10240) : ((nd n) 0).val = n.val := rfl
theorem ed_val_min (n : Nat) : ((ed n) 0).val = min n 639999 := rfl

/-- Below the array's length the clamp does nothing. -/
theorem ed_val {n : Nat} (h : n < 640000) : ((ed n) 0).val = n := by
  show min n 639999 = n
  omega

/-- A lane index is the named index of its own coordinate. -/
theorem ln_eta (j : S16.Idx) : ln (j 0) = j := by
  funext a
  obtain rfl : a = 0 := Fin.eq_zero a
  exact Fin.ext rfl

/-- A node index is the named index of its own coordinate. -/
theorem nd_eta (j : S10240.Idx) : nd (j 0) = j := by
  funext a
  obtain rfl : a = 0 := Fin.eq_zero a
  exact Fin.ext rfl

/-- An edge index is the clamped index of its own coordinate. -/
theorem ed_eta (j : S640000.Idx) : ed (j 0).val = j := by
  funext a
  obtain rfl : a = 0 := Fin.eq_zero a
  apply Fin.ext
  have h : (j 0).val < 640000 := (j 0).isLt
  show min (j 0).val 639999 = (j 0).val
  omega

/-- Two edge indices with one coordinate are one index. -/
theorem ed_ext {i j : S640000.Idx} (h : (i 0).val = (j 0).val) : i = j := by
  funext a
  obtain rfl : a = 0 := Fin.eq_zero a
  exact Fin.ext h

/-! ### Sixteen-lane windows -/

theorem lanes_apply {e : EltTy} (x : Vec F S640000 e) (off : Nat) (k : Fin 16) :
    lanes (F := F) x off (ln k) = x (ed (off + k.val)) := rfl

theorem lanes_apply' {e : EltTy} (x : Vec F S640000 e) (off : Nat) (j : S16.Idx) :
    lanes (F := F) x off j = x (ed (off + (j 0).val)) := rfl

/-- The 4000 entries of an edge array from offset `off` on. -/
def win {e : EltTy} (x : Vec F S640000 e) (off : Nat) : Vec F S4000 e := fun j => x (ed (off + (j 0).val))

theorem win_apply {e : EltTy} (x : Vec F S640000 e) (off : Nat) (j : S4000.Idx) :
    win (F := F) x off j = x (ed (off + (j 0).val)) := rfl

/-- A lane's position in a 4000-entry window read at offset `o`. -/
theorem lane_lt {o : Nat} (ho : o + 16 ≤ 4000) (k : S16.Idx) : o + (k 0).val < 4000 := by
  have h : (k 0).val < 16 := (k 0).isLt
  omega

/-- Sixteen lanes read at offset `o` of anything that holds the array's entries from `off` on are the
    array's sixteen entries from `off + o` on. -/
theorem lanes_of_window {e : EltTy} (x : Vec F S640000 e) (off : Nat) (W : Vec F S4000 e)
    (hW : ∀ j : S4000.Idx, W j = x (ed (off + (j 0).val))) (o : Nat) (ho : o + 16 ≤ 4000) :
    (fun k : S16.Idx => W (Shape.ofLane (d := ![4000]) ⟨o + (k 0).val, lane_lt ho k⟩)) = lanes (F := F) x (off + o) := by
  funext k
  rw [hW]
  show x (ed (off + (o + (k 0).val))) = x (ed (off + o + (k 0).val))
  rw [Nat.add_assoc]

theorem lanes_win {e : EltTy} (x : Vec F S640000 e) (off o : Nat) (ho : o + 16 ≤ 4000) :
    (fun k : S16.Idx => win (F := F) x off (Shape.ofLane (d := ![4000]) ⟨o + (k 0).val, lane_lt ho k⟩)) =
      lanes (F := F) x (off + o) :=
  lanes_of_window x off (win x off) (fun _ => rfl) o ho

/-- A lane's position in an 8000-entry buffer read at offset `o` of the half that starts at `hb`. -/
theorem lane_lt_half {hb o : Nat} (hhb : hb + 4000 ≤ 8000) (ho : o + 16 ≤ 4000) (k : S16.Idx) :
    hb + o + (k 0).val < 8000 := by
  have h : (k 0).val < 16 := (k 0).isLt
  omega

/-- The same for one half of an 8000-entry buffer: if the half that starts at `hb` holds the array's
    entries from `off` on, sixteen lanes read at `hb + o` are the array's sixteen entries from `off + o` on. -/
theorem lanes_of_half {e : EltTy} (x : Vec F S640000 e) (off hb : Nat) (hhb : hb + 4000 ≤ 8000) (B : Vec F S8000 e)
    (hB : ∀ (i : Nat) (hi : i < 4000),
      B (Shape.ofLane (d := ![8000]) ⟨hb + i, by show hb + i < 8000; omega⟩) = x (ed (off + i)))
    (o : Nat) (ho : o + 16 ≤ 4000) :
    (fun k : S16.Idx => B (Shape.ofLane (d := ![8000]) ⟨hb + o + (k 0).val, lane_lt_half hhb ho k⟩)) =
      lanes (F := F) x (off + o) := by
  funext k
  have h : (k 0).val < 16 := (k 0).isLt
  have e1 := hB (o + (k 0).val) (by omega)
  show _ = x (ed (off + o + (k 0).val))
  rw [Nat.add_assoc off o, ← e1]
  congr 1
  funext a
  obtain rfl : a = 0 := Fin.eq_zero a
  apply Fin.ext
  show hb + o + (k 0).val = hb + (o + (k 0).val)
  omega

/-! ### The numbering of a tile's groups -/

/-- Group `n` of the tile that starts at `base`, applied to a pair of accumulators. -/
def grpAt (tab : FVec F S10240 .f32) (src dst : IVec S640000 32) (prob g b : FVec F S640000 .f32) (base n : Nat)
    (acc : FVec F S10240 .f32 × FVec F S10240 .f32) : FVec F S10240 .f32 × FVec F S10240 .f32 :=
  grpStep tab (lanes (F := F) (e := .i32) src (base + 16 * n)) (lanes (F := F) (e := .i32) dst (base + 16 * n))
    (lanes (F := F) (e := .f32) prob (base + 16 * n)) (lanes (F := F) (e := .f32) g (base + 16 * n))
    (lanes (F := F) (e := .f32) b (base + 16 * n)) acc

theorem tileAcc_zero (tab : FVec F S10240 .f32) (src dst : IVec S640000 32) (prob g b : FVec F S640000 .f32) (base : Nat) :
    tileAcc tab src dst prob g b base 0 = acc0 := rfl

theorem tileAcc_succ (tab : FVec F S10240 .f32) (src dst : IVec S640000 32) (prob g b : FVec F S640000 .f32)
    (base n : Nat) :
    tileAcc tab src dst prob g b base (n + 1) = grpAt tab src dst prob g b base n (tileAcc tab src dst prob g b base n) := rfl

/-- One round: five consecutive groups. -/
theorem tileAcc_add_five (tab : FVec F S10240 .f32) (src dst : IVec S640000 32) (prob g b : FVec F S640000 .f32)
    (base m : Nat) :
    tileAcc tab src dst prob g b base (m + 5) =
      grpAt tab src dst prob g b base (m + 4) (grpAt tab src dst prob g b base (m + 3)
        (grpAt tab src dst prob g b base (m + 2) (grpAt tab src dst prob g b base (m + 1)
          (grpAt tab src dst prob g b base m (tileAcc tab src dst prob g b base m))))) := rfl

/-- Where group `u` of round `i` of chunk `c` starts, in edges from the tile's first. -/
theorem grp_offset (c i u : Nat) : 4000 * c + 80 * i + 16 * u = 16 * (250 * c + 5 * i + u) := by omega

theorem grp_offset' (c i u : Nat) : 4000 * c + (i * 5 + u) * 16 = 16 * (250 * c + 5 * i + u) := by omega

/-- The running number of the group after a round's five, and after a chunk's fifty rounds. -/
theorem grp_round (c i : Nat) : 250 * c + 5 * i + 5 = 250 * c + 5 * (i + 1) := by omega
theorem grp_chunk (c : Nat) : 250 * c + 5 * 50 = 250 * (c + 1) := by omega

/-- A group's lanes of an edge array, at the offset written chunk by chunk. -/
theorem lanes_grp {e : EltTy} (x : Vec F S640000 e) (base c i u : Nat) :
    lanes (F := F) x (base + 16 * (250 * c + 5 * i + u)) = lanes (F := F) x (base + 4000 * c + (80 * i + 16 * u)) := by
  congr 1
  omega

/-- A group's lanes read off a chunk's window: the chunk `c` window of the tile at `base` holds the
    array from `base + 4000 c` on, and group `u` of round `i` reads it at `80 i + 16 u`. -/
theorem lanes_grp_of_window {e : EltTy} (x : Vec F S640000 e) (base c i u : Nat) (hi : i < 50) (hu : u < 5)
    (W : Vec F S4000 e) (hW : ∀ j : S4000.Idx, W j = x (ed (base + 4000 * c + (j 0).val))) :
    (fun k : S16.Idx => W (Shape.ofLane (d := ![4000]) ⟨80 * i + 16 * u + (k 0).val, lane_lt (by omega) k⟩)) =
      lanes (F := F) x (base + 16 * (250 * c + 5 * i + u)) := by
  rw [lanes_grp]
  exact lanes_of_window x (base + 4000 * c) W hW (80 * i + 16 * u) (by omega)

end Cert.Kernel.Spec

end
-- ==== Proof.K.TilePrologue.lean ====
/-
  The prologue of one vector subcore's task. Before its loop over the five chunks of its 20000 edges the
  tile (1) starts the five copies of its first chunk — source and destination node numbers,
  probabilities, the two parameter columns — into the first halves of the five double-buffered
  scratch buffers, all on one DMA semaphore and none waited for yet; (2) copies the squared-voltage
  table into its own scratch and waits for it; (3) zeroes its two accumulators, sixteen entries a trip.
  It ends holding the table in scratch, both accumulators at zero, and the batch of five copies
  outstanding, which the chunk loop's first trip drains.
-/
import proofs.«213808_g38010460570139_cont_8to1_b_868_22_alg».proof.Proof.K.TileSetup
import proofs.«213808_g38010460570139_cont_8to1_b_868_22_alg».proof.Proof.K.TileNames
import proofs.«213808_g38010460570139_cont_8to1_b_868_22_alg».proof.Proof.K.TileBatch
import proofs.«213808_g38010460570139_cont_8to1_b_868_22_alg».proof.Proof.K.Lanes

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Prologue

variable (d : Dev nD) (L : grid1.Coords)

/-! ## The zero fill -/

/-- A 10240-entry accumulator whose first `16 k` entries have been zeroed. -/
def fillTo (f : FVec F S10240 .f32) (k : Nat) : FVec F S10240 .f32 :=
  fun j => if (j 0).val < 16 * k then Scalar.ofBits .f32 0x00000000#32 else f j

theorem fillTo_zero (f : FVec F S10240 .f32) : fillTo f 0 = f := by
  funext j; simp [fillTo]

/-- After all 640 trips every entry is zero: the accumulators as the specification starts them. -/
theorem fillTo_all_fst (f : FVec F S10240 .f32) : fillTo f 640 = (Spec.acc0 (F := F)).1 := by
  funext j
  have h : (j 0).val < 16 * 640 := (j 0).isLt
  simp only [fillTo, h, if_true]
  rfl

theorem fillTo_all_snd (f : FVec F S10240 .f32) : fillTo f 640 = (Spec.acc0 (F := F)).2 := by
  funext j
  have h : (j 0).val < 16 * 640 := (j 0).isLt
  simp only [fillTo, h, if_true]
  rfl

theorem trips_t1 : Scf.trips k1_t1_loop.lb k1_t1_loop.ub k1_t1_loop.st = 640 := by decide

/-- The fill loop's invariant: both accumulators zeroed below entry `16 k`. -/
def fillInv (f1 f2 : FVec F S10240 .f32) (k : Nat) (_ : Unit) : sProp 𝕄 :=
  iprop((sAccP.view.loc (thr d L) ↦{fullShare} fillTo f1 k) ∗ (sAccQ.view.loc (thr d L) ↦{fullShare} fillTo f2 k))

/-- One trip of the fill: sixteen zeros stored at entry `16 k` of an accumulator zeroed below `16 k` leave it
    zeroed below `16 (k + 1)`. -/
theorem fill_stepP (f : FVec F S10240 .f32) (k : Fin k1_t1_loop.trips) :
    sAccP.view.writes (Elt F) (fillTo f k.val) [⟨Rect.unit (s := S10240) (k1_off2 k) S16.size (k1_off2_inb k), k1_pay21⟩] = fillTo f (k.val + 1) := by
  funext i
  have hk : k.val < 640 := Nat.lt_of_lt_of_le k.isLt k1_t1_abs.2.1
  have hoff : k1_off2 k 0 = 16 * k.val := congrFun (k1_off2_eq k) 0
  show (View.whole cc1_scratch1).read (Elt F) ((View.whole cc1_scratch1).writes (Elt F) (fillTo f k.val)
    [⟨Rect.unit (s := S10240) (k1_off2 k) S16.size (k1_off2_inb k), k1_pay21⟩]) i = fillTo f (k.val + 1) i
  by_cases hi : 16 * k.val ≤ (i 0).val ∧ (i 0).val < 16 * k.val + 16
  · let x : S16.Idx := fun a => ⟨(i 0).val - 16 * k.val, by
      obtain rfl : a = 0 := Subsingleton.elim _ _
      show (i 0).val - 16 * k.val < 16
      omega⟩
    have hx : (Rect.unit (s := S10240) (k1_off2 k) S16.size (k1_off2_inb k)).emb x = i := by
      funext a
      obtain rfl : a = 0 := Subsingleton.elim _ _
      apply Fin.ext
      rw [Rect.emb_apply, Rect.off_unit, Rect.stride_unit]
      have hx0 : (x 0).val = (i 0).val - 16 * k.val := rfl
      omega
    rw [← hx, View.read_writes_cons_emb, hx]
    have hlt : (i 0).val < 16 * (k.val + 1) := by omega
    simp only [fillTo, hlt, if_true]
    rfl
  · have hnot : ∀ p ∈ ([⟨Rect.unit (s := S10240) (k1_off2 k) S16.size (k1_off2_inb k), k1_pay21⟩] : List (View.Piece (Elt F) S10240 .f32)), i ∉ p.1.set := by
      intro p hp
      obtain rfl := List.mem_singleton.mp hp
      rw [Rect.mem_set_unit]
      intro h
      have h0 := h 0
      have hs : S16.size 0 = 16 := rfl
      exact hi ⟨by omega, by omega⟩
    rw [View.read_writes_apply_of_forall_not_mem _ _ i _ hnot]
    show fillTo f k.val i = fillTo f (k.val + 1) i
    unfold fillTo
    by_cases h1 : (i 0).val < 16 * k.val
    · have h2 : (i 0).val < 16 * (k.val + 1) := by omega
      rw [if_pos h1, if_pos h2]
    · have h2 : ¬ (i 0).val < 16 * (k.val + 1) := by omega
      rw [if_neg h1, if_neg h2]

theorem fill_stepQ (f : FVec F S10240 .f32) (k : Fin k1_t1_loop.trips) :
    sAccQ.view.writes (Elt F) (fillTo f k.val) [⟨Rect.unit (s := S10240) (k1_off2 k) S16.size (k1_off2_inb k), k1_pay21⟩] = fillTo f (k.val + 1) := by
  funext i
  have hk : k.val < 640 := Nat.lt_of_lt_of_le k.isLt k1_t1_abs.2.1
  have hoff : k1_off2 k 0 = 16 * k.val := congrFun (k1_off2_eq k) 0
  show (View.whole cc1_scratch2).read (Elt F) ((View.whole cc1_scratch2).writes (Elt F) (fillTo f k.val)
    [⟨Rect.unit (s := S10240) (k1_off2 k) S16.size (k1_off2_inb k), k1_pay21⟩]) i = fillTo f (k.val + 1) i
  by_cases hi : 16 * k.val ≤ (i 0).val ∧ (i 0).val < 16 * k.val + 16
  · let x : S16.Idx := fun a => ⟨(i 0).val - 16 * k.val, by
      obtain rfl : a = 0 := Subsingleton.elim _ _
      show (i 0).val - 16 * k.val < 16
      omega⟩
    have hx : (Rect.unit (s := S10240) (k1_off2 k) S16.size (k1_off2_inb k)).emb x = i := by
      funext a
      obtain rfl : a = 0 := Subsingleton.elim _ _
      apply Fin.ext
      rw [Rect.emb_apply, Rect.off_unit, Rect.stride_unit]
      have hx0 : (x 0).val = (i 0).val - 16 * k.val := rfl
      omega
    rw [← hx, View.read_writes_cons_emb, hx]
    have hlt : (i 0).val < 16 * (k.val + 1) := by omega
    simp only [fillTo, hlt, if_true]
    rfl
  · have hnot : ∀ p ∈ ([⟨Rect.unit (s := S10240) (k1_off2 k) S16.size (k1_off2_inb k), k1_pay21⟩] : List (View.Piece (Elt F) S10240 .f32)), i ∉ p.1.set := by
      intro p hp
      obtain rfl := List.mem_singleton.mp hp
      rw [Rect.mem_set_unit]
      intro h
      have h0 := h 0
      have hs : S16.size 0 = 16 := rfl
      exact hi ⟨by omega, by omega⟩
    rw [View.read_writes_apply_of_forall_not_mem _ _ i _ hnot]
    show fillTo f k.val i = fillTo f (k.val + 1) i
    unfold fillTo
    by_cases h1 : (i 0).val < 16 * k.val
    · have h2 : (i 0).val < 16 * (k.val + 1) := by omega
      rw [if_pos h1, if_pos h2]
    · have h2 : ¬ (i 0).val < 16 * (k.val + 1) := by omega
      rw [if_neg h1, if_neg h2]

/-! ## The table copy -/

/-- A copy that fills the whole table scratch leaves exactly what it carried. -/
theorem tab_landed (f0 w : FVec F S10240 .f32) : View.write (Elt F) sTab.view f0 w Finset.univ = w := by
  show View.write (Elt F) (View.whole cc1_scratch0) f0 w Finset.univ = w
  exact View.write_whole_univ (Val := Elt F) cc1_scratch0 f0 w

/-! ## The prologue -/

/-- The tile's first edge, as the word the kernel computes: `(2 s + c) · 20000` at grid coordinates `(c, s)`. -/
def tileWord (L : grid1.Coords) : BitVec 32 :=
  Scalar.muli (Scalar.addi (Scalar.muli (BitVec.ofNat 32 (L 1).val) 2#32) (BitVec.ofNat 32 (L 0).val)) 20000#32

/-- What the prologue leaves. -/
def proPost (q : PosShare TreeShare) (O : CellTallies nD τ sig (HIx 1)) (W : Waits sig (HIx 1))
    (tab : FVec F S10240 .f32) (xs xd : IVec S640000 32) (xp xg xb : FVec F S640000 .f32)
    (f3 f4 : IVec S8000 32) (f5 f6 f7 : FVec F S8000 .f32) : sProp 𝕄 :=
  iprop(Transfers.MayWaits (thr d L) (none : HIx 1) O
    ∗ (aV2.view.loc (thr d L) ↦{q} tab) ∗ (sTab.view.loc (thr d L) ↦{fullShare} tab)
    ∗ (sAccP.view.loc (thr d L) ↦{fullShare} (Spec.acc0 (F := F)).1) ∗ (sAccQ.view.loc (thr d L) ↦{fullShare} (Spec.acc0 (F := F)).2)
    ∗ Transfers.Batch (EC (F := F)) (thr d L) (SemLoc.dma cc1_scratch8.sem) (default : HIx 1) NN (DE d L q xs xd xp xg xb f3 f4 f5 f6 f7 (k1_off1 L) (k1_off1_inb L)) 5 0
    ∗ semVal (cell d L cc1_scoped0) 0
    ∗ ∃ W', ⌜∀ p ∈ W', p ∈ W ∨ p.2 = none⌝ ∗ owes (thr d L) O W')

/-- The prologue, with both the returned words named. -/
theorem prologue_full (q : PosShare TreeShare) (O : CellTallies nD τ sig (HIx 1)) (W : Waits sig (HIx 1))
    (tab : FVec F S10240 .f32) (xs xd : IVec S640000 32) (xp xg xb : FVec F S640000 .f32)
    (f0 f1 f2 : FVec F S10240 .f32) (f3 f4 : IVec S8000 32) (f5 f6 f7 : FVec F S8000 .f32) :
    iprop(Transfers.MayWaits (thr d L) (none : HIx 1) O
        ∗ (aV2.view.loc (thr d L) ↦{q} tab)
        ∗ ((srcSl (k1_off1 L) (k1_off1_inb L)).view.loc (thr d L) ↦[(srcSl (k1_off1 L) (k1_off1_inb L)).view.set]{q} xs)
        ∗ ((dstSl (k1_off1 L) (k1_off1_inb L)).view.loc (thr d L) ↦[(dstSl (k1_off1 L) (k1_off1_inb L)).view.set]{q} xd)
        ∗ ((prSl (k1_off1 L) (k1_off1_inb L)).view.loc (thr d L) ↦[(prSl (k1_off1 L) (k1_off1_inb L)).view.set]{q} xp)
        ∗ ((gSl (k1_off1 L) (k1_off1_inb L)).view.loc (thr d L) ↦[(gSl (k1_off1 L) (k1_off1_inb L)).view.set]{q} xg)
        ∗ ((bSl (k1_off1 L) (k1_off1_inb L)).view.loc (thr d L) ↦[(bSl (k1_off1 L) (k1_off1_inb L)).view.set]{q} xb)
        ∗ (sTab.view.loc (thr d L) ↦{fullShare} f0) ∗ (sAccP.view.loc (thr d L) ↦{fullShare} f1) ∗ (sAccQ.view.loc (thr d L) ↦{fullShare} f2)
        ∗ (hSrc0.view.loc (thr d L) ↦[hSrc0.view.set]{fullShare} f3) ∗ (hDst0.view.loc (thr d L) ↦[hDst0.view.set]{fullShare} f4)
        ∗ (hPr0.view.loc (thr d L) ↦[hPr0.view.set]{fullShare} f5) ∗ (hG0.view.loc (thr d L) ↦[hG0.view.set]{fullShare} f6)
        ∗ (hB0.view.loc (thr d L) ↦[hB0.view.set]{fullShare} f7)
        ∗ semVal (cell d L cc1_scratch8) 0 ∗ semVal (cell d L cc1_scoped0) 0 ∗ owes (thr d L) O W)
      ⊢ wp frame (wpE (defs₀ (F := F)) 𝒱₀ (thr d L) none) Set.univ
          (k1_part3 L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2)
          (fun r => iprop(⌜r.1 = tileWord L ∧ r.2 = ⟨0#32, 1#32⟩⌝ ∗ proPost d L q O W tab xs xd xp xg xb f3 f4 f5 f6 f7)) := by
  rw [k1_part3_eq_skeleton]; unfold k1_part3_skel
  iintro ⟨Hmw, Hv2, Hsrc, Hdst, Hpr, Hg, Hb, Htab, Hap, Haq, Hsv, Hdv, Hpv, Hgv, Hbv, Hs8, Hc0, HO⟩
  imod (Transfers.batch_alloc' (Lvl := ℕ) (EC (F := F)) (thr d L) (default : HIx 1) NN (DE d L q xs xd xp xg xb f3 f4 f5 f6 f7 (k1_off1 L) (k1_off1_inb L)) (sm := SemLoc.dma cc1_scratch8.sem) (E := Set.univ)) $$ Hs8 with HB
  sl_exec
  sl_for (fillInv d L f1 f2) $$ [Hap Haq]
  case region =>
    intro k _
    unfold fillInv
    iintro ⟨Hap, Haq⟩
    sl_exec
    rw [fill_stepP, fill_stepQ]
    sl_step
    isplitl [Hap]; · iexact Hap
    iexact Haq
  · unfold fillInv
    rw [fillTo_zero, fillTo_zero]
    isplitl [Hap]; · iexact Hap
    iexact Haq
  iintro %_ HI
  unfold fillInv
  rw [trips_t1, fillTo_all_fst, fillTo_all_snd, tab_landed]
  icases HI with ⟨Hap, Haq⟩
  sl_exec
  sl_step
  unfold proPost
  isplitr
  · ipureintro; exact ⟨rfl, rfl⟩
  isplitl [Hmw]; · iexact Hmw
  isplitl [Hv2]; · iexact Hv2
  isplitl [Htab]; · iexact Htab
  isplitl [Hap]; · iexact Hap
  isplitl [Haq]; · iexact Haq
  isplitl [HB]; · iexact HB
  isplitl [Hc0]; · iexact Hc0
  iexists (insert (SemLoc.dma cc1_scoped0.sem, (default : HIx 1)) W); isplitr
  · ipureintro; intro p hp
    rcases Finset.mem_insert.mp hp with hp | hp
    · exact .inr (hp ▸ rfl)
    · exact .inl hp
  · iexact HO

/-- The prologue in the form the chunk loop takes it: the two loop words named, the resources as above. -/
theorem prologue (q : PosShare TreeShare) (O : CellTallies nD τ sig (HIx 1)) (W : Waits sig (HIx 1))
    (tab : FVec F S10240 .f32) (xs xd : IVec S640000 32) (xp xg xb : FVec F S640000 .f32)
    (f0 f1 f2 : FVec F S10240 .f32) (f3 f4 : IVec S8000 32) (f5 f6 f7 : FVec F S8000 .f32) :
    iprop(Transfers.MayWaits (thr d L) (none : HIx 1) O
        ∗ (aV2.view.loc (thr d L) ↦{q} tab)
        ∗ ((srcSl (k1_off1 L) (k1_off1_inb L)).view.loc (thr d L) ↦[(srcSl (k1_off1 L) (k1_off1_inb L)).view.set]{q} xs)
        ∗ ((dstSl (k1_off1 L) (k1_off1_inb L)).view.loc (thr d L) ↦[(dstSl (k1_off1 L) (k1_off1_inb L)).view.set]{q} xd)
        ∗ ((prSl (k1_off1 L) (k1_off1_inb L)).view.loc (thr d L) ↦[(prSl (k1_off1 L) (k1_off1_inb L)).view.set]{q} xp)
        ∗ ((gSl (k1_off1 L) (k1_off1_inb L)).view.loc (thr d L) ↦[(gSl (k1_off1 L) (k1_off1_inb L)).view.set]{q} xg)
        ∗ ((bSl (k1_off1 L) (k1_off1_inb L)).view.loc (thr d L) ↦[(bSl (k1_off1 L) (k1_off1_inb L)).view.set]{q} xb)
        ∗ (sTab.view.loc (thr d L) ↦{fullShare} f0) ∗ (sAccP.view.loc (thr d L) ↦{fullShare} f1) ∗ (sAccQ.view.loc (thr d L) ↦{fullShare} f2)
        ∗ (hSrc0.view.loc (thr d L) ↦[hSrc0.view.set]{fullShare} f3) ∗ (hDst0.view.loc (thr d L) ↦[hDst0.view.set]{fullShare} f4)
        ∗ (hPr0.view.loc (thr d L) ↦[hPr0.view.set]{fullShare} f5) ∗ (hG0.view.loc (thr d L) ↦[hG0.view.set]{fullShare} f6)
        ∗ (hB0.view.loc (thr d L) ↦[hB0.view.set]{fullShare} f7)
        ∗ semVal (cell d L cc1_scratch8) 0 ∗ semVal (cell d L cc1_scoped0) 0 ∗ owes (thr d L) O W)
      ⊢ wp frame (wpE (defs₀ (F := F)) 𝒱₀ (thr d L) none) Set.univ
          (k1_part3 L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2)
          (fun r => iprop(⌜r.2 = ⟨0#32, 1#32⟩⌝ ∗ proPost d L q O W tab xs xd xp xg xb f3 f4 f5 f6 f7)) :=
  (prologue_full d L q O W tab xs xd xp xg xb f0 f1 f2 f3 f4 f5 f6 f7).trans (wp_mono frame _ _ fun r => by
    iintro ⟨%h, H⟩
    isplitr
    · ipureintro; exact h.2
    · iexact H)

end Prologue

end Cert.Proof.K

end
-- ==== Proof.K.TileChunkInv.lean ====
/-
  What a tile holds between the chunks of its edge range: the table, the accumulators after the
  chunks done, every chunk's slices of the edge arrays but the one in flight, the scratch halves that
  chunk does not land in, its five copies outstanding on their DMA semaphore and the other semaphore
  at rest; after the last chunk, everything.
-/
import proofs.«213808_g38010460570139_cont_8to1_b_868_22_alg».proof.Proof.K.TileBatch

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

def chunkInv0 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 0)).1) ∗ (sAccQ.view.loc (thr d L) ↦{fullShare} (Spec.tileAcc tab xs xd xp xg xb base (250 * 0)).2)
      ∗ (∃ W', ⌜∀ p ∈ W', p ∈ W ∨ p.2 = none⌝ ∗ owes (thr d L) O W')
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc1.view.loc (thr d L) ↦[hSrc1.view.set]{fullShare} g)) ∗ (∃ g, (hDst1.view.loc (thr d L) ↦[hDst1.view.set]{fullShare} g)) ∗ (∃ g, (hPr1.view.loc (thr d L) ↦[hPr1.view.set]{fullShare} g)) ∗ (∃ g, (hG1.view.loc (thr d L) ↦[hG1.view.set]{fullShare} g)) ∗ (∃ g, (hB1.view.loc (thr d L) ↦[hB1.view.set]{fullShare} g))
      ∗ (∃ f3 f4 f5 f6 f7, Transfers.Batch (EC (F := F)) (thr d L) (SemLoc.dma cc1_scratch8.sem) (default : HIx 1) NN (DE d L q xs xd xp xg xb f3 f4 f5 f6 f7 (k1_off1 L) (k1_off1_inb L)) 5 0)
      ∗ semVal (cell d L cc1_scratch9) 0)

def chunkInv1 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 1)).1) ∗ (sAccQ.view.loc (thr d L) ↦{fullShare} (Spec.tileAcc tab xs xd xp xg xb base (250 * 1)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc0.view.loc (thr d L) ↦[hSrc0.view.set]{fullShare} g)) ∗ (∃ g, (hDst0.view.loc (thr d L) ↦[hDst0.view.set]{fullShare} g)) ∗ (∃ g, (hPr0.view.loc (thr d L) ↦[hPr0.view.set]{fullShare} g)) ∗ (∃ g, (hG0.view.loc (thr d L) ↦[hG0.view.set]{fullShare} g)) ∗ (∃ g, (hB0.view.loc (thr d L) ↦[hB0.view.set]{fullShare} g))
      ∗ (∃ f3 f4 f5 f6 f7, Transfers.Batch (EC (F := F)) (thr d L) (SemLoc.dma cc1_scratch9.sem) (default : HIx 1) NN (DO d L q xs xd xp xg xb f3 f4 f5 f6 f7 (k1_off3 L ⟨0, tlt0⟩) (off_inb1 L)) 5 0)
      ∗ semVal (cell d L cc1_scratch8) 0)

def chunkInv2 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 2)).1) ∗ (sAccQ.view.loc (thr d L) ↦{fullShare} (Spec.tileAcc tab xs xd xp xg xb base (250 * 2)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc1.view.loc (thr d L) ↦[hSrc1.view.set]{fullShare} g)) ∗ (∃ g, (hDst1.view.loc (thr d L) ↦[hDst1.view.set]{fullShare} g)) ∗ (∃ g, (hPr1.view.loc (thr d L) ↦[hPr1.view.set]{fullShare} g)) ∗ (∃ g, (hG1.view.loc (thr d L) ↦[hG1.view.set]{fullShare} g)) ∗ (∃ g, (hB1.view.loc (thr d L) ↦[hB1.view.set]{fullShare} g))
      ∗ (∃ f3 f4 f5 f6 f7, Transfers.Batch (EC (F := F)) (thr d L) (SemLoc.dma cc1_scratch8.sem) (default : HIx 1) NN (DE d L q xs xd xp xg xb f3 f4 f5 f6 f7 (k1_off4 L ⟨1, tlt1⟩) (off_inb2 L)) 5 0)
      ∗ semVal (cell d L cc1_scratch9) 0)

def chunkInv3 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 3)).1) ∗ (sAccQ.view.loc (thr d L) ↦{fullShare} (Spec.tileAcc tab xs xd xp xg xb base (250 * 3)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc0.view.loc (thr d L) ↦[hSrc0.view.set]{fullShare} g)) ∗ (∃ g, (hDst0.view.loc (thr d L) ↦[hDst0.view.set]{fullShare} g)) ∗ (∃ g, (hPr0.view.loc (thr d L) ↦[hPr0.view.set]{fullShare} g)) ∗ (∃ g, (hG0.view.loc (thr d L) ↦[hG0.view.set]{fullShare} g)) ∗ (∃ g, (hB0.view.loc (thr d L) ↦[hB0.view.set]{fullShare} g))
      ∗ (∃ f3 f4 f5 f6 f7, Transfers.Batch (EC (F := F)) (thr d L) (SemLoc.dma cc1_scratch9.sem) (default : HIx 1) NN (DO d L q xs xd xp xg xb f3 f4 f5 f6 f7 (k1_off3 L ⟨2, tlt2⟩) (off_inb3 L)) 5 0)
      ∗ semVal (cell d L cc1_scratch8) 0)

def chunkInv4 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 4)).1) ∗ (sAccQ.view.loc (thr d L) ↦{fullShare} (Spec.tileAcc tab xs xd xp xg xb base (250 * 4)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ (∃ g, (hSrc1.view.loc (thr d L) ↦[hSrc1.view.set]{fullShare} g)) ∗ (∃ g, (hDst1.view.loc (thr d L) ↦[hDst1.view.set]{fullShare} g)) ∗ (∃ g, (hPr1.view.loc (thr d L) ↦[hPr1.view.set]{fullShare} g)) ∗ (∃ g, (hG1.view.loc (thr d L) ↦[hG1.view.set]{fullShare} g)) ∗ (∃ g, (hB1.view.loc (thr d L) ↦[hB1.view.set]{fullShare} g))
      ∗ (∃ f3 f4 f5 f6 f7, Transfers.Batch (EC (F := F)) (thr d L) (SemLoc.dma cc1_scratch8.sem) (default : HIx 1) NN (DE d L q xs xd xp xg xb f3 f4 f5 f6 f7 (k1_off4 L ⟨3, tlt3⟩) (off_inb4 L)) 5 0)
      ∗ semVal (cell d L cc1_scratch9) 0)

def chunkInv5 (q : PosShare TreeShare) (O : CellTallies nD τ sig (HIx 1)) (W : Waits sig (HIx 1))
    (tab : FVec F S10240 .f32) (xs xd : IVec S640000 32) (xp xg xb : FVec F S640000 .f32) (base : Nat) : sProp 𝕄 :=
  iprop(Transfers.MayWaits (thr d L) (none : HIx 1) O ∗ (sTab.view.loc (thr d L) ↦{fullShare} tab)
      ∗ (sAccP.view.loc (thr d L) ↦{fullShare} (Spec.tileAcc tab xs xd xp xg xb base (250 * 5)).1) ∗ (sAccQ.view.loc (thr d L) ↦{fullShare} (Spec.tileAcc tab xs xd xp xg xb base (250 * 5)).2)
      ∗ (∃ W', ⌜∀ p ∈ W', p ∈ W ∨ p.2 = none⌝ ∗ owes (thr d L) O W')
      ∗ ((srcSl (k1_off1 L) (k1_off1_inb L)).view.loc (thr d L) ↦[(srcSl (k1_off1 L) (k1_off1_inb L)).view.set]{q} xs)
      ∗ ((dstSl (k1_off1 L) (k1_off1_inb L)).view.loc (thr d L) ↦[(dstSl (k1_off1 L) (k1_off1_inb L)).view.set]{q} xd)
      ∗ ((prSl (k1_off1 L) (k1_off1_inb L)).view.loc (thr d L) ↦[(prSl (k1_off1 L) (k1_off1_inb L)).view.set]{q} xp)
      ∗ ((gSl (k1_off1 L) (k1_off1_inb L)).view.loc (thr d L) ↦[(gSl (k1_off1 L) (k1_off1_inb L)).view.set]{q} xg)
      ∗ ((bSl (k1_off1 L) (k1_off1_inb L)).view.loc (thr d L) ↦[(bSl (k1_off1 L) (k1_off1_inb L)).view.set]{q} xb)
      ∗ ((srcSl (k1_off3 L ⟨0, tlt0⟩) (off_inb1 L)).view.loc (thr d L) ↦[(srcSl (k1_off3 L ⟨0, tlt0⟩) (off_inb1 L)).view.set]{q} xs)
      ∗ ((dstSl (k1_off3 L ⟨0, tlt0⟩) (off_inb1 L)).view.loc (thr d L) ↦[(dstSl (k1_off3 L ⟨0, tlt0⟩) (off_inb1 L)).view.set]{q} xd)
      ∗ ((prSl (k1_off3 L ⟨0, tlt0⟩) (off_inb1 L)).view.loc (thr d L) ↦[(prSl (k1_off3 L ⟨0, tlt0⟩) (off_inb1 L)).view.set]{q} xp)
      ∗ ((gSl (k1_off3 L ⟨0, tlt0⟩) (off_inb1 L)).view.loc (thr d L) ↦[(gSl (k1_off3 L ⟨0, tlt0⟩) (off_inb1 L)).view.set]{q} xg)
      ∗ ((bSl (k1_off3 L ⟨0, tlt0⟩) (off_inb1 L)).view.loc (thr d L) ↦[(bSl (k1_off3 L ⟨0, tlt0⟩) (off_inb1 L)).view.set]{q} xb)
      ∗ ((srcSl (k1_off4 L ⟨1, tlt1⟩) (off_inb2 L)).view.loc (thr d L) ↦[(srcSl (k1_off4 L ⟨1, tlt1⟩) (off_inb2 L)).view.set]{q} xs)
      ∗ ((dstSl (k1_off4 L ⟨1, tlt1⟩) (off_inb2 L)).view.loc (thr d L) ↦[(dstSl (k1_off4 L ⟨1, tlt1⟩) (off_inb2 L)).view.set]{q} xd)
      ∗ ((prSl (k1_off4 L ⟨1, tlt1⟩) (off_inb2 L)).view.loc (thr d L) ↦[(prSl (k1_off4 L ⟨1, tlt1⟩) (off_inb2 L)).view.set]{q} xp)
      ∗ ((gSl (k1_off4 L ⟨1, tlt1⟩) (off_inb2 L)).view.loc (thr d L) ↦[(gSl (k1_off4 L ⟨1, tlt1⟩) (off_inb2 L)).view.set]{q} xg)
      ∗ ((bSl (k1_off4 L ⟨1, tlt1⟩) (off_inb2 L)).view.loc (thr d L) ↦[(bSl (k1_off4 L ⟨1, tlt1⟩) (off_inb2 L)).view.set]{q} xb)
      ∗ ((srcSl (k1_off3 L ⟨2, tlt2⟩) (off_inb3 L)).view.loc (thr d L) ↦[(srcSl (k1_off3 L ⟨2, tlt2⟩) (off_inb3 L)).view.set]{q} xs)
      ∗ ((dstSl (k1_off3 L ⟨2, tlt2⟩) (off_inb3 L)).view.loc (thr d L) ↦[(dstSl (k1_off3 L ⟨2, tlt2⟩) (off_inb3 L)).view.set]{q} xd)
      ∗ ((prSl (k1_off3 L ⟨2, tlt2⟩) (off_inb3 L)).view.loc (thr d L) ↦[(prSl (k1_off3 L ⟨2, tlt2⟩) (off_inb3 L)).view.set]{q} xp)
      ∗ ((gSl (k1_off3 L ⟨2, tlt2⟩) (off_inb3 L)).view.loc (thr d L) ↦[(gSl (k1_off3 L ⟨2, tlt2⟩) (off_inb3 L)).view.set]{q} xg)
      ∗ ((bSl (k1_off3 L ⟨2, tlt2⟩) (off_inb3 L)).view.loc (thr d L) ↦[(bSl (k1_off3 L ⟨2, tlt2⟩) (off_inb3 L)).view.set]{q} xb)
      ∗ ((srcSl (k1_off4 L ⟨3, tlt3⟩) (off_inb4 L)).view.loc (thr d L) ↦[(srcSl (k1_off4 L ⟨3, tlt3⟩) (off_inb4 L)).view.set]{q} xs)
      ∗ ((dstSl (k1_off4 L ⟨3, tlt3⟩) (off_inb4 L)).view.loc (thr d L) ↦[(dstSl (k1_off4 L ⟨3, tlt3⟩) (off_inb4 L)).view.set]{q} xd)
      ∗ ((prSl (k1_off4 L ⟨3, tlt3⟩) (off_inb4 L)).view.loc (thr d L) ↦[(prSl (k1_off4 L ⟨3, tlt3⟩) (off_inb4 L)).view.set]{q} xp)
      ∗ ((gSl (k1_off4 L ⟨3, tlt3⟩) (off_inb4 L)).view.loc (thr d L) ↦[(gSl (k1_off4 L ⟨3, tlt3⟩) (off_inb4 L)).view.set]{q} xg)
      ∗ ((bSl (k1_off4 L ⟨3, tlt3⟩) (off_inb4 L)).view.loc (thr d L) ↦[(bSl (k1_off4 L ⟨3, tlt3⟩) (off_inb4 L)).view.set]{q} xb)
      ∗ (∃ g, (hSrc0.view.loc (thr d L) ↦[hSrc0.view.set]{fullShare} g)) ∗ (∃ g, (hDst0.view.loc (thr d L) ↦[hDst0.view.set]{fullShare} g)) ∗ (∃ g, (hPr0.view.loc (thr d L) ↦[hPr0.view.set]{fullShare} g)) ∗ (∃ g, (hG0.view.loc (thr d L) ↦[hG0.view.set]{fullShare} g)) ∗ (∃ g, (hB0.view.loc (thr d L) ↦[hB0.view.set]{fullShare} g)) ∗ (∃ g, (hSrc1.view.loc (thr d L) ↦[hSrc1.view.set]{fullShare} g)) ∗ (∃ g, (hDst1.view.loc (thr d L) ↦[hDst1.view.set]{fullShare} g)) ∗ (∃ g, (hPr1.view.loc (thr d L) ↦[hPr1.view.set]{fullShare} g)) ∗ (∃ g, (hG1.view.loc (thr d L) ↦[hG1.view.set]{fullShare} g)) ∗ (∃ g, (hB1.view.loc (thr d L) ↦[hB1.view.set]{fullShare} g))
      ∗ semVal (cell d L cc1_scratch8) 0 ∗ semVal (cell d L cc1_scratch9) 0)

/-- What the tile holds before chunk `k`: the table, the accumulators after `250 k` groups, every chunk's
    slices but chunk `k`'s, the scratch halves chunk `k` does not land in, chunk `k`'s five copies
    outstanding on their semaphore and the other semaphore at rest; after the last chunk, everything. -/
def chunkInv (q : PosShare TreeShare) (O : CellTallies nD τ sig (HIx 1)) (W : Waits sig (HIx 1))
    (tab : FVec F S10240 .f32) (xs xd : IVec S640000 32) (xp xg xb : FVec F S640000 .f32) (base : Nat) : Nat → Unit → sProp 𝕄 := fun k _ =>
  match k with
  | 0 => chunkInv0 d L q O W tab xs xd xp xg xb base
  | 1 => chunkInv1 d L q O W tab xs xd xp xg xb base
  | 2 => chunkInv2 d L q O W tab xs xd xp xg xb base
  | 3 => chunkInv3 d L q O W tab xs xd xp xg xb base
  | 4 => chunkInv4 d L q O W tab xs xd xp xg xb base
  | 5 => chunkInv5 d L q O W tab xs xd xp xg xb base
  | _ + 6 => iprop(emp)

end Chunk

end Cert.Proof.K

end
-- ==== Proof.K.RowOut.lean ====
/-
  A tile's own row of the two partial-flow arrays, as the kernel addresses it.

  The kernel slices row `2 s + c` (subcore `s` of core `c`) out of each 32 × 10240 array as a 1 × 10240
  rectangle and drops the unit axis. That rectangle is the row's part of the cut of the array into its 32
  rows, so the elements under the row view are exactly the row's; and copying a 10240-entry accumulator
  onto the whole row view leaves, at column `n` of that row, the accumulator's entry `n`.
-/
import proofs.«213808_g38010460570139_cont_8to1_b_868_22_alg».proof.Proof.K.TileSetup
import Idealize.ShloMosaic.Lib.Exec.Geometry
import Idealize.ShloMosaic.Lib.Writes

noncomputable section

namespace Cert.Proof.K

open Cert.Kernel Cert.Kernel.Gen

open Idealize.ShloMosaic
open Idealize.ShloMosaic.SparseCore (S V T)

variable {F : FTy → Type}

/-- The 1 × 10240 rectangle the kernel slices for the tile at grid coordinates `L`. -/
abbrev rowRect (L : grid1.Coords) : Rect S32x10240 :=
  Rect.unit (s := S32x10240) (k1_off17 L) S1x10240.size (k1_off17_inb L)

/-- The tile's row of the active partial flows, as the copy-out's destination. -/
abbrev ppRow (L : grid1.Coords) : Memref sig .scVector .hbm S10240 .f32 :=
  ((aPP : Memref sig .scVector .hbm S32x10240 .f32).slice (rowRect L) (fun _ => rfl)).squeeze S10240 squeezes_S1x10240_S10240

/-- The tile's row of the reactive partial flows, as the copy-out's destination. -/
abbrev qpRow (L : grid1.Coords) : Memref sig .scVector .hbm S10240 .f32 :=
  ((aQP : Memref sig .scVector .hbm S32x10240 .f32).slice (rowRect L) (fun _ => rfl)).squeeze S10240 squeezes_S1x10240_S10240

/-- The sliced rectangle is row `2 s + c` of the cut into 32 rows. -/
theorem rowRect_eq (L : grid1.Coords) : rowRect L = prow (rowOf (cL L) (iL L)) := by
  unfold rowRect prow Rect.part Rect.block
  congr 1 <;> funext a
  · rw [k1_off17_eq]
    match a with
    | 0 => simp [Shape.partIx, Shape.partSize, rowOf]
    | 1 => simp [Shape.partIx, Shape.partSize]
  · match a with
    | 0 => simp [Shape.partSize]
    | 1 => simp [Shape.partSize]

/-- The elements under the active row view are the row's. -/
theorem ppRow_set (L : grid1.Coords) : (ppRow L).view.set = prowSet (rowOf (cL L) (iL L)) := by
  show (((aPP : Memref sig .scVector .hbm S32x10240 .f32).view.slice (rowRect L)).reshape S10240 squeezes_S1x10240_S10240.numel_eq).set
    = ((Memref.whole main_v9_0_scv : Memref sig .scVector .hbm S32x10240 .f32).view.slice (prow (rowOf (cL L) (iL L)))).set
  rw [View.set_reshape]
  exact rowRect_eq L ▸ rfl

/-- The elements under the reactive row view are the same positions. -/
theorem qpRow_set (L : grid1.Coords) : (qpRow L).view.set = prowSet (rowOf (cL L) (iL L)) := by
  show (((aQP : Memref sig .scVector .hbm S32x10240 .f32).view.slice (rowRect L)).reshape S10240 squeezes_S1x10240_S10240.numel_eq).set
    = ((Memref.whole main_v9_0_scv : Memref sig .scVector .hbm S32x10240 .f32).view.slice (prow (rowOf (cL L) (iL L)))).set
  rw [View.set_reshape]
  exact rowRect_eq L ▸ rfl

/-- Entry `n` of a 10240-vector, matched with the 1 × 10240 shape, is `(0, n)`. -/
theorem reshape_nd_val (n : Fin 10240) :
    ((Shape.reshapeEquiv squeezes_S1x10240_S10240.numel_eq (Spec.nd n) : S1x10240.Idx) 0).val = 0
      ∧ ((Shape.reshapeEquiv squeezes_S1x10240_S10240.numel_eq (Spec.nd n) : S1x10240.Idx) 1).val = n.val := by
  have h := Shape.rowMajor_reshapeEquiv squeezes_S1x10240_S10240.numel_eq (Spec.nd n)
  rw [Shape.rowMajor_val_two, Shape.rowMajor_val_one] at h
  have h0 : ((Shape.reshapeEquiv squeezes_S1x10240_S10240.numel_eq (Spec.nd n) : S1x10240.Idx) 0).val < 1 :=
    ((Shape.reshapeEquiv squeezes_S1x10240_S10240.numel_eq (Spec.nd n) : S1x10240.Idx) 0).isLt
  have h' : ((Shape.reshapeEquiv squeezes_S1x10240_S10240.numel_eq (Spec.nd n) : S1x10240.Idx) 0).val * 10240
      + ((Shape.reshapeEquiv squeezes_S1x10240_S10240.numel_eq (Spec.nd n) : S1x10240.Idx) 1).val = n.val := h
  constructor <;> omega

/-- Where entry `n` of a row view sits in the 32 × 10240 array: in row `2 s + c` … -/
theorem rowRect_emb_0 (L : grid1.Coords) (n : Fin 10240) :
    ((rowRect L).emb (Shape.reshapeEquiv squeezes_S1x10240_S10240.numel_eq (Spec.nd n)) 0).val
      = (rowOf (cL L) (iL L)).val := by
  rw [Rect.emb_apply]
  show k1_off17 L 0 + 1 * _ = 2 * (L 1).val + (L 0).val
  rw [k1_off17_eq, (reshape_nd_val n).1]
  simp

/-- … at column `n`. -/
theorem rowRect_emb_1 (L : grid1.Coords) (n : Fin 10240) :
    ((rowRect L).emb (Shape.reshapeEquiv squeezes_S1x10240_S10240.numel_eq (Spec.nd n)) 1).val = n.val := by
  rw [Rect.emb_apply]
  show k1_off17 L 1 + 1 * _ = n.val
  rw [k1_off17_eq, (reshape_nd_val n).2]
  simp

variable [FloatOps F]

/-- After the active accumulator is copied onto the whole row view, the row holds the accumulator. -/
theorem ppRow_rowIs (L : grid1.Coords) (f : FVec F S32x10240 .f32) (a : FVec F S10240 .f32) :
    RowIs ((ppRow L).view.write (Elt F) f (ReadAs.same.apply ((sAccP : Memref sig .scVector .vmem S10240 .f32).view.read (Elt F) a)) Finset.univ)
      (rowOf (cL L) (iL L)) a := by
  intro n
  have h := View.write_emb_of_mem (v := (ppRow L).view) (Val := Elt F) f
    (ReadAs.same.apply ((sAccP : Memref sig .scVector .vmem S10240 .f32).view.read (Elt F) a)) (Finset.mem_univ (Spec.nd n))
  refine (congrArg _ ?_).trans (h.trans ?_)
  · funext x
    apply Fin.ext
    match x with
    | 0 => exact (rowRect_emb_0 L n).symm
    | 1 => exact (rowRect_emb_1 L n).symm
  · rfl

/-- The same for the reactive accumulator. -/
theorem qpRow_rowIs (L : grid1.Coords) (f : FVec F S32x10240 .f32) (a : FVec F S10240 .f32) :
    RowIs ((qpRow L).view.write (Elt F) f (ReadAs.same.apply ((sAccQ : Memref sig .scVector .vmem S10240 .f32).view.read (Elt F) a)) Finset.univ)
      (rowOf (cL L) (iL L)) a := by
  intro n
  have h := View.write_emb_of_mem (v := (qpRow L).view) (Val := Elt F) f
    (ReadAs.same.apply ((sAccQ : Memref sig .scVector .vmem S10240 .f32).view.read (Elt F) a)) (Finset.mem_univ (Spec.nd n))
  refine (congrArg _ ?_).trans (h.trans ?_)
  · funext x
    apply Fin.ext
    match x with
    | 0 => exact (rowRect_emb_0 L n).symm
    | 1 => exact (rowRect_emb_1 L n).symm
  · rfl

/-- The landed contents spelt as a list of pieces: the one piece over the whole row view. -/
theorem ppRow_rowIs_writes (L : grid1.Coords) (f : FVec F S32x10240 .f32) (a : FVec F S10240 .f32) :
    RowIs ((ppRow L).view.writes (Elt F) f
        [⟨Rect.whole S10240, ReadAs.same.apply ((sAccP : Memref sig .scVector .vmem S10240 .f32).view.read (Elt F) a)⟩])
      (rowOf (cL L) (iL L)) a := by
  have e := View.write_univ_eq_writes_whole (Val := Elt F) (ppRow L).view f []
    (ReadAs.same.apply ((sAccP : Memref sig .scVector .vmem S10240 .f32).view.read (Elt F) a))
  rw [← e]
  exact ppRow_rowIs L f a

theorem qpRow_rowIs_writes (L : grid1.Coords) (f : FVec F S32x10240 .f32) (a : FVec F S10240 .f32) :
    RowIs ((qpRow L).view.writes (Elt F) f
        [⟨Rect.whole S10240, ReadAs.same.apply ((sAccQ : Memref sig .scVector .vmem S10240 .f32).view.read (Elt F) a)⟩])
      (rowOf (cL L) (iL L)) a := by
  have e := View.write_univ_eq_writes_whole (Val := Elt F) (qpRow L).view f []
    (ReadAs.same.apply ((sAccQ : Memref sig .scVector .vmem S10240 .f32).view.read (Elt F) a))
  rw [← e]
  exact qpRow_rowIs L f a

end Cert.Proof.K

end
-- ==== Proof.K.TileEpilogue.lean ====
/-
  The end of a tile's task: its two accumulators copied out to its own row of the two partial-flow
  arrays.

  Each copy is one transfer from the whole 10240-entry scratch accumulator onto the tile's row, on a
  semaphore of its own, waited for at once; nothing else touches the accumulator or the row while the
  transfer is pending. After the wait the row holds the accumulator entry by entry, the scratch is
  unchanged and the semaphore is back at zero.
-/
import proofs.«213808_g38010460570139_cont_8to1_b_868_22_alg».proof.Proof.K.RowOut
import proofs.«213808_g38010460570139_cont_8to1_b_868_22_alg».proof.Proof.K.TileNames

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The two copy-outs that end a tile's task. -/
def epilogue (L : grid1.Coords) : Prog (TpuEff nD τ sig (Elt F) Λ₀ (.scVector ((L 0).castLE hcore1) ((L 1).castLE hsub1))) PUnit := do
  Prog.lift (.enqueueDma sAccP (.here (ppRow L)) (.dma cc1_scoped1.sem) (Memref.isWhole_whole _).wordExact ((View.wordExact_bits rfl).reshape _ _) ⟨Or.inl rfl, trivial⟩)
  Prog.lift (.waitDma2 cc1_scoped1.sem sAccP (ppRow L) (Memref.isWhole_whole _).wordExact ((View.wordExact_bits rfl).reshape _ _))
  Prog.lift (.enqueueDma sAccQ (.here (qpRow L)) (.dma cc1_scoped2.sem) (Memref.isWhole_whole _).wordExact ((View.wordExact_bits rfl).reshape _ _) ⟨Or.inl rfl, trivial⟩)
  Prog.lift (.waitDma2 cc1_scoped2.sem sAccQ (qpRow L) (Memref.isWhole_whole _).wordExact ((View.wordExact_bits rfl).reshape _ _))
  pure ⟨⟩

set_option maxRecDepth 65536 in
/-- The task is its prologue, its chunk loop and these two copy-outs. -/
theorem flows_skel_split (L : grid1.Coords) :
    (cc1__sc_flows_skel (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2) =
      (do
        let ⟨v2, c0_i32_14, c1_i32_15⟩ ← k1_part3 L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2
        Scf.Loop.for k1_t2_loop k1_t2_ok ⟨⟩ (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 c0_i32_14 c1_i32_15)
        epilogue (F := F) L) := rfl

section Conv
variable (d : Dev nD) (L : grid1.Coords)

omit [FloatOps F] in
/-- The tile's row of the active partial flows, held as the copy-out addresses it, is the row the call
    handed the tile. -/
theorem ppRow_pts (q : PosShare TreeShare) (f : FVec F S32x10240 .f32) :
    (((ppRow L).view.loc (thr d L) ↦[(ppRow L).view.set]{q} f : sProp 𝕄))
      = (ppLoc d ↦[prowSet (rowOf (cL L) (iL L))]{q} f) := by
  rw [ppRow_set]

omit [FloatOps F] in
theorem qpRow_pts (q : PosShare TreeShare) (f : FVec F S32x10240 .f32) :
    (((qpRow L).view.loc (thr d L) ↦[(qpRow L).view.set]{q} f : sProp 𝕄))
      = (qpLoc d ↦[prowSet (rowOf (cL L) (iL L))]{q} f) := by
  rw [qpRow_set]

omit [FloatOps F] in
/-- A scratch accumulator held through its memref is the tile's own buffer. -/
theorem sAccP_pts (q : PosShare TreeShare) (a : FVec F S10240 .f32) :
    ((sAccP.view.loc (thr d L) ↦{q} a : sProp 𝕄)) = ((thr d L).loc cc1_scratch1 ↦{q} a) := rfl

omit [FloatOps F] in
theorem sAccQ_pts (q : PosShare TreeShare) (a : FVec F S10240 .f32) :
    ((sAccQ.view.loc (thr d L) ↦{q} a : sProp 𝕄)) = ((thr d L).loc cc1_scratch2 ↦{q} a) := rfl

end Conv

section Tile
variable (d : Dev nD) (L : grid1.Coords)

/-- The two copy-outs: each accumulator lands on the tile's row of its array; the scratches keep their
    contents, both semaphores return to zero, and the two waits are recorded. -/
theorem epilogue_run (O : CellTallies nD τ sig (HIx 1)) (W : Waits sig (HIx 1))
    (a1 a2 : FVec F S10240 .f32) (fp fq : FVec F S32x10240 .f32) :
    iprop(Transfers.MayWaits (thr d L) (none : HIx 1) O
        ∗ (sAccP.view.loc (thr d L) ↦{fullShare} a1) ∗ (sAccQ.view.loc (thr d L) ↦{fullShare} a2)
        ∗ ((ppRow L).view.loc (thr d L) ↦[(ppRow L).view.set]{fullShare} fp)
        ∗ ((qpRow L).view.loc (thr d L) ↦[(qpRow L).view.set]{fullShare} fq)
        ∗ semVal (cell d L cc1_scoped1) 0 ∗ semVal (cell d L cc1_scoped2) 0 ∗ owes (thr d L) O W)
      ⊢ wp frame (wpE (defs₀ (F := F)) 𝒱₀ (thr d L) none) Set.univ (epilogue (F := F) L)
          (fun _ => (iprop((sAccP.view.loc (thr d L) ↦{fullShare} a1) ∗ (sAccQ.view.loc (thr d L) ↦{fullShare} a2)
            ∗ (∃ f, ⌜RowIs f (rowOf (cL L) (iL L)) a1⌝ ∗ ((ppRow L).view.loc (thr d L) ↦[(ppRow L).view.set]{fullShare} f))
            ∗ (∃ f, ⌜RowIs f (rowOf (cL L) (iL L)) a2⌝ ∗ ((qpRow L).view.loc (thr d L) ↦[(qpRow L).view.set]{fullShare} f))
            ∗ semVal (cell d L cc1_scoped1) 0 ∗ semVal (cell d L cc1_scoped2) 0
            ∗ ∃ W', ⌜∀ p ∈ W', p ∈ W ∨ p.2 = none⌝ ∗ owes (thr d L) O W') : sProp 𝕄)) := by
  unfold epilogue
  iintro ⟨Hmw, Hap, Haq, Hpp, Hqp, Hc1, Hc2, HO⟩
  sl_exec
  sl_step
  isplitl [Hap]; · iexact Hap
  isplitl [Haq]; · iexact Haq
  isplitl [Hpp]
  · iexists _; isplitr
    · ipureintro; exact ppRow_rowIs_writes L fp a1
    · iexact Hpp
  isplitl [Hqp]
  · iexists _; isplitr
    · ipureintro; exact qpRow_rowIs_writes L fq a2
    · iexact Hqp
  isplitl [Hc1]; · iexact Hc1
  isplitl [Hc2]; · iexact Hc2
  iexists (insert ((SemLoc.dma cc1_scoped2.sem : SemLoc sig), (default : HIx 1)) (insert ((SemLoc.dma cc1_scoped1.sem : SemLoc sig), (default : HIx 1)) W)); isplitr
  · ipureintro
    intro p hp
    rcases Finset.mem_insert.mp hp with hp | hp
    · subst hp; exact .inr rfl
    · rcases Finset.mem_insert.mp hp with hp | hp
      · subst hp; exact .inr rfl
      · exact .inl hp
  · iexact HO

end Tile

section Finish
variable (m : (ℓ : Loc nD τ sig) → Buf (Elt F) ℓ) (d : Dev nD) (L : grid1.Coords)

omit [FloatOps F] in
/-- The tile's own semaphores other than its five DMA semaphores, at zero. -/
abbrev semsRest : sProp 𝕄 :=
  bigSep ((((((ownCells (thr d L)).erase (cell d L cc1_scratch8)).erase (cell d L cc1_scratch9)).erase (cell d L cc1_scoped0)).erase (cell d L cc1_scoped1)).erase (cell d L cc1_scoped2)) fun g => semVal g 0

omit [FloatOps F] in
/-- The tile's own buffers other than its eight scratches, each at some contents. -/
abbrev bufsRest : sProp 𝕄 :=
  bigSep (((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7))
              fun b => iprop(∃ f, ((d, b) : Loc nD τ sig) ↦{fullShare} f)

/-- From the accumulators after all the tile's groups to the end of its task: the copy-outs run, and
    what they leave, with everything the task did not touch, is what the tile hands back. -/
theorem tile_finish (hF : (K (F := F)).Facts) (O : CellTallies nD τ sig (HIx 1)) (W W1 : Waits sig (HIx 1))
    (hW1 : ∀ p ∈ W1, p ∈ W ∨ p.2 = none) (fp fq : FVec F S32x10240 .f32) :
    iprop(Transfers.MayWaits (thr d L) (none : HIx 1) O
        ∗ roPts m d (shT (cL L) (iL L))
        ∗ (sAccP.view.loc (thr d L) ↦{fullShare} (accOf m d (rowOf (cL L) (iL L))).1)
        ∗ (sAccQ.view.loc (thr d L) ↦{fullShare} (accOf m d (rowOf (cL L) (iL L))).2)
        ∗ ((ppRow L).view.loc (thr d L) ↦[(ppRow L).view.set]{fullShare} fp)
        ∗ ((qpRow L).view.loc (thr d L) ↦[(qpRow L).view.set]{fullShare} fq)
        ∗ (∃ f, (thr d L).loc cc1_scratch0 ↦{fullShare} f) ∗ (∃ f, (thr d L).loc cc1_scratch3 ↦{fullShare} f)
        ∗ (∃ f, (thr d L).loc cc1_scratch4 ↦{fullShare} f) ∗ (∃ f, (thr d L).loc cc1_scratch5 ↦{fullShare} f)
        ∗ (∃ f, (thr d L).loc cc1_scratch6 ↦{fullShare} f) ∗ (∃ f, (thr d L).loc cc1_scratch7 ↦{fullShare} f)
        ∗ bufsRest (F := F) d L
        ∗ semVal (cell d L cc1_scratch8) 0 ∗ semVal (cell d L cc1_scratch9) 0 ∗ semVal (cell d L cc1_scoped0) 0
        ∗ semVal (cell d L cc1_scoped1) 0 ∗ semVal (cell d L cc1_scoped2) 0
        ∗ semsRest (F := F) d L
        ∗ owes (thr d L) O W1)
      ⊢ wp frame (wpE (defs₀ (F := F)) 𝒱₀ (thr d L) none) Set.univ (epilogue (F := F) L)
          (fun _ => iprop(tdPay m d (cL L) (iL L) ∗ scopedBufs (thr d L) ∗ scopedSems0 (thr d L)
            ∗ ∃ W', ⌜∀ p ∈ W', p ∈ W ∨ p.2 = none⌝ ∗ owes (thr d L) O W')) := by
  rw [(K (F := F)).scopedBufs_V hF d (cV L) (jV L), SparseCore.Cfg.scopedSems0_V (Val := Elt F) d (cV L) (jV L), ownSems0_V, ownBufs_V]
  iintro ⟨Hmw, Hro, Hap, Haq, Hpp, Hqp, Htab, Hsv, Hdv, Hpv, Hgv, Hbv, Hbufs, Hs8, Hs9, Hc0, Hc1, Hc2, Hsems, HO⟩
  iapply (wp_wand_r frame _ Set.univ)
  isplitl [Hmw Hap Haq Hpp Hqp Hc1 Hc2 HO]
  · iapply (epilogue_run d L O W1 _ _ fp fq)
    isplitl [Hmw]; · iexact Hmw
    isplitl [Hap]; · iexact Hap
    isplitl [Haq]; · iexact Haq
    isplitl [Hpp]; · iexact Hpp
    isplitl [Hqp]; · iexact Hqp
    isplitl [Hc1]; · iexact Hc1
    isplitl [Hc2]; · iexact Hc2
    iexact HO
  iintro %_ ⟨Hap, Haq, ⟨%f1, %h1, Hpp⟩, ⟨%f2, %h2, Hqp⟩, Hc1, Hc2, %W', %hW', HO⟩
  isplitl [Hro Hpp Hqp]
  · unfold tdPay
    isplitl [Hro]; · iexact Hro
    isplitl [Hpp]
    · iexists f1; isplitr
      · ipureintro; exact h1
      · iapply (Entails.of_eq (ppRow_pts (F := F) d L fullShare f1)); iexact Hpp
    · iexists f2; isplitr
      · ipureintro; exact h2
      · iapply (Entails.of_eq (qpRow_pts (F := F) d L fullShare f2)); iexact Hqp
  isplitl [Htab Hap Haq Hsv Hdv Hpv Hgv Hbv Hbufs]
  · isplitl [Htab]; · iexact Htab
    isplitl [Hap]; · iexists _; iexact Hap
    isplitl [Haq]; · iexists _; iexact Haq
    isplitl [Hsv]; · iexact Hsv
    isplitl [Hdv]; · iexact Hdv
    isplitl [Hpv]; · iexact Hpv
    isplitl [Hgv]; · iexact Hgv
    isplitl [Hbv]; · iexact Hbv
    iexact Hbufs
  isplitl [Hs8 Hs9 Hc0 Hc1 Hc2 Hsems]
  · isplitl [Hs8]; · iexact Hs8
    isplitl [Hs9]; · iexact Hs9
    isplitl [Hc0]; · iexact Hc0
    isplitl [Hc1]; · iexact Hc1
    isplitl [Hc2]; · iexact Hc2
    iexact Hsems
  iexists W'; isplitr
  · ipureintro
    intro p hp
    rcases hW' p hp with h | h
    · exact hW1 p h
    · exact .inr h
  · iexact HO

end Finish

end Cert.Proof.K

end
-- ==== Proof.K.Window.lean ====
/-
  What a landed half of a double-buffered scratch holds, and what a sixteen-lane read of it is.

  Each of the five edge arrays is walked through an 8000-entry scratch in two halves of 4000: a copy
  lands 4000 consecutive entries of the array, from entry `n` on, in half `h`; a sixteen-lane read at
  offset `o` of that half is then the array's sixteen entries from `n + o` on, and a copy landing in the
  other half leaves this one as it was.
-/
import proofs.«213808_g38010460570139_cont_8to1_b_868_22_alg».proof.Proof.K.TileSetup
import proofs.«213808_g38010460570139_cont_8to1_b_868_22_alg».proof.Proof.K.Lanes
import Idealize.ShloMosaic.Lib.Exec.Geometry
import Idealize.ShloMosaic.Lib.Writes

noncomputable section

namespace Cert.Proof.K

open Cert.Kernel Cert.Kernel.Gen
open Idealize.ShloMosaic

variable {F : FTy → Type} [FloatOps F]

/-! ### Reads and writes through a rectangle of a whole buffer -/

section Generic
variable {κ : Kind} {Val : EltTy → Type} (b : Ref sig κ)

/-- Writing through a rectangle of a whole buffer, unmasked: under the rectangle's index `j` stands the
    written vector's element `j`. -/
theorem write_rect_emb (r : Rect b.ty.shape) (fd : b.ty.Contents Val) (w : r.shape.Idx → Val b.ty.elt) (j : r.shape.Idx) :
    ((View.whole b).slice r).write Val fd w Finset.univ (r.emb j) = w j := by
  have h := View.write_emb_of_mem (v := (View.whole b).slice r) (Val := Val) fd w (M := Finset.univ) (x := j) (Finset.mem_univ _)
  exact h

/-- Off the rectangle the buffer keeps its contents. -/
theorem write_rect_off (r : Rect b.ty.shape) (fd : b.ty.Contents Val) (w : r.shape.Idx → Val b.ty.elt) (M : Finset r.shape.Idx)
    (i : b.ty.shape.Idx) (hi : i ∉ r.set) :
    ((View.whole b).slice r).write Val fd w M i = fd i := by
  apply View.write_of_not_mem
  intro hm
  apply hi
  have h2 := View.setOn_subset_set ((View.whole b).slice r) M hm
  rw [View.set_slice_whole] at h2
  exact h2

/-- Reading through a rectangle of a whole buffer: element `j` is the buffer's element under the rectangle's
    index `j`. -/
theorem read_rect (r : Rect b.ty.shape) (x : b.ty.Contents Val) (j : r.shape.Idx) :
    ((View.whole b).slice r).read Val x j = x (r.emb j) := rfl

/-- A load at a rectangle's coordinates of a whole buffer reads the buffer's elements there. -/
theorem readAt_whole_apply (r : LoadRect b.ty.shape) (f : b.ty.Contents Val) (j : r.shape.Idx) :
    (View.whole b).readAt Val r f j = f (r.idx j) := rfl

end Generic

/-! ### Halves of an 8000-entry scratch -/

/-- Half `h` of the scratch contents `f` holds the 4000 entries of `x` from entry `n` on. -/
def HalfIs {e : EltTy} (f : Vec F S8000 e) (h : Nat) (x : Vec F S640000 e) (n : Nat) : Prop :=
  ∀ k : Nat, k < 4000 → ∀ hk : 4000 * h + k < 8000,
    f (Shape.ofLane (d := ![8000]) ⟨4000 * h + k, hk⟩) = x (Spec.ed (n + k))

/-- Entry `k` of a 4000-vector, as its index. -/
def w4 (k : Nat) (hk : k < 4000) : S4000.Idx := Shape.ofLane (d := ![4000]) ⟨k, hk⟩

/-- The 4000-rectangle at `4000 h` of the scratch places its entry `k` at `4000 h + k`. -/
theorem emb_half (h : Nat) (ro : Fin 1 → Nat) (hro : ro = ![4000 * h]) (hin : ∀ a, ro a + S4000.size a ≤ S8000.size a)
    (k : Nat) (hk : k < 4000) (hk' : 4000 * h + k < 8000) :
    (Rect.unit (s := S8000) ro S4000.size hin).emb (w4 k hk) = Shape.ofLane (d := ![8000]) ⟨4000 * h + k, hk'⟩ := by
  subst hro
  funext a
  obtain rfl : a = 0 := Fin.eq_zero a
  apply Fin.ext
  show 4000 * h + 1 * k = 4000 * h + k
  omega

/-- The 4000-rectangle at `n` of an edge array places its entry `k` at `n + k`. -/
theorem emb_edge (off : Fin 1 → Nat) (n : Nat) (hoff : off = ![n]) (hoin : ∀ a, off a + S4000.size a ≤ S640000.size a)
    (k : Nat) (hk : k < 4000) :
    (Rect.unit (s := S640000) off S4000.size hoin).emb (w4 k hk) = Spec.ed (n + k) := by
  subst hoff
  have h0 : n + 4000 ≤ 640000 := hoin 0
  funext a
  obtain rfl : a = 0 := Fin.eq_zero a
  apply Fin.ext
  show n + 1 * k = min (n + k) 639999
  omega

/-- An entry of the other half is off the rectangle of half `h`. -/
theorem other_half_off (h h' : Nat) (hne : h ≠ h') (ro : Fin 1 → Nat) (hro : ro = ![4000 * h])
    (hin : ∀ a, ro a + S4000.size a ≤ S8000.size a) (k : Nat) (hk : k < 4000) (hk' : 4000 * h' + k < 8000) :
    (Shape.ofLane (d := ![8000]) ⟨4000 * h' + k, hk'⟩ : S8000.Idx) ∉ (Rect.unit (s := S8000) ro S4000.size hin).set := by
  subst hro
  intro hm
  have h0 := (Rect.mem_set_unit.mp hm) 0
  have h1 : 4000 * h ≤ 4000 * h' + k := h0.1
  have h2 : 4000 * h' + k < 4000 * h + 4000 := h0.2
  apply hne
  omega

/-- The contents after a write whose written vector holds the array's entries from `n` on, once the write
    is known to place its entry `k` at `4000 h + k`. -/
theorem halfIs_of_landed {e : EltTy} (f' : Vec F S8000 e) (h : Nat) (x : Vec F S640000 e) (n : Nat) (w : Vec F S4000 e)
    (hw : ∀ k (hk : k < 4000), w (w4 k hk) = x (Spec.ed (n + k)))
    (hf : ∀ k (hk : k < 4000) (hk' : 4000 * h + k < 8000),
      f' (Shape.ofLane (d := ![8000]) ⟨4000 * h + k, hk'⟩) = w (w4 k hk)) :
    HalfIs f' h x n := fun k hk hk' => (hf k hk hk').trans (hw k hk)

/-- Sixteen entries read at `4000 h + o` of contents whose half `h` holds the array from `n` on are the
    array's sixteen entries from `n + o` on. -/
theorem readAt_half_fn {e : EltTy} (f : Vec F S8000 e) (h : Nat) (x : Vec F S640000 e) (n : Nat) (hf : HalfIs f h x n)
    (bo : Fin 1 → Nat) (o : Nat) (hbo : bo = ![4000 * h + o]) (ho : o + 16 ≤ 4000) (hin : ∀ a, bo a + S16.size a ≤ S8000.size a) :
    (fun j : S16.Idx => f ((Rect.unit (s := S8000) bo S16.size hin).toLoadRect.idx j)) = Spec.lanes (F := F) x (n + o) := by
  subst hbo
  funext j
  have hj : (j 0).val < 16 := (j 0).isLt
  have h0 : 4000 * h + o + 16 ≤ 8000 := hin 0
  have e1 := hf (o + (j 0).val) (by omega) (by omega)
  show f _ = x (Spec.ed (n + o + (j 0).val))
  rw [Nat.add_assoc n o, ← e1]
  congr 1
  funext a
  obtain rfl : a = 0 := Fin.eq_zero a
  apply Fin.ext
  show 4000 * h + o + 1 * (j 0).val = 4000 * h + (o + (j 0).val)
  omega

/-! ### The five scratch buffers and their arrays -/

/-! #### sSrc and aSrc -/

theorem read_edge_src (off : Fin 1 → Nat) (n : Nat) (hoff : off = ![n]) (hoin : ∀ a, off a + S4000.size a ≤ S640000.size a)
    (x : IVec S640000 32) (k : Nat) (hk : k < 4000) :
    ((aSrc.slice (Rect.unit (s := S640000) off S4000.size hoin) (fun _ => rfl)).view.read (Elt F) x) (w4 k hk) = x (Spec.ed (n + k)) :=
  (read_rect (Val := Elt F) main_v1_scv (Rect.unit (s := S640000) off S4000.size hoin) x (w4 k hk)).trans
    (congrArg x (emb_edge off n hoff hoin k hk))

theorem landed_halfIs_w_src (h : Nat) (ro : Fin 1 → Nat) (hro : ro = ![4000 * h]) (hin : ∀ a, ro a + S4000.size a ≤ S8000.size a)
    (fd : IVec S8000 32) (w : IVec S4000 32) (x : IVec S640000 32) (n : Nat) (hw : ∀ k (hk : k < 4000), w (w4 k hk) = x (Spec.ed (n + k))) :
    HalfIs (F := F) (e := .i32) ((sSrc.slice (Rect.unit (s := S8000) ro S4000.size hin) (fun _ => rfl)).view.write (Elt F) fd w Finset.univ)
      h x n := by
  intro k hk hk'
  have e1 := write_rect_emb (Val := Elt F) cc1_scratch3 (Rect.unit (s := S8000) ro S4000.size hin) fd w (w4 k hk)
  rw [emb_half h ro hro hin k hk hk'] at e1
  exact e1.trans (hw k hk)

theorem landed_halfIs_src (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : IVec S8000 32) (x : IVec S640000 32) :
    HalfIs (F := F) (e := .i32) ((sSrc.slice (Rect.unit (s := S8000) ro S4000.size hin) (fun _ => rfl)).view.write (Elt F) fd
      ((ReadAs.same : ReadAs (Elt F) S4000 .i32 S4000 .i32).apply
        ((aSrc.slice (Rect.unit (s := S640000) off S4000.size hoin) (fun _ => rfl)).view.read (Elt F) x)) Finset.univ) h x n :=
  landed_halfIs_w_src h ro hro hin fd
    ((aSrc.slice (Rect.unit (s := S640000) off S4000.size hoin) (fun _ => rfl)).view.read (Elt F) x) x n
    (fun k hk => read_edge_src off n hoff hoin x k hk)

theorem landed_other_src (h h' : Nat) (hne : h ≠ h') (ro : Fin 1 → Nat) (hro : ro = ![4000 * h])
    (hin : ∀ a, ro a + S4000.size a ≤ S8000.size a) (fd : IVec S8000 32) (w : IVec S4000 32) (M : Finset S4000.Idx) (x' : IVec S640000 32) (n' : Nat)
    (hf : HalfIs (F := F) (e := .i32) fd h' x' n') :
    HalfIs (F := F) (e := .i32) ((sSrc.slice (Rect.unit (s := S8000) ro S4000.size hin) (fun _ => rfl)).view.write (Elt F) fd w M)
      h' x' n' := by
  intro k hk hk'
  exact (write_rect_off (Val := Elt F) cc1_scratch3 (Rect.unit (s := S8000) ro S4000.size hin) fd w M _
    (other_half_off h h' hne ro hro hin k hk hk')).trans (hf k hk hk')

theorem readAt_half_src (f : IVec S8000 32) (h : Nat) (x : IVec S640000 32) (n : Nat) (hf : HalfIs (F := F) (e := .i32) f h x n)
    (bo : Fin 1 → Nat) (o : Nat) (hbo : bo = ![4000 * h + o]) (ho : o + 16 ≤ 4000) (hin : ∀ a, bo a + S16.size a ≤ S8000.size a) :
    sSrc.view.readAt (Elt F) (Rect.unit (s := S8000) bo S16.size hin).toLoadRect f = Spec.lanes (F := F) (e := .i32) x (n + o) :=
  readAt_half_fn (F := F) (e := .i32) f h x n hf bo o hbo ho hin

/-! #### sDst and aDst -/

theorem read_edge_dst (off : Fin 1 → Nat) (n : Nat) (hoff : off = ![n]) (hoin : ∀ a, off a + S4000.size a ≤ S640000.size a)
    (x : IVec S640000 32) (k : Nat) (hk : k < 4000) :
    ((aDst.slice (Rect.unit (s := S640000) off S4000.size hoin) (fun _ => rfl)).view.read (Elt F) x) (w4 k hk) = x (Spec.ed (n + k)) :=
  (read_rect (Val := Elt F) main_v3_scv (Rect.unit (s := S640000) off S4000.size hoin) x (w4 k hk)).trans
    (congrArg x (emb_edge off n hoff hoin k hk))

theorem landed_halfIs_w_dst (h : Nat) (ro : Fin 1 → Nat) (hro : ro = ![4000 * h]) (hin : ∀ a, ro a + S4000.size a ≤ S8000.size a)
    (fd : IVec S8000 32) (w : IVec S4000 32) (x : IVec S640000 32) (n : Nat) (hw : ∀ k (hk : k < 4000), w (w4 k hk) = x (Spec.ed (n + k))) :
    HalfIs (F := F) (e := .i32) ((sDst.slice (Rect.unit (s := S8000) ro S4000.size hin) (fun _ => rfl)).view.write (Elt F) fd w Finset.univ)
      h x n := by
  intro k hk hk'
  have e1 := write_rect_emb (Val := Elt F) cc1_scratch4 (Rect.unit (s := S8000) ro S4000.size hin) fd w (w4 k hk)
  rw [emb_half h ro hro hin k hk hk'] at e1
  exact e1.trans (hw k hk)

theorem landed_halfIs_dst (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : IVec S8000 32) (x : IVec S640000 32) :
    HalfIs (F := F) (e := .i32) ((sDst.slice (Rect.unit (s := S8000) ro S4000.size hin) (fun _ => rfl)).view.write (Elt F) fd
      ((ReadAs.same : ReadAs (Elt F) S4000 .i32 S4000 .i32).apply
        ((aDst.slice (Rect.unit (s := S640000) off S4000.size hoin) (fun _ => rfl)).view.read (Elt F) x)) Finset.univ) h x n :=
  landed_halfIs_w_dst h ro hro hin fd
    ((aDst.slice (Rect.unit (s := S640000) off S4000.size hoin) (fun _ => rfl)).view.read (Elt F) x) x n
    (fun k hk => read_edge_dst off n hoff hoin x k hk)

theorem landed_other_dst (h h' : Nat) (hne : h ≠ h') (ro : Fin 1 → Nat) (hro : ro = ![4000 * h])
    (hin : ∀ a, ro a + S4000.size a ≤ S8000.size a) (fd : IVec S8000 32) (w : IVec S4000 32) (M : Finset S4000.Idx) (x' : IVec S640000 32) (n' : Nat)
    (hf : HalfIs (F := F) (e := .i32) fd h' x' n') :
    HalfIs (F := F) (e := .i32) ((sDst.slice (Rect.unit (s := S8000) ro S4000.size hin) (fun _ => rfl)).view.write (Elt F) fd w M)
      h' x' n' := by
  intro k hk hk'
  exact (write_rect_off (Val := Elt F) cc1_scratch4 (Rect.unit (s := S8000) ro S4000.size hin) fd w M _
    (other_half_off h h' hne ro hro hin k hk hk')).trans (hf k hk hk')

theorem readAt_half_dst (f : IVec S8000 32) (h : Nat) (x : IVec S640000 32) (n : Nat) (hf : HalfIs (F := F) (e := .i32) f h x n)
    (bo : Fin 1 → Nat) (o : Nat) (hbo : bo = ![4000 * h + o]) (ho : o + 16 ≤ 4000) (hin : ∀ a, bo a + S16.size a ≤ S8000.size a) :
    sDst.view.readAt (Elt F) (Rect.unit (s := S8000) bo S16.size hin).toLoadRect f = Spec.lanes (F := F) (e := .i32) x (n + o) :=
  readAt_half_fn (F := F) (e := .i32) f h x n hf bo o hbo ho hin

/-! #### sPr and aPr -/

theorem read_edge_pr (off : Fin 1 → Nat) (n : Nat) (hoff : off = ![n]) (hoin : ∀ a, off a + S4000.size a ≤ S640000.size a)
    (x : FVec F S640000 .f32) (k : Nat) (hk : k < 4000) :
    ((aPr.slice (Rect.unit (s := S640000) off S4000.size hoin) (fun _ => rfl)).view.read (Elt F) x) (w4 k hk) = x (Spec.ed (n + k)) :=
  (read_rect (Val := Elt F) main_arg2_scv (Rect.unit (s := S640000) off S4000.size hoin) x (w4 k hk)).trans
    (congrArg x (emb_edge off n hoff hoin k hk))

theorem landed_halfIs_w_pr (h : Nat) (ro : Fin 1 → Nat) (hro : ro = ![4000 * h]) (hin : ∀ a, ro a + S4000.size a ≤ S8000.size a)
    (fd : FVec F S8000 .f32) (w : FVec F S4000 .f32) (x : FVec F S640000 .f32) (n : Nat) (hw : ∀ k (hk : k < 4000), w (w4 k hk) = x (Spec.ed (n + k))) :
    HalfIs (F := F) (e := .f32) ((sPr.slice (Rect.unit (s := S8000) ro S4000.size hin) (fun _ => rfl)).view.write (Elt F) fd w Finset.univ)
      h x n := by
  intro k hk hk'
  have e1 := write_rect_emb (Val := Elt F) cc1_scratch5 (Rect.unit (s := S8000) ro S4000.size hin) fd w (w4 k hk)
  rw [emb_half h ro hro hin k hk hk'] at e1
  exact e1.trans (hw k hk)

theorem landed_halfIs_pr (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : FVec F S8000 .f32) (x : FVec F S640000 .f32) :
    HalfIs (F := F) (e := .f32) ((sPr.slice (Rect.unit (s := S8000) ro S4000.size hin) (fun _ => rfl)).view.write (Elt F) fd
      ((ReadAs.same : ReadAs (Elt F) S4000 .f32 S4000 .f32).apply
        ((aPr.slice (Rect.unit (s := S640000) off S4000.size hoin) (fun _ => rfl)).view.read (Elt F) x)) Finset.univ) h x n :=
  landed_halfIs_w_pr h ro hro hin fd
    ((aPr.slice (Rect.unit (s := S640000) off S4000.size hoin) (fun _ => rfl)).view.read (Elt F) x) x n
    (fun k hk => read_edge_pr off n hoff hoin x k hk)

theorem landed_other_pr (h h' : Nat) (hne : h ≠ h') (ro : Fin 1 → Nat) (hro : ro = ![4000 * h])
    (hin : ∀ a, ro a + S4000.size a ≤ S8000.size a) (fd : FVec F S8000 .f32) (w : FVec F S4000 .f32) (M : Finset S4000.Idx) (x' : FVec F S640000 .f32) (n' : Nat)
    (hf : HalfIs (F := F) (e := .f32) fd h' x' n') :
    HalfIs (F := F) (e := .f32) ((sPr.slice (Rect.unit (s := S8000) ro S4000.size hin) (fun _ => rfl)).view.write (Elt F) fd w M)
      h' x' n' := by
  intro k hk hk'
  exact (write_rect_off (Val := Elt F) cc1_scratch5 (Rect.unit (s := S8000) ro S4000.size hin) fd w M _
    (other_half_off h h' hne ro hro hin k hk hk')).trans (hf k hk hk')

theorem readAt_half_pr (f : FVec F S8000 .f32) (h : Nat) (x : FVec F S640000 .f32) (n : Nat) (hf : HalfIs (F := F) (e := .f32) f h x n)
    (bo : Fin 1 → Nat) (o : Nat) (hbo : bo = ![4000 * h + o]) (ho : o + 16 ≤ 4000) (hin : ∀ a, bo a + S16.size a ≤ S8000.size a) :
    sPr.view.readAt (Elt F) (Rect.unit (s := S8000) bo S16.size hin).toLoadRect f = Spec.lanes (F := F) (e := .f32) x (n + o) :=
  readAt_half_fn (F := F) (e := .f32) f h x n hf bo o hbo ho hin

/-! #### sG and aG -/

theorem read_edge_g (off : Fin 1 → Nat) (n : Nat) (hoff : off = ![n]) (hoin : ∀ a, off a + S4000.size a ≤ S640000.size a)
    (x : FVec F S640000 .f32) (k : Nat) (hk : k < 4000) :
    ((aG.slice (Rect.unit (s := S640000) off S4000.size hoin) (fun _ => rfl)).view.read (Elt F) x) (w4 k hk) = x (Spec.ed (n + k)) :=
  (read_rect (Val := Elt F) main_v5_scv (Rect.unit (s := S640000) off S4000.size hoin) x (w4 k hk)).trans
    (congrArg x (emb_edge off n hoff hoin k hk))

theorem landed_halfIs_w_g (h : Nat) (ro : Fin 1 → Nat) (hro : ro = ![4000 * h]) (hin : ∀ a, ro a + S4000.size a ≤ S8000.size a)
    (fd : FVec F S8000 .f32) (w : FVec F S4000 .f32) (x : FVec F S640000 .f32) (n : Nat) (hw : ∀ k (hk : k < 4000), w (w4 k hk) = x (Spec.ed (n + k))) :
    HalfIs (F := F) (e := .f32) ((sG.slice (Rect.unit (s := S8000) ro S4000.size hin) (fun _ => rfl)).view.write (Elt F) fd w Finset.univ)
      h x n := by
  intro k hk hk'
  have e1 := write_rect_emb (Val := Elt F) cc1_scratch6 (Rect.unit (s := S8000) ro S4000.size hin) fd w (w4 k hk)
  rw [emb_half h ro hro hin k hk hk'] at e1
  exact e1.trans (hw k hk)

theorem landed_halfIs_g (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : FVec F S8000 .f32) (x : FVec F S640000 .f32) :
    HalfIs (F := F) (e := .f32) ((sG.slice (Rect.unit (s := S8000) ro S4000.size hin) (fun _ => rfl)).view.write (Elt F) fd
      ((ReadAs.same : ReadAs (Elt F) S4000 .f32 S4000 .f32).apply
        ((aG.slice (Rect.unit (s := S640000) off S4000.size hoin) (fun _ => rfl)).view.read (Elt F) x)) Finset.univ) h x n :=
  landed_halfIs_w_g h ro hro hin fd
    ((aG.slice (Rect.unit (s := S640000) off S4000.size hoin) (fun _ => rfl)).view.read (Elt F) x) x n
    (fun k hk => read_edge_g off n hoff hoin x k hk)

theorem landed_other_g (h h' : Nat) (hne : h ≠ h') (ro : Fin 1 → Nat) (hro : ro = ![4000 * h])
    (hin : ∀ a, ro a + S4000.size a ≤ S8000.size a) (fd : FVec F S8000 .f32) (w : FVec F S4000 .f32) (M : Finset S4000.Idx) (x' : FVec F S640000 .f32) (n' : Nat)
    (hf : HalfIs (F := F) (e := .f32) fd h' x' n') :
    HalfIs (F := F) (e := .f32) ((sG.slice (Rect.unit (s := S8000) ro S4000.size hin) (fun _ => rfl)).view.write (Elt F) fd w M)
      h' x' n' := by
  intro k hk hk'
  exact (write_rect_off (Val := Elt F) cc1_scratch6 (Rect.unit (s := S8000) ro S4000.size hin) fd w M _
    (other_half_off h h' hne ro hro hin k hk hk')).trans (hf k hk hk')

theorem readAt_half_g (f : FVec F S8000 .f32) (h : Nat) (x : FVec F S640000 .f32) (n : Nat) (hf : HalfIs (F := F) (e := .f32) f h x n)
    (bo : Fin 1 → Nat) (o : Nat) (hbo : bo = ![4000 * h + o]) (ho : o + 16 ≤ 4000) (hin : ∀ a, bo a + S16.size a ≤ S8000.size a) :
    sG.view.readAt (Elt F) (Rect.unit (s := S8000) bo S16.size hin).toLoadRect f = Spec.lanes (F := F) (e := .f32) x (n + o) :=
  readAt_half_fn (F := F) (e := .f32) f h x n hf bo o hbo ho hin

/-! #### sB and aB -/

theorem read_edge_b (off : Fin 1 → Nat) (n : Nat) (hoff : off = ![n]) (hoin : ∀ a, off a + S4000.size a ≤ S640000.size a)
    (x : FVec F S640000 .f32) (k : Nat) (hk : k < 4000) :
    ((aB.slice (Rect.unit (s := S640000) off S4000.size hoin) (fun _ => rfl)).view.read (Elt F) x) (w4 k hk) = x (Spec.ed (n + k)) :=
  (read_rect (Val := Elt F) main_v7_scv (Rect.unit (s := S640000) off S4000.size hoin) x (w4 k hk)).trans
    (congrArg x (emb_edge off n hoff hoin k hk))

theorem landed_halfIs_w_b (h : Nat) (ro : Fin 1 → Nat) (hro : ro = ![4000 * h]) (hin : ∀ a, ro a + S4000.size a ≤ S8000.size a)
    (fd : FVec F S8000 .f32) (w : FVec F S4000 .f32) (x : FVec F S640000 .f32) (n : Nat) (hw : ∀ k (hk : k < 4000), w (w4 k hk) = x (Spec.ed (n + k))) :
    HalfIs (F := F) (e := .f32) ((sB.slice (Rect.unit (s := S8000) ro S4000.size hin) (fun _ => rfl)).view.write (Elt F) fd w Finset.univ)
      h x n := by
  intro k hk hk'
  have e1 := write_rect_emb (Val := Elt F) cc1_scratch7 (Rect.unit (s := S8000) ro S4000.size hin) fd w (w4 k hk)
  rw [emb_half h ro hro hin k hk hk'] at e1
  exact e1.trans (hw k hk)

theorem landed_halfIs_b (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (fd : FVec F S8000 .f32) (x : FVec F S640000 .f32) :
    HalfIs (F := F) (e := .f32) ((sB.slice (Rect.unit (s := S8000) ro S4000.size hin) (fun _ => rfl)).view.write (Elt F) fd
      ((ReadAs.same : ReadAs (Elt F) S4000 .f32 S4000 .f32).apply
        ((aB.slice (Rect.unit (s := S640000) off S4000.size hoin) (fun _ => rfl)).view.read (Elt F) x)) Finset.univ) h x n :=
  landed_halfIs_w_b h ro hro hin fd
    ((aB.slice (Rect.unit (s := S640000) off S4000.size hoin) (fun _ => rfl)).view.read (Elt F) x) x n
    (fun k hk => read_edge_b off n hoff hoin x k hk)

theorem landed_other_b (h h' : Nat) (hne : h ≠ h') (ro : Fin 1 → Nat) (hro : ro = ![4000 * h])
    (hin : ∀ a, ro a + S4000.size a ≤ S8000.size a) (fd : FVec F S8000 .f32) (w : FVec F S4000 .f32) (M : Finset S4000.Idx) (x' : FVec F S640000 .f32) (n' : Nat)
    (hf : HalfIs (F := F) (e := .f32) fd h' x' n') :
    HalfIs (F := F) (e := .f32) ((sB.slice (Rect.unit (s := S8000) ro S4000.size hin) (fun _ => rfl)).view.write (Elt F) fd w M)
      h' x' n' := by
  intro k hk hk'
  exact (write_rect_off (Val := Elt F) cc1_scratch7 (Rect.unit (s := S8000) ro S4000.size hin) fd w M _
    (other_half_off h h' hne ro hro hin k hk hk')).trans (hf k hk hk')

theorem readAt_half_b (f : FVec F S8000 .f32) (h : Nat) (x : FVec F S640000 .f32) (n : Nat) (hf : HalfIs (F := F) (e := .f32) f h x n)
    (bo : Fin 1 → Nat) (o : Nat) (hbo : bo = ![4000 * h + o]) (ho : o + 16 ≤ 4000) (hin : ∀ a, bo a + S16.size a ≤ S8000.size a) :
    sB.view.readAt (Elt F) (Rect.unit (s := S8000) bo S16.size hin).toLoadRect f = Spec.lanes (F := F) (e := .f32) x (n + o) :=
  readAt_half_fn (F := F) (e := .f32) f h x n hf bo o hbo ho hin

/-! ### The landed contents as listed pieces -/

/-- The same contents spelt as a list of pieces: the one piece over the whole half. -/
theorem landed_halfIs'_src (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : IVec S8000 32) (x : IVec S640000 32) :
    HalfIs (F := F) (e := .i32) ((sSrc.slice (Rect.unit (s := S8000) ro S4000.size hin) (fun _ => rfl)).view.writes (Elt F) g
      [⟨Rect.whole S4000, (ReadAs.same : ReadAs (Elt F) S4000 .i32 S4000 .i32).apply
        ((aSrc.slice (Rect.unit (s := S640000) off S4000.size hoin) (fun _ => rfl)).view.read (Elt F) x)⟩]) h x n := by
  have e := View.write_univ_eq_writes_whole (Val := Elt F)
    (sSrc.slice (Rect.unit (s := S8000) ro S4000.size hin) (fun _ => rfl)).view g []
    ((ReadAs.same : ReadAs (Elt F) S4000 .i32 S4000 .i32).apply
      ((aSrc.slice (Rect.unit (s := S640000) off S4000.size hoin) (fun _ => rfl)).view.read (Elt F) x))
  exact (congrArg (fun f => HalfIs (F := F) (e := .i32) f h x n) e).mp (landed_halfIs_src h ro hro hin off n hoff hoin g x)

/-- The same contents spelt as a list of pieces: the one piece over the whole half. -/
theorem landed_halfIs'_dst (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : IVec S8000 32) (x : IVec S640000 32) :
    HalfIs (F := F) (e := .i32) ((sDst.slice (Rect.unit (s := S8000) ro S4000.size hin) (fun _ => rfl)).view.writes (Elt F) g
      [⟨Rect.whole S4000, (ReadAs.same : ReadAs (Elt F) S4000 .i32 S4000 .i32).apply
        ((aDst.slice (Rect.unit (s := S640000) off S4000.size hoin) (fun _ => rfl)).view.read (Elt F) x)⟩]) h x n := by
  have e := View.write_univ_eq_writes_whole (Val := Elt F)
    (sDst.slice (Rect.unit (s := S8000) ro S4000.size hin) (fun _ => rfl)).view g []
    ((ReadAs.same : ReadAs (Elt F) S4000 .i32 S4000 .i32).apply
      ((aDst.slice (Rect.unit (s := S640000) off S4000.size hoin) (fun _ => rfl)).view.read (Elt F) x))
  exact (congrArg (fun f => HalfIs (F := F) (e := .i32) f h x n) e).mp (landed_halfIs_dst h ro hro hin off n hoff hoin g x)

/-- The same contents spelt as a list of pieces: the one piece over the whole half. -/
theorem landed_halfIs'_pr (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : FVec F S8000 .f32) (x : FVec F S640000 .f32) :
    HalfIs (F := F) (e := .f32) ((sPr.slice (Rect.unit (s := S8000) ro S4000.size hin) (fun _ => rfl)).view.writes (Elt F) g
      [⟨Rect.whole S4000, (ReadAs.same : ReadAs (Elt F) S4000 .f32 S4000 .f32).apply
        ((aPr.slice (Rect.unit (s := S640000) off S4000.size hoin) (fun _ => rfl)).view.read (Elt F) x)⟩]) h x n := by
  have e := View.write_univ_eq_writes_whole (Val := Elt F)
    (sPr.slice (Rect.unit (s := S8000) ro S4000.size hin) (fun _ => rfl)).view g []
    ((ReadAs.same : ReadAs (Elt F) S4000 .f32 S4000 .f32).apply
      ((aPr.slice (Rect.unit (s := S640000) off S4000.size hoin) (fun _ => rfl)).view.read (Elt F) x))
  exact (congrArg (fun f => HalfIs (F := F) (e := .f32) f h x n) e).mp (landed_halfIs_pr h ro hro hin off n hoff hoin g x)

/-- The same contents spelt as a list of pieces: the one piece over the whole half. -/
theorem landed_halfIs'_g (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : FVec F S8000 .f32) (x : FVec F S640000 .f32) :
    HalfIs (F := F) (e := .f32) ((sG.slice (Rect.unit (s := S8000) ro S4000.size hin) (fun _ => rfl)).view.writes (Elt F) g
      [⟨Rect.whole S4000, (ReadAs.same : ReadAs (Elt F) S4000 .f32 S4000 .f32).apply
        ((aG.slice (Rect.unit (s := S640000) off S4000.size hoin) (fun _ => rfl)).view.read (Elt F) x)⟩]) h x n := by
  have e := View.write_univ_eq_writes_whole (Val := Elt F)
    (sG.slice (Rect.unit (s := S8000) ro S4000.size hin) (fun _ => rfl)).view g []
    ((ReadAs.same : ReadAs (Elt F) S4000 .f32 S4000 .f32).apply
      ((aG.slice (Rect.unit (s := S640000) off S4000.size hoin) (fun _ => rfl)).view.read (Elt F) x))
  exact (congrArg (fun f => HalfIs (F := F) (e := .f32) f h x n) e).mp (landed_halfIs_g h ro hro hin off n hoff hoin g x)

/-- The same contents spelt as a list of pieces: the one piece over the whole half. -/
theorem landed_halfIs'_b (h : Nat) (ro : Fin 1 → Nat) (hro : ro = ![4000 * h]) (hin : ∀ a, ro a + S4000.size a ≤ S8000.size a)
    (off : Fin 1 → Nat) (n : Nat) (hoff : off = ![n]) (hoin : ∀ a, off a + S4000.size a ≤ S640000.size a)
    (g : FVec F S8000 .f32) (x : FVec F S640000 .f32) :
    HalfIs (F := F) (e := .f32) ((sB.slice (Rect.unit (s := S8000) ro S4000.size hin) (fun _ => rfl)).view.writes (Elt F) g
      [⟨Rect.whole S4000, (ReadAs.same : ReadAs (Elt F) S4000 .f32 S4000 .f32).apply
        ((aB.slice (Rect.unit (s := S640000) off S4000.size hoin) (fun _ => rfl)).view.read (Elt F) x)⟩]) h x n := by
  have e := View.write_univ_eq_writes_whole (Val := Elt F)
    (sB.slice (Rect.unit (s := S8000) ro S4000.size hin) (fun _ => rfl)).view g []
    ((ReadAs.same : ReadAs (Elt F) S4000 .f32 S4000 .f32).apply
      ((aB.slice (Rect.unit (s := S640000) off S4000.size hoin) (fun _ => rfl)).view.read (Elt F) x))
  exact (congrArg (fun f => HalfIs (F := F) (e := .f32) f h x n) e).mp (landed_halfIs_b h ro hro hin off n hoff hoin g x)

end Cert.Proof.K

end
-- ==== Proof.K.AccSum.lean ====
/-
  The library's indexed load and indexed accumulating store on a 10240-entry table and sixteen lanes are
  the evidence-free gather `gath` and scatter `scatAdd` of the specification whenever every lane's node
  number is in range: a lane's index is then its own clamped value, and the entry the store adds onto is
  the entry it names. For any float instance.
-/
import proofs.«213808_g38010460570139_cont_8to1_b_868_22_alg».proof.Proof.K.Spec

noncomputable section

namespace Cert.Kernel.Spec

open Idealize.ShloMosaic Cert.Kernel

variable {F : FTy → Type} [FloatOps F]

/-- The indexed load with in-range evidence is the clamped gather. -/
theorem loadIdx_eq_gath (tab : FVec F S10240 .f32) (idx : IVec S16 32)
    (h : ∀ a x, ((![idx] : Fin 1 → IVec S16 32) a x).toNat < S10240.size a) :
    loadIdx (F := F) (e := .f32) tab ![idx] h = gath tab idx := by
  funext x
  show tab _ = tab _
  congr 1
  funext a
  obtain rfl : a = 0 := Fin.eq_zero a
  apply Fin.ext
  have h0 := h 0 x
  show (idx x).toNat = min (idx x).toNat 10239
  have h1 : (idx x).toNat < 10240 := h0
  omega

/-- The indexed accumulating store with in-range evidence is the evidence-free scatter: lane by lane the
    two steps agree, the entry added onto being the one the lane names. -/
theorem storeIdx_eq_scatAdd (acc : FVec F S10240 .f32) (idx : IVec S16 32) (v : FVec F S16 .f32) (mask : IVec S16 1)
    (h : ∀ a x, ((![idx] : Fin 1 → IVec S16 32) a x).toNat < S10240.size a) :
    storeIdx (F := F) (e := .f32) acc ![idx] v mask true h = scatAdd acc idx v mask := by
  unfold storeIdx scatAdd
  show List.foldl _ acc (List.finRange 16) = List.foldl _ acc (List.finRange 16)
  congr 1
  funext g k
  show (if mask (ln k) = 1 then _ else g) = _
  by_cases hm : mask (ln k) = 1
  · rw [if_pos hm, if_pos hm]
    funext j
    by_cases hc : (j 0).val = (idx (ln k)).toNat
    · have hj : idxAt (s := S10240) ![idx] h (Shape.ofLane (d := ![16]) k) = j := by
        funext a; obtain rfl : a = 0 := Fin.eq_zero a; exact Fin.ext hc.symm
      have hall : ∀ a, (j a).val = ((idxAt (s := S10240) ![idx] h (Shape.ofLane (d := ![16]) k)) a).val := by
        intro a; rw [hj]
      exact (if_pos hall).trans
        ((congrArg (fun t => Elt.idxAdd (F := F) .f32 (g t) (v (ln k))) hj).trans (if_pos hc).symm)
    · have hnall : ¬ ∀ a, (j a).val = ((idxAt (s := S10240) ![idx] h (Shape.ofLane (d := ![16]) k)) a).val :=
        fun H => hc (H 0)
      exact (if_neg hnall).trans (if_neg hc).symm
  · rw [if_neg hm, if_neg hm]

end Cert.Kernel.Spec

end
-- ==== Proof.K.TileInnerLemmas.lean ====
/-
  Pure facts for a round of five groups: sixteen node numbers read out of an array of node numbers
  below 10240 are below 10240; a list of stores that each overwrite the whole accumulator leaves the
  last stored vector, and a read of the whole accumulator after such a list reads that vector; the
  flows and masks the program forms are the ones the group step of the specification forms; and the
  two accumulators after one group, as two accumulating scatters each.
-/
import proofs.«213808_g38010460570139_cont_8to1_b_868_22_alg».proof.Proof.K.TileNames
import proofs.«213808_g38010460570139_cont_8to1_b_868_22_alg».proof.Proof.K.AccSum
import proofs.«213808_g38010460570139_cont_8to1_b_868_22_alg».proof.Proof.K.Lanes
import proofs.«213808_g38010460570139_cont_8to1_b_868_22_alg».proof.Proof.K.Window
import Idealize.ShloMosaic.Lib.Pipeline.FrameBody

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Sixteen consecutive entries of an array of node numbers below 10240 are below 10240. -/
theorem lanes_ltV (xs : IVec S640000 32) (hxs : ∀ j, (xs j).toNat < 10240) (n : Nat) (x : S16.Idx) :
    (Spec.lanes (F := F) (e := .i32) xs n x).toNat < 10240 := hxs _

/-! ### The accumulators after a list of whole-buffer stores -/

theorem writes_accP (f w : FVec F S10240 .f32) (Ls : List (View.Piece (Elt F) S10240 .f32)) :
    (sAccP : Memref sig .scVector .vmem S10240 .f32).view.writes (Elt F) f (⟨Rect.whole S10240, w⟩ :: Ls) = w := by
  rw [← View.write_univ_eq_writes_whole]; exact View.write_whole_univ (Val := Elt F) cc1_scratch1 _ w

theorem writes_accQ (f w : FVec F S10240 .f32) (Ls : List (View.Piece (Elt F) S10240 .f32)) :
    (sAccQ : Memref sig .scVector .vmem S10240 .f32).view.writes (Elt F) f (⟨Rect.whole S10240, w⟩ :: Ls) = w := by
  rw [← View.write_univ_eq_writes_whole]; exact View.write_whole_univ (Val := Elt F) cc1_scratch2 _ w

theorem readAt_accP (f : FVec F S10240 .f32) :
    (sAccP : Memref sig .scVector .vmem S10240 .f32).view.readAt (Elt F) (LoadRect.whole S10240) f = f := Memref.readAt_whole (Elt F) cc1_scratch1 f
theorem readAt_accQ (f : FVec F S10240 .f32) :
    (sAccQ : Memref sig .scVector .vmem S10240 .f32).view.readAt (Elt F) (LoadRect.whole S10240) f = f := Memref.readAt_whole (Elt F) cc1_scratch2 f
theorem readAt_tab (f : FVec F S10240 .f32) :
    (sTab : Memref sig .scVector .vmem S10240 .f32).view.readAt (Elt F) (LoadRect.whole S10240) f = f := Memref.readAt_whole (Elt F) cc1_scratch0 f

theorem readCov_accP (w : FVec F S10240 .f32) (Ls : List (View.Piece (Elt F) S10240 .f32)) :
    (sAccP : Memref sig .scVector .vmem S10240 .f32).view.readCov (⟨Rect.whole S10240, w⟩ :: Ls) (LoadRect.whole S10240) = w :=
  (congrArg ((sAccP : Memref sig .scVector .vmem S10240 .f32).view.readAt (Elt F) (LoadRect.whole S10240))
    (writes_accP (F := F) (View.junk (Val := Elt F) (sAccP : Memref sig .scVector .vmem S10240 .f32).view) w Ls)).trans (readAt_accP w)

theorem readCov_accQ (w : FVec F S10240 .f32) (Ls : List (View.Piece (Elt F) S10240 .f32)) :
    (sAccQ : Memref sig .scVector .vmem S10240 .f32).view.readCov (⟨Rect.whole S10240, w⟩ :: Ls) (LoadRect.whole S10240) = w :=
  (congrArg ((sAccQ : Memref sig .scVector .vmem S10240 .f32).view.readAt (Elt F) (LoadRect.whole S10240))
    (writes_accQ (F := F) (View.junk (Val := Elt F) (sAccQ : Memref sig .scVector .vmem S10240 .f32).view) w Ls)).trans (readAt_accQ w)

/-! ### The flows and masks as the group step spells them -/

theorem pay9_eq (a b c : FVec F S16 .f32) : k1_pay9 a b c = divf (mulf a b) (addf c Spec.epsV) := rfl
theorem pay10_eq (a b c : FVec F S16 .f32) : k1_pay10 a b c = divf (mulf a b) (addf c Spec.epsV) := rfl
theorem pay11_eq (s t : IVec S16 32) : k1_pay11 (F := F) s t = cmpi .ne s t := rfl
theorem pay12_eq (a b : FVec F S16 .f32) : k1_pay12 a b = mulf a b := rfl
theorem pay13_eq (a b c : FVec F S16 .f32) : k1_pay13 a b c = divf (mulf a b) (addf c Spec.epsV) := rfl
theorem pay14_eq (v c : FVec F S16 .f32) : k1_pay14 v c = divf v (addf c Spec.epsV) := rfl
theorem pay15_eq (s t : IVec S16 32) : k1_pay15 (F := F) s t = cmpi .ne s t := rfl
theorem pay17_eq (a b c : FVec F S16 .f32) : k1_pay17 a b c = divf (mulf a b) (addf c Spec.epsV) := rfl
theorem pay18_eq (a b c : FVec F S16 .f32) : k1_pay18 a b c = divf (mulf a b) (addf c Spec.epsV) := rfl
theorem pay19_eq (s t : IVec S16 32) : k1_pay19 (F := F) s t = cmpi .ne s t := rfl
theorem pay20_eq (a b : FVec F S16 .f32) : k1_pay20 a b = mulf a b := rfl
theorem pay1_eq (v c : FVec F S16 .f32) : k1_pay1 v c = divf v (addf c Spec.epsV) := rfl
theorem pay2_eq (v c : FVec F S16 .f32) : k1_pay2 v c = divf v (addf c Spec.epsV) := rfl
theorem pay3_eq (s t : IVec S16 32) : k1_pay3 (F := F) s t = cmpi .ne s t := rfl
theorem pay5_eq (a b c : FVec F S16 .f32) : k1_pay5 a b c = divf (mulf a b) (addf c Spec.epsV) := rfl
theorem pay6_eq (a b c : FVec F S16 .f32) : k1_pay6 a b c = divf (mulf a b) (addf c Spec.epsV) := rfl
theorem pay7_eq (s t : IVec S16 32) : k1_pay7 (F := F) s t = cmpi .ne s t := rfl

/-- The active accumulator after one group. -/
theorem grpAt_fst (tab : FVec F S10240 .f32) (xs xd : IVec S640000 32) (xp xg xb : FVec F S640000 .f32) (base n : Nat)
    (T : FVec F S10240 .f32 × FVec F S10240 .f32) :
    (Spec.grpAt tab xs xd xp xg xb base n T).1
      = Spec.scatAdd (Spec.scatAdd T.1 (Spec.lanes (F := F) (e := .i32) xs (base + 16 * n))
          (divf (mulf (Spec.gath tab (Spec.lanes (F := F) (e := .i32) xs (base + 16 * n))) (Spec.lanes (F := F) (e := .f32) xp (base + 16 * n)))
            (addf (Spec.lanes (F := F) (e := .f32) xg (base + 16 * n)) Spec.epsV)) (fun _ => 1#1))
          (Spec.lanes (F := F) (e := .i32) xd (base + 16 * n))
          (divf (mulf (Spec.gath tab (Spec.lanes (F := F) (e := .i32) xs (base + 16 * n))) (Spec.lanes (F := F) (e := .f32) xp (base + 16 * n)))
            (addf (Spec.lanes (F := F) (e := .f32) xg (base + 16 * n)) Spec.epsV))
          (cmpi .ne (Spec.lanes (F := F) (e := .i32) xs (base + 16 * n)) (Spec.lanes (F := F) (e := .i32) xd (base + 16 * n))) := rfl

/-- The reactive accumulator after one group. -/
theorem grpAt_snd (tab : FVec F S10240 .f32) (xs xd : IVec S640000 32) (xp xg xb : FVec F S640000 .f32) (base n : Nat)
    (T : FVec F S10240 .f32 × FVec F S10240 .f32) :
    (Spec.grpAt tab xs xd xp xg xb base n T).2
      = Spec.scatAdd (Spec.scatAdd T.2 (Spec.lanes (F := F) (e := .i32) xs (base + 16 * n))
          (divf (mulf (Spec.gath tab (Spec.lanes (F := F) (e := .i32) xs (base + 16 * n))) (Spec.lanes (F := F) (e := .f32) xp (base + 16 * n)))
            (addf (Spec.lanes (F := F) (e := .f32) xb (base + 16 * n)) Spec.epsV)) (fun _ => 1#1))
          (Spec.lanes (F := F) (e := .i32) xd (base + 16 * n))
          (divf (mulf (Spec.gath tab (Spec.lanes (F := F) (e := .i32) xs (base + 16 * n))) (Spec.lanes (F := F) (e := .f32) xp (base + 16 * n)))
            (addf (Spec.lanes (F := F) (e := .f32) xb (base + 16 * n)) Spec.epsV))
          (cmpi .ne (Spec.lanes (F := F) (e := .i32) xs (base + 16 * n)) (Spec.lanes (F := F) (e := .i32) xd (base + 16 * n))) := rfl

end Cert.Proof.K

end
-- ==== Proof.K.TileInnerVal0.lean ====
/-
  One round of a chunk on a vector subcore: five groups of sixteen edges read out of the landed half of
  the five double-buffered scratch buffers and accumulated onto the tile's two accumulators.

  A round reads, for each of its five groups, the sixteen source and destination node numbers, the
  probabilities and the two parameter columns at the group's place in the half; gathers the squared
  voltages at the source nodes; forms the two flows; and adds each flow onto the two accumulators at
  the source nodes and, where source and destination differ, at the destination nodes. The node
  numbers read are entries of the edge arrays, so they are in range of the 10240-entry tables.
-/
import proofs.«213808_g38010460570139_cont_8to1_b_868_22_alg».proof.Proof.K.TileNames
import proofs.«213808_g38010460570139_cont_8to1_b_868_22_alg».proof.Proof.K.AccSum
import proofs.«213808_g38010460570139_cont_8to1_b_868_22_alg».proof.Proof.K.Lanes
import proofs.«213808_g38010460570139_cont_8to1_b_868_22_alg».proof.Proof.K.Window
import proofs.«213808_g38010460570139_cont_8to1_b_868_22_alg».proof.Proof.K.TileInnerLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-- What a round keeps (parity 0 half): the table, the two accumulators after the tile's first `250 c + 5 k`
    groups (chunk `c`, round `k`), and the landed halves. -/
def invInner0 (t2 : Fin k1_t2_loop.trips) (tab : FVec F S10240 .f32) (xs xd : IVec S640000 32) (xp xg xb : FVec F S640000 .f32) (base : Nat)
    (fs fd : IVec S8000 32) (fp fg fb : FVec F S8000 .f32) (k : Nat) (_ : Unit) : sProp 𝕄 :=
  iprop((sTab.view.loc (thr d L) ↦{fullShare} tab)
    ∗ (sAccP.view.loc (thr d L) ↦{fullShare} (Spec.tileAcc tab xs xd xp xg xb base (250 * t2.val + 5 * k)).1)
    ∗ (sAccQ.view.loc (thr d L) ↦{fullShare} (Spec.tileAcc tab xs xd xp xg xb base (250 * t2.val + 5 * k)).2)
    ∗ (hSrc0.view.loc (thr d L) ↦[hSrc0.view.set]{fullShare} fs) ∗ (hDst0.view.loc (thr d L) ↦[hDst0.view.set]{fullShare} fd)
    ∗ (hPr0.view.loc (thr d L) ↦[hPr0.view.set]{fullShare} fp)
    ∗ (hG0.view.loc (thr d L) ↦[hG0.view.set]{fullShare} fg) ∗ (hB0.view.loc (thr d L) ↦[hB0.view.set]{fullShare} fb))

set_option maxHeartbeats 8000000 in
/-- One round on the parity 0 half: five more groups on the two accumulators. -/
theorem inner_trip0 (t2 : Fin k1_t2_loop.trips) (tab : FVec F S10240 .f32) (xs xd : IVec S640000 32) (xp xg xb : FVec F S640000 .f32) (base : Nat)
    (fs fd : IVec S8000 32) (fp fg fb : FVec F S8000 .f32)
    (hxs : ∀ j, (xs j).toNat < 10240) (hxd : ∀ j, (xd j).toNat < 10240)
    (Hs : HalfIs (F := F) (e := .i32) fs 0 xs (base + 4000 * t2.val)) (Hd : HalfIs (F := F) (e := .i32) fd 0 xd (base + 4000 * t2.val))
    (Hp : HalfIs (F := F) (e := .f32) fp 0 xp (base + 4000 * t2.val)) (Hg : HalfIs (F := F) (e := .f32) fg 0 xg (base + 4000 * t2.val))
    (Hb : HalfIs (F := F) (e := .f32) fb 0 xb (base + 4000 * t2.val))
    (h2 : t2.val % 2 = 0) (v35 : BitVec 32) (k : Fin k1_t3_loop.trips) (acc : Unit) :
    invInner0 d L t2 tab xs xd xp xg xb base fs fd fp fg fb k.val acc
      ⊢ wp frame (wpE (defs₀ (F := F)) 𝒱₀ (thr d L) none) Set.univ
          (k1_t3_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 t2 v35 k acc)
          (invInner0 d L t2 tab xs xd xp xg xb base fs fd fp fg fb (k.val + 1)) := by
  have h3 : k.val < 50 := Nat.lt_of_lt_of_le k.isLt k1_t3_abs.2.1
  have es0 := (readAt_half_src (F := F) fs 0 xs (base + 4000 * t2.val) Hs (k1_off7 t2 k) (80 * k.val) (by rw [k1_off7_eq, h2]) (by omega) (k1_off7_inb t2 k)).trans (congrArg (Spec.lanes (F := F) (e := .i32) xs) (show base + 4000 * t2.val + (80 * k.val) = base + 16 * (250 * t2.val + 5 * k.val) by omega))
  have ed0 := (readAt_half_dst (F := F) fd 0 xd (base + 4000 * t2.val) Hd (k1_off7 t2 k) (80 * k.val) (by rw [k1_off7_eq, h2]) (by omega) (k1_off7_inb t2 k)).trans (congrArg (Spec.lanes (F := F) (e := .i32) xd) (show base + 4000 * t2.val + (80 * k.val) = base + 16 * (250 * t2.val + 5 * k.val) by omega))
  have ep0 := (readAt_half_pr (F := F) fp 0 xp (base + 4000 * t2.val) Hp (k1_off8 t2 k) (80 * k.val) (by rw [k1_off8_eq, h2]) (by omega) (k1_off8_inb t2 k)).trans (congrArg (Spec.lanes (F := F) (e := .f32) xp) (show base + 4000 * t2.val + (80 * k.val) = base + 16 * (250 * t2.val + 5 * k.val) by omega))
  have eg0 := (readAt_half_g (F := F) fg 0 xg (base + 4000 * t2.val) Hg (k1_off8 t2 k) (80 * k.val) (by rw [k1_off8_eq, h2]) (by omega) (k1_off8_inb t2 k)).trans (congrArg (Spec.lanes (F := F) (e := .f32) xg) (show base + 4000 * t2.val + (80 * k.val) = base + 16 * (250 * t2.val + 5 * k.val) by omega))
  have eb0 := (readAt_half_b (F := F) fb 0 xb (base + 4000 * t2.val) Hb (k1_off8 t2 k) (80 * k.val) (by rw [k1_off8_eq, h2]) (by omega) (k1_off8_inb t2 k)).trans (congrArg (Spec.lanes (F := F) (e := .f32) xb) (show base + 4000 * t2.val + (80 * k.val) = base + 16 * (250 * t2.val + 5 * k.val) by omega))
  have es1 := (readAt_half_src (F := F) fs 0 xs (base + 4000 * t2.val) Hs (k1_off9 t2 k) (80 * k.val + 16) (by rw [k1_off9_eq, h2, Nat.add_assoc]) (by omega) (k1_off9_inb t2 k)).trans (congrArg (Spec.lanes (F := F) (e := .i32) xs) (show base + 4000 * t2.val + (80 * k.val + 16) = base + 16 * (250 * t2.val + 5 * k.val + 1) by omega))
  have ed1 := (readAt_half_dst (F := F) fd 0 xd (base + 4000 * t2.val) Hd (k1_off9 t2 k) (80 * k.val + 16) (by rw [k1_off9_eq, h2, Nat.add_assoc]) (by omega) (k1_off9_inb t2 k)).trans (congrArg (Spec.lanes (F := F) (e := .i32) xd) (show base + 4000 * t2.val + (80 * k.val + 16) = base + 16 * (250 * t2.val + 5 * k.val + 1) by omega))
  have ep1 := (readAt_half_pr (F := F) fp 0 xp (base + 4000 * t2.val) Hp (k1_off10 t2 k) (80 * k.val + 16) (by rw [k1_off10_eq, h2, Nat.add_assoc]) (by omega) (k1_off10_inb t2 k)).trans (congrArg (Spec.lanes (F := F) (e := .f32) xp) (show base + 4000 * t2.val + (80 * k.val + 16) = base + 16 * (250 * t2.val + 5 * k.val + 1) by omega))
  have eg1 := (readAt_half_g (F := F) fg 0 xg (base + 4000 * t2.val) Hg (k1_off10 t2 k) (80 * k.val + 16) (by rw [k1_off10_eq, h2, Nat.add_assoc]) (by omega) (k1_off10_inb t2 k)).trans (congrArg (Spec.lanes (F := F) (e := .f32) xg) (show base + 4000 * t2.val + (80 * k.val + 16) = base + 16 * (250 * t2.val + 5 * k.val + 1) by omega))
  have eb1 := (readAt_half_b (F := F) fb 0 xb (base + 4000 * t2.val) Hb (k1_off10 t2 k) (80 * k.val + 16) (by rw [k1_off10_eq, h2, Nat.add_assoc]) (by omega) (k1_off10_inb t2 k)).trans (congrArg (Spec.lanes (F := F) (e := .f32) xb) (show base + 4000 * t2.val + (80 * k.val + 16) = base + 16 * (250 * t2.val + 5 * k.val + 1) by omega))
  have es2 := (readAt_half_src (F := F) fs 0 xs (base + 4000 * t2.val) Hs (k1_off11 t2 k) (80 * k.val + 32) (by rw [k1_off11_eq, h2, Nat.add_assoc]) (by omega) (k1_off11_inb t2 k)).trans (congrArg (Spec.lanes (F := F) (e := .i32) xs) (show base + 4000 * t2.val + (80 * k.val + 32) = base + 16 * (250 * t2.val + 5 * k.val + 2) by omega))
  have ed2 := (readAt_half_dst (F := F) fd 0 xd (base + 4000 * t2.val) Hd (k1_off11 t2 k) (80 * k.val + 32) (by rw [k1_off11_eq, h2, Nat.add_assoc]) (by omega) (k1_off11_inb t2 k)).trans (congrArg (Spec.lanes (F := F) (e := .i32) xd) (show base + 4000 * t2.val + (80 * k.val + 32) = base + 16 * (250 * t2.val + 5 * k.val + 2) by omega))
  have ep2 := (readAt_half_pr (F := F) fp 0 xp (base + 4000 * t2.val) Hp (k1_off12 t2 k) (80 * k.val + 32) (by rw [k1_off12_eq, h2, Nat.add_assoc]) (by omega) (k1_off12_inb t2 k)).trans (congrArg (Spec.lanes (F := F) (e := .f32) xp) (show base + 4000 * t2.val + (80 * k.val + 32) = base + 16 * (250 * t2.val + 5 * k.val + 2) by omega))
  have eg2 := (readAt_half_g (F := F) fg 0 xg (base + 4000 * t2.val) Hg (k1_off12 t2 k) (80 * k.val + 32) (by rw [k1_off12_eq, h2, Nat.add_assoc]) (by omega) (k1_off12_inb t2 k)).trans (congrArg (Spec.lanes (F := F) (e := .f32) xg) (show base + 4000 * t2.val + (80 * k.val + 32) = base + 16 * (250 * t2.val + 5 * k.val + 2) by omega))
  have eb2 := (readAt_half_b (F := F) fb 0 xb (base + 4000 * t2.val) Hb (k1_off12 t2 k) (80 * k.val + 32) (by rw [k1_off12_eq, h2, Nat.add_assoc]) (by omega) (k1_off12_inb t2 k)).trans (congrArg (Spec.lanes (F := F) (e := .f32) xb) (show base + 4000 * t2.val + (80 * k.val + 32) = base + 16 * (250 * t2.val + 5 * k.val + 2) by omega))
  have es3 := (readAt_half_src (F := F) fs 0 xs (base + 4000 * t2.val) Hs (k1_off13 t2 k) (80 * k.val + 48) (by rw [k1_off13_eq, h2, Nat.add_assoc]) (by omega) (k1_off13_inb t2 k)).trans (congrArg (Spec.lanes (F := F) (e := .i32) xs) (show base + 4000 * t2.val + (80 * k.val + 48) = base + 16 * (250 * t2.val + 5 * k.val + 3) by omega))
  have ed3 := (readAt_half_dst (F := F) fd 0 xd (base + 4000 * t2.val) Hd (k1_off13 t2 k) (80 * k.val + 48) (by rw [k1_off13_eq, h2, Nat.add_assoc]) (by omega) (k1_off13_inb t2 k)).trans (congrArg (Spec.lanes (F := F) (e := .i32) xd) (show base + 4000 * t2.val + (80 * k.val + 48) = base + 16 * (250 * t2.val + 5 * k.val + 3) by omega))
  have ep3 := (readAt_half_pr (F := F) fp 0 xp (base + 4000 * t2.val) Hp (k1_off14 t2 k) (80 * k.val + 48) (by rw [k1_off14_eq, h2, Nat.add_assoc]) (by omega) (k1_off14_inb t2 k)).trans (congrArg (Spec.lanes (F := F) (e := .f32) xp) (show base + 4000 * t2.val + (80 * k.val + 48) = base + 16 * (250 * t2.val + 5 * k.val + 3) by omega))
  have eg3 := (readAt_half_g (F := F) fg 0 xg (base + 4000 * t2.val) Hg (k1_off14 t2 k) (80 * k.val + 48) (by rw [k1_off14_eq, h2, Nat.add_assoc]) (by omega) (k1_off14_inb t2 k)).trans (congrArg (Spec.lanes (F := F) (e := .f32) xg) (show base + 4000 * t2.val + (80 * k.val + 48) = base + 16 * (250 * t2.val + 5 * k.val + 3) by omega))
  have eb3 := (readAt_half_b (F := F) fb 0 xb (base + 4000 * t2.val) Hb (k1_off14 t2 k) (80 * k.val + 48) (by rw [k1_off14_eq, h2, Nat.add_assoc]) (by omega) (k1_off14_inb t2 k)).trans (congrArg (Spec.lanes (F := F) (e := .f32) xb) (show base + 4000 * t2.val + (80 * k.val + 48) = base + 16 * (250 * t2.val + 5 * k.val + 3) by omega))
  have es4 := (readAt_half_src (F := F) fs 0 xs (base + 4000 * t2.val) Hs (k1_off15 t2 k) (80 * k.val + 64) (by rw [k1_off15_eq, h2, Nat.add_assoc]) (by omega) (k1_off15_inb t2 k)).trans (congrArg (Spec.lanes (F := F) (e := .i32) xs) (show base + 4000 * t2.val + (80 * k.val + 64) = base + 16 * (250 * t2.val + 5 * k.val + 4) by omega))
  have ed4 := (readAt_half_dst (F := F) fd 0 xd (base + 4000 * t2.val) Hd (k1_off15 t2 k) (80 * k.val + 64) (by rw [k1_off15_eq, h2, Nat.add_assoc]) (by omega) (k1_off15_inb t2 k)).trans (congrArg (Spec.lanes (F := F) (e := .i32) xd) (show base + 4000 * t2.val + (80 * k.val + 64) = base + 16 * (250 * t2.val + 5 * k.val + 4) by omega))
  have ep4 := (readAt_half_pr (F := F) fp 0 xp (base + 4000 * t2.val) Hp (k1_off16 t2 k) (80 * k.val + 64) (by rw [k1_off16_eq, h2, Nat.add_assoc]) (by omega) (k1_off16_inb t2 k)).trans (congrArg (Spec.lanes (F := F) (e := .f32) xp) (show base + 4000 * t2.val + (80 * k.val + 64) = base + 16 * (250 * t2.val + 5 * k.val + 4) by omega))
  have eg4 := (readAt_half_g (F := F) fg 0 xg (base + 4000 * t2.val) Hg (k1_off16 t2 k) (80 * k.val + 64) (by rw [k1_off16_eq, h2, Nat.add_assoc]) (by omega) (k1_off16_inb t2 k)).trans (congrArg (Spec.lanes (F := F) (e := .f32) xg) (show base + 4000 * t2.val + (80 * k.val + 64) = base + 16 * (250 * t2.val + 5 * k.val + 4) by omega))
  have eb4 := (readAt_half_b (F := F) fb 0 xb (base + 4000 * t2.val) Hb (k1_off16 t2 k) (80 * k.val + 64) (by rw [k1_off16_eq, h2, Nat.add_assoc]) (by omega) (k1_off16_inb t2 k)).trans (congrArg (Spec.lanes (F := F) (e := .f32) xb) (show base + 4000 * t2.val + (80 * k.val + 64) = base + 16 * (250 * t2.val + 5 * k.val + 4) by omega))
  unfold k1_t3_body invInner0
  iintro ⟨Htab, Hap, Haq, Hsv, Hdv, Hpv, Hgv, Hbv⟩
  sl_exec (disch := first | sl_exact chk3_of (lanes_ltV (F := F) xs hxs _) | sl_exact chk2_of (lanes_ltV (F := F) xd hxd _))
  iterate 25 (first | rw [SparseCore.vectorLoadIdx_bind (thr d L)] | rw [SparseCore.vectorStoreIdx_bind (thr d L)]); sl_exec (disch := first | sl_exact chk3_of (lanes_ltV (F := F) xs hxs _) | sl_exact chk2_of (lanes_ltV (F := F) xd hxd _))
  sl_step
  have rt : (View.whole cc1_scratch0 : View sig .scVector .vmem S10240 .f32).readAt (Elt F) (LoadRect.whole S10240) tab = tab :=
    readAt_tab (F := F) tab
  isplitl [Htab]; · iexact Htab
  isplitl [Hap]
  · istop
    refine Entails.of_eq (congrArg (pointsTo _ Finset.univ fullShare) ?_)
    rw [writes_accP]
    delta inner_trip0.sl.f_16
    rw [readCov_accP]
    delta inner_trip0.sl.f_14
    rw [readCov_accP]
    delta inner_trip0.sl.f_12
    rw [readCov_accP]
    delta inner_trip0.sl.f_10
    rw [readCov_accP]
    delta inner_trip0.sl.f_8
    rw [readCov_accP]
    delta inner_trip0.sl.f_6
    rw [readCov_accP]
    delta inner_trip0.sl.f_4
    rw [readCov_accP]
    delta inner_trip0.sl.f_2
    rw [readCov_accP]
    delta inner_trip0.sl.f
    rw [readCov_accP]
    rw [readAt_accP]
    sl_unfold_run_names
    simp only [rt, readAt_tab, pay9_eq, pay10_eq, pay11_eq, pay12_eq, pay13_eq, pay14_eq, pay15_eq, pay17_eq, pay18_eq, pay19_eq, pay20_eq, pay1_eq, pay2_eq, pay3_eq, pay5_eq, pay6_eq, pay7_eq, Spec.loadIdx_eq_gath, Spec.storeIdx_eq_scatAdd]
    rw [show 250 * t2.val + 5 * (k.val + 1) = 250 * t2.val + 5 * k.val + 5 by omega, Spec.tileAcc_add_five]
    simp only [grpAt_fst] <;> with_reducible rfl
  isplitl [Haq]
  · istop
    refine Entails.of_eq (congrArg (pointsTo _ Finset.univ fullShare) ?_)
    rw [writes_accQ]
    delta inner_trip0.sl.f_17
    rw [readCov_accQ]
    delta inner_trip0.sl.f_15
    rw [readCov_accQ]
    delta inner_trip0.sl.f_13
    rw [readCov_accQ]
    delta inner_trip0.sl.f_11
    rw [readCov_accQ]
    delta inner_trip0.sl.f_9
    rw [readCov_accQ]
    delta inner_trip0.sl.f_7
    rw [readCov_accQ]
    delta inner_trip0.sl.f_5
    rw [readCov_accQ]
    delta inner_trip0.sl.f_3
    rw [readCov_accQ]
    delta inner_trip0.sl.f_1
    rw [readCov_accQ]
    rw [readAt_accQ]
    sl_unfold_run_names
    simp only [rt, readAt_tab, pay9_eq, pay10_eq, pay11_eq, pay12_eq, pay13_eq, pay14_eq, pay15_eq, pay17_eq, pay18_eq, pay19_eq, pay20_eq, pay1_eq, pay2_eq, pay3_eq, pay5_eq, pay6_eq, pay7_eq, Spec.loadIdx_eq_gath, Spec.storeIdx_eq_scatAdd]
    rw [show 250 * t2.val + 5 * (k.val + 1) = 250 * t2.val + 5 * k.val + 5 by omega, Spec.tileAcc_add_five]
    simp only [grpAt_snd] <;> with_reducible rfl
  isplitl [Hsv]; · iexact Hsv
  isplitl [Hdv]; · iexact Hdv
  isplitl [Hpv]; · iexact Hpv
  isplitl [Hgv]; · iexact Hgv
  iexact Hbv

end Cert.Proof.K

end
-- ==== Proof.K.TileInnerVal1.lean ====
/-
  One round of a chunk on a vector subcore, on the second halves of the five double-buffered scratch
  buffers: five groups of sixteen edges read out of the landed half and accumulated onto the tile's two
  accumulators, which then hold the specification's fold five groups further on.

  A round reads, for each of its five groups, the sixteen source and destination node numbers, the
  probabilities and the two parameter columns at the group's place in the half; gathers the squared
  voltages at the source nodes; forms the two flows; and adds each flow onto the two accumulators at
  the source nodes and, where source and destination differ, at the destination nodes. The node
  numbers read are entries of the edge arrays, so they are in range of the 10240-entry tables.
-/
import proofs.«213808_g38010460570139_cont_8to1_b_868_22_alg».proof.Proof.K.TileNames
import proofs.«213808_g38010460570139_cont_8to1_b_868_22_alg».proof.Proof.K.AccSum
import proofs.«213808_g38010460570139_cont_8to1_b_868_22_alg».proof.Proof.K.Lanes
import proofs.«213808_g38010460570139_cont_8to1_b_868_22_alg».proof.Proof.K.Window
import proofs.«213808_g38010460570139_cont_8to1_b_868_22_alg».proof.Proof.K.TileInnerLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid1.Coords)

/-- What a round keeps (parity 1 half): the table, the two accumulators after the tile's first `250 c + 5 k`
    groups (chunk `c`, round `k`), and the landed halves. -/
def invInner1 (t2 : Fin k1_t2_loop.trips) (tab : FVec F S10240 .f32) (xs xd : IVec S640000 32) (xp xg xb : FVec F S640000 .f32) (base : Nat)
    (fs fd : IVec S8000 32) (fp fg fb : FVec F S8000 .f32) (k : Nat) (_ : Unit) : sProp 𝕄 :=
  iprop((sTab.view.loc (thr d L) ↦{fullShare} tab)
    ∗ (sAccP.view.loc (thr d L) ↦{fullShare} (Spec.tileAcc tab xs xd xp xg xb base (250 * t2.val + 5 * k)).1)
    ∗ (sAccQ.view.loc (thr d L) ↦{fullShare} (Spec.tileAcc tab xs xd xp xg xb base (250 * t2.val + 5 * k)).2)
    ∗ (hSrc1.view.loc (thr d L) ↦[hSrc1.view.set]{fullShare} fs) ∗ (hDst1.view.loc (thr d L) ↦[hDst1.view.set]{fullShare} fd)
    ∗ (hPr1.view.loc (thr d L) ↦[hPr1.view.set]{fullShare} fp)
    ∗ (hG1.view.loc (thr d L) ↦[hG1.view.set]{fullShare} fg) ∗ (hB1.view.loc (thr d L) ↦[hB1.view.set]{fullShare} fb))

set_option maxHeartbeats 8000000 in
/-- One round on the parity 1 half: five more groups on the two accumulators. -/
theorem inner_trip1 (t2 : Fin k1_t2_loop.trips) (tab : FVec F S10240 .f32) (xs xd : IVec S640000 32) (xp xg xb : FVec F S640000 .f32) (base : Nat)
    (fs fd : IVec S8000 32) (fp fg fb : FVec F S8000 .f32)
    (hxs : ∀ j, (xs j).toNat < 10240) (hxd : ∀ j, (xd j).toNat < 10240)
    (Hs : HalfIs (F := F) (e := .i32) fs 1 xs (base + 4000 * t2.val)) (Hd : HalfIs (F := F) (e := .i32) fd 1 xd (base + 4000 * t2.val))
    (Hp : HalfIs (F := F) (e := .f32) fp 1 xp (base + 4000 * t2.val)) (Hg : HalfIs (F := F) (e := .f32) fg 1 xg (base + 4000 * t2.val))
    (Hb : HalfIs (F := F) (e := .f32) fb 1 xb (base + 4000 * t2.val))
    (h2 : t2.val % 2 = 1) (v35 : BitVec 32) (k : Fin k1_t3_loop.trips) (acc : Unit) :
    invInner1 d L t2 tab xs xd xp xg xb base fs fd fp fg fb k.val acc
      ⊢ wp frame (wpE (defs₀ (F := F)) 𝒱₀ (thr d L) none) Set.univ
          (k1_t3_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 t2 v35 k acc)
          (invInner1 d L t2 tab xs xd xp xg xb base fs fd fp fg fb (k.val + 1)) := by
  have h3 : k.val < 50 := Nat.lt_of_lt_of_le k.isLt k1_t3_abs.2.1
  have es0 := (readAt_half_src (F := F) fs 1 xs (base + 4000 * t2.val) Hs (k1_off7 t2 k) (80 * k.val) (by rw [k1_off7_eq, h2]) (by omega) (k1_off7_inb t2 k)).trans (congrArg (Spec.lanes (F := F) (e := .i32) xs) (show base + 4000 * t2.val + (80 * k.val) = base + 16 * (250 * t2.val + 5 * k.val) by omega))
  have ed0 := (readAt_half_dst (F := F) fd 1 xd (base + 4000 * t2.val) Hd (k1_off7 t2 k) (80 * k.val) (by rw [k1_off7_eq, h2]) (by omega) (k1_off7_inb t2 k)).trans (congrArg (Spec.lanes (F := F) (e := .i32) xd) (show base + 4000 * t2.val + (80 * k.val) = base + 16 * (250 * t2.val + 5 * k.val) by omega))
  have ep0 := (readAt_half_pr (F := F) fp 1 xp (base + 4000 * t2.val) Hp (k1_off8 t2 k) (80 * k.val) (by rw [k1_off8_eq, h2]) (by omega) (k1_off8_inb t2 k)).trans (congrArg (Spec.lanes (F := F) (e := .f32) xp) (show base + 4000 * t2.val + (80 * k.val) = base + 16 * (250 * t2.val + 5 * k.val) by omega))
  have eg0 := (readAt_half_g (F := F) fg 1 xg (base + 4000 * t2.val) Hg (k1_off8 t2 k) (80 * k.val) (by rw [k1_off8_eq, h2]) (by omega) (k1_off8_inb t2 k)).trans (congrArg (Spec.lanes (F := F) (e := .f32) xg) (show base + 4000 * t2.val + (80 * k.val) = base + 16 * (250 * t2.val + 5 * k.val) by omega))
  have eb0 := (readAt_half_b (F := F) fb 1 xb (base + 4000 * t2.val) Hb (k1_off8 t2 k) (80 * k.val) (by rw [k1_off8_eq, h2]) (by omega) (k1_off8_inb t2 k)).trans (congrArg (Spec.lanes (F := F) (e := .f32) xb) (show base + 4000 * t2.val + (80 * k.val) = base + 16 * (250 * t2.val + 5 * k.val) by omega))
  have es1 := (readAt_half_src (F := F) fs 1 xs (base + 4000 * t2.val) Hs (k1_off9 t2 k) (80 * k.val + 16) (by rw [k1_off9_eq, h2, Nat.add_assoc]) (by omega) (k1_off9_inb t2 k)).trans (congrArg (Spec.lanes (F := F) (e := .i32) xs) (show base + 4000 * t2.val + (80 * k.val + 16) = base + 16 * (250 * t2.val + 5 * k.val + 1) by omega))
  have ed1 := (readAt_half_dst (F := F) fd 1 xd (base + 4000 * t2.val) Hd (k1_off9 t2 k) (80 * k.val + 16) (by rw [k1_off9_eq, h2, Nat.add_assoc]) (by omega) (k1_off9_inb t2 k)).trans (congrArg (Spec.lanes (F := F) (e := .i32) xd) (show base + 4000 * t2.val + (80 * k.val + 16) = base + 16 * (250 * t2.val + 5 * k.val + 1) by omega))
  have ep1 := (readAt_half_pr (F := F) fp 1 xp (base + 4000 * t2.val) Hp (k1_off10 t2 k) (80 * k.val + 16) (by rw [k1_off10_eq, h2, Nat.add_assoc]) (by omega) (k1_off10_inb t2 k)).trans (congrArg (Spec.lanes (F := F) (e := .f32) xp) (show base + 4000 * t2.val + (80 * k.val + 16) = base + 16 * (250 * t2.val + 5 * k.val + 1) by omega))
  have eg1 := (readAt_half_g (F := F) fg 1 xg (base + 4000 * t2.val) Hg (k1_off10 t2 k) (80 * k.val + 16) (by rw [k1_off10_eq, h2, Nat.add_assoc]) (by omega) (k1_off10_inb t2 k)).trans (congrArg (Spec.lanes (F := F) (e := .f32) xg) (show base + 4000 * t2.val + (80 * k.val + 16) = base + 16 * (250 * t2.val + 5 * k.val + 1) by omega))
  have eb1 := (readAt_half_b (F := F) fb 1 xb (base + 4000 * t2.val) Hb (k1_off10 t2 k) (80 * k.val + 16) (by rw [k1_off10_eq, h2, Nat.add_assoc]) (by omega) (k1_off10_inb t2 k)).trans (congrArg (Spec.lanes (F := F) (e := .f32) xb) (show base + 4000 * t2.val + (80 * k.val + 16) = base + 16 * (250 * t2.val + 5 * k.val + 1) by omega))
  have es2 := (readAt_half_src (F := F) fs 1 xs (base + 4000 * t2.val) Hs (k1_off11 t2 k) (80 * k.val + 32) (by rw [k1_off11_eq, h2, Nat.add_assoc]) (by omega) (k1_off11_inb t2 k)).trans (congrArg (Spec.lanes (F := F) (e := .i32) xs) (show base + 4000 * t2.val + (80 * k.val + 32) = base + 16 * (250 * t2.val + 5 * k.val + 2) by omega))
  have ed2 := (readAt_half_dst (F := F) fd 1 xd (base + 4000 * t2.val) Hd (k1_off11 t2 k) (80 * k.val + 32) (by rw [k1_off11_eq, h2, Nat.add_assoc]) (by omega) (k1_off11_inb t2 k)).trans (congrArg (Spec.lanes (F := F) (e := .i32) xd) (show base + 4000 * t2.val + (80 * k.val + 32) = base + 16 * (250 * t2.val + 5 * k.val + 2) by omega))
  have ep2 := (readAt_half_pr (F := F) fp 1 xp (base + 4000 * t2.val) Hp (k1_off12 t2 k) (80 * k.val + 32) (by rw [k1_off12_eq, h2, Nat.add_assoc]) (by omega) (k1_off12_inb t2 k)).trans (congrArg (Spec.lanes (F := F) (e := .f32) xp) (show base + 4000 * t2.val + (80 * k.val + 32) = base + 16 * (250 * t2.val + 5 * k.val + 2) by omega))
  have eg2 := (readAt_half_g (F := F) fg 1 xg (base + 4000 * t2.val) Hg (k1_off12 t2 k) (80 * k.val + 32) (by rw [k1_off12_eq, h2, Nat.add_assoc]) (by omega) (k1_off12_inb t2 k)).trans (congrArg (Spec.lanes (F := F) (e := .f32) xg) (show base + 4000 * t2.val + (80 * k.val + 32) = base + 16 * (250 * t2.val + 5 * k.val + 2) by omega))
  have eb2 := (readAt_half_b (F := F) fb 1 xb (base + 4000 * t2.val) Hb (k1_off12 t2 k) (80 * k.val + 32) (by rw [k1_off12_eq, h2, Nat.add_assoc]) (by omega) (k1_off12_inb t2 k)).trans (congrArg (Spec.lanes (F := F) (e := .f32) xb) (show base + 4000 * t2.val + (80 * k.val + 32) = base + 16 * (250 * t2.val + 5 * k.val + 2) by omega))
  have es3 := (readAt_half_src (F := F) fs 1 xs (base + 4000 * t2.val) Hs (k1_off13 t2 k) (80 * k.val + 48) (by rw [k1_off13_eq, h2, Nat.add_assoc]) (by omega) (k1_off13_inb t2 k)).trans (congrArg (Spec.lanes (F := F) (e := .i32) xs) (show base + 4000 * t2.val + (80 * k.val + 48) = base + 16 * (250 * t2.val + 5 * k.val + 3) by omega))
  have ed3 := (readAt_half_dst (F := F) fd 1 xd (base + 4000 * t2.val) Hd (k1_off13 t2 k) (80 * k.val + 48) (by rw [k1_off13_eq, h2, Nat.add_assoc]) (by omega) (k1_off13_inb t2 k)).trans (congrArg (Spec.lanes (F := F) (e := .i32) xd) (show base + 4000 * t2.val + (80 * k.val + 48) = base + 16 * (250 * t2.val + 5 * k.val + 3) by omega))
  have ep3 := (readAt_half_pr (F := F) fp 1 xp (base + 4000 * t2.val) Hp (k1_off14 t2 k) (80 * k.val + 48) (by rw [k1_off14_eq, h2, Nat.add_assoc]) (by omega) (k1_off14_inb t2 k)).trans (congrArg (Spec.lanes (F := F) (e := .f32) xp) (show base + 4000 * t2.val + (80 * k.val + 48) = base + 16 * (250 * t2.val + 5 * k.val + 3) by omega))
  have eg3 := (readAt_half_g (F := F) fg 1 xg (base + 4000 * t2.val) Hg (k1_off14 t2 k) (80 * k.val + 48) (by rw [k1_off14_eq, h2, Nat.add_assoc]) (by omega) (k1_off14_inb t2 k)).trans (congrArg (Spec.lanes (F := F) (e := .f32) xg) (show base + 4000 * t2.val + (80 * k.val + 48) = base + 16 * (250 * t2.val + 5 * k.val + 3) by omega))
  have eb3 := (readAt_half_b (F := F) fb 1 xb (base + 4000 * t2.val) Hb (k1_off14 t2 k) (80 * k.val + 48) (by rw [k1_off14_eq, h2, Nat.add_assoc]) (by omega) (k1_off14_inb t2 k)).trans (congrArg (Spec.lanes (F := F) (e := .f32) xb) (show base + 4000 * t2.val + (80 * k.val + 48) = base + 16 * (250 * t2.val + 5 * k.val + 3) by omega))
  have es4 := (readAt_half_src (F := F) fs 1 xs (base + 4000 * t2.val) Hs (k1_off15 t2 k) (80 * k.val + 64) (by rw [k1_off15_eq, h2, Nat.add_assoc]) (by omega) (k1_off15_inb t2 k)).trans (congrArg (Spec.lanes (F := F) (e := .i32) xs) (show base + 4000 * t2.val + (80 * k.val + 64) = base + 16 * (250 * t2.val + 5 * k.val + 4) by omega))
  have ed4 := (readAt_half_dst (F := F) fd 1 xd (base + 4000 * t2.val) Hd (k1_off15 t2 k) (80 * k.val + 64) (by rw [k1_off15_eq, h2, Nat.add_assoc]) (by omega) (k1_off15_inb t2 k)).trans (congrArg (Spec.lanes (F := F) (e := .i32) xd) (show base + 4000 * t2.val + (80 * k.val + 64) = base + 16 * (250 * t2.val + 5 * k.val + 4) by omega))
  have ep4 := (readAt_half_pr (F := F) fp 1 xp (base + 4000 * t2.val) Hp (k1_off16 t2 k) (80 * k.val + 64) (by rw [k1_off16_eq, h2, Nat.add_assoc]) (by omega) (k1_off16_inb t2 k)).trans (congrArg (Spec.lanes (F := F) (e := .f32) xp) (show base + 4000 * t2.val + (80 * k.val + 64) = base + 16 * (250 * t2.val + 5 * k.val + 4) by omega))
  have eg4 := (readAt_half_g (F := F) fg 1 xg (base + 4000 * t2.val) Hg (k1_off16 t2 k) (80 * k.val + 64) (by rw [k1_off16_eq, h2, Nat.add_assoc]) (by omega) (k1_off16_inb t2 k)).trans (congrArg (Spec.lanes (F := F) (e := .f32) xg) (show base + 4000 * t2.val + (80 * k.val + 64) = base + 16 * (250 * t2.val + 5 * k.val + 4) by omega))
  have eb4 := (readAt_half_b (F := F) fb 1 xb (base + 4000 * t2.val) Hb (k1_off16 t2 k) (80 * k.val + 64) (by rw [k1_off16_eq, h2, Nat.add_assoc]) (by omega) (k1_off16_inb t2 k)).trans (congrArg (Spec.lanes (F := F) (e := .f32) xb) (show base + 4000 * t2.val + (80 * k.val + 64) = base + 16 * (250 * t2.val + 5 * k.val + 4) by omega))
  unfold k1_t3_body invInner1
  iintro ⟨Htab, Hap, Haq, Hsv, Hdv, Hpv, Hgv, Hbv⟩
  sl_exec (disch := first | sl_exact chk3_of (lanes_ltV (F := F) xs hxs _) | sl_exact chk2_of (lanes_ltV (F := F) xd hxd _))
  iterate 25 (first | rw [SparseCore.vectorLoadIdx_bind (thr d L)] | rw [SparseCore.vectorStoreIdx_bind (thr d L)]); sl_exec (disch := first | sl_exact chk3_of (lanes_ltV (F := F) xs hxs _) | sl_exact chk2_of (lanes_ltV (F := F) xd hxd _))
  sl_step
  have rt : ∀ f : FVec F S10240 .f32, View.readAt (Elt F) (View.whole cc1_scratch0) (LoadRect.whole S10240) f = f :=
    fun f => Memref.readAt_whole (Elt F) cc1_scratch0 f
  isplitl [Htab]; · iexact Htab
  isplitl [Hap]
  · istop
    refine Entails.of_eq (congrArg (pointsTo _ Finset.univ fullShare) ?_)
    rw [writes_accP]
    delta inner_trip1.sl.f_16
    rw [readCov_accP]
    delta inner_trip1.sl.f_14
    rw [readCov_accP]
    delta inner_trip1.sl.f_12
    rw [readCov_accP]
    delta inner_trip1.sl.f_10
    rw [readCov_accP]
    delta inner_trip1.sl.f_8
    rw [readCov_accP]
    delta inner_trip1.sl.f_6
    rw [readCov_accP]
    delta inner_trip1.sl.f_4
    rw [readCov_accP]
    delta inner_trip1.sl.f_2
    rw [readCov_accP]
    delta inner_trip1.sl.f
    rw [readCov_accP]
    rw [readAt_accP]
    sl_unfold_run_names
    simp only [readAt_tab, rt, pay9_eq, pay10_eq, pay11_eq, pay12_eq, pay13_eq, pay14_eq, pay15_eq, pay17_eq, pay18_eq, pay19_eq, pay20_eq, pay1_eq, pay2_eq, pay3_eq, pay5_eq, pay6_eq, pay7_eq, Spec.loadIdx_eq_gath, Spec.storeIdx_eq_scatAdd]
    rw [show 250 * t2.val + 5 * (k.val + 1) = 250 * t2.val + 5 * k.val + 5 by omega, Spec.tileAcc_add_five]
    simp only [grpAt_fst]
  isplitl [Haq]
  · istop
    refine Entails.of_eq (congrArg (pointsTo _ Finset.univ fullShare) ?_)
    rw [writes_accQ]
    delta inner_trip1.sl.f_17
    rw [readCov_accQ]
    delta inner_trip1.sl.f_15
    rw [readCov_accQ]
    delta inner_trip1.sl.f_13
    rw [readCov_accQ]
    delta inner_trip1.sl.f_11
    rw [readCov_accQ]
    delta inner_trip1.sl.f_9
    rw [readCov_accQ]
    delta inner_trip1.sl.f_7
    rw [readCov_accQ]
    delta inner_trip1.sl.f_5
    rw [readCov_accQ]
    delta inner_trip1.sl.f_3
    rw [readCov_accQ]
    delta inner_trip1.sl.f_1
    rw [readCov_accQ]
    rw [readAt_accQ]
    sl_unfold_run_names
    simp only [readAt_tab, rt, pay9_eq, pay10_eq, pay11_eq, pay12_eq, pay13_eq, pay14_eq, pay15_eq, pay17_eq, pay18_eq, pay19_eq, pay20_eq, pay1_eq, pay2_eq, pay3_eq, pay5_eq, pay6_eq, pay7_eq, Spec.loadIdx_eq_gath, Spec.storeIdx_eq_scatAdd]
    rw [show 250 * t2.val + 5 * (k.val + 1) = 250 * t2.val + 5 * k.val + 5 by omega, Spec.tileAcc_add_five]
    simp only [grpAt_snd]
  isplitl [Hsv]; · iexact Hsv
  isplitl [Hdv]; · iexact Hdv
  isplitl [Hpv]; · iexact Hpv
  isplitl [Hgv]; · iexact Hgv
  iexact Hbv

end Cert.Proof.K

end
-- ==== Proof.K.TileInnerVal.lean ====
/-
  A round of five groups on either half of the double-buffered scratch buffers, with its value.
-/
import proofs.«213808_g38010460570139_cont_8to1_b_868_22_alg».proof.Proof.K.TileInnerVal0
import proofs.«213808_g38010460570139_cont_8to1_b_868_22_alg».proof.Proof.K.TileInnerVal1
-- ==== Proof.K.TileTrip0.lean ====
/-
  Chunk 0 of a tile's edge range: the five copies of chunk 1 started into the other scratch halves, chunk 0's
  five copies awaited, and its fifty rounds of five groups applied to the accumulators.
-/
import proofs.«213808_g38010460570139_cont_8to1_b_868_22_alg».proof.Proof.K.TileChunkInv
import proofs.«213808_g38010460570139_cont_8to1_b_868_22_alg».proof.Proof.K.Window
import proofs.«213808_g38010460570139_cont_8to1_b_868_22_alg».proof.Proof.K.TileInnerVal

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip0 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff0 : k1_off1 L = ![base + 4000 * 0]) :
    chunkInv0 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨0, tlt0⟩ ())
          (fun _ => chunkInv1 d L q O W tab xs xd xp xg xb base) := by
  have k1_h1 : k1_cond1 ⟨0, tlt0⟩ = 1#1 := by decide
  have k1_h2 : k1_cond2 ⟨0, tlt0⟩ = 1#1 := by decide
  have k1_h3 : k1_cond3 ⟨0, tlt0⟩ = 1#1 := by decide
  have htr : Scf.trips k1_t3_loop.lb k1_t3_loop.ub k1_t3_loop.st = 50 := by decide
  unfold chunkInv0 chunkInv1
  unfold k1_t2_body
  iintro ⟨Hmw, Htab, Hap, Haq, ⟨%W', %hW', HO⟩, Hcs1, Hcd1, Hcp1, Hcg1, Hcb1, Hcs2, Hcd2, Hcp2, Hcg2, Hcb2, Hcs3, Hcd3, Hcp3, Hcg3, Hcb3, Hcs4, Hcd4, Hcp4, Hcg4, Hcb4, ⟨%g3, Hsv⟩, ⟨%g4, Hdv⟩, ⟨%g5, Hpv⟩, ⟨%g6, Hgv⟩, ⟨%g7, Hbv⟩, ⟨%f3, %f4, %f5, %f6, %f7, HBa⟩, Hsem⟩
  imod (Transfers.batch_alloc' (Lvl := ℕ) (EC (F := F)) (thr d L) (default : HIx 1) NN (DO d L q xs xd xp xg xb g3 g4 g5 g6 g7 (k1_off3 L ⟨0, tlt0⟩) (off_inb1 L)) (sm := SemLoc.dma cc1_scratch9.sem) (E := Set.univ)) $$ Hsem with HBb
  sl_exec
  have HIs : HalfIs (F := F) (hSrc0.view.writes (Elt F) hSrc0.view.junk [⟨Rect.whole S4000, ReadAs.same.apply ((srcSl (k1_off1 L) (k1_off1_inb L)).view.read (Elt F) xs)⟩]) 0 xs (base + 4000 * 0) := by
    rw [← View.write_univ_eq_writes_whole _ _ [] _]
    exact landed_halfIs_src (F := F) 0 ![0] rfl inb_S8000_S4000_0 (k1_off1 L) (base + 4000 * 0) (hoff0) (k1_off1_inb L) _ xs
  have HId : HalfIs (F := F) (hDst0.view.writes (Elt F) hDst0.view.junk [⟨Rect.whole S4000, ReadAs.same.apply ((dstSl (k1_off1 L) (k1_off1_inb L)).view.read (Elt F) xd)⟩]) 0 xd (base + 4000 * 0) := by
    rw [← View.write_univ_eq_writes_whole _ _ [] _]
    exact landed_halfIs_dst (F := F) 0 ![0] rfl inb_S8000_S4000_0 (k1_off1 L) (base + 4000 * 0) (hoff0) (k1_off1_inb L) _ xd
  have HIp : HalfIs (F := F) (hPr0.view.writes (Elt F) hPr0.view.junk [⟨Rect.whole S4000, ReadAs.same.apply ((prSl (k1_off1 L) (k1_off1_inb L)).view.read (Elt F) xp)⟩]) 0 xp (base + 4000 * 0) := by
    rw [← View.write_univ_eq_writes_whole _ _ [] _]
    exact landed_halfIs_pr (F := F) 0 ![0] rfl inb_S8000_S4000_0 (k1_off1 L) (base + 4000 * 0) (hoff0) (k1_off1_inb L) _ xp
  have HIg : HalfIs (F := F) (hG0.view.writes (Elt F) hG0.view.junk [⟨Rect.whole S4000, ReadAs.same.apply ((gSl (k1_off1 L) (k1_off1_inb L)).view.read (Elt F) xg)⟩]) 0 xg (base + 4000 * 0) := by
    rw [← View.write_univ_eq_writes_whole _ _ [] _]
    exact landed_halfIs_g (F := F) 0 ![0] rfl inb_S8000_S4000_0 (k1_off1 L) (base + 4000 * 0) (hoff0) (k1_off1_inb L) _ xg
  have HIb : HalfIs (F := F) (hB0.view.writes (Elt F) hB0.view.junk [⟨Rect.whole S4000, ReadAs.same.apply ((bSl (k1_off1 L) (k1_off1_inb L)).view.read (Elt F) xb)⟩]) 0 xb (base + 4000 * 0) := by
    rw [← View.write_univ_eq_writes_whole _ _ [] _]
    exact landed_halfIs_b (F := F) 0 ![0] rfl inb_S8000_S4000_0 (k1_off1 L) (base + 4000 * 0) (hoff0) (k1_off1_inb L) _ xb
  sl_for (invInner0 d L ⟨0, tlt0⟩ tab xs xd xp xg xb base (hSrc0.view.writes (Elt F) hSrc0.view.junk [⟨Rect.whole S4000, ReadAs.same.apply ((srcSl (k1_off1 L) (k1_off1_inb L)).view.read (Elt F) xs)⟩])
      (hDst0.view.writes (Elt F) hDst0.view.junk [⟨Rect.whole S4000, ReadAs.same.apply ((dstSl (k1_off1 L) (k1_off1_inb L)).view.read (Elt F) xd)⟩])
      (hPr0.view.writes (Elt F) hPr0.view.junk [⟨Rect.whole S4000, ReadAs.same.apply ((prSl (k1_off1 L) (k1_off1_inb L)).view.read (Elt F) xp)⟩])
      (hG0.view.writes (Elt F) hG0.view.junk [⟨Rect.whole S4000, ReadAs.same.apply ((gSl (k1_off1 L) (k1_off1_inb L)).view.read (Elt F) xg)⟩])
      (hB0.view.writes (Elt F) hB0.view.junk [⟨Rect.whole S4000, ReadAs.same.apply ((bSl (k1_off1 L) (k1_off1_inb L)).view.read (Elt F) xb)⟩])) $$ [Htab Hap Haq HBa_dst0 HBa_dst1 HBa_dst2 HBa_dst3 HBa_dst4]
  case region =>
    intro kk acc
    exact inner_trip0 d L ⟨0, tlt0⟩ tab xs xd xp xg xb base _ _ _ _ _ hxs hxd HIs HId HIp HIg HIb (by decide) _ kk acc
  · unfold invInner0
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner0
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hcs2]; · iexact Hcs2
  isplitl [Hcd2]; · iexact Hcd2
  isplitl [Hcp2]; · iexact Hcp2
  isplitl [Hcg2]; · iexact Hcg2
  isplitl [Hcb2]; · iexact Hcb2
  isplitl [Hcs3]; · iexact Hcs3
  isplitl [Hcd3]; · iexact Hcd3
  isplitl [Hcp3]; · iexact Hcp3
  isplitl [Hcg3]; · iexact Hcg3
  isplitl [Hcb3]; · iexact Hcb3
  isplitl [Hcs4]; · iexact Hcs4
  isplitl [Hcd4]; · iexact Hcd4
  isplitl [Hcp4]; · iexact Hcp4
  isplitl [Hcg4]; · iexact Hcg4
  isplitl [Hcb4]; · iexact Hcb4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [HBb]; · iexists g3, g4, g5, g6, g7; iexact HBb
  iexact HBa

end Chunk

end Cert.Proof.K

end
-- ==== Proof.K.TileTrip1.lean ====
/-
  Chunk 1 of a tile's edge range: the five copies of chunk 2 started into the other scratch halves, chunk 1's
  five copies awaited, and its fifty rounds of five groups applied to the accumulators.
-/
import proofs.«213808_g38010460570139_cont_8to1_b_868_22_alg».proof.Proof.K.TileChunkInv
import proofs.«213808_g38010460570139_cont_8to1_b_868_22_alg».proof.Proof.K.Window
import proofs.«213808_g38010460570139_cont_8to1_b_868_22_alg».proof.Proof.K.TileInnerVal

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip1 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff1 : k1_off3 L ⟨0, tlt0⟩ = ![base + 4000 * 1]) :
    chunkInv1 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨1, tlt1⟩ ())
          (fun _ => chunkInv2 d L q O W tab xs xd xp xg xb base) := by
  have k1_h1 : k1_cond1 ⟨1, tlt1⟩ = 1#1 := by decide
  have k1_h2 : ¬ k1_cond2 ⟨1, tlt1⟩ = 1#1 := by decide
  have k1_h3 : ¬ k1_cond3 ⟨1, tlt1⟩ = 1#1 := by decide
  have htr : Scf.trips k1_t3_loop.lb k1_t3_loop.ub k1_t3_loop.st = 50 := by decide
  unfold chunkInv1 chunkInv2
  unfold k1_t2_body
  iintro ⟨Hmw, Htab, Hap, Haq, ⟨%W', %hW', HO⟩, Hcs0, Hcd0, Hcp0, Hcg0, Hcb0, Hcs2, Hcd2, Hcp2, Hcg2, Hcb2, Hcs3, Hcd3, Hcp3, Hcg3, Hcb3, Hcs4, Hcd4, Hcp4, Hcg4, Hcb4, ⟨%g3, Hsv⟩, ⟨%g4, Hdv⟩, ⟨%g5, Hpv⟩, ⟨%g6, Hgv⟩, ⟨%g7, Hbv⟩, ⟨%f3, %f4, %f5, %f6, %f7, HBa⟩, Hsem⟩
  imod (Transfers.batch_alloc' (Lvl := ℕ) (EC (F := F)) (thr d L) (default : HIx 1) NN (DE d L q xs xd xp xg xb g3 g4 g5 g6 g7 (k1_off4 L ⟨1, tlt1⟩) (off_inb2 L)) (sm := SemLoc.dma cc1_scratch8.sem) (E := Set.univ)) $$ Hsem with HBb
  sl_exec
  have HIs : HalfIs (F := F) (hSrc1.view.writes (Elt F) hSrc1.view.junk [⟨Rect.whole S4000, ReadAs.same.apply ((srcSl (k1_off3 L ⟨0, tlt0⟩) (off_inb1 L)).view.read (Elt F) xs)⟩]) 1 xs (base + 4000 * 1) := by
    rw [← View.write_univ_eq_writes_whole _ _ [] _]
    exact landed_halfIs_src (F := F) 1 ![4000] rfl inb_S8000_S4000_4000 (k1_off3 L ⟨0, tlt0⟩) (base + 4000 * 1) (hoff1) (off_inb1 L) _ xs
  have HId : HalfIs (F := F) (hDst1.view.writes (Elt F) hDst1.view.junk [⟨Rect.whole S4000, ReadAs.same.apply ((dstSl (k1_off3 L ⟨0, tlt0⟩) (off_inb1 L)).view.read (Elt F) xd)⟩]) 1 xd (base + 4000 * 1) := by
    rw [← View.write_univ_eq_writes_whole _ _ [] _]
    exact landed_halfIs_dst (F := F) 1 ![4000] rfl inb_S8000_S4000_4000 (k1_off3 L ⟨0, tlt0⟩) (base + 4000 * 1) (hoff1) (off_inb1 L) _ xd
  have HIp : HalfIs (F := F) (hPr1.view.writes (Elt F) hPr1.view.junk [⟨Rect.whole S4000, ReadAs.same.apply ((prSl (k1_off3 L ⟨0, tlt0⟩) (off_inb1 L)).view.read (Elt F) xp)⟩]) 1 xp (base + 4000 * 1) := by
    rw [← View.write_univ_eq_writes_whole _ _ [] _]
    exact landed_halfIs_pr (F := F) 1 ![4000] rfl inb_S8000_S4000_4000 (k1_off3 L ⟨0, tlt0⟩) (base + 4000 * 1) (hoff1) (off_inb1 L) _ xp
  have HIg : HalfIs (F := F) (hG1.view.writes (Elt F) hG1.view.junk [⟨Rect.whole S4000, ReadAs.same.apply ((gSl (k1_off3 L ⟨0, tlt0⟩) (off_inb1 L)).view.read (Elt F) xg)⟩]) 1 xg (base + 4000 * 1) := by
    rw [← View.write_univ_eq_writes_whole _ _ [] _]
    exact landed_halfIs_g (F := F) 1 ![4000] rfl inb_S8000_S4000_4000 (k1_off3 L ⟨0, tlt0⟩) (base + 4000 * 1) (hoff1) (off_inb1 L) _ xg
  have HIb : HalfIs (F := F) (hB1.view.writes (Elt F) hB1.view.junk [⟨Rect.whole S4000, ReadAs.same.apply ((bSl (k1_off3 L ⟨0, tlt0⟩) (off_inb1 L)).view.read (Elt F) xb)⟩]) 1 xb (base + 4000 * 1) := by
    rw [← View.write_univ_eq_writes_whole _ _ [] _]
    exact landed_halfIs_b (F := F) 1 ![4000] rfl inb_S8000_S4000_4000 (k1_off3 L ⟨0, tlt0⟩) (base + 4000 * 1) (hoff1) (off_inb1 L) _ xb
  sl_for (invInner1 d L ⟨1, tlt1⟩ tab xs xd xp xg xb base (hSrc1.view.writes (Elt F) hSrc1.view.junk [⟨Rect.whole S4000, ReadAs.same.apply ((srcSl (k1_off3 L ⟨0, tlt0⟩) (off_inb1 L)).view.read (Elt F) xs)⟩])
      (hDst1.view.writes (Elt F) hDst1.view.junk [⟨Rect.whole S4000, ReadAs.same.apply ((dstSl (k1_off3 L ⟨0, tlt0⟩) (off_inb1 L)).view.read (Elt F) xd)⟩])
      (hPr1.view.writes (Elt F) hPr1.view.junk [⟨Rect.whole S4000, ReadAs.same.apply ((prSl (k1_off3 L ⟨0, tlt0⟩) (off_inb1 L)).view.read (Elt F) xp)⟩])
      (hG1.view.writes (Elt F) hG1.view.junk [⟨Rect.whole S4000, ReadAs.same.apply ((gSl (k1_off3 L ⟨0, tlt0⟩) (off_inb1 L)).view.read (Elt F) xg)⟩])
      (hB1.view.writes (Elt F) hB1.view.junk [⟨Rect.whole S4000, ReadAs.same.apply ((bSl (k1_off3 L ⟨0, tlt0⟩) (off_inb1 L)).view.read (Elt F) xb)⟩])) $$ [Htab Hap Haq HBa_dst0 HBa_dst1 HBa_dst2 HBa_dst3 HBa_dst4]
  case region =>
    intro kk acc
    exact inner_trip1 d L ⟨1, tlt1⟩ tab xs xd xp xg xb base _ _ _ _ _ hxs hxd HIs HId HIp HIg HIb (by decide) _ kk acc
  · unfold invInner1
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner1
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [Hcs0]; · iexact Hcs0
  isplitl [Hcd0]; · iexact Hcd0
  isplitl [Hcp0]; · iexact Hcp0
  isplitl [Hcg0]; · iexact Hcg0
  isplitl [Hcb0]; · iexact Hcb0
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hcs3]; · iexact Hcs3
  isplitl [Hcd3]; · iexact Hcd3
  isplitl [Hcp3]; · iexact Hcp3
  isplitl [Hcg3]; · iexact Hcg3
  isplitl [Hcb3]; · iexact Hcb3
  isplitl [Hcs4]; · iexact Hcs4
  isplitl [Hcd4]; · iexact Hcd4
  isplitl [Hcp4]; · iexact Hcp4
  isplitl [Hcg4]; · iexact Hcg4
  isplitl [Hcb4]; · iexact Hcb4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [HBb]; · iexists g3, g4, g5, g6, g7; iexact HBb
  iexact HBa

end Chunk

end Cert.Proof.K

end
-- ==== Proof.K.TileTrip2.lean ====
/-
  Chunk 2 of a tile's edge range: the five copies of chunk 3 started into the other scratch halves, chunk 2's
  five copies awaited, and its fifty rounds of five groups applied to the accumulators.
-/
import proofs.«213808_g38010460570139_cont_8to1_b_868_22_alg».proof.Proof.K.TileChunkInv
import proofs.«213808_g38010460570139_cont_8to1_b_868_22_alg».proof.Proof.K.Window
import proofs.«213808_g38010460570139_cont_8to1_b_868_22_alg».proof.Proof.K.TileInnerVal

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip2 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff2 : k1_off4 L ⟨1, tlt1⟩ = ![base + 4000 * 2]) :
    chunkInv2 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨2, tlt2⟩ ())
          (fun _ => chunkInv3 d L q O W tab xs xd xp xg xb base) := by
  have k1_h1 : k1_cond1 ⟨2, tlt2⟩ = 1#1 := by decide
  have k1_h2 : k1_cond2 ⟨2, tlt2⟩ = 1#1 := by decide
  have k1_h3 : k1_cond3 ⟨2, tlt2⟩ = 1#1 := by decide
  have htr : Scf.trips k1_t3_loop.lb k1_t3_loop.ub k1_t3_loop.st = 50 := by decide
  unfold chunkInv2 chunkInv3
  unfold k1_t2_body
  iintro ⟨Hmw, Htab, Hap, Haq, ⟨%W', %hW', HO⟩, Hcs0, Hcd0, Hcp0, Hcg0, Hcb0, Hcs1, Hcd1, Hcp1, Hcg1, Hcb1, Hcs3, Hcd3, Hcp3, Hcg3, Hcb3, Hcs4, Hcd4, Hcp4, Hcg4, Hcb4, ⟨%g3, Hsv⟩, ⟨%g4, Hdv⟩, ⟨%g5, Hpv⟩, ⟨%g6, Hgv⟩, ⟨%g7, Hbv⟩, ⟨%f3, %f4, %f5, %f6, %f7, HBa⟩, Hsem⟩
  imod (Transfers.batch_alloc' (Lvl := ℕ) (EC (F := F)) (thr d L) (default : HIx 1) NN (DO d L q xs xd xp xg xb g3 g4 g5 g6 g7 (k1_off3 L ⟨2, tlt2⟩) (off_inb3 L)) (sm := SemLoc.dma cc1_scratch9.sem) (E := Set.univ)) $$ Hsem with HBb
  sl_exec
  have HIs : HalfIs (F := F) (hSrc0.view.writes (Elt F) hSrc0.view.junk [⟨Rect.whole S4000, ReadAs.same.apply ((srcSl (k1_off4 L ⟨1, tlt1⟩) (off_inb2 L)).view.read (Elt F) xs)⟩]) 0 xs (base + 4000 * 2) := by
    rw [← View.write_univ_eq_writes_whole _ _ [] _]
    exact landed_halfIs_src (F := F) 0 ![0] rfl inb_S8000_S4000_0 (k1_off4 L ⟨1, tlt1⟩) (base + 4000 * 2) (hoff2) (off_inb2 L) _ xs
  have HId : HalfIs (F := F) (hDst0.view.writes (Elt F) hDst0.view.junk [⟨Rect.whole S4000, ReadAs.same.apply ((dstSl (k1_off4 L ⟨1, tlt1⟩) (off_inb2 L)).view.read (Elt F) xd)⟩]) 0 xd (base + 4000 * 2) := by
    rw [← View.write_univ_eq_writes_whole _ _ [] _]
    exact landed_halfIs_dst (F := F) 0 ![0] rfl inb_S8000_S4000_0 (k1_off4 L ⟨1, tlt1⟩) (base + 4000 * 2) (hoff2) (off_inb2 L) _ xd
  have HIp : HalfIs (F := F) (hPr0.view.writes (Elt F) hPr0.view.junk [⟨Rect.whole S4000, ReadAs.same.apply ((prSl (k1_off4 L ⟨1, tlt1⟩) (off_inb2 L)).view.read (Elt F) xp)⟩]) 0 xp (base + 4000 * 2) := by
    rw [← View.write_univ_eq_writes_whole _ _ [] _]
    exact landed_halfIs_pr (F := F) 0 ![0] rfl inb_S8000_S4000_0 (k1_off4 L ⟨1, tlt1⟩) (base + 4000 * 2) (hoff2) (off_inb2 L) _ xp
  have HIg : HalfIs (F := F) (hG0.view.writes (Elt F) hG0.view.junk [⟨Rect.whole S4000, ReadAs.same.apply ((gSl (k1_off4 L ⟨1, tlt1⟩) (off_inb2 L)).view.read (Elt F) xg)⟩]) 0 xg (base + 4000 * 2) := by
    rw [← View.write_univ_eq_writes_whole _ _ [] _]
    exact landed_halfIs_g (F := F) 0 ![0] rfl inb_S8000_S4000_0 (k1_off4 L ⟨1, tlt1⟩) (base + 4000 * 2) (hoff2) (off_inb2 L) _ xg
  have HIb : HalfIs (F := F) (hB0.view.writes (Elt F) hB0.view.junk [⟨Rect.whole S4000, ReadAs.same.apply ((bSl (k1_off4 L ⟨1, tlt1⟩) (off_inb2 L)).view.read (Elt F) xb)⟩]) 0 xb (base + 4000 * 2) := by
    rw [← View.write_univ_eq_writes_whole _ _ [] _]
    exact landed_halfIs_b (F := F) 0 ![0] rfl inb_S8000_S4000_0 (k1_off4 L ⟨1, tlt1⟩) (base + 4000 * 2) (hoff2) (off_inb2 L) _ xb
  sl_for (invInner0 d L ⟨2, tlt2⟩ tab xs xd xp xg xb base (hSrc0.view.writes (Elt F) hSrc0.view.junk [⟨Rect.whole S4000, ReadAs.same.apply ((srcSl (k1_off4 L ⟨1, tlt1⟩) (off_inb2 L)).view.read (Elt F) xs)⟩])
      (hDst0.view.writes (Elt F) hDst0.view.junk [⟨Rect.whole S4000, ReadAs.same.apply ((dstSl (k1_off4 L ⟨1, tlt1⟩) (off_inb2 L)).view.read (Elt F) xd)⟩])
      (hPr0.view.writes (Elt F) hPr0.view.junk [⟨Rect.whole S4000, ReadAs.same.apply ((prSl (k1_off4 L ⟨1, tlt1⟩) (off_inb2 L)).view.read (Elt F) xp)⟩])
      (hG0.view.writes (Elt F) hG0.view.junk [⟨Rect.whole S4000, ReadAs.same.apply ((gSl (k1_off4 L ⟨1, tlt1⟩) (off_inb2 L)).view.read (Elt F) xg)⟩])
      (hB0.view.writes (Elt F) hB0.view.junk [⟨Rect.whole S4000, ReadAs.same.apply ((bSl (k1_off4 L ⟨1, tlt1⟩) (off_inb2 L)).view.read (Elt F) xb)⟩])) $$ [Htab Hap Haq HBa_dst0 HBa_dst1 HBa_dst2 HBa_dst3 HBa_dst4]
  case region =>
    intro kk acc
    exact inner_trip0 d L ⟨2, tlt2⟩ tab xs xd xp xg xb base _ _ _ _ _ hxs hxd HIs HId HIp HIg HIb (by decide) _ kk acc
  · unfold invInner0
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner0
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [Hcs0]; · iexact Hcs0
  isplitl [Hcd0]; · iexact Hcd0
  isplitl [Hcp0]; · iexact Hcp0
  isplitl [Hcg0]; · iexact Hcg0
  isplitl [Hcb0]; · iexact Hcb0
  isplitl [Hcs1]; · iexact Hcs1
  isplitl [Hcd1]; · iexact Hcd1
  isplitl [Hcp1]; · iexact Hcp1
  isplitl [Hcg1]; · iexact Hcg1
  isplitl [Hcb1]; · iexact Hcb1
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hcs4]; · iexact Hcs4
  isplitl [Hcd4]; · iexact Hcd4
  isplitl [Hcp4]; · iexact Hcp4
  isplitl [Hcg4]; · iexact Hcg4
  isplitl [Hcb4]; · iexact Hcb4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [HBb]; · iexists g3, g4, g5, g6, g7; iexact HBb
  iexact HBa

end Chunk

end Cert.Proof.K

end
-- ==== Proof.K.TileTrip3.lean ====
/-
  Chunk 3 of a tile's edge range: the five copies of chunk 4 started into the other scratch halves, chunk 3's
  five copies awaited, and its fifty rounds of five groups applied to the accumulators.
-/
import proofs.«213808_g38010460570139_cont_8to1_b_868_22_alg».proof.Proof.K.TileChunkInv
import proofs.«213808_g38010460570139_cont_8to1_b_868_22_alg».proof.Proof.K.Window
import proofs.«213808_g38010460570139_cont_8to1_b_868_22_alg».proof.Proof.K.TileInnerVal

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip3 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff3 : k1_off3 L ⟨2, tlt2⟩ = ![base + 4000 * 3]) :
    chunkInv3 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨3, tlt3⟩ ())
          (fun _ => chunkInv4 d L q O W tab xs xd xp xg xb base) := by
  have k1_h1 : k1_cond1 ⟨3, tlt3⟩ = 1#1 := by decide
  have k1_h2 : ¬ k1_cond2 ⟨3, tlt3⟩ = 1#1 := by decide
  have k1_h3 : ¬ k1_cond3 ⟨3, tlt3⟩ = 1#1 := by decide
  have htr : Scf.trips k1_t3_loop.lb k1_t3_loop.ub k1_t3_loop.st = 50 := by decide
  unfold chunkInv3 chunkInv4
  unfold k1_t2_body
  iintro ⟨Hmw, Htab, Hap, Haq, ⟨%W', %hW', HO⟩, Hcs0, Hcd0, Hcp0, Hcg0, Hcb0, Hcs1, Hcd1, Hcp1, Hcg1, Hcb1, Hcs2, Hcd2, Hcp2, Hcg2, Hcb2, Hcs4, Hcd4, Hcp4, Hcg4, Hcb4, ⟨%g3, Hsv⟩, ⟨%g4, Hdv⟩, ⟨%g5, Hpv⟩, ⟨%g6, Hgv⟩, ⟨%g7, Hbv⟩, ⟨%f3, %f4, %f5, %f6, %f7, HBa⟩, Hsem⟩
  imod (Transfers.batch_alloc' (Lvl := ℕ) (EC (F := F)) (thr d L) (default : HIx 1) NN (DE d L q xs xd xp xg xb g3 g4 g5 g6 g7 (k1_off4 L ⟨3, tlt3⟩) (off_inb4 L)) (sm := SemLoc.dma cc1_scratch8.sem) (E := Set.univ)) $$ Hsem with HBb
  sl_exec
  have HIs : HalfIs (F := F) (hSrc1.view.writes (Elt F) hSrc1.view.junk [⟨Rect.whole S4000, ReadAs.same.apply ((srcSl (k1_off3 L ⟨2, tlt2⟩) (off_inb3 L)).view.read (Elt F) xs)⟩]) 1 xs (base + 4000 * 3) := by
    rw [← View.write_univ_eq_writes_whole _ _ [] _]
    exact landed_halfIs_src (F := F) 1 ![4000] rfl inb_S8000_S4000_4000 (k1_off3 L ⟨2, tlt2⟩) (base + 4000 * 3) (hoff3) (off_inb3 L) _ xs
  have HId : HalfIs (F := F) (hDst1.view.writes (Elt F) hDst1.view.junk [⟨Rect.whole S4000, ReadAs.same.apply ((dstSl (k1_off3 L ⟨2, tlt2⟩) (off_inb3 L)).view.read (Elt F) xd)⟩]) 1 xd (base + 4000 * 3) := by
    rw [← View.write_univ_eq_writes_whole _ _ [] _]
    exact landed_halfIs_dst (F := F) 1 ![4000] rfl inb_S8000_S4000_4000 (k1_off3 L ⟨2, tlt2⟩) (base + 4000 * 3) (hoff3) (off_inb3 L) _ xd
  have HIp : HalfIs (F := F) (hPr1.view.writes (Elt F) hPr1.view.junk [⟨Rect.whole S4000, ReadAs.same.apply ((prSl (k1_off3 L ⟨2, tlt2⟩) (off_inb3 L)).view.read (Elt F) xp)⟩]) 1 xp (base + 4000 * 3) := by
    rw [← View.write_univ_eq_writes_whole _ _ [] _]
    exact landed_halfIs_pr (F := F) 1 ![4000] rfl inb_S8000_S4000_4000 (k1_off3 L ⟨2, tlt2⟩) (base + 4000 * 3) (hoff3) (off_inb3 L) _ xp
  have HIg : HalfIs (F := F) (hG1.view.writes (Elt F) hG1.view.junk [⟨Rect.whole S4000, ReadAs.same.apply ((gSl (k1_off3 L ⟨2, tlt2⟩) (off_inb3 L)).view.read (Elt F) xg)⟩]) 1 xg (base + 4000 * 3) := by
    rw [← View.write_univ_eq_writes_whole _ _ [] _]
    exact landed_halfIs_g (F := F) 1 ![4000] rfl inb_S8000_S4000_4000 (k1_off3 L ⟨2, tlt2⟩) (base + 4000 * 3) (hoff3) (off_inb3 L) _ xg
  have HIb : HalfIs (F := F) (hB1.view.writes (Elt F) hB1.view.junk [⟨Rect.whole S4000, ReadAs.same.apply ((bSl (k1_off3 L ⟨2, tlt2⟩) (off_inb3 L)).view.read (Elt F) xb)⟩]) 1 xb (base + 4000 * 3) := by
    rw [← View.write_univ_eq_writes_whole _ _ [] _]
    exact landed_halfIs_b (F := F) 1 ![4000] rfl inb_S8000_S4000_4000 (k1_off3 L ⟨2, tlt2⟩) (base + 4000 * 3) (hoff3) (off_inb3 L) _ xb
  sl_for (invInner1 d L ⟨3, tlt3⟩ tab xs xd xp xg xb base (hSrc1.view.writes (Elt F) hSrc1.view.junk [⟨Rect.whole S4000, ReadAs.same.apply ((srcSl (k1_off3 L ⟨2, tlt2⟩) (off_inb3 L)).view.read (Elt F) xs)⟩])
      (hDst1.view.writes (Elt F) hDst1.view.junk [⟨Rect.whole S4000, ReadAs.same.apply ((dstSl (k1_off3 L ⟨2, tlt2⟩) (off_inb3 L)).view.read (Elt F) xd)⟩])
      (hPr1.view.writes (Elt F) hPr1.view.junk [⟨Rect.whole S4000, ReadAs.same.apply ((prSl (k1_off3 L ⟨2, tlt2⟩) (off_inb3 L)).view.read (Elt F) xp)⟩])
      (hG1.view.writes (Elt F) hG1.view.junk [⟨Rect.whole S4000, ReadAs.same.apply ((gSl (k1_off3 L ⟨2, tlt2⟩) (off_inb3 L)).view.read (Elt F) xg)⟩])
      (hB1.view.writes (Elt F) hB1.view.junk [⟨Rect.whole S4000, ReadAs.same.apply ((bSl (k1_off3 L ⟨2, tlt2⟩) (off_inb3 L)).view.read (Elt F) xb)⟩])) $$ [Htab Hap Haq HBa_dst0 HBa_dst1 HBa_dst2 HBa_dst3 HBa_dst4]
  case region =>
    intro kk acc
    exact inner_trip1 d L ⟨3, tlt3⟩ tab xs xd xp xg xb base _ _ _ _ _ hxs hxd HIs HId HIp HIg HIb (by decide) _ kk acc
  · unfold invInner1
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner1
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [Hcs0]; · iexact Hcs0
  isplitl [Hcd0]; · iexact Hcd0
  isplitl [Hcp0]; · iexact Hcp0
  isplitl [Hcg0]; · iexact Hcg0
  isplitl [Hcb0]; · iexact Hcb0
  isplitl [Hcs1]; · iexact Hcs1
  isplitl [Hcd1]; · iexact Hcd1
  isplitl [Hcp1]; · iexact Hcp1
  isplitl [Hcg1]; · iexact Hcg1
  isplitl [Hcb1]; · iexact Hcb1
  isplitl [Hcs2]; · iexact Hcs2
  isplitl [Hcd2]; · iexact Hcd2
  isplitl [Hcp2]; · iexact Hcp2
  isplitl [Hcg2]; · iexact Hcg2
  isplitl [Hcb2]; · iexact Hcb2
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [HBb]; · iexists g3, g4, g5, g6, g7; iexact HBb
  iexact HBa

end Chunk

end Cert.Proof.K

end
-- ==== Proof.K.TileTrip4.lean ====
/-
  Chunk 4 of a tile's edge range: chunk 4's
  five copies awaited, and its fifty rounds of five groups applied to the accumulators.
-/
import proofs.«213808_g38010460570139_cont_8to1_b_868_22_alg».proof.Proof.K.TileChunkInv
import proofs.«213808_g38010460570139_cont_8to1_b_868_22_alg».proof.Proof.K.Window
import proofs.«213808_g38010460570139_cont_8to1_b_868_22_alg».proof.Proof.K.TileInnerVal

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

theorem trip4 (q : PosShare TreeShare) (O : CellTallies nD τ sig (HIx 1)) (W : Waits sig (HIx 1))
    (tab : FVec F S10240 .f32) (xs xd : IVec S640000 32) (xp xg xb : FVec F S640000 .f32) (base : Nat)
    (hxs : ∀ j, (xs j).toNat < 10240) (hxd : ∀ j, (xd j).toNat < 10240) (hoff4 : k1_off4 L ⟨3, tlt3⟩ = ![base + 4000 * 4]) :
    chunkInv4 d L q O W tab xs xd xp xg xb base
      ⊢ wp frame (wpE (defs₀ (F := F)) 𝒱₀ (thr d L) none) Set.univ
          (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨4, tlt4⟩ ())
          (fun _ => chunkInv5 d L q O W tab xs xd xp xg xb base) := by
  have k1_h1 : ¬ k1_cond1 ⟨4, tlt4⟩ = 1#1 := by decide
  have k1_h2 : k1_cond2 ⟨4, tlt4⟩ = 1#1 := by decide
  have k1_h3 : k1_cond3 ⟨4, tlt4⟩ = 1#1 := by decide
  have htr : Scf.trips k1_t3_loop.lb k1_t3_loop.ub k1_t3_loop.st = 50 := by decide
  unfold chunkInv4 chunkInv5
  unfold k1_t2_body
  iintro ⟨Hmw, Htab, Hap, Haq, ⟨%W', %hW', HO⟩, Hcs0, Hcd0, Hcp0, Hcg0, Hcb0, Hcs1, Hcd1, Hcp1, Hcg1, Hcb1, Hcs2, Hcd2, Hcp2, Hcg2, Hcb2, Hcs3, Hcd3, Hcp3, Hcg3, Hcb3, ⟨%g3, Hsv⟩, ⟨%g4, Hdv⟩, ⟨%g5, Hpv⟩, ⟨%g6, Hgv⟩, ⟨%g7, Hbv⟩, ⟨%f3, %f4, %f5, %f6, %f7, HBa⟩, Hsem⟩

  sl_exec
  have HIs : HalfIs (F := F) (hSrc0.view.writes (Elt F) hSrc0.view.junk [⟨Rect.whole S4000, ReadAs.same.apply ((srcSl (k1_off4 L ⟨3, tlt3⟩) (off_inb4 L)).view.read (Elt F) xs)⟩]) 0 xs (base + 4000 * 4) := by
    rw [← View.write_univ_eq_writes_whole _ _ [] _]
    exact landed_halfIs_src (F := F) 0 ![0] rfl inb_S8000_S4000_0 (k1_off4 L ⟨3, tlt3⟩) (base + 4000 * 4) (hoff4) (off_inb4 L) _ xs
  have HId : HalfIs (F := F) (hDst0.view.writes (Elt F) hDst0.view.junk [⟨Rect.whole S4000, ReadAs.same.apply ((dstSl (k1_off4 L ⟨3, tlt3⟩) (off_inb4 L)).view.read (Elt F) xd)⟩]) 0 xd (base + 4000 * 4) := by
    rw [← View.write_univ_eq_writes_whole _ _ [] _]
    exact landed_halfIs_dst (F := F) 0 ![0] rfl inb_S8000_S4000_0 (k1_off4 L ⟨3, tlt3⟩) (base + 4000 * 4) (hoff4) (off_inb4 L) _ xd
  have HIp : HalfIs (F := F) (hPr0.view.writes (Elt F) hPr0.view.junk [⟨Rect.whole S4000, ReadAs.same.apply ((prSl (k1_off4 L ⟨3, tlt3⟩) (off_inb4 L)).view.read (Elt F) xp)⟩]) 0 xp (base + 4000 * 4) := by
    rw [← View.write_univ_eq_writes_whole _ _ [] _]
    exact landed_halfIs_pr (F := F) 0 ![0] rfl inb_S8000_S4000_0 (k1_off4 L ⟨3, tlt3⟩) (base + 4000 * 4) (hoff4) (off_inb4 L) _ xp
  have HIg : HalfIs (F := F) (hG0.view.writes (Elt F) hG0.view.junk [⟨Rect.whole S4000, ReadAs.same.apply ((gSl (k1_off4 L ⟨3, tlt3⟩) (off_inb4 L)).view.read (Elt F) xg)⟩]) 0 xg (base + 4000 * 4) := by
    rw [← View.write_univ_eq_writes_whole _ _ [] _]
    exact landed_halfIs_g (F := F) 0 ![0] rfl inb_S8000_S4000_0 (k1_off4 L ⟨3, tlt3⟩) (base + 4000 * 4) (hoff4) (off_inb4 L) _ xg
  have HIb : HalfIs (F := F) (hB0.view.writes (Elt F) hB0.view.junk [⟨Rect.whole S4000, ReadAs.same.apply ((bSl (k1_off4 L ⟨3, tlt3⟩) (off_inb4 L)).view.read (Elt F) xb)⟩]) 0 xb (base + 4000 * 4) := by
    rw [← View.write_univ_eq_writes_whole _ _ [] _]
    exact landed_halfIs_b (F := F) 0 ![0] rfl inb_S8000_S4000_0 (k1_off4 L ⟨3, tlt3⟩) (base + 4000 * 4) (hoff4) (off_inb4 L) _ xb
  sl_for (invInner0 d L ⟨4, tlt4⟩ tab xs xd xp xg xb base (hSrc0.view.writes (Elt F) hSrc0.view.junk [⟨Rect.whole S4000, ReadAs.same.apply ((srcSl (k1_off4 L ⟨3, tlt3⟩) (off_inb4 L)).view.read (Elt F) xs)⟩])
      (hDst0.view.writes (Elt F) hDst0.view.junk [⟨Rect.whole S4000, ReadAs.same.apply ((dstSl (k1_off4 L ⟨3, tlt3⟩) (off_inb4 L)).view.read (Elt F) xd)⟩])
      (hPr0.view.writes (Elt F) hPr0.view.junk [⟨Rect.whole S4000, ReadAs.same.apply ((prSl (k1_off4 L ⟨3, tlt3⟩) (off_inb4 L)).view.read (Elt F) xp)⟩])
      (hG0.view.writes (Elt F) hG0.view.junk [⟨Rect.whole S4000, ReadAs.same.apply ((gSl (k1_off4 L ⟨3, tlt3⟩) (off_inb4 L)).view.read (Elt F) xg)⟩])
      (hB0.view.writes (Elt F) hB0.view.junk [⟨Rect.whole S4000, ReadAs.same.apply ((bSl (k1_off4 L ⟨3, tlt3⟩) (off_inb4 L)).view.read (Elt F) xb)⟩])) $$ [Htab Hap Haq HBa_dst0 HBa_dst1 HBa_dst2 HBa_dst3 HBa_dst4]
  case region =>
    intro kk acc
    exact inner_trip0 d L ⟨4, tlt4⟩ tab xs xd xp xg xb base _ _ _ _ _ hxs hxd HIs HId HIp HIg HIb (by decide) _ kk acc
  · unfold invInner0
    isplitl [Htab]; · iexact Htab
    isplitl [Hap]; · iexact Hap
    isplitl [Haq]; · iexact Haq
    isplitl [HBa_dst0]; · iexact HBa_dst0
    isplitl [HBa_dst1]; · iexact HBa_dst1
    isplitl [HBa_dst2]; · iexact HBa_dst2
    isplitl [HBa_dst3]; · iexact HBa_dst3
    iexact HBa_dst4
  iintro %_ HI
  unfold invInner0
  rw [htr]
  icases HI with ⟨Htab, Hap, Haq, Hd0, Hd1, Hd2, Hd3, Hd4⟩
  sl_exec
  sl_step
  isplitl [Hmw]; · iexact Hmw
  isplitl [Htab]; · iexact Htab
  isplitl [Hap]; · iexact Hap
  isplitl [Haq]; · iexact Haq
  isplitl [HO]
  · iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
  isplitl [Hcs0]; · iexact Hcs0
  isplitl [Hcd0]; · iexact Hcd0
  isplitl [Hcp0]; · iexact Hcp0
  isplitl [Hcg0]; · iexact Hcg0
  isplitl [Hcb0]; · iexact Hcb0
  isplitl [Hcs1]; · iexact Hcs1
  isplitl [Hcd1]; · iexact Hcd1
  isplitl [Hcp1]; · iexact Hcp1
  isplitl [Hcg1]; · iexact Hcg1
  isplitl [Hcb1]; · iexact Hcb1
  isplitl [Hcs2]; · iexact Hcs2
  isplitl [Hcd2]; · iexact Hcd2
  isplitl [Hcp2]; · iexact Hcp2
  isplitl [Hcg2]; · iexact Hcg2
  isplitl [Hcb2]; · iexact Hcb2
  isplitl [Hcs3]; · iexact Hcs3
  isplitl [Hcd3]; · iexact Hcd3
  isplitl [Hcp3]; · iexact Hcp3
  isplitl [Hcg3]; · iexact Hcg3
  isplitl [Hcb3]; · iexact Hcb3
  isplitl [HBa_src0]; · iexact HBa_src0
  isplitl [HBa_src1]; · iexact HBa_src1
  isplitl [HBa_src2]; · iexact HBa_src2
  isplitl [HBa_src3]; · iexact HBa_src3
  isplitl [HBa_src4]; · iexact HBa_src4
  isplitl [Hd0]; · iexists _; iexact Hd0
  isplitl [Hd1]; · iexists _; iexact Hd1
  isplitl [Hd2]; · iexists _; iexact Hd2
  isplitl [Hd3]; · iexists _; iexact Hd3
  isplitl [Hd4]; · iexists _; iexact Hd4
  isplitl [Hsv]; · iexists _; iexact Hsv
  isplitl [Hdv]; · iexists _; iexact Hdv
  isplitl [Hpv]; · iexists _; iexact Hpv
  isplitl [Hgv]; · iexists _; iexact Hgv
  isplitl [Hbv]; · iexists _; iexact Hbv
  isplitl [HBa]; · iexact HBa
  iexact Hsem

end Chunk

end Cert.Proof.K

end
-- ==== Proof.K.TileChunk.lean ====
/-
  The tile's chunk loop: five chunks of 4000 edges, double-buffered through two DMA semaphores, from
  the accumulators at zero with chunk 0's copies outstanding to the accumulators after all 1250 groups
  with everything at rest.
-/
import proofs.«213808_g38010460570139_cont_8to1_b_868_22_alg».proof.Proof.K.TileTrip0
import proofs.«213808_g38010460570139_cont_8to1_b_868_22_alg».proof.Proof.K.TileTrip1
import proofs.«213808_g38010460570139_cont_8to1_b_868_22_alg».proof.Proof.K.TileTrip2
import proofs.«213808_g38010460570139_cont_8to1_b_868_22_alg».proof.Proof.K.TileTrip3
import proofs.«213808_g38010460570139_cont_8to1_b_868_22_alg».proof.Proof.K.TileTrip4
import proofs.«213808_g38010460570139_cont_8to1_b_868_22_alg».proof.Proof.K.TileSplit

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Chunk

variable (d : Dev nD) (L : grid1.Coords)

omit [FloatOps F] in
theorem hoff0 : k1_off1 L = ![chunkBase L + 4000 * 0] := by
  funext a; obtain rfl : a = 0 := Subsingleton.elim _ _
  show (k1_off1 L) 0 = chunkBase L + 4000 * 0
  exact (off0_val L).trans (by omega)
omit [FloatOps F] in
theorem hoff1 : k1_off3 L ⟨0, tlt0⟩ = ![chunkBase L + 4000 * 1] := by
  funext a; obtain rfl : a = 0 := Subsingleton.elim _ _
  show (k1_off3 L ⟨0, tlt0⟩) 0 = chunkBase L + 4000 * 1
  exact (off1_val L).trans (by omega)
omit [FloatOps F] in
theorem hoff2 : k1_off4 L ⟨1, tlt1⟩ = ![chunkBase L + 4000 * 2] := by
  funext a; obtain rfl : a = 0 := Subsingleton.elim _ _
  show (k1_off4 L ⟨1, tlt1⟩) 0 = chunkBase L + 4000 * 2
  exact (off2_val L).trans (by omega)
omit [FloatOps F] in
theorem hoff3 : k1_off3 L ⟨2, tlt2⟩ = ![chunkBase L + 4000 * 3] := by
  funext a; obtain rfl : a = 0 := Subsingleton.elim _ _
  show (k1_off3 L ⟨2, tlt2⟩) 0 = chunkBase L + 4000 * 3
  exact (off3_val L).trans (by omega)
omit [FloatOps F] in
theorem hoff4 : k1_off4 L ⟨3, tlt3⟩ = ![chunkBase L + 4000 * 4] := by
  funext a; obtain rfl : a = 0 := Subsingleton.elim _ _
  show (k1_off4 L ⟨3, tlt3⟩) 0 = chunkBase L + 4000 * 4
  exact (off4_val L).trans (by omega)

theorem chunkInv_zero (q : PosShare TreeShare) (O : CellTallies nD τ sig (HIx 1)) (W : Waits sig (HIx 1))
    (tab : FVec F S10240 .f32) (xs xd : IVec S640000 32) (xp xg xb : FVec F S640000 .f32) (base : Nat) (acc : Unit) :
    chunkInv d L q O W tab xs xd xp xg xb base 0 acc = chunkInv0 d L q O W tab xs xd xp xg xb base := rfl
theorem chunkInv_five (q : PosShare TreeShare) (O : CellTallies nD τ sig (HIx 1)) (W : Waits sig (HIx 1))
    (tab : FVec F S10240 .f32) (xs xd : IVec S640000 32) (xp xg xb : FVec F S640000 .f32) (base : Nat) (acc : Unit) :
    chunkInv d L q O W tab xs xd xp xg xb base 5 acc = chunkInv5 d L q O W tab xs xd xp xg xb base := rfl

set_option maxHeartbeats 1000000 in
/-- The five chunks, by the invariant `chunkInv`. -/
theorem chunk_loop (q : PosShare TreeShare) (O : CellTallies nD τ sig (HIx 1)) (W : Waits sig (HIx 1))
    (tab : FVec F S10240 .f32) (xs xd : IVec S640000 32) (xp xg xb : FVec F S640000 .f32)
    (hxs : ∀ j, (xs j).toNat < 10240) (hxd : ∀ j, (xd j).toNat < 10240) :
    chunkInv0 d L q O W tab xs xd xp xg xb (chunkBase L)
      ⊢ wp frame (wpE (defs₀ (F := F)) 𝒱₀ (thr d L) none) Set.univ
          (Scf.Loop.for k1_t2_loop k1_t2_ok ⟨⟩ (k1_t2_body L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32))
          (fun _ => chunkInv5 d L q O W tab xs xd xp xg xb (chunkBase L)) := by
  have h5 : Scf.trips k1_t2_loop.lb k1_t2_loop.ub k1_t2_loop.st = 5 := by decide
  iintro H
  sl_for (chunkInv d L q O W tab xs xd xp xg xb (chunkBase L)) $$ [H]
  case region =>
    intro k acc
    cases acc
    match k with
    | ⟨0, hk⟩ =>
      delta chunk_loop.sl.prog.body_1
      have e1 : chunkInv d L q O W tab xs xd xp xg xb (chunkBase L) (↑(⟨0, hk⟩ : Fin (Scf.trips k1_t2_loop.lb k1_t2_loop.ub k1_t2_loop.st))) PUnit.unit
          = chunkInv0 d L q O W tab xs xd xp xg xb (chunkBase L) := rfl
      have e2 : chunkInv d L q O W tab xs xd xp xg xb (chunkBase L) (↑(⟨0, hk⟩ : Fin (Scf.trips k1_t2_loop.lb k1_t2_loop.ub k1_t2_loop.st)) + 1)
          = fun _ => chunkInv1 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨0, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨0, tlt0⟩ () := rfl
      rw [e1, e2, e4]
      exact trip0 d L q O W tab xs xd xp xg xb (chunkBase L) hxs hxd (hoff0 L)
    | ⟨1, hk⟩ =>
      delta chunk_loop.sl.prog.body_1
      have e1 : chunkInv d L q O W tab xs xd xp xg xb (chunkBase L) (↑(⟨1, hk⟩ : Fin (Scf.trips k1_t2_loop.lb k1_t2_loop.ub k1_t2_loop.st))) PUnit.unit
          = chunkInv1 d L q O W tab xs xd xp xg xb (chunkBase L) := rfl
      have e2 : chunkInv d L q O W tab xs xd xp xg xb (chunkBase L) (↑(⟨1, hk⟩ : Fin (Scf.trips k1_t2_loop.lb k1_t2_loop.ub k1_t2_loop.st)) + 1)
          = fun _ => chunkInv2 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨1, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨1, tlt1⟩ () := rfl
      rw [e1, e2, e4]
      exact trip1 d L q O W tab xs xd xp xg xb (chunkBase L) hxs hxd (hoff1 L)
    | ⟨2, hk⟩ =>
      delta chunk_loop.sl.prog.body_1
      have e1 : chunkInv d L q O W tab xs xd xp xg xb (chunkBase L) (↑(⟨2, hk⟩ : Fin (Scf.trips k1_t2_loop.lb k1_t2_loop.ub k1_t2_loop.st))) PUnit.unit
          = chunkInv2 d L q O W tab xs xd xp xg xb (chunkBase L) := rfl
      have e2 : chunkInv d L q O W tab xs xd xp xg xb (chunkBase L) (↑(⟨2, hk⟩ : Fin (Scf.trips k1_t2_loop.lb k1_t2_loop.ub k1_t2_loop.st)) + 1)
          = fun _ => chunkInv3 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨2, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨2, tlt2⟩ () := rfl
      rw [e1, e2, e4]
      exact trip2 d L q O W tab xs xd xp xg xb (chunkBase L) hxs hxd (hoff2 L)
    | ⟨3, hk⟩ =>
      delta chunk_loop.sl.prog.body_1
      have e1 : chunkInv d L q O W tab xs xd xp xg xb (chunkBase L) (↑(⟨3, hk⟩ : Fin (Scf.trips k1_t2_loop.lb k1_t2_loop.ub k1_t2_loop.st))) PUnit.unit
          = chunkInv3 d L q O W tab xs xd xp xg xb (chunkBase L) := rfl
      have e2 : chunkInv d L q O W tab xs xd xp xg xb (chunkBase L) (↑(⟨3, hk⟩ : Fin (Scf.trips k1_t2_loop.lb k1_t2_loop.ub k1_t2_loop.st)) + 1)
          = fun _ => chunkInv4 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨3, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨3, tlt3⟩ () := rfl
      rw [e1, e2, e4]
      exact trip3 d L q O W tab xs xd xp xg xb (chunkBase L) hxs hxd (hoff3 L)
    | ⟨4, hk⟩ =>
      delta chunk_loop.sl.prog.body_1
      have e1 : chunkInv d L q O W tab xs xd xp xg xb (chunkBase L) (↑(⟨4, hk⟩ : Fin (Scf.trips k1_t2_loop.lb k1_t2_loop.ub k1_t2_loop.st))) PUnit.unit
          = chunkInv4 d L q O W tab xs xd xp xg xb (chunkBase L) := rfl
      have e2 : chunkInv d L q O W tab xs xd xp xg xb (chunkBase L) (↑(⟨4, hk⟩ : Fin (Scf.trips k1_t2_loop.lb k1_t2_loop.ub k1_t2_loop.st)) + 1)
          = fun _ => chunkInv5 d L q O W tab xs xd xp xg xb (chunkBase L) := rfl
      have e4 : k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨4, hk⟩ PUnit.unit = k1_t2_body (F := F) L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2 0#32 1#32 ⟨4, tlt4⟩ () := rfl
      rw [e1, e2, e4]
      exact trip4 d L q O W tab xs xd xp xg xb (chunkBase L) hxs hxd (hoff4 L)
    | ⟨n + 5, h⟩ => exact absurd h (by have := h5; omega)
  isplitl [H]
  · rw [chunkInv_zero]; iexact H
  iintro %acc HI
  rw [h5, chunkInv_five]
  exact BI.Entails.refl _

end Chunk

end Cert.Proof.K

end
-- ==== Proof.K.Tile.lean ====
/-
  One vector subcore's run of the edge-flow kernel, at a symbolic grid coordinate: from its read
  shares of the six arrays and its row of the two partial-flow arrays to the shares back and the two
  rows at the tile's accumulators after all of its 1250 groups of sixteen edges.

  The task is three stretches. The first copies the squared-voltage table into the tile's memory,
  fills the two accumulators with zeros and starts the first chunk's five transfers. The second walks
  the five chunks of 4000 edges, double-buffered. The third copies the two accumulators out to the
  tile's row of the two partial-flow arrays. Between them the five edge arrays are held as the tile's
  five chunks and a rest, and each double buffer as its two halves.
-/
import proofs.«213808_g38010460570139_cont_8to1_b_868_22_alg».proof.Proof.K.TileSetup
import proofs.«213808_g38010460570139_cont_8to1_b_868_22_alg».proof.Proof.K.TileSplit
import proofs.«213808_g38010460570139_cont_8to1_b_868_22_alg».proof.Proof.K.TilePrologue
import proofs.«213808_g38010460570139_cont_8to1_b_868_22_alg».proof.Proof.K.TileChunkInv
import proofs.«213808_g38010460570139_cont_8to1_b_868_22_alg».proof.Proof.K.TileEpilogue
import proofs.«213808_g38010460570139_cont_8to1_b_868_22_alg».proof.Proof.K.TileChunk

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

section Tile

variable (d : Dev nD) (L : grid1.Coords)

/-- The task on vector subcore `L` of device `d`. -/
theorem tile_body (hF : (K (F := F)).Facts) (hpre : TilePre m) (O : CellTallies nD τ sig (HIx 1)) (W : Waits sig (HIx 1)) (hO : ∀ g, O g none = 0) :
    iprop(levAts (K (F := F)).L (K (F := F)).lev ∗ emp ∗ goPay m d (cL L) (iL L)
        ∗ scopedBufs (thr d L) ∗ scopedSems0 (thr d L) ∗ owes (thr d L) O W)
      ⊢ wp frame (wpE (defs₀ (F := F)) 𝒱₀ (thr d L) none) Set.univ
          (cc1__sc_flows L aV2 (Memref.isWhole_whole _) aSrc (Memref.isWhole_whole _) aDst (Memref.isWhole_whole _) aPr (Memref.isWhole_whole _) aG (Memref.isWhole_whole _) aB (Memref.isWhole_whole _) aPP (Memref.isWhole_whole _) aQP (Memref.isWhole_whole _) sTab (Memref.isWhole_whole _) sAccP (Memref.isWhole_whole _) sAccQ (Memref.isWhole_whole _) sSrc (Memref.isWhole_whole _) sDst (Memref.isWhole_whole _) sPr (Memref.isWhole_whole _) sG (Memref.isWhole_whole _) sB (Memref.isWhole_whole _) cc1_scratch8 cc1_scratch9 cc1_scoped0 cc1_scoped1 cc1_scoped2)
          fun _ => iprop(tdPay m d (cL L) (iL L) ∗ scopedBufs (thr d L) ∗ scopedSems0 (thr d L)
            ∗ ∃ W', ⌜∀ p ∈ W', p ∈ W ∨ p.2 = none⌝ ∗ owes (thr d L) O W') := by
  simp only [cc1__sc_flows_eq_skeleton]; rw [flows_skel_split]
  rw (occs := .pos [1]) [(K (F := F)).scopedBufs_V hF d (cV L) (jV L)]
  rw (occs := .pos [1]) [SparseCore.Cfg.scopedSems0_V (Val := Elt F) d (cV L) (jV L)]
  rw [ownSems0_V, ownBufs_V]
  unfold goPay roPts
  have hxs : ∀ j, (srcA m d j).toNat < 10240 := (hpre d).1
  have hxd : ∀ j, (dstA m d j).toNat < 10240 := (hpre d).2
  have hacc : Spec.tileAcc (tabA m d) (srcA m d) (dstA m d) (prA m d) (gA m d) (bA m d) (chunkBase L) (250 * 5) = accOf m d (rowOf (cL L) (iL L)) := by
    have hb : chunkBase L = 20000 * (rowOf (cL L) (iL L)).val := by
      show 40000 * (L 1).val + 20000 * (L 0).val = 20000 * (2 * (L 1).val + (L 0).val); omega
    rw [hb]
  simp only [wp_bind]
  iintro ⟨#Hlv, -, ⟨⟨Hv2, Hsa, Hda, Hpa, Hga, Hba⟩, ⟨%fp, Hpp⟩, ⟨%fq, Hqp⟩⟩,
    ⟨⟨%f0, Htab⟩, ⟨%f1, Hap⟩, ⟨%f2, Haq⟩, ⟨%f3, Ksw⟩, ⟨%f4, Kdw⟩, ⟨%f5, Kpw⟩, ⟨%f6, Kgw⟩, ⟨%f7, Kbw⟩, Hbufs⟩,
    ⟨Hs8, Hs9, Hc0, Hc1, Hc2, Hsems⟩, HO⟩
  ihave Hmw := ((K (F := F)).mayWaits_none (thr := thr d L) hO) $$ Hlv
  -- the five edge arrays as the tile's chunks, the five double buffers as their halves
  ihave Hsx := ((array_split_Src (F := F) d L _ _).mp) $$ Hsa
  icases Hsx with ⟨Hs0, Hs1, Hs2, Hs3, Hs4, Hsr⟩
  ihave Hdx := ((array_split_Dst (F := F) d L _ _).mp) $$ Hda
  icases Hdx with ⟨Hd0, Hd1, Hd2, Hd3, Hd4, Hdr⟩
  ihave Hpx := ((array_split_Pr (F := F) d L _ _).mp) $$ Hpa
  icases Hpx with ⟨Hp0, Hp1, Hp2, Hp3, Hp4, Hpr⟩
  ihave Hgx := ((array_split_G (F := F) d L _ _).mp) $$ Hga
  icases Hgx with ⟨Hg0, Hg1, Hg2, Hg3, Hg4, Hgr⟩
  ihave Hbx := ((array_split_B (F := F) d L _ _).mp) $$ Hba
  icases Hbx with ⟨Hb0, Hb1, Hb2, Hb3, Hb4, Hbr⟩
  ihave Ksx := ((scratch_split_Src (F := F) d L _).mp) $$ Ksw
  icases Ksx with ⟨Ks0, Ks1⟩
  ihave Kdx := ((scratch_split_Dst (F := F) d L _).mp) $$ Kdw
  icases Kdx with ⟨Kd0, Kd1⟩
  ihave Kpx := ((scratch_split_Pr (F := F) d L _).mp) $$ Kpw
  icases Kpx with ⟨Kp0, Kp1⟩
  ihave Kgx := ((scratch_split_G (F := F) d L _).mp) $$ Kgw
  icases Kgx with ⟨Kg0, Kg1⟩
  ihave Kbx := ((scratch_split_B (F := F) d L _).mp) $$ Kbw
  icases Kbx with ⟨Kb0, Kb1⟩
  -- the table copy, the zero fill and the first chunk's transfers
  iapply (wp_wand_r frame _ Set.univ)
  isplitl [Hmw Hv2 Hs0 Hd0 Hp0 Hg0 Hb0 Htab Hap Haq Ks0 Kd0 Kp0 Kg0 Kb0 Hs8 Hc0 HO]
  · iapply (prologue d L (shT (cL L) (iL L)) O W (tabA m d) (srcA m d) (dstA m d) (prA m d) (gA m d) (bA m d) f0 f1 f2 f3 f4 f5 f6 f7)
    isplitl [Hmw]
    · iexact Hmw
    isplitl [Hv2]
    · iexact Hv2
    isplitl [Hs0]
    · iexact Hs0
    isplitl [Hd0]
    · iexact Hd0
    isplitl [Hp0]
    · iexact Hp0
    isplitl [Hg0]
    · iexact Hg0
    isplitl [Hb0]
    · iexact Hb0
    isplitl [Htab]
    · iexact Htab
    isplitl [Hap]
    · iexact Hap
    isplitl [Haq]
    · iexact Haq
    isplitl [Ks0]
    · iexact Ks0
    isplitl [Kd0]
    · iexact Kd0
    isplitl [Kp0]
    · iexact Kp0
    isplitl [Kg0]
    · iexact Kg0
    isplitl [Kb0]
    · iexact Kb0
    isplitl [Hs8]
    · iexact Hs8
    isplitl [Hc0]
    · iexact Hc0
    iexact HO
  iintro %r ⟨%hr, Hpro⟩
  obtain ⟨v2, c0, c1⟩ := r
  obtain ⟨rfl, rfl⟩ : c0 = 0#32 ∧ c1 = 1#32 := by cases hr; exact ⟨rfl, rfl⟩
  unfold proPost
  icases Hpro with ⟨Hmw, Hv2, Htab, Hap, Haq, HB, Hc0, ⟨%W1, %hW1, HO⟩⟩
  -- the five chunks
  iapply (wp_wand_r frame _ Set.univ)
  isplitl [Hmw Htab Hap Haq HO Hs1 Hd1 Hp1 Hg1 Hb1 Hs2 Hd2 Hp2 Hg2 Hb2 Hs3 Hd3 Hp3 Hg3 Hb3 Hs4 Hd4 Hp4 Hg4 Hb4 Ks1 Kd1 Kp1 Kg1 Kb1 HB Hs9]
  · iapply (chunk_loop d L (shT (cL L) (iL L)) O W (tabA m d) (srcA m d) (dstA m d) (prA m d) (gA m d) (bA m d) hxs hxd)
    unfold chunkInv0
    isplitl [Hmw]
    · iexact Hmw
    isplitl [Htab]
    · iexact Htab
    isplitl [Hap]
    · iexact Hap
    isplitl [Haq]
    · iexact Haq
    isplitl [HO]
    · iexists W1; isplitr
      · ipureintro; exact hW1
      · iexact HO
    isplitl [Hs1]
    · iexact Hs1
    isplitl [Hd1]
    · iexact Hd1
    isplitl [Hp1]
    · iexact Hp1
    isplitl [Hg1]
    · iexact Hg1
    isplitl [Hb1]
    · iexact Hb1
    isplitl [Hs2]
    · iexact Hs2
    isplitl [Hd2]
    · iexact Hd2
    isplitl [Hp2]
    · iexact Hp2
    isplitl [Hg2]
    · iexact Hg2
    isplitl [Hb2]
    · iexact Hb2
    isplitl [Hs3]
    · iexact Hs3
    isplitl [Hd3]
    · iexact Hd3
    isplitl [Hp3]
    · iexact Hp3
    isplitl [Hg3]
    · iexact Hg3
    isplitl [Hb3]
    · iexact Hb3
    isplitl [Hs4]
    · iexact Hs4
    isplitl [Hd4]
    · iexact Hd4
    isplitl [Hp4]
    · iexact Hp4
    isplitl [Hg4]
    · iexact Hg4
    isplitl [Hb4]
    · iexact Hb4
    isplitl [Ks1]
    · iexists _; iexact Ks1
    isplitl [Kd1]
    · iexists _; iexact Kd1
    isplitl [Kp1]
    · iexists _; iexact Kp1
    isplitl [Kg1]
    · iexists _; iexact Kg1
    isplitl [Kb1]
    · iexists _; iexact Kb1
    isplitl [HB]
    · iexists _, _, _, _, _; iexact HB
    iexact Hs9
  iintro %_ Hinv
  unfold chunkInv5
  icases Hinv with ⟨Hmw, Htab, Hap, Haq, ⟨%W2, %hW2, HO⟩, Hs0, Hd0, Hp0, Hg0, Hb0, Hs1, Hd1, Hp1, Hg1, Hb1, Hs2, Hd2, Hp2, Hg2, Hb2, Hs3, Hd3, Hp3, Hg3, Hb3, Hs4, Hd4, Hp4, Hg4, Hb4, ⟨%gs0, Ks0⟩, ⟨%gd0, Kd0⟩, ⟨%gp0, Kp0⟩, ⟨%gg0, Kg0⟩, ⟨%gb0, Kb0⟩, ⟨%gs1, Ks1⟩, ⟨%gd1, Kd1⟩, ⟨%gp1, Kp1⟩, ⟨%gg1, Kg1⟩, ⟨%gb1, Kb1⟩, Hs8, Hs9⟩
  -- the chunks back as the arrays, the halves as the buffers
  ihave Hsa := ((array_split_Src (F := F) d L _ _).mpr) $$ [Hs0 Hs1 Hs2 Hs3 Hs4 Hsr]
  · isplitl [Hs0]; · iexact Hs0
    isplitl [Hs1]; · iexact Hs1
    isplitl [Hs2]; · iexact Hs2
    isplitl [Hs3]; · iexact Hs3
    isplitl [Hs4]; · iexact Hs4
    iexact Hsr
  ihave Hda := ((array_split_Dst (F := F) d L _ _).mpr) $$ [Hd0 Hd1 Hd2 Hd3 Hd4 Hdr]
  · isplitl [Hd0]; · iexact Hd0
    isplitl [Hd1]; · iexact Hd1
    isplitl [Hd2]; · iexact Hd2
    isplitl [Hd3]; · iexact Hd3
    isplitl [Hd4]; · iexact Hd4
    iexact Hdr
  ihave Hpa := ((array_split_Pr (F := F) d L _ _).mpr) $$ [Hp0 Hp1 Hp2 Hp3 Hp4 Hpr]
  · isplitl [Hp0]; · iexact Hp0
    isplitl [Hp1]; · iexact Hp1
    isplitl [Hp2]; · iexact Hp2
    isplitl [Hp3]; · iexact Hp3
    isplitl [Hp4]; · iexact Hp4
    iexact Hpr
  ihave Hga := ((array_split_G (F := F) d L _ _).mpr) $$ [Hg0 Hg1 Hg2 Hg3 Hg4 Hgr]
  · isplitl [Hg0]; · iexact Hg0
    isplitl [Hg1]; · iexact Hg1
    isplitl [Hg2]; · iexact Hg2
    isplitl [Hg3]; · iexact Hg3
    isplitl [Hg4]; · iexact Hg4
    iexact Hgr
  ihave Hba := ((array_split_B (F := F) d L _ _).mpr) $$ [Hb0 Hb1 Hb2 Hb3 Hb4 Hbr]
  · isplitl [Hb0]; · iexact Hb0
    isplitl [Hb1]; · iexact Hb1
    isplitl [Hb2]; · iexact Hb2
    isplitl [Hb3]; · iexact Hb3
    isplitl [Hb4]; · iexact Hb4
    iexact Hbr
  ihave Ksw := (scratch_join_Src (F := F) d L _ _) $$ [Ks0 Ks1]
  · isplitl [Ks0] <;> iassumption
  ihave Kdw := (scratch_join_Dst (F := F) d L _ _) $$ [Kd0 Kd1]
  · isplitl [Kd0] <;> iassumption
  ihave Kpw := (scratch_join_Pr (F := F) d L _ _) $$ [Kp0 Kp1]
  · isplitl [Kp0] <;> iassumption
  ihave Kgw := (scratch_join_G (F := F) d L _ _) $$ [Kg0 Kg1]
  · isplitl [Kg0] <;> iassumption
  ihave Kbw := (scratch_join_B (F := F) d L _ _) $$ [Kb0 Kb1]
  · isplitl [Kb0] <;> iassumption
  rw [hacc]
  -- the two copy-outs
  iapply (tile_finish m d L hF O W W2 hW2 fp fq)
  isplitl [Hmw]
  · iexact Hmw
  isplitl [Hv2 Hsa Hda Hpa Hga Hba]
  · unfold roPts
    isplitl [Hv2]
    · iexact Hv2
    isplitl [Hsa]
    · iexact Hsa
    isplitl [Hda]
    · iexact Hda
    isplitl [Hpa]
    · iexact Hpa
    isplitl [Hga]
    · iexact Hga
    iexact Hba
  isplitl [Hap]
  · iexact Hap
  isplitl [Haq]
  · iexact Haq
  isplitl [Hpp]
  · iapply (Entails.of_eq (ppRow_pts (F := F) d L fullShare fp).symm); iexact Hpp
  isplitl [Hqp]
  · iapply (Entails.of_eq (qpRow_pts (F := F) d L fullShare fq).symm); iexact Hqp
  isplitl [Htab]
  · iexists _; iexact Htab
  isplitl [Ksw]
  · iexact Ksw
  isplitl [Kdw]
  · iexact Kdw
  isplitl [Kpw]
  · iexact Kpw
  isplitl [Kgw]
  · iexact Kgw
  isplitl [Kbw]
  · iexact Kbw
  isplitl [Hbufs]
  · iexact Hbufs
  isplitl [Hs8]
  · iexact Hs8
  isplitl [Hs9]
  · iexact Hs9
  isplitl [Hc0]
  · iexact Hc0
  isplitl [Hc1]
  · iexact Hc1
  isplitl [Hc2]
  · iexact Hc2
  isplitl [Hsems]
  · iexact Hsems
  iexact HO

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_flows (coordsV c s) (Memref.whole main_v8_0_scv) (Memref.isWhole_whole _) (Memref.whole main_v1_scv) (Memref.isWhole_whole _) (Memref.whole main_v3_scv) (Memref.isWhole_whole _) (Memref.whole main_arg2_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
          cc1_scratch8 cc1_scratch9 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : TilePre m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.K

end
-- ==== Proof.K.Finish.lean ====
/-
  What @main leaves, and how it reads the claim. After the last call @main reshapes the 1 × 1 result
  of the loss call to a scalar; so at the end device `d` holds its four arguments as it was launched
  with them and, in the result array, the scalar whose one entry is the loss as a term of the four
  arguments (`Spec.lossOf`). The final assertion holds those five arrays outright; under the state
  interpretation each points-to pins the physical contents of its array, which is the claim's post.
-/
import proofs.«213808_g38010460570139_cont_8to1_b_868_22_alg».proof.Proof.K.Common

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The result -/

/-- The 1 × 1 array the loss call leaves: its one entry is the loss of device `d`'s four arguments. -/
def lossBuf (d : Dev nD) : Vec F S1x1 .f32 := fun _ => Spec.lossOf (nfA m d) (eiA m d) (prA m d) (paA m d)

/-- The scalar @main's last reshape leaves in the result array. -/
def resOf (d : Dev nD) : Buf (Elt F) (resLoc d) := shapeCast S_ (lossBuf m d) shapeCasts_S1x1_S_

/-- The scalar's one entry is the loss. -/
theorem resOf_apply (d : Dev nD) (i : S_.Idx) : (resOf m d : Vec F S_ .f32) i = Spec.lossOf (nfA m d) (eiA m d) (prA m d) (paA m d) := rfl

/-! ## The final assertion and the claim's post -/

/-- What @main leaves on device `d`: the four arguments at their launch contents and the result at the loss. -/
abbrev FIN (d : Dev nD) : sProp 𝕄 :=
  iprop((nfLoc d ↦{fullShare} m (nfLoc d)) ∗ (eiLoc d ↦{fullShare} m (eiLoc d)) ∗ (prLoc d ↦{fullShare} m (prLoc d))
    ∗ (paLoc d ↦{fullShare} m (paLoc d)) ∗ resLoc d ↦{fullShare} resOf m d)

/-- The same of a physical state: the result array holds the loss and the four arguments are unchanged. -/
def fq (d : Dev nD) (s' : Phys nD τ sig (Elt F)) : Prop :=
  s'.mem.mem (resLoc d) = resOf m d ∧ s'.mem.mem (nfLoc d) = m (nfLoc d) ∧ s'.mem.mem (eiLoc d) = m (eiLoc d)
    ∧ s'.mem.mem (prLoc d) = m (prLoc d) ∧ s'.mem.mem (paLoc d) = m (paLoc d)

/-- Each of the five points-to assertions, met with the state interpretation, pins its array's contents. -/
theorem hfin (d : Dev nD) (s' : Phys nD τ sig (Elt F)) : iprop(FIN m d ∗ SI s') ⊢ (⌜fq m d s'⌝ : sProp 𝕄) := by
  iintro ⟨⟨Hnf, Hei, Hpr, Hpa, Hres⟩, HSI⟩
  ihave H := (persistent_entails_right (SI_pointsTo_agree (st := s') (ℓ := nfLoc d) (I := Finset.univ) (q := fullShare) (f := m (nfLoc d)))) $$ [HSI Hnf]
  · isplitl [HSI] <;> iassumption
  icases H with ⟨%h0, HSI, -⟩
  ihave H := (persistent_entails_right (SI_pointsTo_agree (st := s') (ℓ := eiLoc d) (I := Finset.univ) (q := fullShare) (f := m (eiLoc d)))) $$ [HSI Hei]
  · isplitl [HSI] <;> iassumption
  icases H with ⟨%h1, HSI, -⟩
  ihave H := (persistent_entails_right (SI_pointsTo_agree (st := s') (ℓ := prLoc d) (I := Finset.univ) (q := fullShare) (f := m (prLoc d)))) $$ [HSI Hpr]
  · isplitl [HSI] <;> iassumption
  icases H with ⟨%h2, HSI, -⟩
  ihave H := (persistent_entails_right (SI_pointsTo_agree (st := s') (ℓ := paLoc d) (I := Finset.univ) (q := fullShare) (f := m (paLoc d)))) $$ [HSI Hpa]
  · isplitl [HSI] <;> iassumption
  icases H with ⟨%h3, HSI, -⟩
  ihave H := (SI_pointsTo_agree (st := s') (ℓ := resLoc d) (I := Finset.univ) (q := fullShare) (f := resOf m d)) $$ [HSI Hres]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

/-- The post of the program's run: on every device the result holds the loss and the arguments are unchanged
    (the result first, then the arguments in order, as the claims list them). -/
def QC : PUnit × MemSt nD τ sig (Elt F) → Prop := fun r => ∀ c : Dev nD,
  r.2.mem (resLoc c) = resOf m c ∧ r.2.mem (nfLoc c) = m (nfLoc c) ∧ r.2.mem (eiLoc c) = m (eiLoc c)
    ∧ r.2.mem (prLoc c) = m (prLoc c) ∧ r.2.mem (paLoc c) = m (paLoc c)

/-- The post is the per-device facts, all devices together. -/
theorem hQ : ∀ s' : Phys nD τ sig (Elt F), (∀ d, fq m d s') → QC m (⟨⟩, s'.mem) := fun _ h => h

end Cert.Proof.K

end
-- ==== Proof.PreFacts.SlicedK.lean ====
/-
  The edge arrays @main cuts out of the arguments, under the precondition, at any float instance. @main
  slices the edge ends into source and destination node numbers and the edge parameters into two
  columns, and reshapes each to a vector. A slice followed by a reshape reads its operand at some
  index, so what the precondition says of every element of an argument it says of every element of
  the array cut from it: every source and destination node number is at most 9999, hence names an
  entry of the padded 10240-entry tables the kernel gathers from and scatters to.
-/
import proofs.«213808_g38010460570139_cont_8to1_b_868_22_alg».proof.Proof.PreFacts.Core
import proofs.«213808_g38010460570139_cont_8to1_b_868_22_alg».proof.Proof.K.Spec

noncomputable section

namespace Cert.Proof.PreFacts.K

open Idealize.ShloMosaic Cert.Kernel Cert.Kernel.Spec Cert.Proof.PreFacts

variable {F : FTy → Type} [FloatOps F]

/-- Each of the four edge arrays is, at every index, an element of the argument it is cut from. -/
theorem srcOf_mem (ei : Vec F S2x640000 .i32) (e : S640000.Idx) : ∃ j : S2x640000.Idx, Spec.srcOf (F := F) ei e = ei j := ⟨_, rfl⟩
theorem dstOf_mem (ei : Vec F S2x640000 .i32) (e : S640000.Idx) : ∃ j : S2x640000.Idx, Spec.dstOf (F := F) ei e = ei j := ⟨_, rfl⟩
theorem gOf_mem (par : Vec F S640000x2 .f32) (e : S640000.Idx) : ∃ j : S640000x2.Idx, Spec.gOf par e = par j := ⟨_, rfl⟩
theorem bOf_mem (par : Vec F S640000x2 .f32) (e : S640000.Idx) : ∃ j : S640000x2.Idx, Spec.bOf par e = par j := ⟨_, rfl⟩

variable {nf : FVec F Cert.Pre_input_domain.S10000x128 .f32} {ei : IVec Cert.Pre_input_domain.S2x640000 32}
  {pr : FVec F Cert.Pre_input_domain.S640000 .f32} {par : FVec F Cert.Pre_input_domain.S640000x2 .f32}

/-- Every source node number is at most 9999. -/
theorem srcOf_le (h : Cert.Pre_input_domain.fn (F := F) nf ei pr par = fun _ => 1#1) (e : S640000.Idx) :
    ((Spec.srcOf (F := F) ei) e).toNat ≤ 9999 := by
  obtain ⟨j, hj⟩ := srcOf_mem (F := F) ei e
  rw [hj]
  exact idx_of_fn _ _ _ _ h j

/-- Every destination node number is at most 9999. -/
theorem dstOf_le (h : Cert.Pre_input_domain.fn (F := F) nf ei pr par = fun _ => 1#1) (e : S640000.Idx) :
    ((Spec.dstOf (F := F) ei) e).toNat ≤ 9999 := by
  obtain ⟨j, hj⟩ := dstOf_mem (F := F) ei e
  rw [hj]
  exact idx_of_fn _ _ _ _ h j

/-- Sixteen consecutive source node numbers from any offset all name an entry of a 10240-entry table. -/
theorem lanes_srcOf_lt (h : Cert.Pre_input_domain.fn (F := F) nf ei pr par = fun _ => 1#1) (off : Nat) (j : S16.Idx) :
    (Spec.lanes (F := F) (e := .i32) (Spec.srcOf (F := F) ei) off j).toNat < 10240 :=
  lt_of_le_of_lt (srcOf_le h (Spec.ed (off + (j 0).val))) (by norm_num)

/-- Sixteen consecutive destination node numbers likewise. -/
theorem lanes_dstOf_lt (h : Cert.Pre_input_domain.fn (F := F) nf ei pr par = fun _ => 1#1) (off : Nat) (j : S16.Idx) :
    (Spec.lanes (F := F) (e := .i32) (Spec.dstOf (F := F) ei) off j).toNat < 10240 :=
  lt_of_le_of_lt (dstOf_le h (Spec.ed (off + (j 0).val))) (by norm_num)

end Cert.Proof.PreFacts.K

end
-- ==== Proof.K.Launch.lean ====
/-
  The launch: the element of the ghost state the program starts from, what it funds (the handshakes'
  rounds for the SparseCore call, the staging cells' rounds of the two TensorCore calls; the
  transfers' counters start empty), and the program's run from the launch theorem.
-/
import proofs.«213808_g38010460570139_cont_8to1_b_868_22_alg».proof.Proof.K.Split
import proofs.«213808_g38010460570139_cont_8to1_b_868_22_alg».proof.Proof.K.Tile
import proofs.«213808_g38010460570139_cont_8to1_b_868_22_alg».proof.Proof.K.Finish
import proofs.«213808_g38010460570139_cont_8to1_b_868_22_alg».proof.Proof.PreFacts.SlicedK
import proofs.«213808_g38010460570139_cont_8to1_b_868_22_alg».proof.Proof.Gen.Kernel.Launch

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The staging cells of the two TensorCore calls and the duty tokens of their transfers. -/
abbrev pCells : Finset (GSem nD τ sig) := Pipeline.cells (nD := nD) (τ := τ) cfgs cellOf_inj
abbrev pToks : Finset (GSem nD τ sig × ℕ × Unit) := Pipeline.launchToks (nD := nD) (τ := τ) cfgs cellOf_inj

/-- The handshakes' rounds at their start, the staging cells' rounds at theirs, no counter. -/
def u₀ : UU := (initOf (K (F := F)).hsCells (K (F := F)).hsToks, (initOf pCells pToks, 1))

/-- What the launch deals device d for TensorCore call p: its staging cells' ghost state and its transfers' duty tokens. -/
def Gh (p : Fin 2) (d : Dev nD) : sProp 𝕄 := iprop(Pipeline.cellsGhost cfgs EP p d ∗ Pipeline.toksInit cfgs EP p d)

omit [FloatOps F] in
/-- The launch element splits into the handshakes' part and the staging cells' part (the counters' part is the unit). -/
theorem ownU_split (a : UH) (b : UP) (c : Counters) :
    (ownU (a, (b, c)) : sProp 𝕄) ⊢ iprop(BI.own (EH a) ∗ BI.own (EP b)) := by
  iintro Hu
  ihave H := (ownU_pair a (b, c)) $$ Hu
  icases H with ⟨HH, HR⟩
  ihave H2 := (own_pair_emb (embR (A := UH) (B := UP × Counters)) b c) $$ HR
  icases H2 with ⟨HP, -⟩
  isplitl [HH]; · iexact HH
  unfold EP
  iexact HP

omit [FloatOps F] in
theorem sep_swap4 (A0 A1 B0 B1 : sProp 𝕄) : iprop((A0 ∗ A1) ∗ B0 ∗ B1) ⊢ iprop((A0 ∗ B0) ∗ A1 ∗ B1) := by
  iintro ⟨⟨HA0, HA1⟩, HB0, HB1⟩
  isplitl [HA0 HB0]
  · isplitl [HA0]; · iexact HA0
    iexact HB0
  · isplitl [HA1]; · iexact HA1
    iexact HB1

omit [FloatOps F] in
/-- The two calls' ghost state and tokens, funded per device and call, dealt device by device. -/
theorem gh_deal :
    iprop((bigSep Finset.univ fun d : Dev nD => bigSep Finset.univ fun p : Fin 2 => (Pipeline.cellsGhost cfgs EP p d : sProp 𝕄))
        ∗ (bigSep Finset.univ fun d : Dev nD => bigSep Finset.univ fun p : Fin 2 => (Pipeline.toksInit cfgs EP p d : sProp 𝕄)))
      ⊢ bigSep Finset.univ fun d : Dev nD => iprop(Gh (F := F) 0 d ∗ Gh 1 d) := by
  rw [← bigSep_sep']
  refine bigSep_mono fun d _ => ?_
  rw [bigSep_univ_two, bigSep_univ_two]
  unfold Gh
  exact sep_swap4 _ _ _ _

omit [FloatOps F] in
theorem bigSep_emp' {I : Type} (s : Finset I) : (bigSep s fun _ => iprop(emp)) = (iprop(emp) : sProp 𝕄) := bigSep_emp_const s

/-- The launch element funds the handshakes' rounds, each device's two calls' ghost state, and nothing of the tiles' own. -/
theorem hu₀ : iprop(ownU (u₀ (F := F)) ∗ (P m).oxCred ∗ (K (F := F)).freeSems0)
    ⊢ |={Set.univ}=> iprop(BI.own (EH (initOf (K (F := F)).hsCells (K (F := F)).hsToks))
        ∗ (bigSep Finset.univ fun d : Dev nD => iprop(Gh (F := F) 0 d ∗ Gh 1 d))
        ∗ bigSep Finset.univ fun thr : Thread nD τ => bigSep Finset.univ fun q : Fin 1 => (P m).x q thr) := by
  unfold u₀
  iintro ⟨Hu, -, -⟩
  ihave H := (ownU_split _ _ _) $$ Hu
  icases H with ⟨HH, HP⟩
  imod (Pipeline.fund_ghost cfgs EP cellOf_inj) $$ HP with ⟨Hg, Ht⟩
  imodintro
  isplitl [HH]; · iexact HH
  isplitl [Hg Ht]
  · iapply (gh_deal (F := F)); isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The precondition, as the tiles use it -/

/-- Under the input domain every source and destination node number is at most 9999, so names an entry of the 10240-entry tables. -/
theorem tilePre_of_pre (hpre : ∀ d, Cert.Pre_input_domain.fn (F := F) (nfA m d) (eiA m d) (prA m d) (paA m d) = fun _ => 1#1) :
    TilePre m :=
  fun d => ⟨fun j => Nat.lt_of_le_of_lt (PreFacts.K.srcOf_le (hpre d) j) (by decide),
    fun j => Nat.lt_of_le_of_lt (PreFacts.K.dstOf_le (hpre d) j) (by decide)⟩

/-! ## The program's run

From @main's proof on the TensorCore (the two TensorCore calls' regions composed with the SparseCore call), the
tiles' obligation, and how a SparseCore's operands split among its tiles. -/

theorem run_main_of [∀ e, Nonempty (Elt F e)]
    (hmain : ∀ (κ : GSem nD τ sig → ℕ) (d : Dev nD),
      iprop((K (F := F)).ctx EH (P m) κ ∗ (K (F := F)).tcSt EH d 0 ∗ (K (F := F)).tcRes m ρ d ∗ (Gh (F := F) 0 d ∗ Gh 1 d))
        ⊢ wp frame (wpE ((K (F := F)).defs (D (F := F))) 𝒱 (SparseCore.T d) none) Set.univ (main d)
            fun _ => iprop((K (F := F)).tcSt EH d 1 ∗ FIN m d))
    (hpre : ∀ d, Cert.Pre_input_domain.fn (F := F) (nfA m d) (eiA m d) (prA m d) (paA m d) = fun _ => 1#1) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (tilePre_of_pre m hpre))
    (fun q _ => match q with | 0 => SparseCore.Cfg.VecSplit.of_plain (vecSplit m))
    m ρ main (fun d => iprop(Gh (F := F) 0 d ∗ Gh 1 d)) (FIN m) (u₀ (F := F)) (hu₀ m) hmain (fq m) (hfin m) (QC m) (hQ m)

end Cert.Proof.K

end
-- ==== Proof.K.Hosts.lean ====
/-
  @main's host operations on the TensorCore: the eight slices and reshapes that cut the edge list and the
  edge parameters into the four edge arrays the SparseCore call reads, run as one stretch over the
  TensorCore's unscoped arrays, and what each array holds afterwards.
-/
import proofs.«213808_g38010460570139_cont_8to1_b_868_22_alg».proof.Proof.K.Common

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within wp_seq after seq)

variable {F : FTy → Type} [FloatOps F]

local notation "𝕄" => MT nD τ sig (HIx 1) (Elt F) ℕ UU ℕ

variable (m : (ℓ : Loc nD τ sig) → Buf (Elt F) ℓ)

/-- The eight host operations before the calls. -/
def ops8 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.unary main_arg3 main_v4 ((extractStridedSlice S640000x1 ![0, 0] · slices_S640000x2_S640000x1_0_0) : (⟨S640000x2, .f32⟩ : BufTy).Contents (Elt F) → (⟨S640000x1, .f32⟩ : BufTy).Contents (Elt F)),
    StableHlo.reshape main_v4 main_v5 rfl shapeCasts_S640000x1_S640000,
    StableHlo.unary main_arg3 main_v6 ((extractStridedSlice S640000x1 ![0, 1] · slices_S640000x2_S640000x1_0_1) : (⟨S640000x2, .f32⟩ : BufTy).Contents (Elt F) → (⟨S640000x1, .f32⟩ : BufTy).Contents (Elt F)),
    StableHlo.reshape main_v6 main_v7 rfl shapeCasts_S640000x1_S640000 ]

/-- What follows the eight host operations in @main: the preparation call, the SparseCore call, the loss call, the
    last reshape. -/
def mainRest (d : Dev nD) : Prog (TpuEff nD τ sig (Elt F) (SparseCore.Sig (Pipeline.Sig Λ₀ (Fin 2) fun p => (pcfgs (F := F) p).Adm) 1) .tc) PUnit := do
  Prog.lift (.customCall (SparseCore.inner (Pipeline.entry 0)) ())
  sc.run d 0
  Prog.lift (.customCall (SparseCore.inner (Pipeline.entry 1)) ())
  hlo rfl (StableHlo.reshape main_v10 main_v11 rfl shapeCasts_S1x1_S_) (fun _ => .ret ⟨⟩)
  pure ⟨⟩

/-- @main is the stretch of host operations, then the rest. -/
theorem main_eq (d : Dev nD) : main (F := F) d = seq (ops8 (F := F)) >>= fun _ => mainRest d := rfl

/-- The TensorCore's unscoped arrays. -/
abbrev rAll : List (Ref sig .tc) :=
  [main_arg0, main_arg1, main_arg2, main_arg3, main_v0, main_v1, main_v2, main_v3, main_v4, main_v5, main_v6, main_v7,
   main_v8_0, main_v8_1, main_v8_2, main_v9_0, main_v9_1, main_v10, main_v11]
abbrev SAll : Finset (DevRef τ sig) := (rAll.map fun b => Proc.devRef .tc b).toFinset

/-- The launch valuation. -/
def V0 (d : Dev nD) : Valuation τ sig (Elt F) := fun b => m (d, b)
/-- The valuation after the eight host operations. -/
def V8 (d : Dev nD) : Valuation τ sig (Elt F) := after (ops8 (F := F)) (V0 m d)

theorem ops8_bufs : ∀ op ∈ ops8 (F := F), op.bufs ⊆ SAll := by
  intro op hop
  simp only [ops8, List.mem_cons, List.mem_nil_iff, or_false] at hop
  rcases hop with rfl | rfl | rfl | rfl | rfl | rfl | rfl | rfl <;>
    first
      | (rw [StableHlo.unary_bufs]; decide)
      | (rw [StableHlo.reshape_bufs]; decide)
theorem ops8_fresh : ∀ op ∈ ops8 (F := F), op.fresh = ∅ := by
  intro op hop
  simp only [ops8, List.mem_cons, List.mem_nil_iff, or_false] at hop
  rcases hop with rfl | rfl | rfl | rfl | rfl | rfl | rfl | rfl <;> rfl

/-- What the arrays hold after the stretch: the arguments as launched, the four edge arrays at their slices. -/
theorem V8_arg0 (d : Dev nD) : V8 m d (Proc.devRef .tc main_arg0) = m (nfLoc d) := by
  unfold V8 ops8; after_results; rfl
theorem V8_arg1 (d : Dev nD) : V8 m d (Proc.devRef .tc main_arg1) = m (eiLoc d) := by
  unfold V8 ops8; after_results; rfl
theorem V8_arg2 (d : Dev nD) : V8 m d (Proc.devRef .tc main_arg2) = m (prLoc d) := by
  unfold V8 ops8; after_results; rfl
theorem V8_arg3 (d : Dev nD) : V8 m d (Proc.devRef .tc main_arg3) = m (paLoc d) := by
  unfold V8 ops8; after_results; rfl
theorem V8_src (d : Dev nD) : V8 m d (Proc.devRef .tc main_v1) = srcA m d := by
  unfold V8 ops8; after_results; rfl
theorem V8_dst (d : Dev nD) : V8 m d (Proc.devRef .tc main_v3) = dstA m d := by
  unfold V8 ops8; after_results; rfl
theorem V8_g (d : Dev nD) : V8 m d (Proc.devRef .tc main_v5) = gA m d := by
  unfold V8 ops8; after_results; rfl
theorem V8_b (d : Dev nD) : V8 m d (Proc.devRef .tc main_v7) = bA m d := by
  unfold V8 ops8; after_results; rfl

end Cert.Proof.K

end
-- ==== Proof.K.Rows.lean ====
/-
  Rows of the two partial-flow arrays, and the read shares of the six read-only arrays, as the
  TensorCore deals them to the two SparseCores around the one call and gathers them back.

  Each partial-flow array has 32 rows of 10240 entries; row 2 i + c belongs to tile i of SparseCore c.
  The whole array splits into its 32 rows (pairwise disjoint, covering it), the rows regroup as
  sixteen per SparseCore, and rows held at the tiles' accumulators join to the whole array at the one
  function whose row r is accumulator r. The full share of a read-only array splits into one share per
  SparseCore and a rest, and joins back.
-/
import proofs.«213808_g38010460570139_cont_8to1_b_868_22_alg».proof.Proof.K.Common

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## The 32 rows: disjoint, covering, and a row's entries -/

omit [FloatOps F] in
theorem prowSet_eq (r : Fin 32) : prowSet r = (prow r).set := by
  show ((View.whole (main_v9_0_scv : Ref sig .scVector)).slice (prow r)).set = _
  rw [View.set_slice]; exact Finset.map_refl

omit [FloatOps F] in
theorem prows_disjoint : ∀ r ∈ (Finset.univ : Finset (Fin 32)), ∀ r' ∈ (Finset.univ : Finset (Fin 32)), r ≠ r' →
    Disjoint (prowSet r) (prowSet r') :=
  fun r _ r' _ h => by rw [prowSet_eq, prowSet_eq]; exact Rect.part_disjoint hdiv32 h

omit [FloatOps F] in
theorem prows_cover : (Finset.univ : Finset (Fin 32)).biUnion prowSet = Finset.univ :=
  (Finset.biUnion_congr rfl fun r _ => prowSet_eq r).trans (Rect.biUnion_part hdiv32)

omit [FloatOps F] in
/-- Row r is the entries whose first coordinate is r. -/
theorem mem_prowSet {r : Fin 32} {j : S32x10240.Idx} : j ∈ prowSet r ↔ (j 0).val = r.val := by
  rw [prowSet_eq, Rect.mem_set_unit]
  constructor
  · intro h
    have h0 := h 0
    have e1 : S32x10240.partIx 0 r.val 0 = r.val := rfl
    have e2 : S32x10240.partSize 0 32 0 = 1 := rfl
    rw [e1, e2] at h0
    omega
  · intro h a
    match a with
    | ⟨0, _⟩ =>
      have e1 : S32x10240.partIx 0 r.val 0 = r.val := rfl
      have e2 : S32x10240.partSize 0 32 0 = 1 := rfl
      show S32x10240.partIx 0 r.val 0 * S32x10240.partSize 0 32 0 ≤ (j 0).val ∧ (j 0).val < S32x10240.partIx 0 r.val 0 * S32x10240.partSize 0 32 0 + S32x10240.partSize 0 32 0
      rw [e1, e2]; omega
    | ⟨1, _⟩ =>
      have e1 : S32x10240.partIx 0 r.val 1 = 0 := rfl
      have e2 : S32x10240.partSize 0 32 1 = 10240 := rfl
      have hj : (j 1).val < 10240 := (j 1).isLt
      show S32x10240.partIx 0 r.val 1 * S32x10240.partSize 0 32 1 ≤ (j 1).val ∧ (j 1).val < S32x10240.partIx 0 r.val 1 * S32x10240.partSize 0 32 1 + S32x10240.partSize 0 32 1
      rw [e1, e2]; omega

/-! ## Row numbers as (SparseCore, tile) pairs -/

/-- Row 2 i + c belongs to tile i of SparseCore c: a bijection of the pairs with the 32 rows. -/
def rowEquiv : Fin 2 × Fin 16 ≃ Fin 32 where
  toFun p := rowOf p.1 p.2
  invFun r := (⟨r.val % 2, Nat.mod_lt _ (by decide)⟩, ⟨r.val / 2, by have := r.isLt; omega⟩)
  left_inv p := by
    rcases p with ⟨c, i⟩
    have hc := c.isLt; have hi := i.isLt
    refine Prod.ext (Fin.ext ?_) (Fin.ext ?_)
    · show (2 * i.val + c.val) % 2 = c.val; omega
    · show (2 * i.val + c.val) / 2 = i.val; omega
  right_inv r := Fin.ext (by show 2 * (r.val / 2) + r.val % 2 = r.val; omega)

omit [FloatOps F] in
/-- Something held per row, regrouped per SparseCore and tile. -/
theorem bigSep_rows (Φ : Fin 32 → sProp 𝕄) :
    bigSep Finset.univ Φ = bigSep Finset.univ fun c : Fin 2 => bigSep Finset.univ fun i : Fin 16 => Φ (rowOf c i) := by
  rw [bigSep_univ_equiv rowEquiv Φ, bigSep_univ_prod]
  rfl

/-! ## A partial-flow array as its 32 rows -/

omit [FloatOps F] in
theorem pp_rows (d : Dev nD) (f : Buf (Elt F) (ppLoc d)) :
    (ppLoc d ↦{fullShare} f : sProp 𝕄) = bigSep Finset.univ fun r : Fin 32 => ppLoc d ↦[prowSet r]{fullShare} f := by
  rw [← pointsTo_biUnion Finset.univ (ℓ := ppLoc d) prowSet prows_disjoint, prows_cover]; try rfl
omit [FloatOps F] in
theorem qp_rows (d : Dev nD) (f : Buf (Elt F) (qpLoc d)) :
    (qpLoc d ↦{fullShare} f : sProp 𝕄) = bigSep Finset.univ fun r : Fin 32 => qpLoc d ↦[prowSet r]{fullShare} f := by
  rw [← pointsTo_biUnion Finset.univ (ℓ := qpLoc d) prowSet prows_disjoint, prows_cover]; try rfl

omit [FloatOps F] in
theorem pts_exists (ℓ : Loc nD τ sig) (I : Finset (Idx ℓ)) (f : Buf (Elt F) ℓ) :
    (ℓ ↦[I]{fullShare} f : sProp 𝕄) ⊢ iprop(∃ f', ℓ ↦[I]{fullShare} f') := by
  iintro H; iexists f; iexact H

omit [FloatOps F] in
/-- The whole array, whatever it holds, dealt as sixteen rows to each SparseCore. -/
theorem pp_whole_to_rows (d : Dev nD) (f : Buf (Elt F) (ppLoc d)) :
    (ppLoc d ↦{fullShare} f : sProp 𝕄) ⊢ bigSep Finset.univ fun c : Fin 2 => bigSep Finset.univ fun i : Fin 16 =>
      iprop(∃ f', ppLoc d ↦[prowSet (rowOf c i)]{fullShare} f') := by
  rw [pp_rows, bigSep_rows]
  exact bigSep_mono fun c _ => bigSep_mono fun i _ => pts_exists _ _ f
omit [FloatOps F] in
theorem qp_whole_to_rows (d : Dev nD) (f : Buf (Elt F) (qpLoc d)) :
    (qpLoc d ↦{fullShare} f : sProp 𝕄) ⊢ bigSep Finset.univ fun c : Fin 2 => bigSep Finset.univ fun i : Fin 16 =>
      iprop(∃ f', qpLoc d ↦[prowSet (rowOf c i)]{fullShare} f') := by
  rw [qp_rows, bigSep_rows]
  exact bigSep_mono fun c _ => bigSep_mono fun i _ => pts_exists _ _ f

/-! ## Rows at the accumulators join to the whole array -/

/-- The array whose row r is the vector A r. -/
def ofRows (A : Fin 32 → FVec F S10240 .f32) : FVec F S32x10240 .f32 :=
  fun j => A ⟨(j 0).val, (j 0).isLt⟩ (Spec.nd ⟨(j 1).val, (j 1).isLt⟩)

omit [FloatOps F] in
/-- A function whose row r holds a agrees on row r with any array of rows whose row r is a. -/
theorem RowIs.eq_ofRows {f : FVec F S32x10240 .f32} {r : Fin 32} {A : Fin 32 → FVec F S10240 .f32} (h : RowIs f r (A r)) :
    ∀ j ∈ prowSet r, f j = ofRows A j := by
  intro j hj
  have hr : (j 0).val = r.val := mem_prowSet.mp hj
  have hjr : (⟨(j 0).val, (j 0).isLt⟩ : Fin 32) = r := Fin.ext hr
  have e : j = (fun | 0 => ⟨r.val, r.isLt⟩ | 1 => ⟨(j 1).val, (j 1).isLt⟩ | ⟨_ + 2, h⟩ => absurd h (Nat.not_lt.2 (Nat.le_add_left _ _)) : S32x10240.Idx) := by
    funext a
    match a with
    | ⟨0, _⟩ => exact Fin.ext hr
    | ⟨1, _⟩ => rfl
  have h1 := h ⟨(j 1).val, (j 1).isLt⟩
  unfold ofRows
  rw [hjr, ← h1]
  exact congrArg f e

omit [FloatOps F] in
/-- One row held at a function whose row r is A r is that row of the array of rows. -/
theorem pp_row_at (d : Dev nD) (A : Fin 32 → FVec F S10240 .f32) (r : Fin 32) :
    iprop(∃ f', ⌜RowIs f' r (A r)⌝ ∗ ppLoc d ↦[prowSet r]{fullShare} f') ⊢ (ppLoc d ↦[prowSet r]{fullShare} ofRows A : sProp 𝕄) := by
  iintro ⟨%f', %h, H⟩
  have e : (ppLoc d ↦[prowSet r]{fullShare} f' : sProp 𝕄) = ppLoc d ↦[prowSet r]{fullShare} ofRows A :=
    pointsTo_congr (RowIs.eq_ofRows h)
  rw [← e]
  iexact H
omit [FloatOps F] in
theorem qp_row_at (d : Dev nD) (A : Fin 32 → FVec F S10240 .f32) (r : Fin 32) :
    iprop(∃ f', ⌜RowIs f' r (A r)⌝ ∗ qpLoc d ↦[prowSet r]{fullShare} f') ⊢ (qpLoc d ↦[prowSet r]{fullShare} ofRows A : sProp 𝕄) := by
  iintro ⟨%f', %h, H⟩
  have e : (qpLoc d ↦[prowSet r]{fullShare} f' : sProp 𝕄) = qpLoc d ↦[prowSet r]{fullShare} ofRows A :=
    pointsTo_congr (RowIs.eq_ofRows h)
  rw [← e]
  iexact H

omit [FloatOps F] in
/-- The two SparseCores' rows, each at its tile's accumulator, are the whole array at the array of the accumulators. -/
theorem pp_rows_to_whole (d : Dev nD) (A : Fin 32 → FVec F S10240 .f32) :
    (bigSep Finset.univ fun c : Fin 2 => bigSep Finset.univ fun i : Fin 16 =>
      iprop(∃ f', ⌜RowIs f' (rowOf c i) (A (rowOf c i))⌝ ∗ ppLoc d ↦[prowSet (rowOf c i)]{fullShare} f'))
      ⊢ (ppLoc d ↦{fullShare} ofRows A : sProp 𝕄) := by
  rw [pp_rows]
  refine (Entails.of_eq (bigSep_rows (F := F) fun r : Fin 32 =>
    iprop(∃ f', ⌜RowIs f' r (A r)⌝ ∗ ppLoc d ↦[prowSet r]{fullShare} f')).symm).trans ?_
  exact bigSep_mono fun r _ => pp_row_at d A r
omit [FloatOps F] in
theorem qp_rows_to_whole (d : Dev nD) (A : Fin 32 → FVec F S10240 .f32) :
    (bigSep Finset.univ fun c : Fin 2 => bigSep Finset.univ fun i : Fin 16 =>
      iprop(∃ f', ⌜RowIs f' (rowOf c i) (A (rowOf c i))⌝ ∗ qpLoc d ↦[prowSet (rowOf c i)]{fullShare} f'))
      ⊢ (qpLoc d ↦{fullShare} ofRows A : sProp 𝕄) := by
  rw [qp_rows]
  refine (Entails.of_eq (bigSep_rows (F := F) fun r : Fin 32 =>
    iprop(∃ f', ⌜RowIs f' r (A r)⌝ ∗ qpLoc d ↦[prowSet r]{fullShare} f')).symm).trans ?_
  exact bigSep_mono fun r _ => qp_row_at d A r

/-- The array of the tiles' active-flow accumulators is the specification's first partial-flow array … -/
theorem partsOf_fst_eq (d : Dev nD) :
    ofRows (fun r => (accOf m d r).1) = (Spec.partsOf (nfA m d) (eiA m d) (prA m d) (paA m d)).1 := by
  unfold Spec.partsOf ofRows
  rfl
/-- … and the reactive-flow accumulators' the second. -/
theorem partsOf_snd_eq (d : Dev nD) :
    ofRows (fun r => (accOf m d r).2) = (Spec.partsOf (nfA m d) (eiA m d) (prA m d) (paA m d)).2 := by
  unfold Spec.partsOf ofRows
  rfl

/-! ## The full share of the read-only arrays: one share per SparseCore and a rest -/

omit [FloatOps F] in
theorem share_cores_split (ℓ : Loc nD τ sig) (f : Buf (Elt F) ℓ) :
    (ℓ ↦{fullShare} f : sProp 𝕄) ⊢ iprop((ℓ ↦{Transfers.shareDrop fullShare 2} f) ∗ (ℓ ↦{shC 0} f) ∗ (ℓ ↦{shC 1} f)) := by
  have h : (ℓ ↦{fullShare} f : sProp 𝕄) ⊢ iprop((ℓ ↦{Transfers.shareDrop fullShare 2} f)
      ∗ bigSep Finset.univ fun c : Fin 2 => ℓ ↦{shC c} f) := Transfers.pointsTo_toks_split fullShare 2
  rw [bigSep_fin_two] at h
  exact h
omit [FloatOps F] in
theorem share_cores_join (ℓ : Loc nD τ sig) (f : Buf (Elt F) ℓ) :
    iprop((ℓ ↦{Transfers.shareDrop fullShare 2} f) ∗ (ℓ ↦{shC 0} f) ∗ (ℓ ↦{shC 1} f)) ⊢ (ℓ ↦{fullShare} f : sProp 𝕄) := by
  have h : iprop((ℓ ↦{Transfers.shareDrop fullShare 2} f) ∗ bigSep Finset.univ fun c : Fin 2 => ℓ ↦{shC c} f)
      ⊢ (ℓ ↦{fullShare} f : sProp 𝕄) := Transfers.pointsTo_toks_join fullShare 2
  rw [bigSep_fin_two] at h
  exact h

theorem roPts_cores_of (d : Dev nD) :
    roPts m d fullShare ⊢ iprop(roPts m d (Transfers.shareDrop fullShare 2) ∗ roPts m d (shC 0) ∗ roPts m d (shC 1)) := by
  unfold roPts
  iintro ⟨H1, H2, H3, H4, H5, H6⟩
  ihave H1 := (share_cores_split (F := F) _ _) $$ H1
  ihave H2 := (share_cores_split (F := F) _ _) $$ H2
  ihave H3 := (share_cores_split (F := F) _ _) $$ H3
  ihave H4 := (share_cores_split (F := F) _ _) $$ H4
  ihave H5 := (share_cores_split (F := F) _ _) $$ H5
  ihave H6 := (share_cores_split (F := F) _ _) $$ H6
  icases H1 with ⟨R1, A1, B1⟩
  icases H2 with ⟨R2, A2, B2⟩
  icases H3 with ⟨R3, A3, B3⟩
  icases H4 with ⟨R4, A4, B4⟩
  icases H5 with ⟨R5, A5, B5⟩
  icases H6 with ⟨R6, A6, B6⟩
  isplitl [R1 R2 R3 R4 R5 R6]
  · isplitl [R1]; · iexact R1
    isplitl [R2]; · iexact R2
    isplitl [R3]; · iexact R3
    isplitl [R4]; · iexact R4
    isplitl [R5]; · iexact R5
    iexact R6
  isplitl [A1 A2 A3 A4 A5 A6]
  · isplitl [A1]; · iexact A1
    isplitl [A2]; · iexact A2
    isplitl [A3]; · iexact A3
    isplitl [A4]; · iexact A4
    isplitl [A5]; · iexact A5
    iexact A6
  · isplitl [B1]; · iexact B1
    isplitl [B2]; · iexact B2
    isplitl [B3]; · iexact B3
    isplitl [B4]; · iexact B4
    isplitl [B5]; · iexact B5
    iexact B6

theorem roPts_cores_join (d : Dev nD) :
    iprop(roPts m d (Transfers.shareDrop fullShare 2) ∗ roPts m d (shC 0) ∗ roPts m d (shC 1)) ⊢ roPts m d fullShare := by
  unfold roPts
  iintro ⟨⟨R1, R2, R3, R4, R5, R6⟩, ⟨A1, A2, A3, A4, A5, A6⟩, B1, B2, B3, B4, B5, B6⟩
  isplitl [R1 A1 B1]
  · iapply (share_cores_join (F := F) _ _); isplitl [R1]; · iexact R1
    isplitl [A1]; · iexact A1
    iexact B1
  isplitl [R2 A2 B2]
  · iapply (share_cores_join (F := F) _ _); isplitl [R2]; · iexact R2
    isplitl [A2]; · iexact A2
    iexact B2
  isplitl [R3 A3 B3]
  · iapply (share_cores_join (F := F) _ _); isplitl [R3]; · iexact R3
    isplitl [A3]; · iexact A3
    iexact B3
  isplitl [R4 A4 B4]
  · iapply (share_cores_join (F := F) _ _); isplitl [R4]; · iexact R4
    isplitl [A4]; · iexact A4
    iexact B4
  isplitl [R5 A5 B5]
  · iapply (share_cores_join (F := F) _ _); isplitl [R5]; · iexact R5
    isplitl [A5]; · iexact A5
    iexact B5
  iapply (share_cores_join (F := F) _ _); isplitl [R6]; · iexact R6
  isplitl [A6]; · iexact A6
  iexact B6

/-! ## The call's start and done payloads over the two SparseCores -/

omit [FloatOps F] in
theorem bigSep_cores (Φ : Fin 2 → sProp 𝕄) :
    (bigSep Finset.univ fun c : Fin ((K (F := F)).nCore 0) => Φ (Fin.cast nCore_zero c)) = iprop(Φ 0 ∗ Φ 1) := by
  rw [show (bigSep Finset.univ fun c : Fin ((K (F := F)).nCore 0) => Φ (Fin.cast nCore_zero c)) = bigSep Finset.univ Φ from
    bigSep_congr fun _ _ => congrArg Φ (Fin.ext rfl), bigSep_fin_two]
  rfl

theorem st0_eq (d : Dev nD) :
    (bigSep Finset.univ fun c : Fin ((K (F := F)).nCore 0) => (P m).st 0 d c) = iprop(stPay m d 0 ∗ stPay m d 1) :=
  bigSep_cores (fun c => stPay m d c)

theorem dn0_eq (d : Dev nD) :
    (bigSep Finset.univ fun c : Fin ((K (F := F)).nCore 0) => (P m).dn 0 d c) = iprop(dnPay m d 0 ∗ dnPay m d 1) :=
  bigSep_cores (fun c => dnPay m d c)

/-! ## The two partial-flow arrays after the call, as the specification names them -/

/-- The active-flow rows, each at its tile's accumulator, are the whole first array at the specification's value. -/
theorem rows_to_whole_fst (d : Dev nD) :
    (bigSep Finset.univ fun c : Fin 2 => bigSep Finset.univ fun i : Fin 16 =>
      iprop(∃ f, ⌜RowIs f (rowOf c i) (accOf m d (rowOf c i)).1⌝ ∗ ppLoc d ↦[prowSet (rowOf c i)]{fullShare} f))
      ⊢ (ppLoc d ↦{fullShare} (Spec.partsOf (nfA m d) (eiA m d) (prA m d) (paA m d)).1 : sProp 𝕄) := by
  have h := pp_rows_to_whole (F := F) d fun r => (accOf m d r).1
  rw [partsOf_fst_eq m d] at h
  exact h

/-- The reactive-flow rows likewise are the whole second array. -/
theorem rows_to_whole_snd (d : Dev nD) :
    (bigSep Finset.univ fun c : Fin 2 => bigSep Finset.univ fun i : Fin 16 =>
      iprop(∃ f, ⌜RowIs f (rowOf c i) (accOf m d (rowOf c i)).2⌝ ∗ qpLoc d ↦[prowSet (rowOf c i)]{fullShare} f))
      ⊢ (qpLoc d ↦{fullShare} (Spec.partsOf (nfA m d) (eiA m d) (prA m d) (paA m d)).2 : sProp 𝕄) := by
  have h := qp_rows_to_whole (F := F) d fun r => (accOf m d r).2
  rw [partsOf_snd_eq m d] at h
  exact h

end Cert.Proof.K

end
-- ==== Proof.K.MainTc.lean ====
/-
  @main on the TensorCore: the eight host slices, the preparation call, the SparseCore call (the six
  read-only arrays dealt to the two SparseCores as read shares, the two partial-flow arrays row by row,
  and gathered back at the tiles' accumulators), the loss call, the last reshape. What is left: the
  four arguments as launched and the result at the loss of the four arguments.
-/
import proofs.«213808_g38010460570139_cont_8to1_b_868_22_alg».proof.Proof.K.Split
import proofs.«213808_g38010460570139_cont_8to1_b_868_22_alg».proof.Proof.K.Hosts
import proofs.«213808_g38010460570139_cont_8to1_b_868_22_alg».proof.Proof.K.Rows
import proofs.«213808_g38010460570139_cont_8to1_b_868_22_alg».proof.Proof.K.Finish

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays, one by one -/

/-- The arrays' references as device references, in order. -/
abbrev dAll : List (DevRef τ sig) := rAll.map fun b => Proc.devRef .tc b

/-- The `held` set at a valuation, array by array. -/
theorem held_SAll (d : Dev nD) (W : Valuation τ sig (Elt F)) :
    (held (T d) SAll W : sProp 𝕄)
      = iprop((nfLoc d ↦{fullShare} W (Proc.devRef .tc main_arg0)) ∗ (eiLoc d ↦{fullShare} W (Proc.devRef .tc main_arg1))
          ∗ (prLoc d ↦{fullShare} W (Proc.devRef .tc main_arg2)) ∗ (paLoc d ↦{fullShare} W (Proc.devRef .tc main_arg3))
          ∗ ((SparseCore.T d).loc main_v0 ↦{fullShare} W (Proc.devRef .tc main_v0)) ∗ (srcLoc d ↦{fullShare} W (Proc.devRef .tc main_v1))
          ∗ ((SparseCore.T d).loc main_v2 ↦{fullShare} W (Proc.devRef .tc main_v2)) ∗ (dstLoc d ↦{fullShare} W (Proc.devRef .tc main_v3))
          ∗ ((SparseCore.T d).loc main_v4 ↦{fullShare} W (Proc.devRef .tc main_v4)) ∗ (gLoc d ↦{fullShare} W (Proc.devRef .tc main_v5))
          ∗ ((SparseCore.T d).loc main_v6 ↦{fullShare} W (Proc.devRef .tc main_v6)) ∗ (bLoc d ↦{fullShare} W (Proc.devRef .tc main_v7))
          ∗ (v2Loc d ↦{fullShare} W (Proc.devRef .tc main_v8_0)) ∗ (plLoc d ↦{fullShare} W (Proc.devRef .tc main_v8_1))
          ∗ (qlLoc d ↦{fullShare} W (Proc.devRef .tc main_v8_2)) ∗ (ppLoc d ↦{fullShare} W (Proc.devRef .tc main_v9_0))
          ∗ (qpLoc d ↦{fullShare} W (Proc.devRef .tc main_v9_1)) ∗ (outLoc d ↦{fullShare} W (Proc.devRef .tc main_v10))
          ∗ (resLoc d ↦{fullShare} W (Proc.devRef .tc main_v11))) := by
  unfold held
  exact bigSep_eq_bigSepL dAll (by decide) _

omit [FloatOps F] in
/-- The unscoped arrays as the launch deals them are the `held` set at the launch valuation. -/
theorem unscoped_held (d : Dev nD) :
    (unscopedBufs d (fun b => m ((SparseCore.T d).loc b)) : sProp 𝕄) = held (T d) SAll (V0 m d) := by
  unfold unscopedBufs held
  rw [bigSep_eq_bigSepL_of_eq rAll (by decide) (by decide), bigSep_eq_bigSepL dAll (by decide)]
  rfl

/-- The arrays after the eight host operations: the arguments as launched, the four edge arrays at their slices. -/
theorem held_V8 (d : Dev nD) :
    (held (T d) SAll (after (ops8 (F := F)) (V0 m d)) : sProp 𝕄)
      = iprop((nfLoc d ↦{fullShare} m (nfLoc d)) ∗ (eiLoc d ↦{fullShare} m (eiLoc d))
          ∗ (prLoc d ↦{fullShare} m (prLoc d)) ∗ (paLoc d ↦{fullShare} m (paLoc d))
          ∗ ((SparseCore.T d).loc main_v0 ↦{fullShare} V8 m d (Proc.devRef .tc main_v0)) ∗ (srcLoc d ↦{fullShare} srcA m d)
          ∗ ((SparseCore.T d).loc main_v2 ↦{fullShare} V8 m d (Proc.devRef .tc main_v2)) ∗ (dstLoc d ↦{fullShare} dstA m d)
          ∗ ((SparseCore.T d).loc main_v4 ↦{fullShare} V8 m d (Proc.devRef .tc main_v4)) ∗ (gLoc d ↦{fullShare} gA m d)
          ∗ ((SparseCore.T d).loc main_v6 ↦{fullShare} V8 m d (Proc.devRef .tc main_v6)) ∗ (bLoc d ↦{fullShare} bA m d)
          ∗ (v2Loc d ↦{fullShare} V8 m d (Proc.devRef .tc main_v8_0)) ∗ (plLoc d ↦{fullShare} V8 m d (Proc.devRef .tc main_v8_1))
          ∗ (qlLoc d ↦{fullShare} V8 m d (Proc.devRef .tc main_v8_2)) ∗ (ppLoc d ↦{fullShare} V8 m d (Proc.devRef .tc main_v9_0))
          ∗ (qpLoc d ↦{fullShare} V8 m d (Proc.devRef .tc main_v9_1)) ∗ (outLoc d ↦{fullShare} V8 m d (Proc.devRef .tc main_v10))
          ∗ (resLoc d ↦{fullShare} V8 m d (Proc.devRef .tc main_v11))) := by
  rw [show after (ops8 (F := F)) (V0 m d) = V8 m d from rfl, held_SAll, V8_arg0, V8_arg1, V8_arg2, V8_arg3, V8_src, V8_dst, V8_g, V8_b]

/-- A conjunction over the two SparseCores, one by one. -/
theorem fin2_split (Φ : Fin 2 → sProp 𝕄) : bigSep Finset.univ Φ ⊢ iprop(Φ 0 ∗ Φ 1) := Entails.of_eq (bigSep_fin_two Φ)
theorem fin2_join (Φ : Fin 2 → sProp 𝕄) : iprop(Φ 0 ∗ Φ 1) ⊢ bigSep Finset.univ Φ := Entails.of_eq (bigSep_fin_two Φ).symm

/-! ## The last reshape -/

abbrev opRes : HloOp τ sig (Elt F) := StableHlo.reshape main_v10 main_v11 rfl shapeCasts_S1x1_S_
abbrev S2 : Finset (DevRef τ sig) := {Proc.devRef .tc main_v10, Proc.devRef .tc main_v11}

/-- The valuation the last reshape runs at: the launch's, with the loss call's result in place. -/
def VL (d : Dev nD) : Valuation τ sig (Elt F) := Function.update (V0 m d) (Proc.devRef .tc main_v10) (lossBuf m d)

omit [FloatOps F] in
theorem held_S2 (d : Dev nD) (W : Valuation τ sig (Elt F)) :
    (held (T d) S2 W : sProp 𝕄) = iprop((outLoc d ↦{fullShare} W (Proc.devRef .tc main_v10)) ∗ resLoc d ↦{fullShare} W (Proc.devRef .tc main_v11)) := by
  unfold held S2
  rw [SparseCore.bigSep_insert' (by decide), bigSep_singleton]

theorem VL_out (d : Dev nD) : VL m d (Proc.devRef .tc main_v10) = lossBuf m d := Function.update_self _ _ _

theorem opRes_res (d : Dev nD) : (opRes (F := F)).result (VL m d) (Proc.devRef .tc main_v11) = resOf m d := by
  rw [StableHlo.reshape_result', VL_out]
  rfl

theorem hRes : (opRes (F := F)).bufs ⊆ S2 := by rw [StableHlo.reshape_bufs]

/-! ## @main -/

/-- @main on device `d`'s TensorCore, given the two TensorCore calls' regions: `Gh p d` is what the launch deals for
    pipeline `p`, `Gh' p d` what its region leaves of it. -/
theorem hmain_of (Gh Gh' : Fin 2 → Dev nD → sProp 𝕄)
    (hprep : ∀ (κ : GSem nD τ sig → ℕ) (d : Dev nD) (Φ : PUnit → sProp 𝕄) (f1 f2 f3 : FVec F S10240 .f32),
      iprop((K (F := F)).ctx EH (P m) κ ∗ (K (F := F)).tcSt EH d 0 ∗ boundary (T d) ∗ Gh 0 d
          ∗ (nfLoc d ↦{fullShare} m (nfLoc d)) ∗ (v2Loc d ↦{fullShare} f1) ∗ (plLoc d ↦{fullShare} f2) ∗ (qlLoc d ↦{fullShare} f3)
          ∗ (((K (F := F)).tcSt EH d 0 ∗ boundary (T d) ∗ Gh' 0 d
              ∗ (nfLoc d ↦{fullShare} m (nfLoc d)) ∗ (v2Loc d ↦{fullShare} tabA m d)
              ∗ (plLoc d ↦{fullShare} Spec.prepPl (nfA m d)) ∗ (qlLoc d ↦{fullShare} Spec.prepQl (nfA m d))) -∗ Φ ⟨⟩))
        ⊢ wp frame (wpE ((K (F := F)).defs (D (F := F))) 𝒱 (SparseCore.T d) none) Set.univ
            (Prog.lift (.customCall (SparseCore.inner (Pipeline.entry 0)) ())) Φ)
    (hloss : ∀ (κ : GSem nD τ sig → ℕ) (d : Dev nD) (Φ : PUnit → sProp 𝕄) (Pv Qv : FVec F S32x10240 .f32) (tv pv qv : FVec F S10240 .f32) (fo : Vec F S1x1 .f32),
      iprop((K (F := F)).ctx EH (P m) κ ∗ (K (F := F)).tcSt EH d 1 ∗ boundary (T d) ∗ Gh 1 d
          ∗ (ppLoc d ↦{fullShare} Pv) ∗ (qpLoc d ↦{fullShare} Qv) ∗ (v2Loc d ↦{fullShare} tv) ∗ (plLoc d ↦{fullShare} pv) ∗ (qlLoc d ↦{fullShare} qv)
          ∗ (outLoc d ↦{fullShare} fo)
          ∗ (((K (F := F)).tcSt EH d 1 ∗ boundary (T d) ∗ Gh' 1 d
              ∗ (ppLoc d ↦{fullShare} Pv) ∗ (qpLoc d ↦{fullShare} Qv) ∗ (v2Loc d ↦{fullShare} tv) ∗ (plLoc d ↦{fullShare} pv) ∗ (qlLoc d ↦{fullShare} qv)
              ∗ (outLoc d ↦{fullShare} (fun _ => k2_pay1 Pv Qv tv pv qv : Vec F S1x1 .f32))) -∗ Φ ⟨⟩))
        ⊢ wp frame (wpE ((K (F := F)).defs (D (F := F))) 𝒱 (SparseCore.T d) none) Set.univ
            (Prog.lift (.customCall (SparseCore.inner (Pipeline.entry 1)) ())) Φ)
    (κ : GSem nD τ sig → ℕ) (d : Dev nD) :
    iprop((K (F := F)).ctx EH (P m) κ ∗ (K (F := F)).tcSt EH d 0 ∗ (K (F := F)).tcRes m ρ d ∗ (Gh 0 d ∗ Gh 1 d))
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, ⟨Hg0, Hg1⟩⟩
  -- the eight host slices and reshapes
  iapply (wp_seq 𝒱 (bd := none) (E := Set.univ) d SAll (fun _ => mainRest d) (ops8 (F := F)) ops8_bufs ops8_fresh (V0 m d)) $$ [Hb Hheld]
  · isplitl [Hb] <;> iassumption
  iintro ⟨Hb, Hheld⟩
  ihave Hh := (Entails.of_eq (held_V8 (F := F) m d)) $$ Hheld
  icases Hh with ⟨Hnf, Hei, Hpr, Hpa, -, Hsrc, -, Hdst, -, Hg, -, Hbb, Hv2, Hpl, Hql, Hpp, Hqp, Hout, Hres⟩
  unfold mainRest
  simp only [wp_bind, wp_pure]
  -- the preparation call
  iapply (hprep κ d _ _ _ _) $$ [Hst Hb Hg0 Hnf Hv2 Hpl Hql Hei Hpr Hpa Hsrc Hdst Hg Hbb Hpp Hqp Hout Hres Hg1]
  isplitr; · iexact Hctx
  isplitl [Hst]; · iexact Hst
  isplitl [Hb]; · iexact Hb
  isplitl [Hg0]; · iexact Hg0
  isplitl [Hnf]; · iexact Hnf
  isplitl [Hv2]; · iexact Hv2
  isplitl [Hpl]; · iexact Hpl
  isplitl [Hql]; · iexact Hql
  iintro ⟨Hst, Hb, -, Hnf, Hv2, Hpl, Hql⟩
  -- the SparseCore call: shares out, rows out; shares back, rows back at the accumulators
  ihave Hro := (roPts_cores_of m d) $$ [Hv2 Hsrc Hdst Hpr Hg Hbb]
  · unfold roPts
    isplitl [Hv2]; · iexact Hv2
    isplitl [Hsrc]; · iexact Hsrc
    isplitl [Hdst]; · iexact Hdst
    isplitl [Hpr]; · iexact Hpr
    isplitl [Hg]; · iexact Hg
    iexact Hbb
  icases Hro with ⟨Hrest, Hro0, Hro1⟩
  ihave Hpp' := ((pp_whole_to_rows (F := F) d _).trans (fin2_split _)) $$ Hpp
  ihave Hqp' := ((qp_whole_to_rows (F := F) d _).trans (fin2_split _)) $$ Hqp
  icases Hpp' with ⟨Hpp0, Hpp1⟩
  icases Hqp' with ⟨Hqp0, Hqp1⟩
  iapply ((K (F := F)).wp_run (D (F := F)) 𝒱 (EH := EH) (P := P m) κ d 0) $$ [Hst Hro0 Hro1 Hpp0 Hpp1 Hqp0 Hqp1 Hb Hnf Hpl Hql Hei Hpa Hout Hres Hg1 Hrest]
  isplitr; · iexact Hctx
  isplitl [Hst]; · iexact Hst
  isplitl [Hro0 Hro1 Hpp0 Hpp1 Hqp0 Hqp1]
  · rw [st0_eq]; unfold stPay
    isplitl [Hro0 Hpp0 Hqp0]
    · isplitl [Hro0]; · iexact Hro0
      isplitl [Hpp0]; · iexact Hpp0
      iexact Hqp0
    · isplitl [Hro1]; · iexact Hro1
      isplitl [Hpp1]; · iexact Hpp1
      iexact Hqp1
  iintro ⟨Hst, Hdn⟩
  ihave Hdn' := (Entails.of_eq (dn0_eq m d)) $$ Hdn
  unfold dnPay
  icases Hdn' with ⟨⟨Hro0, Hpp0, Hqp0⟩, ⟨Hro1, Hpp1, Hqp1⟩⟩
  ihave Hro := (roPts_cores_join m d) $$ [Hrest Hro0 Hro1]
  · isplitl [Hrest]; · iexact Hrest
    isplitl [Hro0] <;> iassumption
  unfold roPts
  icases Hro with ⟨Hv2, Hsrc, Hdst, Hpr, Hg, Hbb⟩
  ihave Hpp := ((fin2_join _).trans (rows_to_whole_fst m d)) $$ [Hpp0 Hpp1]
  · isplitl [Hpp0] <;> iassumption
  ihave Hqp := ((fin2_join _).trans (rows_to_whole_snd m d)) $$ [Hqp0 Hqp1]
  · isplitl [Hqp0] <;> iassumption
  -- the loss call
  iapply (hloss κ d _ _ _ _ _ _ _) $$ [Hst Hb Hg1 Hpp Hqp Hv2 Hpl Hql Hout Hnf Hei Hpr Hpa Hres]
  isplitr; · iexact Hctx
  isplitl [Hst]; · iexact Hst
  isplitl [Hb]; · iexact Hb
  isplitl [Hg1]; · iexact Hg1
  isplitl [Hpp]; · iexact Hpp
  isplitl [Hqp]; · iexact Hqp
  isplitl [Hv2]; · iexact Hv2
  isplitl [Hpl]; · iexact Hpl
  isplitl [Hql]; · iexact Hql
  isplitl [Hout]; · iexact Hout
  iintro ⟨Hst, Hb, -, -, -, -, -, -, Hout⟩
  -- the last reshape
  iapply (wp_hlo_within 𝒱 (SparseCore.T d) none Set.univ (op := opRes) (S := S2) hRes (V := VL m d)) $$ [Hb Hout Hres]
  · isplitl [Hb]; · iexact Hb
    rw [held_S2, VL_out]
    isplitl [Hout]
    · iexact Hout
    · iexact Hres
  iintro ⟨Hb, Hheld⟩
  ihave Hh := (Entails.of_eq (held_S2 (F := F) d _)) $$ Hheld
  rw [opRes_res]
  icases Hh with ⟨-, Hres⟩
  rw [wp_ret]; imodintro; imodintro
  isplitl [Hst]; · iexact Hst
  isplitl [Hnf]; · iexact Hnf
  isplitl [Hei]; · iexact Hei
  isplitl [Hpr]; · iexact Hpr
  isplitl [Hpa]; · iexact Hpa
  iexact Hres

end Cert.Proof.K

end
-- ==== Proof.K.PrepBody.lean ====
/-
  The preparation call's body on its staging buffers.

  The body loads the staged node features whole, forms the four selected columns by one matrix product
  with a 4 x 128 selection matrix, and writes each of its three results in two steps: the whole staging
  buffer is first overwritten with zeros, then its first 10000 entries with the computed vector. What a
  result's buffer holds afterwards is therefore the computed vector padded with zeros to 10240 entries
  (`Spec.padTo`), whatever the buffer held before.
-/
import proofs.«213808_g38010460570139_cont_8to1_b_868_22_alg».proof.Proof.K.Spec
import Idealize.ShloMosaic.Lib.SparseCore.Launch
import Idealize.ShloMosaic.Lib.Pipeline.Kit
import Idealize.ShloMosaic.Lib.WritesUnit
import Idealize.ShloMosaic.Lib.Tactic

noncomputable section

namespace Cert.Proof.K

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U]

local notation "𝕄" => MT nD τ sig (HIx 1) (Elt F) ℕ U ℕ

/-! ## The value the two stores leave -/

theorem prep_off2_zero : (![0, 0] : Fin 2 → Nat) = fun _ => 0 := funext fun a => by fin_cases a <;> rfl

/-- The load of the whole staged input reads the staged input. -/
theorem prep_ld_staged (nf : Vec F S10000x128 .f32) :
    View.readAt (Elt F) (Memref.whole cc0_stg0_0).view
      (Rect.unit ![0, 0] S10000x128.size inb_S10000x128_S10000x128_0_0).toLoadRect nf = nf :=
  Memref.readAt_unit_zero (Elt F) cc0_stg0_0 prep_off2_zero _ nf

/-- Zeros stored over all 10240 entries, then `w` over the first 10000: entry `n` reads `w n` below 10000
    and zero from there on, whatever was there before. -/
theorem prep_read_writes_pad {κ : Kind} {sp : Space} (v : View sig κ sp S10240 .f32) (f : v.ty.Contents (Elt F)) (w : FVec F S10000 .f32) :
    v.read (Elt F) (v.writes (Elt F) f
        [⟨Rect.unit ![0] S10000.size inb_S10240_S10000_0, w⟩, ⟨Rect.unit ![0] S10240.size inb_S10240_S10240_0, k0_pay2 (F := F)⟩])
      = Spec.padTo w := by
  funext y
  rw [View.read_writes_cons_unit v f inb_S10240_S10000_0 w _ y rfl]
  unfold Spec.padTo
  by_cases h : (y 0).val < 10000
  · have h' : ∀ a, (![0] : Fin 1 → ℕ) a ≤ (y a).val ∧ (y a).val < (![0] : Fin 1 → ℕ) a + S10000.size a := fun a => by
      fin_cases a; exact ⟨Nat.zero_le _, by show (y 0).val < 0 + 10000; omega⟩
    rw [dif_pos h', dif_pos h]
    exact congrArg w (funext fun a => Fin.ext (by fin_cases a; show (y 0).val - 0 = (y 0).val; omega))
  · have h' : ¬ ∀ a, (![0] : Fin 1 → ℕ) a ≤ (y a).val ∧ (y a).val < (![0] : Fin 1 → ℕ) a + S10000.size a := fun hh => h (by
      have := (hh 0).2; have e : (y 0).val < 0 + 10000 := this; omega)
    rw [dif_neg h', dif_neg h]
    rw [View.read_writes_cons_unit_of_mem v f inb_S10240_S10240_0 (k0_pay2 (F := F)) [] y y rfl
      (fun a => by fin_cases a; show (y 0).val = 0 + (y 0).val; omega)]
    rfl

/-- A staging buffer held whole at `f`, spelt through its memref as the body's loads and stores name it. -/
abbrev prepPtM (d : Dev nD) {sp : Space} {S : Shape} {e : EltTy} (M : Memref sig .tc sp S e)
    (f : Buf (Elt F) (M.view.loc (SparseCore.T d : Thread nD τ))) : sProp 𝕄 :=
  M.view.loc (SparseCore.T d : Thread nD τ) ↦{fullShare} f

theorem prep_stg1_eq (nf : Vec F S10000x128 .f32) :
    (Memref.whole cc0_stg1_0).view.writes (Elt F) (Memref.whole cc0_stg1_0).view.junk
      [⟨Rect.unit ![0] S10000.size inb_S10240_S10000_0,
          k0_pay3 (View.readAt (Elt F) (Memref.whole cc0_stg0_0).view
            (Rect.unit ![0, 0] S10000x128.size inb_S10000x128_S10000x128_0_0).toLoadRect nf)⟩,
        ⟨Rect.unit ![0] S10240.size inb_S10240_S10240_0, k0_pay2 (F := F)⟩]
      = Spec.prepV2 nf := by
  rw [prep_ld_staged]
  have e := prep_read_writes_pad (F := F) (View.whole cc0_stg1_0) (View.whole cc0_stg1_0).junk (k0_pay3 nf)
  rw [View.read_whole] at e
  unfold Spec.prepV2
  exact e

theorem prep_stg2_eq (nf : Vec F S10000x128 .f32) :
    (Memref.whole cc0_stg2_0).view.writes (Elt F) (Memref.whole cc0_stg2_0).view.junk
      [⟨Rect.unit ![0] S10000.size inb_S10240_S10000_0,
          k0_pay4 (View.readAt (Elt F) (Memref.whole cc0_stg0_0).view
            (Rect.unit ![0, 0] S10000x128.size inb_S10000x128_S10000x128_0_0).toLoadRect nf)⟩,
        ⟨Rect.unit ![0] S10240.size inb_S10240_S10240_0, k0_pay2 (F := F)⟩]
      = Spec.prepPl nf := by
  rw [prep_ld_staged]
  have e := prep_read_writes_pad (F := F) (View.whole cc0_stg2_0) (View.whole cc0_stg2_0).junk (k0_pay4 nf)
  rw [View.read_whole] at e
  unfold Spec.prepPl
  exact e

theorem prep_stg3_eq (nf : Vec F S10000x128 .f32) :
    (Memref.whole cc0_stg3_0).view.writes (Elt F) (Memref.whole cc0_stg3_0).view.junk
      [⟨Rect.unit ![0] S10000.size inb_S10240_S10000_0,
          k0_pay5 (View.readAt (Elt F) (Memref.whole cc0_stg0_0).view
            (Rect.unit ![0, 0] S10000x128.size inb_S10000x128_S10000x128_0_0).toLoadRect nf)⟩,
        ⟨Rect.unit ![0] S10240.size inb_S10240_S10240_0, k0_pay2 (F := F)⟩]
      = Spec.prepQl nf := by
  rw [prep_ld_staged]
  have e := prep_read_writes_pad (F := F) (View.whole cc0_stg3_0) (View.whole cc0_stg3_0).junk (k0_pay5 nf)
  rw [View.read_whole] at e
  unfold Spec.prepQl
  exact e

/-! ## The body's run -/

/-- The body on the four staging buffers, the input's at `nf`, the results' at anything: it leaves the input's as it
    was and the results' at the squared voltage magnitudes, the active loads and the reactive loads of `nf`, padded. -/
theorem prep_body (d : Dev nD) (nf : Vec F S10000x128 .f32) (f1 f2 f3 : FVec F S10240 .f32) (Q : PUnit → sProp 𝕄) :
    iprop(prepPtM d (Memref.whole cc0_stg0_0) nf ∗ prepPtM d (Memref.whole cc0_stg1_0) f1 ∗ prepPtM d (Memref.whole cc0_stg2_0) f2
        ∗ prepPtM d (Memref.whole cc0_stg3_0) f3
        ∗ (iprop(prepPtM d (Memref.whole cc0_stg0_0) nf ∗ prepPtM d (Memref.whole cc0_stg1_0) (Spec.prepV2 nf)
            ∗ prepPtM d (Memref.whole cc0_stg2_0) (Spec.prepPl nf) ∗ prepPtM d (Memref.whole cc0_stg3_0) (Spec.prepQl nf)) -∗ Q ⟨⟩))
      ⊢ wp frame (wpE (defs₀ (F := F)) Variants.none (SparseCore.T d) none) Set.univ
          (cc0__prep_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)) Q := by
  iintro ⟨H0, H1, H2, H3, Hk⟩
  simp only [cc0__prep_body_eq_skeleton]; unfold cc0__prep_body_skel
  sl_exec!
  sl_step
  sl_unfold_run_names
  rw [prep_stg1_eq nf, prep_stg2_eq nf, prep_stg3_eq nf]
  iapply Hk
  isplitl [H0]; · iexact H0
  isplitl [H1]; · iexact H1
  isplitl [H2]; · iexact H2
  iexact H3

end Cert.Proof.K

end
-- ==== Proof.K.PrepRegion.lean ====
/-
  The preparation call as a region of @main on the TensorCore.

  The region is the library's pipeline over four whole-array windows and one grid point: the node
  features are fetched whole into their staging buffer, the body runs once, and the three results
  are written back whole. Its proof data name the arrays' contents at entry (the features, and
  whatever the three result arrays held), what the body leaves in the staging buffers (`prep_body`)
  and hence what the write-backs leave in the result arrays: the squared voltage magnitudes, the
  active and the reactive loads of the features, each padded with zeros. The TensorCore owes its
  handshake units throughout; the region's own waits sit at the index that carries no such unit.
-/
import proofs.«213808_g38010460570139_cont_8to1_b_868_22_alg».proof.Proof.K.PrepBody
import proofs.«213808_g38010460570139_cont_8to1_b_868_22_alg».proof.Proof.K.Common
import proofs.«213808_g38010460570139_cont_8to1_b_868_22_alg».proof.Proof.Gen.Kernel.Launch
import proofs.«213808_g38010460570139_cont_8to1_b_868_22_alg».proof.Proof.Gen.Kernel.Points
import Idealize.ShloMosaic.Lib.Pipeline.Regions

noncomputable section

namespace Cert.Proof.K

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U]

local notation "𝕄" => MT nD τ sig (HIx 1) (Elt F) ℕ U ℕ

/-- Neither pallas_call prefetches a table: the one admissible contents. -/
abbrev prepAdm : (p : Fin 2) → (pcfgs (F := F) p).Adm := fun p => (cfgs p).toPCfg_adm

variable (nf : Vec F S10000x128 .f32) (g1 g2 g3 : FVec F S10240 .f32)
  (O : CellTallies nD τ sig (HIx 1)) (W : Waits sig (HIx 1))

/-- What the fetch stages of the features: the whole array read through the window's one block. -/
abbrev prepStaged : (cfg0.win 0).block.Idx → Elt F (cfg0.win 0).elt :=
  ((cfg0.win 0).blk t0_0).view.read (Elt F) nf

/-- The block is the whole array: the fetch stages the features themselves. -/
theorem prepStaged_eq : prepStaged nf = nf :=
  Memref.read_access_unit_zero (Elt F) main_arg0 (funext fun a => by fin_cases a <;> rfl) _ nf

/-- The region's proof data on core `c`: the features and the three result arrays at entry; after the body the
    input's staging buffer as fetched and the results' at the padded vectors; the invariant carries the scoped
    buffers the region does not stage; the core owes `O` throughout, its recorded pairs within `W`. -/
def prepDat (c : Dev nD) : Pipeline.Dat τ (Elt F) (HIx 1) ℕ U ℕ cfg0 c where
  A := fun
    | ⟨0, _⟩ => nf
    | ⟨1, _⟩ => g1
    | ⟨2, _⟩ => g2
    | ⟨3, _⟩ => g3
    | ⟨_ + 4, h⟩ => absurd h (Nat.not_lt.2 (Nat.le_add_left _ _))
  after := fun w _ => match w with
    | ⟨0, _⟩ => prepStaged nf
    | ⟨1, _⟩ => Spec.prepV2 nf
    | ⟨2, _⟩ => Spec.prepPl nf
    | ⟨3, _⟩ => Spec.prepQl nf
    | ⟨_ + 4, h⟩ => absurd h (Nat.not_lt.2 (Nat.le_add_left _ _))
  Φ _ := Pipeline.scopedRest (Ix := HIx 1) (Name := ℕ) (U := U) (Lvl := ℕ) (Val := Elt F) spec0 c
  q _ := fullShare
  owed _ := O
  recorded _ := ↑W

/-- The input's staging buffer holds the fetched features when the body runs. -/
theorem prepDat_before_in (c : Dev nD) (dd : (cfg0.win 0).block.Idx → Elt F (cfg0.win 0).elt) :
    (prepDat (U := U) nf g1 g2 g3 O W c).before 0 t0_0 dd = prepStaged nf := by
  unfold Pipeline.Dat.before; rw [if_pos (by decide)]; rfl

/-- The write-back of a result window writes the whole array: it ends at what the body left staged. -/
theorem prepDat_arrAt1 (c : Dev nD) : (prepDat (U := U) nf g1 g2 g3 O W c).arrAt 1 cfg0.N = Spec.prepV2 nf := by
  show (prepDat (U := U) nf g1 g2 g3 O W c).arrAt 1 (0 + 1) = _
  unfold Pipeline.Dat.arrAt
  rw [dif_pos (by decide : 0 < cfg0.N), if_pos (flush0_1 _)]
  exact Memref.write_access_unit_zero_univ (Elt F) main_v8_0 (funext fun a => by fin_cases a; rfl) _ _ _

theorem prepDat_arrAt2 (c : Dev nD) : (prepDat (U := U) nf g1 g2 g3 O W c).arrAt 2 cfg0.N = Spec.prepPl nf := by
  show (prepDat (U := U) nf g1 g2 g3 O W c).arrAt 2 (0 + 1) = _
  unfold Pipeline.Dat.arrAt
  rw [dif_pos (by decide : 0 < cfg0.N), if_pos (flush0_2 _)]
  exact Memref.write_access_unit_zero_univ (Elt F) main_v8_1 (funext fun a => by fin_cases a; rfl) _ _ _

theorem prepDat_arrAt3 (c : Dev nD) : (prepDat (U := U) nf g1 g2 g3 O W c).arrAt 3 cfg0.N = Spec.prepQl nf := by
  show (prepDat (U := U) nf g1 g2 g3 O W c).arrAt 3 (0 + 1) = _
  unfold Pipeline.Dat.arrAt
  rw [dif_pos (by decide : 0 < cfg0.N), if_pos (flush0_3 _)]
  exact Memref.write_access_unit_zero_univ (Elt F) main_v8_2 (funext fun a => by fin_cases a; rfl) _ _ _

/-- The features' array is only read. -/
theorem prepDat_arrAt0 (c : Dev nD) : (prepDat (U := U) nf g1 g2 g3 O W c).arrAt 0 cfg0.N = nf :=
  (prepDat (U := U) nf g1 g2 g3 O W c).arrAt_in 0 rfl _

omit [FloatOps F] in
theorem prep_owns_whole_eq (c : Dev nD) (b : Ref sig .tc) (X : b.ty.Contents (Elt F)) :
    (owns (Ix := HIx 1) (Name := ℕ) (U := U) (Lvl := ℕ) (c : Thread nD τ) (Memref.whole b) fullShare X : sProp 𝕄)
      = iprop(∃ f : Buf (Elt F) (((c : Dev nD) : Thread nD τ).loc b), ⌜f = X⌝ ∗ ((Memref.whole b).view.loc (c : Thread nD τ) ↦{fullShare} f)) := by
  unfold owns; simp only [Memref.view_whole, View.read_whole, View.set_whole]

/-- The library's body obligation on core `c`: the staging buffers taken apart, the body's run applied. -/
theorem prep_obligation (c : Dev nD) :
    Pipeline.BodyObligation (prepDat (U := U) nf g1 g2 g3 O W c) (defs₀ (F := F)) Variants.none none Set.univ := fun t => by
  obtain rfl := fin_N0 t
  rw [bigSep_W0, bigSep_W0]
  simp only [prep_owns_whole_eq]
  rw [show (prepDat (U := U) nf g1 g2 g3 O W c).Φ t0_0.castSucc = (prepDat (U := U) nf g1 g2 g3 O W c).Φ t0_0.succ from rfl,
    show (prepDat (U := U) nf g1 g2 g3 O W c).owesAt none t0_0.succ = (prepDat (U := U) nf g1 g2 g3 O W c).owesAt none t0_0.castSucc from rfl]
  iintro ⟨HΦ, HO, ⟨%d0, %f0, %hf0, H0⟩, ⟨%d1, %f1, %hf1, H1⟩, ⟨%d2, %f2, %hf2, H2⟩, ⟨%d3, %f3, %hf3, H3⟩⟩
  rw [prepDat_before_in, prepStaged_eq] at hf0
  have hf0' := hf0.symm
  subst hf0'
  iapply (prep_body (U := U) c nf f1 f2 f3 _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists _; isplitr; swap; (· iexact H0); ipureintro; dsimp only [prepDat]; exact (prepStaged_eq nf).symm
  isplitl [H1]
  · iexists _; isplitr; swap; (· iexact H1); ipureintro; dsimp only [prepDat]
  isplitl [H2]
  · iexists _; isplitr; swap; (· iexact H2); ipureintro; dsimp only [prepDat]
  iexists _; isplitr; swap; (· iexact H3); ipureintro; dsimp only [prepDat]

/-! ## The region -/

/-- Proof data for the pipeline this module does not enter: never consulted. -/
def prepIdleDat [∀ e, Nonempty (Elt F e)] (c : Dev nD) : Pipeline.Dat τ (Elt F) (HIx 1) ℕ U ℕ cfg2 c where
  A _ := fun _ => Classical.arbitrary _
  after _ _ := fun _ => Classical.arbitrary _
  Φ _ := iprop(emp)
  q _ := fullShare
  owed _ := 0

/-- The two pipelines' proof data, as the region rule is stated over them: the preparation call's, and nothing of the other's. -/
def prepDats [∀ e, Nonempty (Elt F e)] :
    (p : Fin 2) → (c : Dev nD) → Pipeline.Dat τ (Elt F) (HIx 1) ℕ U ℕ (Pipeline.pin (pcfgs (F := F)) prepAdm p) c
  | 0 => prepDat nf g1 g2 g3 O W
  | 1 => prepIdleDat

/-- A buffer of the TensorCore of `c` held whole. -/
abbrev prepTcPt (c : Dev nD) (b : Ref sig .tc) (f : b.ty.Contents (Elt F)) : sProp 𝕄 := ((SparseCore.T c : Thread nD τ).loc b) ↦{fullShare} f

/-- The region's arrays at contents `Fa` are the four buffers held. -/
theorem prep_arrays_eq [∀ e, Nonempty (Elt F e)] (c : Dev nD) (Fa) :
    ((prepDats (U := U) nf g1 g2 g3 O W 0 c).arrays Fa : sProp 𝕄)
      = iprop(prepTcPt c main_arg0 (Fa 0) ∗ prepTcPt c main_v8_0 (Fa 1) ∗ prepTcPt c main_v8_1 (Fa 2) ∗ prepTcPt c main_v8_2 (Fa 3)) := by
  rw [Pipeline.arrays_eq (Pipeline.pin (pcfgs (F := F)) prepAdm) (prepDats (U := U) nf g1 g2 g3 O W) 0 c launch0.arr_whole
    ((prepDats (U := U) nf g1 g2 g3 O W 0 c).share_full fun _ => rfl) Fa, bigSep_W0]
  rfl

theorem prepDats_Φ [∀ e, Nonempty (Elt F e)] (c : Dev nD) (t : Fin ((Pipeline.pin (pcfgs (F := F)) prepAdm 0).N + 1)) :
    (prepDats (U := U) nf g1 g2 g3 O W 0 c).Φ t
      = Pipeline.scopedRest (Ix := HIx 1) (Name := ℕ) (U := U) (Lvl := ℕ) (Val := Elt F) (Pipeline.pin (pcfgs (F := F)) prepAdm 0).spec c := rfl

theorem prepDats_arrAt0 [∀ e, Nonempty (Elt F e)] (c : Dev nD) :
    (prepDats (U := U) nf g1 g2 g3 O W 0 c).arrAt 0 (Pipeline.pin (pcfgs (F := F)) prepAdm 0).N = nf := prepDat_arrAt0 nf g1 g2 g3 O W c
theorem prepDats_arrAt1 [∀ e, Nonempty (Elt F e)] (c : Dev nD) :
    (prepDats (U := U) nf g1 g2 g3 O W 0 c).arrAt 1 (Pipeline.pin (pcfgs (F := F)) prepAdm 0).N = Spec.prepV2 nf := prepDat_arrAt1 nf g1 g2 g3 O W c
theorem prepDats_arrAt2 [∀ e, Nonempty (Elt F e)] (c : Dev nD) :
    (prepDats (U := U) nf g1 g2 g3 O W 0 c).arrAt 2 (Pipeline.pin (pcfgs (F := F)) prepAdm 0).N = Spec.prepPl nf := prepDat_arrAt2 nf g1 g2 g3 O W c
theorem prepDats_arrAt3 [∀ e, Nonempty (Elt F e)] (c : Dev nD) :
    (prepDats (U := U) nf g1 g2 g3 O W 0 c).arrAt 3 (Pipeline.pin (pcfgs (F := F)) prepAdm 0).N = Spec.prepQl nf := prepDat_arrAt3 nf g1 g2 g3 O W c

variable (lv : GSem nD τ sig → HIx 1 → ℕ)

/-- What the region leaves of the core's debts: the same tallies, the recorded pairs grown by the region's own waits,
    which sit at the index no handshake unit carries. -/
abbrev prepOwesAfter (c : Dev nD) : sProp 𝕄 :=
  iprop(∃ W' : Waits sig (HIx 1), ⌜∀ p ∈ W', p ∈ W ∨ p.2 = none⌝ ∗ owes (SparseCore.T c : Thread nD τ) O W')

/-- THE REGION as the library's record: the four arrays into the pipeline, nothing beside them; the core owing `O`
    throughout, its staging waits at the index `none`. -/
def prepSeg [∀ e, Nonempty (Elt F e)] (hlv : (K (F := F)).Refines lv) (hO : ∀ g, O g none = 0) :
    Pipeline.RegionSeg (pcfgs (F := F)) prepAdm (prepDats (U := U) nf g1 g2 g3 O W) none defs₀ 𝒱₀ (K (F := F)).L lv 0 where
  win := launch0.win.to₀
  block_pos := launch0.block_pos
  stage_whole := launch0.stage_whole
  K := PEmpty
  osem k := k.elim
  ho := Pipeline.OwnSemFacts.none _
  hbody c := (prep_obligation nf g1 g2 g3 O W c).loose
  hwaits c := Pipeline.cellsWaits_intro _ (prepDats (U := U) nf g1 g2 g3 O W) none 0 c fun w s t =>
    (K (F := F)).mayWait_none _ hO lv hlv
  pre c := iprop(prepTcPt c main_arg0 nf ∗ prepTcPt c main_v8_0 g1 ∗ prepTcPt c main_v8_1 g2 ∗ prepTcPt c main_v8_2 g3
    ∗ owes (SparseCore.T c : Thread nD τ) O W)
  post c := iprop(prepTcPt c main_arg0 nf ∗ prepTcPt c main_v8_0 (Spec.prepV2 nf) ∗ prepTcPt c main_v8_1 (Spec.prepPl nf)
    ∗ prepTcPt c main_v8_2 (Spec.prepQl nf) ∗ prepOwesAfter O W c)
  X _ := iprop(emp)
  Y _ := iprop(emp)
  Z _ := iprop(emp)
  hentry c := by
    rw [Pipeline.ownSems0_none, prep_arrays_eq]
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr <;> iempintro
  hin c := by
    rw [prepDats_Φ]
    iintro ⟨-, -, H⟩; iexact H
  hout c := by
    rw [Pipeline.ownSems0_none, prepDats_Φ]
    iintro H; isplitr; · iempintro
    isplitr; · iempintro
    iexact H
  hexit c := by
    rw [prep_arrays_eq]
    rw [prepDats_arrAt0, prepDats_arrAt1, prepDats_arrAt2, prepDats_arrAt3]
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W', %hW', HO⟩
    iexists W'; isplitr
    · ipureintro; intro p hp
      rcases hW' (Finset.mem_coe.mpr hp) with h | ⟨w, s, rfl⟩
      · exact Or.inl (Finset.mem_coe.mp h)
      · exact Or.inr rfl
    iexact HO

/-! ## The region's rule -/

theorem prepSeg_pre [∀ e, Nonempty (Elt F e)] (hlv : (K (F := F)).Refines lv) (hO : ∀ g, O g none = 0) (c : Dev nD) :
    (prepSeg (U := U) nf g1 g2 g3 O W lv hlv hO).pre c
      = iprop(prepTcPt c main_arg0 nf ∗ prepTcPt c main_v8_0 g1 ∗ prepTcPt c main_v8_1 g2 ∗ prepTcPt c main_v8_2 g3
          ∗ owes (SparseCore.T c : Thread nD τ) O W) := rfl

theorem prepSeg_post [∀ e, Nonempty (Elt F e)] (hlv : (K (F := F)).Refines lv) (hO : ∀ g, O g none = 0) (c : Dev nD) :
    (prepSeg (U := U) nf g1 g2 g3 O W lv hlv hO).post c
      = iprop(prepTcPt c main_arg0 nf ∗ prepTcPt c main_v8_0 (Spec.prepV2 nf) ∗ prepTcPt c main_v8_1 (Spec.prepPl nf)
          ∗ prepTcPt c main_v8_2 (Spec.prepQl nf) ∗ prepOwesAfter O W c) := rfl

/-- The call in the certificate's signature, lifted to the launch's. -/
theorem prep_lift_eq : (SparseCore.liftProg (Q := 1) (Prog.lift (.customCall (Pipeline.entry 0) ()) : Prog (TpuEff nD τ sig (Elt F) (ΛP (F := F)) .tc) PUnit))
    = Prog.lift (.customCall (SparseCore.inner (Pipeline.entry 0)) ()) := rfl

set_option backward.isDefEq.respectTransparency.types false in
/-- A proof about the call under the certificate's body table is a proof about it under the launch's. -/
theorem prep_lift_call (d : Dev nD) (Φ : PUnit → sProp 𝕄) :
    wp frame (wpE (D (F := F)) 𝒱 (SparseCore.T d) none) Set.univ (Prog.lift (.customCall (Pipeline.entry 0) ())) Φ
      ⊢ wp frame (wpE ((K (F := F)).defs (D (F := F))) 𝒱 (SparseCore.T d) none) Set.univ
          (Prog.lift (.customCall (SparseCore.inner (Pipeline.entry 0)) ())) Φ := by
  rw [← prep_lift_eq]
  exact (K (F := F)).wp_liftProg (D (F := F)) 𝒱 (SparseCore.T d) Set.univ none _ Φ

/-- THE REGION under the certificate's body table: from the boundary, the pipeline's launch ghost state, the core's
    debts and the four arrays, the call runs to the boundary, the debts as the region leaves them and the arrays
    at the padded vectors. -/
theorem prep_region_D [∀ e, Nonempty (Elt F e)] (EP : Emb (UR sig nD τ) 𝕄) [EP.LandsIn (upEmb : UEmb _ 𝕄)]
    (hlv : (K (F := F)).Refines lv) (hO : ∀ g, O g none = 0) (d : Dev nD) (Φ : PUnit → sProp 𝕄) :
    iprop(levAts (K (F := F)).L lv ∗ boundary (SparseCore.T d : Thread nD τ)
        ∗ Pipeline.cellsGhost (Pipeline.pin (pcfgs (F := F)) prepAdm) EP 0 d ∗ Pipeline.toksInit (Pipeline.pin (pcfgs (F := F)) prepAdm) EP 0 d
        ∗ owes (SparseCore.T d : Thread nD τ) O W
        ∗ prepTcPt d main_arg0 nf ∗ prepTcPt d main_v8_0 g1 ∗ prepTcPt d main_v8_1 g2 ∗ prepTcPt d main_v8_2 g3
        ∗ (iprop(boundary (SparseCore.T d : Thread nD τ) ∗ prepOwesAfter O W d
            ∗ prepTcPt d main_arg0 nf ∗ prepTcPt d main_v8_0 (Spec.prepV2 nf) ∗ prepTcPt d main_v8_1 (Spec.prepPl nf) ∗ prepTcPt d main_v8_2 (Spec.prepQl nf)) -∗ Φ ⟨⟩))
      ⊢ wp frame (wpE (D (F := F)) 𝒱 (SparseCore.T d) none) Set.univ (Prog.lift (.customCall (Pipeline.entry 0) ())) Φ := by
  iintro ⟨#Hla, Hb, Hg, Ht, HO, H0, H1, H2, H3, Hk⟩
  iapply (Pipeline.RegionSeg.wp (pcfgs (F := F)) prepAdm (prepDats (U := U) nf g1 g2 g3 O W) none cellOf_inj EP defs₀ 𝒱₀ (K (F := F)).L lv
    (prepSeg nf g1 g2 g3 O W lv hlv hO) d none (fun _ h => nomatch h) (fun x => .ret x) Φ)
  rw [prepSeg_pre, prepSeg_post]
  isplitl [Hk]
  · iintro ⟨Hb, H0, H1, H2, H3, HO⟩
    rw [wp_ret]; imodintro
    iapply Hk
    isplitl [Hb]; · iexact Hb
    isplitl [HO]; · iexact HO
    isplitl [H0]; · iexact H0
    isplitl [H1]; · iexact H1
    isplitl [H2]; · iexact H2
    iexact H3
  isplitl [Hb]; · iexact Hb
  isplitl [H0 H1 H2 H3 HO]
  · isplitl [H0]; · iexact H0
    isplitl [H1]; · iexact H1
    isplitl [H2]; · iexact H2
    isplitl [H3]; · iexact H3
    iexact HO
  isplitr; · iexact Hla
  isplitl [Hg]; · iexact Hg
  iexact Ht

/-- The same under the launch's body table, as @main spells the call. -/
theorem prep_region_core [∀ e, Nonempty (Elt F e)] (EP : Emb (UR sig nD τ) 𝕄) [EP.LandsIn (upEmb : UEmb _ 𝕄)]
    (hlv : (K (F := F)).Refines lv) (hO : ∀ g, O g none = 0) (d : Dev nD) (Φ : PUnit → sProp 𝕄) :
    iprop(levAts (K (F := F)).L lv ∗ boundary (SparseCore.T d : Thread nD τ)
        ∗ Pipeline.cellsGhost (Pipeline.pin (pcfgs (F := F)) prepAdm) EP 0 d ∗ Pipeline.toksInit (Pipeline.pin (pcfgs (F := F)) prepAdm) EP 0 d
        ∗ owes (SparseCore.T d : Thread nD τ) O W
        ∗ prepTcPt d main_arg0 nf ∗ prepTcPt d main_v8_0 g1 ∗ prepTcPt d main_v8_1 g2 ∗ prepTcPt d main_v8_2 g3
        ∗ (iprop(boundary (SparseCore.T d : Thread nD τ) ∗ prepOwesAfter O W d
            ∗ prepTcPt d main_arg0 nf ∗ prepTcPt d main_v8_0 (Spec.prepV2 nf) ∗ prepTcPt d main_v8_1 (Spec.prepPl nf) ∗ prepTcPt d main_v8_2 (Spec.prepQl nf)) -∗ Φ ⟨⟩))
      ⊢ wp frame (wpE ((K (F := F)).defs (D (F := F))) 𝒱 (SparseCore.T d) none) Set.univ
          (Prog.lift (.customCall (SparseCore.inner (Pipeline.entry 0)) ())) Φ :=
  (prep_region_D nf g1 g2 g3 O W lv EP hlv hO d Φ).trans (prep_lift_call d Φ)

/-! ## The region in @main's own terms -/

section AtLaunch

variable (m : (ℓ : Loc nD τ sig) → Buf (Elt F) ℓ)

local notation "𝕌" => MT nD τ sig (HIx 1) (Elt F) ℕ UU ℕ

/-- No handshake unit the TensorCore owes sits at the index the region's waits use. -/
theorem prep_Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- THE PREPARATION CALL in @main on device `d`'s TensorCore, before SparseCore call `n`: from the handshake state, the
    region boundary, pipeline 0's launch ghost state, the features at their launch contents and the three result
    arrays at anything, the call runs to the same handshake state and boundary, the features unchanged and the
    results at the padded vectors of the features. -/
theorem prep_region [∀ e, Nonempty (Elt F e)] (κ : GSem nD τ sig → ℕ) (d : Dev nD) (n : ℕ) (Φ : PUnit → sProp 𝕌) (f1 f2 f3 : FVec F S10240 .f32) :
    iprop((K (F := F)).ctx EH (P m) κ ∗ (K (F := F)).tcSt EH d n ∗ boundary (SparseCore.T d : Thread nD τ)
        ∗ iprop(Pipeline.cellsGhost cfgs EP 0 d ∗ Pipeline.toksInit cfgs EP 0 d)
        ∗ (nfLoc d ↦{fullShare} m (nfLoc d)) ∗ (v2Loc d ↦{fullShare} f1) ∗ (plLoc d ↦{fullShare} f2) ∗ (qlLoc d ↦{fullShare} f3)
        ∗ (((K (F := F)).tcSt EH d n ∗ boundary (SparseCore.T d : Thread nD τ) ∗ iprop(emp)
            ∗ (nfLoc d ↦{fullShare} m (nfLoc d)) ∗ (v2Loc d ↦{fullShare} tabA m d)
            ∗ (plLoc d ↦{fullShare} Spec.prepPl (nfA m d)) ∗ (qlLoc d ↦{fullShare} Spec.prepQl (nfA m d))) -∗ Φ ⟨⟩))
      ⊢ wp frame (wpE ((K (F := F)).defs (D (F := F))) 𝒱 (SparseCore.T d) none) Set.univ
          (Prog.lift (.customCall (SparseCore.inner (Pipeline.entry 0)) ())) Φ := by
  unfold SparseCore.Cfg.tcSt
  iintro ⟨#Hctx, ⟨⟨%W, %hW, HO⟩, Hrest⟩, Hb, ⟨Hg, Ht⟩, H0, H1, H2, H3, Hk⟩
  ihave Hlev := (SparseCore.Cfg.ctx_levAts κ) $$ Hctx
  iapply (prep_region_core (U := UU) (nfA m d) f1 f2 f3 ((K (F := F)).Otc d n) W (K (F := F)).lev EP
    ((K (F := F)).refines_self) (prep_Otc_none d n) d Φ)
  isplitr; · iexact Hlev
  isplitl [Hb]; · iexact Hb
  isplitl [Hg]; · iexact Hg
  isplitl [Ht]; · iexact Ht
  isplitl [HO]; · iexact HO
  isplitl [H0]; · iexact H0
  isplitl [H1]; · iexact H1
  isplitl [H2]; · iexact H2
  isplitl [H3]; · iexact H3
  iintro ⟨Hb, ⟨%W', %hW', HO⟩, H0, H1, H2, H3⟩
  iapply Hk
  isplitl [HO Hrest]
  · isplitl [HO]
    · iexists W'; isplitr
      · ipureintro; intro p hp
        rcases hW' p hp with h | h
        · exact hW p h
        · rw [h, SparseCore.Cfg.lev_none]; exact Nat.zero_le _
      iexact HO
    iexact Hrest
  isplitl [Hb]; · iexact Hb
  isplitr; · iempintro
  isplitl [H0]; · iexact H0
  isplitl [H1]; · iexact H1
  isplitl [H2]; · iexact H2
  iexact H3

end AtLaunch

end Cert.Proof.K

end
-- ==== Proof.K.LossBody.lean ====
/-
  The second TensorCore call's kernel body, run once: from the five staged inputs (the two 32 × 10240
  partial-flow arrays, the squared voltages and the two loads) and the 1 × 1 result staging buffer at any
  contents, the body loads the five inputs whole, computes one scalar from them (the sum of the 32 rows of
  each partial-flow array added to the loads and squared, the two voltage-limit penalties squared, masked to
  the first 10000 nodes, summed, divided by 10000: the printed payload) and stores it into the result
  buffer's one element; the inputs are left as they were.

  Then the call's proof data for the pipeline rule: every window is the whole array, fetched (the five
  inputs) or written back (the result) at the single point, so each input's staging buffer holds the array
  when the body runs and the result's array ends at the scalar.
-/
import proofs.«213808_g38010460570139_cont_8to1_b_868_22_alg».proof.Proof.Gen.Kernel.Skeleton
import proofs.«213808_g38010460570139_cont_8to1_b_868_22_alg».proof.Proof.Gen.Kernel.Launch
import proofs.«213808_g38010460570139_cont_8to1_b_868_22_alg».proof.Proof.Gen.Kernel.Points
import Idealize.ShloMosaic.Lib.SparseCore.Launch
import Idealize.ShloMosaic.Lib.Pipeline.Kit
import Idealize.ShloMosaic.Lib.Tactic

noncomputable section

namespace Cert.Proof.K

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
variable {U : Type} [URA U]

local notation "𝕄" => MT nD τ sig (HIx 1) (Elt F) ℕ U ℕ

/-! ## The body, run once -/

/-- A TensorCore buffer of core `c` held whole at `f`, spelt through the whole-buffer memref. -/
abbrev tpt (c : Dev nD) (b : Ref sig .tc) (f : Buf (Elt F) ((c : Thread nD τ).loc b)) : sProp 𝕄 :=
  (Memref.whole b).view.loc (c : Thread nD τ) ↦{fullShare} f

theorem off2_zero : (![0, 0] : Fin 2 → Nat) = fun _ => 0 := by funext a; fin_cases a <;> rfl
theorem off1_zero : (![0] : Fin 1 → Nat) = fun _ => 0 := by funext a; fin_cases a; rfl

/-- The scalar the body stores: the printed payload of the five staged inputs. -/
abbrev lossVal (f0 f1 : Vec F S32x10240 .f32) (f2 f3 f4 : Vec F S10240 .f32) : Vec F S1x1 .f32 := fun _ => k2_pay1 f0 f1 f2 f3 f4

/-- The body on the six staging buffers: the five inputs are read and kept, the result buffer ends at the payload. -/
theorem loss_kernel (c : Dev nD)
    (f0 f1 : Vec F S32x10240 .f32) (f2 f3 f4 : Vec F S10240 .f32) (f5 : Vec F S1x1 .f32) (Q : PUnit → sProp 𝕄) :
    iprop(tpt c cc2_stg0_0 f0 ∗ tpt c cc2_stg1_0 f1 ∗ tpt c cc2_stg2_0 f2 ∗ tpt c cc2_stg3_0 f3 ∗ tpt c cc2_stg4_0 f4 ∗ tpt c cc2_stg5_0 f5
      ∗ (iprop(tpt c cc2_stg0_0 f0 ∗ tpt c cc2_stg1_0 f1 ∗ tpt c cc2_stg2_0 f2 ∗ tpt c cc2_stg3_0 f3 ∗ tpt c cc2_stg4_0 f4
            ∗ tpt c cc2_stg5_0 (lossVal f0 f1 f2 f3 f4)) -∗ Q ⟨⟩))
    ⊢ wp frame (wpE (defs₀ (F := F)) Variants.none c none) Set.univ
        (cc2__tc_loss_body (Memref.whole cc2_stg0_0) (hstage2_0 0) (Memref.whole cc2_stg1_0) (hstage2_1 0) (Memref.whole cc2_stg2_0) (hstage2_2 0)
          (Memref.whole cc2_stg3_0) (hstage2_3 0) (Memref.whole cc2_stg4_0) (hstage2_4 0) (Memref.whole cc2_stg5_0) (hstage2_5 0)) Q := by
  iintro ⟨H0, H1, H2, H3, H4, H5, Hk⟩
  sl_unfold [cc2__tc_loss_body]
  sl_exec
  sl_step
  -- each whole load reads the buffer's contents
  have e0 : View.readAt (Elt F) (Memref.whole cc2_stg0_0).view (Rect.unit ![0, 0] S32x10240.size inb_S32x10240_S32x10240_0_0).toLoadRect f0 = f0 :=
    Memref.readAt_unit_zero (Elt F) cc2_stg0_0 off2_zero _ f0
  have e1 : View.readAt (Elt F) (Memref.whole cc2_stg1_0).view (Rect.unit ![0, 0] S32x10240.size inb_S32x10240_S32x10240_0_0).toLoadRect f1 = f1 :=
    Memref.readAt_unit_zero (Elt F) cc2_stg1_0 off2_zero _ f1
  have e2 : View.readAt (Elt F) (Memref.whole cc2_stg2_0).view (Rect.unit ![0] S10240.size inb_S10240_S10240_0).toLoadRect f2 = f2 :=
    Memref.readAt_unit_zero (Elt F) cc2_stg2_0 off1_zero _ f2
  have e3 : View.readAt (Elt F) (Memref.whole cc2_stg3_0).view (Rect.unit ![0] S10240.size inb_S10240_S10240_0).toLoadRect f3 = f3 :=
    Memref.readAt_unit_zero (Elt F) cc2_stg3_0 off1_zero _ f3
  have e4 : View.readAt (Elt F) (Memref.whole cc2_stg4_0).view (Rect.unit ![0] S10240.size inb_S10240_S10240_0).toLoadRect f4 = f4 :=
    Memref.readAt_unit_zero (Elt F) cc2_stg4_0 off1_zero _ f4
  have hr : loss_kernel.sl.r f0 f1 f2 f3 f4 = k2_pay1 f0 f1 f2 f3 f4 := by
    unfold loss_kernel.sl.r; rw [e0, e1, e2, e3, e4]
  -- the one store covers the 1 × 1 buffer
  have h5 : (Memref.whole cc2_stg5_0).view.writes (Elt F) f5
      [⟨Rect.unit ![0, 0] S1x1.size inb_S1x1_S1x1_0_0, fun _ => loss_kernel.sl.r f0 f1 f2 f3 f4⟩] = lossVal f0 f1 f2 f3 f4 := by
    rw [View.writes_singleton, hr]
    exact Memref.write_access_unit_zero_univ (Elt F) cc2_stg5_0 off2_zero _ f5 _
  iapply Hk
  isplitl [H0]; · iexact H0
  isplitl [H1]; · iexact H1
  isplitl [H2]; · iexact H2
  isplitl [H3]; · iexact H3
  isplitl [H4]; · iexact H4
  rw [← h5]
  iexact H5

/-! ## The call's proof data -/

/-- The proof data of the loss call on core `c`: the six arrays at their entry contents (the five inputs, the
    result's array at whatever it holds); after the body each input's staging buffer as fetched and the result's at
    the payload; the invariant the scoped buffers no window stages; the full share; the core owing `O` throughout,
    its recorded pairs within `B`. -/
def lossDat (f0 f1 : Vec F S32x10240 .f32) (f2 f3 f4 : Vec F S10240 .f32) (f5 : Vec F S1x1 .f32)
    (O : CellTallies nD τ sig (HIx 1)) (B : Set (SemLoc sig × HIx 1)) (c : Dev nD) : Dat τ (Elt F) (HIx 1) ℕ U ℕ cfg2 c where
  A w := match w with | ⟨0, _⟩ => f0 | ⟨1, _⟩ => f1 | ⟨2, _⟩ => f2 | ⟨3, _⟩ => f3 | ⟨4, _⟩ => f4 | ⟨5, _⟩ => f5
  after w _ := match w with | ⟨0, _⟩ => f0 | ⟨1, _⟩ => f1 | ⟨2, _⟩ => f2 | ⟨3, _⟩ => f3 | ⟨4, _⟩ => f4 | ⟨5, _⟩ => lossVal f0 f1 f2 f3 f4
  Φ _ := Pipeline.scopedRest (Ix := HIx 1) (Name := ℕ) (U := U) (Lvl := ℕ) (Val := Elt F) spec2 c
  q _ := fullShare
  owed _ := O
  recorded _ := B

section Data

variable (f0 f1 : Vec F S32x10240 .f32) (f2 f3 f4 : Vec F S10240 .f32) (f5 : Vec F S1x1 .f32)
  (O : CellTallies nD τ sig (HIx 1)) (B : Set (SemLoc sig × HIx 1))

/-- Each input's staging buffer holds the whole array when the body runs; the result's whatever it held. -/
theorem before_0 (c : Dev nD) (d : (cfg2.win 0).block.Idx → Elt F (cfg2.win 0).elt) :
    (lossDat (U := U) f0 f1 f2 f3 f4 f5 O B c).before 0 t2_0 d = f0 := by
  unfold Dat.before; rw [if_pos (fetch2_0 _)]
  show ((cfg2.win 0).blk t2_0).view.read (Elt F) f0 = f0
  exact Memref.read_access_unit_zero (Elt F) main_v9_0 (funext fun a => Nat.zero_mul _) _ f0
theorem before_1 (c : Dev nD) (d : (cfg2.win 1).block.Idx → Elt F (cfg2.win 1).elt) :
    (lossDat (U := U) f0 f1 f2 f3 f4 f5 O B c).before 1 t2_0 d = f1 := by
  unfold Dat.before; rw [if_pos (fetch2_1 _)]
  show ((cfg2.win 1).blk t2_0).view.read (Elt F) f1 = f1
  exact Memref.read_access_unit_zero (Elt F) main_v9_1 (funext fun a => Nat.zero_mul _) _ f1
theorem before_2 (c : Dev nD) (d : (cfg2.win 2).block.Idx → Elt F (cfg2.win 2).elt) :
    (lossDat (U := U) f0 f1 f2 f3 f4 f5 O B c).before 2 t2_0 d = f2 := by
  unfold Dat.before; rw [if_pos (fetch2_2 _)]
  show ((cfg2.win 2).blk t2_0).view.read (Elt F) f2 = f2
  exact Memref.read_access_unit_zero (Elt F) main_v8_0 (funext fun a => Nat.zero_mul _) _ f2
theorem before_3 (c : Dev nD) (d : (cfg2.win 3).block.Idx → Elt F (cfg2.win 3).elt) :
    (lossDat (U := U) f0 f1 f2 f3 f4 f5 O B c).before 3 t2_0 d = f3 := by
  unfold Dat.before; rw [if_pos (fetch2_3 _)]
  show ((cfg2.win 3).blk t2_0).view.read (Elt F) f3 = f3
  exact Memref.read_access_unit_zero (Elt F) main_v8_1 (funext fun a => Nat.zero_mul _) _ f3
theorem before_4 (c : Dev nD) (d : (cfg2.win 4).block.Idx → Elt F (cfg2.win 4).elt) :
    (lossDat (U := U) f0 f1 f2 f3 f4 f5 O B c).before 4 t2_0 d = f4 := by
  unfold Dat.before; rw [if_pos (fetch2_4 _)]
  show ((cfg2.win 4).blk t2_0).view.read (Elt F) f4 = f4
  exact Memref.read_access_unit_zero (Elt F) main_v8_2 (funext fun a => Nat.zero_mul _) _ f4
theorem before_5 (c : Dev nD) (d : (cfg2.win 5).block.Idx → Elt F (cfg2.win 5).elt) :
    (lossDat (U := U) f0 f1 f2 f3 f4 f5 O B c).before 5 t2_0 d = d := by
  unfold Dat.before; rw [if_neg (by decide)]; exact if_pos rfl

/-- The body obligation of the loss call. -/
theorem loss_body (c : Dev nD) :
    BodyObligation (lossDat (U := U) f0 f1 f2 f3 f4 f5 O B c) (defs₀ (F := F)) Variants.none none Set.univ := fun t => by
  obtain rfl := fin_N2 t
  rw [bigSep_W2, bigSep_W2]
  simp only [owns_whole_eq]
  rw [show (lossDat (U := U) f0 f1 f2 f3 f4 f5 O B c).Φ t2_0.castSucc = (lossDat (U := U) f0 f1 f2 f3 f4 f5 O B c).Φ t2_0.succ from rfl]
  unfold Dat.owesAt Pipeline.owesWithin
  iintro ⟨HΦ, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_0] at h0; rw [before_1] at h1; rw [before_2] at h2; rw [before_3] at h3; rw [before_4] at h4
  subst h0 h1 h2 h3 h4
  iapply (loss_kernel c g0 g1 g2 g3 g4 g5)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]
  · iexists W; isplitr; · ipureintro; exact hW
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

end Data

end Cert.Proof.K

end
-- ==== Proof.K.LossRegionF.lean ====
/-
  The loss call as a region of @main on the TensorCore.

  The region is the library's pipeline over six whole-array windows and one grid point: the two partial-flow
  arrays, the squared voltages and the two loads are fetched whole into their staging buffers, the body runs
  once, and the 1 x 1 result is written back. Its proof data name the arrays' contents at entry and what the
  body leaves staged, hence what the write-back leaves in the result array: the printed scalar of the five
  inputs. The TensorCore owes its handshake units throughout; the region's own waits sit at the index that
  carries no such unit.
-/
import proofs.«213808_g38010460570139_cont_8to1_b_868_22_alg».proof.Proof.K.LossBody
import proofs.«213808_g38010460570139_cont_8to1_b_868_22_alg».proof.Proof.K.Common
import Idealize.ShloMosaic.Lib.Pipeline.Regions

noncomputable section

namespace Cert.Proof.K

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U]

local notation "𝕄" => MT nD τ sig (HIx 1) (Elt F) ℕ U ℕ

/-- Neither pallas_call prefetches a table: the one admissible contents. -/
abbrev lossFAdm : (p : Fin 2) → (pcfgs (F := F) p).Adm := fun p => (cfgs p).toPCfg_adm

variable (f0 f1 : Vec F S32x10240 .f32) (f2 f3 f4 : Vec F S10240 .f32) (f5 : Vec F S1x1 .f32)
  (O : CellTallies nD τ sig (HIx 1)) (W : Waits sig (HIx 1))

/-! ## The arrays at the region's exit -/

theorem lossF_arrAt0 (c : Dev nD) : (lossDat (U := U) f0 f1 f2 f3 f4 f5 O ↑W c).arrAt 0 cfg2.N = f0 :=
  (lossDat (U := U) f0 f1 f2 f3 f4 f5 O ↑W c).arrAt_in 0 rfl _
theorem lossF_arrAt1 (c : Dev nD) : (lossDat (U := U) f0 f1 f2 f3 f4 f5 O ↑W c).arrAt 1 cfg2.N = f1 :=
  (lossDat (U := U) f0 f1 f2 f3 f4 f5 O ↑W c).arrAt_in 1 rfl _
theorem lossF_arrAt2 (c : Dev nD) : (lossDat (U := U) f0 f1 f2 f3 f4 f5 O ↑W c).arrAt 2 cfg2.N = f2 :=
  (lossDat (U := U) f0 f1 f2 f3 f4 f5 O ↑W c).arrAt_in 2 rfl _
theorem lossF_arrAt3 (c : Dev nD) : (lossDat (U := U) f0 f1 f2 f3 f4 f5 O ↑W c).arrAt 3 cfg2.N = f3 :=
  (lossDat (U := U) f0 f1 f2 f3 f4 f5 O ↑W c).arrAt_in 3 rfl _
theorem lossF_arrAt4 (c : Dev nD) : (lossDat (U := U) f0 f1 f2 f3 f4 f5 O ↑W c).arrAt 4 cfg2.N = f4 :=
  (lossDat (U := U) f0 f1 f2 f3 f4 f5 O ↑W c).arrAt_in 4 rfl _

/-- The write-back of the result window writes the whole 1 x 1 array: it ends at what the body left staged. -/
theorem lossF_arrAt5 (c : Dev nD) : (lossDat (U := U) f0 f1 f2 f3 f4 f5 O ↑W c).arrAt 5 cfg2.N = lossVal f0 f1 f2 f3 f4 := by
  show (lossDat (U := U) f0 f1 f2 f3 f4 f5 O ↑W c).arrAt 5 (0 + 1) = _
  unfold Pipeline.Dat.arrAt
  rw [dif_pos (by decide : 0 < cfg2.N), if_pos (flush2_5 _)]
  exact Memref.write_access_unit_zero_univ (Elt F) main_v10 (funext fun a => by fin_cases a <;> rfl) _ _ _

/-! ## The region -/

/-- Proof data for the pipeline this module does not enter: never consulted. -/
def lossFIdleDat [∀ e, Nonempty (Elt F e)] (c : Dev nD) : Pipeline.Dat τ (Elt F) (HIx 1) ℕ U ℕ cfg0 c where
  A _ := fun _ => Classical.arbitrary _
  after _ _ := fun _ => Classical.arbitrary _
  Φ _ := iprop(emp)
  q _ := fullShare
  owed _ := 0

/-- The two pipelines' proof data, as the region rule is stated over them: nothing of the preparation call's, and the loss call's. -/
def lossFDats [∀ e, Nonempty (Elt F e)] :
    (p : Fin 2) → (c : Dev nD) → Pipeline.Dat τ (Elt F) (HIx 1) ℕ U ℕ (Pipeline.pin (pcfgs (F := F)) lossFAdm p) c
  | 0 => lossFIdleDat
  | 1 => lossDat f0 f1 f2 f3 f4 f5 O ↑W

/-- A buffer of the TensorCore of `c` held whole. -/
abbrev lossFPt (c : Dev nD) (b : Ref sig .tc) (f : b.ty.Contents (Elt F)) : sProp 𝕄 := ((SparseCore.T c : Thread nD τ).loc b) ↦{fullShare} f

/-- The region's arrays at contents `Fa` are the six buffers held. -/
theorem lossF_arrays_eq [∀ e, Nonempty (Elt F e)] (c : Dev nD) (Fa) :
    ((lossFDats (U := U) f0 f1 f2 f3 f4 f5 O W 1 c).arrays Fa : sProp 𝕄)
      = iprop(lossFPt c main_v9_0 (Fa 0) ∗ lossFPt c main_v9_1 (Fa 1) ∗ lossFPt c main_v8_0 (Fa 2) ∗ lossFPt c main_v8_1 (Fa 3)
          ∗ lossFPt c main_v8_2 (Fa 4) ∗ lossFPt c main_v10 (Fa 5)) := by
  rw [Pipeline.arrays_eq (Pipeline.pin (pcfgs (F := F)) lossFAdm) (lossFDats (U := U) f0 f1 f2 f3 f4 f5 O W) 1 c launch2.arr_whole
    ((lossFDats (U := U) f0 f1 f2 f3 f4 f5 O W 1 c).share_full fun _ => rfl) Fa, bigSep_W2]
  rfl

theorem lossFDats_Φ [∀ e, Nonempty (Elt F e)] (c : Dev nD) (t : Fin ((Pipeline.pin (pcfgs (F := F)) lossFAdm 1).N + 1)) :
    (lossFDats (U := U) f0 f1 f2 f3 f4 f5 O W 1 c).Φ t
      = Pipeline.scopedRest (Ix := HIx 1) (Name := ℕ) (U := U) (Lvl := ℕ) (Val := Elt F) spec2 c := rfl

theorem lossFDats_arrAt0 [∀ e, Nonempty (Elt F e)] (c : Dev nD) :
    (lossFDats (U := U) f0 f1 f2 f3 f4 f5 O W 1 c).arrAt 0 (Pipeline.pin (pcfgs (F := F)) lossFAdm 1).N = f0 := lossF_arrAt0 f0 f1 f2 f3 f4 f5 O W c
theorem lossFDats_arrAt1 [∀ e, Nonempty (Elt F e)] (c : Dev nD) :
    (lossFDats (U := U) f0 f1 f2 f3 f4 f5 O W 1 c).arrAt 1 (Pipeline.pin (pcfgs (F := F)) lossFAdm 1).N = f1 := lossF_arrAt1 f0 f1 f2 f3 f4 f5 O W c
theorem lossFDats_arrAt2 [∀ e, Nonempty (Elt F e)] (c : Dev nD) :
    (lossFDats (U := U) f0 f1 f2 f3 f4 f5 O W 1 c).arrAt 2 (Pipeline.pin (pcfgs (F := F)) lossFAdm 1).N = f2 := lossF_arrAt2 f0 f1 f2 f3 f4 f5 O W c
theorem lossFDats_arrAt3 [∀ e, Nonempty (Elt F e)] (c : Dev nD) :
    (lossFDats (U := U) f0 f1 f2 f3 f4 f5 O W 1 c).arrAt 3 (Pipeline.pin (pcfgs (F := F)) lossFAdm 1).N = f3 := lossF_arrAt3 f0 f1 f2 f3 f4 f5 O W c
theorem lossFDats_arrAt4 [∀ e, Nonempty (Elt F e)] (c : Dev nD) :
    (lossFDats (U := U) f0 f1 f2 f3 f4 f5 O W 1 c).arrAt 4 (Pipeline.pin (pcfgs (F := F)) lossFAdm 1).N = f4 := lossF_arrAt4 f0 f1 f2 f3 f4 f5 O W c
theorem lossFDats_arrAt5 [∀ e, Nonempty (Elt F e)] (c : Dev nD) :
    (lossFDats (U := U) f0 f1 f2 f3 f4 f5 O W 1 c).arrAt 5 (Pipeline.pin (pcfgs (F := F)) lossFAdm 1).N = lossVal f0 f1 f2 f3 f4 :=
  lossF_arrAt5 f0 f1 f2 f3 f4 f5 O W c

variable (lv : GSem nD τ sig → HIx 1 → ℕ)

/-- What the region leaves of the core's debts: the same tallies, the recorded pairs grown by the region's own waits,
    which sit at the index no handshake unit carries. -/
abbrev lossFOwesAfter (c : Dev nD) : sProp 𝕄 :=
  iprop(∃ W' : Waits sig (HIx 1), ⌜∀ p ∈ W', p ∈ W ∨ p.2 = none⌝ ∗ owes (SparseCore.T c : Thread nD τ) O W')

/-- THE REGION as the library's record: the six arrays into the pipeline, nothing beside them; the core owing `O`
    throughout, its staging waits at the index `none`. -/
def lossFSeg [∀ e, Nonempty (Elt F e)] (hlv : (K (F := F)).Refines lv) (hO : ∀ g, O g none = 0) :
    Pipeline.RegionSeg (pcfgs (F := F)) lossFAdm (lossFDats (U := U) f0 f1 f2 f3 f4 f5 O W) none defs₀ 𝒱₀ (K (F := F)).L lv 1 where
  win := launch2.win.to₀
  block_pos := launch2.block_pos
  stage_whole := launch2.stage_whole
  K := PEmpty
  osem k := k.elim
  ho := Pipeline.OwnSemFacts.none _
  hbody c := (loss_body f0 f1 f2 f3 f4 f5 O ↑W c).loose
  hwaits c := Pipeline.cellsWaits_intro _ (lossFDats (U := U) f0 f1 f2 f3 f4 f5 O W) none 1 c fun w s t =>
    (K (F := F)).mayWait_none _ hO lv hlv
  pre c := iprop(lossFPt c main_v9_0 f0 ∗ lossFPt c main_v9_1 f1 ∗ lossFPt c main_v8_0 f2 ∗ lossFPt c main_v8_1 f3
    ∗ lossFPt c main_v8_2 f4 ∗ lossFPt c main_v10 f5 ∗ owes (SparseCore.T c : Thread nD τ) O W)
  post c := iprop(lossFPt c main_v9_0 f0 ∗ lossFPt c main_v9_1 f1 ∗ lossFPt c main_v8_0 f2 ∗ lossFPt c main_v8_1 f3
    ∗ lossFPt c main_v8_2 f4 ∗ lossFPt c main_v10 (lossVal f0 f1 f2 f3 f4) ∗ lossFOwesAfter O W c)
  X _ := iprop(emp)
  Y _ := iprop(emp)
  Z _ := iprop(emp)
  hentry c := by
    rw [Pipeline.ownSems0_none, lossF_arrays_eq]
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr <;> iempintro
  hin c := by
    rw [lossFDats_Φ]
    iintro ⟨-, -, H⟩; iexact H
  hout c := by
    rw [Pipeline.ownSems0_none, lossFDats_Φ]
    iintro H; isplitr; · iempintro
    isplitr; · iempintro
    iexact H
  hexit c := by
    rw [lossF_arrays_eq]
    rw [lossFDats_arrAt0, lossFDats_arrAt1, lossFDats_arrAt2, lossFDats_arrAt3, lossFDats_arrAt4, lossFDats_arrAt5]
    iintro ⟨⟨H0, H1, H2, H3, H4, H5⟩, HO, -, -⟩
    imodintro
    isplitl [H0]; · iexact H0
    isplitl [H1]; · iexact H1
    isplitl [H2]; · iexact H2
    isplitl [H3]; · iexact H3
    isplitl [H4]; · iexact H4
    isplitl [H5]; · iexact H5
    unfold Pipeline.Dat.owesAt Pipeline.owesWithin
    icases HO with ⟨%W', %hW', HO⟩
    iexists W'; isplitr
    · ipureintro; intro p hp
      rcases hW' (Finset.mem_coe.mpr hp) with h | ⟨w, s, rfl⟩
      · exact Or.inl (Finset.mem_coe.mp h)
      · exact Or.inr rfl
    iexact HO

/-! ## The region's rule -/

theorem lossFSeg_pre [∀ e, Nonempty (Elt F e)] (hlv : (K (F := F)).Refines lv) (hO : ∀ g, O g none = 0) (c : Dev nD) :
    (lossFSeg (U := U) f0 f1 f2 f3 f4 f5 O W lv hlv hO).pre c
      = iprop(lossFPt c main_v9_0 f0 ∗ lossFPt c main_v9_1 f1 ∗ lossFPt c main_v8_0 f2 ∗ lossFPt c main_v8_1 f3
          ∗ lossFPt c main_v8_2 f4 ∗ lossFPt c main_v10 f5 ∗ owes (SparseCore.T c : Thread nD τ) O W) := rfl

theorem lossFSeg_post [∀ e, Nonempty (Elt F e)] (hlv : (K (F := F)).Refines lv) (hO : ∀ g, O g none = 0) (c : Dev nD) :
    (lossFSeg (U := U) f0 f1 f2 f3 f4 f5 O W lv hlv hO).post c
      = iprop(lossFPt c main_v9_0 f0 ∗ lossFPt c main_v9_1 f1 ∗ lossFPt c main_v8_0 f2 ∗ lossFPt c main_v8_1 f3
          ∗ lossFPt c main_v8_2 f4 ∗ lossFPt c main_v10 (lossVal f0 f1 f2 f3 f4) ∗ lossFOwesAfter O W c) := rfl

/-- The call in the certificate's signature, lifted to the launch's. -/
theorem lossF_lift_eq : (SparseCore.liftProg (Q := 1) (Prog.lift (.customCall (Pipeline.entry 1) ()) : Prog (TpuEff nD τ sig (Elt F) (ΛP (F := F)) .tc) PUnit))
    = Prog.lift (.customCall (SparseCore.inner (Pipeline.entry 1)) ()) := rfl

set_option backward.isDefEq.respectTransparency.types false in
/-- A proof about the call under the certificate's body table is a proof about it under the launch's. -/
theorem lossF_lift_call (d : Dev nD) (Φ : PUnit → sProp 𝕄) :
    wp frame (wpE (D (F := F)) 𝒱 (SparseCore.T d) none) Set.univ (Prog.lift (.customCall (Pipeline.entry 1) ())) Φ
      ⊢ wp frame (wpE ((K (F := F)).defs (D (F := F))) 𝒱 (SparseCore.T d) none) Set.univ
          (Prog.lift (.customCall (SparseCore.inner (Pipeline.entry 1)) ())) Φ := by
  rw [← lossF_lift_eq]
  exact (K (F := F)).wp_liftProg (D (F := F)) 𝒱 (SparseCore.T d) Set.univ none _ Φ

/-- THE REGION under the certificate's body table: from the boundary, the pipeline's launch ghost state, the core's
    debts and the six arrays, the call runs to the boundary, the debts as the region leaves them, the five inputs
    as they were and the result at the printed scalar. -/
theorem lossF_region_D [∀ e, Nonempty (Elt F e)] (EP : Emb (UR sig nD τ) 𝕄) [EP.LandsIn (upEmb : UEmb _ 𝕄)]
    (hlv : (K (F := F)).Refines lv) (hO : ∀ g, O g none = 0) (d : Dev nD) (Φ : PUnit → sProp 𝕄) :
    iprop(levAts (K (F := F)).L lv ∗ boundary (SparseCore.T d : Thread nD τ)
        ∗ Pipeline.cellsGhost (Pipeline.pin (pcfgs (F := F)) lossFAdm) EP 1 d ∗ Pipeline.toksInit (Pipeline.pin (pcfgs (F := F)) lossFAdm) EP 1 d
        ∗ owes (SparseCore.T d : Thread nD τ) O W
        ∗ lossFPt d main_v9_0 f0 ∗ lossFPt d main_v9_1 f1 ∗ lossFPt d main_v8_0 f2 ∗ lossFPt d main_v8_1 f3 ∗ lossFPt d main_v8_2 f4 ∗ lossFPt d main_v10 f5
        ∗ (iprop(boundary (SparseCore.T d : Thread nD τ) ∗ lossFOwesAfter O W d
            ∗ lossFPt d main_v9_0 f0 ∗ lossFPt d main_v9_1 f1 ∗ lossFPt d main_v8_0 f2 ∗ lossFPt d main_v8_1 f3 ∗ lossFPt d main_v8_2 f4
            ∗ lossFPt d main_v10 (lossVal f0 f1 f2 f3 f4)) -∗ Φ ⟨⟩))
      ⊢ wp frame (wpE (D (F := F)) 𝒱 (SparseCore.T d) none) Set.univ (Prog.lift (.customCall (Pipeline.entry 1) ())) Φ := by
  iintro ⟨#Hla, Hb, Hg, Ht, HO, H0, H1, H2, H3, H4, H5, Hk⟩
  iapply (Pipeline.RegionSeg.wp (pcfgs (F := F)) lossFAdm (lossFDats (U := U) f0 f1 f2 f3 f4 f5 O W) none cellOf_inj EP defs₀ 𝒱₀ (K (F := F)).L lv
    (lossFSeg f0 f1 f2 f3 f4 f5 O W lv hlv hO) d none (fun _ h => nomatch h) (fun x => .ret x) Φ)
  rw [lossFSeg_pre, lossFSeg_post]
  isplitl [Hk]
  · iintro ⟨Hb, H0, H1, H2, H3, H4, H5, HO⟩
    rw [wp_ret]; imodintro
    iapply Hk
    isplitl [Hb]; · iexact Hb
    isplitl [HO]; · iexact HO
    isplitl [H0]; · iexact H0
    isplitl [H1]; · iexact H1
    isplitl [H2]; · iexact H2
    isplitl [H3]; · iexact H3
    isplitl [H4]; · iexact H4
    iexact H5
  isplitl [Hb]; · iexact Hb
  isplitl [H0 H1 H2 H3 H4 H5 HO]
  · isplitl [H0]; · iexact H0
    isplitl [H1]; · iexact H1
    isplitl [H2]; · iexact H2
    isplitl [H3]; · iexact H3
    isplitl [H4]; · iexact H4
    isplitl [H5]; · iexact H5
    iexact HO
  isplitr; · iexact Hla
  isplitl [Hg]; · iexact Hg
  iexact Ht

/-- The same under the launch's body table, as @main spells the call. -/
theorem lossF_region_core [∀ e, Nonempty (Elt F e)] (EP : Emb (UR sig nD τ) 𝕄) [EP.LandsIn (upEmb : UEmb _ 𝕄)]
    (hlv : (K (F := F)).Refines lv) (hO : ∀ g, O g none = 0) (d : Dev nD) (Φ : PUnit → sProp 𝕄) :
    iprop(levAts (K (F := F)).L lv ∗ boundary (SparseCore.T d : Thread nD τ)
        ∗ Pipeline.cellsGhost (Pipeline.pin (pcfgs (F := F)) lossFAdm) EP 1 d ∗ Pipeline.toksInit (Pipeline.pin (pcfgs (F := F)) lossFAdm) EP 1 d
        ∗ owes (SparseCore.T d : Thread nD τ) O W
        ∗ lossFPt d main_v9_0 f0 ∗ lossFPt d main_v9_1 f1 ∗ lossFPt d main_v8_0 f2 ∗ lossFPt d main_v8_1 f3 ∗ lossFPt d main_v8_2 f4 ∗ lossFPt d main_v10 f5
        ∗ (iprop(boundary (SparseCore.T d : Thread nD τ) ∗ lossFOwesAfter O W d
            ∗ lossFPt d main_v9_0 f0 ∗ lossFPt d main_v9_1 f1 ∗ lossFPt d main_v8_0 f2 ∗ lossFPt d main_v8_1 f3 ∗ lossFPt d main_v8_2 f4
            ∗ lossFPt d main_v10 (lossVal f0 f1 f2 f3 f4)) -∗ Φ ⟨⟩))
      ⊢ wp frame (wpE ((K (F := F)).defs (D (F := F))) 𝒱 (SparseCore.T d) none) Set.univ
          (Prog.lift (.customCall (SparseCore.inner (Pipeline.entry 1)) ())) Φ :=
  (lossF_region_D f0 f1 f2 f3 f4 f5 O W lv EP hlv hO d Φ).trans (lossF_lift_call d Φ)

/-! ## The region in @main's own terms -/

section AtLaunch

variable (m : (ℓ : Loc nD τ sig) → Buf (Elt F) ℓ)

local notation "𝕌" => MT nD τ sig (HIx 1) (Elt F) ℕ UU ℕ

/-- No handshake unit the TensorCore owes sits at the index the region's waits use. -/
theorem lossF_Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- THE LOSS CALL in @main on device `d`'s TensorCore, before SparseCore call `n`: from the handshake state, the region
    boundary, pipeline 1's launch ghost state, the five input arrays and the result array at anything, the call runs
    to the same handshake state and boundary, the inputs unchanged and the result at the printed scalar of the inputs. -/
theorem loss_region_f [∀ e, Nonempty (Elt F e)] (κ : GSem nD τ sig → ℕ) (d : Dev nD) (n : ℕ) (Φ : PUnit → sProp 𝕌)
    (Pv Qv : FVec F S32x10240 .f32) (tv pv qv : FVec F S10240 .f32) (fo : Vec F S1x1 .f32) :
    iprop((K (F := F)).ctx EH (P m) κ ∗ (K (F := F)).tcSt EH d n ∗ boundary (SparseCore.T d : Thread nD τ)
        ∗ iprop(Pipeline.cellsGhost cfgs EP 1 d ∗ Pipeline.toksInit cfgs EP 1 d)
        ∗ (ppLoc d ↦{fullShare} Pv) ∗ (qpLoc d ↦{fullShare} Qv) ∗ (v2Loc d ↦{fullShare} tv) ∗ (plLoc d ↦{fullShare} pv) ∗ (qlLoc d ↦{fullShare} qv)
        ∗ (outLoc d ↦{fullShare} fo)
        ∗ (((K (F := F)).tcSt EH d n ∗ boundary (SparseCore.T d : Thread nD τ) ∗ iprop(emp)
            ∗ (ppLoc d ↦{fullShare} Pv) ∗ (qpLoc d ↦{fullShare} Qv) ∗ (v2Loc d ↦{fullShare} tv) ∗ (plLoc d ↦{fullShare} pv) ∗ (qlLoc d ↦{fullShare} qv)
            ∗ (outLoc d ↦{fullShare} (fun _ => k2_pay1 Pv Qv tv pv qv : Vec F S1x1 .f32))) -∗ Φ ⟨⟩))
      ⊢ wp frame (wpE ((K (F := F)).defs (D (F := F))) 𝒱 (SparseCore.T d) none) Set.univ
          (Prog.lift (.customCall (SparseCore.inner (Pipeline.entry 1)) ())) Φ := by
  unfold SparseCore.Cfg.tcSt
  iintro ⟨#Hctx, ⟨⟨%W, %hW, HO⟩, Hrest⟩, Hb, ⟨Hg, Ht⟩, H0, H1, H2, H3, H4, H5, Hk⟩
  ihave Hlev := (SparseCore.Cfg.ctx_levAts κ) $$ Hctx
  iapply (lossF_region_core (U := UU) Pv Qv tv pv qv fo ((K (F := F)).Otc d n) W (K (F := F)).lev EP
    ((K (F := F)).refines_self) (lossF_Otc_none d n) d Φ)
  isplitr; · iexact Hlev
  isplitl [Hb]; · iexact Hb
  isplitl [Hg]; · iexact Hg
  isplitl [Ht]; · iexact Ht
  isplitl [HO]; · iexact HO
  isplitl [H0]; · iexact H0
  isplitl [H1]; · iexact H1
  isplitl [H2]; · iexact H2
  isplitl [H3]; · iexact H3
  isplitl [H4]; · iexact H4
  isplitl [H5]; · iexact H5
  iintro ⟨Hb, ⟨%W', %hW', HO⟩, H0, H1, H2, H3, H4, H5⟩
  iapply Hk
  isplitl [HO Hrest]
  · isplitl [HO]
    · iexists W'; isplitr
      · ipureintro; intro p hp
        rcases hW' p hp with h | h
        · exact hW p h
        · rw [h, SparseCore.Cfg.lev_none]; exact Nat.zero_le _
      iexact HO
    iexact Hrest
  isplitl [Hb]; · iexact Hb
  isplitr; · iempintro
  isplitl [H0]; · iexact H0
  isplitl [H1]; · iexact H1
  isplitl [H2]; · iexact H2
  isplitl [H3]; · iexact H3
  isplitl [H4]; · iexact H4
  iexact H5

end AtLaunch

end Cert.Proof.K

end
-- ==== Proof.K.Run.lean ====
/-
  The program's run: every weakly fair execution of @main on the TensorCore together with the two
  SparseCores' sequencers and thirty-two tiles terminates, nothing faulting, with the result array at
  the loss of the four arguments and the arguments unchanged — the SparseCore launch theorem applied to
  the tile obligation, the split of the call's payload, the launch element and @main's proof, the two
  TensorCore calls entered as regions of @main.
-/
import proofs.«213808_g38010460570139_cont_8to1_b_868_22_alg».proof.Proof.K.Launch
import proofs.«213808_g38010460570139_cont_8to1_b_868_22_alg».proof.Proof.K.MainTc
import proofs.«213808_g38010460570139_cont_8to1_b_868_22_alg».proof.Proof.K.PrepRegion
import proofs.«213808_g38010460570139_cont_8to1_b_868_22_alg».proof.Proof.K.LossRegionF

noncomputable section

namespace Cert.Proof.K

open Cert.Kernel Cert.Kernel.Gen
open Idealize.ShloMosaic Idealize.SL Idealize.SL.BI Idealize.SL.Sem
open scoped Idealize.SL.BI

variable {F : FTy → Type} [FloatOps F]

/-- The run of the whole mesh under the precondition. -/
theorem run_main [∀ e, Nonempty (Elt F e)] (m : (ℓ : Loc nD τ sig) → Buf (Elt F) ℓ) (ρ : Dev nD → PrngReg)
    (hpre : ∀ d, Cert.Pre_input_domain.fn (F := F) (nfA m d) (eiA m d) (prA m d) (paA m d) = fun _ => 1#1) :
    θ_run (Cert.Kernel.defs (F := F)) (Cert.Kernel.threads (F := F)) ⟨m, fun _ => 0, ρ⟩ (QC m) :=
  run_main_of m ρ
    (hmain_of m ρ Gh (fun _ _ => iprop(emp))
      (fun κ d Φ f1 f2 f3 => prep_region m κ d 0 Φ f1 f2 f3)
      (fun κ d Φ Pv Qv tv pv qv fo => loss_region_f m κ d 1 Φ Pv Qv tv pv qv fo))
    hpre

end Cert.Proof.K

end
-- ==== Proof.PreFacts.lean ====
/-
  The precondition in the forms its consumers use. PreFacts/Core reads the printed precondition as
  five facts about the elements of the four arguments, and PreFacts/Sliced passes the range of the
  edge ends on to the source and destination node numbers @main cuts out of them. Here the facts are
  restated (1) for the three preconditions of the claims, whose arguments are the argument arrays of
  a launch memory on each device, and (2) at the extended reals for the two parameter columns @main
  cuts out of the edge parameters: both hold real numbers, and neither plus the small constant is zero.
-/
import proofs.«213808_g38010460570139_cont_8to1_b_868_22_alg».proof.Proof.PreFacts.Core
import proofs.«213808_g38010460570139_cont_8to1_b_868_22_alg».proof.Proof.PreFacts.Sliced
import proofs.«213808_g38010460570139_cont_8to1_b_868_22_alg».proof.Defs

noncomputable section

namespace Cert.Proof.PreFacts

open Idealize.ShloMosaic Idealize.SL.Sem

/-! ## Words in the node range -/

/-- A node number of at most 9999 is not negative as a signed word. -/
theorem slt_zero_of_le (v : BitVec 32) (h : v.toNat ≤ 9999) : IntOp.cmpi .slt v 0#32 = 0#1 := by
  have hm : v.msb = false := BitVec.msb_eq_false_iff_two_mul_lt.mpr (by omega)
  have hs : v.slt 0#32 = false := by
    simp only [BitVec.slt, BitVec.toInt_eq_msb_cond, hm, show (0#32 : BitVec 32).msb = false from by decide,
      Bool.false_eq_true, ↓reduceIte, BitVec.toNat_ofNat, decide_eq_false_iff_not]
    omega
  simp only [IntOp.cmpi, hs]
  rfl

/-- A node number of at most 9999 reads the same signed and unsigned. -/
theorem toInt_of_le (v : BitVec 32) (h : v.toNat ≤ 9999) : v.toInt = (v.toNat : Int) :=
  StableHlo.Predicate.toInt_eq_toNat_of_lt (by omega)

/-- … so clamping its signed value into a table of 10000 entries leaves it alone. -/
theorem clamp_of_le (v : BitVec 32) (h : v.toNat ≤ 9999) : min v.toInt.toNat (10000 - 1) = v.toNat := by
  rw [toInt_of_le v h, Int.toNat_natCast]
  omega

/-! ## The three preconditions of the claims

Each is the printed function of the four argument arrays of a launch memory, on every device. The
arrays are named here at their vector types, so that an element of one is a word or an extended real
as it stands. -/

section Kernel
variable (m : (ℓ : Loc Cert.Kernel.nD Cert.Kernel.τ Cert.Kernel.sig) → Buf (Elt Bits) ℓ) (c : Dev Cert.Kernel.nD)

/-- The edge ends device `c` holds at the launch of the word-level kernel. -/
abbrev kEnds : IVec Cert.Kernel.S2x640000 32 := m ((c.tc : Thread Cert.Kernel.nD Cert.Kernel.τ).loc Cert.Kernel.main_arg1)

/-- The word-level kernel's precondition: on every device the edge ends are at most 9999. -/
theorem idx_of_Pre_Kernel (h : Cert.Pre_Kernel m) (j : Cert.Kernel.S2x640000.Idx) : (kEnds m c j).toNat ≤ 9999 :=
  idx_of_fn _ _ _ _ (h c) j

end Kernel

section KernelIdeal
variable (m : (ℓ : Loc Cert.KernelIdeal.nD Cert.KernelIdeal.τ Cert.KernelIdeal.sig) → Buf (Elt Ideal) ℓ) (c : Dev Cert.KernelIdeal.nD)

/-- The four arguments device `c` holds at the launch of the idealized kernel. -/
abbrev kiFeat : FVec Ideal Cert.KernelIdeal.S10000x128 .f32 := m ((c.tc : Thread Cert.KernelIdeal.nD Cert.KernelIdeal.τ).loc Cert.KernelIdeal.main_arg0)
abbrev kiEnds : IVec Cert.KernelIdeal.S2x640000 32 := m ((c.tc : Thread Cert.KernelIdeal.nD Cert.KernelIdeal.τ).loc Cert.KernelIdeal.main_arg1)
abbrev kiProb : FVec Ideal Cert.KernelIdeal.S640000 .f32 := m ((c.tc : Thread Cert.KernelIdeal.nD Cert.KernelIdeal.τ).loc Cert.KernelIdeal.main_arg2)
abbrev kiPar : FVec Ideal Cert.KernelIdeal.S640000x2 .f32 := m ((c.tc : Thread Cert.KernelIdeal.nD Cert.KernelIdeal.τ).loc Cert.KernelIdeal.main_arg3)

/-- The idealized kernel's precondition is the printed function of these four, all ones. -/
theorem fn_of_Pre_KernelIdeal (h : Cert.Pre_KernelIdeal m) :
    Cert.Pre_input_domain.fn (F := Ideal) (kiFeat m c) (kiEnds m c) (kiProb m c) (kiPar m c) = fun _ => 1#1 := h c

/-- On every device the edge ends are at most 9999, -/
theorem idx_of_Pre_KernelIdeal (h : Cert.Pre_KernelIdeal m) (j : Cert.KernelIdeal.S2x640000.Idx) : (kiEnds m c j).toNat ≤ 9999 :=
  idx_of_fn _ _ _ _ (h c) j

/-- the three float arguments hold real numbers, -/
theorem finite_of_Pre_KernelIdeal (h : Cert.Pre_KernelIdeal m) :
    (∀ j, ∃ r : ℝ, kiFeat m c j = (r : EReal)) ∧ (∀ j, ∃ r : ℝ, kiProb m c j = (r : EReal)) ∧ (∀ j, ∃ r : ℝ, kiPar m c j = (r : EReal)) :=
  finite_of_fn _ _ _ _ (h c)

/-- and no edge parameter plus the small constant is zero. -/
theorem denom_of_Pre_KernelIdeal (h : Cert.Pre_KernelIdeal m) (j : Cert.KernelIdeal.S640000x2.Idx) :
    kiPar m c j + Ideal.ofBits .f32 0x358637BD#32 ≠ 0 :=
  denom_ne_zero _ _ _ _ (h c) j

end KernelIdeal

section ReferenceIdeal
variable (m : (ℓ : Loc Cert.ReferenceIdeal.nD Cert.ReferenceIdeal.τ Cert.ReferenceIdeal.sig) → Buf (Elt Ideal) ℓ) (c : Dev Cert.ReferenceIdeal.nD)

/-- The four arguments device `c` holds at the launch of the idealized reference. -/
abbrev riFeat : FVec Ideal Cert.ReferenceIdeal.S10000x128 .f32 := m ((c.tc : Thread Cert.ReferenceIdeal.nD Cert.ReferenceIdeal.τ).loc Cert.ReferenceIdeal.main_arg0)
abbrev riEnds : IVec Cert.ReferenceIdeal.S2x640000 32 := m ((c.tc : Thread Cert.ReferenceIdeal.nD Cert.ReferenceIdeal.τ).loc Cert.ReferenceIdeal.main_arg1)
abbrev riProb : FVec Ideal Cert.ReferenceIdeal.S640000 .f32 := m ((c.tc : Thread Cert.ReferenceIdeal.nD Cert.ReferenceIdeal.τ).loc Cert.ReferenceIdeal.main_arg2)
abbrev riPar : FVec Ideal Cert.ReferenceIdeal.S640000x2 .f32 := m ((c.tc : Thread Cert.ReferenceIdeal.nD Cert.ReferenceIdeal.τ).loc Cert.ReferenceIdeal.main_arg3)

/-- The idealized reference's precondition is the printed function of these four, all ones. -/
theorem fn_of_Pre_ReferenceIdeal (h : Cert.Pre_ReferenceIdeal m) :
    Cert.Pre_input_domain.fn (F := Ideal) (riFeat m c) (riEnds m c) (riProb m c) (riPar m c) = fun _ => 1#1 := h c

/-- On every device the edge ends are at most 9999, -/
theorem idx_of_Pre_ReferenceIdeal (h : Cert.Pre_ReferenceIdeal m) (j : Cert.ReferenceIdeal.S2x640000.Idx) : (riEnds m c j).toNat ≤ 9999 :=
  idx_of_fn _ _ _ _ (h c) j

/-- the three float arguments hold real numbers, -/
theorem finite_of_Pre_ReferenceIdeal (h : Cert.Pre_ReferenceIdeal m) :
    (∀ j, ∃ r : ℝ, riFeat m c j = (r : EReal)) ∧ (∀ j, ∃ r : ℝ, riProb m c j = (r : EReal)) ∧ (∀ j, ∃ r : ℝ, riPar m c j = (r : EReal)) :=
  finite_of_fn _ _ _ _ (h c)

/-- and no edge parameter plus the small constant is zero. -/
theorem denom_of_Pre_ReferenceIdeal (h : Cert.Pre_ReferenceIdeal m) (j : Cert.ReferenceIdeal.S640000x2.Idx) :
    riPar m c j + Ideal.ofBits .f32 0x358637BD#32 ≠ 0 :=
  denom_ne_zero _ _ _ _ (h c) j

end ReferenceIdeal

/-! ## The two parameter columns at the extended reals -/

section SlicedIdeal

open Cert.KernelIdeal Cert.KernelIdeal.Spec Cert.Proof.PreFacts.KI

variable {nf : FVec Ideal Cert.Pre_input_domain.S10000x128 .f32} {ei : IVec Cert.Pre_input_domain.S2x640000 32}
  {pr : FVec Ideal Cert.Pre_input_domain.S640000 .f32} {par : FVec Ideal Cert.Pre_input_domain.S640000x2 .f32}

/-- Both parameter columns hold real numbers. -/
theorem gOf_real (h : Cert.Pre_input_domain.fn (F := Ideal) nf ei pr par = fun _ => 1#1) (e : S640000.Idx) :
    ∃ r : ℝ, Spec.gOf (F := Ideal) par e = (r : EReal) := by
  obtain ⟨j, hj⟩ := gOf_mem (F := Ideal) par e
  rw [hj]
  exact (finite_of_fn _ _ _ _ h).2.2 j

theorem bOf_real (h : Cert.Pre_input_domain.fn (F := Ideal) nf ei pr par = fun _ => 1#1) (e : S640000.Idx) :
    ∃ r : ℝ, Spec.bOf (F := Ideal) par e = (r : EReal) := by
  obtain ⟨j, hj⟩ := bOf_mem (F := Ideal) par e
  rw [hj]
  exact (finite_of_fn _ _ _ _ h).2.2 j

/-- Neither flow's denominator is zero. -/
theorem gOf_add_ne_zero (h : Cert.Pre_input_domain.fn (F := Ideal) nf ei pr par = fun _ => 1#1) (e : S640000.Idx) :
    Spec.gOf (F := Ideal) par e + Ideal.ofBits .f32 0x358637BD#32 ≠ 0 := by
  obtain ⟨j, hj⟩ := gOf_mem (F := Ideal) par e
  rw [hj]
  exact denom_ne_zero _ _ _ _ h j

theorem bOf_add_ne_zero (h : Cert.Pre_input_domain.fn (F := Ideal) nf ei pr par = fun _ => 1#1) (e : S640000.Idx) :
    Spec.bOf (F := Ideal) par e + Ideal.ofBits .f32 0x358637BD#32 ≠ 0 := by
  obtain ⟨j, hj⟩ := bOf_mem (F := Ideal) par e
  rw [hj]
  exact denom_ne_zero _ _ _ _ h j

/-- The same for a group of sixteen edges, in the form the group step divides by: the sixteen
    parameters from any offset plus the splat of the small constant, lane by lane. -/
theorem lanes_gOf_addf_epsV_ne_zero (h : Cert.Pre_input_domain.fn (F := Ideal) nf ei pr par = fun _ => 1#1) (off : Nat) (j : S16.Idx) :
    addf (Spec.lanes (F := Ideal) (e := .f32) (Spec.gOf (F := Ideal) par) off) (Spec.epsV (F := Ideal)) j ≠ 0 :=
  gOf_add_ne_zero h (Spec.ed (off + (j 0).val))

theorem lanes_bOf_addf_epsV_ne_zero (h : Cert.Pre_input_domain.fn (F := Ideal) nf ei pr par = fun _ => 1#1) (off : Nat) (j : S16.Idx) :
    addf (Spec.lanes (F := Ideal) (e := .f32) (Spec.bOf (F := Ideal) par) off) (Spec.epsV (F := Ideal)) j ≠ 0 :=
  bOf_add_ne_zero h (Spec.ed (off + (j 0).val))

end SlicedIdeal

end Cert.Proof.PreFacts

end
-- ==== Proof.KI.Claims.lean ====
/-
  From the program's run to the claims about the idealized kernel. The run's post names, on every
  device, the result array at the loss of that device's arguments and the four arguments unchanged.
  Dropping the result gives the frame claim. Kept, it is the kernel's half of the algebraic claim; the
  other half is the reference's run from a memory that agrees on the arguments, whose precondition is
  the kernel's (the printed function reads only the arguments), and the claim follows once the
  reference's result is identified with the loss.
-/
import proofs.«213808_g38010460570139_cont_8to1_b_868_22_alg».proof.Proof.KI.Finish
import proofs.«213808_g38010460570139_cont_8to1_b_868_22_alg».proof.Defs
import proofs.«213808_g38010460570139_cont_8to1_b_868_22_alg».proof.Proof.PreFacts
import proofs.«213808_g38010460570139_cont_8to1_b_868_22_alg».proof.Proof.Gen.ReferenceIdeal

noncomputable section

namespace Cert.Proof.KI

open Idealize.ShloMosaic Idealize.SL.Sem

/-- The program's run at the extended reals, as the launch theorem gives it: from any launch memory whose
    arguments satisfy the printed precondition on every device, to the post `QC`. -/
abbrev RunsIdeal : Prop :=
  ∀ (m : (ℓ : Loc Cert.KernelIdeal.nD Cert.KernelIdeal.τ Cert.KernelIdeal.sig) → Buf (Elt Ideal) ℓ) (ρ : Dev Cert.KernelIdeal.nD → PrngReg),
    (∀ d, Cert.Pre_input_domain.fn (F := Ideal) (nfA m d) (eiA m d) (prA m d) (paA m d) = fun _ => 1#1) →
    θ_run (Cert.KernelIdeal.defs (F := Ideal)) (Cert.KernelIdeal.threads (F := Ideal)) ⟨m, fun _ => 0, ρ⟩ (QC m)

/-- The frame claim: the run with the result dropped. -/
theorem frame_ki (hrun : RunsIdeal) : Cert.frame_KernelIdeal := fun m ρ hpre =>
  (θ_run Cert.KernelIdeal.defs _ _).mono (fun _ h c => (h c).2) (hrun m ρ hpre)

/-- The kernel's half of the algebraic claim: the run, with the result named. -/
theorem ki_run (hrun : RunsIdeal)
    (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v11) = resOf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  hrun m ρ hpre

/-- Memories that agree on the four arguments satisfy the precondition together: the printed function
    reads nothing else. -/
theorem pre_ref_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.Pre_ReferenceIdeal m' := by
  intro c
  have h := hpre c
  obtain ⟨h0, h1, h2, h3⟩ := hagree c
  show Cert.Pre_input_domain.fn (F := Ideal) (PreFacts.riFeat m' c) (PreFacts.riEnds m' c) (PreFacts.riProb m' c) (PreFacts.riPar m' c) = fun _ => 1#1
  have e0 : PreFacts.riFeat m' c = PreFacts.kiFeat m c := h0
  have e1 : PreFacts.riEnds m' c = PreFacts.kiEnds m c := h1
  have e2 : PreFacts.riProb m' c = PreFacts.kiProb m c := h2
  have e3 : PreFacts.riPar m' c = PreFacts.kiPar m c := h3
  rw [e0, e1, e2, e3]
  exact h

/-- The algebraic claim, assembled: the kernel's run names the loss; the reference's run, from a memory that
    agrees on the arguments, names its own result (`refRes`); the two are the same scalar (`hval`). -/
theorem algebraic_of (hrun : RunsIdeal)
    (refRes : (m' : (ℓ : Loc Cert.ReferenceIdeal.nD Cert.ReferenceIdeal.τ Cert.ReferenceIdeal.sig) → Buf (Elt Ideal) ℓ) → (c : Dev Cert.ReferenceIdeal.nD) →
      Buf (Elt Ideal) ((c.tc : Thread Cert.ReferenceIdeal.nD Cert.ReferenceIdeal.τ).loc Cert.ReferenceIdeal.main_v87))
    (href : ∀ (m' : (ℓ : Loc Cert.ReferenceIdeal.nD Cert.ReferenceIdeal.τ Cert.ReferenceIdeal.sig) → Buf (Elt Ideal) ℓ) (ρ' : Dev Cert.ReferenceIdeal.nD → PrngReg),
      Cert.Pre_ReferenceIdeal m' →
      θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v87) = refRes m' c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)))
    (hval : ∀ (m : (ℓ : Loc Cert.KernelIdeal.nD Cert.KernelIdeal.τ Cert.KernelIdeal.sig) → Buf (Elt Ideal) ℓ)
      (m' : (ℓ : Loc Cert.ReferenceIdeal.nD Cert.ReferenceIdeal.τ Cert.ReferenceIdeal.sig) → Buf (Elt Ideal) ℓ),
      Cert.Pre_KernelIdeal m →
      (∀ c : Dev Cert.KernelIdeal.nD,
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
      ∀ c : Dev Cert.KernelIdeal.nD, refRes m' c = resOf m c) :
    Cert.algebraic_KernelIdeal_ReferenceIdeal := fun m g m' g' hpre hagree =>
  ⟨fun c => resOf m c, ki_run hrun m g hpre,
    (θ_run Cert.ReferenceIdeal.defs _ _).mono (fun _ h c => ⟨(h c).1.trans (hval m m' hpre hagree c), (h c).2⟩)
      (href m' g' (pre_ref_of_agree m m' hpre hagree))⟩

end Cert.Proof.KI

end
-- ==== Proof.KI.LossVal.lean ====
/-
  The loss call's scalar at the ideal values, as one closed term.

  The call receives the two 32 × 10240 arrays of partial flows (one row per tile), the squared voltage
  magnitudes and the active and reactive loads (10240 entries each, the last 240 padding). It sums the
  32 rows of each flow array, adds the loads, squares; takes the square root of the squared magnitude
  and squares the two limit violations max(lo − v, 0), max(v − hi, 0); keeps the first 10000 entries,
  replaces the others by zero, sums all 10240 and divides by 10000.

  At the extended reals a sum over one axis is a finite sum over that axis's coordinates, the masked-off
  entries are the literal zero (the identity of addition, whatever the other terms are), and the
  single-precision word of the divisor denotes the real number 10000. So the scalar is the sum over the
  first 10000 nodes of the node's term, divided by 10000 (`k2_pay1_eq`). The additions stand in the
  order the program makes them: ((active² + reactive²) + lower²) + upper².
-/
import proofs.«213808_g38010460570139_cont_8to1_b_868_22_alg».proof.Proof.KI.Spec
import Idealize.ShloMosaic.PureOps.Ideal.Laws
import Idealize.ShloMosaic.Lib.ValueIdx
import Idealize.ShloMosaic.Lib.ValueLayout
import Idealize.ShloMosaic.Lib.IdealHost

noncomputable section

namespace Cert.KernelIdeal.SpecIdeal

open Idealize.ShloMosaic Idealize.ShloMosaic.ValueIdx Cert.KernelIdeal Cert.KernelIdeal.Gen
open scoped BigOperators

/-- Summing the 32 rows of a 32 × 10240 array: entry `n` of the result is the sum over the rows of column `n`. -/
theorem rowsSum_apply (P : FVec Ideal ⟨2, ![32, 10240]⟩ .f32)
    (h : (⟨2, ![32, 10240]⟩ : Shape).Reduces [0] ⟨1, ![10240]⟩) (hφ : FKind.Formats .f32)
    (hacc : (0x00000000#32 : BitVec 32) = FKind.add.neutral .f32 hφ) (n : Fin 10240) :
    multiReduction .add [0] ⟨1, ![10240]⟩ P 0x00000000#32 h hφ hacc (ix1 n) = ∑ r : Fin 32, P (ix2 r n) := by
  refine (Ideal.multiReduction_add_single P 0x00000000#32 h hφ hacc (ix1 n)).trans ?_
  refine Finset.sum_congr rfl fun r _ => congrArg P ?_
  funext a
  match a with
  | ⟨0, _⟩ => rfl
  | ⟨1, _⟩ => rfl

/-- Summing the one row of a 1 × 10240 array along its lanes: the sum of its 10240 entries. -/
theorem laneSum_apply (Z : FVec Ideal ⟨2, ![1, 10240]⟩ .f32)
    (h : (⟨2, ![1, 10240]⟩ : Shape).Reduces [1] ⟨1, ![1]⟩) (hφ : FKind.Formats .f32)
    (hacc : (0x00000000#32 : BitVec 32) = FKind.add.neutral .f32 hφ) (u : Fin 1) :
    multiReduction .add [1] ⟨1, ![1]⟩ Z 0x00000000#32 h hφ hacc (ix1 u) = ∑ k : Fin 10240, Z (ix2 (0 : Fin 1) k) := by
  refine (Ideal.multiReduction_add_single Z 0x00000000#32 h hφ hacc (ix1 u)).trans ?_
  refine Finset.sum_congr rfl fun k _ => congrArg Z ?_
  funext a
  match a with
  | ⟨0, _⟩ => exact Fin.ext (by show _ = 0; simp [Shape.Reduces.lift_val, Shape.Reduces.liftVal])
  | ⟨1, _⟩ => rfl

/-- A sum whose terms beyond the first `N` are the literal zero is the sum of the first `N` terms:
    zero is the identity of the extended reals' addition, so no finiteness is asked of the terms. -/
theorem sum_mask_eq {M N : ℕ} (h : N ≤ M) (f : Fin M → EReal) :
    ∑ k : Fin M, (if k.val < N then f k else 0) = ∑ n : Fin N, f (Fin.castLE h n) := by
  rw [← Finset.sum_filter]
  symm
  refine Finset.sum_bij (fun n _ => Fin.castLE h n) ?_ ?_ ?_ ?_
  · intro n _; simp
  · intro a _ b _ hab; exact Fin.castLE_injective h hab
  · intro k hk
    have hk' : k.val < N := (Finset.mem_filter.1 hk).2
    exact ⟨⟨k.val, hk'⟩, Finset.mem_univ _, Fin.ext rfl⟩
  · intro n _; rfl

/-- The lane counter of a 1 × 10240 array at lane `k` is the word `k`. -/
theorem iota_lane (hi : (⟨2, ![1, 10240]⟩ : Shape).Iotas .tc 32 [1]) (k : Fin 10240) :
    iota .tc ⟨2, ![1, 10240]⟩ 32 [1] hi (ix2 (0 : Fin 1) k) = BitVec.ofNat 32 k.val := by
  unfold iota
  simp

/-- The signed comparison of the word `k < 10240` with the word 10000 is the comparison of the numbers. -/
theorem slt_lane (k : Fin 10240) :
    IntOp.cmpi .slt (BitVec.ofNat 32 k.val) 10000#32 = if k.val < 10000 then 1#1 else 0#1 := by
  have hk := k.isLt
  have hn : (BitVec.ofNat 32 k.val).toNat = k.val := by
    rw [BitVec.toNat_ofNat]; exact Nat.mod_eq_of_lt (by omega)
  have hx : (BitVec.ofNat 32 k.val).toInt = (k.val : Int) := by
    rw [BitVec.toInt_eq_toNat_of_lt (by rw [hn]; omega), hn]
  have hy : (10000#32 : BitVec 32).toInt = 10000 := by decide
  show BitVec.ofBool ((BitVec.ofNat 32 k.val).slt 10000#32) = _
  rw [BitVec.slt_eq_decide, hx, hy]
  by_cases hlt : k.val < 10000
  · rw [if_pos hlt, decide_eq_true (by omega)]; rfl
  · rw [if_neg hlt, decide_eq_false (by omega)]; rfl

/-- The single-precision word `0x461C4000` is the real number 10000: exponent field 140, fraction
    field 1851392, so (2²³ + 1851392) · 2⁻¹⁰ = 10240000 / 1024. -/
theorem ofBits_10000 : Ideal.ofBits .f32 0x461C4000#32 = ((10000 : ℝ) : EReal) := by
  simp [Ideal.ofBits, Ideal.ieee, -EReal.coe_mul]; norm_num

/-- A one-entry array has one index. -/
theorem idx_unit_eq (j k : (⟨1, ![1]⟩ : Shape).Idx) : j = k := by
  funext a
  match a with
  | ⟨0, h0⟩ =>
    have h1 : (j ⟨0, h0⟩).val < 1 := (j ⟨0, h0⟩).isLt
    have h2 : (k ⟨0, h0⟩).val < 1 := (k ⟨0, h0⟩).isLt
    exact Fin.ext (by omega)

/-- The one entry of a one-entry array, read through its 1 × 1 view. -/
theorem extract_unit {α : Type} (Y : (⟨1, ![1]⟩ : Shape).Idx → α) (h : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ Y h) hp = Y (ix1 (0 : Fin 1)) := by
  unfold extractAt shapeCast
  exact congrArg Y (idx_unit_eq _ _)

/-- One node's term of the loss: the squared active and reactive imbalances (load plus the sum of the
    32 partial flows) and the squared violations of the two voltage limits, the voltage magnitude being
    the square root of the squared magnitude. The two limits are kept as the single-precision words the
    program carries. -/
def lossTerm (P Q : FVec Ideal S32x10240 .f32) (v2 pl ql : FVec Ideal S10240 .f32) (n : Fin 10240) : EReal :=
  (pl (ix1 n) + ∑ r : Fin 32, P (ix2 r n)) * (pl (ix1 n) + ∑ r : Fin 32, P (ix2 r n))
    + (ql (ix1 n) + ∑ r : Fin 32, Q (ix2 r n)) * (ql (ix1 n) + ∑ r : Fin 32, Q (ix2 r n))
    + max (Ideal.ofBits .f32 0x3F733333#32 - Ideal.sqrt (v2 (ix1 n))) 0 * max (Ideal.ofBits .f32 0x3F733333#32 - Ideal.sqrt (v2 (ix1 n))) 0
    + max (Ideal.sqrt (v2 (ix1 n)) - Ideal.ofBits .f32 0x3F866666#32) 0 * max (Ideal.sqrt (v2 (ix1 n)) - Ideal.ofBits .f32 0x3F866666#32) 0

/-- The loss call's scalar at the ideal values: the sum of the first 10000 nodes' terms divided by 10000.
    The entries 10000 … 10239 of the masked vector are the literal zero, the identity of addition. -/
theorem k2_pay1_eq (P Q : FVec Ideal S32x10240 .f32) (v2 pl ql : FVec Ideal S10240 .f32) :
    k2_pay1 (F := Ideal) P Q v2 pl ql
      = Ideal.div (∑ n : Fin 10000, lossTerm P Q v2 pl ql (Fin.castLE (by decide) n)) ((10000 : ℝ) : EReal) := by
  unfold k2_pay1
  simp only [shapeCast_self]
  show Ideal.div _ (Ideal.ofBits .f32 0x461C4000#32) = _
  rw [ofBits_10000]
  refine congrArg (fun t => Ideal.div t ((10000 : ℝ) : EReal)) ?_
  refine (extract_unit _ _ _).trans ?_
  refine (laneSum_apply _ _ _ _ (0 : Fin 1)).trans ?_
  refine Eq.trans (Finset.sum_congr rfl fun k _ => ?_)
    (sum_mask_eq (M := 10240) (N := 10000) (by decide) (lossTerm P Q v2 pl ql))
  refine (shapeCast_a_1a_apply _ _ (0 : Fin 1) k).trans ?_
  show Scalar.select (IntOp.cmpi .slt (shapeCast S10240 (iota .tc S1x10240 32 [1] iota_S1x10240_d1_w32)
      shapeCasts_S1x10240_S10240 (ix1 k)) 10000#32) _ (Ideal.ofBits .f32 0x00000000#32) = _
  rw [shapeCast_1a_a_apply, iota_lane, slt_lane, Ideal.ofBits_zero_f32]
  by_cases hk : k.val < 10000
  · rw [if_pos hk, if_pos hk, select_one]
    unfold lossTerm
    rw [← rowsSum_apply P Gen.reduces_S32x10240_S10240 (.inl rfl) rfl k,
      ← rowsSum_apply Q Gen.reduces_S32x10240_S10240 (.inl rfl) rfl k, ← Ideal.ofBits_zero_f32]
    rfl
  · rw [if_neg hk, if_neg hk, select_zero]

/-- The real number 10000 among the extended reals is the numeral 10000 there. -/
theorem coe_10000 : ((10000 : ℝ) : EReal) = (10000 : EReal) := by norm_cast

/-- The same with the divisor written as the numeral. -/
theorem k2_pay1_eq' (P Q : FVec Ideal S32x10240 .f32) (v2 pl ql : FVec Ideal S10240 .f32) :
    k2_pay1 (F := Ideal) P Q v2 pl ql
      = Ideal.div (∑ n : Fin 10000, lossTerm P Q v2 pl ql (Fin.castLE (by decide) n)) (10000 : EReal) := by
  rw [k2_pay1_eq, coe_10000]

/-- The two spellings of entry `n` of a 10240-vector's index agree. -/
theorem ix1_eq_nd (n : Fin 10240) : (ix1 n : S10240.Idx) = Spec.nd n := by
  funext a
  match a with
  | ⟨0, _⟩ => rfl

end Cert.KernelIdeal.SpecIdeal

end
-- ==== Proof.KI.AccSumIdeal.lean ====
/-
  The accumulating scatter and the tile's fold over the extended reals, read as sums.

  The store's add is exact addition, which is commutative and associative, so sixteen lanes applied in
  order leave at node `n` the old entry plus the sum of the set lanes that name `n`. A group step adds, for
  each of its sixteen edges, the edge's flow at its source node and, when the two nodes differ, again at
  its destination node; folding the groups, a tile's accumulator at `n` after `N` groups is the sum over
  its first `16 N` edges of what each adds at `n`, and the thirty-two tiles, whose edge ranges
  `20000 r … 20000 r + 19999` tile `0 … 639999`, sum at `n` to the contributions of all edges; that sum is
  the pair of filtered sums an accumulating scatter over all edges reads.
-/
import proofs.«213808_g38010460570139_cont_8to1_b_868_22_alg».proof.Proof.KI.Spec
import Idealize.ShloMosaic.PureOps.Ideal.Laws

noncomputable section

namespace Cert.KernelIdeal.SpecIdeal

open Idealize.ShloMosaic Cert.KernelIdeal Cert.KernelIdeal.Spec

/-- The small constant of the denominators, as an extended real. -/
def eps : EReal := Ideal.ofBits .f32 0x358637BD#32

/-- The table entry a node word names (a word past the table reads its last entry). -/
def tabAt (tab : FVec Ideal S10240 .f32) (w : BitVec 32) : EReal := tab (nd ⟨min w.toNat 10239, by omega⟩)

/-- The flow of edge `e` for the parameter column `c`: the squared voltage at the edge's source node
    times the edge's probability, divided by `c e + ε`. -/
def flow (tab : FVec Ideal S10240 .f32) (src : IVec S640000 32) (prob c : FVec Ideal S640000 .f32) (e : Nat) : EReal :=
  Ideal.div (tabAt tab (src (ed e)) * prob (ed e)) (c (ed e) + eps)

/-- What edge `e` adds at node `n`: its flow when `n` is its source node, and its flow once more when
    `n` is its destination node and the two nodes differ. -/
def edgeAt (tab : FVec Ideal S10240 .f32) (src dst : IVec S640000 32) (prob c : FVec Ideal S640000 .f32) (e : Nat)
    (n : Fin 10240) : EReal :=
  (if (src (ed e)).toNat = n.val then flow tab src prob c e else 0) +
  (if src (ed e) ≠ dst (ed e) ∧ (dst (ed e)).toNat = n.val then flow tab src prob c e else 0)

/-- The accumulating scatter at one node: the old entry plus the values of the set lanes naming the node. -/
theorem scatAdd_apply (acc : FVec Ideal S10240 .f32) (idx : IVec S16 32) (v : FVec Ideal S16 .f32) (mask : IVec S16 1)
    (n : Fin 10240) :
    scatAdd (F := Ideal) acc idx v mask (nd n) =
      acc (nd n) + ∑ k : Fin 16, (if mask (ln k) = 1 ∧ (idx (ln k)).toNat = n.val then v (ln k) else 0) := by
  rw [Fin.sum_univ_def]
  unfold scatAdd
  generalize List.finRange 16 = l
  induction l generalizing acc with
  | nil => simp
  | cons k l ih =>
    rw [List.foldl_cons, ih, List.map_cons, List.sum_cons, ← add_assoc]
    congr 1
    by_cases hm : mask (ln k) = 1
    · rw [if_pos hm]
      show (if ((nd n) 0).val = (idx (ln k)).toNat then Elt.idxAdd (F := Ideal) .f32 (acc (nd n)) (v (ln k)) else acc (nd n)) = _
      by_cases hc : (idx (ln k)).toNat = n.val
      · rw [if_pos (show ((nd n) 0).val = _ from hc.symm), if_pos ⟨hm, hc⟩]; rfl
      · rw [if_neg (fun h => hc h.symm), if_neg (fun h => hc h.2), add_zero]
    · rw [if_neg hm, if_neg (fun h => hm h.1), add_zero]

theorem cmpi_ne_iff {w : Nat} (x y : BitVec w) : IntOp.cmpi .ne x y = 1 ↔ x ≠ y := by
  have hb : ∀ b : Bool, BitVec.ofBool b = 1#1 ↔ b = true := by intro b; cases b <;> decide
  show BitVec.ofBool (x != y) = 1#1 ↔ _
  rw [hb, bne_iff_ne]

/-- One parameter column of a group step at one node: both scatters read as sums over the sixteen lanes. -/
theorem col_apply (tab : FVec Ideal S10240 .f32) (s d : IVec S16 32) (pv cv : FVec Ideal S16 .f32)
    (a : FVec Ideal S10240 .f32) (n : Fin 10240) :
    scatAdd (F := Ideal) (scatAdd (F := Ideal) a s (divf (mulf (gath tab s) pv) (addf cv epsV)) (fun _ => 1#1)) d
        (divf (mulf (gath tab s) pv) (addf cv epsV)) (cmpi .ne s d) (nd n) =
      a (nd n) + ∑ k : Fin 16,
        ((if (s (ln k)).toNat = n.val then Ideal.div (tabAt tab (s (ln k)) * pv (ln k)) (cv (ln k) + eps) else 0) +
         (if s (ln k) ≠ d (ln k) ∧ (d (ln k)).toNat = n.val then
            Ideal.div (tabAt tab (s (ln k)) * pv (ln k)) (cv (ln k) + eps) else 0)) := by
  rw [scatAdd_apply, scatAdd_apply, add_assoc, ← Finset.sum_add_distrib]
  congr 1
  apply Finset.sum_congr rfl
  intro k _
  have hv : (divf (mulf (gath (F := Ideal) tab s) pv) (addf cv epsV)) (ln k) =
      Ideal.div (tabAt tab (s (ln k)) * pv (ln k)) (cv (ln k) + eps) := rfl
  rw [hv]
  congr 1
  · apply if_congr _ rfl rfl
    exact ⟨fun h => h.2, fun h => ⟨rfl, h⟩⟩
  · apply if_congr _ rfl rfl
    show IntOp.cmpi .ne (s (ln k)) (d (ln k)) = 1 ∧ _ ↔ _
    rw [cmpi_ne_iff]

/-- A tile's active accumulator at one node after `N` groups: the sum of what each of its first `16 N`
    edges adds there. -/
theorem tileAcc_fst_apply (tab : FVec Ideal S10240 .f32) (src dst : IVec S640000 32) (prob g b : FVec Ideal S640000 .f32)
    (base N : Nat) (n : Fin 10240) :
    (tileAcc (F := Ideal) tab src dst prob g b base N).1 (nd n) =
      ∑ e ∈ Finset.range (16 * N), edgeAt tab src dst prob g (base + e) n := by
  induction N with
  | zero => exact Ideal.ofBits_zero_f32
  | succ N ih =>
    rw [show 16 * (N + 1) = 16 * N + 16 from by ring, Finset.sum_range_add, ← ih, Finset.sum_range]
    show scatAdd (F := Ideal) (scatAdd (F := Ideal) _ _ _ _) _ _ _ (nd n) = _
    rw [col_apply]
    congr 1

/-- The same for the reactive accumulator, over the other parameter column. -/
theorem tileAcc_snd_apply (tab : FVec Ideal S10240 .f32) (src dst : IVec S640000 32) (prob g b : FVec Ideal S640000 .f32)
    (base N : Nat) (n : Fin 10240) :
    (tileAcc (F := Ideal) tab src dst prob g b base N).2 (nd n) =
      ∑ e ∈ Finset.range (16 * N), edgeAt tab src dst prob b (base + e) n := by
  induction N with
  | zero => exact Ideal.ofBits_zero_f32
  | succ N ih =>
    rw [show 16 * (N + 1) = 16 * N + 16 from by ring, Finset.sum_range_add, ← ih, Finset.sum_range]
    show scatAdd (F := Ideal) (scatAdd (F := Ideal) _ _ _ _) _ _ _ (nd n) = _
    rw [col_apply]
    congr 1

/-- Consecutive blocks of `m` terms, `R` of them, are the first `m R` terms. -/
theorem sum_blocks {M : Type} [AddCommMonoid M] (f : Nat → M) (m R : Nat) :
    ∑ r ∈ Finset.range R, ∑ e ∈ Finset.range m, f (m * r + e) = ∑ e ∈ Finset.range (m * R), f e := by
  induction R with
  | zero => simp
  | succ R ih => rw [Finset.sum_range_succ, ih, Nat.mul_succ, Finset.sum_range_add]

/-- The thirty-two tiles' active accumulators, summed at one node, hold every edge's contribution there. -/
theorem rows_fst_sum (tab : FVec Ideal S10240 .f32) (src dst : IVec S640000 32) (prob g b : FVec Ideal S640000 .f32)
    (n : Fin 10240) :
    ∑ r : Fin 32, (tileAcc (F := Ideal) tab src dst prob g b (20000 * r.val) 1250).1 (nd n) =
      ∑ e ∈ Finset.range 640000, edgeAt tab src dst prob g e n := by
  rw [← Finset.sum_range (fun r => (tileAcc (F := Ideal) tab src dst prob g b (20000 * r) 1250).1 (nd n))]
  rw [show (640000 : Nat) = 20000 * 32 from rfl, ← sum_blocks]
  apply Finset.sum_congr rfl
  intro r _
  rw [tileAcc_fst_apply]

theorem rows_snd_sum (tab : FVec Ideal S10240 .f32) (src dst : IVec S640000 32) (prob g b : FVec Ideal S640000 .f32)
    (n : Fin 10240) :
    ∑ r : Fin 32, (tileAcc (F := Ideal) tab src dst prob g b (20000 * r.val) 1250).2 (nd n) =
      ∑ e ∈ Finset.range 640000, edgeAt tab src dst prob b e n := by
  rw [← Finset.sum_range (fun r => (tileAcc (F := Ideal) tab src dst prob g b (20000 * r) 1250).2 (nd n))]
  rw [show (640000 : Nat) = 20000 * 32 from rfl, ← sum_blocks]
  apply Finset.sum_congr rfl
  intro r _
  rw [tileAcc_snd_apply]

/-- The flow of the edge at index `j` of the edge arrays, for the parameter column `c`. -/
def flowIdx (tab : FVec Ideal S10240 .f32) (src : IVec S640000 32) (prob c : FVec Ideal S640000 .f32)
    (j : S640000.Idx) : EReal :=
  Ideal.div (tabAt tab (src j) * prob j) (c j + eps)

theorem flow_eq_flowIdx (tab : FVec Ideal S10240 .f32) (src : IVec S640000 32) (prob c : FVec Ideal S640000 .f32)
    (e : Nat) : flow tab src prob c e = flowIdx tab src prob c (ed e) := rfl

/-- An index of the edge arrays is the clamped index of its own coordinate. -/
theorem ed_coord (j : S640000.Idx) : ed (j 0).val = j := by
  funext a
  obtain rfl : a = 0 := Fin.eq_zero a
  apply Fin.ext
  have h : (j 0).val < 640000 := (j 0).isLt
  show min (j 0).val 639999 = (j 0).val
  omega

/-- A sum over the first 640000 naturals, read through the clamped index, is the sum over all indices
    of the edge arrays. -/
theorem sum_range_ed {M : Type} [AddCommMonoid M] (f : S640000.Idx → M) :
    ∑ e ∈ Finset.range 640000, f (ed e) = ∑ j : S640000.Idx, f j := by
  rw [Finset.sum_range (fun e => f (ed e))]
  refine Fintype.sum_equiv ⟨fun i => ed i.val, fun j => j 0, ?_, ?_⟩ _ _ (fun _ => rfl)
  · intro i
    apply Fin.ext
    have h : i.val < 640000 := i.isLt
    show min i.val 639999 = i.val
    omega
  · intro j
    exact ed_coord j

/-- All edges' contributions at a node, as the two filtered sums a scatter-add reads: the flows of the
    edges whose source is the node, and the flows of the edges with distinct end nodes whose destination is
    the node. -/
theorem edges_sum_filter (tab : FVec Ideal S10240 .f32) (src dst : IVec S640000 32) (prob c : FVec Ideal S640000 .f32)
    (n : Fin 10240) :
    ∑ e ∈ Finset.range 640000, edgeAt tab src dst prob c e n =
      ∑ j ∈ Finset.univ.filter (fun j : S640000.Idx => (src j).toNat = n.val), flowIdx tab src prob c j +
      ∑ j ∈ Finset.univ.filter (fun j : S640000.Idx => src j ≠ dst j ∧ (dst j).toNat = n.val), flowIdx tab src prob c j := by
  rw [Finset.sum_filter, Finset.sum_filter, ← Finset.sum_add_distrib]
  exact sum_range_ed (fun j => (if (src j).toNat = n.val then flowIdx tab src prob c j else 0) +
    (if src j ≠ dst j ∧ (dst j).toNat = n.val then flowIdx tab src prob c j else 0))

end Cert.KernelIdeal.SpecIdeal

end
-- ==== Proof.KI.PrepVal.lean ====
/-
  The preparation call's values at the ideal instance, entry by entry.

  The call multiplies a 4 x 128 selection matrix (entry (k, d) is one where d = k and zero elsewhere) with
  the 10000 x 128 node features, contracting the 128 axis: row k of the product is column k of the features.
  In the extended reals zero times anything is zero and one times anything is itself, so the sum over the 128
  contracted entries collapses to the one selected entry whatever the features hold (infinite entries
  included). From the four rows come the squared voltage magnitude (column 0 squared plus column 1 squared),
  the active load (column 2) and the reactive load (column 3), each padded with zeros from 10000 to 10240 entries.
-/
import proofs.«213808_g38010460570139_cont_8to1_b_868_22_alg».proof.Proof.KI.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SpecIdeal

open Idealize.ShloMosaic Idealize.ShloMosaic.ValueIdx Cert.KernelIdeal Cert.KernelIdeal.Gen
open scoped BigOperators

/-! ## The contraction's operand indices, axis by axis

Result index (k, n) and contraction index q: the selection matrix is read at (k, q), the features at (n, q). -/

theorem lhs_sel_0 (i : S4x10000.Idx) (q : dot_S4x128_S10000x128_S4x10000_1_1_0_0_n_n.contr.Idx) :
    (dot_S4x128_S10000x128_S4x10000_1_1_0_0_n_n.lhsIdx i q 0).val = (i 0).val := by
  unfold DotDims.lhsIdx
  rw [dif_neg (show ¬(0 : Fin S4x128.rank) ∈ dot_S4x128_S10000x128_S4x10000_1_1_0_0_n_n.lhsBatch by decide),
    dif_pos (show (0 : Fin S4x128.rank) ∈ dot_S4x128_S10000x128_S4x10000_1_1_0_0_n_n.lhsNonContracting by decide)]
  rfl

theorem lhs_sel_1 (i : S4x10000.Idx) (q : dot_S4x128_S10000x128_S4x10000_1_1_0_0_n_n.contr.Idx) :
    (dot_S4x128_S10000x128_S4x10000_1_1_0_0_n_n.lhsIdx i q 1).val = (q ⟨0, by decide⟩).val :=
  dot_S4x128_S10000x128_S4x10000_1_1_0_0_n_n.lhsIdx_val_of_single rfl i q

theorem rhs_feat_0 (i : S4x10000.Idx) (q : dot_S4x128_S10000x128_S4x10000_1_1_0_0_n_n.contr.Idx) :
    (dot_S4x128_S10000x128_S4x10000_1_1_0_0_n_n.rhsIdx i q 0).val = (i 1).val := by
  unfold DotDims.rhsIdx
  rw [dif_neg (show ¬(0 : Fin S10000x128.rank) ∈ dot_S4x128_S10000x128_S4x10000_1_1_0_0_n_n.rhsBatch by decide),
    dif_pos (show (0 : Fin S10000x128.rank) ∈ dot_S4x128_S10000x128_S4x10000_1_1_0_0_n_n.rhsNonContracting by decide)]
  rfl

theorem rhs_feat_1 (i : S4x10000.Idx) (q : dot_S4x128_S10000x128_S4x10000_1_1_0_0_n_n.contr.Idx) :
    (dot_S4x128_S10000x128_S4x10000_1_1_0_0_n_n.rhsIdx i q 1).val = (q ⟨0, by decide⟩).val :=
  dot_S4x128_S10000x128_S4x10000_1_1_0_0_n_n.rhsIdx_val_of_single rfl i q

/-! ## The selection matrix -/

/-- The word comparing a column number below 128 with a row number below 4 is set exactly where they agree
    (both fit in 32 bits, so the words agree only where the numbers do). -/
theorem cmp_eq_one_iff (d : Fin 128) (k : Fin 4) :
    IntOp.cmpi .eq (BitVec.ofNat 32 d.val) (BitVec.ofNat 32 k.val) = 1 ↔ d.val = k.val := by
  have hd := d.isLt; have hk := k.isLt
  show BitVec.ofBool (BitVec.ofNat 32 d.val == BitVec.ofNat 32 k.val) = 1 ↔ _
  by_cases h : d.val = k.val
  · rw [h, beq_self_eq_true]
    exact ⟨fun _ => rfl, fun _ => rfl⟩
  · have hb : (BitVec.ofNat 32 d.val == BitVec.ofNat 32 k.val) = false := by
      rw [beq_eq_false_iff_ne]
      intro he
      have := congrArg BitVec.toNat he
      simp only [BitVec.toNat_ofNat] at this
      omega
    rw [hb]
    exact ⟨fun h1 => absurd h1 (by decide), fun h1 => absurd h1 h⟩

/-- The f32 word of 1.0 is the extended real one. -/
theorem ofBits_one_f32 : Ideal.ofBits .f32 0x3F800000#32 = 1 := by
  simp [Ideal.ofBits, Ideal.ieee, -EReal.coe_mul]; norm_num

/-- The selection matrix at row k, column d: one where d = k, zero elsewhere. -/
theorem sel_apply (k : Fin 4) (d : Fin 128) :
    (select (cmpi .eq (iota .tc S4x128 32 [1] iota_S4x128_d1_w32) (iota .tc S4x128 32 [0] iota_S4x128_d0_w32))
      (broadcast S4x128 (Scalar.ofBits (F := Ideal) .f32 0x3F800000#32))
      (broadcast S4x128 (Scalar.ofBits (F := Ideal) .f32 0x00000000#32)) : FVec Ideal S4x128 .f32) (ix2 k d)
      = if d.val = k.val then 1 else 0 := by
  rw [select_apply, broadcast_apply, broadcast_apply]
  show Scalar.select (IntOp.cmpi .eq (iota .tc S4x128 32 [1] iota_S4x128_d1_w32 (ix2 k d))
    (iota .tc S4x128 32 [0] iota_S4x128_d0_w32 (ix2 k d))) _ _ = _
  rw [iota_single_apply, iota_single_apply]
  show Scalar.select (IntOp.cmpi .eq (BitVec.ofNat 32 d.val) (BitVec.ofNat 32 k.val))
    (Ideal.ofBits .f32 0x3F800000#32) (Ideal.ofBits .f32 0x00000000#32) = _
  rw [ofBits_one_f32, Ideal.ofBits_zero_f32]
  unfold Scalar.select
  by_cases h : d.val = k.val
  · rw [if_pos ((cmp_eq_one_iff d k).mpr h), if_pos h]
  · rw [if_neg (fun hc => h ((cmp_eq_one_iff d k).mp hc)), if_neg h]

/-- A row of the selection matrix against a row of the features picks one entry: zero times anything is zero
    and one times anything is itself in the extended reals, so no entry need be finite. -/
theorem sum_sel (nf : Vec Ideal S10000x128 .f32) (k : Fin 4) (n : Fin 10000) :
    ∑ c : Fin 128, (if c.val = k.val then (1 : EReal) else 0) * nf (ix2 n c) = nf (ix2 n ⟨k.val, by omega⟩) := by
  rw [Finset.sum_eq_single (⟨k.val, by omega⟩ : Fin 128)]
  · rw [if_pos rfl, one_mul]
  · intro c _ hc
    rw [if_neg (fun h => hc (Fin.ext h)), zero_mul]
  · intro h; exact absurd (Finset.mem_univ _) h

/-! ## The product: row k is column k of the features -/

theorem k0_pay1_apply (nf : Vec Ideal S10000x128 .f32) (k : Fin 4) (n : Fin 10000) :
    k0_pay1 (F := Ideal) nf (ix2 k n) = nf (ix2 n ⟨k.val, by omega⟩) := by
  unfold k0_pay1
  simp only [matmul]
  rw [Ideal.matmul_constant_zero_apply,
    ← Equiv.sum_comp (contrEquiv1 dot_S4x128_S10000x128_S4x10000_1_1_0_0_n_n 128 rfl rfl).symm]
  have hl : ∀ c : Fin 128, dot_S4x128_S10000x128_S4x10000_1_1_0_0_n_n.lhsIdx (ix2 k n)
      ((contrEquiv1 dot_S4x128_S10000x128_S4x10000_1_1_0_0_n_n 128 rfl rfl).symm c) = ix2 k c := fun c =>
    funext fun a => Fin.ext (by
      have hc := contrEquiv1_symm_val dot_S4x128_S10000x128_S4x10000_1_1_0_0_n_n 128 rfl rfl c
      match a with
      | ⟨0, _⟩ => exact lhs_sel_0 _ _
      | ⟨1, _⟩ => exact (lhs_sel_1 _ _).trans hc)
  have hr : ∀ c : Fin 128, dot_S4x128_S10000x128_S4x10000_1_1_0_0_n_n.rhsIdx (ix2 k n)
      ((contrEquiv1 dot_S4x128_S10000x128_S4x10000_1_1_0_0_n_n 128 rfl rfl).symm c) = ix2 n c := fun c =>
    funext fun a => Fin.ext (by
      have hc := contrEquiv1_symm_val dot_S4x128_S10000x128_S4x10000_1_1_0_0_n_n 128 rfl rfl c
      match a with
      | ⟨0, _⟩ => exact rhs_feat_0 _ _
      | ⟨1, _⟩ => exact (rhs_feat_1 _ _).trans hc)
  refine (Finset.sum_congr rfl fun c _ => ?_).trans (sum_sel nf k n)
  rw [hl c, hr c]
  exact congrArg (· * nf (ix2 n c)) (sel_apply k c)

/-! ## The three node vectors the call stores -/

/-- Row k of the product, cut out and flattened, at node n. -/
theorem row_apply (X : FVec Ideal S4x10000 .f32) (k : Fin 4) (h : S4x10000.Slices ![k.val, 0] S1x10000) (n : Fin 10000) :
    shapeCast S10000 (extractStridedSlice S1x10000 ![k.val, 0] X h) shapeCasts_S1x10000_S10000 (ix1 n) = X (ix2 k n) :=
  (shapeCast_1a_a_apply _ _ n).trans (slice2_axis0_apply k.val X h (0 : Fin 1) n k (Nat.add_zero _).symm)

/-- The squared voltage magnitude of node n: column 0 squared plus column 1 squared. -/
theorem k0_pay3_apply (nf : Vec Ideal S10000x128 .f32) (n : Fin 10000) :
    k0_pay3 (F := Ideal) nf (ix1 n)
      = nf (ix2 n (0 : Fin 128)) * nf (ix2 n (0 : Fin 128)) + nf (ix2 n (1 : Fin 128)) * nf (ix2 n (1 : Fin 128)) := by
  unfold k0_pay3
  refine (shapeCast_1a_a_apply _ _ n).trans ?_
  rw [addf_apply, mulf_apply, mulf_apply,
    slice2_axis0_apply 0 _ _ (0 : Fin 1) n (0 : Fin 4) rfl, slice2_axis0_apply 1 _ _ (0 : Fin 1) n (1 : Fin 4) rfl,
    k0_pay1_apply, k0_pay1_apply]
  rfl

/-- The active load of node n: column 2. -/
theorem k0_pay4_apply (nf : Vec Ideal S10000x128 .f32) (n : Fin 10000) :
    k0_pay4 (F := Ideal) nf (ix1 n) = nf (ix2 n (2 : Fin 128)) :=
  (row_apply (k0_pay1 nf) 2 slices_S4x10000_o2_0_S1x10000 n).trans (k0_pay1_apply nf 2 n)

/-- The reactive load of node n: column 3. -/
theorem k0_pay5_apply (nf : Vec Ideal S10000x128 .f32) (n : Fin 10000) :
    k0_pay5 (F := Ideal) nf (ix1 n) = nf (ix2 n (3 : Fin 128)) :=
  (row_apply (k0_pay1 nf) 3 slices_S4x10000_o3_0_S1x10000 n).trans (k0_pay1_apply nf 3 n)

/-! ## The padded vectors: the stored values below 10000, zero from 10000 to 10239 -/

/-- A padded vector below 10000 is the vector. -/
theorem padTo_lt (v : FVec Ideal S10000 .f32) (m : Fin 10240) (h : m.val < 10000) :
    Spec.padTo v (Spec.nd m) = v (ix1 ⟨m.val, h⟩) := by
  show (if h' : ((Spec.nd m) 0).val < 10000 then v (Shape.ofLane (d := ![10000]) ⟨((Spec.nd m) 0).val, h'⟩)
    else Scalar.ofBits .f32 0x00000000#32) = _
  rw [dif_pos (show ((Spec.nd m) 0).val < 10000 from h)]
  exact congrArg v (funext fun a => Fin.ext (by match a with | ⟨0, _⟩ => rfl))

/-- A padded vector from 10000 on is zero. -/
theorem padTo_ge (v : FVec Ideal S10000 .f32) (m : Fin 10240) (h : 10000 ≤ m.val) :
    Spec.padTo v (Spec.nd m) = 0 := by
  show (if h' : ((Spec.nd m) 0).val < 10000 then v (Shape.ofLane (d := ![10000]) ⟨((Spec.nd m) 0).val, h'⟩)
    else Scalar.ofBits .f32 0x00000000#32) = _
  rw [dif_neg (show ¬((Spec.nd m) 0).val < 10000 from Nat.not_lt.mpr h)]
  exact Ideal.ofBits_zero_f32

/-- The squared voltage magnitudes the SparseCore call gathers from, at a node below 10000. -/
theorem prepV2_lt (nf : Vec Ideal S10000x128 .f32) (m : Fin 10240) (h : m.val < 10000) :
    Spec.prepV2 (F := Ideal) nf (Spec.nd m)
      = nf (ix2 (⟨m.val, h⟩ : Fin 10000) (0 : Fin 128)) * nf (ix2 (⟨m.val, h⟩ : Fin 10000) (0 : Fin 128))
        + nf (ix2 (⟨m.val, h⟩ : Fin 10000) (1 : Fin 128)) * nf (ix2 (⟨m.val, h⟩ : Fin 10000) (1 : Fin 128)) :=
  (padTo_lt _ m h).trans (k0_pay3_apply nf ⟨m.val, h⟩)

theorem prepV2_ge (nf : Vec Ideal S10000x128 .f32) (m : Fin 10240) (h : 10000 ≤ m.val) :
    Spec.prepV2 (F := Ideal) nf (Spec.nd m) = 0 :=
  padTo_ge _ m h

/-- The active loads, at a node below 10000. -/
theorem prepPl_lt (nf : Vec Ideal S10000x128 .f32) (m : Fin 10240) (h : m.val < 10000) :
    Spec.prepPl (F := Ideal) nf (Spec.nd m) = nf (ix2 (⟨m.val, h⟩ : Fin 10000) (2 : Fin 128)) :=
  (padTo_lt _ m h).trans (k0_pay4_apply nf ⟨m.val, h⟩)

theorem prepPl_ge (nf : Vec Ideal S10000x128 .f32) (m : Fin 10240) (h : 10000 ≤ m.val) :
    Spec.prepPl (F := Ideal) nf (Spec.nd m) = 0 :=
  padTo_ge _ m h

/-- The reactive loads, at a node below 10000. -/
theorem prepQl_lt (nf : Vec Ideal S10000x128 .f32) (m : Fin 10240) (h : m.val < 10000) :
    Spec.prepQl (F := Ideal) nf (Spec.nd m) = nf (ix2 (⟨m.val, h⟩ : Fin 10000) (3 : Fin 128)) :=
  (padTo_lt _ m h).trans (k0_pay5_apply nf ⟨m.val, h⟩)

theorem prepQl_ge (nf : Vec Ideal S10000x128 .f32) (m : Fin 10240) (h : 10000 ≤ m.val) :
    Spec.prepQl (F := Ideal) nf (Spec.nd m) = 0 :=
  padTo_ge _ m h

/-- Every index of a 10240-vector is a node number's. -/
theorem eq_nd (j : S10240.Idx) : j = Spec.nd (j 0) := by
  funext a; exact Fin.ext (by match a with | ⟨0, _⟩ => rfl)

/-! ## The same, as one case split per vector (for rewriting under a sum over all 10240 entries) -/

theorem prepV2_apply (nf : Vec Ideal S10000x128 .f32) (m : Fin 10240) :
    Spec.prepV2 (F := Ideal) nf (Spec.nd m)
      = if h : m.val < 10000 then
          nf (ix2 (⟨m.val, h⟩ : Fin 10000) (0 : Fin 128)) * nf (ix2 (⟨m.val, h⟩ : Fin 10000) (0 : Fin 128))
            + nf (ix2 (⟨m.val, h⟩ : Fin 10000) (1 : Fin 128)) * nf (ix2 (⟨m.val, h⟩ : Fin 10000) (1 : Fin 128))
        else 0 := by
  by_cases h : m.val < 10000
  · rw [dif_pos h]; exact prepV2_lt nf m h
  · rw [dif_neg h]; exact prepV2_ge nf m (Nat.le_of_not_lt h)

theorem prepPl_apply (nf : Vec Ideal S10000x128 .f32) (m : Fin 10240) :
    Spec.prepPl (F := Ideal) nf (Spec.nd m)
      = if h : m.val < 10000 then nf (ix2 (⟨m.val, h⟩ : Fin 10000) (2 : Fin 128)) else 0 := by
  by_cases h : m.val < 10000
  · rw [dif_pos h]; exact prepPl_lt nf m h
  · rw [dif_neg h]; exact prepPl_ge nf m (Nat.le_of_not_lt h)

theorem prepQl_apply (nf : Vec Ideal S10000x128 .f32) (m : Fin 10240) :
    Spec.prepQl (F := Ideal) nf (Spec.nd m)
      = if h : m.val < 10000 then nf (ix2 (⟨m.val, h⟩ : Fin 10000) (3 : Fin 128)) else 0 := by
  by_cases h : m.val < 10000
  · rw [dif_pos h]; exact prepQl_lt nf m h
  · rw [dif_neg h]; exact prepQl_ge nf m (Nat.le_of_not_lt h)

end Cert.KernelIdeal.SpecIdeal

end
-- ==== Proof.RI.Spec.lean ====
/-
  What the reference computes, as one closed-form function of its four argument arrays at the
  extended reals.

  Every node n has a squared voltage magnitude v2 n = a n * a n + b n * b n (columns 0 and 1 of the
  node features) and a magnitude vm n, its square root. Every edge e has a source and a destination
  node (rows 0 and 1 of the edge index), a probability and two parameters g e and b e. The edge's
  active flow is vm(src e) * vm(src e) / (g e + eps) * prob e, its reactive flow the same over
  b e + eps. A node's flow is the sum of the flows of the edges leaving it plus the sum of the flows
  of the edges entering it that are not self loops. The loss is the mean over the 10000 nodes of
  (active load + active flow)^2 + (reactive load + reactive flow)^2 (loads: columns 2 and 3) plus
  the mean of the squared voltage-limit violations relu(0.95 - vm)^2 + relu(vm - 1.05)^2.

  A node number is read off its 32-bit word unsigned and clamped to the last node; for words in
  0 .. 9999, which is what the programs are run on, that is the word's value.
-/
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx

/-- The small constant both flows' denominators carry (the single-precision value nearest 1e-6). -/
def epsR : EReal := Ideal.ofBits .f32 0x358637BD#32
/-- The number of nodes as the float both means divide by. -/
def nodesR : EReal := Ideal.ofBits .f32 0x461C4000#32
/-- The lower voltage limit (the single-precision value nearest 0.95). -/
def vLo : EReal := Ideal.ofBits .f32 0x3F733333#32
/-- The upper voltage limit (the single-precision value nearest 1.05). -/
def vHi : EReal := Ideal.ofBits .f32 0x3F866666#32

/-- The node a 32-bit word names. -/
def nodeOf (w : BitVec 32) : Fin 10000 := ⟨min w.toNat 9999, by omega⟩

section
variable (nf : (⟨2, ![10000, 128]⟩ : Shape).Idx → EReal) (ei : IVec ⟨2, ![2, 640000]⟩ 32)
  (prob : (⟨1, ![640000]⟩ : Shape).Idx → EReal) (par : (⟨2, ![640000, 2]⟩ : Shape).Idx → EReal)

/-- Squared voltage magnitude of node n. -/
def v2 (n : Fin 10000) : EReal :=
  nf (ix2 n (0 : Fin 128)) * nf (ix2 n (0 : Fin 128)) + nf (ix2 n (1 : Fin 128)) * nf (ix2 n (1 : Fin 128))
/-- Voltage magnitude of node n. -/
def vm (n : Fin 10000) : EReal := Ideal.sqrt (v2 nf n)
/-- The word naming edge e's source node. -/
def srcW (e : Fin 640000) : BitVec 32 := ei (ix2 (0 : Fin 2) e)
/-- The word naming edge e's destination node. -/
def dstW (e : Fin 640000) : BitVec 32 := ei (ix2 (1 : Fin 2) e)
/-- The square of the source node's voltage magnitude, as the reference forms it. -/
def vs (e : Fin 640000) : EReal := vm nf (nodeOf (srcW ei e)) * vm nf (nodeOf (srcW ei e))
/-- Active flow of edge e. -/
def pe (e : Fin 640000) : EReal := Ideal.div (vs nf ei e) (par (ix2 e (0 : Fin 2)) + epsR) * prob (ix1 e)
/-- Reactive flow of edge e. -/
def qe (e : Fin 640000) : EReal := Ideal.div (vs nf ei e) (par (ix2 e (1 : Fin 2)) + epsR) * prob (ix1 e)
/-- The flow node n accumulates from per-edge flows f: every edge leaving n, then every edge
    entering n that is not a self loop. -/
def flow (f : Fin 640000 → EReal) (n : Fin 10000) : EReal :=
  (∑ e : Fin 640000, if (srcW ei e).toNat = n.val then f e else 0)
    + ∑ e : Fin 640000, if (dstW ei e).toNat = n.val then (if srcW ei e = dstW ei e then 0 else f e) else 0
/-- Node n's squared power imbalance. -/
def imbalance (n : Fin 10000) : EReal :=
  (nf (ix2 n (2 : Fin 128)) + flow ei (pe nf ei prob par) n) * (nf (ix2 n (2 : Fin 128)) + flow ei (pe nf ei prob par) n)
    + (nf (ix2 n (3 : Fin 128)) + flow ei (qe nf ei prob par) n) * (nf (ix2 n (3 : Fin 128)) + flow ei (qe nf ei prob par) n)
/-- Node n's squared voltage-limit violations. -/
def violation (n : Fin 10000) : EReal :=
  max (vLo - vm nf n) 0 * max (vLo - vm nf n) 0 + max (vm nf n - vHi) 0 * max (vm nf n - vHi) 0
/-- THE REFERENCE'S RESULT: mean squared power imbalance plus mean squared voltage violation. -/
def refLoss : EReal :=
  Ideal.div (∑ n : Fin 10000, imbalance nf ei prob par n) nodesR + Ideal.div (∑ n : Fin 10000, violation nf n) nodesR
/-- The same as the rank-0 array the program returns. -/
def refLossBuf : (⟨0, ![]⟩ : Shape).Idx → EReal := fun _ => refLoss nf ei prob par

end

/-- A word in 0 .. 9999 names the node of that number. -/
theorem nodeOf_val {w : BitVec 32} (h : w.toNat ≤ 9999) : (nodeOf w).val = w.toNat := by
  show min w.toNat 9999 = w.toNat; omega

/-- A word that reads, signed, in 0 .. 9999 reads the same unsigned. -/
theorem toNat_le_of_toInt {w : BitVec 32} (h0 : 0 ≤ w.toInt) (h1 : w.toInt ≤ 9999) : w.toNat ≤ 9999 := by
  have := w.isLt
  rw [BitVec.toInt_eq_toNat_cond] at h0 h1
  split at h0 <;> omega

end Cert.ReferenceIdeal.RefValue

end
-- ==== Proof.KI.Final.lean ====
/-
  The loss the three calls compute is the loss the reference computes, at the extended reals.

  Kernel side. The loss call's scalar is the sum over the first 10000 nodes of the node's term, divided
  by 10000; the term adds the node's load to the sum of the 32 partial flows, and the 32 partial flows at
  a node sum to every edge's contribution there: the edge's flow if the node is its source, and once more
  if the node is its destination and the edge is no self loop. The edge's flow is the squared voltage
  magnitude at its source times its probability, divided by the parameter plus ε.

  Reference side. The edge's flow is the voltage magnitude at the source squared again, divided by the
  parameter plus ε, times the probability; a node gathers the flows of the edges leaving it and of the
  edges entering it that are no self loops; the loss is the mean squared imbalance plus the mean squared
  limit violation.

  The two agree because (a) the squared magnitude is a sum of two squares of real numbers, so a real
  number that is not negative, and the square of its square root is itself; (b) a quotient by a divisor
  that is not zero is a product with the inverse, so the probability moves out of the dividend;
  (c) squares are not negative, so dividing the sum of the two means' numerators by 10000 is dividing
  each and adding — the one place where the extended reals' multiplication needs a side condition to
  distribute; (d) finite sums may be regrouped freely.
-/
import proofs.«213808_g38010460570139_cont_8to1_b_868_22_alg».proof.Proof.KI.LossVal
import proofs.«213808_g38010460570139_cont_8to1_b_868_22_alg».proof.Proof.KI.AccSumIdeal
import proofs.«213808_g38010460570139_cont_8to1_b_868_22_alg».proof.Proof.KI.PrepVal
import proofs.«213808_g38010460570139_cont_8to1_b_868_22_alg».proof.Proof.RI.Spec
import Idealize.ShloMosaic.PureOps.Ideal.Laws
import Idealize.ShloMosaic.Lib.ValueIdx
import Idealize.ShloMosaic.Lib.ValueLayout
import Idealize.ShloMosaic.Lib.IdealHost

noncomputable section

namespace Cert.KernelIdeal.SpecIdeal

open Idealize.ShloMosaic Idealize.ShloMosaic.ValueIdx Cert.KernelIdeal Cert.KernelIdeal.Gen Cert.ReferenceIdeal
open scoped BigOperators

/-! ## Laws of the extended reals the comparison uses -/

/-- A quotient by a divisor that is not zero is a product with the divisor's inverse, so a right factor
    of the dividend moves out of it. -/
theorem div_mul_right {y : EReal} (hy : y ≠ 0) (a p : EReal) : Ideal.div (a * p) y = Ideal.div a y * p := by
  unfold Ideal.div
  rw [if_neg hy, if_neg hy, mul_assoc, mul_comm p, ← mul_assoc]

/-- The square root of a real number that is not negative, squared, is that number. -/
theorem sqrt_mul_self {r : ℝ} (h : 0 ≤ r) : Ideal.sqrt (r : EReal) * Ideal.sqrt (r : EReal) = (r : EReal) := by
  rw [Ideal.sqrt_coe, if_neg (not_lt.mpr h), ← EReal.coe_mul, Real.mul_self_sqrt h]

/-- A square is not negative, at the infinities too (each squares to positive infinity). -/
theorem mul_self_nonneg_ereal (x : EReal) : 0 ≤ x * x := by
  induction x using EReal.rec with
  | bot => simp
  | coe r => rw [← EReal.coe_mul]; exact EReal.coe_nonneg.mpr (mul_self_nonneg r)
  | top => simp

/-- Dividing by a real number that is not zero distributes over a sum of two terms that are not negative. -/
theorem div_add_of_nonneg {A B : EReal} (hA : 0 ≤ A) (hB : 0 ≤ B) {y : ℝ} (hy : y ≠ 0) :
    Ideal.div (A + B) (y : EReal) = Ideal.div A (y : EReal) + Ideal.div B (y : EReal) := by
  rw [Ideal.div_coe hy, Ideal.div_coe hy, Ideal.div_coe hy, EReal.right_distrib_of_nonneg hA hB]

/-- The sum of the squares of two real numbers is a real number that is not negative. -/
theorem sq_add_sq_real {a b : EReal} (ha : ∃ r : ℝ, a = (r : EReal)) (hb : ∃ r : ℝ, b = (r : EReal)) :
    ∃ r : ℝ, 0 ≤ r ∧ a * a + b * b = (r : EReal) := by
  obtain ⟨x, rfl⟩ := ha
  obtain ⟨y, rfl⟩ := hb
  exact ⟨x * x + y * y, add_nonneg (mul_self_nonneg x) (mul_self_nonneg y), by rw [EReal.coe_add, EReal.coe_mul, EReal.coe_mul]⟩

/-- A term kept under "the ends differ and the destination is the node", as the nested choice
    "destination is the node; then nothing for a self loop". -/
theorem ite_ne_and_eq {α : Type} {a b : α} {B : Prop} [Decidable (a ≠ b ∧ B)] [Decidable (a = b)] [Decidable B]
    (x : EReal) : (if a ≠ b ∧ B then x else 0) = if B then (if a = b then 0 else x) else 0 := by
  by_cases hA : a = b <;> by_cases hB : B <;> simp [hA, hB]

/-! ## The edge arrays at an edge -/

/-- The clamped index of an edge number below 640000 is that edge's index. -/
theorem ed_val (e : Fin 640000) : Spec.ed e.val = (ix1 e : S640000.Idx) := by
  funext a
  match a with
  | ⟨0, _⟩ => exact Fin.ext (by have := e.isLt; show min e.val 639999 = e.val; omega)

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The source word of edge `e` is row 0 of the edge index at `e`. -/
theorem srcOf_apply (ei : Vec Ideal S2x640000 .i32) (e : Fin 640000) :
    Spec.srcOf (F := Ideal) ei (ix1 e) = ei (ix2 (0 : Fin 2) e) :=
  (shapeCast_1a_a_apply _ _ e).trans (slice2_axis0_apply 0 ei _ (0 : Fin 1) e (0 : Fin 2) rfl)

/-- The destination word of edge `e` is row 1 of the edge index at `e`. -/
theorem dstOf_apply (ei : Vec Ideal S2x640000 .i32) (e : Fin 640000) :
    Spec.dstOf (F := Ideal) ei (ix1 e) = ei (ix2 (1 : Fin 2) e) :=
  (shapeCast_1a_a_apply _ _ e).trans (slice2_axis0_apply 1 ei _ (0 : Fin 1) e (1 : Fin 2) rfl)

/-- The first parameter of edge `e` is column 0 of the edge parameters at `e`. -/
theorem gOf_apply (par : Vec Ideal S640000x2 .f32) (e : Fin 640000) :
    Spec.gOf (F := Ideal) par (ix1 e) = par (ix2 e (0 : Fin 2)) :=
  (shapeCast_a1_a_apply _ _ e).trans (slice2_axis1_apply 0 par _ e (0 : Fin 1) (0 : Fin 2) rfl)

/-- The second parameter of edge `e` is column 1 of the edge parameters at `e`. -/
theorem bOf_apply (par : Vec Ideal S640000x2 .f32) (e : Fin 640000) :
    Spec.bOf (F := Ideal) par (ix1 e) = par (ix2 e (1 : Fin 2)) :=
  (shapeCast_a1_a_apply _ _ e).trans (slice2_axis1_apply 1 par _ e (0 : Fin 1) (1 : Fin 2) rfl)

/-! ## One edge's flow -/

section
variable (nf : Vec Ideal S10000x128 .f32) (ei : Vec Ideal S2x640000 .i32) (prob : Vec Ideal S640000 .f32)
  (par : Vec Ideal S640000x2 .f32)

/-- A node's squared voltage magnitude is a real number that is not negative. -/
theorem v2_real (hnf : ∀ j, ∃ r : ℝ, nf j = (r : EReal)) (n : Fin 10000) : ∃ r : ℝ, 0 ≤ r ∧ RefValue.v2 nf n = (r : EReal) :=
  sq_add_sq_real (hnf _) (hnf _)

/-- The table entry a node word of at most 9999 names is that node's squared voltage magnitude. -/
theorem tabAt_eq {w : BitVec 32} (hw : w.toNat ≤ 9999) :
    tabAt (Spec.prepV2 (F := Ideal) nf) w = RefValue.v2 nf (RefValue.nodeOf w) := by
  have h1 : min w.toNat 10239 < 10000 := by omega
  have hn : (⟨min w.toNat 10239, h1⟩ : Fin 10000) = RefValue.nodeOf w :=
    Fin.ext (by show min w.toNat 10239 = min w.toNat 9999; omega)
  refine (prepV2_lt nf ⟨min w.toNat 10239, by omega⟩ h1).trans ?_
  rw [hn]
  rfl

/-- The reference squares the square root of the source's squared magnitude: the squared magnitude. -/
theorem vs_eq (hnf : ∀ j, ∃ r : ℝ, nf j = (r : EReal)) (e : Fin 640000) :
    RefValue.vs nf ei e = RefValue.v2 nf (RefValue.nodeOf (RefValue.srcW ei e)) := by
  obtain ⟨r, hr0, hr⟩ := v2_real nf hnf (RefValue.nodeOf (RefValue.srcW ei e))
  unfold RefValue.vs RefValue.vm
  rw [hr]
  exact sqrt_mul_self hr0

/-- The active flow of an edge, as the tiles form it and as the reference forms it. -/
theorem flow_g_eq (hnf : ∀ j, ∃ r : ℝ, nf j = (r : EReal)) (hidx : ∀ j, (ei j).toNat ≤ 9999)
    (hden : ∀ j, par j + eps ≠ 0) (e : Fin 640000) :
    flow (Spec.prepV2 (F := Ideal) nf) (Spec.srcOf (F := Ideal) ei) prob (Spec.gOf (F := Ideal) par) e.val
      = RefValue.pe nf ei prob par e := by
  unfold flow RefValue.pe
  rw [ed_val, srcOf_apply, gOf_apply, tabAt_eq nf (hidx (ix2 (0 : Fin 2) e)), vs_eq nf ei hnf e]
  exact div_mul_right (hden _) _ _

/-- The reactive flow of an edge likewise. -/
theorem flow_b_eq (hnf : ∀ j, ∃ r : ℝ, nf j = (r : EReal)) (hidx : ∀ j, (ei j).toNat ≤ 9999)
    (hden : ∀ j, par j + eps ≠ 0) (e : Fin 640000) :
    flow (Spec.prepV2 (F := Ideal) nf) (Spec.srcOf (F := Ideal) ei) prob (Spec.bOf (F := Ideal) par) e.val
      = RefValue.qe nf ei prob par e := by
  unfold flow RefValue.qe
  rw [ed_val, srcOf_apply, bOf_apply, tabAt_eq nf (hidx (ix2 (0 : Fin 2) e)), vs_eq nf ei hnf e]
  exact div_mul_right (hden _) _ _

/-! ## All edges at one node -/

/-- What an edge adds at a node, in the reference's words, for per-edge flows `f`. -/
theorem edgeAt_eq (c : FVec Ideal S640000 .f32) (f : Fin 640000 → EReal)
    (hf : ∀ e : Fin 640000, flow (Spec.prepV2 (F := Ideal) nf) (Spec.srcOf (F := Ideal) ei) prob c e.val = f e)
    (e : Fin 640000) (n : Fin 10000) :
    edgeAt (Spec.prepV2 (F := Ideal) nf) (Spec.srcOf (F := Ideal) ei) (Spec.dstOf (F := Ideal) ei) prob c e.val
        (Fin.castLE (by decide) n)
      = (if (RefValue.srcW ei e).toNat = n.val then f e else 0)
        + (if (RefValue.dstW ei e).toNat = n.val then (if RefValue.srcW ei e = RefValue.dstW ei e then 0 else f e) else 0) := by
  unfold edgeAt
  rw [hf e, ed_val, srcOf_apply, dstOf_apply, ite_ne_and_eq]
  rfl

/-- The 32 partial flows at a node, summed, are the node's flow in the reference's words. -/
theorem rows_eq (c : FVec Ideal S640000 .f32) (f : Fin 640000 → EReal)
    (hf : ∀ e : Fin 640000, flow (Spec.prepV2 (F := Ideal) nf) (Spec.srcOf (F := Ideal) ei) prob c e.val = f e)
    (n : Fin 10000) :
    ∑ e ∈ Finset.range 640000, edgeAt (Spec.prepV2 (F := Ideal) nf) (Spec.srcOf (F := Ideal) ei)
        (Spec.dstOf (F := Ideal) ei) prob c e (Fin.castLE (by decide) n)
      = RefValue.flow ei f n := by
  rw [Finset.sum_range (fun e => edgeAt (Spec.prepV2 (F := Ideal) nf) (Spec.srcOf (F := Ideal) ei)
    (Spec.dstOf (F := Ideal) ei) prob c e (Fin.castLE (by decide) n))]
  unfold RefValue.flow
  rw [← Finset.sum_add_distrib]
  exact Finset.sum_congr rfl fun e _ => edgeAt_eq nf ei prob c f hf e n

/-- The active partial flows at a node. -/
theorem rowsP_eq (hnf : ∀ j, ∃ r : ℝ, nf j = (r : EReal)) (hidx : ∀ j, (ei j).toNat ≤ 9999)
    (hden : ∀ j, par j + eps ≠ 0) (n : Fin 10000) :
    ∑ r : Fin 32, (Spec.partsOf (F := Ideal) nf ei prob par).1 (ix2 r (Fin.castLE (by decide) n))
      = RefValue.flow ei (RefValue.pe nf ei prob par) n :=
  (Finset.sum_congr rfl fun r _ => rfl).trans
    ((rows_fst_sum (Spec.prepV2 (F := Ideal) nf) (Spec.srcOf (F := Ideal) ei) (Spec.dstOf (F := Ideal) ei) prob
        (Spec.gOf (F := Ideal) par) (Spec.bOf (F := Ideal) par) (Fin.castLE (by decide) n)).trans
      (rows_eq nf ei prob _ _ (flow_g_eq nf ei prob par hnf hidx hden) n))

/-- The reactive partial flows at a node. -/
theorem rowsQ_eq (hnf : ∀ j, ∃ r : ℝ, nf j = (r : EReal)) (hidx : ∀ j, (ei j).toNat ≤ 9999)
    (hden : ∀ j, par j + eps ≠ 0) (n : Fin 10000) :
    ∑ r : Fin 32, (Spec.partsOf (F := Ideal) nf ei prob par).2 (ix2 r (Fin.castLE (by decide) n))
      = RefValue.flow ei (RefValue.qe nf ei prob par) n :=
  (Finset.sum_congr rfl fun r _ => rfl).trans
    ((rows_snd_sum (Spec.prepV2 (F := Ideal) nf) (Spec.srcOf (F := Ideal) ei) (Spec.dstOf (F := Ideal) ei) prob
        (Spec.gOf (F := Ideal) par) (Spec.bOf (F := Ideal) par) (Fin.castLE (by decide) n)).trans
      (rows_eq nf ei prob _ _ (flow_b_eq nf ei prob par hnf hidx hden) n))

/-! ## The loss -/

/-- A node's term of the kernel's sum is its squared imbalance plus its squared limit violations. -/
theorem lossTerm_eq (hnf : ∀ j, ∃ r : ℝ, nf j = (r : EReal)) (hidx : ∀ j, (ei j).toNat ≤ 9999)
    (hden : ∀ j, par j + eps ≠ 0) (n : Fin 10000) :
    lossTerm (Spec.partsOf (F := Ideal) nf ei prob par).1 (Spec.partsOf (F := Ideal) nf ei prob par).2
        (Spec.prepV2 (F := Ideal) nf) (Spec.prepPl (F := Ideal) nf) (Spec.prepQl (F := Ideal) nf) (Fin.castLE (by decide) n)
      = RefValue.imbalance nf ei prob par n + RefValue.violation nf n := by
  have hlt : (Fin.castLE (by decide : 10000 ≤ 10240) n).val < 10000 := n.isLt
  unfold lossTerm
  rw [rowsP_eq nf ei prob par hnf hidx hden n, rowsQ_eq nf ei prob par hnf hidx hden n, ix1_eq_nd,
    prepPl_lt nf _ hlt, prepQl_lt nf _ hlt, prepV2_lt nf _ hlt]
  exact add_assoc _ _ _

theorem imbalance_nonneg (n : Fin 10000) : 0 ≤ RefValue.imbalance nf ei prob par n :=
  add_nonneg (mul_self_nonneg_ereal _) (mul_self_nonneg_ereal _)

theorem violation_nonneg (n : Fin 10000) : 0 ≤ RefValue.violation nf n :=
  add_nonneg (mul_self_nonneg_ereal _) (mul_self_nonneg_ereal _)

/-- THE KERNEL'S LOSS IS THE REFERENCE'S: for node features that are real numbers, edge ends that are node
    numbers of at most 9999 and denominators that are not zero. -/
theorem lossOf_eq (hnf : ∀ j, ∃ r : ℝ, nf j = (r : EReal)) (hidx : ∀ j, (ei j).toNat ≤ 9999)
    (hden : ∀ j, par j + eps ≠ 0) :
    Spec.lossOf (F := Ideal) nf ei prob par = RefValue.refLoss nf ei prob par := by
  unfold Spec.lossOf
  rw [k2_pay1_eq, Finset.sum_congr rfl (fun n _ => lossTerm_eq nf ei prob par hnf hidx hden n),
    Finset.sum_add_distrib]
  unfold RefValue.refLoss RefValue.nodesR
  rw [ofBits_10000]
  exact div_add_of_nonneg (Finset.sum_nonneg fun n _ => imbalance_nonneg nf ei prob par n)
    (Finset.sum_nonneg fun n _ => violation_nonneg nf n) (by norm_num)

end

end Cert.KernelIdeal.SpecIdeal

end
-- ==== Proof.RI.Lemmas.lean ====
/-
  Two operations of a reference that index a flat table by a column of words, read at one element
  at the ideal values.

  A take of a table at an array of positions prints as a gather whose start indices are the column
  of positions; an accumulation of updates onto a table at an array of positions prints as a scatter
  with an adding body over the same kind of column. At the extended reals the accumulation is exact:
  element i of the result is element i of the operand plus the sum of the updates whose word, read
  signed, is i. Both are stated here over any table length N and any number n of positions, with the
  sums running over the positions Fin n themselves rather than over the index set of the update array.
-/
import Idealize.ShloMosaic.PureOps.Ideal.Laws
import Idealize.ShloMosaic.Lib.ValueIdxRank1
import Idealize.ShloMosaic.Lib.IdealHost
import Idealize.ShloMosaic.Lib.StableHlo.Predicate

noncomputable section

open scoped BigOperators

namespace Cert.ReferenceIdeal.RefValue

open Idealize.ShloMosaic Idealize.ShloMosaic.ValueIdx Idealize.ShloMosaic.StableHlo.Predicate

/-- The rank-1 index at a coordinate, in its two spellings. -/
theorem ofFin_eq_ix1 {n : Nat} (k : Fin n) : Shape.Idx.ofFin k = ix1 k := by
  funext a; match a with | ⟨0, _⟩ => exact Fin.ext rfl

section RowScatter

variable {N n w : Nat} (d : ScatterDims ⟨1, ![N]⟩ ⟨2, ![n, 1]⟩ ⟨1, ![n]⟩)
  (hins : d.insertedWindowDims = [0]) (hsd : d.scatterDimsToOperandDims = [0]) (hivd : d.indexVectorDim = 1)

include hsd hivd in
/-- The start of update j's window on the table's one axis is the word at row j of the column. -/
theorem rowScatter_start (idx : IVec ⟨2, ![n, 1]⟩ w) (j : (⟨1, ![n]⟩ : Shape).Idx) :
    d.start j idx 0 = (idx (ixP (j 0))).toInt := by
  unfold ScatterDims.start
  have hm : (0 : Fin 1) ∈ d.scatterDimsToOperandDims := by rw [hsd]; exact List.mem_singleton.mpr rfl
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

include hins in
/-- The table's one axis is an inserted window axis: the window coordinate on it is zero. -/
theorem rowScatter_window (j : (⟨1, ![n]⟩ : Shape).Idx) : d.window j 0 = 0 := by
  unfold ScatterDims.window
  rw [dif_neg]
  simp [ScatterDims.sKept, Shape.kept, hins]

include hins hsd hivd in
/-- Update j lands on element i exactly when the word at row j, read signed, is i. -/
theorem rowScatter_resultIdx (idx : IVec ⟨2, ![n, 1]⟩ w) (j : (⟨1, ![n]⟩ : Shape).Idx) (i : (⟨1, ![N]⟩ : Shape).Idx) :
    d.resultIdx? j idx = some i ↔ (idx (ixP (j 0))).toInt = ((i 0).val : Int) := by
  have hz : d.start j idx 0 + (d.window j 0 : Int) = (idx (ixP (j 0))).toInt := by
    rw [rowScatter_start d hsd hivd, rowScatter_window d hins]; simp
  unfold ScatterDims.resultIdx?
  by_cases h : ∀ a : Fin 1, 0 ≤ d.start j idx a + d.window j a ∧ d.start j idx a + d.window j a < (⟨1, ![N]⟩ : Shape).size a
  · rw [dif_pos h]
    constructor
    · intro e
      have e0 : (d.start j idx 0 + d.window j 0).toNat = (i 0).val :=
        congrArg (fun f : (⟨1, ![N]⟩ : Shape).Idx => (f 0).val) (Option.some.inj e)
      have h0 := (h 0).1
      rw [← hz]; omega
    · intro e
      congr 1
      funext a
      obtain rfl : a = 0 := Subsingleton.elim _ _
      apply Fin.ext
      show (d.start j idx 0 + d.window j 0).toNat = (i 0).val
      rw [hz, e]; simp
  · rw [dif_neg h]
    constructor
    · intro e; cases e
    · intro e
      exfalso; apply h
      intro a
      obtain rfl : a = 0 := Subsingleton.elim _ _
      rw [hz, e]
      have hlt : (i 0).val < (⟨1, ![N]⟩ : Shape).size 0 := (i 0).isLt
      exact ⟨by omega, by exact_mod_cast hlt⟩

include hins hsd hivd in
/-- THE ACCUMULATION AT ELEMENT i: the operand there plus the updates of the positions whose word is i. -/
theorem hostScatterAdd_row (x : (⟨1, ![N]⟩ : Shape).Idx → EReal) (idx : IVec ⟨2, ![n, 1]⟩ w)
    (upd : (⟨1, ![n]⟩ : Shape).Idx → EReal) (i : (⟨1, ![N]⟩ : Shape).Idx) :
    Ideal.hostScatterAdd d x idx upd i
      = x i + ∑ e : Fin n, if (idx (ixP e)).toInt = ((i 0).val : Int) then upd (ix1 e) else 0 := by
  unfold Ideal.hostScatterAdd
  congr 1
  rw [Finset.sum_filter, ← Equiv.sum_comp (idxEquiv1 (n := n)).symm]
  refine Finset.sum_congr rfl fun e _ => ?_
  have hiff := rowScatter_resultIdx d hins hsd hivd idx ((idxEquiv1 (n := n)).symm e) i
  have he : (idxEquiv1 (n := n)).symm e = ix1 e := rfl
  rw [he] at hiff ⊢
  by_cases hc : (idx (ixP e)).toInt = ((i 0).val : Int)
  · rw [if_pos hc, if_pos (hiff.2 hc)]
  · rw [if_neg hc, if_neg (fun hh => hc (hiff.1 hh))]

end RowScatter

section RowTake

variable {α : Type} {N n w : Nat} (d : GatherDims ⟨1, ![N]⟩ ⟨2, ![n, 1]⟩ ⟨1, ![n]⟩)

/-- THE TAKE AT POSITION p: the table at the word of row p, read signed and clamped into the table. -/
theorem hostGather_row (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p) = x (ix1 ⟨min (idx (ixP p)).toInt.toNat (N - 1), by omega⟩) := by
  rw [← ofFin_eq_ix1, ← ofFin_eq_ix1]
  exact gather_take d hcoll hob hsim hivd x idx p hN

end RowTake

end Cert.ReferenceIdeal.RefValue

end
-- ==== Proof.RI.Edges.lean ====
/-
  The reference's per-node and per-edge values, each read at one node or one edge.

  The columns of the node features and of the edge parameters the reference slices out are the
  arrays' entries at that column; the source and destination words are rows 0 and 1 of the edge
  index. Before every take and every accumulation the reference replaces a negative word w by
  w + 10000; on words in 0 .. 9999 that is the identity, so each column of positions it builds is
  the column of words itself. The take of the voltage magnitudes at the source words then reads the
  magnitude of the node the word names, and the two flows and their masked copies (zero on a self
  loop) are the closed forms of the specification.
-/
import proofs.«213808_g38010460570139_cont_8to1_b_868_22_alg».proof.Proof.Gen.ReferenceIdeal.Read
import proofs.«213808_g38010460570139_cont_8to1_b_868_22_alg».proof.Proof.RI.Lemmas
import proofs.«213808_g38010460570139_cont_8to1_b_868_22_alg».proof.Proof.RI.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo.Predicate

variable (nf : (⟨S10000x128, .f32⟩ : BufTy).Contents (Elt Ideal)) (ei : (⟨S2x640000, .i32⟩ : BufTy).Contents (Elt Ideal))
  (prob : (⟨S640000, .f32⟩ : BufTy).Contents (Elt Ideal)) (par : (⟨S640000x2, .f32⟩ : BufTy).Contents (Elt Ideal))

/-! ## The node columns -/

/-- Column 0 of the node features at node n. -/
theorem col0_apply (n : Fin 10000) : val_main_v5 (F := Ideal) nf (ix1 n) = nf (ix2 n (0 : Fin 128)) := by
  rw [val_main_v5_apply, val_main_v4_apply]
  congr 1
  funext a
  match a with
  | ⟨0, _⟩ => exact Fin.ext (Nat.div_one _)
  | ⟨1, _⟩ => exact Fin.ext rfl

/-- Column 1 of the node features at node n. -/
theorem col1_apply (n : Fin 10000) : val_main_v8 (F := Ideal) nf (ix1 n) = nf (ix2 n (1 : Fin 128)) := by
  rw [val_main_v8_apply, val_main_v7_apply]
  congr 1
  funext a
  match a with
  | ⟨0, _⟩ => exact Fin.ext (Nat.div_one _)
  | ⟨1, _⟩ => exact Fin.ext rfl

/-- Column 2 (the active load) at node n. -/
theorem col2_apply (n : Fin 10000) : val_main_v66 (F := Ideal) nf (ix1 n) = nf (ix2 n (2 : Fin 128)) := by
  rw [val_main_v66_apply, val_main_v65_apply]
  congr 1
  funext a
  match a with
  | ⟨0, _⟩ => exact Fin.ext (Nat.div_one _)
  | ⟨1, _⟩ => exact Fin.ext rfl

/-- Column 3 (the reactive load) at node n. -/
theorem col3_apply (n : Fin 10000) : val_main_v68 (F := Ideal) nf (ix1 n) = nf (ix2 n (3 : Fin 128)) := by
  rw [val_main_v68_apply, val_main_v67_apply]
  congr 1
  funext a
  match a with
  | ⟨0, _⟩ => exact Fin.ext (Nat.div_one _)
  | ⟨1, _⟩ => exact Fin.ext rfl

/-- The voltage magnitude at node n. -/
theorem vm_apply (n : Fin 10000) : val_main_v11 (F := Ideal) nf (ix1 n) = vm nf n := by
  rw [val_main_v11_apply, val_main_v10_apply, val_main_v6_apply, val_main_v9_apply, col0_apply, col1_apply]
  rfl

/-! ## The edge words -/

/-- Row 0 of the edge index at edge e: the source word. -/
theorem src_apply (e : Fin 640000) : val_main_v1 (F := Ideal) ei (ix1 e) = srcW ei e := by
  rw [val_main_v1_apply, val_main_v0_apply]
  unfold srcW
  congr 1
  funext a
  match a with
  | ⟨0, _⟩ => exact Fin.ext rfl
  | ⟨1, _⟩ => exact Fin.ext (Nat.mod_eq_of_lt e.isLt)

/-- Row 1 of the edge index at edge e: the destination word. -/
theorem dst_apply (e : Fin 640000) : val_main_v3 (F := Ideal) ei (ix1 e) = dstW ei e := by
  rw [val_main_v3_apply, val_main_v2_apply]
  unfold dstW
  congr 1
  funext a
  match a with
  | ⟨0, _⟩ => exact Fin.ext rfl
  | ⟨1, _⟩ => exact Fin.ext (Nat.mod_eq_of_lt e.isLt)

/-- Adding 10000 to a negative word leaves a word in 0 .. 9999 as it is. -/
theorem wrap_id {w : BitVec 32} (h : w.toNat ≤ 9999) :
    Scalar.select (IntOp.cmpi .slt w 0#32) (IntOp.addi w 10000#32) w = w := by
  have hn : ¬ IntOp.cmpi .slt w 0#32 = 1#1 := by
    rw [slt_iff_toNat (by omega) (by decide)]; simp
  rw [eq_zero_of_ne_one hn, select_zero]

section Words
variable (hidx : ∀ i, (ei i).toNat ≤ 9999)
include hidx

/-- The positions the take of the voltage magnitudes reads: the source words. -/
theorem pos17_apply (e : Fin 640000) : val_main_v17 (F := Ideal) ei (ixP e) = srcW ei e := by
  rw [val_main_v17_apply]
  have hi : idx_main_v17 (ixP e) = ix1 e := by funext a; match a with | ⟨0, _⟩ => exact Fin.ext rfl
  rw [hi, val_main_v16_apply, val_main_v13_apply, val_main_v15_apply, val_main_v12_apply, val_main_v14_apply,
    val_main_c_apply, val_main_c_0_apply, src_apply]
  exact wrap_id (hidx _)

/-- The positions the first active accumulation writes: the source words. -/
theorem pos39_apply (e : Fin 640000) : val_main_v39 (F := Ideal) ei (ixP e) = srcW ei e := by
  rw [val_main_v39_apply]
  have hi : idx_main_v39 (ixP e) = ix1 e := by funext a; match a with | ⟨0, _⟩ => exact Fin.ext rfl
  rw [hi, val_main_v38_apply, val_main_v35_apply, val_main_v37_apply, val_main_v34_apply, val_main_v36_apply,
    val_main_c_3_apply, val_main_c_4_apply, src_apply]
  exact wrap_id (hidx _)

/-- The positions the second active accumulation writes: the destination words. -/
theorem pos47_apply (e : Fin 640000) : val_main_v47 (F := Ideal) ei (ixP e) = dstW ei e := by
  rw [val_main_v47_apply]
  have hi : idx_main_v47 (ixP e) = ix1 e := by funext a; match a with | ⟨0, _⟩ => exact Fin.ext rfl
  rw [hi, val_main_v46_apply, val_main_v43_apply, val_main_v45_apply, val_main_v42_apply, val_main_v44_apply,
    val_main_c_6_apply, val_main_c_7_apply, dst_apply]
  exact wrap_id (hidx _)

/-- The positions the first reactive accumulation writes: the source words. -/
theorem pos55_apply (e : Fin 640000) : val_main_v55 (F := Ideal) ei (ixP e) = srcW ei e := by
  rw [val_main_v55_apply]
  have hi : idx_main_v55 (ixP e) = ix1 e := by funext a; match a with | ⟨0, _⟩ => exact Fin.ext rfl
  rw [hi, val_main_v54_apply, val_main_v51_apply, val_main_v53_apply, val_main_v50_apply, val_main_v52_apply,
    val_main_c_9_apply, val_main_c_10_apply, src_apply]
  exact wrap_id (hidx _)

/-- The positions the second reactive accumulation writes: the destination words. -/
theorem pos63_apply (e : Fin 640000) : val_main_v63 (F := Ideal) ei (ixP e) = dstW ei e := by
  rw [val_main_v63_apply]
  have hi : idx_main_v63 (ixP e) = ix1 e := by funext a; match a with | ⟨0, _⟩ => exact Fin.ext rfl
  rw [hi, val_main_v62_apply, val_main_v59_apply, val_main_v61_apply, val_main_v58_apply, val_main_v60_apply,
    val_main_c_12_apply, val_main_c_13_apply, dst_apply]
  exact wrap_id (hidx _)

/-- A word of the edge index reads the same signed and unsigned. -/
theorem word_toInt (i : S2x640000.Idx) : (ei i).toInt = ((ei i).toNat : Int) :=
  toInt_eq_toNat_of_lt (by have := hidx i; omega)

/-! ## The take and the flows -/

/-- The source node's voltage magnitude at edge e. -/
theorem take_apply (e : Fin 640000) : val_main_v18 (F := Ideal) nf ei (ix1 e) = vm nf (nodeOf (srcW ei e)) := by
  unfold val_main_v18
  rw [hostGather_row gather_S10000_S640000x1_S640000_n_0_n_n_0_1_1 rfl rfl rfl rfl _ _ e (by decide), vm_apply]
  congr 1
  apply Fin.ext
  have h := word_toInt ei hidx (ix2 (0 : Fin 2) e)
  show min (val_main_v17 (F := Ideal) ei (ixP e)).toInt.toNat (10000 - 1) = min (srcW ei e).toNat 9999
  rw [pos17_apply ei hidx e]
  unfold srcW
  rw [h]; simp

/-- The active flow at edge e. -/
theorem pe_apply (e : Fin 640000) : val_main_v25 (F := Ideal) nf ei prob par (ix1 e) = pe nf ei prob par e := by
  rw [val_main_v25_apply, val_main_v24_apply, val_main_v19_apply, val_main_v23_apply, val_main_v21_apply,
    val_main_v20_apply, val_main_v22_apply, val_main_cst_apply, take_apply nf ei hidx e]
  have hi : idx_main_v20 (idx_main_v21 (ix1 e)) = ix2 e (0 : Fin 2) := by
    funext a
    match a with
    | ⟨0, _⟩ => exact Fin.ext (Nat.div_one _)
    | ⟨1, _⟩ => exact Fin.ext rfl
  rw [hi]
  rfl

/-- The reactive flow at edge e. -/
theorem qe_apply (e : Fin 640000) : val_main_v31 (F := Ideal) nf ei prob par (ix1 e) = qe nf ei prob par e := by
  rw [val_main_v31_apply, val_main_v30_apply, val_main_v19_apply, val_main_v29_apply, val_main_v27_apply,
    val_main_v26_apply, val_main_v28_apply, val_main_cst_1_apply, take_apply nf ei hidx e]
  have hi : idx_main_v26 (idx_main_v27 (ix1 e)) = ix2 e (1 : Fin 2) := by
    funext a
    match a with
    | ⟨0, _⟩ => exact Fin.ext (Nat.div_one _)
    | ⟨1, _⟩ => exact Fin.ext rfl
  rw [hi]
  rfl

/-- The active flow with self loops zeroed, at edge e. -/
theorem peMasked_apply (e : Fin 640000) :
    val_main_v41 (F := Ideal) nf ei prob par (ix1 e) = if srcW ei e = dstW ei e then 0 else pe nf ei prob par e := by
  rw [val_main_v41_apply, val_main_v32_apply, val_main_call0_v1_apply, val_main_call0_v0_apply, val_main_cst_5_apply,
    src_apply, dst_apply, pe_apply nf ei prob par hidx e, Ideal.ofBits_def, Ideal.ofBits_zero_f32]
  by_cases h : srcW ei e = dstW ei e
  · rw [if_pos h, cmpi_eq_iff.2 h, select_one]
  · rw [if_neg h, eq_zero_of_ne_one (fun hh => h (cmpi_eq_iff.1 hh)), select_zero]

/-- The reactive flow with self loops zeroed, at edge e. -/
theorem qeMasked_apply (e : Fin 640000) :
    val_main_v57 (F := Ideal) nf ei prob par (ix1 e) = if srcW ei e = dstW ei e then 0 else qe nf ei prob par e := by
  rw [val_main_v57_apply, val_main_v32_apply, val_main_call1_v1_apply, val_main_call1_v0_apply, val_main_cst_11_apply,
    src_apply, dst_apply, qe_apply nf ei prob par hidx e, Ideal.ofBits_def, Ideal.ofBits_zero_f32]
  by_cases h : srcW ei e = dstW ei e
  · rw [if_pos h, cmpi_eq_iff.2 h, select_one]
  · rw [if_neg h, eq_zero_of_ne_one (fun hh => h (cmpi_eq_iff.1 hh)), select_zero]

end Words

end Cert.ReferenceIdeal.RefValue

end
-- ==== Proof.RI.Nodes.lean ====
/-
  The reference's per-node values, each read at one node.

  The two accumulations onto a zero vector, first of every edge's flow at its source word, then of
  the masked flow at its destination word, leave at node n the sum of the flows of the edges
  leaving n plus the sum of the masked flows of the edges entering n: the node's flow of the
  specification. Adding the load, squaring, and adding the two squares is the node's imbalance; the
  two rectified distances of the voltage magnitude from its limits, squared and added, its violation.
-/
import proofs.«213808_g38010460570139_cont_8to1_b_868_22_alg».proof.Proof.RI.Edges

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo.Predicate

variable (nf : (⟨S10000x128, .f32⟩ : BufTy).Contents (Elt Ideal)) (ei : (⟨S2x640000, .i32⟩ : BufTy).Contents (Elt Ideal))
  (prob : (⟨S640000, .f32⟩ : BufTy).Contents (Elt Ideal)) (par : (⟨S640000x2, .f32⟩ : BufTy).Contents (Elt Ideal))

/-- At the extended reals the accumulating scatter is the exact one. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The voltage-limit violation at node n. -/
theorem violation_apply (n : Fin 10000) : val_main_v84 (F := Ideal) nf (ix1 n) = violation nf n := by
  rw [val_main_v84_apply, val_main_v82_apply, val_main_v83_apply, val_main_v78_apply, val_main_v81_apply,
    val_main_v77_apply, val_main_v80_apply, val_main_v76_apply, val_main_v79_apply, val_main_cst_16_apply,
    val_main_cst_17_apply, val_main_call2_v0_apply, val_main_call2_cst_apply, val_main_call3_v0_apply,
    val_main_call3_cst_apply, vm_apply]
  simp only [Ideal.ofBits_def, Ideal.ofBits_zero_f32]
  rfl

section Words
variable (hidx : ∀ i, (ei i).toNat ≤ 9999)
include hidx

/-- A word of the edge index, read signed, is node n's number exactly when it is so read unsigned. -/
theorem word_eq_iff (i : S2x640000.Idx) (n : Fin 10000) :
    (ei i).toInt = ((((ix1 n : S10000.Idx) 0).val : Nat) : Int) ↔ (ei i).toNat = n.val := by
  rw [word_toInt ei hidx i]
  show ((ei i).toNat : Int) = (n.val : Int) ↔ _
  omega

/-- After the first active accumulation node n holds the flows of the edges leaving it. -/
theorem pOut_apply (n : Fin 10000) :
    val_main_v40 (F := Ideal) nf ei prob par (ix1 n)
      = ∑ e : Fin 640000, if (srcW ei e).toNat = n.val then pe nf ei prob par e else 0 := by
  unfold val_main_v40
  rw [scatterAdd_ideal, hostScatterAdd_row scatter_S10000_S640000x1_S640000_n_0_0_1 rfl rfl rfl, val_main_v33_apply,
    val_main_cst_2_apply, Ideal.ofBits_def, Ideal.ofBits_zero_f32, zero_add]
  refine Finset.sum_congr rfl fun e _ => ?_
  rw [pos39_apply ei hidx e, pe_apply nf ei prob par hidx e]
  exact if_congr (word_eq_iff ei hidx _ n) rfl rfl

/-- After the second active accumulation node n holds its active flow. -/
theorem pflow_apply (n : Fin 10000) :
    val_main_v48 (F := Ideal) nf ei prob par (ix1 n) = flow ei (pe nf ei prob par) n := by
  unfold val_main_v48
  rw [scatterAdd_ideal, hostScatterAdd_row scatter_S10000_S640000x1_S640000_n_0_0_1 rfl rfl rfl, pOut_apply nf ei prob par hidx n]
  unfold flow
  refine congrArg (HAdd.hAdd _) ?_
  refine Finset.sum_congr rfl fun e _ => ?_
  rw [pos47_apply ei hidx e, peMasked_apply nf ei prob par hidx e]
  exact if_congr (word_eq_iff ei hidx _ n) rfl rfl

/-- After the first reactive accumulation node n holds the flows of the edges leaving it. -/
theorem qOut_apply (n : Fin 10000) :
    val_main_v56 (F := Ideal) nf ei prob par (ix1 n)
      = ∑ e : Fin 640000, if (srcW ei e).toNat = n.val then qe nf ei prob par e else 0 := by
  unfold val_main_v56
  rw [scatterAdd_ideal, hostScatterAdd_row scatter_S10000_S640000x1_S640000_n_0_0_1 rfl rfl rfl, val_main_v49_apply,
    val_main_cst_8_apply, Ideal.ofBits_def, Ideal.ofBits_zero_f32, zero_add]
  refine Finset.sum_congr rfl fun e _ => ?_
  rw [pos55_apply ei hidx e, qe_apply nf ei prob par hidx e]
  exact if_congr (word_eq_iff ei hidx _ n) rfl rfl

/-- After the second reactive accumulation node n holds its reactive flow. -/
theorem qflow_apply (n : Fin 10000) :
    val_main_v64 (F := Ideal) nf ei prob par (ix1 n) = flow ei (qe nf ei prob par) n := by
  unfold val_main_v64
  rw [scatterAdd_ideal, hostScatterAdd_row scatter_S10000_S640000x1_S640000_n_0_0_1 rfl rfl rfl, qOut_apply nf ei prob par hidx n]
  unfold flow
  refine congrArg (HAdd.hAdd _) ?_
  refine Finset.sum_congr rfl fun e _ => ?_
  rw [pos63_apply ei hidx e, qeMasked_apply nf ei prob par hidx e]
  exact if_congr (word_eq_iff ei hidx _ n) rfl rfl

/-- The squared power imbalance at node n. -/
theorem imbalance_apply (n : Fin 10000) : val_main_v73 (F := Ideal) nf ei prob par (ix1 n) = imbalance nf ei prob par n := by
  rw [val_main_v73_apply, val_main_v70_apply, val_main_v72_apply, val_main_v69_apply, val_main_v71_apply, col2_apply,
    col3_apply, pflow_apply nf ei prob par hidx n, qflow_apply nf ei prob par hidx n]
  rfl

end Words

end Cert.ReferenceIdeal.RefValue

end
-- ==== Proof.RefValue.lean ====
/-
  The reference's run and its result.

  Every weakly fair execution of the reference ends with its result at the operations' composed
  term of the arguments; read stage by stage down to the nodes and edges, that term is the closed
  form of the specification: the two sums over the 10000 nodes, of the squared power imbalances and
  of the squared voltage-limit violations, each divided by 10000, added. The reading of the takes
  and the accumulations needs the words of the edge index in 0 .. 9999; the run itself, and so the
  frame, does not.
-/
import proofs.«213808_g38010460570139_cont_8to1_b_868_22_alg».proof.Proof.RI.Nodes
import proofs.«213808_g38010460570139_cont_8to1_b_868_22_alg».proof.Defs
import proofs.«213808_g38010460570139_cont_8to1_b_868_22_alg».proof.Proof.Gen.Pre_input_domain

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.SL.Sem

/-- A sum over the index set of a 10000-vector is the sum over the nodes. -/
theorem sum_nodes (f : S10000.Idx → EReal) : ∑ j : S10000.Idx, f j = ∑ n : Fin 10000, f (ix1 n) :=
  (Equiv.sum_comp (idxEquiv1 (n := 10000)).symm f).symm

/-- The single-precision zero word is the extended real zero. -/
theorem zeroBits : FloatOps.ofBits (F := Ideal) .f32 0x00000000#32 = (0 : EReal) := Ideal.ofBits_zero_f32

/-- THE REFERENCE'S TERM IS THE CLOSED FORM, on an edge index whose words are node numbers. -/
theorem ref_eq (nf : (⟨S10000x128, .f32⟩ : BufTy).Contents (Elt Ideal)) (ei : (⟨S2x640000, .i32⟩ : BufTy).Contents (Elt Ideal))
    (prob : (⟨S640000, .f32⟩ : BufTy).Contents (Elt Ideal)) (par : (⟨S640000x2, .f32⟩ : BufTy).Contents (Elt Ideal))
    (hidx : ∀ i, (ei i).toNat ≤ 9999) :
    val_main_v87 (F := Ideal) nf ei prob par = refLossBuf nf ei prob par := by
  funext i
  rw [val_main_v87_apply, val_main_v75_apply, val_main_v86_apply, val_main_v74_apply, val_main_v85_apply,
    val_main_cst_14_apply, val_main_cst_18_apply, val_main_cst_15_apply, val_main_cst_19_apply, sum_nodes, sum_nodes,
    zeroBits, zero_add, zero_add,
    Finset.sum_congr rfl (fun n _ => imbalance_apply nf ei prob par hidx n),
    Finset.sum_congr rfl (fun n _ => violation_apply nf n)]
  rfl

/-- The reference runs to the end and leaves its arguments as they were. -/
theorem frame_ri : Cert.frame_ReferenceIdeal :=
  fun m ρ _ => (θ_run Cert.ReferenceIdeal.defs _ _).mono (fun _ h c => (h c).2) (Cert.ReferenceIdeal.Value.run (F := Ideal) m ρ)

/-- THE REFERENCE'S RUN: from any memory whose edge index holds node numbers, every weakly fair
    execution ends with the result at the closed form of the arguments, the arguments unchanged. -/
theorem ref_run (m : (ℓ : Loc nD τ sig) → Buf (Elt Ideal) ℓ) (ρ : Dev nD → PrngReg)
    (hidx : ∀ (c : Dev nD) i, (m ((c.tc : Thread nD τ).loc main_arg1) i).toNat ≤ 9999) :
    θ_run (Cert.ReferenceIdeal.defs (F := Ideal)) (onTc (τ := τ) (main (F := Ideal))) ⟨m, fun _ => 0, ρ⟩ fun r => ∀ c : Dev nD,
      r.2.mem ((c.tc : Thread nD τ).loc main_v87)
          = refLossBuf (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run Cert.ReferenceIdeal.defs _ _).mono
    (fun _ h c => ⟨(h c).1.trans ((val_main_v87_eq m c).trans (ref_eq _ _ _ _ (hidx c))), (h c).2⟩)
    (Cert.ReferenceIdeal.Value.run (F := Ideal) m ρ)

end Cert.ReferenceIdeal.RefValue

end
-- ==== Proof.KI.Assemble.lean ====
/-
  The algebraic claim from the program's run. The reference's run names its result as the closed form
  of its arguments; the kernel's run names the loss; from memories that agree on the arguments both are
  terms of the same four arrays, and for arguments the precondition admits — real node features, edge
  ends that are node numbers, denominators that are not zero — the loss is the closed form.
-/
import proofs.«213808_g38010460570139_cont_8to1_b_868_22_alg».proof.Proof.KI.Claims
import proofs.«213808_g38010460570139_cont_8to1_b_868_22_alg».proof.Proof.KI.Final
import proofs.«213808_g38010460570139_cont_8to1_b_868_22_alg».proof.Proof.RefValue

noncomputable section

namespace Cert.Proof.KI

open Idealize.ShloMosaic Idealize.SL.Sem

/-- The algebraic claim, given the idealized kernel's run. -/
theorem algebraic_ki_ri (hrun : RunsIdeal) : Cert.algebraic_KernelIdeal_ReferenceIdeal :=
  algebraic_of hrun
    (fun m' c => Cert.ReferenceIdeal.RefValue.refLossBuf (PreFacts.riFeat m' c) (PreFacts.riEnds m' c) (PreFacts.riProb m' c) (PreFacts.riPar m' c))
    (fun m' ρ' hpre' => Cert.ReferenceIdeal.RefValue.ref_run m' ρ' (fun c i => PreFacts.idx_of_Pre_ReferenceIdeal m' c hpre' i))
    (fun m m' hpre hagree c => by
      obtain ⟨h0, h1, h2, h3⟩ := hagree c
      have e0 : PreFacts.riFeat m' c = PreFacts.kiFeat m c := h0
      have e1 : PreFacts.riEnds m' c = PreFacts.kiEnds m c := h1
      have e2 : PreFacts.riProb m' c = PreFacts.kiProb m c := h2
      have e3 : PreFacts.riPar m' c = PreFacts.kiPar m c := h3
      rw [e0, e1, e2, e3]
      funext i
      exact (Cert.KernelIdeal.SpecIdeal.lossOf_eq (PreFacts.kiFeat m c) (PreFacts.kiEnds m c) (PreFacts.kiProb m c) (PreFacts.kiPar m c)
        (PreFacts.finite_of_Pre_KernelIdeal m c hpre).1 (PreFacts.idx_of_Pre_KernelIdeal m c hpre)
        (PreFacts.denom_of_Pre_KernelIdeal m c hpre)).symm)

end Cert.Proof.KI

end
-- ==== Proof.K.ClaimsK.lean ====
/-
  From the word-level program's run to its frame claim. The run's post names, on every device, the
  result array and the four arguments unchanged; the frame claim asks for the arguments only.
-/
import proofs.«213808_g38010460570139_cont_8to1_b_868_22_alg».proof.Proof.K.Finish
import proofs.«213808_g38010460570139_cont_8to1_b_868_22_alg».proof.Defs
import proofs.«213808_g38010460570139_cont_8to1_b_868_22_alg».proof.Proof.Gen.Pre_input_domain

noncomputable section

namespace Cert.Proof.K

open Idealize.ShloMosaic Idealize.SL.Sem

/-- The program's run at the word-level instance, as the launch theorem gives it: from any launch memory
    whose arguments satisfy the printed precondition on every device, to the post `QC`. -/
abbrev RunsBits : Prop :=
  ∀ (m : (ℓ : Loc Cert.Kernel.nD Cert.Kernel.τ Cert.Kernel.sig) → Buf (Elt Bits) ℓ) (ρ : Dev Cert.Kernel.nD → PrngReg),
    (∀ d, Cert.Pre_input_domain.fn (F := Bits) (nfA m d) (eiA m d) (prA m d) (paA m d) = fun _ => 1#1) →
    θ_run (Cert.Kernel.defs (F := Bits)) (Cert.Kernel.threads (F := Bits)) ⟨m, fun _ => 0, ρ⟩ (QC m)

/-- The frame claim: the run with the result dropped. -/
theorem frame_k (hrun : RunsBits) : Cert.frame_Kernel := fun m ρ hpre =>
  (θ_run Cert.Kernel.defs _ _).mono (fun _ h c => (h c).2) (hrun m ρ hpre)

end Cert.Proof.K

end
-- ==== Proof.lean ====
/-
  The certificate's claims, assembled.

  The program computes a power-flow loss over a graph of 10000 nodes and 640000 edges. An edge carries
  the squared voltage magnitude of its source node (the sum of the squares of the node's first two
  features) times the edge's probability, divided by an edge parameter plus 1e-6: once with the first
  parameter for the active flow, once with the second for the reactive flow. A node adds up the flows of
  the edges that leave it and of the edges that enter it and are no self loops; the loss is the mean
  over the nodes of the squared imbalances (load plus flow, active and reactive) plus the mean of the
  squared voltage-limit violations. The kernel spreads the edges over 32 vector subcores, each of which
  accumulates its 20000 edges into its own pair of node arrays; a last call sums the 32 partial arrays
  node by node and finishes the loss.

  The frames. Each thread's body is proved once, at a symbolic place and generic in the float instance,
  and the launch theorem makes of them the run of the whole family of threads: on every device the
  result array ends holding the loss as one term of the four arguments, and the arguments end
  unchanged. The three frame claims are that run, and the reference's, with the result dropped.

  The algebraic claim. At the extended reals the kernel's loss is the reference's. The flow of an edge is
  the same on both sides because x · p / y = (x / y) · p when y is not zero, and because the squared
  magnitude v is a real number that is not negative, so that √v · √v = v. A node's flow is the same
  because finite sums may be regrouped: the 32 partial sums run over disjoint ranges of the edges, and
  together over all of them. The loss is the same because squares are not negative, so that dividing the
  sum of the two numerators by the number of nodes is dividing each and adding. This asks the arguments to
  be finite, the edge ends to be node numbers between 0 and 9999, and — the one conjunct added to the
  stated precondition — no edge parameter plus 1e-6 to be zero: over a zero divisor the two orders of
  dividing and multiplying by the probability need not agree at the extended reals.
-/
import proofs.«213808_g38010460570139_cont_8to1_b_868_22_alg».proof.Defs
import proofs.«213808_g38010460570139_cont_8to1_b_868_22_alg».proof.Proof.Gen.Kernel
import proofs.«213808_g38010460570139_cont_8to1_b_868_22_alg».proof.Proof.Gen.KernelIdeal
import proofs.«213808_g38010460570139_cont_8to1_b_868_22_alg».proof.Proof.Gen.ReferenceIdeal
import proofs.«213808_g38010460570139_cont_8to1_b_868_22_alg».proof.Proof.Gen.Pre_input_domain
import proofs.«213808_g38010460570139_cont_8to1_b_868_22_alg».proof.Proof.KI.Run
import proofs.«213808_g38010460570139_cont_8to1_b_868_22_alg».proof.Proof.K.Run
import proofs.«213808_g38010460570139_cont_8to1_b_868_22_alg».proof.Proof.KI.Assemble
import proofs.«213808_g38010460570139_cont_8to1_b_868_22_alg».proof.Proof.K.ClaimsK

noncomputable section

namespace Cert.Proof

open Idealize.ShloMosaic Idealize.SL.Sem

/-- The idealized kernel's run, from the launch theorem at the extended reals. -/
theorem runs_ideal : KI.RunsIdeal := fun m ρ hpre => KI.run_main (F := Ideal) m ρ hpre

/-- The word-level kernel's run, from the launch theorem at the word-level instance. -/
theorem runs_bits : K.RunsBits := fun m ρ hpre => K.run_main (F := Bits) m ρ hpre

theorem claim : Cert.Claim :=
  ⟨Cert.Kernel.Gen.facts, Cert.KernelIdeal.Gen.facts, Cert.ReferenceIdeal.Gen.facts, Cert.Pre_input_domain.Gen.facts,
    K.frame_k runs_bits, KI.frame_ki runs_ideal, Cert.ReferenceIdeal.RefValue.frame_ri, trivial, KI.algebraic_ki_ri runs_ideal⟩

end Cert.Proof

end
